-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v307)) (v1 : (c : Dev Cert.KernelIdeal.nD) → Buf (Elt Ideal) ((c.tc : Thread Cert.KernelIdeal.nD Cert.KernelIdeal.τ).loc Cert.KernelIdeal.main_v157)) (v2 : (c : Dev Cert.KernelIdeal.nD) → Buf (Elt Ideal) ((c.tc : Thread Cert.KernelIdeal.nD Cert.KernelIdeal.τ).loc Cert.KernelIdeal.main_v214)) (v3 : (c : Dev Cert.KernelIdeal.nD) → Buf (Elt Ideal) ((c.tc : Thread Cert.KernelIdeal.nD Cert.KernelIdeal.τ).loc Cert.KernelIdeal.main_v319)) (v4 : (c : Dev Cert.KernelIdeal.nD) → Buf (Elt Ideal) ((c.tc : Thread Cert.KernelIdeal.nD Cert.KernelIdeal.τ).loc Cert.KernelIdeal.main_v219)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v307) = v0 c
          ∧ r.2.mem ((c.tc : Thread Cert.KernelIdeal.nD Cert.KernelIdeal.τ).loc Cert.KernelIdeal.main_v157) = v1 c
          ∧ r.2.mem ((c.tc : Thread Cert.KernelIdeal.nD Cert.KernelIdeal.τ).loc Cert.KernelIdeal.main_v214) = v2 c
          ∧ r.2.mem ((c.tc : Thread Cert.KernelIdeal.nD Cert.KernelIdeal.τ).loc Cert.KernelIdeal.main_v319) = v3 c
          ∧ r.2.mem ((c.tc : Thread Cert.KernelIdeal.nD Cert.KernelIdeal.τ).loc Cert.KernelIdeal.main_v219) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v307) = v0 c
          ∧ r.2.mem ((c.tc : Thread Cert.ReferenceIdeal.nD Cert.ReferenceIdeal.τ).loc Cert.ReferenceIdeal.main_v126) = v1 c
          ∧ r.2.mem ((c.tc : Thread Cert.ReferenceIdeal.nD Cert.ReferenceIdeal.τ).loc Cert.ReferenceIdeal.main_v218) = v2 c
          ∧ r.2.mem ((c.tc : Thread Cert.ReferenceIdeal.nD Cert.ReferenceIdeal.τ).loc Cert.ReferenceIdeal.main_v325) = v3 c
          ∧ r.2.mem ((c.tc : Thread Cert.ReferenceIdeal.nD Cert.ReferenceIdeal.τ).loc Cert.ReferenceIdeal.main_v219) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x14 : Shape := ⟨2, ![1, 14]⟩
abbrev S1x1000000 : Shape := ⟨2, ![1, 1000000]⟩
abbrev S1000000x20 : Shape := ⟨2, ![1000000, 20]⟩
abbrev S1x20 : Shape := ⟨2, ![1, 20]⟩
abbrev S48x14 : Shape := ⟨2, ![48, 14]⟩
abbrev S48 : Shape := ⟨1, ![48]⟩
abbrev S72x48 : Shape := ⟨2, ![72, 48]⟩
abbrev S72 : Shape := ⟨1, ![72]⟩
abbrev S92x72 : Shape := ⟨2, ![92, 72]⟩
abbrev S92 : Shape := ⟨1, ![92]⟩
abbrev S3x72 : Shape := ⟨2, ![3, 72]⟩
abbrev S3 : Shape := ⟨1, ![3]⟩
abbrev S20x325 : Shape := ⟨2, ![20, 325]⟩
abbrev S20 : Shape := ⟨1, ![20]⟩
abbrev S110x40 : Shape := ⟨2, ![110, 40]⟩
abbrev S110 : Shape := ⟨1, ![110]⟩
abbrev S190x110 : Shape := ⟨2, ![190, 110]⟩
abbrev S190 : Shape := ⟨1, ![190]⟩
abbrev S270x190 : Shape := ⟨2, ![270, 190]⟩
abbrev S270 : Shape := ⟨1, ![270]⟩
abbrev S325x270 : Shape := ⟨2, ![325, 270]⟩
abbrev S325 : Shape := ⟨1, ![325]⟩
abbrev S_ : Shape := ⟨0, ![]⟩

class Facts : Prop where
  bcast_S_S1x14 : S_.BroadcastsInDim S1x14 (![] : Fin 0 → Fin S1x14.rank)
  reducesTo_S1x14_S_d0_1 : S1x14.ReducesTo [0, 1] S_
  h_S_ : 0 < S_.numel
  bcast_S_S1x1000000 : S_.BroadcastsInDim S1x1000000 (![] : Fin 0 → Fin S1x1000000.rank)
  reducesTo_S1x1000000_S_d0_1 : S1x1000000.ReducesTo [0, 1] S_
  bcast_S_S1000000x20 : S_.BroadcastsInDim S1000000x20 (![] : Fin 0 → Fin S1000000x20.rank)
  reducesTo_S1000000x20_S_d0_1 : S1000000x20.ReducesTo [0, 1] S_
  bcast_S_S1x20 : S_.BroadcastsInDim S1x20 (![] : Fin 0 → Fin S1x20.rank)
  reducesTo_S1x20_S_d0_1 : S1x20.ReducesTo [0, 1] S_
  bcast_S_S48x14 : S_.BroadcastsInDim S48x14 (![] : Fin 0 → Fin S48x14.rank)
  reducesTo_S48x14_S_d0_1 : S48x14.ReducesTo [0, 1] S_
  bcast_S_S48 : S_.BroadcastsInDim S48 (![] : Fin 0 → Fin S48.rank)
  reducesTo_S48_S_d0 : S48.ReducesTo [0] S_
  bcast_S_S72x48 : S_.BroadcastsInDim S72x48 (![] : Fin 0 → Fin S72x48.rank)
  reducesTo_S72x48_S_d0_1 : S72x48.ReducesTo [0, 1] S_
  bcast_S_S72 : S_.BroadcastsInDim S72 (![] : Fin 0 → Fin S72.rank)
  reducesTo_S72_S_d0 : S72.ReducesTo [0] S_
  bcast_S_S92x72 : S_.BroadcastsInDim S92x72 (![] : Fin 0 → Fin S92x72.rank)
  reducesTo_S92x72_S_d0_1 : S92x72.ReducesTo [0, 1] S_
  bcast_S_S92 : S_.BroadcastsInDim S92 (![] : Fin 0 → Fin S92.rank)
  reducesTo_S92_S_d0 : S92.ReducesTo [0] S_
  bcast_S_S3x72 : S_.BroadcastsInDim S3x72 (![] : Fin 0 → Fin S3x72.rank)
  reducesTo_S3x72_S_d0_1 : S3x72.ReducesTo [0, 1] S_
  bcast_S_S3 : S_.BroadcastsInDim S3 (![] : Fin 0 → Fin S3.rank)
  reducesTo_S3_S_d0 : S3.ReducesTo [0] S_
  bcast_S_S20x325 : S_.BroadcastsInDim S20x325 (![] : Fin 0 → Fin S20x325.rank)
  reducesTo_S20x325_S_d0_1 : S20x325.ReducesTo [0, 1] S_
  bcast_S_S20 : S_.BroadcastsInDim S20 (![] : Fin 0 → Fin S20.rank)
  reducesTo_S20_S_d0 : S20.ReducesTo [0] S_
  bcast_S_S110x40 : S_.BroadcastsInDim S110x40 (![] : Fin 0 → Fin S110x40.rank)
  reducesTo_S110x40_S_d0_1 : S110x40.ReducesTo [0, 1] S_
  bcast_S_S110 : S_.BroadcastsInDim S110 (![] : Fin 0 → Fin S110.rank)
  reducesTo_S110_S_d0 : S110.ReducesTo [0] S_
  bcast_S_S190x110 : S_.BroadcastsInDim S190x110 (![] : Fin 0 → Fin S190x110.rank)
  reducesTo_S190x110_S_d0_1 : S190x110.ReducesTo [0, 1] S_
  bcast_S_S190 : S_.BroadcastsInDim S190 (![] : Fin 0 → Fin S190.rank)
  reducesTo_S190_S_d0 : S190.ReducesTo [0] S_
  bcast_S_S270x190 : S_.BroadcastsInDim S270x190 (![] : Fin 0 → Fin S270x190.rank)
  reducesTo_S270x190_S_d0_1 : S270x190.ReducesTo [0, 1] S_
  bcast_S_S270 : S_.BroadcastsInDim S270 (![] : Fin 0 → Fin S270.rank)
  reducesTo_S270_S_d0 : S270.ReducesTo [0] S_
  bcast_S_S325x270 : S_.BroadcastsInDim S325x270 (![] : Fin 0 → Fin S325x270.rank)
  reducesTo_S325x270_S_d0_1 : S325x270.ReducesTo [0, 1] S_
  bcast_S_S325 : S_.BroadcastsInDim S325 (![] : Fin 0 → Fin S325.rank)
  reducesTo_S325_S_d0 : S325.ReducesTo [0] S_

variable [Facts]

def fn_part8 {F : FTy → Type} [FloatOps F] (main_arg28 : FVec F S270 .f32) (main_arg29 : FVec F S325x270 .f32) (main_arg30 : FVec F S325 .f32) (main_v133 : IVec S_ 1) (main_v136 : IVec S270x190 1) : IVec S_ 1 :=
  let main_c_53 : IVec S_ 1 := constantI S_ 1 1#1
  let main_v137 : IVec S_ 1 := (fun x v => Host.reduce IntOp.andi x v reducesTo_S270x190_S_d0_1 h_S_) main_v136 main_c_53
  let main_v138 : IVec S_ 1 := andi main_v133 main_v137
  let main_v139 : FVec F S270 .f32 := Host.absf main_arg28
  let main_cst_54 : FVec F S_ .f32 := constant S_ .f32 0x7F800000#32
  let main_v140 : FVec F S270 .f32 := broadcastInDim S270 ![] bcast_S_S270 main_cst_54
  let main_v141 : IVec S270 1 := cmpf .olt main_v139 main_v140
  let main_c_55 : IVec S_ 1 := constantI S_ 1 1#1
  let main_v142 : IVec S_ 1 := (fun x v => Host.reduce IntOp.andi x v reducesTo_S270_S_d0 h_S_) main_v141 main_c_55
  let main_v143 : IVec S_ 1 := andi main_v138 main_v142
  let main_v144 : FVec F S325x270 .f32 := Host.absf main_arg29
  let main_cst_56 : FVec F S_ .f32 := constant S_ .f32 0x7F800000#32
  let main_v145 : FVec F S325x270 .f32 := broadcastInDim S325x270 ![] bcast_S_S325x270 main_cst_56
  let main_v146 : IVec S325x270 1 := cmpf .olt main_v144 main_v145
  let main_c_57 : IVec S_ 1 := constantI S_ 1 1#1
  let main_v147 : IVec S_ 1 := (fun x v => Host.reduce IntOp.andi x v reducesTo_S325x270_S_d0_1 h_S_) main_v146 main_c_57
  let main_v148 : IVec S_ 1 := andi main_v143 main_v147
  let main_v149 : FVec F S325 .f32 := Host.absf main_arg30
  let main_cst_58 : FVec F S_ .f32 := constant S_ .f32 0x7F800000#32
  let main_v150 : FVec F S325 .f32 := broadcastInDim S325 ![] bcast_S_S325 main_cst_58
  let main_v151 : IVec S325 1 := cmpf .olt main_v149 main_v150
  let main_c_59 : IVec S_ 1 := constantI S_ 1 1#1
  let main_v152 : IVec S_ 1 := (fun x v => Host.reduce IntOp.andi x v reducesTo_S325_S_d0 h_S_) main_v151 main_c_59
  let main_v153 : IVec S_ 1 := andi main_v148 main_v152
  main_v153

def fn_part7 {F : FTy → Type} [FloatOps F] (main_arg25 : FVec F S190x110 .f32) (main_arg26 : FVec F S190 .f32) (main_arg27 : FVec F S270x190 .f32) (main_arg28 : FVec F S270 .f32) (main_arg29 : FVec F S325x270 .f32) (main_arg30 : FVec F S325 .f32) (main_v118 : IVec S_ 1) (main_v119 : FVec F S110 .f32) : IVec S_ 1 :=
  let main_cst_46 : FVec F S_ .f32 := constant S_ .f32 0x7F800000#32
  let main_v120 : FVec F S110 .f32 := broadcastInDim S110 ![] bcast_S_S110 main_cst_46
  let main_v121 : IVec S110 1 := cmpf .olt main_v119 main_v120
  let main_c_47 : IVec S_ 1 := constantI S_ 1 1#1
  let main_v122 : IVec S_ 1 := (fun x v => Host.reduce IntOp.andi x v reducesTo_S110_S_d0 h_S_) main_v121 main_c_47
  let main_v123 : IVec S_ 1 := andi main_v118 main_v122
  let main_v124 : FVec F S190x110 .f32 := Host.absf main_arg25
  let main_cst_48 : FVec F S_ .f32 := constant S_ .f32 0x7F800000#32
  let main_v125 : FVec F S190x110 .f32 := broadcastInDim S190x110 ![] bcast_S_S190x110 main_cst_48
  let main_v126 : IVec S190x110 1 := cmpf .olt main_v124 main_v125
  let main_c_49 : IVec S_ 1 := constantI S_ 1 1#1
  let main_v127 : IVec S_ 1 := (fun x v => Host.reduce IntOp.andi x v reducesTo_S190x110_S_d0_1 h_S_) main_v126 main_c_49
  let main_v128 : IVec S_ 1 := andi main_v123 main_v127
  let main_v129 : FVec F S190 .f32 := Host.absf main_arg26
  let main_cst_50 : FVec F S_ .f32 := constant S_ .f32 0x7F800000#32
  let main_v130 : FVec F S190 .f32 := broadcastInDim S190 ![] bcast_S_S190 main_cst_50
  let main_v131 : IVec S190 1 := cmpf .olt main_v129 main_v130
  let main_c_51 : IVec S_ 1 := constantI S_ 1 1#1
  let main_v132 : IVec S_ 1 := (fun x v => Host.reduce IntOp.andi x v reducesTo_S190_S_d0 h_S_) main_v131 main_c_51
  let main_v133 : IVec S_ 1 := andi main_v128 main_v132
  let main_v134 : FVec F S270x190 .f32 := Host.absf main_arg27
  let main_cst_52 : FVec F S_ .f32 := constant S_ .f32 0x7F800000#32
  let main_v135 : FVec F S270x190 .f32 := broadcastInDim S270x190 ![] bcast_S_S270x190 main_cst_52
  let main_v136 : IVec S270x190 1 := cmpf .olt main_v134 main_v135
  fn_part8 (F := F) main_arg28 main_arg29 main_arg30 main_v133 main_v136

def fn_part6 {F : FTy → Type} [FloatOps F] (main_arg21 : FVec F S325x270 .f32) (main_arg22 : FVec F S325 .f32) (main_arg23 : FVec F S110x40 .f32) (main_arg24 : FVec F S110 .f32) (main_arg25 : FVec F S190x110 .f32) (main_arg26 : FVec F S190 .f32) (main_arg27 : FVec F S270x190 .f32) (main_arg28 : FVec F S270 .f32) (main_arg29 : FVec F S325x270 .f32) (main_arg30 : FVec F S325 .f32) (main_v98 : IVec S_ 1) (main_v101 : IVec S270 1) (main_c_39 : IVec S_ 1) : IVec S_ 1 :=
  let main_v102 : IVec S_ 1 := (fun x v => Host.reduce IntOp.andi x v reducesTo_S270_S_d0 h_S_) main_v101 main_c_39
  let main_v103 : IVec S_ 1 := andi main_v98 main_v102
  let main_v104 : FVec F S325x270 .f32 := Host.absf main_arg21
  let main_cst_40 : FVec F S_ .f32 := constant S_ .f32 0x7F800000#32
  let main_v105 : FVec F S325x270 .f32 := broadcastInDim S325x270 ![] bcast_S_S325x270 main_cst_40
  let main_v106 : IVec S325x270 1 := cmpf .olt main_v104 main_v105
  let main_c_41 : IVec S_ 1 := constantI S_ 1 1#1
  let main_v107 : IVec S_ 1 := (fun x v => Host.reduce IntOp.andi x v reducesTo_S325x270_S_d0_1 h_S_) main_v106 main_c_41
  let main_v108 : IVec S_ 1 := andi main_v103 main_v107
  let main_v109 : FVec F S325 .f32 := Host.absf main_arg22
  let main_cst_42 : FVec F S_ .f32 := constant S_ .f32 0x7F800000#32
  let main_v110 : FVec F S325 .f32 := broadcastInDim S325 ![] bcast_S_S325 main_cst_42
  let main_v111 : IVec S325 1 := cmpf .olt main_v109 main_v110
  let main_c_43 : IVec S_ 1 := constantI S_ 1 1#1
  let main_v112 : IVec S_ 1 := (fun x v => Host.reduce IntOp.andi x v reducesTo_S325_S_d0 h_S_) main_v111 main_c_43
  let main_v113 : IVec S_ 1 := andi main_v108 main_v112
  let main_v114 : FVec F S110x40 .f32 := Host.absf main_arg23
  let main_cst_44 : FVec F S_ .f32 := constant S_ .f32 0x7F800000#32
  let main_v115 : FVec F S110x40 .f32 := broadcastInDim S110x40 ![] bcast_S_S110x40 main_cst_44
  let main_v116 : IVec S110x40 1 := cmpf .olt main_v114 main_v115
  let main_c_45 : IVec S_ 1 := constantI S_ 1 1#1
  let main_v117 : IVec S_ 1 := (fun x v => Host.reduce IntOp.andi x v reducesTo_S110x40_S_d0_1 h_S_) main_v116 main_c_45
  let main_v118 : IVec S_ 1 := andi main_v113 main_v117
  let main_v119 : FVec F S110 .f32 := Host.absf main_arg24
  fn_part7 (F := F) main_arg25 main_arg26 main_arg27 main_arg28 main_arg29 main_arg30 main_v118 main_v119

def fn_part5 {F : FTy → Type} [FloatOps F] (main_arg18 : FVec F S190 .f32) (main_arg19 : FVec F S270x190 .f32) (main_arg20 : FVec F S270 .f32) (main_arg21 : FVec F S325x270 .f32) (main_arg22 : FVec F S325 .f32) (main_arg23 : FVec F S110x40 .f32) (main_arg24 : FVec F S110 .f32) (main_arg25 : FVec F S190x110 .f32) (main_arg26 : FVec F S190 .f32) (main_arg27 : FVec F S270x190 .f32) (main_arg28 : FVec F S270 .f32) (main_arg29 : FVec F S325x270 .f32) (main_arg30 : FVec F S325 .f32) (main_v83 : IVec S_ 1) (main_v84 : FVec F S190x110 .f32) (main_cst_32 : FVec F S_ .f32) : IVec S_ 1 :=
  let main_v85 : FVec F S190x110 .f32 := broadcastInDim S190x110 ![] bcast_S_S190x110 main_cst_32
  let main_v86 : IVec S190x110 1 := cmpf .olt main_v84 main_v85
  let main_c_33 : IVec S_ 1 := constantI S_ 1 1#1
  let main_v87 : IVec S_ 1 := (fun x v => Host.reduce IntOp.andi x v reducesTo_S190x110_S_d0_1 h_S_) main_v86 main_c_33
  let main_v88 : IVec S_ 1 := andi main_v83 main_v87
  let main_v89 : FVec F S190 .f32 := Host.absf main_arg18
  let main_cst_34 : FVec F S_ .f32 := constant S_ .f32 0x7F800000#32
  let main_v90 : FVec F S190 .f32 := broadcastInDim S190 ![] bcast_S_S190 main_cst_34
  let main_v91 : IVec S190 1 := cmpf .olt main_v89 main_v90
  let main_c_35 : IVec S_ 1 := constantI S_ 1 1#1
  let main_v92 : IVec S_ 1 := (fun x v => Host.reduce IntOp.andi x v reducesTo_S190_S_d0 h_S_) main_v91 main_c_35
  let main_v93 : IVec S_ 1 := andi main_v88 main_v92
  let main_v94 : FVec F S270x190 .f32 := Host.absf main_arg19
  let main_cst_36 : FVec F S_ .f32 := constant S_ .f32 0x7F800000#32
  let main_v95 : FVec F S270x190 .f32 := broadcastInDim S270x190 ![] bcast_S_S270x190 main_cst_36
  let main_v96 : IVec S270x190 1 := cmpf .olt main_v94 main_v95
  let main_c_37 : IVec S_ 1 := constantI S_ 1 1#1
  let main_v97 : IVec S_ 1 := (fun x v => Host.reduce IntOp.andi x v reducesTo_S270x190_S_d0_1 h_S_) main_v96 main_c_37
  let main_v98 : IVec S_ 1 := andi main_v93 main_v97
  let main_v99 : FVec F S270 .f32 := Host.absf main_arg20
  let main_cst_38 : FVec F S_ .f32 := constant S_ .f32 0x7F800000#32
  let main_v100 : FVec F S270 .f32 := broadcastInDim S270 ![] bcast_S_S270 main_cst_38
  let main_v101 : IVec S270 1 := cmpf .olt main_v99 main_v100
  let main_c_39 : IVec S_ 1 := constantI S_ 1 1#1
  fn_part6 (F := F) main_arg21 main_arg22 main_arg23 main_arg24 main_arg25 main_arg26 main_arg27 main_arg28 main_arg29 main_arg30 main_v98 main_v101 main_c_39

def fn_part4 {F : FTy → Type} [FloatOps F] (main_arg14 : FVec F S20 .f32) (main_arg15 : FVec F S110x40 .f32) (main_arg16 : FVec F S110 .f32) (main_arg17 : FVec F S190x110 .f32) (main_arg18 : FVec F S190 .f32) (main_arg19 : FVec F S270x190 .f32) (main_arg20 : FVec F S270 .f32) (main_arg21 : FVec F S325x270 .f32) (main_arg22 : FVec F S325 .f32) (main_arg23 : FVec F S110x40 .f32) (main_arg24 : FVec F S110 .f32) (main_arg25 : FVec F S190x110 .f32) (main_arg26 : FVec F S190 .f32) (main_arg27 : FVec F S270x190 .f32) (main_arg28 : FVec F S270 .f32) (main_arg29 : FVec F S325x270 .f32) (main_arg30 : FVec F S325 .f32) (main_v63 : IVec S_ 1) (main_v67 : IVec S_ 1) : IVec S_ 1 :=
  let main_v68 : IVec S_ 1 := andi main_v63 main_v67
  let main_v69 : FVec F S20 .f32 := Host.absf main_arg14
  let main_cst_26 : FVec F S_ .f32 := constant S_ .f32 0x7F800000#32
  let main_v70 : FVec F S20 .f32 := broadcastInDim S20 ![] bcast_S_S20 main_cst_26
  let main_v71 : IVec S20 1 := cmpf .olt main_v69 main_v70
  let main_c_27 : IVec S_ 1 := constantI S_ 1 1#1
  let main_v72 : IVec S_ 1 := (fun x v => Host.reduce IntOp.andi x v reducesTo_S20_S_d0 h_S_) main_v71 main_c_27
  let main_v73 : IVec S_ 1 := andi main_v68 main_v72
  let main_v74 : FVec F S110x40 .f32 := Host.absf main_arg15
  let main_cst_28 : FVec F S_ .f32 := constant S_ .f32 0x7F800000#32
  let main_v75 : FVec F S110x40 .f32 := broadcastInDim S110x40 ![] bcast_S_S110x40 main_cst_28
  let main_v76 : IVec S110x40 1 := cmpf .olt main_v74 main_v75
  let main_c_29 : IVec S_ 1 := constantI S_ 1 1#1
  let main_v77 : IVec S_ 1 := (fun x v => Host.reduce IntOp.andi x v reducesTo_S110x40_S_d0_1 h_S_) main_v76 main_c_29
  let main_v78 : IVec S_ 1 := andi main_v73 main_v77
  let main_v79 : FVec F S110 .f32 := Host.absf main_arg16
  let main_cst_30 : FVec F S_ .f32 := constant S_ .f32 0x7F800000#32
  let main_v80 : FVec F S110 .f32 := broadcastInDim S110 ![] bcast_S_S110 main_cst_30
  let main_v81 : IVec S110 1 := cmpf .olt main_v79 main_v80
  let main_c_31 : IVec S_ 1 := constantI S_ 1 1#1
  let main_v82 : IVec S_ 1 := (fun x v => Host.reduce IntOp.andi x v reducesTo_S110_S_d0 h_S_) main_v81 main_c_31
  let main_v83 : IVec S_ 1 := andi main_v78 main_v82
  let main_v84 : FVec F S190x110 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_arg30 main_v83 main_v84 main_cst_32

def fn_part3 {F : FTy → Type} [FloatOps F] (main_arg11 : FVec F S3x72 .f32) (main_arg12 : FVec F S3 .f32) (main_arg13 : FVec F S20x325 .f32) (main_arg14 : FVec F S20 .f32) (main_arg15 : FVec F S110x40 .f32) (main_arg16 : FVec F S110 .f32) (main_arg17 : FVec F S190x110 .f32) (main_arg18 : FVec F S190 .f32) (main_arg19 : FVec F S270x190 .f32) (main_arg20 : FVec F S270 .f32) (main_arg21 : FVec F S325x270 .f32) (main_arg22 : FVec F S325 .f32) (main_arg23 : FVec F S110x40 .f32) (main_arg24 : FVec F S110 .f32) (main_arg25 : FVec F S190x110 .f32) (main_arg26 : FVec F S190 .f32) (main_arg27 : FVec F S270x190 .f32) (main_arg28 : FVec F S270 .f32) (main_arg29 : FVec F S325x270 .f32) (main_arg30 : FVec F S325 .f32) (main_v48 : IVec S_ 1) (main_v49 : FVec F S92 .f32) (main_v50 : FVec F S92 .f32) : IVec S_ 1 :=
  let main_v51 : IVec S92 1 := cmpf .olt main_v49 main_v50
  let main_c_19 : IVec S_ 1 := constantI S_ 1 1#1
  let main_v52 : IVec S_ 1 := (fun x v => Host.reduce IntOp.andi x v reducesTo_S92_S_d0 h_S_) main_v51 main_c_19
  let main_v53 : IVec S_ 1 := andi main_v48 main_v52
  let main_v54 : FVec F S3x72 .f32 := Host.absf main_arg11
  let main_cst_20 : FVec F S_ .f32 := constant S_ .f32 0x7F800000#32
  let main_v55 : FVec F S3x72 .f32 := broadcastInDim S3x72 ![] bcast_S_S3x72 main_cst_20
  let main_v56 : IVec S3x72 1 := cmpf .olt main_v54 main_v55
  let main_c_21 : IVec S_ 1 := constantI S_ 1 1#1
  let main_v57 : IVec S_ 1 := (fun x v => Host.reduce IntOp.andi x v reducesTo_S3x72_S_d0_1 h_S_) main_v56 main_c_21
  let main_v58 : IVec S_ 1 := andi main_v53 main_v57
  let main_v59 : FVec F S3 .f32 := Host.absf main_arg12
  let main_cst_22 : FVec F S_ .f32 := constant S_ .f32 0x7F800000#32
  let main_v60 : FVec F S3 .f32 := broadcastInDim S3 ![] bcast_S_S3 main_cst_22
  let main_v61 : IVec S3 1 := cmpf .olt main_v59 main_v60
  let main_c_23 : IVec S_ 1 := constantI S_ 1 1#1
  let main_v62 : IVec S_ 1 := (fun x v => Host.reduce IntOp.andi x v reducesTo_S3_S_d0 h_S_) main_v61 main_c_23
  let main_v63 : IVec S_ 1 := andi main_v58 main_v62
  let main_v64 : FVec F S20x325 .f32 := Host.absf main_arg13
  let main_cst_24 : FVec F S_ .f32 := constant S_ .f32 0x7F800000#32
  let main_v65 : FVec F S20x325 .f32 := broadcastInDim S20x325 ![] bcast_S_S20x325 main_cst_24
  let main_v66 : IVec S20x325 1 := cmpf .olt main_v64 main_v65
  let main_c_25 : IVec S_ 1 := constantI S_ 1 1#1
  let main_v67 : IVec S_ 1 := (fun x v => Host.reduce IntOp.andi x v reducesTo_S20x325_S_d0_1 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_arg30 main_v63 main_v67

def fn_part2 {F : FTy → Type} [FloatOps F] (main_arg7 : FVec F S72x48 .f32) (main_arg8 : FVec F S72 .f32) (main_arg9 : FVec F S92x72 .f32) (main_arg10 : FVec F S92 .f32) (main_arg11 : FVec F S3x72 .f32) (main_arg12 : FVec F S3 .f32) (main_arg13 : FVec F S20x325 .f32) (main_arg14 : FVec F S20 .f32) (main_arg15 : FVec F S110x40 .f32) (main_arg16 : FVec F S110 .f32) (main_arg17 : FVec F S190x110 .f32) (main_arg18 : FVec F S190 .f32) (main_arg19 : FVec F S270x190 .f32) (main_arg20 : FVec F S270 .f32) (main_arg21 : FVec F S325x270 .f32) (main_arg22 : FVec F S325 .f32) (main_arg23 : FVec F S110x40 .f32) (main_arg24 : FVec F S110 .f32) (main_arg25 : FVec F S190x110 .f32) (main_arg26 : FVec F S190 .f32) (main_arg27 : FVec F S270x190 .f32) (main_arg28 : FVec F S270 .f32) (main_arg29 : FVec F S325x270 .f32) (main_arg30 : FVec F S325 .f32) (main_v33 : IVec S_ 1) : IVec S_ 1 :=
  let main_v34 : FVec F S72x48 .f32 := Host.absf main_arg7
  let main_cst_12 : FVec F S_ .f32 := constant S_ .f32 0x7F800000#32
  let main_v35 : FVec F S72x48 .f32 := broadcastInDim S72x48 ![] bcast_S_S72x48 main_cst_12
  let main_v36 : IVec S72x48 1 := cmpf .olt main_v34 main_v35
  let main_c_13 : IVec S_ 1 := constantI S_ 1 1#1
  let main_v37 : IVec S_ 1 := (fun x v => Host.reduce IntOp.andi x v reducesTo_S72x48_S_d0_1 h_S_) main_v36 main_c_13
  let main_v38 : IVec S_ 1 := andi main_v33 main_v37
  let main_v39 : FVec F S72 .f32 := Host.absf main_arg8
  let main_cst_14 : FVec F S_ .f32 := constant S_ .f32 0x7F800000#32
  let main_v40 : FVec F S72 .f32 := broadcastInDim S72 ![] bcast_S_S72 main_cst_14
  let main_v41 : IVec S72 1 := cmpf .olt main_v39 main_v40
  let main_c_15 : IVec S_ 1 := constantI S_ 1 1#1
  let main_v42 : IVec S_ 1 := (fun x v => Host.reduce IntOp.andi x v reducesTo_S72_S_d0 h_S_) main_v41 main_c_15
  let main_v43 : IVec S_ 1 := andi main_v38 main_v42
  let main_v44 : FVec F S92x72 .f32 := Host.absf main_arg9
  let main_cst_16 : FVec F S_ .f32 := constant S_ .f32 0x7F800000#32
  let main_v45 : FVec F S92x72 .f32 := broadcastInDim S92x72 ![] bcast_S_S92x72 main_cst_16
  let main_v46 : IVec S92x72 1 := cmpf .olt main_v44 main_v45
  let main_c_17 : IVec S_ 1 := constantI S_ 1 1#1
  let main_v47 : IVec S_ 1 := (fun x v => Host.reduce IntOp.andi x v reducesTo_S92x72_S_d0_1 h_S_) main_v46 main_c_17
  let main_v48 : IVec S_ 1 := andi main_v43 main_v47
  let main_v49 : FVec F S92 .f32 := Host.absf main_arg10
  let main_cst_18 : FVec F S_ .f32 := constant S_ .f32 0x7F800000#32
  let main_v50 : FVec F S92 .f32 := broadcastInDim S92 ![] bcast_S_S92 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_v48 main_v49 main_v50

def fn_part1 {F : FTy → Type} [FloatOps F] (main_arg4 : FVec F S1x20 .f32) (main_arg5 : FVec F S48x14 .f32) (main_arg6 : FVec F S48 .f32) (main_arg7 : FVec F S72x48 .f32) (main_arg8 : FVec F S72 .f32) (main_arg9 : FVec F S92x72 .f32) (main_arg10 : FVec F S92 .f32) (main_arg11 : FVec F S3x72 .f32) (main_arg12 : FVec F S3 .f32) (main_arg13 : FVec F S20x325 .f32) (main_arg14 : FVec F S20 .f32) (main_arg15 : FVec F S110x40 .f32) (main_arg16 : FVec F S110 .f32) (main_arg17 : FVec F S190x110 .f32) (main_arg18 : FVec F S190 .f32) (main_arg19 : FVec F S270x190 .f32) (main_arg20 : FVec F S270 .f32) (main_arg21 : FVec F S325x270 .f32) (main_arg22 : FVec F S325 .f32) (main_arg23 : FVec F S110x40 .f32) (main_arg24 : FVec F S110 .f32) (main_arg25 : FVec F S190x110 .f32) (main_arg26 : FVec F S190 .f32) (main_arg27 : FVec F S270x190 .f32) (main_arg28 : FVec F S270 .f32) (main_arg29 : FVec F S325x270 .f32) (main_arg30 : FVec F S325 .f32) (main_v13 : IVec S_ 1) (main_v16 : IVec S1000000x20 1) : IVec S_ 1 :=
  let main_c_5 : IVec S_ 1 := constantI S_ 1 1#1
  let main_v17 : IVec S_ 1 := (fun x v => Host.reduce IntOp.andi x v reducesTo_S1000000x20_S_d0_1 h_S_) main_v16 main_c_5
  let main_v18 : IVec S_ 1 := andi main_v13 main_v17
  let main_v19 : FVec F S1x20 .f32 := Host.absf main_arg4
  let main_cst_6 : FVec F S_ .f32 := constant S_ .f32 0x7F800000#32
  let main_v20 : FVec F S1x20 .f32 := broadcastInDim S1x20 ![] bcast_S_S1x20 main_cst_6
  let main_v21 : IVec S1x20 1 := cmpf .olt main_v19 main_v20
  let main_c_7 : IVec S_ 1 := constantI S_ 1 1#1
  let main_v22 : IVec S_ 1 := (fun x v => Host.reduce IntOp.andi x v reducesTo_S1x20_S_d0_1 h_S_) main_v21 main_c_7
  let main_v23 : IVec S_ 1 := andi main_v18 main_v22
  let main_v24 : FVec F S48x14 .f32 := Host.absf main_arg5
  let main_cst_8 : FVec F S_ .f32 := constant S_ .f32 0x7F800000#32
  let main_v25 : FVec F S48x14 .f32 := broadcastInDim S48x14 ![] bcast_S_S48x14 main_cst_8
  let main_v26 : IVec S48x14 1 := cmpf .olt main_v24 main_v25
  let main_c_9 : IVec S_ 1 := constantI S_ 1 1#1
  let main_v27 : IVec S_ 1 := (fun x v => Host.reduce IntOp.andi x v reducesTo_S48x14_S_d0_1 h_S_) main_v26 main_c_9
  let main_v28 : IVec S_ 1 := andi main_v23 main_v27
  let main_v29 : FVec F S48 .f32 := Host.absf main_arg6
  let main_cst_10 : FVec F S_ .f32 := constant S_ .f32 0x7F800000#32
  let main_v30 : FVec F S48 .f32 := broadcastInDim S48 ![] bcast_S_S48 main_cst_10
  let main_v31 : IVec S48 1 := cmpf .olt main_v29 main_v30
  let main_c_11 : IVec S_ 1 := constantI S_ 1 1#1
  let main_v32 : IVec S_ 1 := (fun x v => Host.reduce IntOp.andi x v reducesTo_S48_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v33

def fn {F : FTy → Type} [FloatOps F] (main_arg0 : FVec F S1x14 .f32) (main_arg1 : FVec F S1x1000000 .f32) (main_arg2 : FVec F S1x1000000 .f32) (main_arg3 : FVec F S1000000x20 .f32) (main_arg4 : FVec F S1x20 .f32) (main_arg5 : FVec F S48x14 .f32) (main_arg6 : FVec F S48 .f32) (main_arg7 : FVec F S72x48 .f32) (main_arg8 : FVec F S72 .f32) (main_arg9 : FVec F S92x72 .f32) (main_arg10 : FVec F S92 .f32) (main_arg11 : FVec F S3x72 .f32) (main_arg12 : FVec F S3 .f32) (main_arg13 : FVec F S20x325 .f32) (main_arg14 : FVec F S20 .f32) (main_arg15 : FVec F S110x40 .f32) (main_arg16 : FVec F S110 .f32) (main_arg17 : FVec F S190x110 .f32) (main_arg18 : FVec F S190 .f32) (main_arg19 : FVec F S270x190 .f32) (main_arg20 : FVec F S270 .f32) (main_arg21 : FVec F S325x270 .f32) (main_arg22 : FVec F S325 .f32) (main_arg23 : FVec F S110x40 .f32) (main_arg24 : FVec F S110 .f32) (main_arg25 : FVec F S190x110 .f32) (main_arg26 : FVec F S190 .f32) (main_arg27 : FVec F S270x190 .f32) (main_arg28 : FVec F S270 .f32) (main_arg29 : FVec F S325x270 .f32) (main_arg30 : FVec F S325 .f32) : IVec S_ 1 :=
  let main_v0 : FVec F S1x14 .f32 := Host.absf main_arg0
  let main_cst : FVec F S_ .f32 := constant S_ .f32 0x7F800000#32
  let main_v1 : FVec F S1x14 .f32 := broadcastInDim S1x14 ![] bcast_S_S1x14 main_cst
  let main_v2 : IVec S1x14 1 := cmpf .olt main_v0 main_v1
  let main_c : IVec S_ 1 := constantI S_ 1 1#1
  let main_v3 : IVec S_ 1 := (fun x v => Host.reduce IntOp.andi x v reducesTo_S1x14_S_d0_1 h_S_) main_v2 main_c
  let main_v4 : FVec F S1x1000000 .f32 := Host.absf main_arg1
  let main_cst_0 : FVec F S_ .f32 := constant S_ .f32 0x7F800000#32
  let main_v5 : FVec F S1x1000000 .f32 := broadcastInDim S1x1000000 ![] bcast_S_S1x1000000 main_cst_0
  let main_v6 : IVec S1x1000000 1 := cmpf .olt main_v4 main_v5
  let main_c_1 : IVec S_ 1 := constantI S_ 1 1#1
  let main_v7 : IVec S_ 1 := (fun x v => Host.reduce IntOp.andi x v reducesTo_S1x1000000_S_d0_1 h_S_) main_v6 main_c_1
  let main_v8 : IVec S_ 1 := andi main_v3 main_v7
  let main_v9 : FVec F S1x1000000 .f32 := Host.absf main_arg2
  let main_cst_2 : FVec F S_ .f32 := constant S_ .f32 0x7F800000#32
  let main_v10 : FVec F S1x1000000 .f32 := broadcastInDim S1x1000000 ![] bcast_S_S1x1000000 main_cst_2
  let main_v11 : IVec S1x1000000 1 := cmpf .olt main_v9 main_v10
  let main_c_3 : IVec S_ 1 := constantI S_ 1 1#1
  let main_v12 : IVec S_ 1 := (fun x v => Host.reduce IntOp.andi x v reducesTo_S1x1000000_S_d0_1 h_S_) main_v11 main_c_3
  let main_v13 : IVec S_ 1 := andi main_v8 main_v12
  let main_v14 : FVec F S1000000x20 .f32 := Host.absf main_arg3
  let main_cst_4 : FVec F S_ .f32 := constant S_ .f32 0x7F800000#32
  let main_v15 : FVec F S1000000x20 .f32 := broadcastInDim S1000000x20 ![] bcast_S_S1000000x20 main_cst_4
  let main_v16 : IVec S1000000x20 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v13 main_v16
-- ==== Kernel.lean ====
abbrev S1x14 : Shape := ⟨2, ![1, 14]⟩
abbrev S1x1000000 : Shape := ⟨2, ![1, 1000000]⟩
abbrev S1000000x20 : Shape := ⟨2, ![1000000, 20]⟩
abbrev S1x20 : Shape := ⟨2, ![1, 20]⟩
abbrev S48x14 : Shape := ⟨2, ![48, 14]⟩
abbrev S48 : Shape := ⟨1, ![48]⟩
abbrev S72x48 : Shape := ⟨2, ![72, 48]⟩
abbrev S72 : Shape := ⟨1, ![72]⟩
abbrev S92x72 : Shape := ⟨2, ![92, 72]⟩
abbrev S92 : Shape := ⟨1, ![92]⟩
abbrev S3x72 : Shape := ⟨2, ![3, 72]⟩
abbrev S3 : Shape := ⟨1, ![3]⟩
abbrev S20x325 : Shape := ⟨2, ![20, 325]⟩
abbrev S20 : Shape := ⟨1, ![20]⟩
abbrev S110x40 : Shape := ⟨2, ![110, 40]⟩
abbrev S110 : Shape := ⟨1, ![110]⟩
abbrev S190x110 : Shape := ⟨2, ![190, 110]⟩
abbrev S190 : Shape := ⟨1, ![190]⟩
abbrev S270x190 : Shape := ⟨2, ![270, 190]⟩
abbrev S270 : Shape := ⟨1, ![270]⟩
abbrev S325x270 : Shape := ⟨2, ![325, 270]⟩
abbrev S325 : Shape := ⟨1, ![325]⟩
abbrev S14x48 : Shape := ⟨2, ![14, 48]⟩
abbrev S1x48 : Shape := ⟨2, ![1, 48]⟩
abbrev S48x72 : Shape := ⟨2, ![48, 72]⟩
abbrev S1x72 : Shape := ⟨2, ![1, 72]⟩
abbrev S72x92 : Shape := ⟨2, ![72, 92]⟩
abbrev S1x92 : Shape := ⟨2, ![1, 92]⟩
abbrev S72x3 : Shape := ⟨2, ![72, 3]⟩
abbrev S1x3 : Shape := ⟨2, ![1, 3]⟩
abbrev S1x26 : Shape := ⟨2, ![1, 26]⟩
abbrev S26 : Shape := ⟨1, ![26]⟩
abbrev S_ : Shape := ⟨0, ![]⟩
abbrev S1x1 : Shape := ⟨2, ![1, 1]⟩
abbrev S1 : Shape := ⟨1, ![1]⟩
abbrev S1000000x3 : Shape := ⟨2, ![1000000, 3]⟩
abbrev S20000x20 : Shape := ⟨2, ![20000, 20]⟩
abbrev S20000x3 : Shape := ⟨2, ![20000, 3]⟩
abbrev S20000 : Shape := ⟨1, ![20000]⟩
abbrev S20000x1 : Shape := ⟨2, ![20000, 1]⟩
abbrev S1000000x1 : Shape := ⟨2, ![1000000, 1]⟩
abbrev S1x1000002 : Shape := ⟨2, ![1, 1000002]⟩
abbrev S2x1x20 : Shape := ⟨3, ![2, 1, 20]⟩
abbrev S1x1x20 : Shape := ⟨3, ![1, 1, 20]⟩
abbrev S2x20 : Shape := ⟨2, ![2, 20]⟩
abbrev S1x40 : Shape := ⟨2, ![1, 40]⟩
abbrev S1x2 : Shape := ⟨2, ![1, 2]⟩
abbrev S40x110 : Shape := ⟨2, ![40, 110]⟩
abbrev S1x110 : Shape := ⟨2, ![1, 110]⟩
abbrev S110x190 : Shape := ⟨2, ![110, 190]⟩
abbrev S1x190 : Shape := ⟨2, ![1, 190]⟩
abbrev S190x270 : Shape := ⟨2, ![190, 270]⟩
abbrev S1x270 : Shape := ⟨2, ![1, 270]⟩
abbrev S270x325 : Shape := ⟨2, ![270, 325]⟩
abbrev S1x325 : Shape := ⟨2, ![1, 325]⟩
abbrev S325x20 : Shape := ⟨2, ![325, 20]⟩
abbrev S10000x20 : Shape := ⟨2, ![10000, 20]⟩
abbrev S10000x1 : Shape := ⟨2, ![10000, 1]⟩

abbrev nBuf : Space → Nat
  | .hbm => 454
  | .vmem => 20
  | .smem => 0
  | _ => 0

abbrev hbmTy0_0 (i : Nat) : BufTy := match i % 128 with
  | 0 => ⟨S1x14, .f32⟩
  | 1 => ⟨S1x1000000, .f32⟩
  | 2 => ⟨S1x1000000, .f32⟩
  | 3 => ⟨S1000000x20, .f32⟩
  | 4 => ⟨S1x20, .f32⟩
  | 5 => ⟨S48x14, .f32⟩
  | 6 => ⟨S48, .f32⟩
  | 7 => ⟨S72x48, .f32⟩
  | 8 => ⟨S72, .f32⟩
  | 9 => ⟨S92x72, .f32⟩
  | 10 => ⟨S92, .f32⟩
  | 11 => ⟨S3x72, .f32⟩
  | 12 => ⟨S3, .f32⟩
  | 13 => ⟨S20x325, .f32⟩
  | 14 => ⟨S20, .f32⟩
  | 15 => ⟨S110x40, .f32⟩
  | 16 => ⟨S110, .f32⟩
  | 17 => ⟨S190x110, .f32⟩
  | 18 => ⟨S190, .f32⟩
  | 19 => ⟨S270x190, .f32⟩
  | 20 => ⟨S270, .f32⟩
  | 21 => ⟨S325x270, .f32⟩
  | 22 => ⟨S325, .f32⟩
  | 23 => ⟨S110x40, .f32⟩
  | 24 => ⟨S110, .f32⟩
  | 25 => ⟨S190x110, .f32⟩
  | 26 => ⟨S190, .f32⟩
  | 27 => ⟨S270x190, .f32⟩
  | 28 => ⟨S270, .f32⟩
  | 29 => ⟨S325x270, .f32⟩
  | 30 => ⟨S325, .f32⟩
  | 31 => ⟨S14x48, .f32⟩
  | 32 => ⟨S1x48, .f32⟩
  | 33 => ⟨S1x48, .f32⟩
  | 34 => ⟨S1x48, .f32⟩
  | 35 => ⟨S48x72, .f32⟩
  | 36 => ⟨S1x72, .f32⟩
  | 37 => ⟨S1x72, .f32⟩
  | 38 => ⟨S1x72, .f32⟩
  | 39 => ⟨S72x92, .f32⟩
  | 40 => ⟨S1x92, .f32⟩
  | 41 => ⟨S1x92, .f32⟩
  | 42 => ⟨S1x92, .f32⟩
  | 43 => ⟨S72x3, .f32⟩
  | 44 => ⟨S1x3, .f32⟩
  | 45 => ⟨S1x3, .f32⟩
  | 46 => ⟨S1x3, .f32⟩
  | 47 => ⟨S1x26, .f32⟩
  | 48 => ⟨S26, .f32⟩
  | 49 => ⟨S1x26, .f32⟩
  | 50 => ⟨S1x26, .f32⟩
  | 51 => ⟨S26, .f32⟩
  | 52 => ⟨S1x26, .f32⟩
  | 53 => ⟨S1x20, .f32⟩
  | 54 => ⟨S20, .f32⟩
  | 55 => ⟨S1x20, .f32⟩
  | 56 => ⟨S1x20, .f32⟩
  | 57 => ⟨S1x20, .f32⟩
  | 58 => ⟨S_, .f32⟩
  | 59 => ⟨S1x20, .f32⟩
  | 60 => ⟨S1x20, .f32⟩
  | 61 => ⟨S_, .f32⟩
  | 62 => ⟨S1x20, .f32⟩
  | 63 => ⟨S1x20, .f32⟩
  | 64 => ⟨S1x20, .f32⟩
  | 65 => ⟨S20, .f32⟩
  | 66 => ⟨S1x20, .f32⟩
  | 67 => ⟨S1x20, .f32⟩
  | 68 => ⟨S1x20, .f32⟩
  | 69 => ⟨S20, .f32⟩
  | 70 => ⟨S20, .f32⟩
  | 71 => ⟨S1x20, .f32⟩
  | 72 => ⟨S1x1, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S1x3, .f32⟩
  | 81 => ⟨S3, .f32⟩
  | 82 => ⟨S_, .f32⟩
  | 83 => ⟨S_, .f32⟩
  | 84 => ⟨S_, .f32⟩
  | 85 => ⟨S_, .f32⟩
  | 86 => ⟨S1, .f32⟩
  | 87 => ⟨S3, .f32⟩
  | 88 => ⟨S3, .f32⟩
  | 89 => ⟨S3, .f32⟩
  | 90 => ⟨S_, .f32⟩
  | 91 => ⟨S_, .f32⟩
  | 92 => ⟨S1, .f32⟩
  | 93 => ⟨S3, .f32⟩
  | 94 => ⟨S3, .f32⟩
  | 95 => ⟨S1x1, .f32⟩
  | 96 => ⟨S_, .f32⟩
  | 97 => ⟨S_, .f32⟩
  | 98 => ⟨S_, .f32⟩
  | 99 => ⟨S_, .f32⟩
  | 100 => ⟨S_, .i1⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S1x1, .f32⟩
  | 111 => ⟨S_, .f32⟩
  | 112 => ⟨S_, .f32⟩
  | 113 => ⟨S_, .f32⟩
  | 114 => ⟨S_, .f32⟩
  | 115 => ⟨S_, .i1⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S1x20, .f32⟩
  | 124 => ⟨S20, .f32⟩
  | 125 => ⟨S20, .f32⟩
  | 126 => ⟨S1x20, .f32⟩
  | 127 => ⟨S1x1, .f32⟩
  | _ => ⟨S1x14, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S1x3, .f32⟩
  | 8 => ⟨S3, .f32⟩
  | 9 => ⟨S_, .f32⟩
  | 10 => ⟨S_, .f32⟩
  | 11 => ⟨S_, .f32⟩
  | 12 => ⟨S_, .f32⟩
  | 13 => ⟨S1, .f32⟩
  | 14 => ⟨S3, .f32⟩
  | 15 => ⟨S3, .f32⟩
  | 16 => ⟨S3, .f32⟩
  | 17 => ⟨S_, .f32⟩
  | 18 => ⟨S_, .f32⟩
  | 19 => ⟨S1, .f32⟩
  | 20 => ⟨S3, .f32⟩
  | 21 => ⟨S3, .f32⟩
  | 22 => ⟨S1x1, .f32⟩
  | 23 => ⟨S_, .f32⟩
  | 24 => ⟨S_, .f32⟩
  | 25 => ⟨S_, .f32⟩
  | 26 => ⟨S_, .f32⟩
  | 27 => ⟨S_, .i1⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S1x1, .f32⟩
  | 38 => ⟨S_, .f32⟩
  | 39 => ⟨S_, .f32⟩
  | 40 => ⟨S_, .f32⟩
  | 41 => ⟨S_, .f32⟩
  | 42 => ⟨S_, .i1⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S1x20, .f32⟩
  | 52 => ⟨S1x20, .f32⟩
  | 53 => ⟨S_, .f32⟩
  | 54 => ⟨S1x20, .f32⟩
  | 55 => ⟨S1x20, .f32⟩
  | 56 => ⟨S1000000x3, .f32⟩
  | 57 => ⟨S1000000x1, .f32⟩
  | 58 => ⟨S1000000x1, .f32⟩
  | 59 => ⟨S1000000x1, .f32⟩
  | 60 => ⟨S1x20, .f32⟩
  | 61 => ⟨S_, .f32⟩
  | 62 => ⟨S1, .f32⟩
  | 63 => ⟨S1, .f32⟩
  | 64 => ⟨S_, .f32⟩
  | 65 => ⟨S1, .f32⟩
  | 66 => ⟨S1, .f32⟩
  | 67 => ⟨S_, .f32⟩
  | 68 => ⟨S1000000x1, .f32⟩
  | 69 => ⟨S1000000x1, .f32⟩
  | 70 => ⟨S1x1, .f32⟩
  | 71 => ⟨S1000000x1, .f32⟩
  | 72 => ⟨S1000000x1, .f32⟩
  | 73 => ⟨S1000000x1, .f32⟩
  | 74 => ⟨S1000000x1, .f32⟩
  | 75 => ⟨S1000000x1, .f32⟩
  | 76 => ⟨S1x1000000, .f32⟩
  | 77 => ⟨S_, .f32⟩
  | 78 => ⟨S1, .f32⟩
  | 79 => ⟨S_, .f32⟩
  | 80 => ⟨S1, .f32⟩
  | 81 => ⟨S1, .f32⟩
  | 82 => ⟨S1x1, .f32⟩
  | 83 => ⟨S1x1000000, .f32⟩
  | 84 => ⟨S1x1000000, .f32⟩
  | 85 => ⟨S1x1000000, .f32⟩
  | 86 => ⟨S_, .f32⟩
  | 87 => ⟨S1, .f32⟩
  | 88 => ⟨S1x1, .f32⟩
  | 89 => ⟨S1x1000000, .f32⟩
  | 90 => ⟨S1x1000000, .f32⟩
  | 91 => ⟨S1x1000000, .f32⟩
  | 92 => ⟨S1x1000000, .f32⟩
  | 93 => ⟨S_, .f32⟩
  | 94 => ⟨S_, .f32⟩
  | 95 => ⟨S1x1000000, .f32⟩
  | 96 => ⟨S1x1000000, .f32⟩
  | 97 => ⟨S1x1000000, .f32⟩
  | 98 => ⟨S1x1, .f32⟩
  | 99 => ⟨S1x1, .f32⟩
  | 100 => ⟨S1x1000002, .f32⟩
  | 101 => ⟨S1, .f32⟩
  | 102 => ⟨S_, .f32⟩
  | 103 => ⟨S1x1000000, .f32⟩
  | 104 => ⟨S1x1000000, .f32⟩
  | 105 => ⟨S1x1000000, .f32⟩
  | 106 => ⟨S1, .f32⟩
  | 107 => ⟨S_, .f32⟩
  | 108 => ⟨S1x1000000, .f32⟩
  | 109 => ⟨S1x1000000, .f32⟩
  | 110 => ⟨S1x1000000, .f32⟩
  | 111 => ⟨S1x1000000, .f32⟩
  | 112 => ⟨S1, .f32⟩
  | 113 => ⟨S_, .f32⟩
  | 114 => ⟨S1x1000000, .f32⟩
  | 115 => ⟨S1x1000000, .f32⟩
  | 116 => ⟨S1x1000000, .f32⟩
  | 117 => ⟨S1x1000000, .f32⟩
  | 118 => ⟨S1x1000000, .f32⟩
  | 119 => ⟨S1x1000000, .f32⟩
  | 120 => ⟨S_, .f32⟩
  | 121 => ⟨S1, .f32⟩
  | 122 => ⟨S1x1, .f32⟩
  | 123 => ⟨S_, .f32⟩
  | 124 => ⟨S1x1, .f32⟩
  | 125 => ⟨S1x1, .f32⟩
  | 126 => ⟨S1x1000000, .f32⟩
  | 127 => ⟨S1x1000000, .f32⟩
  | _ => ⟨S1x14, .f32⟩

abbrev hbmTy0_2 (i : Nat) : BufTy := match i % 128 with
  | 0 => ⟨S1x20, .f32⟩
  | 1 => ⟨S_, .f32⟩
  | 2 => ⟨S1, .f32⟩
  | 3 => ⟨S1, .f32⟩
  | 4 => ⟨S_, .f32⟩
  | 5 => ⟨S1, .f32⟩
  | 6 => ⟨S1, .f32⟩
  | 7 => ⟨S_, .f32⟩
  | 8 => ⟨S1000000x1, .f32⟩
  | 9 => ⟨S1000000x1, .f32⟩
  | 10 => ⟨S1x1, .f32⟩
  | 11 => ⟨S1000000x1, .f32⟩
  | 12 => ⟨S1000000x1, .f32⟩
  | 13 => ⟨S1000000x1, .f32⟩
  | 14 => ⟨S1000000x1, .f32⟩
  | 15 => ⟨S1000000x1, .f32⟩
  | 16 => ⟨S1x1000000, .f32⟩
  | 17 => ⟨S_, .f32⟩
  | 18 => ⟨S1, .f32⟩
  | 19 => ⟨S_, .f32⟩
  | 20 => ⟨S1, .f32⟩
  | 21 => ⟨S1, .f32⟩
  | 22 => ⟨S1x1, .f32⟩
  | 23 => ⟨S1x1000000, .f32⟩
  | 24 => ⟨S1x1000000, .f32⟩
  | 25 => ⟨S1x1000000, .f32⟩
  | 26 => ⟨S_, .f32⟩
  | 27 => ⟨S1, .f32⟩
  | 28 => ⟨S1x1, .f32⟩
  | 29 => ⟨S1x1000000, .f32⟩
  | 30 => ⟨S1x1000000, .f32⟩
  | 31 => ⟨S1x1000000, .f32⟩
  | 32 => ⟨S1x1000000, .f32⟩
  | 33 => ⟨S_, .f32⟩
  | 34 => ⟨S_, .f32⟩
  | 35 => ⟨S1x1000000, .f32⟩
  | 36 => ⟨S1x1000000, .f32⟩
  | 37 => ⟨S1x1000000, .f32⟩
  | 38 => ⟨S1x1, .f32⟩
  | 39 => ⟨S1x1, .f32⟩
  | 40 => ⟨S1x1000002, .f32⟩
  | 41 => ⟨S1, .f32⟩
  | 42 => ⟨S_, .f32⟩
  | 43 => ⟨S1x1000000, .f32⟩
  | 44 => ⟨S1x1000000, .f32⟩
  | 45 => ⟨S1x1000000, .f32⟩
  | 46 => ⟨S1, .f32⟩
  | 47 => ⟨S_, .f32⟩
  | 48 => ⟨S1x1000000, .f32⟩
  | 49 => ⟨S1x1000000, .f32⟩
  | 50 => ⟨S1x1000000, .f32⟩
  | 51 => ⟨S1x1000000, .f32⟩
  | 52 => ⟨S1, .f32⟩
  | 53 => ⟨S_, .f32⟩
  | 54 => ⟨S1x1000000, .f32⟩
  | 55 => ⟨S1x1000000, .f32⟩
  | 56 => ⟨S1x1000000, .f32⟩
  | 57 => ⟨S1x1000000, .f32⟩
  | 58 => ⟨S1x1000000, .f32⟩
  | 59 => ⟨S1x1000000, .f32⟩
  | 60 => ⟨S_, .f32⟩
  | 61 => ⟨S1, .f32⟩
  | 62 => ⟨S1x1, .f32⟩
  | 63 => ⟨S_, .f32⟩
  | 64 => ⟨S1x1, .f32⟩
  | 65 => ⟨S1x1, .f32⟩
  | 66 => ⟨S1x1000000, .f32⟩
  | 67 => ⟨S1x1000000, .f32⟩
  | 68 => ⟨S1000000x1, .f32⟩
  | 69 => ⟨S2x1x20, .f32⟩
  | 70 => ⟨S2x20, .f32⟩
  | 71 => ⟨S_, .f32⟩
  | 72 => ⟨S20, .f32⟩
  | 73 => ⟨S1x20, .f32⟩
  | 74 => ⟨S1x40, .f32⟩
  | 75 => ⟨S1x1, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S1x2, .f32⟩
  | 84 => ⟨S_, .f32⟩
  | 85 => ⟨S1, .f32⟩
  | 86 => ⟨S_, .f32⟩
  | 87 => ⟨S1, .f32⟩
  | 88 => ⟨S1, .f32⟩
  | 89 => ⟨S1x1, .f32⟩
  | 90 => ⟨S1x2, .f32⟩
  | 91 => ⟨S1x2, .f32⟩
  | 92 => ⟨S1x2, .f32⟩
  | 93 => ⟨S_, .f32⟩
  | 94 => ⟨S1, .f32⟩
  | 95 => ⟨S1x1, .f32⟩
  | 96 => ⟨S1x2, .f32⟩
  | 97 => ⟨S1x2, .f32⟩
  | 98 => ⟨S40x110, .f32⟩
  | 99 => ⟨S1x110, .f32⟩
  | 100 => ⟨S1x110, .f32⟩
  | 101 => ⟨S1x110, .f32⟩
  | 102 => ⟨S_, .f32⟩
  | 103 => ⟨S1x110, .f32⟩
  | 104 => ⟨S1x110, .f32⟩
  | 105 => ⟨S110x190, .f32⟩
  | 106 => ⟨S1x190, .f32⟩
  | 107 => ⟨S1x190, .f32⟩
  | 108 => ⟨S1x190, .f32⟩
  | 109 => ⟨S_, .f32⟩
  | 110 => ⟨S1x190, .f32⟩
  | 111 => ⟨S1x190, .f32⟩
  | 112 => ⟨S190x270, .f32⟩
  | 113 => ⟨S1x270, .f32⟩
  | 114 => ⟨S1x270, .f32⟩
  | 115 => ⟨S1x270, .f32⟩
  | 116 => ⟨S_, .f32⟩
  | 117 => ⟨S1x270, .f32⟩
  | 118 => ⟨S1x270, .f32⟩
  | 119 => ⟨S270x325, .f32⟩
  | 120 => ⟨S1x325, .f32⟩
  | 121 => ⟨S1x325, .f32⟩
  | 122 => ⟨S1x325, .f32⟩
  | 123 => ⟨S_, .f32⟩
  | 124 => ⟨S1, .f32⟩
  | 125 => ⟨S_, .f32⟩
  | 126 => ⟨S1, .f32⟩
  | 127 => ⟨S1, .f32⟩
  | _ => ⟨S1x14, .f32⟩

abbrev hbmTy0_3 (i : Nat) : BufTy := match i % 128 with
  | 0 => ⟨S1x1, .f32⟩
  | 1 => ⟨S1x325, .f32⟩
  | 2 => ⟨S1x325, .f32⟩
  | 3 => ⟨S1x325, .f32⟩
  | 4 => ⟨S_, .f32⟩
  | 5 => ⟨S1, .f32⟩
  | 6 => ⟨S1x1, .f32⟩
  | 7 => ⟨S1x325, .f32⟩
  | 8 => ⟨S1x325, .f32⟩
  | 9 => ⟨S40x110, .f32⟩
  | 10 => ⟨S1x110, .f32⟩
  | 11 => ⟨S1x110, .f32⟩
  | 12 => ⟨S1x110, .f32⟩
  | 13 => ⟨S_, .f32⟩
  | 14 => ⟨S1x110, .f32⟩
  | 15 => ⟨S1x110, .f32⟩
  | 16 => ⟨S110x190, .f32⟩
  | 17 => ⟨S1x190, .f32⟩
  | 18 => ⟨S1x190, .f32⟩
  | 19 => ⟨S1x190, .f32⟩
  | 20 => ⟨S_, .f32⟩
  | 21 => ⟨S1x190, .f32⟩
  | 22 => ⟨S1x190, .f32⟩
  | 23 => ⟨S190x270, .f32⟩
  | 24 => ⟨S1x270, .f32⟩
  | 25 => ⟨S1x270, .f32⟩
  | 26 => ⟨S1x270, .f32⟩
  | 27 => ⟨S_, .f32⟩
  | 28 => ⟨S1x270, .f32⟩
  | 29 => ⟨S1x270, .f32⟩
  | 30 => ⟨S270x325, .f32⟩
  | 31 => ⟨S1x325, .f32⟩
  | 32 => ⟨S1x325, .f32⟩
  | 33 => ⟨S1x325, .f32⟩
  | 34 => ⟨S_, .f32⟩
  | 35 => ⟨S1, .f32⟩
  | 36 => ⟨S_, .f32⟩
  | 37 => ⟨S1, .f32⟩
  | 38 => ⟨S1, .f32⟩
  | 39 => ⟨S1x1, .f32⟩
  | 40 => ⟨S1x325, .f32⟩
  | 41 => ⟨S1x325, .f32⟩
  | 42 => ⟨S1x325, .f32⟩
  | 43 => ⟨S_, .f32⟩
  | 44 => ⟨S1, .f32⟩
  | 45 => ⟨S1x1, .f32⟩
  | 46 => ⟨S1x325, .f32⟩
  | 47 => ⟨S1x325, .f32⟩
  | 48 => ⟨S1x1, .f32⟩
  | 49 => ⟨S_, .f32⟩
  | 50 => ⟨S1x325, .f32⟩
  | 51 => ⟨S1x325, .f32⟩
  | 52 => ⟨S1x1, .f32⟩
  | 53 => ⟨S_, .f32⟩
  | 54 => ⟨S1x325, .f32⟩
  | 55 => ⟨S1x325, .f32⟩
  | 56 => ⟨S1x325, .f32⟩
  | 57 => ⟨S325x20, .f32⟩
  | 58 => ⟨S1x20, .f32⟩
  | 59 => ⟨S1x20, .f32⟩
  | 60 => ⟨S1x20, .f32⟩
  | 61 => ⟨S1x20, .f32⟩
  | 62 => ⟨S1x20, .f32⟩
  | 63 => ⟨S_, .f32⟩
  | 64 => ⟨S_, .f32⟩
  | 65 => ⟨S1x20, .f32⟩
  | 66 => ⟨S1x20, .f32⟩
  | 67 => ⟨S1x20, .f32⟩
  | 68 => ⟨S1000000x1, .f32⟩
  | 69 => ⟨S1000000x20, .f32⟩
  | _ => ⟨S1x14, .f32⟩

abbrev hbmTy (i : Nat) : BufTy := match i / 128 with
  | 0 => hbmTy0_0 i
  | 1 => hbmTy0_1 i
  | 2 => hbmTy0_2 i
  | 3 => hbmTy0_3 i
  | _ => ⟨S1x14, .f32⟩

abbrev bufTy : (tb : Table) → Fin (tcTables nBuf tb) → BufTy
  | .hbm, ⟨i, _⟩ => hbmTy i
  | .local _ .vmem, ⟨0, _⟩ => ⟨S20000x20, .f32⟩
  | .local _ .vmem, ⟨1, _⟩ => ⟨S20000x20, .f32⟩
  | .local _ .vmem, ⟨2, _⟩ => ⟨S1x20, .f32⟩
  | .local _ .vmem, ⟨3, _⟩ => ⟨S1x20, .f32⟩
  | .local _ .vmem, ⟨4, _⟩ => ⟨S20000x3, .f32⟩
  | .local _ .vmem, ⟨5, _⟩ => ⟨S20000x3, .f32⟩
  | .local _ .vmem, ⟨6, _⟩ => ⟨S20000x20, .f32⟩
  | .local _ .vmem, ⟨7, _⟩ => ⟨S20000x20, .f32⟩
  | .local _ .vmem, ⟨8, _⟩ => ⟨S20000x1, .f32⟩
  | .local _ .vmem, ⟨9, _⟩ => ⟨S20000x1, .f32⟩
  | .local _ .vmem, ⟨10, _⟩ => ⟨S1x1x20, .f32⟩
  | .local _ .vmem, ⟨11, _⟩ => ⟨S1x1x20, .f32⟩
  | .local _ .vmem, ⟨12, _⟩ => ⟨S10000x20, .f32⟩
  | .local _ .vmem, ⟨13, _⟩ => ⟨S10000x20, .f32⟩
  | .local _ .vmem, ⟨14, _⟩ => ⟨S10000x1, .f32⟩
  | .local _ .vmem, ⟨15, _⟩ => ⟨S10000x1, .f32⟩
  | .local _ .vmem, ⟨16, _⟩ => ⟨S1x20, .f32⟩
  | .local _ .vmem, ⟨17, _⟩ => ⟨S1x20, .f32⟩
  | .local _ .vmem, ⟨18, _⟩ => ⟨S10000x20, .f32⟩
  | .local _ .vmem, ⟨19, _⟩ => ⟨S10000x20, .f32⟩
  | _, _ => ⟨S1x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst : Ref sig .tc := ⟨.hbm, 58, rfl⟩
abbrev main_v27 : Ref sig .tc := ⟨.hbm, 59, rfl⟩
abbrev main_v28 : Ref sig .tc := ⟨.hbm, 60, rfl⟩
abbrev main_cst_0 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_1 : Ref sig .tc := ⟨.hbm, 76, rfl⟩
abbrev main_v43 : Ref sig .tc := ⟨.hbm, 77, rfl⟩
abbrev main_cst_2 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_cst_3 : Ref sig .tc := ⟨.hbm, 82, rfl⟩
abbrev main_v47 : Ref sig .tc := ⟨.hbm, 83, rfl⟩
abbrev main_cst_4 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_cst_5 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_call0_cst : Ref sig .tc := ⟨.hbm, 97, rfl⟩
abbrev main_call0_v0 : Ref sig .tc := ⟨.hbm, 98, rfl⟩
abbrev main_call0_v1 : Ref sig .tc := ⟨.hbm, 99, rfl⟩
abbrev main_call0_v2 : Ref sig .tc := ⟨.hbm, 100, rfl⟩
abbrev main_call0_v3 : Ref sig .tc := ⟨.hbm, 101, rfl⟩
abbrev main_call0_v4 : Ref sig .tc := ⟨.hbm, 102, rfl⟩
abbrev main_call0_v5 : Ref sig .tc := ⟨.hbm, 103, rfl⟩
abbrev main_call0_v6 : Ref sig .tc := ⟨.hbm, 104, rfl⟩
abbrev main_call0_v7 : Ref sig .tc := ⟨.hbm, 105, rfl⟩
abbrev main_call0_v8 : Ref sig .tc := ⟨.hbm, 106, rfl⟩
abbrev main_v59 : Ref sig .tc := ⟨.hbm, 107, rfl⟩
abbrev main_cst_6 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_call1_cst : Ref sig .tc := ⟨.hbm, 112, rfl⟩
abbrev main_call1_v0 : Ref sig .tc := ⟨.hbm, 113, rfl⟩
abbrev main_call1_v1 : Ref sig .tc := ⟨.hbm, 114, rfl⟩
abbrev main_call1_v2 : Ref sig .tc := ⟨.hbm, 115, rfl⟩
abbrev main_call1_v3 : Ref sig .tc := ⟨.hbm, 116, rfl⟩
abbrev main_call1_v4 : Ref sig .tc := ⟨.hbm, 117, rfl⟩
abbrev main_call1_v5 : Ref sig .tc := ⟨.hbm, 118, rfl⟩
abbrev main_call1_v6 : Ref sig .tc := ⟨.hbm, 119, rfl⟩
abbrev main_call1_v7 : Ref sig .tc := ⟨.hbm, 120, rfl⟩
abbrev main_call1_v8 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_cst_7 : Ref sig .tc := ⟨.hbm, 131, rfl⟩
abbrev main_v72 : Ref sig .tc := ⟨.hbm, 132, rfl⟩
abbrev main_cst_8 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_cst_9 : Ref sig .tc := ⟨.hbm, 137, rfl⟩
abbrev main_v76 : Ref sig .tc := ⟨.hbm, 138, rfl⟩
abbrev main_cst_10 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_cst_11 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_call2_cst : Ref sig .tc := ⟨.hbm, 152, rfl⟩
abbrev main_call2_v0 : Ref sig .tc := ⟨.hbm, 153, rfl⟩
abbrev main_call2_v1 : Ref sig .tc := ⟨.hbm, 154, rfl⟩
abbrev main_call2_v2 : Ref sig .tc := ⟨.hbm, 155, rfl⟩
abbrev main_call2_v3 : Ref sig .tc := ⟨.hbm, 156, rfl⟩
abbrev main_call2_v4 : Ref sig .tc := ⟨.hbm, 157, rfl⟩
abbrev main_call2_v5 : Ref sig .tc := ⟨.hbm, 158, rfl⟩
abbrev main_call2_v6 : Ref sig .tc := ⟨.hbm, 159, rfl⟩
abbrev main_call2_v7 : Ref sig .tc := ⟨.hbm, 160, rfl⟩
abbrev main_call2_v8 : Ref sig .tc := ⟨.hbm, 161, rfl⟩
abbrev main_v88 : Ref sig .tc := ⟨.hbm, 162, rfl⟩
abbrev main_cst_12 : Ref sig .tc := ⟨.hbm, 163, rfl⟩
abbrev main_v89 : Ref sig .tc := ⟨.hbm, 164, rfl⟩
abbrev main_v90 : Ref sig .tc := ⟨.hbm, 165, rfl⟩
abbrev main_v91 : Ref sig .tc := ⟨.hbm, 166, rfl⟩
abbrev main_call3_cst : Ref sig .tc := ⟨.hbm, 167, rfl⟩
abbrev main_call3_v0 : Ref sig .tc := ⟨.hbm, 168, rfl⟩
abbrev main_call3_v1 : Ref sig .tc := ⟨.hbm, 169, rfl⟩
abbrev main_call3_v2 : Ref sig .tc := ⟨.hbm, 170, rfl⟩
abbrev main_call3_v3 : Ref sig .tc := ⟨.hbm, 171, rfl⟩
abbrev main_call3_v4 : Ref sig .tc := ⟨.hbm, 172, rfl⟩
abbrev main_call3_v5 : Ref sig .tc := ⟨.hbm, 173, rfl⟩
abbrev main_call3_v6 : Ref sig .tc := ⟨.hbm, 174, rfl⟩
abbrev main_call3_v7 : Ref sig .tc := ⟨.hbm, 175, rfl⟩
abbrev main_call3_v8 : Ref sig .tc := ⟨.hbm, 176, rfl⟩
abbrev main_v92 : Ref sig .tc := ⟨.hbm, 177, rfl⟩
abbrev main_cst_13 : Ref sig .tc := ⟨.hbm, 178, rfl⟩
abbrev main_v93 : Ref sig .tc := ⟨.hbm, 179, rfl⟩
abbrev main_v94 : Ref sig .tc := ⟨.hbm, 180, rfl⟩
abbrev main_cst_14 : Ref sig .tc := ⟨.hbm, 181, rfl⟩
abbrev main_v95 : Ref sig .tc := ⟨.hbm, 182, rfl⟩
abbrev main_v96 : Ref sig .tc := ⟨.hbm, 183, rfl⟩
abbrev main_v97 : Ref sig .tc := ⟨.hbm, 184, rfl⟩
abbrev main_v98 : Ref sig .tc := ⟨.hbm, 185, rfl⟩
abbrev main_v99 : Ref sig .tc := ⟨.hbm, 186, rfl⟩
abbrev main_v100 : Ref sig .tc := ⟨.hbm, 187, rfl⟩
abbrev main_call4_v0 : Ref sig .tc := ⟨.hbm, 188, rfl⟩
abbrev main_call4_cst : Ref sig .tc := ⟨.hbm, 189, rfl⟩
abbrev main_call4_v1 : Ref sig .tc := ⟨.hbm, 190, rfl⟩
abbrev main_v101 : Ref sig .tc := ⟨.hbm, 191, rfl⟩
abbrev main_cst_15 : Ref sig .tc := ⟨.hbm, 192, rfl⟩
abbrev main_v102 : Ref sig .tc := ⟨.hbm, 193, rfl⟩
abbrev main_v103 : Ref sig .tc := ⟨.hbm, 194, rfl⟩
abbrev main_cst_16 : Ref sig .tc := ⟨.hbm, 195, rfl⟩
abbrev main_v104 : Ref sig .tc := ⟨.hbm, 196, rfl⟩
abbrev main_v105 : Ref sig .tc := ⟨.hbm, 197, rfl⟩
abbrev main_v106 : Ref sig .tc := ⟨.hbm, 198, rfl⟩
abbrev main_v107 : Ref sig .tc := ⟨.hbm, 199, rfl⟩
abbrev main_v108 : Ref sig .tc := ⟨.hbm, 200, rfl⟩
abbrev main_v109 : Ref sig .tc := ⟨.hbm, 201, rfl⟩
abbrev main_v110 : Ref sig .tc := ⟨.hbm, 202, rfl⟩
abbrev main_v111 : Ref sig .tc := ⟨.hbm, 203, rfl⟩
abbrev main_v112 : Ref sig .tc := ⟨.hbm, 204, rfl⟩
abbrev main_cst_17 : Ref sig .tc := ⟨.hbm, 205, rfl⟩
abbrev main_v113 : Ref sig .tc := ⟨.hbm, 206, rfl⟩
abbrev main_cst_18 : Ref sig .tc := ⟨.hbm, 207, rfl⟩
abbrev main_v114 : Ref sig .tc := ⟨.hbm, 208, rfl⟩
abbrev main_v115 : Ref sig .tc := ⟨.hbm, 209, rfl⟩
abbrev main_v116 : Ref sig .tc := ⟨.hbm, 210, rfl⟩
abbrev main_v117 : Ref sig .tc := ⟨.hbm, 211, rfl⟩
abbrev main_v118 : Ref sig .tc := ⟨.hbm, 212, rfl⟩
abbrev main_v119 : Ref sig .tc := ⟨.hbm, 213, rfl⟩
abbrev main_cst_19 : Ref sig .tc := ⟨.hbm, 214, rfl⟩
abbrev main_v120 : Ref sig .tc := ⟨.hbm, 215, rfl⟩
abbrev main_v121 : Ref sig .tc := ⟨.hbm, 216, rfl⟩
abbrev main_v122 : Ref sig .tc := ⟨.hbm, 217, rfl⟩
abbrev main_v123 : Ref sig .tc := ⟨.hbm, 218, rfl⟩
abbrev main_v124 : Ref sig .tc := ⟨.hbm, 219, rfl⟩
abbrev main_v125 : Ref sig .tc := ⟨.hbm, 220, rfl⟩
abbrev main_cst_20 : Ref sig .tc := ⟨.hbm, 221, rfl⟩
abbrev main_v126 : Ref sig .tc := ⟨.hbm, 222, rfl⟩
abbrev main_v127 : Ref sig .tc := ⟨.hbm, 223, rfl⟩
abbrev main_v128 : Ref sig .tc := ⟨.hbm, 224, rfl⟩
abbrev main_v129 : Ref sig .tc := ⟨.hbm, 225, rfl⟩
abbrev main_v130 : Ref sig .tc := ⟨.hbm, 226, rfl⟩
abbrev main_v131 : Ref sig .tc := ⟨.hbm, 227, rfl⟩
abbrev main_v132 : Ref sig .tc := ⟨.hbm, 228, rfl⟩
abbrev main_v133 : Ref sig .tc := ⟨.hbm, 229, rfl⟩
abbrev main_v134 : Ref sig .tc := ⟨.hbm, 230, rfl⟩
abbrev main_v135 : Ref sig .tc := ⟨.hbm, 231, rfl⟩
abbrev main_v136 : Ref sig .tc := ⟨.hbm, 232, rfl⟩
abbrev main_v137 : Ref sig .tc := ⟨.hbm, 233, rfl⟩
abbrev main_v138 : Ref sig .tc := ⟨.hbm, 234, rfl⟩
abbrev main_v139 : Ref sig .tc := ⟨.hbm, 235, rfl⟩
abbrev main_v140 : Ref sig .tc := ⟨.hbm, 236, rfl⟩
abbrev main_v141 : Ref sig .tc := ⟨.hbm, 237, rfl⟩
abbrev main_v142 : Ref sig .tc := ⟨.hbm, 238, rfl⟩
abbrev main_v143 : Ref sig .tc := ⟨.hbm, 239, rfl⟩
abbrev main_v144 : Ref sig .tc := ⟨.hbm, 240, rfl⟩
abbrev main_v145 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_v149 : Ref sig .tc := ⟨.hbm, 245, rfl⟩
abbrev main_v150 : Ref sig .tc := ⟨.hbm, 246, rfl⟩
abbrev main_v151 : Ref sig .tc := ⟨.hbm, 247, rfl⟩
abbrev main_cst_21 : Ref sig .tc := ⟨.hbm, 248, rfl⟩
abbrev main_v152 : Ref sig .tc := ⟨.hbm, 249, rfl⟩
abbrev main_v153 : Ref sig .tc := ⟨.hbm, 250, rfl⟩
abbrev main_cst_22 : Ref sig .tc := ⟨.hbm, 251, rfl⟩
abbrev main_v154 : Ref sig .tc := ⟨.hbm, 252, rfl⟩
abbrev main_v155 : Ref sig .tc := ⟨.hbm, 253, rfl⟩
abbrev main_v156 : Ref sig .tc := ⟨.hbm, 254, rfl⟩
abbrev main_v157 : Ref sig .tc := ⟨.hbm, 255, rfl⟩
abbrev main_call5_v0 : Ref sig .tc := ⟨.hbm, 256, rfl⟩
abbrev main_call5_cst : Ref sig .tc := ⟨.hbm, 257, rfl⟩
abbrev main_call5_v1 : Ref sig .tc := ⟨.hbm, 258, rfl⟩
abbrev main_v158 : Ref sig .tc := ⟨.hbm, 259, rfl⟩
abbrev main_cst_23 : Ref sig .tc := ⟨.hbm, 260, rfl⟩
abbrev main_v159 : Ref sig .tc := ⟨.hbm, 261, rfl⟩
abbrev main_v160 : Ref sig .tc := ⟨.hbm, 262, rfl⟩
abbrev main_cst_24 : Ref sig .tc := ⟨.hbm, 263, rfl⟩
abbrev main_v161 : Ref sig .tc := ⟨.hbm, 264, rfl⟩
abbrev main_v162 : Ref sig .tc := ⟨.hbm, 265, rfl⟩
abbrev main_v163 : Ref sig .tc := ⟨.hbm, 266, rfl⟩
abbrev main_v164 : Ref sig .tc := ⟨.hbm, 267, rfl⟩
abbrev main_v165 : Ref sig .tc := ⟨.hbm, 268, rfl⟩
abbrev main_v166 : Ref sig .tc := ⟨.hbm, 269, rfl⟩
abbrev main_v167 : Ref sig .tc := ⟨.hbm, 270, rfl⟩
abbrev main_v168 : Ref sig .tc := ⟨.hbm, 271, rfl⟩
abbrev main_v169 : Ref sig .tc := ⟨.hbm, 272, rfl⟩
abbrev main_cst_25 : Ref sig .tc := ⟨.hbm, 273, rfl⟩
abbrev main_v170 : Ref sig .tc := ⟨.hbm, 274, rfl⟩
abbrev main_cst_26 : Ref sig .tc := ⟨.hbm, 275, rfl⟩
abbrev main_v171 : Ref sig .tc := ⟨.hbm, 276, rfl⟩
abbrev main_v172 : Ref sig .tc := ⟨.hbm, 277, rfl⟩
abbrev main_v173 : Ref sig .tc := ⟨.hbm, 278, rfl⟩
abbrev main_v174 : Ref sig .tc := ⟨.hbm, 279, rfl⟩
abbrev main_v175 : Ref sig .tc := ⟨.hbm, 280, rfl⟩
abbrev main_v176 : Ref sig .tc := ⟨.hbm, 281, rfl⟩
abbrev main_cst_27 : Ref sig .tc := ⟨.hbm, 282, rfl⟩
abbrev main_v177 : Ref sig .tc := ⟨.hbm, 283, rfl⟩
abbrev main_v178 : Ref sig .tc := ⟨.hbm, 284, rfl⟩
abbrev main_v179 : Ref sig .tc := ⟨.hbm, 285, rfl⟩
abbrev main_v180 : Ref sig .tc := ⟨.hbm, 286, rfl⟩
abbrev main_v181 : Ref sig .tc := ⟨.hbm, 287, rfl⟩
abbrev main_v182 : Ref sig .tc := ⟨.hbm, 288, rfl⟩
abbrev main_cst_28 : Ref sig .tc := ⟨.hbm, 289, rfl⟩
abbrev main_v183 : Ref sig .tc := ⟨.hbm, 290, rfl⟩
abbrev main_v184 : Ref sig .tc := ⟨.hbm, 291, rfl⟩
abbrev main_v185 : Ref sig .tc := ⟨.hbm, 292, rfl⟩
abbrev main_v186 : Ref sig .tc := ⟨.hbm, 293, rfl⟩
abbrev main_v187 : Ref sig .tc := ⟨.hbm, 294, rfl⟩
abbrev main_v188 : Ref sig .tc := ⟨.hbm, 295, rfl⟩
abbrev main_v189 : Ref sig .tc := ⟨.hbm, 296, rfl⟩
abbrev main_v190 : Ref sig .tc := ⟨.hbm, 297, rfl⟩
abbrev main_v191 : Ref sig .tc := ⟨.hbm, 298, rfl⟩
abbrev main_v192 : Ref sig .tc := ⟨.hbm, 299, rfl⟩
abbrev main_v193 : Ref sig .tc := ⟨.hbm, 300, rfl⟩
abbrev main_v194 : Ref sig .tc := ⟨.hbm, 301, rfl⟩
abbrev main_v195 : Ref sig .tc := ⟨.hbm, 302, rfl⟩
abbrev main_v196 : Ref sig .tc := ⟨.hbm, 303, rfl⟩
abbrev main_v197 : Ref sig .tc := ⟨.hbm, 304, rfl⟩
abbrev main_v198 : Ref sig .tc := ⟨.hbm, 305, rfl⟩
abbrev main_v199 : Ref sig .tc := ⟨.hbm, 306, rfl⟩
abbrev main_v200 : Ref sig .tc := ⟨.hbm, 307, rfl⟩
abbrev main_v201 : Ref sig .tc := ⟨.hbm, 308, rfl⟩
abbrev main_v202 : Ref sig .tc := ⟨.hbm, 309, rfl⟩
abbrev main_v203 : Ref sig .tc := ⟨.hbm, 310, rfl⟩
abbrev main_v204 : Ref sig .tc := ⟨.hbm, 311, rfl⟩
abbrev main_v205 : Ref sig .tc := ⟨.hbm, 312, rfl⟩
abbrev main_v206 : Ref sig .tc := ⟨.hbm, 313, rfl⟩
abbrev main_v207 : Ref sig .tc := ⟨.hbm, 314, rfl⟩
abbrev main_v208 : Ref sig .tc := ⟨.hbm, 315, rfl⟩
abbrev main_cst_29 : Ref sig .tc := ⟨.hbm, 316, rfl⟩
abbrev main_v209 : Ref sig .tc := ⟨.hbm, 317, rfl⟩
abbrev main_v210 : Ref sig .tc := ⟨.hbm, 318, rfl⟩
abbrev main_cst_30 : Ref sig .tc := ⟨.hbm, 319, rfl⟩
abbrev main_v211 : Ref sig .tc := ⟨.hbm, 320, rfl⟩
abbrev main_v212 : Ref sig .tc := ⟨.hbm, 321, rfl⟩
abbrev main_v213 : Ref sig .tc := ⟨.hbm, 322, rfl⟩
abbrev main_v214 : Ref sig .tc := ⟨.hbm, 323, rfl⟩
abbrev main_v215 : Ref sig .tc := ⟨.hbm, 324, rfl⟩
abbrev main_v216 : Ref sig .tc := ⟨.hbm, 325, rfl⟩
abbrev main_v217 : Ref sig .tc := ⟨.hbm, 326, rfl⟩
abbrev main_cst_31 : Ref sig .tc := ⟨.hbm, 327, rfl⟩
abbrev main_v218 : Ref sig .tc := ⟨.hbm, 328, rfl⟩
abbrev main_v219 : Ref sig .tc := ⟨.hbm, 329, rfl⟩
abbrev main_v220 : Ref sig .tc := ⟨.hbm, 330, rfl⟩
abbrev main_v221 : Ref sig .tc := ⟨.hbm, 331, rfl⟩
abbrev main_v222 : Ref sig .tc := ⟨.hbm, 332, rfl⟩
abbrev main_v223 : Ref sig .tc := ⟨.hbm, 333, rfl⟩
abbrev main_v224 : Ref sig .tc := ⟨.hbm, 334, rfl⟩
abbrev main_cst_32 : Ref sig .tc := ⟨.hbm, 335, rfl⟩
abbrev main_v225 : Ref sig .tc := ⟨.hbm, 336, rfl⟩
abbrev main_cst_33 : Ref sig .tc := ⟨.hbm, 337, rfl⟩
abbrev main_v226 : Ref sig .tc := ⟨.hbm, 338, rfl⟩
abbrev main_v227 : Ref sig .tc := ⟨.hbm, 339, rfl⟩
abbrev main_cst_34 : Ref sig .tc := ⟨.hbm, 340, rfl⟩
abbrev main_v228 : Ref sig .tc := ⟨.hbm, 341, rfl⟩
abbrev main_cst_35 : Ref sig .tc := ⟨.hbm, 342, rfl⟩
abbrev main_v229 : Ref sig .tc := ⟨.hbm, 343, rfl⟩
abbrev main_v230 : Ref sig .tc := ⟨.hbm, 344, rfl⟩
abbrev main_v231 : Ref sig .tc := ⟨.hbm, 345, rfl⟩
abbrev main_v232 : Ref sig .tc := ⟨.hbm, 346, rfl⟩
abbrev main_v233 : Ref sig .tc := ⟨.hbm, 347, rfl⟩
abbrev main_v234 : Ref sig .tc := ⟨.hbm, 348, rfl⟩
abbrev main_cst_36 : Ref sig .tc := ⟨.hbm, 349, rfl⟩
abbrev main_v235 : Ref sig .tc := ⟨.hbm, 350, rfl⟩
abbrev main_v236 : Ref sig .tc := ⟨.hbm, 351, rfl⟩
abbrev main_v237 : Ref sig .tc := ⟨.hbm, 352, rfl⟩
abbrev main_v238 : Ref sig .tc := ⟨.hbm, 353, rfl⟩
abbrev main_v239 : Ref sig .tc := ⟨.hbm, 354, rfl⟩
abbrev main_v240 : Ref sig .tc := ⟨.hbm, 355, rfl⟩
abbrev main_v241 : Ref sig .tc := ⟨.hbm, 356, rfl⟩
abbrev main_v242 : Ref sig .tc := ⟨.hbm, 357, rfl⟩
abbrev main_call6_cst : Ref sig .tc := ⟨.hbm, 358, rfl⟩
abbrev main_call6_v0 : Ref sig .tc := ⟨.hbm, 359, rfl⟩
abbrev main_v243 : Ref sig .tc := ⟨.hbm, 360, rfl⟩
abbrev main_v244 : Ref sig .tc := ⟨.hbm, 361, rfl⟩
abbrev main_v245 : Ref sig .tc := ⟨.hbm, 362, rfl⟩
abbrev main_v246 : Ref sig .tc := ⟨.hbm, 363, rfl⟩
abbrev main_v247 : Ref sig .tc := ⟨.hbm, 364, rfl⟩
abbrev main_call7_cst : Ref sig .tc := ⟨.hbm, 365, rfl⟩
abbrev main_call7_v0 : Ref sig .tc := ⟨.hbm, 366, rfl⟩
abbrev main_v248 : Ref sig .tc := ⟨.hbm, 367, rfl⟩
abbrev main_v249 : Ref sig .tc := ⟨.hbm, 368, rfl⟩
abbrev main_v250 : Ref sig .tc := ⟨.hbm, 369, rfl⟩
abbrev main_v251 : Ref sig .tc := ⟨.hbm, 370, rfl⟩
abbrev main_v252 : Ref sig .tc := ⟨.hbm, 371, rfl⟩
abbrev main_call8_cst : Ref sig .tc := ⟨.hbm, 372, rfl⟩
abbrev main_call8_v0 : Ref sig .tc := ⟨.hbm, 373, rfl⟩
abbrev main_v253 : Ref sig .tc := ⟨.hbm, 374, rfl⟩
abbrev main_v254 : Ref sig .tc := ⟨.hbm, 375, rfl⟩
abbrev main_v255 : Ref sig .tc := ⟨.hbm, 376, rfl⟩
abbrev main_v256 : Ref sig .tc := ⟨.hbm, 377, rfl⟩
abbrev main_v257 : Ref sig .tc := ⟨.hbm, 378, rfl⟩
abbrev main_cst_37 : Ref sig .tc := ⟨.hbm, 379, rfl⟩
abbrev main_v258 : Ref sig .tc := ⟨.hbm, 380, rfl⟩
abbrev main_cst_38 : Ref sig .tc := ⟨.hbm, 381, rfl⟩
abbrev main_v259 : Ref sig .tc := ⟨.hbm, 382, rfl⟩
abbrev main_v260 : Ref sig .tc := ⟨.hbm, 383, rfl⟩
abbrev main_v261 : Ref sig .tc := ⟨.hbm, 384, rfl⟩
abbrev main_v262 : Ref sig .tc := ⟨.hbm, 385, rfl⟩
abbrev main_v263 : Ref sig .tc := ⟨.hbm, 386, rfl⟩
abbrev main_v264 : Ref sig .tc := ⟨.hbm, 387, rfl⟩
abbrev main_cst_39 : Ref sig .tc := ⟨.hbm, 388, rfl⟩
abbrev main_v265 : Ref sig .tc := ⟨.hbm, 389, rfl⟩
abbrev main_v266 : Ref sig .tc := ⟨.hbm, 390, rfl⟩
abbrev main_v267 : Ref sig .tc := ⟨.hbm, 391, rfl⟩
abbrev main_v268 : Ref sig .tc := ⟨.hbm, 392, rfl⟩
abbrev main_v269 : Ref sig .tc := ⟨.hbm, 393, rfl⟩
abbrev main_v270 : Ref sig .tc := ⟨.hbm, 394, rfl⟩
abbrev main_v271 : Ref sig .tc := ⟨.hbm, 395, rfl⟩
abbrev main_v272 : Ref sig .tc := ⟨.hbm, 396, rfl⟩
abbrev main_call9_cst : Ref sig .tc := ⟨.hbm, 397, rfl⟩
abbrev main_call9_v0 : Ref sig .tc := ⟨.hbm, 398, rfl⟩
abbrev main_v273 : Ref sig .tc := ⟨.hbm, 399, rfl⟩
abbrev main_v274 : Ref sig .tc := ⟨.hbm, 400, rfl⟩
abbrev main_v275 : Ref sig .tc := ⟨.hbm, 401, rfl⟩
abbrev main_v276 : Ref sig .tc := ⟨.hbm, 402, rfl⟩
abbrev main_v277 : Ref sig .tc := ⟨.hbm, 403, rfl⟩
abbrev main_call10_cst : Ref sig .tc := ⟨.hbm, 404, rfl⟩
abbrev main_call10_v0 : Ref sig .tc := ⟨.hbm, 405, rfl⟩
abbrev main_v278 : Ref sig .tc := ⟨.hbm, 406, rfl⟩
abbrev main_v279 : Ref sig .tc := ⟨.hbm, 407, rfl⟩
abbrev main_v280 : Ref sig .tc := ⟨.hbm, 408, rfl⟩
abbrev main_v281 : Ref sig .tc := ⟨.hbm, 409, rfl⟩
abbrev main_v282 : Ref sig .tc := ⟨.hbm, 410, rfl⟩
abbrev main_call11_cst : Ref sig .tc := ⟨.hbm, 411, rfl⟩
abbrev main_call11_v0 : Ref sig .tc := ⟨.hbm, 412, rfl⟩
abbrev main_v283 : Ref sig .tc := ⟨.hbm, 413, rfl⟩
abbrev main_v284 : Ref sig .tc := ⟨.hbm, 414, rfl⟩
abbrev main_v285 : Ref sig .tc := ⟨.hbm, 415, rfl⟩
abbrev main_v286 : Ref sig .tc := ⟨.hbm, 416, rfl⟩
abbrev main_v287 : Ref sig .tc := ⟨.hbm, 417, rfl⟩
abbrev main_cst_40 : Ref sig .tc := ⟨.hbm, 418, rfl⟩
abbrev main_v288 : Ref sig .tc := ⟨.hbm, 419, rfl⟩
abbrev main_cst_41 : Ref sig .tc := ⟨.hbm, 420, rfl⟩
abbrev main_v289 : Ref sig .tc := ⟨.hbm, 421, rfl⟩
abbrev main_v290 : Ref sig .tc := ⟨.hbm, 422, rfl⟩
abbrev main_v291 : Ref sig .tc := ⟨.hbm, 423, rfl⟩
abbrev main_v292 : Ref sig .tc := ⟨.hbm, 424, rfl⟩
abbrev main_v293 : Ref sig .tc := ⟨.hbm, 425, rfl⟩
abbrev main_v294 : Ref sig .tc := ⟨.hbm, 426, rfl⟩
abbrev main_cst_42 : Ref sig .tc := ⟨.hbm, 427, rfl⟩
abbrev main_v295 : Ref sig .tc := ⟨.hbm, 428, rfl⟩
abbrev main_v296 : Ref sig .tc := ⟨.hbm, 429, rfl⟩
abbrev main_v297 : Ref sig .tc := ⟨.hbm, 430, rfl⟩
abbrev main_v298 : Ref sig .tc := ⟨.hbm, 431, rfl⟩
abbrev main_v299 : Ref sig .tc := ⟨.hbm, 432, rfl⟩
abbrev main_v300 : Ref sig .tc := ⟨.hbm, 433, rfl⟩
abbrev main_v301 : Ref sig .tc := ⟨.hbm, 434, rfl⟩
abbrev main_v302 : Ref sig .tc := ⟨.hbm, 435, rfl⟩
abbrev main_v303 : Ref sig .tc := ⟨.hbm, 436, rfl⟩
abbrev main_v304 : Ref sig .tc := ⟨.hbm, 437, rfl⟩
abbrev main_v305 : Ref sig .tc := ⟨.hbm, 438, rfl⟩
abbrev main_v306 : Ref sig .tc := ⟨.hbm, 439, rfl⟩
abbrev main_v307 : Ref sig .tc := ⟨.hbm, 440, rfl⟩
abbrev main_v308 : Ref sig .tc := ⟨.hbm, 441, rfl⟩
abbrev main_v309 : Ref sig .tc := ⟨.hbm, 442, rfl⟩
abbrev main_v310 : Ref sig .tc := ⟨.hbm, 443, rfl⟩
abbrev main_v311 : Ref sig .tc := ⟨.hbm, 444, rfl⟩
abbrev main_v312 : Ref sig .tc := ⟨.hbm, 445, rfl⟩
abbrev main_v313 : Ref sig .tc := ⟨.hbm, 446, rfl⟩
abbrev main_cst_43 : Ref sig .tc := ⟨.hbm, 447, rfl⟩
abbrev main_v314 : Ref sig .tc := ⟨.hbm, 448, rfl⟩
abbrev main_v315 : Ref sig .tc := ⟨.hbm, 449, rfl⟩
abbrev main_v316 : Ref sig .tc := ⟨.hbm, 450, rfl⟩
abbrev main_v317 : Ref sig .tc := ⟨.hbm, 451, rfl⟩
abbrev main_v318 : Ref sig .tc := ⟨.hbm, 452, rfl⟩
abbrev main_v319 : Ref sig .tc := ⟨.hbm, 453, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem4_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S20000x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 25], ![false, false]⟩

def cc1_transform_0 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S20000x20 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S20000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x20 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x20 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x20 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x20 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x20 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  transposes_S48x14_S14x48_1_0 : S48x14.Transposes [1, 0] S14x48
  bcast_S48_S1x48_1 : S48.BroadcastsInDim S1x48 (![1] : Fin 1 → Fin S1x48.rank)
  transposes_S72x48_S48x72_1_0 : S72x48.Transposes [1, 0] S48x72
  bcast_S72_S1x72_1 : S72.BroadcastsInDim S1x72 (![1] : Fin 1 → Fin S1x72.rank)
  transposes_S92x72_S72x92_1_0 : S92x72.Transposes [1, 0] S72x92
  bcast_S92_S1x92_1 : S92.BroadcastsInDim S1x92 (![1] : Fin 1 → Fin S1x92.rank)
  transposes_S3x72_S72x3_1_0 : S3x72.Transposes [1, 0] S72x3
  bcast_S3_S1x3_1 : S3.BroadcastsInDim S1x3 (![1] : Fin 1 → Fin S1x3.rank)
  slices_S1x92_S1x26_0_0 : S1x92.Slices ![0, 0] S1x26
  shapeCasts_S1x26_S26 : S1x26.ShapeCasts S26
  bcast_S26_S1x26_1 : S26.BroadcastsInDim S1x26 (![1] : Fin 1 → Fin S1x26.rank)
  slices_S1x92_S1x26_0_26 : S1x92.Slices ![0, 26] S1x26
  slices_S1x92_S1x20_0_52 : S1x92.Slices ![0, 52] S1x20
  shapeCasts_S1x20_S20 : S1x20.ShapeCasts S20
  bcast_S20_S1x20_1 : S20.BroadcastsInDim S1x20 (![1] : Fin 1 → Fin S1x20.rank)
  bcast_S_S1x20 : S_.BroadcastsInDim S1x20 (![] : Fin 0 → Fin S1x20.rank)
  slices_S1x92_S1x20_0_72 : S1x92.Slices ![0, 72] S1x20
  slices_S1x26_S1x20_0_0 : S1x26.Slices ![0, 0] S1x20
  slices_S1x26_S1x1_0_20 : S1x26.Slices ![0, 20] S1x1
  shapeCasts_S1x1_S_ : S1x1.ShapeCasts S_
  slices_S1x26_S1x3_0_21 : S1x26.Slices ![0, 21] S1x3
  shapeCasts_S1x3_S3 : S1x3.ShapeCasts S3
  reducesTo_S3_S_d0 : S3.ReducesTo [0] S_
  h_S_ : 0 < S_.numel
  bcast_S_S1 : S_.BroadcastsInDim S1 (![] : Fin 0 → Fin S1.rank)
  bcast_S1_S3_0 : S1.BroadcastsInDim S3 (![0] : Fin 1 → Fin S3.rank)
  slices_S1x26_S1x1_0_24 : S1x26.Slices ![0, 24] S1x1
  slices_S1x26_S1x1_0_25 : S1x26.Slices ![0, 25] S1x1
  inb_S20000x20_S20000x20_0_0 : ∀ a, (![0, 0] : Fin 2 → Nat) a + S20000x20.size a ≤ S20000x20.size a
  h_S20000x20 : 0 < S20000x20.numel
  reduces_S20000x20_S20000 : S20000x20.Reduces [1] S20000
  shapeCasts_S20000_S20000x1 : S20000.ShapeCasts S20000x1
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S20000x20 : S1x20.Broadcasts S20000x20
  concatenates_S20000x1_S20000x1_S20000x1_S20000x3_d1 : Shape.Concatenates [S20000x1, S20000x1, S20000x1] S20000x3 1
  inb_S20000x3_S20000x3_0_0 : ∀ a, (![0, 0] : Fin 2 → Nat) a + S20000x3.size a ≤ S20000x3.size a
  h_S20000x3 : 0 < S20000x3.numel
  slices_S1000000x3_S1000000x1_0_0 : S1000000x3.Slices ![0, 0] S1000000x1
  slices_S1000000x3_S1000000x1_0_1 : S1000000x3.Slices ![0, 1] S1000000x1
  slices_S1000000x3_S1000000x1_0_2 : S1000000x3.Slices ![0, 2] S1000000x1
  reducesTo_S1x20_S1_d1 : S1x20.ReducesTo [1] S1
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  shapeCasts_S1000000x1_S1x1000000 : S1000000x1.ShapeCasts S1x1000000
  reducesTo_S1x1000000_S1_d1 : S1x1000000.ReducesTo [1] S1
  bcast_S1_S1x1_0 : S1.BroadcastsInDim S1x1 (![0] : Fin 1 → Fin S1x1.rank)
  bcast_S1x1_S1x1000000_0_1 : S1x1.BroadcastsInDim S1x1000000 (![0, 1] : Fin 2 → Fin S1x1000000.rank)
  bcast_S_S1x1000000 : S_.BroadcastsInDim S1x1000000 (![] : Fin 0 → Fin S1x1000000.rank)
  slices_S1x1000000_S1x1_0_999999 : S1x1000000.Slices ![0, 999999] S1x1
  slices_S1x1000000_S1x1_0_0 : S1x1000000.Slices ![0, 0] S1x1
  concatenates_S1x1_S1x1000000_S1x1_S1x1000002_d1 : Shape.Concatenates [S1x1, S1x1000000, S1x1] S1x1000002 1
  slices_S3_S1_0 : S3.Slices ![0] S1
  shapeCasts_S1_S_ : S1.ShapeCasts S_
  slices_S1x1000002_S1x1000000_0_0 : S1x1000002.Slices ![0, 0] S1x1000000
  slices_S3_S1_1 : S3.Slices ![1] S1
  slices_S1x1000002_S1x1000000_0_1 : S1x1000002.Slices ![0, 1] S1x1000000
  slices_S3_S1_2 : S3.Slices ![2] S1
  slices_S1x1000002_S1x1000000_0_2 : S1x1000002.Slices ![0, 2] S1x1000000
  bcast_S_S1x1 : S_.BroadcastsInDim S1x1 (![] : Fin 0 → Fin S1x1.rank)
  shapeCasts_S1x1000000_S1000000x1 : S1x1000000.ShapeCasts S1000000x1
  inb_S1x1x20_S1x1x20_0_0_0 : ∀ a, (![0, 0, 0] : Fin 3 → Nat) a + S1x1x20.size a ≤ S1x1x20.size a
  h_S1x1x20 : 0 < S1x1x20.numel
  inb_S20000x1_S20000x1_0_0 : ∀ a, (![0, 0] : Fin 2 → Nat) a + S20000x1.size a ≤ S20000x1.size a
  h_S20000x1 : 0 < S20000x1.numel
  shapeCasts_S20000x1_S20000x1 : S20000x1.ShapeCasts S20000x1
  broadcasts_S20000x1_S20000x20 : S20000x1.Broadcasts S20000x20
  reduces_S20000x20_S20 : S20000x20.Reduces [0] S20
  shapeCasts_S20_S1x20 : S20.ShapeCasts S1x20
  shapeCasts_S1x1x20_S1x1x20 : S1x1x20.ShapeCasts S1x1x20
  shapeCasts_S1x20_S1x1x20 : S1x20.ShapeCasts S1x1x20
  shapeCasts_S2x1x20_S2x20 : S2x1x20.ShapeCasts S2x20
  reducesTo_S2x20_S20_d0 : S2x20.ReducesTo [0] S20
  concatenates_S1x20_S1x20_S1x40_d1 : Shape.Concatenates [S1x20, S1x20] S1x40 1
  slices_S1x3_S1x1_0_0 : S1x3.Slices ![0, 0] S1x1
  slices_S1x3_S1x2_0_1 : S1x3.Slices ![0, 1] S1x2
  reducesTo_S1x2_S1_d1 : S1x2.ReducesTo [1] S1
  bcast_S1x1_S1x2_0_1 : S1x1.BroadcastsInDim S1x2 (![0, 1] : Fin 2 → Fin S1x2.rank)
  transposes_S110x40_S40x110_1_0 : S110x40.Transposes [1, 0] S40x110
  bcast_S110_S1x110_1 : S110.BroadcastsInDim S1x110 (![1] : Fin 1 → Fin S1x110.rank)
  bcast_S_S1x110 : S_.BroadcastsInDim S1x110 (![] : Fin 0 → Fin S1x110.rank)
  transposes_S190x110_S110x190_1_0 : S190x110.Transposes [1, 0] S110x190
  bcast_S190_S1x190_1 : S190.BroadcastsInDim S1x190 (![1] : Fin 1 → Fin S1x190.rank)
  bcast_S_S1x190 : S_.BroadcastsInDim S1x190 (![] : Fin 0 → Fin S1x190.rank)
  transposes_S270x190_S190x270_1_0 : S270x190.Transposes [1, 0] S190x270
  bcast_S270_S1x270_1 : S270.BroadcastsInDim S1x270 (![1] : Fin 1 → Fin S1x270.rank)
  bcast_S_S1x270 : S_.BroadcastsInDim S1x270 (![] : Fin 0 → Fin S1x270.rank)
  transposes_S325x270_S270x325_1_0 : S325x270.Transposes [1, 0] S270x325
  bcast_S325_S1x325_1 : S325.BroadcastsInDim S1x325 (![1] : Fin 1 → Fin S1x325.rank)
  reducesTo_S1x325_S1_d1 : S1x325.ReducesTo [1] S1
  bcast_S1x1_S1x325_0_1 : S1x1.BroadcastsInDim S1x325 (![0, 1] : Fin 2 → Fin S1x325.rank)
  slices_S1x2_S1x1_0_0 : S1x2.Slices ![0, 0] S1x1
  bcast_S_S1x325 : S_.BroadcastsInDim S1x325 (![] : Fin 0 → Fin S1x325.rank)
  slices_S1x2_S1x1_0_1 : S1x2.Slices ![0, 1] S1x1
  transposes_S20x325_S325x20_1_0 : S20x325.Transposes [1, 0] S325x20
  inb_S10000x20_S10000x20_0_0 : ∀ a, (![0, 0] : Fin 2 → Nat) a + S10000x20.size a ≤ S10000x20.size a
  h_S10000x20 : 0 < S10000x20.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S1x20_S10000x20 : S1x20.Broadcasts S10000x20
  broadcasts_S10000x1_S10000x20 : S10000x1.Broadcasts S10000x20
  dot_S1x14_S14x48_S1x48_1_0_0_1_n_n_wf : DotDims.WF S1x14 S14x48 S1x48 [1] [0] [0] [1] [] []
  dot_S1x48_S48x72_S1x72_1_0_0_1_n_n_wf : DotDims.WF S1x48 S48x72 S1x72 [1] [0] [0] [1] [] []
  dot_S1x72_S72x92_S1x92_1_0_0_1_n_n_wf : DotDims.WF S1x72 S72x92 S1x92 [1] [0] [0] [1] [] []
  dot_S1x72_S72x3_S1x3_1_0_0_1_n_n_wf : DotDims.WF S1x72 S72x3 S1x3 [1] [0] [0] [1] [] []
  dot_S1x40_S40x110_S1x110_1_0_0_1_n_n_wf : DotDims.WF S1x40 S40x110 S1x110 [1] [0] [0] [1] [] []
  dot_S1x110_S110x190_S1x190_1_0_0_1_n_n_wf : DotDims.WF S1x110 S110x190 S1x190 [1] [0] [0] [1] [] []
  dot_S1x190_S190x270_S1x270_1_0_0_1_n_n_wf : DotDims.WF S1x190 S190x270 S1x270 [1] [0] [0] [1] [] []
  dot_S1x270_S270x325_S1x325_1_0_0_1_n_n_wf : DotDims.WF S1x270 S270x325 S1x325 [1] [0] [0] [1] [] []
  dot_S1x325_S325x20_S1x20_1_0_0_1_n_n_wf : DotDims.WF S1x325 S325x20 S1x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x20.size a ≤ S1000000x20.size a
  hwx0_0 : ∀ i : grid0.Coords, EltTy.bits .f32 = 32 ∨ (Rect.block (s := S1000000x20) S20000x20.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x20.size a ≤ S1x20.size a
  hwx0_1 : ∀ i : grid0.Coords, EltTy.bits .f32 = 32 ∨ (Rect.block (s := S1x20) S1x20.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x20.size a ≤ S1x20.size a
  hwx0_2 : ∀ i : grid0.Coords, EltTy.bits .f32 = 32 ∨ (Rect.block (s := S1x20) S1x20.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S20000x3.size a ≤ S1000000x3.size a
  hwx0_3 : ∀ i : grid0.Coords, EltTy.bits .f32 = 32 ∨ (Rect.block (s := S1000000x3) S20000x3.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x20.size a ≤ S1000000x20.size a
  hwx1_0 : ∀ i : grid1.Coords, EltTy.bits .f32 = 32 ∨ (Rect.block (s := S1000000x20) S20000x20.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S20000x1.size a ≤ S1000000x1.size a
  hwx1_1 : ∀ i : grid1.Coords, EltTy.bits .f32 = 32 ∨ (Rect.block (s := S1000000x1) S20000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x20.size a ≤ S2x1x20.size a
  hwx1_2 : ∀ i : grid1.Coords, EltTy.bits .f32 = 32 ∨ (Rect.block (s := S2x1x20) S1x1x20.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x20.size a ≤ S1000000x20.size a
  hwx2_0 : ∀ i : grid2.Coords, EltTy.bits .f32 = 32 ∨ (Rect.block (s := S1000000x20) S10000x20.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S1000000x1.size a
  hwx2_1 : ∀ i : grid2.Coords, EltTy.bits .f32 = 32 ∨ (Rect.block (s := S1000000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x20.size a ≤ S1x20.size a
  hwx2_2 : ∀ i : grid2.Coords, EltTy.bits .f32 = 32 ∨ (Rect.block (s := S1x20) S1x20.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x20.size a ≤ S1x20.size a
  hwx2_3 : ∀ i : grid2.Coords, EltTy.bits .f32 = 32 ∨ (Rect.block (s := S1x20) S1x20.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x20.size a ≤ S1000000x20.size a
  hwx2_4 : ∀ i : grid2.Coords, EltTy.bits .f32 = 32 ∨ (Rect.block (s := S1000000x20) S10000x20.size (cc2_transform_4 i) (hinb2_4 i)).WholeWords (EltTy.packing .f32)

variable [Facts₀]

def dot_S1x14_S14x48_S1x48_1_0_0_1_n_n : DotDims S1x14 S14x48 S1x48 where
  lhsContracting := [1]
  rhsContracting := [0]
  lhsNonContracting := [0]
  rhsNonContracting := [1]
  lhsBatch := []
  rhsBatch := []
  wf := dot_S1x14_S14x48_S1x48_1_0_0_1_n_n_wf
def dot_S1x48_S48x72_S1x72_1_0_0_1_n_n : DotDims S1x48 S48x72 S1x72 where
  lhsContracting := [1]
  rhsContracting := [0]
  lhsNonContracting := [0]
  rhsNonContracting := [1]
  lhsBatch := []
  rhsBatch := []
  wf := dot_S1x48_S48x72_S1x72_1_0_0_1_n_n_wf
def dot_S1x72_S72x92_S1x92_1_0_0_1_n_n : DotDims S1x72 S72x92 S1x92 where
  lhsContracting := [1]
  rhsContracting := [0]
  lhsNonContracting := [0]
  rhsNonContracting := [1]
  lhsBatch := []
  rhsBatch := []
  wf := dot_S1x72_S72x92_S1x92_1_0_0_1_n_n_wf
def dot_S1x72_S72x3_S1x3_1_0_0_1_n_n : DotDims S1x72 S72x3 S1x3 where
  lhsContracting := [1]
  rhsContracting := [0]
  lhsNonContracting := [0]
  rhsNonContracting := [1]
  lhsBatch := []
  rhsBatch := []
  wf := dot_S1x72_S72x3_S1x3_1_0_0_1_n_n_wf
def dot_S1x40_S40x110_S1x110_1_0_0_1_n_n : DotDims S1x40 S40x110 S1x110 where
  lhsContracting := [1]
  rhsContracting := [0]
  lhsNonContracting := [0]
  rhsNonContracting := [1]
  lhsBatch := []
  rhsBatch := []
  wf := dot_S1x40_S40x110_S1x110_1_0_0_1_n_n_wf
def dot_S1x110_S110x190_S1x190_1_0_0_1_n_n : DotDims S1x110 S110x190 S1x190 where
  lhsContracting := [1]
  rhsContracting := [0]
  lhsNonContracting := [0]
  rhsNonContracting := [1]
  lhsBatch := []
  rhsBatch := []
  wf := dot_S1x110_S110x190_S1x190_1_0_0_1_n_n_wf
def dot_S1x190_S190x270_S1x270_1_0_0_1_n_n : DotDims S1x190 S190x270 S1x270 where
  lhsContracting := [1]
  rhsContracting := [0]
  lhsNonContracting := [0]
  rhsNonContracting := [1]
  lhsBatch := []
  rhsBatch := []
  wf := dot_S1x190_S190x270_S1x270_1_0_0_1_n_n_wf
def dot_S1x270_S270x325_S1x325_1_0_0_1_n_n : DotDims S1x270 S270x325 S1x325 where
  lhsContracting := [1]
  rhsContracting := [0]
  lhsNonContracting := [0]
  rhsNonContracting := [1]
  lhsBatch := []
  rhsBatch := []
  wf := dot_S1x270_S270x325_S1x325_1_0_0_1_n_n_wf
def dot_S1x325_S325x20_S1x20_1_0_0_1_n_n : DotDims S1x325 S325x20 S1x20 where
  lhsContracting := [1]
  rhsContracting := [0]
  lhsNonContracting := [0]
  rhsNonContracting := [1]
  lhsBatch := []
  rhsBatch := []
  wf := dot_S1x325_S325x20_S1x20_1_0_0_1_n_n_wf

abbrev win0_0 : Pipeline.Window sig grid0 :=
  Pipeline.Window.ofSpec (Memref.whole main_arg3) S20000x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v94) S1x20.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v96) S1x20.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v97) S20000x3.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg3) S20000x20.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v215) S20000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v216) S1x1x20.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg3) S10000x20.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v318) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S1x20.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v317) S1x20.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v319) S10000x20.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S1x14 : Shape := ⟨2, ![1, 14]⟩
abbrev S1x1000000 : Shape := ⟨2, ![1, 1000000]⟩
abbrev S1000000x20 : Shape := ⟨2, ![1000000, 20]⟩
abbrev S1x20 : Shape := ⟨2, ![1, 20]⟩
abbrev S48x14 : Shape := ⟨2, ![48, 14]⟩
abbrev S48 : Shape := ⟨1, ![48]⟩
abbrev S72x48 : Shape := ⟨2, ![72, 48]⟩
abbrev S72 : Shape := ⟨1, ![72]⟩
abbrev S92x72 : Shape := ⟨2, ![92, 72]⟩
abbrev S92 : Shape := ⟨1, ![92]⟩
abbrev S3x72 : Shape := ⟨2, ![3, 72]⟩
abbrev S3 : Shape := ⟨1, ![3]⟩
abbrev S20x325 : Shape := ⟨2, ![20, 325]⟩
abbrev S20 : Shape := ⟨1, ![20]⟩
abbrev S110x40 : Shape := ⟨2, ![110, 40]⟩
abbrev S110 : Shape := ⟨1, ![110]⟩
abbrev S190x110 : Shape := ⟨2, ![190, 110]⟩
abbrev S190 : Shape := ⟨1, ![190]⟩
abbrev S270x190 : Shape := ⟨2, ![270, 190]⟩
abbrev S270 : Shape := ⟨1, ![270]⟩
abbrev S325x270 : Shape := ⟨2, ![325, 270]⟩
abbrev S325 : Shape := ⟨1, ![325]⟩
abbrev S14x48 : Shape := ⟨2, ![14, 48]⟩
abbrev S1x48 : Shape := ⟨2, ![1, 48]⟩
abbrev S48x72 : Shape := ⟨2, ![48, 72]⟩
abbrev S1x72 : Shape := ⟨2, ![1, 72]⟩
abbrev S72x92 : Shape := ⟨2, ![72, 92]⟩
abbrev S1x92 : Shape := ⟨2, ![1, 92]⟩
abbrev S72x3 : Shape := ⟨2, ![72, 3]⟩
abbrev S1x3 : Shape := ⟨2, ![1, 3]⟩
abbrev S1x26 : Shape := ⟨2, ![1, 26]⟩
abbrev S26 : Shape := ⟨1, ![26]⟩
abbrev S_ : Shape := ⟨0, ![]⟩
abbrev S1x1 : Shape := ⟨2, ![1, 1]⟩
abbrev S1 : Shape := ⟨1, ![1]⟩
abbrev S20x1 : Shape := ⟨2, ![20, 1]⟩
abbrev S1000000x1 : Shape := ⟨2, ![1000000, 1]⟩
abbrev S1000000 : Shape := ⟨1, ![1000000]⟩
abbrev S1x1000002 : Shape := ⟨2, ![1, 1000002]⟩
abbrev S1x40 : Shape := ⟨2, ![1, 40]⟩
abbrev S1x2 : Shape := ⟨2, ![1, 2]⟩
abbrev S40x110 : Shape := ⟨2, ![40, 110]⟩
abbrev S1x110 : Shape := ⟨2, ![1, 110]⟩
abbrev S110x190 : Shape := ⟨2, ![110, 190]⟩
abbrev S1x190 : Shape := ⟨2, ![1, 190]⟩
abbrev S190x270 : Shape := ⟨2, ![190, 270]⟩
abbrev S1x270 : Shape := ⟨2, ![1, 270]⟩
abbrev S270x325 : Shape := ⟨2, ![270, 325]⟩
abbrev S1x325 : Shape := ⟨2, ![1, 325]⟩
abbrev S325x20 : Shape := ⟨2, ![325, 20]⟩

abbrev nBuf : Space → Nat
  | .hbm => 468
  | .vmem => 0
  | .smem => 0
  | _ => 0

abbrev hbmTy0_0 (i : Nat) : BufTy := match i % 128 with
  | 0 => ⟨S1x14, .f32⟩
  | 1 => ⟨S1x1000000, .f32⟩
  | 2 => ⟨S1x1000000, .f32⟩
  | 3 => ⟨S1000000x20, .f32⟩
  | 4 => ⟨S1x20, .f32⟩
  | 5 => ⟨S48x14, .f32⟩
  | 6 => ⟨S48, .f32⟩
  | 7 => ⟨S72x48, .f32⟩
  | 8 => ⟨S72, .f32⟩
  | 9 => ⟨S92x72, .f32⟩
  | 10 => ⟨S92, .f32⟩
  | 11 => ⟨S3x72, .f32⟩
  | 12 => ⟨S3, .f32⟩
  | 13 => ⟨S20x325, .f32⟩
  | 14 => ⟨S20, .f32⟩
  | 15 => ⟨S110x40, .f32⟩
  | 16 => ⟨S110, .f32⟩
  | 17 => ⟨S190x110, .f32⟩
  | 18 => ⟨S190, .f32⟩
  | 19 => ⟨S270x190, .f32⟩
  | 20 => ⟨S270, .f32⟩
  | 21 => ⟨S325x270, .f32⟩
  | 22 => ⟨S325, .f32⟩
  | 23 => ⟨S110x40, .f32⟩
  | 24 => ⟨S110, .f32⟩
  | 25 => ⟨S190x110, .f32⟩
  | 26 => ⟨S190, .f32⟩
  | 27 => ⟨S270x190, .f32⟩
  | 28 => ⟨S270, .f32⟩
  | 29 => ⟨S325x270, .f32⟩
  | 30 => ⟨S325, .f32⟩
  | 31 => ⟨S14x48, .f32⟩
  | 32 => ⟨S1x48, .f32⟩
  | 33 => ⟨S1x48, .f32⟩
  | 34 => ⟨S1x48, .f32⟩
  | 35 => ⟨S48x72, .f32⟩
  | 36 => ⟨S1x72, .f32⟩
  | 37 => ⟨S1x72, .f32⟩
  | 38 => ⟨S1x72, .f32⟩
  | 39 => ⟨S72x92, .f32⟩
  | 40 => ⟨S1x92, .f32⟩
  | 41 => ⟨S1x92, .f32⟩
  | 42 => ⟨S1x92, .f32⟩
  | 43 => ⟨S72x3, .f32⟩
  | 44 => ⟨S1x3, .f32⟩
  | 45 => ⟨S1x3, .f32⟩
  | 46 => ⟨S1x3, .f32⟩
  | 47 => ⟨S1x26, .f32⟩
  | 48 => ⟨S26, .f32⟩
  | 49 => ⟨S1x26, .f32⟩
  | 50 => ⟨S1x26, .f32⟩
  | 51 => ⟨S26, .f32⟩
  | 52 => ⟨S1x26, .f32⟩
  | 53 => ⟨S1x20, .f32⟩
  | 54 => ⟨S20, .f32⟩
  | 55 => ⟨S1x20, .f32⟩
  | 56 => ⟨S1x20, .f32⟩
  | 57 => ⟨S1x20, .f32⟩
  | 58 => ⟨S_, .f32⟩
  | 59 => ⟨S1x20, .f32⟩
  | 60 => ⟨S1x20, .f32⟩
  | 61 => ⟨S_, .f32⟩
  | 62 => ⟨S1x20, .f32⟩
  | 63 => ⟨S1x20, .f32⟩
  | 64 => ⟨S1x20, .f32⟩
  | 65 => ⟨S20, .f32⟩
  | 66 => ⟨S1x20, .f32⟩
  | 67 => ⟨S1x20, .f32⟩
  | 68 => ⟨S1x20, .f32⟩
  | 69 => ⟨S20, .f32⟩
  | 70 => ⟨S20, .f32⟩
  | 71 => ⟨S1x20, .f32⟩
  | 72 => ⟨S1x1, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S1x3, .f32⟩
  | 81 => ⟨S3, .f32⟩
  | 82 => ⟨S_, .f32⟩
  | 83 => ⟨S_, .f32⟩
  | 84 => ⟨S_, .f32⟩
  | 85 => ⟨S_, .f32⟩
  | 86 => ⟨S1, .f32⟩
  | 87 => ⟨S3, .f32⟩
  | 88 => ⟨S3, .f32⟩
  | 89 => ⟨S3, .f32⟩
  | 90 => ⟨S_, .f32⟩
  | 91 => ⟨S_, .f32⟩
  | 92 => ⟨S1, .f32⟩
  | 93 => ⟨S3, .f32⟩
  | 94 => ⟨S3, .f32⟩
  | 95 => ⟨S1x1, .f32⟩
  | 96 => ⟨S_, .f32⟩
  | 97 => ⟨S_, .f32⟩
  | 98 => ⟨S_, .f32⟩
  | 99 => ⟨S_, .f32⟩
  | 100 => ⟨S_, .i1⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S1x1, .f32⟩
  | 111 => ⟨S_, .f32⟩
  | 112 => ⟨S_, .f32⟩
  | 113 => ⟨S_, .f32⟩
  | 114 => ⟨S_, .f32⟩
  | 115 => ⟨S_, .i1⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S1000000x20, .f32⟩
  | 125 => ⟨S1000000x20, .f32⟩
  | 126 => ⟨S_, .f32⟩
  | 127 => ⟨S1x20, .f32⟩
  | _ => ⟨S1x14, .f32⟩

abbrev hbmTy0_1 (i : Nat) : BufTy := match i % 128 with
  | 0 => ⟨S1x20, .f32⟩
  | 1 => ⟨S20x1, .f32⟩
  | 2 => ⟨S1000000x1, .f32⟩
  | 3 => ⟨S1000000, .f32⟩
  | 4 => ⟨S1000000x20, .f32⟩
  | 5 => ⟨S_, .f32⟩
  | 6 => ⟨S1000000, .f32⟩
  | 7 => ⟨S1000000, .f32⟩
  | 8 => ⟨S_, .f32⟩
  | 9 => ⟨S1000000, .f32⟩
  | 10 => ⟨S1000000, .f32⟩
  | 11 => ⟨S1x20, .f32⟩
  | 12 => ⟨S_, .f32⟩
  | 13 => ⟨S1, .f32⟩
  | 14 => ⟨S1, .f32⟩
  | 15 => ⟨S_, .f32⟩
  | 16 => ⟨S1, .f32⟩
  | 17 => ⟨S1, .f32⟩
  | 18 => ⟨S1000000, .f32⟩
  | 19 => ⟨S1000000, .f32⟩
  | 20 => ⟨S1000000, .f32⟩
  | 21 => ⟨S1000000, .f32⟩
  | 22 => ⟨S1000000, .f32⟩
  | 23 => ⟨S_, .f32⟩
  | 24 => ⟨S_, .f32⟩
  | 25 => ⟨S_, .f32⟩
  | 26 => ⟨S_, .f32⟩
  | 27 => ⟨S1, .f32⟩
  | 28 => ⟨S1000000, .f32⟩
  | 29 => ⟨S1000000, .f32⟩
  | 30 => ⟨S1000000, .f32⟩
  | 31 => ⟨S_, .f32⟩
  | 32 => ⟨S_, .f32⟩
  | 33 => ⟨S1, .f32⟩
  | 34 => ⟨S1000000, .f32⟩
  | 35 => ⟨S1000000, .f32⟩
  | 36 => ⟨S1000000, .f32⟩
  | 37 => ⟨S1000000, .f32⟩
  | 38 => ⟨S_, .f32⟩
  | 39 => ⟨S_, .f32⟩
  | 40 => ⟨S1x1000000, .f32⟩
  | 41 => ⟨S1x1000000, .f32⟩
  | 42 => ⟨S1x1000000, .f32⟩
  | 43 => ⟨S1x1000000, .f32⟩
  | 44 => ⟨S1x1, .f32⟩
  | 45 => ⟨S1x1, .f32⟩
  | 46 => ⟨S1x1000002, .f32⟩
  | 47 => ⟨S1, .f32⟩
  | 48 => ⟨S_, .f32⟩
  | 49 => ⟨S1x1000000, .f32⟩
  | 50 => ⟨S1x1000000, .f32⟩
  | 51 => ⟨S1x1000000, .f32⟩
  | 52 => ⟨S1, .f32⟩
  | 53 => ⟨S_, .f32⟩
  | 54 => ⟨S1x1000000, .f32⟩
  | 55 => ⟨S1x1000000, .f32⟩
  | 56 => ⟨S1x1000000, .f32⟩
  | 57 => ⟨S1x1000000, .f32⟩
  | 58 => ⟨S1, .f32⟩
  | 59 => ⟨S_, .f32⟩
  | 60 => ⟨S1x1000000, .f32⟩
  | 61 => ⟨S1x1000000, .f32⟩
  | 62 => ⟨S1x1000000, .f32⟩
  | 63 => ⟨S1x1000000, .f32⟩
  | 64 => ⟨S1x1000000, .f32⟩
  | 65 => ⟨S1x1000000, .f32⟩
  | 66 => ⟨S_, .f32⟩
  | 67 => ⟨S1, .f32⟩
  | 68 => ⟨S1x1, .f32⟩
  | 69 => ⟨S_, .f32⟩
  | 70 => ⟨S1x1, .f32⟩
  | 71 => ⟨S1x1, .f32⟩
  | 72 => ⟨S1x1000000, .f32⟩
  | 73 => ⟨S1x1000000, .f32⟩
  | 74 => ⟨S1x20, .f32⟩
  | 75 => ⟨S20, .f32⟩
  | 76 => ⟨S20, .f32⟩
  | 77 => ⟨S1x20, .f32⟩
  | 78 => ⟨S1x1, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S1x3, .f32⟩
  | 87 => ⟨S3, .f32⟩
  | 88 => ⟨S_, .f32⟩
  | 89 => ⟨S_, .f32⟩
  | 90 => ⟨S_, .f32⟩
  | 91 => ⟨S_, .f32⟩
  | 92 => ⟨S1, .f32⟩
  | 93 => ⟨S3, .f32⟩
  | 94 => ⟨S3, .f32⟩
  | 95 => ⟨S3, .f32⟩
  | 96 => ⟨S_, .f32⟩
  | 97 => ⟨S_, .f32⟩
  | 98 => ⟨S1, .f32⟩
  | 99 => ⟨S3, .f32⟩
  | 100 => ⟨S3, .f32⟩
  | 101 => ⟨S1x1, .f32⟩
  | 102 => ⟨S_, .f32⟩
  | 103 => ⟨S_, .f32⟩
  | 104 => ⟨S_, .f32⟩
  | 105 => ⟨S_, .f32⟩
  | 106 => ⟨S_, .i1⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S1x1, .f32⟩
  | 117 => ⟨S_, .f32⟩
  | 118 => ⟨S_, .f32⟩
  | 119 => ⟨S_, .f32⟩
  | 120 => ⟨S_, .f32⟩
  | 121 => ⟨S_, .i1⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S1x14, .f32⟩

abbrev hbmTy0_2 (i : Nat) : BufTy := match i % 128 with
  | 0 => ⟨S_, .f32⟩
  | 1 => ⟨S_, .f32⟩
  | 2 => ⟨S1000000x20, .f32⟩
  | 3 => ⟨S1000000x20, .f32⟩
  | 4 => ⟨S_, .f32⟩
  | 5 => ⟨S1x20, .f32⟩
  | 6 => ⟨S1x20, .f32⟩
  | 7 => ⟨S20x1, .f32⟩
  | 8 => ⟨S1000000x1, .f32⟩
  | 9 => ⟨S1000000, .f32⟩
  | 10 => ⟨S1000000x20, .f32⟩
  | 11 => ⟨S_, .f32⟩
  | 12 => ⟨S1000000, .f32⟩
  | 13 => ⟨S1000000, .f32⟩
  | 14 => ⟨S_, .f32⟩
  | 15 => ⟨S1000000, .f32⟩
  | 16 => ⟨S1000000, .f32⟩
  | 17 => ⟨S1x20, .f32⟩
  | 18 => ⟨S_, .f32⟩
  | 19 => ⟨S1, .f32⟩
  | 20 => ⟨S1, .f32⟩
  | 21 => ⟨S_, .f32⟩
  | 22 => ⟨S1, .f32⟩
  | 23 => ⟨S1, .f32⟩
  | 24 => ⟨S1000000, .f32⟩
  | 25 => ⟨S1000000, .f32⟩
  | 26 => ⟨S1000000, .f32⟩
  | 27 => ⟨S1000000, .f32⟩
  | 28 => ⟨S1000000, .f32⟩
  | 29 => ⟨S_, .f32⟩
  | 30 => ⟨S_, .f32⟩
  | 31 => ⟨S_, .f32⟩
  | 32 => ⟨S_, .f32⟩
  | 33 => ⟨S1, .f32⟩
  | 34 => ⟨S1000000, .f32⟩
  | 35 => ⟨S1000000, .f32⟩
  | 36 => ⟨S1000000, .f32⟩
  | 37 => ⟨S_, .f32⟩
  | 38 => ⟨S_, .f32⟩
  | 39 => ⟨S1, .f32⟩
  | 40 => ⟨S1000000, .f32⟩
  | 41 => ⟨S1000000, .f32⟩
  | 42 => ⟨S1000000, .f32⟩
  | 43 => ⟨S1000000, .f32⟩
  | 44 => ⟨S_, .f32⟩
  | 45 => ⟨S_, .f32⟩
  | 46 => ⟨S1x1000000, .f32⟩
  | 47 => ⟨S1x1000000, .f32⟩
  | 48 => ⟨S1x1000000, .f32⟩
  | 49 => ⟨S1x1000000, .f32⟩
  | 50 => ⟨S1x1, .f32⟩
  | 51 => ⟨S1x1, .f32⟩
  | 52 => ⟨S1x1000002, .f32⟩
  | 53 => ⟨S1, .f32⟩
  | 54 => ⟨S_, .f32⟩
  | 55 => ⟨S1x1000000, .f32⟩
  | 56 => ⟨S1x1000000, .f32⟩
  | 57 => ⟨S1x1000000, .f32⟩
  | 58 => ⟨S1, .f32⟩
  | 59 => ⟨S_, .f32⟩
  | 60 => ⟨S1x1000000, .f32⟩
  | 61 => ⟨S1x1000000, .f32⟩
  | 62 => ⟨S1x1000000, .f32⟩
  | 63 => ⟨S1x1000000, .f32⟩
  | 64 => ⟨S1, .f32⟩
  | 65 => ⟨S_, .f32⟩
  | 66 => ⟨S1x1000000, .f32⟩
  | 67 => ⟨S1x1000000, .f32⟩
  | 68 => ⟨S1x1000000, .f32⟩
  | 69 => ⟨S1x1000000, .f32⟩
  | 70 => ⟨S1x1000000, .f32⟩
  | 71 => ⟨S1x1000000, .f32⟩
  | 72 => ⟨S_, .f32⟩
  | 73 => ⟨S1, .f32⟩
  | 74 => ⟨S1x1, .f32⟩
  | 75 => ⟨S_, .f32⟩
  | 76 => ⟨S1x1, .f32⟩
  | 77 => ⟨S1x1, .f32⟩
  | 78 => ⟨S1x1000000, .f32⟩
  | 79 => ⟨S1x1000000, .f32⟩
  | 80 => ⟨S1x20, .f32⟩
  | 81 => ⟨S1x40, .f32⟩
  | 82 => ⟨S1x1, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S1x2, .f32⟩
  | 91 => ⟨S_, .f32⟩
  | 92 => ⟨S1, .f32⟩
  | 93 => ⟨S_, .f32⟩
  | 94 => ⟨S1, .f32⟩
  | 95 => ⟨S1, .f32⟩
  | 96 => ⟨S1x1, .f32⟩
  | 97 => ⟨S1x2, .f32⟩
  | 98 => ⟨S1x2, .f32⟩
  | 99 => ⟨S1x2, .f32⟩
  | 100 => ⟨S_, .f32⟩
  | 101 => ⟨S1, .f32⟩
  | 102 => ⟨S1x1, .f32⟩
  | 103 => ⟨S1x2, .f32⟩
  | 104 => ⟨S1x2, .f32⟩
  | 105 => ⟨S40x110, .f32⟩
  | 106 => ⟨S1x110, .f32⟩
  | 107 => ⟨S1x110, .f32⟩
  | 108 => ⟨S1x110, .f32⟩
  | 109 => ⟨S_, .f32⟩
  | 110 => ⟨S1x110, .f32⟩
  | 111 => ⟨S1x110, .f32⟩
  | 112 => ⟨S110x190, .f32⟩
  | 113 => ⟨S1x190, .f32⟩
  | 114 => ⟨S1x190, .f32⟩
  | 115 => ⟨S1x190, .f32⟩
  | 116 => ⟨S_, .f32⟩
  | 117 => ⟨S1x190, .f32⟩
  | 118 => ⟨S1x190, .f32⟩
  | 119 => ⟨S190x270, .f32⟩
  | 120 => ⟨S1x270, .f32⟩
  | 121 => ⟨S1x270, .f32⟩
  | 122 => ⟨S1x270, .f32⟩
  | 123 => ⟨S_, .f32⟩
  | 124 => ⟨S1x270, .f32⟩
  | 125 => ⟨S1x270, .f32⟩
  | 126 => ⟨S270x325, .f32⟩
  | 127 => ⟨S1x325, .f32⟩
  | _ => ⟨S1x14, .f32⟩

abbrev hbmTy0_3 (i : Nat) : BufTy := match i % 128 with
  | 0 => ⟨S1x325, .f32⟩
  | 1 => ⟨S1x325, .f32⟩
  | 2 => ⟨S_, .f32⟩
  | 3 => ⟨S1, .f32⟩
  | 4 => ⟨S_, .f32⟩
  | 5 => ⟨S1, .f32⟩
  | 6 => ⟨S1, .f32⟩
  | 7 => ⟨S1x1, .f32⟩
  | 8 => ⟨S1x325, .f32⟩
  | 9 => ⟨S1x325, .f32⟩
  | 10 => ⟨S1x325, .f32⟩
  | 11 => ⟨S_, .f32⟩
  | 12 => ⟨S1, .f32⟩
  | 13 => ⟨S1x1, .f32⟩
  | 14 => ⟨S1x325, .f32⟩
  | 15 => ⟨S1x325, .f32⟩
  | 16 => ⟨S40x110, .f32⟩
  | 17 => ⟨S1x110, .f32⟩
  | 18 => ⟨S1x110, .f32⟩
  | 19 => ⟨S1x110, .f32⟩
  | 20 => ⟨S_, .f32⟩
  | 21 => ⟨S1x110, .f32⟩
  | 22 => ⟨S1x110, .f32⟩
  | 23 => ⟨S110x190, .f32⟩
  | 24 => ⟨S1x190, .f32⟩
  | 25 => ⟨S1x190, .f32⟩
  | 26 => ⟨S1x190, .f32⟩
  | 27 => ⟨S_, .f32⟩
  | 28 => ⟨S1x190, .f32⟩
  | 29 => ⟨S1x190, .f32⟩
  | 30 => ⟨S190x270, .f32⟩
  | 31 => ⟨S1x270, .f32⟩
  | 32 => ⟨S1x270, .f32⟩
  | 33 => ⟨S1x270, .f32⟩
  | 34 => ⟨S_, .f32⟩
  | 35 => ⟨S1x270, .f32⟩
  | 36 => ⟨S1x270, .f32⟩
  | 37 => ⟨S270x325, .f32⟩
  | 38 => ⟨S1x325, .f32⟩
  | 39 => ⟨S1x325, .f32⟩
  | 40 => ⟨S1x325, .f32⟩
  | 41 => ⟨S_, .f32⟩
  | 42 => ⟨S1, .f32⟩
  | 43 => ⟨S_, .f32⟩
  | 44 => ⟨S1, .f32⟩
  | 45 => ⟨S1, .f32⟩
  | 46 => ⟨S1x1, .f32⟩
  | 47 => ⟨S1x325, .f32⟩
  | 48 => ⟨S1x325, .f32⟩
  | 49 => ⟨S1x325, .f32⟩
  | 50 => ⟨S_, .f32⟩
  | 51 => ⟨S1, .f32⟩
  | 52 => ⟨S1x1, .f32⟩
  | 53 => ⟨S1x325, .f32⟩
  | 54 => ⟨S1x325, .f32⟩
  | 55 => ⟨S1x1, .f32⟩
  | 56 => ⟨S_, .f32⟩
  | 57 => ⟨S1x325, .f32⟩
  | 58 => ⟨S1x325, .f32⟩
  | 59 => ⟨S1x1, .f32⟩
  | 60 => ⟨S_, .f32⟩
  | 61 => ⟨S1x325, .f32⟩
  | 62 => ⟨S1x325, .f32⟩
  | 63 => ⟨S1x325, .f32⟩
  | 64 => ⟨S325x20, .f32⟩
  | 65 => ⟨S1x20, .f32⟩
  | 66 => ⟨S1x20, .f32⟩
  | 67 => ⟨S1x20, .f32⟩
  | 68 => ⟨S1x20, .f32⟩
  | 69 => ⟨S1x20, .f32⟩
  | 70 => ⟨S_, .f32⟩
  | 71 => ⟨S_, .f32⟩
  | 72 => ⟨S1x20, .f32⟩
  | 73 => ⟨S1x20, .f32⟩
  | 74 => ⟨S1x20, .f32⟩
  | 75 => ⟨S1000000x1, .f32⟩
  | 76 => ⟨S1000000x20, .f32⟩
  | 77 => ⟨S_, .f32⟩
  | 78 => ⟨S1000000x20, .f32⟩
  | 79 => ⟨S1000000x20, .f32⟩
  | 80 => ⟨S1000000x20, .f32⟩
  | 81 => ⟨S1000000x1, .f32⟩
  | 82 => ⟨S1000000x20, .f32⟩
  | 83 => ⟨S1000000x20, .f32⟩
  | _ => ⟨S1x14, .f32⟩

abbrev hbmTy (i : Nat) : BufTy := match i / 128 with
  | 0 => hbmTy0_0 i
  | 1 => hbmTy0_1 i
  | 2 => hbmTy0_2 i
  | 3 => hbmTy0_3 i
  | _ => ⟨S1x14, .f32⟩

abbrev bufTy : (tb : Table) → Fin (tcTables nBuf tb) → BufTy
  | .hbm, ⟨i, _⟩ => hbmTy i
  | _, _ => ⟨S1x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst : Ref sig .tc := ⟨.hbm, 58, rfl⟩
abbrev main_v27 : Ref sig .tc := ⟨.hbm, 59, rfl⟩
abbrev main_v28 : Ref sig .tc := ⟨.hbm, 60, rfl⟩
abbrev main_cst_0 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_1 : Ref sig .tc := ⟨.hbm, 76, rfl⟩
abbrev main_v43 : Ref sig .tc := ⟨.hbm, 77, rfl⟩
abbrev main_cst_2 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_cst_3 : Ref sig .tc := ⟨.hbm, 82, rfl⟩
abbrev main_v47 : Ref sig .tc := ⟨.hbm, 83, rfl⟩
abbrev main_cst_4 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_cst_5 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_call0_cst : Ref sig .tc := ⟨.hbm, 97, rfl⟩
abbrev main_call0_v0 : Ref sig .tc := ⟨.hbm, 98, rfl⟩
abbrev main_call0_v1 : Ref sig .tc := ⟨.hbm, 99, rfl⟩
abbrev main_call0_v2 : Ref sig .tc := ⟨.hbm, 100, rfl⟩
abbrev main_call0_v3 : Ref sig .tc := ⟨.hbm, 101, rfl⟩
abbrev main_call0_v4 : Ref sig .tc := ⟨.hbm, 102, rfl⟩
abbrev main_call0_v5 : Ref sig .tc := ⟨.hbm, 103, rfl⟩
abbrev main_call0_v6 : Ref sig .tc := ⟨.hbm, 104, rfl⟩
abbrev main_call0_v7 : Ref sig .tc := ⟨.hbm, 105, rfl⟩
abbrev main_call0_v8 : Ref sig .tc := ⟨.hbm, 106, rfl⟩
abbrev main_v59 : Ref sig .tc := ⟨.hbm, 107, rfl⟩
abbrev main_cst_6 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_call1_cst : Ref sig .tc := ⟨.hbm, 112, rfl⟩
abbrev main_call1_v0 : Ref sig .tc := ⟨.hbm, 113, rfl⟩
abbrev main_call1_v1 : Ref sig .tc := ⟨.hbm, 114, rfl⟩
abbrev main_call1_v2 : Ref sig .tc := ⟨.hbm, 115, rfl⟩
abbrev main_call1_v3 : Ref sig .tc := ⟨.hbm, 116, rfl⟩
abbrev main_call1_v4 : Ref sig .tc := ⟨.hbm, 117, rfl⟩
abbrev main_call1_v5 : Ref sig .tc := ⟨.hbm, 118, rfl⟩
abbrev main_call1_v6 : Ref sig .tc := ⟨.hbm, 119, rfl⟩
abbrev main_call1_v7 : Ref sig .tc := ⟨.hbm, 120, rfl⟩
abbrev main_call1_v8 : Ref sig .tc := ⟨.hbm, 121, rfl⟩
abbrev main_v63 : Ref sig .tc := ⟨.hbm, 122, rfl⟩
abbrev main_cst_7 : Ref sig .tc := ⟨.hbm, 123, rfl⟩
abbrev main_v64 : Ref sig .tc := ⟨.hbm, 124, rfl⟩
abbrev main_v65 : Ref sig .tc := ⟨.hbm, 125, rfl⟩
abbrev main_cst_8 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_call2_v0 : Ref sig .tc := ⟨.hbm, 132, rfl⟩
abbrev main_call2_cst : Ref sig .tc := ⟨.hbm, 133, rfl⟩
abbrev main_call2_v1 : Ref sig .tc := ⟨.hbm, 134, rfl⟩
abbrev main_v71 : Ref sig .tc := ⟨.hbm, 135, rfl⟩
abbrev main_cst_9 : Ref sig .tc := ⟨.hbm, 136, rfl⟩
abbrev main_v72 : Ref sig .tc := ⟨.hbm, 137, rfl⟩
abbrev main_v73 : Ref sig .tc := ⟨.hbm, 138, rfl⟩
abbrev main_call3_v0 : Ref sig .tc := ⟨.hbm, 139, rfl⟩
abbrev main_call3_cst : Ref sig .tc := ⟨.hbm, 140, rfl⟩
abbrev main_call3_v1 : Ref sig .tc := ⟨.hbm, 141, rfl⟩
abbrev main_v74 : Ref sig .tc := ⟨.hbm, 142, rfl⟩
abbrev main_cst_10 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_cst_11 : Ref sig .tc := ⟨.hbm, 151, rfl⟩
abbrev main_v82 : Ref sig .tc := ⟨.hbm, 152, rfl⟩
abbrev main_cst_12 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_cst_13 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_cst_14 : Ref sig .tc := ⟨.hbm, 166, rfl⟩
abbrev main_v94 : Ref sig .tc := ⟨.hbm, 167, rfl⟩
abbrev main_v95 : Ref sig .tc := ⟨.hbm, 168, rfl⟩
abbrev main_v96 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_cst_15 : Ref sig .tc := ⟨.hbm, 194, rfl⟩
abbrev main_v121 : Ref sig .tc := ⟨.hbm, 195, rfl⟩
abbrev main_v122 : Ref sig .tc := ⟨.hbm, 196, rfl⟩
abbrev main_cst_16 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_cst_17 : Ref sig .tc := ⟨.hbm, 210, rfl⟩
abbrev main_v135 : Ref sig .tc := ⟨.hbm, 211, rfl⟩
abbrev main_cst_18 : Ref sig .tc := ⟨.hbm, 212, rfl⟩
abbrev main_v136 : Ref sig .tc := ⟨.hbm, 213, rfl⟩
abbrev main_v137 : Ref sig .tc := ⟨.hbm, 214, rfl⟩
abbrev main_v138 : Ref sig .tc := ⟨.hbm, 215, rfl⟩
abbrev main_cst_19 : Ref sig .tc := ⟨.hbm, 216, rfl⟩
abbrev main_v139 : Ref sig .tc := ⟨.hbm, 217, rfl⟩
abbrev main_cst_20 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩
abbrev main_v144 : Ref sig .tc := ⟨.hbm, 223, rfl⟩
abbrev main_cst_21 : Ref sig .tc := ⟨.hbm, 224, rfl⟩
abbrev main_v145 : Ref sig .tc := ⟨.hbm, 225, rfl⟩
abbrev main_v146 : Ref sig .tc := ⟨.hbm, 226, rfl⟩
abbrev main_v147 : Ref sig .tc := ⟨.hbm, 227, rfl⟩
abbrev main_v148 : Ref sig .tc := ⟨.hbm, 228, rfl⟩
abbrev main_v149 : Ref sig .tc := ⟨.hbm, 229, rfl⟩
abbrev main_v150 : Ref sig .tc := ⟨.hbm, 230, rfl⟩
abbrev main_call4_cst : Ref sig .tc := ⟨.hbm, 231, rfl⟩
abbrev main_call4_v0 : Ref sig .tc := ⟨.hbm, 232, rfl⟩
abbrev main_call4_v1 : Ref sig .tc := ⟨.hbm, 233, rfl⟩
abbrev main_call4_v2 : Ref sig .tc := ⟨.hbm, 234, rfl⟩
abbrev main_call4_v3 : Ref sig .tc := ⟨.hbm, 235, rfl⟩
abbrev main_call4_v4 : Ref sig .tc := ⟨.hbm, 236, rfl⟩
abbrev main_call4_v5 : Ref sig .tc := ⟨.hbm, 237, rfl⟩
abbrev main_call4_v6 : Ref sig .tc := ⟨.hbm, 238, rfl⟩
abbrev main_call4_v7 : Ref sig .tc := ⟨.hbm, 239, rfl⟩
abbrev main_call4_v8 : Ref sig .tc := ⟨.hbm, 240, rfl⟩
abbrev main_v151 : Ref sig .tc := ⟨.hbm, 241, rfl⟩
abbrev main_cst_22 : Ref sig .tc := ⟨.hbm, 242, rfl⟩
abbrev main_v152 : Ref sig .tc := ⟨.hbm, 243, rfl⟩
abbrev main_v153 : Ref sig .tc := ⟨.hbm, 244, rfl⟩
abbrev main_v154 : Ref sig .tc := ⟨.hbm, 245, rfl⟩
abbrev main_call5_cst : Ref sig .tc := ⟨.hbm, 246, rfl⟩
abbrev main_call5_v0 : Ref sig .tc := ⟨.hbm, 247, rfl⟩
abbrev main_call5_v1 : Ref sig .tc := ⟨.hbm, 248, rfl⟩
abbrev main_call5_v2 : Ref sig .tc := ⟨.hbm, 249, rfl⟩
abbrev main_call5_v3 : Ref sig .tc := ⟨.hbm, 250, rfl⟩
abbrev main_call5_v4 : Ref sig .tc := ⟨.hbm, 251, rfl⟩
abbrev main_call5_v5 : Ref sig .tc := ⟨.hbm, 252, rfl⟩
abbrev main_call5_v6 : Ref sig .tc := ⟨.hbm, 253, rfl⟩
abbrev main_call5_v7 : Ref sig .tc := ⟨.hbm, 254, rfl⟩
abbrev main_call5_v8 : Ref sig .tc := ⟨.hbm, 255, rfl⟩
abbrev main_v155 : Ref sig .tc := ⟨.hbm, 256, rfl⟩
abbrev main_cst_23 : Ref sig .tc := ⟨.hbm, 257, rfl⟩
abbrev main_v156 : Ref sig .tc := ⟨.hbm, 258, rfl⟩
abbrev main_v157 : Ref sig .tc := ⟨.hbm, 259, rfl⟩
abbrev main_cst_24 : Ref sig .tc := ⟨.hbm, 260, rfl⟩
abbrev main_v158 : Ref sig .tc := ⟨.hbm, 261, rfl⟩
abbrev main_v159 : Ref sig .tc := ⟨.hbm, 262, rfl⟩
abbrev main_v160 : Ref sig .tc := ⟨.hbm, 263, rfl⟩
abbrev main_v161 : Ref sig .tc := ⟨.hbm, 264, rfl⟩
abbrev main_v162 : Ref sig .tc := ⟨.hbm, 265, rfl⟩
abbrev main_call6_v0 : Ref sig .tc := ⟨.hbm, 266, rfl⟩
abbrev main_call6_cst : Ref sig .tc := ⟨.hbm, 267, rfl⟩
abbrev main_call6_v1 : Ref sig .tc := ⟨.hbm, 268, rfl⟩
abbrev main_v163 : Ref sig .tc := ⟨.hbm, 269, rfl⟩
abbrev main_cst_25 : Ref sig .tc := ⟨.hbm, 270, rfl⟩
abbrev main_v164 : Ref sig .tc := ⟨.hbm, 271, rfl⟩
abbrev main_v165 : Ref sig .tc := ⟨.hbm, 272, rfl⟩
abbrev main_call7_v0 : Ref sig .tc := ⟨.hbm, 273, rfl⟩
abbrev main_call7_cst : Ref sig .tc := ⟨.hbm, 274, rfl⟩
abbrev main_call7_v1 : Ref sig .tc := ⟨.hbm, 275, rfl⟩
abbrev main_v166 : Ref sig .tc := ⟨.hbm, 276, rfl⟩
abbrev main_cst_26 : Ref sig .tc := ⟨.hbm, 277, rfl⟩
abbrev main_v167 : Ref sig .tc := ⟨.hbm, 278, rfl⟩
abbrev main_v168 : Ref sig .tc := ⟨.hbm, 279, rfl⟩
abbrev main_v169 : Ref sig .tc := ⟨.hbm, 280, rfl⟩
abbrev main_v170 : Ref sig .tc := ⟨.hbm, 281, rfl⟩
abbrev main_v171 : Ref sig .tc := ⟨.hbm, 282, rfl⟩
abbrev main_v172 : Ref sig .tc := ⟨.hbm, 283, rfl⟩
abbrev main_v173 : Ref sig .tc := ⟨.hbm, 284, rfl⟩
abbrev main_cst_27 : Ref sig .tc := ⟨.hbm, 285, rfl⟩
abbrev main_v174 : Ref sig .tc := ⟨.hbm, 286, rfl⟩
abbrev main_cst_28 : Ref sig .tc := ⟨.hbm, 287, rfl⟩
abbrev main_v175 : Ref sig .tc := ⟨.hbm, 288, rfl⟩
abbrev main_v176 : Ref sig .tc := ⟨.hbm, 289, rfl⟩
abbrev main_v177 : Ref sig .tc := ⟨.hbm, 290, rfl⟩
abbrev main_v178 : Ref sig .tc := ⟨.hbm, 291, rfl⟩
abbrev main_v179 : Ref sig .tc := ⟨.hbm, 292, rfl⟩
abbrev main_cst_29 : Ref sig .tc := ⟨.hbm, 293, rfl⟩
abbrev main_v180 : Ref sig .tc := ⟨.hbm, 294, rfl⟩
abbrev main_v181 : Ref sig .tc := ⟨.hbm, 295, rfl⟩
abbrev main_v182 : Ref sig .tc := ⟨.hbm, 296, rfl⟩
abbrev main_v183 : Ref sig .tc := ⟨.hbm, 297, rfl⟩
abbrev main_v184 : Ref sig .tc := ⟨.hbm, 298, rfl⟩
abbrev main_v185 : Ref sig .tc := ⟨.hbm, 299, rfl⟩
abbrev main_cst_30 : Ref sig .tc := ⟨.hbm, 300, rfl⟩
abbrev main_v186 : Ref sig .tc := ⟨.hbm, 301, rfl⟩
abbrev main_v187 : Ref sig .tc := ⟨.hbm, 302, rfl⟩
abbrev main_v188 : Ref sig .tc := ⟨.hbm, 303, rfl⟩
abbrev main_v189 : Ref sig .tc := ⟨.hbm, 304, rfl⟩
abbrev main_v190 : Ref sig .tc := ⟨.hbm, 305, rfl⟩
abbrev main_v191 : Ref sig .tc := ⟨.hbm, 306, rfl⟩
abbrev main_v192 : Ref sig .tc := ⟨.hbm, 307, rfl⟩
abbrev main_v193 : Ref sig .tc := ⟨.hbm, 308, rfl⟩
abbrev main_v194 : Ref sig .tc := ⟨.hbm, 309, rfl⟩
abbrev main_v195 : Ref sig .tc := ⟨.hbm, 310, rfl⟩
abbrev main_v196 : Ref sig .tc := ⟨.hbm, 311, rfl⟩
abbrev main_v197 : Ref sig .tc := ⟨.hbm, 312, rfl⟩
abbrev main_v198 : Ref sig .tc := ⟨.hbm, 313, rfl⟩
abbrev main_v199 : Ref sig .tc := ⟨.hbm, 314, rfl⟩
abbrev main_v200 : Ref sig .tc := ⟨.hbm, 315, rfl⟩
abbrev main_v201 : Ref sig .tc := ⟨.hbm, 316, rfl⟩
abbrev main_v202 : Ref sig .tc := ⟨.hbm, 317, rfl⟩
abbrev main_v203 : Ref sig .tc := ⟨.hbm, 318, rfl⟩
abbrev main_v204 : Ref sig .tc := ⟨.hbm, 319, rfl⟩
abbrev main_v205 : Ref sig .tc := ⟨.hbm, 320, rfl⟩
abbrev main_v206 : Ref sig .tc := ⟨.hbm, 321, rfl⟩
abbrev main_v207 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_v211 : Ref sig .tc := ⟨.hbm, 326, rfl⟩
abbrev main_v212 : Ref sig .tc := ⟨.hbm, 327, rfl⟩
abbrev main_cst_31 : Ref sig .tc := ⟨.hbm, 328, rfl⟩
abbrev main_v213 : Ref sig .tc := ⟨.hbm, 329, rfl⟩
abbrev main_v214 : Ref sig .tc := ⟨.hbm, 330, rfl⟩
abbrev main_cst_32 : Ref sig .tc := ⟨.hbm, 331, rfl⟩
abbrev main_v215 : Ref sig .tc := ⟨.hbm, 332, rfl⟩
abbrev main_v216 : Ref sig .tc := ⟨.hbm, 333, rfl⟩
abbrev main_v217 : Ref sig .tc := ⟨.hbm, 334, rfl⟩
abbrev main_v218 : Ref sig .tc := ⟨.hbm, 335, rfl⟩
abbrev main_v219 : Ref sig .tc := ⟨.hbm, 336, rfl⟩
abbrev main_v220 : Ref sig .tc := ⟨.hbm, 337, rfl⟩
abbrev main_v221 : Ref sig .tc := ⟨.hbm, 338, rfl⟩
abbrev main_v222 : Ref sig .tc := ⟨.hbm, 339, rfl⟩
abbrev main_v223 : Ref sig .tc := ⟨.hbm, 340, rfl⟩
abbrev main_v224 : Ref sig .tc := ⟨.hbm, 341, rfl⟩
abbrev main_cst_33 : Ref sig .tc := ⟨.hbm, 342, rfl⟩
abbrev main_v225 : Ref sig .tc := ⟨.hbm, 343, rfl⟩
abbrev main_cst_34 : Ref sig .tc := ⟨.hbm, 344, rfl⟩
abbrev main_v226 : Ref sig .tc := ⟨.hbm, 345, rfl⟩
abbrev main_v227 : Ref sig .tc := ⟨.hbm, 346, rfl⟩
abbrev main_cst_35 : Ref sig .tc := ⟨.hbm, 347, rfl⟩
abbrev main_v228 : Ref sig .tc := ⟨.hbm, 348, rfl⟩
abbrev main_cst_36 : Ref sig .tc := ⟨.hbm, 349, rfl⟩
abbrev main_v229 : Ref sig .tc := ⟨.hbm, 350, rfl⟩
abbrev main_v230 : Ref sig .tc := ⟨.hbm, 351, rfl⟩
abbrev main_v231 : Ref sig .tc := ⟨.hbm, 352, rfl⟩
abbrev main_v232 : Ref sig .tc := ⟨.hbm, 353, rfl⟩
abbrev main_v233 : Ref sig .tc := ⟨.hbm, 354, rfl⟩
abbrev main_v234 : Ref sig .tc := ⟨.hbm, 355, rfl⟩
abbrev main_cst_37 : Ref sig .tc := ⟨.hbm, 356, rfl⟩
abbrev main_v235 : Ref sig .tc := ⟨.hbm, 357, rfl⟩
abbrev main_v236 : Ref sig .tc := ⟨.hbm, 358, rfl⟩
abbrev main_v237 : Ref sig .tc := ⟨.hbm, 359, rfl⟩
abbrev main_v238 : Ref sig .tc := ⟨.hbm, 360, rfl⟩
abbrev main_v239 : Ref sig .tc := ⟨.hbm, 361, rfl⟩
abbrev main_v240 : Ref sig .tc := ⟨.hbm, 362, rfl⟩
abbrev main_v241 : Ref sig .tc := ⟨.hbm, 363, rfl⟩
abbrev main_v242 : Ref sig .tc := ⟨.hbm, 364, rfl⟩
abbrev main_call8_cst : Ref sig .tc := ⟨.hbm, 365, rfl⟩
abbrev main_call8_v0 : Ref sig .tc := ⟨.hbm, 366, rfl⟩
abbrev main_v243 : Ref sig .tc := ⟨.hbm, 367, rfl⟩
abbrev main_v244 : Ref sig .tc := ⟨.hbm, 368, rfl⟩
abbrev main_v245 : Ref sig .tc := ⟨.hbm, 369, rfl⟩
abbrev main_v246 : Ref sig .tc := ⟨.hbm, 370, rfl⟩
abbrev main_v247 : Ref sig .tc := ⟨.hbm, 371, rfl⟩
abbrev main_call9_cst : Ref sig .tc := ⟨.hbm, 372, rfl⟩
abbrev main_call9_v0 : Ref sig .tc := ⟨.hbm, 373, rfl⟩
abbrev main_v248 : Ref sig .tc := ⟨.hbm, 374, rfl⟩
abbrev main_v249 : Ref sig .tc := ⟨.hbm, 375, rfl⟩
abbrev main_v250 : Ref sig .tc := ⟨.hbm, 376, rfl⟩
abbrev main_v251 : Ref sig .tc := ⟨.hbm, 377, rfl⟩
abbrev main_v252 : Ref sig .tc := ⟨.hbm, 378, rfl⟩
abbrev main_call10_cst : Ref sig .tc := ⟨.hbm, 379, rfl⟩
abbrev main_call10_v0 : Ref sig .tc := ⟨.hbm, 380, rfl⟩
abbrev main_v253 : Ref sig .tc := ⟨.hbm, 381, rfl⟩
abbrev main_v254 : Ref sig .tc := ⟨.hbm, 382, rfl⟩
abbrev main_v255 : Ref sig .tc := ⟨.hbm, 383, rfl⟩
abbrev main_v256 : Ref sig .tc := ⟨.hbm, 384, rfl⟩
abbrev main_v257 : Ref sig .tc := ⟨.hbm, 385, rfl⟩
abbrev main_cst_38 : Ref sig .tc := ⟨.hbm, 386, rfl⟩
abbrev main_v258 : Ref sig .tc := ⟨.hbm, 387, rfl⟩
abbrev main_cst_39 : Ref sig .tc := ⟨.hbm, 388, rfl⟩
abbrev main_v259 : Ref sig .tc := ⟨.hbm, 389, rfl⟩
abbrev main_v260 : Ref sig .tc := ⟨.hbm, 390, rfl⟩
abbrev main_v261 : Ref sig .tc := ⟨.hbm, 391, rfl⟩
abbrev main_v262 : Ref sig .tc := ⟨.hbm, 392, rfl⟩
abbrev main_v263 : Ref sig .tc := ⟨.hbm, 393, rfl⟩
abbrev main_v264 : Ref sig .tc := ⟨.hbm, 394, rfl⟩
abbrev main_cst_40 : Ref sig .tc := ⟨.hbm, 395, rfl⟩
abbrev main_v265 : Ref sig .tc := ⟨.hbm, 396, rfl⟩
abbrev main_v266 : Ref sig .tc := ⟨.hbm, 397, rfl⟩
abbrev main_v267 : Ref sig .tc := ⟨.hbm, 398, rfl⟩
abbrev main_v268 : Ref sig .tc := ⟨.hbm, 399, rfl⟩
abbrev main_v269 : Ref sig .tc := ⟨.hbm, 400, rfl⟩
abbrev main_v270 : Ref sig .tc := ⟨.hbm, 401, rfl⟩
abbrev main_v271 : Ref sig .tc := ⟨.hbm, 402, rfl⟩
abbrev main_v272 : Ref sig .tc := ⟨.hbm, 403, rfl⟩
abbrev main_call11_cst : Ref sig .tc := ⟨.hbm, 404, rfl⟩
abbrev main_call11_v0 : Ref sig .tc := ⟨.hbm, 405, rfl⟩
abbrev main_v273 : Ref sig .tc := ⟨.hbm, 406, rfl⟩
abbrev main_v274 : Ref sig .tc := ⟨.hbm, 407, rfl⟩
abbrev main_v275 : Ref sig .tc := ⟨.hbm, 408, rfl⟩
abbrev main_v276 : Ref sig .tc := ⟨.hbm, 409, rfl⟩
abbrev main_v277 : Ref sig .tc := ⟨.hbm, 410, rfl⟩
abbrev main_call12_cst : Ref sig .tc := ⟨.hbm, 411, rfl⟩
abbrev main_call12_v0 : Ref sig .tc := ⟨.hbm, 412, rfl⟩
abbrev main_v278 : Ref sig .tc := ⟨.hbm, 413, rfl⟩
abbrev main_v279 : Ref sig .tc := ⟨.hbm, 414, rfl⟩
abbrev main_v280 : Ref sig .tc := ⟨.hbm, 415, rfl⟩
abbrev main_v281 : Ref sig .tc := ⟨.hbm, 416, rfl⟩
abbrev main_v282 : Ref sig .tc := ⟨.hbm, 417, rfl⟩
abbrev main_call13_cst : Ref sig .tc := ⟨.hbm, 418, rfl⟩
abbrev main_call13_v0 : Ref sig .tc := ⟨.hbm, 419, rfl⟩
abbrev main_v283 : Ref sig .tc := ⟨.hbm, 420, rfl⟩
abbrev main_v284 : Ref sig .tc := ⟨.hbm, 421, rfl⟩
abbrev main_v285 : Ref sig .tc := ⟨.hbm, 422, rfl⟩
abbrev main_v286 : Ref sig .tc := ⟨.hbm, 423, rfl⟩
abbrev main_v287 : Ref sig .tc := ⟨.hbm, 424, rfl⟩
abbrev main_cst_41 : Ref sig .tc := ⟨.hbm, 425, rfl⟩
abbrev main_v288 : Ref sig .tc := ⟨.hbm, 426, rfl⟩
abbrev main_cst_42 : Ref sig .tc := ⟨.hbm, 427, rfl⟩
abbrev main_v289 : Ref sig .tc := ⟨.hbm, 428, rfl⟩
abbrev main_v290 : Ref sig .tc := ⟨.hbm, 429, rfl⟩
abbrev main_v291 : Ref sig .tc := ⟨.hbm, 430, rfl⟩
abbrev main_v292 : Ref sig .tc := ⟨.hbm, 431, rfl⟩
abbrev main_v293 : Ref sig .tc := ⟨.hbm, 432, rfl⟩
abbrev main_v294 : Ref sig .tc := ⟨.hbm, 433, rfl⟩
abbrev main_cst_43 : Ref sig .tc := ⟨.hbm, 434, rfl⟩
abbrev main_v295 : Ref sig .tc := ⟨.hbm, 435, rfl⟩
abbrev main_v296 : Ref sig .tc := ⟨.hbm, 436, rfl⟩
abbrev main_v297 : Ref sig .tc := ⟨.hbm, 437, rfl⟩
abbrev main_v298 : Ref sig .tc := ⟨.hbm, 438, rfl⟩
abbrev main_v299 : Ref sig .tc := ⟨.hbm, 439, rfl⟩
abbrev main_v300 : Ref sig .tc := ⟨.hbm, 440, rfl⟩
abbrev main_v301 : Ref sig .tc := ⟨.hbm, 441, rfl⟩
abbrev main_v302 : Ref sig .tc := ⟨.hbm, 442, rfl⟩
abbrev main_v303 : Ref sig .tc := ⟨.hbm, 443, rfl⟩
abbrev main_v304 : Ref sig .tc := ⟨.hbm, 444, rfl⟩
abbrev main_v305 : Ref sig .tc := ⟨.hbm, 445, rfl⟩
abbrev main_v306 : Ref sig .tc := ⟨.hbm, 446, rfl⟩
abbrev main_v307 : Ref sig .tc := ⟨.hbm, 447, rfl⟩
abbrev main_v308 : Ref sig .tc := ⟨.hbm, 448, rfl⟩
abbrev main_v309 : Ref sig .tc := ⟨.hbm, 449, rfl⟩
abbrev main_v310 : Ref sig .tc := ⟨.hbm, 450, rfl⟩
abbrev main_v311 : Ref sig .tc := ⟨.hbm, 451, rfl⟩
abbrev main_v312 : Ref sig .tc := ⟨.hbm, 452, rfl⟩
abbrev main_v313 : Ref sig .tc := ⟨.hbm, 453, rfl⟩
abbrev main_cst_44 : Ref sig .tc := ⟨.hbm, 454, rfl⟩
abbrev main_v314 : Ref sig .tc := ⟨.hbm, 455, rfl⟩
abbrev main_v315 : Ref sig .tc := ⟨.hbm, 456, rfl⟩
abbrev main_v316 : Ref sig .tc := ⟨.hbm, 457, rfl⟩
abbrev main_v317 : Ref sig .tc := ⟨.hbm, 458, rfl⟩
abbrev main_v318 : Ref sig .tc := ⟨.hbm, 459, rfl⟩
abbrev main_v319 : Ref sig .tc := ⟨.hbm, 460, rfl⟩
abbrev main_cst_45 : Ref sig .tc := ⟨.hbm, 461, rfl⟩
abbrev main_v320 : Ref sig .tc := ⟨.hbm, 462, rfl⟩
abbrev main_v321 : Ref sig .tc := ⟨.hbm, 463, rfl⟩
abbrev main_v322 : Ref sig .tc := ⟨.hbm, 464, rfl⟩
abbrev main_v323 : Ref sig .tc := ⟨.hbm, 465, rfl⟩
abbrev main_v324 : Ref sig .tc := ⟨.hbm, 466, rfl⟩
abbrev main_v325 : Ref sig .tc := ⟨.hbm, 467, rfl⟩

abbrev nD : Nat := 1
abbrev τ : Topo := Topo.v7x

variable {F : FTy → Type} [FloatOps F]

class Facts₀ : Prop where
  transposes_S48x14_S14x48_1_0 : S48x14.Transposes [1, 0] S14x48
  bcast_S48_S1x48_1 : S48.BroadcastsInDim S1x48 (![1] : Fin 1 → Fin S1x48.rank)
  transposes_S72x48_S48x72_1_0 : S72x48.Transposes [1, 0] S48x72
  bcast_S72_S1x72_1 : S72.BroadcastsInDim S1x72 (![1] : Fin 1 → Fin S1x72.rank)
  transposes_S92x72_S72x92_1_0 : S92x72.Transposes [1, 0] S72x92
  bcast_S92_S1x92_1 : S92.BroadcastsInDim S1x92 (![1] : Fin 1 → Fin S1x92.rank)
  transposes_S3x72_S72x3_1_0 : S3x72.Transposes [1, 0] S72x3
  bcast_S3_S1x3_1 : S3.BroadcastsInDim S1x3 (![1] : Fin 1 → Fin S1x3.rank)
  slices_S1x92_S1x26_0_0 : S1x92.Slices ![0, 0] S1x26
  shapeCasts_S1x26_S26 : S1x26.ShapeCasts S26
  bcast_S26_S1x26_1 : S26.BroadcastsInDim S1x26 (![1] : Fin 1 → Fin S1x26.rank)
  slices_S1x92_S1x26_0_26 : S1x92.Slices ![0, 26] S1x26
  slices_S1x92_S1x20_0_52 : S1x92.Slices ![0, 52] S1x20
  shapeCasts_S1x20_S20 : S1x20.ShapeCasts S20
  bcast_S20_S1x20_1 : S20.BroadcastsInDim S1x20 (![1] : Fin 1 → Fin S1x20.rank)
  bcast_S_S1x20 : S_.BroadcastsInDim S1x20 (![] : Fin 0 → Fin S1x20.rank)
  slices_S1x92_S1x20_0_72 : S1x92.Slices ![0, 72] S1x20
  slices_S1x26_S1x20_0_0 : S1x26.Slices ![0, 0] S1x20
  slices_S1x26_S1x1_0_20 : S1x26.Slices ![0, 20] S1x1
  shapeCasts_S1x1_S_ : S1x1.ShapeCasts S_
  slices_S1x26_S1x3_0_21 : S1x26.Slices ![0, 21] S1x3
  shapeCasts_S1x3_S3 : S1x3.ShapeCasts S3
  reducesTo_S3_S_d0 : S3.ReducesTo [0] S_
  h_S_ : 0 < S_.numel
  bcast_S_S1 : S_.BroadcastsInDim S1 (![] : Fin 0 → Fin S1.rank)
  bcast_S1_S3_0 : S1.BroadcastsInDim S3 (![0] : Fin 1 → Fin S3.rank)
  slices_S1x26_S1x1_0_24 : S1x26.Slices ![0, 24] S1x1
  slices_S1x26_S1x1_0_25 : S1x26.Slices ![0, 25] S1x1
  bcast_S_S1000000x20 : S_.BroadcastsInDim S1000000x20 (![] : Fin 0 → Fin S1000000x20.rank)
  transposes_S1x20_S20x1_1_0 : S1x20.Transposes [1, 0] S20x1
  shapeCasts_S1000000x1_S1000000 : S1000000x1.ShapeCasts S1000000
  reducesTo_S1000000x20_S1000000_d1 : S1000000x20.ReducesTo [1] S1000000
  bcast_S_S1000000 : S_.BroadcastsInDim S1000000 (![] : Fin 0 → Fin S1000000.rank)
  reducesTo_S1x20_S1_d1 : S1x20.ReducesTo [1] S1
  bcast_S1_S1000000_0 : S1.BroadcastsInDim S1000000 (![0] : Fin 1 → Fin S1000000.rank)
  reducesTo_S1000000_S_d0 : S1000000.ReducesTo [0] S_
  bcast_S_S1x1000000 : S_.BroadcastsInDim S1x1000000 (![] : Fin 0 → Fin S1x1000000.rank)
  bcast_S1000000_S1x1000000_1 : S1000000.BroadcastsInDim S1x1000000 (![1] : Fin 1 → Fin S1x1000000.rank)
  slices_S1x1000000_S1x1_0_999999 : S1x1000000.Slices ![0, 999999] S1x1
  slices_S1x1000000_S1x1_0_0 : S1x1000000.Slices ![0, 0] S1x1
  concatenates_S1x1_S1x1000000_S1x1_S1x1000002_d1 : Shape.Concatenates [S1x1, S1x1000000, S1x1] S1x1000002 1
  slices_S3_S1_0 : S3.Slices ![0] S1
  shapeCasts_S1_S_ : S1.ShapeCasts S_
  slices_S1x1000002_S1x1000000_0_0 : S1x1000002.Slices ![0, 0] S1x1000000
  slices_S3_S1_1 : S3.Slices ![1] S1
  slices_S1x1000002_S1x1000000_0_1 : S1x1000002.Slices ![0, 1] S1x1000000
  slices_S3_S1_2 : S3.Slices ![2] S1
  slices_S1x1000002_S1x1000000_0_2 : S1x1000002.Slices ![0, 2] S1x1000000
  reducesTo_S1x1000000_S1_d1 : S1x1000000.ReducesTo [1] S1
  bcast_S1_S1x1_0 : S1.BroadcastsInDim S1x1 (![0] : Fin 1 → Fin S1x1.rank)
  bcast_S_S1x1 : S_.BroadcastsInDim S1x1 (![] : Fin 0 → Fin S1x1.rank)
  bcast_S1x1_S1x1000000_0_1 : S1x1.BroadcastsInDim S1x1000000 (![0, 1] : Fin 2 → Fin S1x1000000.rank)
  concatenates_S1x20_S1x20_S1x40_d1 : Shape.Concatenates [S1x20, S1x20] S1x40 1
  slices_S1x3_S1x1_0_0 : S1x3.Slices ![0, 0] S1x1
  slices_S1x3_S1x2_0_1 : S1x3.Slices ![0, 1] S1x2
  reducesTo_S1x2_S1_d1 : S1x2.ReducesTo [1] S1
  bcast_S1x1_S1x2_0_1 : S1x1.BroadcastsInDim S1x2 (![0, 1] : Fin 2 → Fin S1x2.rank)
  transposes_S110x40_S40x110_1_0 : S110x40.Transposes [1, 0] S40x110
  bcast_S110_S1x110_1 : S110.BroadcastsInDim S1x110 (![1] : Fin 1 → Fin S1x110.rank)
  bcast_S_S1x110 : S_.BroadcastsInDim S1x110 (![] : Fin 0 → Fin S1x110.rank)
  transposes_S190x110_S110x190_1_0 : S190x110.Transposes [1, 0] S110x190
  bcast_S190_S1x190_1 : S190.BroadcastsInDim S1x190 (![1] : Fin 1 → Fin S1x190.rank)
  bcast_S_S1x190 : S_.BroadcastsInDim S1x190 (![] : Fin 0 → Fin S1x190.rank)
  transposes_S270x190_S190x270_1_0 : S270x190.Transposes [1, 0] S190x270
  bcast_S270_S1x270_1 : S270.BroadcastsInDim S1x270 (![1] : Fin 1 → Fin S1x270.rank)
  bcast_S_S1x270 : S_.BroadcastsInDim S1x270 (![] : Fin 0 → Fin S1x270.rank)
  transposes_S325x270_S270x325_1_0 : S325x270.Transposes [1, 0] S270x325
  bcast_S325_S1x325_1 : S325.BroadcastsInDim S1x325 (![1] : Fin 1 → Fin S1x325.rank)
  reducesTo_S1x325_S1_d1 : S1x325.ReducesTo [1] S1
  bcast_S1x1_S1x325_0_1 : S1x1.BroadcastsInDim S1x325 (![0, 1] : Fin 2 → Fin S1x325.rank)
  slices_S1x2_S1x1_0_0 : S1x2.Slices ![0, 0] S1x1
  bcast_S_S1x325 : S_.BroadcastsInDim S1x325 (![] : Fin 0 → Fin S1x325.rank)
  slices_S1x2_S1x1_0_1 : S1x2.Slices ![0, 1] S1x1
  transposes_S20x325_S325x20_1_0 : S20x325.Transposes [1, 0] S325x20
  transposes_S1x1000000_S1000000x1_1_0 : S1x1000000.Transposes [1, 0] S1000000x1
  dot_S1x14_S14x48_S1x48_1_0_0_1_n_n_wf : DotDims.WF S1x14 S14x48 S1x48 [1] [0] [0] [1] [] []
  dot_S1x48_S48x72_S1x72_1_0_0_1_n_n_wf : DotDims.WF S1x48 S48x72 S1x72 [1] [0] [0] [1] [] []
  dot_S1x72_S72x92_S1x92_1_0_0_1_n_n_wf : DotDims.WF S1x72 S72x92 S1x92 [1] [0] [0] [1] [] []
  dot_S1x72_S72x3_S1x3_1_0_0_1_n_n_wf : DotDims.WF S1x72 S72x3 S1x3 [1] [0] [0] [1] [] []
  dot_S1000000x20_S20x1_S1000000x1_1_0_0_1_n_n_wf : DotDims.WF S1000000x20 S20x1 S1000000x1 [1] [0] [0] [1] [] []
  dot_S1x1000000_S1000000x20_S1x20_1_0_0_1_n_n_wf : DotDims.WF S1x1000000 S1000000x20 S1x20 [1] [0] [0] [1] [] []
  dot_S1x40_S40x110_S1x110_1_0_0_1_n_n_wf : DotDims.WF S1x40 S40x110 S1x110 [1] [0] [0] [1] [] []
  dot_S1x110_S110x190_S1x190_1_0_0_1_n_n_wf : DotDims.WF S1x110 S110x190 S1x190 [1] [0] [0] [1] [] []
  dot_S1x190_S190x270_S1x270_1_0_0_1_n_n_wf : DotDims.WF S1x190 S190x270 S1x270 [1] [0] [0] [1] [] []
  dot_S1x270_S270x325_S1x325_1_0_0_1_n_n_wf : DotDims.WF S1x270 S270x325 S1x325 [1] [0] [0] [1] [] []
  dot_S1x325_S325x20_S1x20_1_0_0_1_n_n_wf : DotDims.WF S1x325 S325x20 S1x20 [1] [0] [0] [1] [] []
  dot_S1000000x1_S1x20_S1000000x20_1_0_0_1_n_n_wf : DotDims.WF S1000000x1 S1x20 S1000000x20 [1] [0] [0] [1] [] []

variable [Facts₀]

def dot_S1x14_S14x48_S1x48_1_0_0_1_n_n : DotDims S1x14 S14x48 S1x48 where
  lhsContracting := [1]
  rhsContracting := [0]
  lhsNonContracting := [0]
  rhsNonContracting := [1]
  lhsBatch := []
  rhsBatch := []
  wf := dot_S1x14_S14x48_S1x48_1_0_0_1_n_n_wf
def dot_S1x48_S48x72_S1x72_1_0_0_1_n_n : DotDims S1x48 S48x72 S1x72 where
  lhsContracting := [1]
  rhsContracting := [0]
  lhsNonContracting := [0]
  rhsNonContracting := [1]
  lhsBatch := []
  rhsBatch := []
  wf := dot_S1x48_S48x72_S1x72_1_0_0_1_n_n_wf
def dot_S1x72_S72x92_S1x92_1_0_0_1_n_n : DotDims S1x72 S72x92 S1x92 where
  lhsContracting := [1]
  rhsContracting := [0]
  lhsNonContracting := [0]
  rhsNonContracting := [1]
  lhsBatch := []
  rhsBatch := []
  wf := dot_S1x72_S72x92_S1x92_1_0_0_1_n_n_wf
def dot_S1x72_S72x3_S1x3_1_0_0_1_n_n : DotDims S1x72 S72x3 S1x3 where
  lhsContracting := [1]
  rhsContracting := [0]
  lhsNonContracting := [0]
  rhsNonContracting := [1]
  lhsBatch := []
  rhsBatch := []
  wf := dot_S1x72_S72x3_S1x3_1_0_0_1_n_n_wf
def dot_S1000000x20_S20x1_S1000000x1_1_0_0_1_n_n : DotDims S1000000x20 S20x1 S1000000x1 where
  lhsContracting := [1]
  rhsContracting := [0]
  lhsNonContracting := [0]
  rhsNonContracting := [1]
  lhsBatch := []
  rhsBatch := []
  wf := dot_S1000000x20_S20x1_S1000000x1_1_0_0_1_n_n_wf
def dot_S1x1000000_S1000000x20_S1x20_1_0_0_1_n_n : DotDims S1x1000000 S1000000x20 S1x20 where
  lhsContracting := [1]
  rhsContracting := [0]
  lhsNonContracting := [0]
  rhsNonContracting := [1]
  lhsBatch := []
  rhsBatch := []
  wf := dot_S1x1000000_S1000000x20_S1x20_1_0_0_1_n_n_wf
def dot_S1x40_S40x110_S1x110_1_0_0_1_n_n : DotDims S1x40 S40x110 S1x110 where
  lhsContracting := [1]
  rhsContracting := [0]
  lhsNonContracting := [0]
  rhsNonContracting := [1]
  lhsBatch := []
  rhsBatch := []
  wf := dot_S1x40_S40x110_S1x110_1_0_0_1_n_n_wf
def dot_S1x110_S110x190_S1x190_1_0_0_1_n_n : DotDims S1x110 S110x190 S1x190 where
  lhsContracting := [1]
  rhsContracting := [0]
  lhsNonContracting := [0]
  rhsNonContracting := [1]
  lhsBatch := []
  rhsBatch := []
  wf := dot_S1x110_S110x190_S1x190_1_0_0_1_n_n_wf
def dot_S1x190_S190x270_S1x270_1_0_0_1_n_n : DotDims S1x190 S190x270 S1x270 where
  lhsContracting := [1]
  rhsContracting := [0]
  lhsNonContracting := [0]
  rhsNonContracting := [1]
  lhsBatch := []
  rhsBatch := []
  wf := dot_S1x190_S190x270_S1x270_1_0_0_1_n_n_wf
def dot_S1x270_S270x325_S1x325_1_0_0_1_n_n : DotDims S1x270 S270x325 S1x325 where
  lhsContracting := [1]
  rhsContracting := [0]
  lhsNonContracting := [0]
  rhsNonContracting := [1]
  lhsBatch := []
  rhsBatch := []
  wf := dot_S1x270_S270x325_S1x325_1_0_0_1_n_n_wf
def dot_S1x325_S325x20_S1x20_1_0_0_1_n_n : DotDims S1x325 S325x20 S1x20 where
  lhsContracting := [1]
  rhsContracting := [0]
  lhsNonContracting := [0]
  rhsNonContracting := [1]
  lhsBatch := []
  rhsBatch := []
  wf := dot_S1x325_S325x20_S1x20_1_0_0_1_n_n_wf
def dot_S1000000x1_S1x20_S1000000x20_1_0_0_1_n_n : DotDims S1000000x1 S1x20 S1000000x20 where
  lhsContracting := [1]
  rhsContracting := [0]
  lhsNonContracting := [0]
  rhsNonContracting := [1]
  lhsBatch := []
  rhsBatch := []
  wf := dot_S1000000x1_S1x20_S1000000x20_1_0_0_1_n_n_wf

class Facts : Prop extends Facts₀ where

variable [Facts]
-- ==== Proof.KI.Region0.lean ====
import proofs.«104005_j27152783245914_2_alg».proof.Proof.Gen.KernelIdeal.Launch
import proofs.«104005_j27152783245914_2_alg».proof.Proof.Gen.KernelIdeal.Skeleton
import proofs.«104005_j27152783245914_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the addressing features kernel, at the entry contents V

Each grid point reads a block of 20000 memory rows and the two key rows, and leaves in its output block, row by row,
the norm of the shifted row and its two dot products with the keys. -/

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The memory block's staging buffer holds that block at every point, for any proof data whose array is V's and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The first key row's staging buffer holds the row at every point: it is fetched once, at the first point, and its
    block index never moves afterwards, so an unfetched point still finds it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for the second key row. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev rMem0 : Rect S20000x20 := Rect.unit (s := S20000x20) ![0, 0] S20000x20.size inb_S20000x20_S20000x20_0_0
abbrev rKey0 : Rect S1x20 := Rect.unit (s := S1x20) ![0, 0] S1x20.size inb_S1x20_S1x20_0_0
abbrev rFeat0 : Rect S20000x3 := Rect.unit (s := S20000x3) ![0, 0] S20000x3.size inb_S20000x3_S20000x3_0_0

/-! ## What the body leaves in the output buffer -/

/-- The feature block after the body, from the memory block and the two key rows: its one whole-buffer store. -/
def out0_3 (x0 : Vec F S20000x20 .f32) (x1 x2 : Vec F S1x20 .f32) : Vec F S20000x3 .f32 :=
  View.canon [⟨rFeat0, k0_pay1 (View.ld x0 rMem0) (View.ld x1 rKey0) (View.ld x2 rKey0)⟩]

/-- The one store is the whole buffer, so it covers it. -/
theorem cover0_3 (p0 : Vec F S20000x3 .f32) (y : S20000x3.Idx) :
    ∃ pc ∈ ([⟨rFeat0, p0⟩] : List (View.Piece (Elt F) S20000x3 .f32)), y ∈ pc.1.set :=
  View.cover_of_tiled [⟨rFeat0, p0⟩] S20000x3.size (by rfl) y

/-! ## The body's triple -/

set_option maxHeartbeats 1000000 in
/-- The kernel body on whole staging memrefs, the three inputs' at read contents x0 x1 x2 and the output's at
    anything, runs to the continuation holding the inputs' as they were and the output's at out0_3 of the inputs.
    The body reads the output buffer once before it stores to it; the value read is dropped. -/
theorem sound_kernel0 (c : Dev nD) (E : Set ℕ) (i : grid0.Coords)
    (arg0 : Memref sig .tc .vmem S20000x20 .f32) (harg0 : arg0.IsWhole)
    (arg1 : Memref sig .tc .vmem S1x20 .f32) (harg1 : arg1.IsWhole)
    (arg2 : Memref sig .tc .vmem S1x20 .f32) (harg2 : arg2.IsWhole)
    (arg3 : Memref sig .tc .vmem S20000x3 .f32) (harg3 : arg3.IsWhole)
    (x0 : Vec F S20000x20 .f32) (x1 x2 : Vec F S1x20 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (out0_3 x0 x1 x2)) -∗ K ⟨⟩))
      ⊢ wp frame (wpE (defs₀ (F := F)) Variants.none c none) E (cc0__addr_kernel i arg0 harg0 arg1 harg1 arg2 harg2 arg3 harg3) K := by
  simp only [cc0__addr_kernel_eq_skeleton]; unfold cc0__addr_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this pipeline on core c: the arrays as the region finds them; after the body at point t each
    input's buffer at its block and the output's at out0_3 of the input blocks; the invariant untouched; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
import proofs.«104005_j27152783245914_2_alg».proof.Proof.Gen.KernelIdeal.Launch
import proofs.«104005_j27152783245914_2_alg».proof.Proof.Gen.KernelIdeal.Skeleton
import proofs.«104005_j27152783245914_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The inputs' staging buffers -/

/-- The memory block's staging buffer holds the block of the point at every point, for any proof data whose array is
    the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the weight column's block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch: the first point of each row of the grid resets the accumulator -/

/-- The body's one conditional, over the grid coordinates: the inner coordinate is zero. -/
abbrev cond1_0 (i : grid1.Coords) : Prop := (Scalar.cmpi .ne (Scalar.extui (Scalar.cmpi .eq (BitVec.ofNat 32 (i 1).val) 0#32)) 0#32) = 1#1

/-- It holds exactly at the points that are multiples of 25 (the grid is 2 x 25, the inner coordinate the fast one). -/
theorem hcond1_0 : ∀ t : Fin cfg1.N, cond1_0 (grid1.coords t) ↔ t.val % 25 = 0 :=
  (by decide +kernel : ∀ t : Fin grid1.N, cond1_0 (grid1.coords t) ↔ t.val % 25 = 0)

/-! ## The body's accesses: each buffer whole -/

abbrev rM1 : Rect S20000x20 := Rect.unit (s := S20000x20) ![0, 0] S20000x20.size inb_S20000x20_S20000x20_0_0
abbrev rR1 : Rect S20000x1 := Rect.unit (s := S20000x1) ![0, 0] S20000x1.size inb_S20000x1_S20000x1_0_0
abbrev rO1 : Rect S1x1x20 := Rect.unit (s := S1x1x20) ![0, 0, 0] S1x1x20.size inb_S1x1x20_S1x1x20_0_0_0

theorem off2_zero : (![0, 0] : Fin 2 → ℕ) = fun _ => 0 := by funext a; fin_cases a <;> rfl
theorem off3_zero : (![0, 0, 0] : Fin 3 → ℕ) = fun _ => 0 := by funext a; fin_cases a <;> rfl

/-- The whole-buffer rectangle of the output covers every index. -/
theorem cover1_O (p : Vec F S1x1x20 .f32) (L : List (View.Piece (Elt F) S1x1x20 .f32)) (y : S1x1x20.Idx) :
    ∃ pc ∈ ((⟨rO1, p⟩ : View.Piece (Elt F) S1x1x20 .f32) :: L), y ∈ pc.1.set :=
  ⟨_, List.mem_cons_self, View.mem_set_unit_zero off3_zero inb_S1x1x20_S1x1x20_0_0_0 y⟩

/-! ## What the body leaves in the output's buffer -/

/-- At a reset point: the zero fill read back, plus the point's column sums. -/
def out1_A (x0 : Vec F S20000x20 .f32) (x1 : Vec F S20000x1 .f32) : Vec F S1x1x20 .f32 :=
  k1_pay2 x0 x1 (k1_pay1 (F := F))

/-- At any other point: what the buffer held, plus the point's column sums. -/
def out1_B (x0 : Vec F S20000x20 .f32) (x1 : Vec F S20000x1 .f32) (xo : Vec F S1x1x20 .f32) : Vec F S1x1x20 .f32 :=
  k1_pay2 x0 x1 xo

/-! ## The body's triple, case by case -/

set_option maxHeartbeats 1000000 in
/-- At a point whose inner coordinate is zero: on whole staging memrefs, the inputs' at read contents `x0`, `x1` and the
    output's at anything, the body runs to the continuation with the inputs' as they were and the output's at
    `out1_A x0 x1` — the zero fill is read back (a load of what one covering store just left) and added to. -/
theorem sound_kernel1_A (c : Dev nD) (E : Set ℕ) (i : grid1.Coords) (arg2 : Memref sig .tc .vmem S20000x20 .f32) (harg2 : arg2.IsWhole) (arg3 : Memref sig .tc .vmem S20000x1 .f32) (harg3 : arg3.IsWhole) (arg4 : Memref sig .tc .vmem S1x1x20 .f32) (harg4 : arg4.IsWhole)
    (hc0 : cond1_0 i)
    (x0 : Vec F S20000x20 .f32) (x1 : Vec F S20000x1 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_A x0 x1)) -∗ K ⟨⟩))
      ⊢ wp frame (wpE (defs₀ (F := F)) Variants.none c none) E (cc1__readhead_kernel i arg2 harg2 arg3 harg3 arg4 harg4) K := by
  simp only [cc1__readhead_kernel_eq_skeleton]; unfold cc1__readhead_kernel_skel
  unfold owns
  iintro ⟨⟨%f0, %hf0, H0⟩, ⟨%f1, %hf1, H1⟩, ⟨%d2, %f2, -, H2⟩, Hk⟩
  subst hf0; subst hf1
  sl_exec (disch := first | exact hc0)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover1_O _ _), View.canon_cons_unit_zero off3_zero]
  unfold out1_A
  rw [View.readAt_eq_ld, View.readAt_eq_ld, View.ld_unit_zero off2_zero, View.ld_unit_zero off2_zero]
  congr 1
  unfold sound_kernel1_A.sl.v10 sound_kernel1_A.sl.H2_1
  exact View.readCov_unit_zero _ off3_zero _ _

set_option maxHeartbeats 1000000 in
/-- At any other point: the output's memref at read contents `xo`; the body adds the point's column sums to them. -/
theorem sound_kernel1_B (c : Dev nD) (E : Set ℕ) (i : grid1.Coords) (arg2 : Memref sig .tc .vmem S20000x20 .f32) (harg2 : arg2.IsWhole) (arg3 : Memref sig .tc .vmem S20000x1 .f32) (harg3 : arg3.IsWhole) (arg4 : Memref sig .tc .vmem S1x1x20 .f32) (harg4 : arg4.IsWhole)
    (hc0 : ¬cond1_0 i)
    (x0 : Vec F S20000x20 .f32) (x1 : Vec F S20000x1 .f32) (xo : Vec F S1x1x20 .f32) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1 ∗ owns (c : Thread nD τ) arg4 fullShare (out1_B x0 x1 xo)) -∗ K ⟨⟩))
      ⊢ wp frame (wpE (defs₀ (F := F)) Variants.none c none) E (cc1__readhead_kernel i arg2 harg2 arg3 harg3 arg4 harg4) K := by
  simp only [cc1__readhead_kernel_eq_skeleton]; unfold cc1__readhead_kernel_skel
  unfold owns
  iintro ⟨⟨%f0, %hf0, H0⟩, ⟨%f1, %hf1, H1⟩, ⟨%f2, %hf2, H2⟩, Hk⟩
  subst hf0; subst hf1; subst hf2
  sl_exec (disch := first | exact hc0)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover1_O _ _), View.canon_cons_unit_zero off3_zero]
  unfold out1_B
  rw [View.readAt_eq_ld, View.readAt_eq_ld, View.readAt_eq_ld, View.ld_unit_zero off2_zero, View.ld_unit_zero off2_zero,
    View.ld_unit_zero off3_zero]

/-! ## What the output's buffer holds after each point -/

/-- THE ACCUMULATION. What the output's staging buffer holds after the body at position `n` of the grid: at a multiple
    of 25 (the inner coordinate zero) the reset case over the point's two input blocks; at any other point the
    accumulating case over them and what the point before left (the buffer is not written back in between). -/
def acc1 (c : Dev nD) : (n : ℕ) → n < cfg1.N → Vec F S1x1x20 .f32
  | 0, hn => out1_A (iblk1 V c 0 ⟨0, hn⟩) (iblk1 V c 1 ⟨0, hn⟩)
  | n + 1, hn =>
    if (n + 1) % 25 = 0 then out1_A (iblk1 V c 0 ⟨n + 1, hn⟩) (iblk1 V c 1 ⟨n + 1, hn⟩)
    else out1_B (iblk1 V c 0 ⟨n + 1, hn⟩) (iblk1 V c 1 ⟨n + 1, hn⟩) (acc1 c n (Nat.lt_of_succ_lt hn))

/-- `acc1` at a reset point. -/
theorem acc1_A (c : Dev nD) (t : Fin cfg1.N) (h0 : t.val % 25 = 0) :
    acc1 V c t.val t.isLt = out1_A (iblk1 V c 0 t) (iblk1 V c 1 t) := by
  obtain ⟨n, hn⟩ := t
  cases n with
  | zero => rfl
  | succ n => exact (if_pos h0).trans rfl

/-- `acc1` at an accumulating point: over what the point before left. -/
theorem acc1_B (c : Dev nD) (t : Fin cfg1.N) (h0 : ¬t.val % 25 = 0) :
    acc1 V c t.val t.isLt = out1_B (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The pipeline's proof data -/

/-- The proof data of this pipeline on core `c`: the arrays as the region finds them; after the body at point `t` each
    input's buffer at its block and the output's at `acc1`; the invariant the scoped rest and the generator register,
    untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- At an accumulating point the output's current staging buffer holds what the body left at the point before: the
    point is not the first, and the buffer was not written back in between (write-backs are at the points ≡ 24 mod 25,
    whose successors are reset points). -/
theorem before1_2_B (c : Dev nD) (t : Fin cfg1.N) (h0 : ¬t.val % 25 = 0) (d) :
    (dat1 V c).before 2 t d = acc1 V c (t.val - 1) (Nat.lt_of_le_of_lt (Nat.sub_le _ _) t.isLt) := by
  have hN : t.val < 50 := lt_of_lt_of_eq t.isLt (show cfg1.N = 50 from N_1)
  rw [Dat.before_out_kept _ 2 rfl t (by omega) (Bool.eq_false_iff.mpr fun h => by have := (flush1_2 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 800000 in
/-- The body at any point: the inputs' memrefs hold their blocks; the closed form of the condition says which case the
    point is in; at an accumulating point the output's memref holds what the point before left; so the case's triple
    applies; the invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val % 25 = 0
  · rw [acc1_A V c t h0]
    iintro ⟨HΦ, Ho, ⟨%d0, H0⟩, ⟨%d1, H1⟩, ⟨%d2, H2⟩⟩
    iapply (sound_kernel1_A c Set.univ (grid1.coords t) _ _ _ _ _ _ ((hcond1_0 t).mpr h0) (iblk1 V c 0 t) (iblk1 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [acc1_B V c t h0]
    simp only [before1_2_B V c t h0]
    iintro ⟨HΦ, Ho, ⟨%d0, H0⟩, ⟨%d1, H1⟩, ⟨%d2, H2⟩⟩
    iapply (sound_kernel1_B c Set.univ (grid1.coords t) _ _ _ _ _ _ (fun h => h0 ((hcond1_0 t).mp h)) (iblk1 V c 0 t) (iblk1 V c 1 t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
import proofs.«104005_j27152783245914_2_alg».proof.Proof.Gen.KernelIdeal.Launch
import proofs.«104005_j27152783245914_2_alg».proof.Proof.Gen.KernelIdeal.Skeleton
import proofs.«104005_j27152783245914_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The third pallas_call, `cc2__update_kernel` (grid of 100 row blocks), at the entry contents `V`

Each grid point rewrites one block of 10000 rows of the memory matrix: row by row, the old row scaled by
one minus (write weight times erase vector), plus (write weight times add vector). The erase and add vectors
are brought in once, at the first point, and stay in their buffers afterwards. -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, whether the block was brought in at that
    point or at an earlier one: a window that is not refetched has not moved its block index, so the block it
    kept is still the block of the present point. Stated for any proof data over the entry arrays whose body
    leaves the input buffers as they were. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The erase vector's window: one block for the whole grid, brought in at the first point only. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- The add vector's window: likewise one block, brought in at the first point only. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take a whole buffer -/

abbrev r2_0 : Rect S10000x20 := Rect.unit (s := S10000x20) ![0, 0] S10000x20.size inb_S10000x20_S10000x20_0_0
abbrev r2_1 : Rect S10000x1 := Rect.unit (s := S10000x1) ![0, 0] S10000x1.size inb_S10000x1_S10000x1_0_0
abbrev r2_2 : Rect S1x20 := Rect.unit (s := S1x20) ![0, 0] S1x20.size inb_S1x20_S1x20_0_0

/-! ## What the body leaves in the output window's buffer -/

/-- The updated block, from the four input blocks (memory rows, write-weight column, erase vector, add
    vector): the body's single store, of the whole buffer. -/
def out2_4 (x0 : Vec F S10000x20 .f32) (x1 : Vec F S10000x1 .f32) (x2 : Vec F S1x20 .f32) (x3 : Vec F S1x20 .f32) : Vec F S10000x20 .f32 :=
  View.canon [⟨r2_0, k2_pay1 (View.ld x0 r2_0) (View.ld x1 r2_1) (View.ld x2 r2_2) (View.ld x3 r2_2)⟩]

/-- The one store writes every index of the buffer. -/
theorem cover2_4 (p0 : Vec F S10000x20 .f32) (y : S10000x20.Idx) :
    ∃ pc ∈ ([⟨r2_0, p0⟩] : List (View.Piece (Elt F) S10000x20 .f32)), y ∈ pc.1.set :=
  View.cover_of_tiled [⟨r2_0, p0⟩] S10000x20.size (by rfl) y

/-! ## The body's triple -/

set_option maxHeartbeats 1000000 in
/-- The body on whole buffers — the four inputs' at given contents, the output's at anything — runs to the
    continuation with the inputs' unchanged and the output's at `out2_4` of them. The output buffer is also
    read before it is written; the value read is not used. -/
theorem sound_kernel2 (c : Dev nD) (E : Set ℕ) (i : grid2.Coords) (arg1 : Memref sig .tc .vmem S10000x20 .f32) (harg1 : arg1.IsWhole) (arg2 : Memref sig .tc .vmem S10000x1 .f32) (harg2 : arg2.IsWhole) (arg3 : Memref sig .tc .vmem S1x20 .f32) (harg3 : arg3.IsWhole) (arg4 : Memref sig .tc .vmem S1x20 .f32) (harg4 : arg4.IsWhole) (arg5 : Memref sig .tc .vmem S10000x20 .f32) (harg5 : arg5.IsWhole)
    (x0 : Vec F S10000x20 .f32) (x1 : Vec F S10000x1 .f32) (x2 : Vec F S1x20 .f32) (x3 : Vec F S1x20 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__update_kernel i arg1 harg1 arg2 harg2 arg3 harg3 arg4 harg4 arg5 harg5) K := by
  simp only [cc2__update_kernel_eq_skeleton]; unfold cc2__update_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data on core `c`: the arrays as the region finds them; after the body at point `t` each input's
    buffer at its block and the output's at `out2_4` of the four input blocks; the invariant that of a region
    whose body touches nothing but its windows; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

/-- Each input's current buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' buffers hold their blocks, so the body's triple applies; the invariant
    and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
import proofs.«104005_j27152783245914_2_alg».proof.Proof.Gen.KernelIdeal.Launch
import proofs.«104005_j27152783245914_2_alg».proof.Proof.Gen.KernelIdeal.Skeleton
import proofs.«104005_j27152783245914_2_alg».proof.Proof.Gen.KernelIdeal.Points
import proofs.«104005_j27152783245914_2_alg».proof.Proof.KI.Region0
import proofs.«104005_j27152783245914_2_alg».proof.Proof.KI.Region1
import proofs.«104005_j27152783245914_2_alg».proof.Proof.KI.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: its segments from the launch to the return

## The buffers' contents at each segment boundary: a fold through @main

@main is nine stretches of host operations, the addressing kernel (region 0), five stretches, the read-head kernel
(region 1), thirteen stretches, the update kernel (region 2). `W0` is the launch memory; a stretch takes `WJ` to
`StableHlo.after` of its operations; a region takes its entry contents to the same valuation with its windows' arrays at
what the pipeline's write-backs leave (`Pipeline.withArrays`). `VJ` is `WJ` read at the TensorCore's references. -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After `hostOps0` (the controller's first layers). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
/-- After `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- After `hostOps0_3`. -/
abbrev W4 : Dev nD → Valuation τ sig (Elt F) := fun c => StableHlo.after hostOps0_3 (W3 m ρ c)
abbrev V4 : (c : Dev nD) → (b : Ref sig .tc) → Buf (Elt F) ((c : Thread nD τ).loc b) := fun c b => W4 m ρ c b
/-- After `hostOps0_4`. -/
abbrev W5 : Dev nD → Valuation τ sig (Elt F) := fun c => StableHlo.after hostOps0_4 (W4 m ρ c)
abbrev V5 : (c : Dev nD) → (b : Ref sig .tc) → Buf (Elt F) ((c : Thread nD τ).loc b) := fun c b => W5 m ρ c b
/-- After `hostOps0_5`. -/
abbrev W6 : Dev nD → Valuation τ sig (Elt F) := fun c => StableHlo.after hostOps0_5 (W5 m ρ c)
abbrev V6 : (c : Dev nD) → (b : Ref sig .tc) → Buf (Elt F) ((c : Thread nD τ).loc b) := fun c b => W6 m ρ c b
/-- After `hostOps0_6`. -/
abbrev W7 : Dev nD → Valuation τ sig (Elt F) := fun c => StableHlo.after hostOps0_6 (W6 m ρ c)
abbrev V7 : (c : Dev nD) → (b : Ref sig .tc) → Buf (Elt F) ((c : Thread nD τ).loc b) := fun c b => W7 m ρ c b
/-- After `hostOps0_7`. -/
abbrev W8 : Dev nD → Valuation τ sig (Elt F) := fun c => StableHlo.after hostOps0_7 (W7 m ρ c)
abbrev V8 : (c : Dev nD) → (b : Ref sig .tc) → Buf (Elt F) ((c : Thread nD τ).loc b) := fun c b => W8 m ρ c b
/-- After `hostOps0_8`: region 0's entry. -/
abbrev W9 : Dev nD → Valuation τ sig (Elt F) := fun c => StableHlo.after hostOps0_8 (W8 m ρ c)
/-- The same read at the TensorCore's references (what region 0's proof data take). -/
abbrev V9 : (c : Dev nD) → (b : Ref sig .tc) → Buf (Elt F) ((c : Thread nD τ).loc b) := fun c b => W9 m ρ c b

/-- At region 0's exit: its arrays at what the pipeline leaves (the inputs as entered, the output's write-backs folded:
    `Dat.arrAt … N`), every other buffer as entered. -/
def W10 (c : Dev nD) : Valuation τ sig (Elt F) :=
  Pipeline.withArrays spec0 c (W9 m ρ c) fun w => (dat0 (V9 m ρ) c).arrAt w cfg0.N
theorem W10_arr (c : Dev nD) (w : Fin cfg0.W) :
    W10 m ρ c (Proc.devRef .tc (Pipeline.arrRef spec0 w)) = (dat0 (V9 m ρ) c).arrAt w cfg0.N := by
  unfold W10; exact Pipeline.withArrays_arr spec0 launch0.win.arr_inj c _ _ w
theorem W10_of_ne (c : Dev nD) (b : Ref sig .tc) (hb : ∀ w, Pipeline.arrRef spec0 w ≠ b) :
    W10 m ρ c (Proc.devRef .tc b) = W9 m ρ c (Proc.devRef .tc b) := by
  unfold W10; exact Pipeline.withArrays_of_ne spec0 c _ _ b hb
abbrev V10 : (c : Dev nD) → (b : Ref sig .tc) → Buf (Elt F) ((c : Thread nD τ).loc b) := fun c b => W10 m ρ c b
/-- At region 0's exit each of its arrays holds what the pipeline leaves, and every other buffer what it held at
    entry. -/
theorem hF0 (c : Dev nD) (w : Fin cfg0.W) : (dat0 (V9 m ρ) c).arrAt w cfg0.N = V10 m ρ c (Pipeline.arrRef spec0 w) :=
  (W10_arr m ρ c w).symm
theorem hrest0 (c : Dev nD) : ∀ b, b ∉ Finset.univ.image (Pipeline.arrRef spec0) → V10 m ρ c b = V9 m ρ c b :=
  fun b hb => W10_of_ne m ρ c b fun w e => hb (Finset.mem_image.mpr ⟨w, Finset.mem_univ _, e⟩)

/-- After `hostOps1` (the packed result's three columns). -/
abbrev W11 : Dev nD → Valuation τ sig (Elt F) := fun c => StableHlo.after hostOps1 (W10 m ρ c)
abbrev V11 : (c : Dev nD) → (b : Ref sig .tc) → Buf (Elt F) ((c : Thread nD τ).loc b) := fun c b => W11 m ρ c b
/-- After `hostOps1_1`. -/
abbrev W12 : Dev nD → Valuation τ sig (Elt F) := fun c => StableHlo.after hostOps1_1 (W11 m ρ c)
abbrev V12 : (c : Dev nD) → (b : Ref sig .tc) → Buf (Elt F) ((c : Thread nD τ).loc b) := fun c b => W12 m ρ c b
/-- After `hostOps1_2`. -/
abbrev W13 : Dev nD → Valuation τ sig (Elt F) := fun c => StableHlo.after hostOps1_2 (W12 m ρ c)
abbrev V13 : (c : Dev nD) → (b : Ref sig .tc) → Buf (Elt F) ((c : Thread nD τ).loc b) := fun c b => W13 m ρ c b
/-- After `hostOps1_3`. -/
abbrev W14 : Dev nD → Valuation τ sig (Elt F) := fun c => StableHlo.after hostOps1_3 (W13 m ρ c)
abbrev V14 : (c : Dev nD) → (b : Ref sig .tc) → Buf (Elt F) ((c : Thread nD τ).loc b) := fun c b => W14 m ρ c b
/-- After `hostOps1_4`: region 1's entry. -/
abbrev W15 : Dev nD → Valuation τ sig (Elt F) := fun c => StableHlo.after hostOps1_4 (W14 m ρ c)
/-- The same read at the TensorCore's references (what region 1's proof data take). -/
abbrev V15 : (c : Dev nD) → (b : Ref sig .tc) → Buf (Elt F) ((c : Thread nD τ).loc b) := fun c b => W15 m ρ c b

/-- At region 1's exit: its arrays at what the pipeline leaves, every other buffer as entered. -/
def W16 (c : Dev nD) : Valuation τ sig (Elt F) :=
  Pipeline.withArrays spec1 c (W15 m ρ c) fun w => (dat1 (V15 m ρ) c).arrAt w cfg1.N
theorem W16_arr (c : Dev nD) (w : Fin cfg1.W) :
    W16 m ρ c (Proc.devRef .tc (Pipeline.arrRef spec1 w)) = (dat1 (V15 m ρ) c).arrAt w cfg1.N := by
  unfold W16; exact Pipeline.withArrays_arr spec1 launch1.win.arr_inj c _ _ w
theorem W16_of_ne (c : Dev nD) (b : Ref sig .tc) (hb : ∀ w, Pipeline.arrRef spec1 w ≠ b) :
    W16 m ρ c (Proc.devRef .tc b) = W15 m ρ c (Proc.devRef .tc b) := by
  unfold W16; exact Pipeline.withArrays_of_ne spec1 c _ _ b hb
abbrev V16 : (c : Dev nD) → (b : Ref sig .tc) → Buf (Elt F) ((c : Thread nD τ).loc b) := fun c b => W16 m ρ c b
theorem hF1 (c : Dev nD) (w : Fin cfg1.W) : (dat1 (V15 m ρ) c).arrAt w cfg1.N = V16 m ρ c (Pipeline.arrRef spec1 w) :=
  (W16_arr m ρ c w).symm
theorem hrest1 (c : Dev nD) : ∀ b, b ∉ Finset.univ.image (Pipeline.arrRef spec1) → V16 m ρ c b = V15 m ρ c b :=
  fun b hb => W16_of_ne m ρ c b fun w e => hb (Finset.mem_image.mpr ⟨w, Finset.mem_univ _, e⟩)

/-- After `hostOps2`. -/
abbrev W17 : Dev nD → Valuation τ sig (Elt F) := fun c => StableHlo.after hostOps2 (W16 m ρ c)
abbrev V17 : (c : Dev nD) → (b : Ref sig .tc) → Buf (Elt F) ((c : Thread nD τ).loc b) := fun c b => W17 m ρ c b
/-- After `hostOps2_1`. -/
abbrev W18 : Dev nD → Valuation τ sig (Elt F) := fun c => StableHlo.after hostOps2_1 (W17 m ρ c)
abbrev V18 : (c : Dev nD) → (b : Ref sig .tc) → Buf (Elt F) ((c : Thread nD τ).loc b) := fun c b => W18 m ρ c b
/-- After `hostOps2_2`. -/
abbrev W19 : Dev nD → Valuation τ sig (Elt F) := fun c => StableHlo.after hostOps2_2 (W18 m ρ c)
abbrev V19 : (c : Dev nD) → (b : Ref sig .tc) → Buf (Elt F) ((c : Thread nD τ).loc b) := fun c b => W19 m ρ c b
/-- After `hostOps2_3`. -/
abbrev W20 : Dev nD → Valuation τ sig (Elt F) := fun c => StableHlo.after hostOps2_3 (W19 m ρ c)
abbrev V20 : (c : Dev nD) → (b : Ref sig .tc) → Buf (Elt F) ((c : Thread nD τ).loc b) := fun c b => W20 m ρ c b
/-- After `hostOps2_4`. -/
abbrev W21 : Dev nD → Valuation τ sig (Elt F) := fun c => StableHlo.after hostOps2_4 (W20 m ρ c)
abbrev V21 : (c : Dev nD) → (b : Ref sig .tc) → Buf (Elt F) ((c : Thread nD τ).loc b) := fun c b => W21 m ρ c b
/-- After `hostOps2_5`. -/
abbrev W22 : Dev nD → Valuation τ sig (Elt F) := fun c => StableHlo.after hostOps2_5 (W21 m ρ c)
abbrev V22 : (c : Dev nD) → (b : Ref sig .tc) → Buf (Elt F) ((c : Thread nD τ).loc b) := fun c b => W22 m ρ c b
/-- After `hostOps2_6`. -/
abbrev W23 : Dev nD → Valuation τ sig (Elt F) := fun c => StableHlo.after hostOps2_6 (W22 m ρ c)
abbrev V23 : (c : Dev nD) → (b : Ref sig .tc) → Buf (Elt F) ((c : Thread nD τ).loc b) := fun c b => W23 m ρ c b
/-- After `hostOps2_7`. -/
abbrev W24 : Dev nD → Valuation τ sig (Elt F) := fun c => StableHlo.after hostOps2_7 (W23 m ρ c)
abbrev V24 : (c : Dev nD) → (b : Ref sig .tc) → Buf (Elt F) ((c : Thread nD τ).loc b) := fun c b => W24 m ρ c b
/-- After `hostOps2_8`. -/
abbrev W25 : Dev nD → Valuation τ sig (Elt F) := fun c => StableHlo.after hostOps2_8 (W24 m ρ c)
abbrev V25 : (c : Dev nD) → (b : Ref sig .tc) → Buf (Elt F) ((c : Thread nD τ).loc b) := fun c b => W25 m ρ c b
/-- After `hostOps2_9`. -/
abbrev W26 : Dev nD → Valuation τ sig (Elt F) := fun c => StableHlo.after hostOps2_9 (W25 m ρ c)
abbrev V26 : (c : Dev nD) → (b : Ref sig .tc) → Buf (Elt F) ((c : Thread nD τ).loc b) := fun c b => W26 m ρ c b
/-- After `hostOps2_10`. -/
abbrev W27 : Dev nD → Valuation τ sig (Elt F) := fun c => StableHlo.after hostOps2_10 (W26 m ρ c)
abbrev V27 : (c : Dev nD) → (b : Ref sig .tc) → Buf (Elt F) ((c : Thread nD τ).loc b) := fun c b => W27 m ρ c b
/-- After `hostOps2_11`. -/
abbrev W28 : Dev nD → Valuation τ sig (Elt F) := fun c => StableHlo.after hostOps2_11 (W27 m ρ c)
abbrev V28 : (c : Dev nD) → (b : Ref sig .tc) → Buf (Elt F) ((c : Thread nD τ).loc b) := fun c b => W28 m ρ c b
/-- After `hostOps2_12`: region 2's entry. -/
abbrev W29 : Dev nD → Valuation τ sig (Elt F) := fun c => StableHlo.after hostOps2_12 (W28 m ρ c)
/-- The same read at the TensorCore's references (what region 2's proof data take). -/
abbrev V29 : (c : Dev nD) → (b : Ref sig .tc) → Buf (Elt F) ((c : Thread nD τ).loc b) := fun c b => W29 m ρ c b

/-- At region 2's exit, which is @main's return: its arrays at what the pipeline leaves, every other buffer as entered. -/
def W30 (c : Dev nD) : Valuation τ sig (Elt F) :=
  Pipeline.withArrays spec2 c (W29 m ρ c) fun w => (dat2 (V29 m ρ) c).arrAt w cfg2.N
theorem W30_arr (c : Dev nD) (w : Fin cfg2.W) :
    W30 m ρ c (Proc.devRef .tc (Pipeline.arrRef spec2 w)) = (dat2 (V29 m ρ) c).arrAt w cfg2.N := by
  unfold W30; exact Pipeline.withArrays_arr spec2 launch2.win.arr_inj c _ _ w
theorem W30_of_ne (c : Dev nD) (b : Ref sig .tc) (hb : ∀ w, Pipeline.arrRef spec2 w ≠ b) :
    W30 m ρ c (Proc.devRef .tc b) = W29 m ρ c (Proc.devRef .tc b) := by
  unfold W30; exact Pipeline.withArrays_of_ne spec2 c _ _ b hb
abbrev V30 : (c : Dev nD) → (b : Ref sig .tc) → Buf (Elt F) ((c : Thread nD τ).loc b) := fun c b => W30 m ρ c b
theorem hF2 (c : Dev nD) (w : Fin cfg2.W) : (dat2 (V29 m ρ) c).arrAt w cfg2.N = V30 m ρ c (Pipeline.arrRef spec2 w) :=
  (W30_arr m ρ c w).symm
theorem hrest2 (c : Dev nD) : ∀ b, b ∉ Finset.univ.image (Pipeline.arrRef spec2) → V30 m ρ c b = V29 m ρ c b :=
  fun b hb => W30_of_ne m ρ c b fun w e => hb (Finset.mem_image.mpr ⟨w, Finset.mem_univ _, e⟩)

/-- The buffers' contents when @main returns. -/
abbrev Wfin (c : Dev nD) : Valuation τ sig (Elt F) := W30 m ρ c

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents (a literal `match`, so that the pinned
    configuration at a numeral reduces to the printed one). -/
def pdats : (p : Fin 3) → (c : Dev nD) → Dat τ (Elt F) Unit ℕ (UR sig nD τ) ℕ (Pipeline.pin (pcfgs (F := F)) adm p) c
  | ⟨0, _⟩ => fun c => dat0 (V9 m ρ) c
  | ⟨1, _⟩ => fun c => dat1 (V15 m ρ) c
  | ⟨2, _⟩ => fun c => dat2 (V29 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves
    those references at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! No operation of any stretch allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps2_1_fresh : (hostOps2_1 : List (HloOp τ sig (Elt F))).Forall fun op => op.fresh = ∅ := by
  simp only [List.Forall]; repeat' constructor
theorem hostOps2_2_fresh : (hostOps2_2 : List (HloOp τ sig (Elt F))).Forall fun op => op.fresh = ∅ := by
  simp only [List.Forall]; repeat' constructor
theorem hostOps2_3_fresh : (hostOps2_3 : List (HloOp τ sig (Elt F))).Forall fun op => op.fresh = ∅ := by
  simp only [List.Forall]; repeat' constructor
theorem hostOps2_4_fresh : (hostOps2_4 : List (HloOp τ sig (Elt F))).Forall fun op => op.fresh = ∅ := by
  simp only [List.Forall]; repeat' constructor
theorem hostOps2_5_fresh : (hostOps2_5 : List (HloOp τ sig (Elt F))).Forall fun op => op.fresh = ∅ := by
  simp only [List.Forall]; repeat' constructor
theorem hostOps2_6_fresh : (hostOps2_6 : List (HloOp τ sig (Elt F))).Forall fun op => op.fresh = ∅ := by
  simp only [List.Forall]; repeat' constructor
theorem hostOps2_7_fresh : (hostOps2_7 : List (HloOp τ sig (Elt F))).Forall fun op => op.fresh = ∅ := by
  simp only [List.Forall]; repeat' constructor
theorem hostOps2_8_fresh : (hostOps2_8 : List (HloOp τ sig (Elt F))).Forall fun op => op.fresh = ∅ := by
  simp only [List.Forall]; repeat' constructor
theorem hostOps2_9_fresh : (hostOps2_9 : List (HloOp τ sig (Elt F))).Forall fun op => op.fresh = ∅ := by
  simp only [List.Forall]; repeat' constructor
theorem hostOps2_10_fresh : (hostOps2_10 : List (HloOp τ sig (Elt F))).Forall fun op => op.fresh = ∅ := by
  simp only [List.Forall]; repeat' constructor
theorem hostOps2_11_fresh : (hostOps2_11 : List (HloOp τ sig (Elt F))).Forall fun op => op.fresh = ∅ := by
  simp only [List.Forall]; repeat' constructor
theorem hostOps2_12_fresh : (hostOps2_12 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W30 m ρ c) ∗ ∃ r, prngReg c r)

/-! ## The regions as segments -/

-- `iapply` of a library lemma stated over the pinned configuration unifies with it only when unification may unfold
-- plain definitions in a metavariable's type
set_option backward.isDefEq.respectTransparency.types false in
/-- Region 0 (the addressing kernel) over the thread state: entered from every unscoped buffer at `W9`, left at `W10`.
    Its arrays are split out of the unscoped buffers and put back at the exit contents; the generator register goes
    into the class invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V9 m ρ) c).loose
  hwaits := Pipeline.hwaits_of_owed_zero _ _ _ _ L lv 0 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec0 c (V9 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V9 m ρ c) (V10 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- as above
set_option backward.isDefEq.respectTransparency.types false in
/-- Region 1 (the read-head kernel) over the thread state: entered from every unscoped buffer at `W15`, left at `W16`,
    by the same protocol as region 0. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V15 m ρ) c).loose
  hwaits := Pipeline.hwaits_of_owed_zero _ _ _ _ L lv 1 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec1 c (V15 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V15 m ρ c) (V16 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- as above
set_option backward.isDefEq.respectTransparency.types false in
/-- Region 2 (the update kernel) over the thread state: entered from every unscoped buffer at `W29`, left at `W30`,
    which is what the launch reads at the end: its exit makes the last thread state beside the core owing nothing. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V29 m ρ) c).loose
  hwaits := Pipeline.hwaits_of_owed_zero _ _ _ _ L lv 2 fun _ _ => rfl
  pre c := iprop(StableHlo.held (c : Thread nD τ) (Pipeline.ucRefs τ sig) (W29 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V29 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V29 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V29 m ρ c) (V30 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments -/

/-- @main's 30 segments in order: a host segment per stretch from its boundary's contents, a region per kernel. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .region (reg0 m ρ),
    .host (hseg hostOps1 hostOps1_sub hostOps1_fresh (W10 m ρ)),
    .host (hseg hostOps1_1 hostOps1_1_sub hostOps1_1_fresh (W11 m ρ)),
    .host (hseg hostOps1_2 hostOps1_2_sub hostOps1_2_fresh (W12 m ρ)),
    .host (hseg hostOps1_3 hostOps1_3_sub hostOps1_3_fresh (W13 m ρ)),
    .host (hseg hostOps1_4 hostOps1_4_sub hostOps1_4_fresh (W14 m ρ)),
    .region (reg1 m ρ),
    .host (hseg hostOps2 hostOps2_sub hostOps2_fresh (W16 m ρ)),
    .host (hseg hostOps2_1 hostOps2_1_sub hostOps2_1_fresh (W17 m ρ)),
    .host (hseg hostOps2_2 hostOps2_2_sub hostOps2_2_fresh (W18 m ρ)),
    .host (hseg hostOps2_3 hostOps2_3_sub hostOps2_3_fresh (W19 m ρ)),
    .host (hseg hostOps2_4 hostOps2_4_sub hostOps2_4_fresh (W20 m ρ)),
    .host (hseg hostOps2_5 hostOps2_5_sub hostOps2_5_fresh (W21 m ρ)),
    .host (hseg hostOps2_6 hostOps2_6_sub hostOps2_6_fresh (W22 m ρ)),
    .host (hseg hostOps2_7 hostOps2_7_sub hostOps2_7_fresh (W23 m ρ)),
    .host (hseg hostOps2_8 hostOps2_8_sub hostOps2_8_fresh (W24 m ρ)),
    .host (hseg hostOps2_9 hostOps2_9_sub hostOps2_9_fresh (W25 m ρ)),
    .host (hseg hostOps2_10 hostOps2_10_sub hostOps2_10_fresh (W26 m ρ)),
    .host (hseg hostOps2_11 hostOps2_11_sub hostOps2_11_fresh (W27 m ρ)),
    .host (hseg hostOps2_12 hostOps2_12_sub hostOps2_12_fresh (W28 m ρ)),
    .region (reg2 m ρ) ]
/-- @main is the run of the segments: the generated chain of @main's items, then the segments' run against that chain
    by the kernel's definitional check. -/
theorem main_run (c : Dev nD) : main (F := F) c = Pipeline.Seg.run (segs m ρ) := (main_chain c).trans (by chain_rfl)

/-! ## The launch -/

-- the launch theorem's implicit arguments are found by unifying its conclusion with this one, which takes unfolding plain
-- definitions in a metavariable's type
set_option backward.isDefEq.respectTransparency.types false in
/-- At the compiled mesh, from any memory with zero counters, every weakly fair execution of @main on the TensorCore
    terminates, nothing faulting, and every final state has each unscoped buffer at the last boundary's contents: the
    library's launch over the segments, the last thread state read against the final state. -/
theorem run_all : θ_run defs (onTc (τ := τ) (main (F := F))) ⟨m, fun _ => 0, ρ⟩ (fun r => ∀ c : Dev nD,
      ∀ b ∈ Pipeline.ucRefs τ sig, r.2.mem ((c : Thread nD τ).1, b) = Wfin m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W30 m ρ c b)
    (hfin := fun c s' => by
      iintro ⟨⟨Hh, -⟩, HSI⟩
      unfold StableHlo.held
      imodintro
      iapply (pointsTo_read_all (Pipeline.ucRefs τ sig) (fun b => (((c : Thread nD τ)).1, b)) (W30 m ρ c) s')
      isplitl [Hh] <;> iassumption)
    (hQ := fun _ h => h)

end Cert.KernelIdeal.Hand

end
-- ==== Proof.KI.Args.lean ====
import proofs.«104005_j27152783245914_2_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! # The run's buffers, reference by reference: what each segment of @main leaves unchanged -/

/-! ## What the host stretches write

Each operation of a stretch writes one buffer; `hostOpsJ_W` lists those references in order, and the references a
stretch does not list keep their contents across it. -/

/-- An operation that writes one buffer, a reference of the list, writes inside the list. -/
theorem writes_sub {W : List (Ref sig .tc)} {op : HloOp τ sig (Elt F)} {y : Ref sig .tc}
    (hw : op.writes = {Proc.devRef .tc y}) (hy : y ∈ W) :
    op.writes ⊆ (W.map (Proc.devRef (τ := τ) .tc)).toFinset := by
  rw [hw, Finset.singleton_subset_iff, List.mem_toFinset]; exact List.mem_map_of_mem hy

abbrev hostOps0_W : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_cst, main_v27, main_v28, main_cst_0, main_v29, main_v30, main_v31, main_v32, main_v33, main_v34, main_v35, main_v36, main_v37, main_v38, main_v39, main_v40, main_v41, main_v42, main_cst_1, main_v43, main_cst_2, main_v44, main_v45, main_v46, main_cst_3, main_v47, main_cst_4, main_v48, main_v49, main_v50, main_v51, main_v52, main_cst_5, main_v53, main_v54, main_v55, main_v56, main_v57, main_v58]
abbrev hostOps0_1_W : List (Ref sig .tc) := [main_call0_cst, main_call0_v0, main_call0_v1, main_call0_v2, main_call0_v3, main_call0_v4, main_call0_v5, main_call0_v6, main_call0_v7, main_call0_v8, main_v59]
abbrev hostOps0_2_W : List (Ref sig .tc) := [main_cst_6, main_v60, main_v61, main_v62]
abbrev hostOps0_3_W : List (Ref sig .tc) := [main_call1_cst, main_call1_v0, main_call1_v1, main_call1_v2, main_call1_v3, main_call1_v4, main_call1_v5, main_call1_v6, main_call1_v7, main_call1_v8, main_v63]
abbrev hostOps0_4_W : List (Ref sig .tc) := [main_v64, main_v65, main_v66, main_v67, main_v68, main_v69, main_v70, main_v71, main_cst_7, main_v72, main_cst_8, main_v73, main_v74, main_v75, main_cst_9, main_v76, main_cst_10, main_v77, main_v78, main_v79, main_v80, main_v81, main_cst_11, main_v82, main_v83, main_v84, main_v85, main_v86, main_v87]
abbrev hostOps0_5_W : List (Ref sig .tc) := [main_call2_cst, main_call2_v0, main_call2_v1, main_call2_v2, main_call2_v3, main_call2_v4, main_call2_v5, main_call2_v6, main_call2_v7, main_call2_v8, main_v88]
abbrev hostOps0_6_W : List (Ref sig .tc) := [main_cst_12, main_v89, main_v90, main_v91]
abbrev hostOps0_7_W : List (Ref sig .tc) := [main_call3_cst, main_call3_v0, main_call3_v1, main_call3_v2, main_call3_v3, main_call3_v4, main_call3_v5, main_call3_v6, main_call3_v7, main_call3_v8, main_v92]
abbrev hostOps0_8_W : List (Ref sig .tc) := [main_cst_13, main_v93, main_v94, main_cst_14, main_v95, main_v96]
abbrev hostOps1_W : List (Ref sig .tc) := [main_v98, main_v99, main_v100]
abbrev hostOps1_1_W : List (Ref sig .tc) := [main_call4_v0, main_call4_cst, main_call4_v1, main_v101]
abbrev hostOps1_2_W : List (Ref sig .tc) := [main_cst_15, main_v102, main_v103, main_cst_16, main_v104, main_v105, main_v106, main_v107, main_v108, main_v109, main_v110, main_v111, main_v112, main_cst_17, main_v113, main_cst_18, main_v114, main_v115, main_v116, main_v117, main_v118, main_v119, main_cst_19, main_v120, main_v121, main_v122, main_v123, main_v124, main_v125, main_cst_20, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_cst_21, main_v152, main_v153, main_cst_22, main_v154, main_v155, main_v156, main_v157]
abbrev hostOps1_3_W : List (Ref sig .tc) := [main_call5_v0, main_call5_cst, main_call5_v1, main_v158]
abbrev hostOps1_4_W : List (Ref sig .tc) := [main_cst_23, main_v159, main_v160, main_cst_24, main_v161, main_v162, main_v163, main_v164, main_v165, main_v166, main_v167, main_v168, main_v169, main_cst_25, main_v170, main_cst_26, main_v171, main_v172, main_v173, main_v174, main_v175, main_v176, main_cst_27, main_v177, main_v178, main_v179, main_v180, main_v181, main_v182, main_cst_28, main_v183, main_v184, main_v185, main_v186, main_v187, main_v188, main_v189, main_v190, main_v191, main_v192, main_v193, main_v194, main_v195, main_v196, main_v197, main_v198, main_v199, main_v200, main_v201, main_v202, main_v203, main_v204, main_v205, main_v206, main_v207, main_v208, main_cst_29, main_v209, main_v210, main_cst_30, main_v211, main_v212, main_v213, main_v214, main_v215]
abbrev hostOps2_W : List (Ref sig .tc) := [main_v217, main_cst_31, main_v218, main_v219, main_v220, main_v221, main_v222, main_v223, main_v224, main_cst_32, main_v225, main_cst_33, main_v226, main_v227, main_cst_34, main_v228, main_cst_35, main_v229, main_v230, main_v231, main_v232, main_v233, main_v234, main_cst_36, main_v235, main_v236, main_v237, main_v238, main_v239, main_v240, main_v241, main_v242]
abbrev hostOps2_1_W : List (Ref sig .tc) := [main_call6_cst, main_call6_v0, main_v243]
abbrev hostOps2_2_W : List (Ref sig .tc) := [main_v244, main_v245, main_v246, main_v247]
abbrev hostOps2_3_W : List (Ref sig .tc) := [main_call7_cst, main_call7_v0, main_v248]
abbrev hostOps2_4_W : List (Ref sig .tc) := [main_v249, main_v250, main_v251, main_v252]
abbrev hostOps2_5_W : List (Ref sig .tc) := [main_call8_cst, main_call8_v0, main_v253]
abbrev hostOps2_6_W : List (Ref sig .tc) := [main_v254, main_v255, main_v256, main_v257, main_cst_37, main_v258, main_cst_38, main_v259, main_v260, main_v261, main_v262, main_v263, main_v264, main_cst_39, main_v265, main_v266, main_v267, main_v268, main_v269, main_v270, main_v271, main_v272]
abbrev hostOps2_7_W : List (Ref sig .tc) := [main_call9_cst, main_call9_v0, main_v273]
abbrev hostOps2_8_W : List (Ref sig .tc) := [main_v274, main_v275, main_v276, main_v277]
abbrev hostOps2_9_W : List (Ref sig .tc) := [main_call10_cst, main_call10_v0, main_v278]
abbrev hostOps2_10_W : List (Ref sig .tc) := [main_v279, main_v280, main_v281, main_v282]
abbrev hostOps2_11_W : List (Ref sig .tc) := [main_call11_cst, main_call11_v0, main_v283]
abbrev hostOps2_12_W : List (Ref sig .tc) := [main_v284, main_v285, main_v286, main_v287, main_cst_40, main_v288, main_cst_41, main_v289, main_v290, main_v291, main_v292, main_v293, main_v294, main_cst_42, main_v295, main_v296, main_v297, main_v298, main_v299, main_v300, main_v301, main_v302, main_v303, main_v304, main_v305, main_v306, main_v307, main_v308, main_v309, main_v310, main_v311, main_v312, main_v313, main_cst_43, main_v314, main_v315, main_v316, main_v317, main_v318]

set_option maxHeartbeats 4000000 in
theorem hostOps0_writes : (hostOps0 : List (HloOp τ sig (Elt F))).Forall fun op => op.writes ⊆ (hostOps0_W.map (Proc.devRef (τ := τ) .tc)).toFinset := by
  simp only [List.Forall]; repeat' apply And.intro
  all_goals exact writes_sub rfl (by decide)
theorem hostOps0_1_writes : (hostOps0_1 : List (HloOp τ sig (Elt F))).Forall fun op => op.writes ⊆ (hostOps0_1_W.map (Proc.devRef (τ := τ) .tc)).toFinset := by
  simp only [List.Forall]; repeat' apply And.intro
  all_goals exact writes_sub rfl (by decide)
theorem hostOps0_2_writes : (hostOps0_2 : List (HloOp τ sig (Elt F))).Forall fun op => op.writes ⊆ (hostOps0_2_W.map (Proc.devRef (τ := τ) .tc)).toFinset := by
  simp only [List.Forall]; repeat' apply And.intro
  all_goals exact writes_sub rfl (by decide)
theorem hostOps0_3_writes : (hostOps0_3 : List (HloOp τ sig (Elt F))).Forall fun op => op.writes ⊆ (hostOps0_3_W.map (Proc.devRef (τ := τ) .tc)).toFinset := by
  simp only [List.Forall]; repeat' apply And.intro
  all_goals exact writes_sub rfl (by decide)
set_option maxHeartbeats 4000000 in
theorem hostOps0_4_writes : (hostOps0_4 : List (HloOp τ sig (Elt F))).Forall fun op => op.writes ⊆ (hostOps0_4_W.map (Proc.devRef (τ := τ) .tc)).toFinset := by
  simp only [List.Forall]; repeat' apply And.intro
  all_goals exact writes_sub rfl (by decide)
theorem hostOps0_5_writes : (hostOps0_5 : List (HloOp τ sig (Elt F))).Forall fun op => op.writes ⊆ (hostOps0_5_W.map (Proc.devRef (τ := τ) .tc)).toFinset := by
  simp only [List.Forall]; repeat' apply And.intro
  all_goals exact writes_sub rfl (by decide)
theorem hostOps0_6_writes : (hostOps0_6 : List (HloOp τ sig (Elt F))).Forall fun op => op.writes ⊆ (hostOps0_6_W.map (Proc.devRef (τ := τ) .tc)).toFinset := by
  simp only [List.Forall]; repeat' apply And.intro
  all_goals exact writes_sub rfl (by decide)
theorem hostOps0_7_writes : (hostOps0_7 : List (HloOp τ sig (Elt F))).Forall fun op => op.writes ⊆ (hostOps0_7_W.map (Proc.devRef (τ := τ) .tc)).toFinset := by
  simp only [List.Forall]; repeat' apply And.intro
  all_goals exact writes_sub rfl (by decide)
theorem hostOps0_8_writes : (hostOps0_8 : List (HloOp τ sig (Elt F))).Forall fun op => op.writes ⊆ (hostOps0_8_W.map (Proc.devRef (τ := τ) .tc)).toFinset := by
  simp only [List.Forall]; repeat' apply And.intro
  all_goals exact writes_sub rfl (by decide)
theorem hostOps1_writes : (hostOps1 : List (HloOp τ sig (Elt F))).Forall fun op => op.writes ⊆ (hostOps1_W.map (Proc.devRef (τ := τ) .tc)).toFinset := by
  simp only [List.Forall]; repeat' apply And.intro
  all_goals exact writes_sub rfl (by decide)
theorem hostOps1_1_writes : (hostOps1_1 : List (HloOp τ sig (Elt F))).Forall fun op => op.writes ⊆ (hostOps1_1_W.map (Proc.devRef (τ := τ) .tc)).toFinset := by
  simp only [List.Forall]; repeat' apply And.intro
  all_goals exact writes_sub rfl (by decide)
set_option maxHeartbeats 4000000 in
theorem hostOps1_2_writes : (hostOps1_2 : List (HloOp τ sig (Elt F))).Forall fun op => op.writes ⊆ (hostOps1_2_W.map (Proc.devRef (τ := τ) .tc)).toFinset := by
  simp only [List.Forall]; repeat' apply And.intro
  all_goals exact writes_sub rfl (by decide)
theorem hostOps1_3_writes : (hostOps1_3 : List (HloOp τ sig (Elt F))).Forall fun op => op.writes ⊆ (hostOps1_3_W.map (Proc.devRef (τ := τ) .tc)).toFinset := by
  simp only [List.Forall]; repeat' apply And.intro
  all_goals exact writes_sub rfl (by decide)
set_option maxHeartbeats 4000000 in
theorem hostOps1_4_writes : (hostOps1_4 : List (HloOp τ sig (Elt F))).Forall fun op => op.writes ⊆ (hostOps1_4_W.map (Proc.devRef (τ := τ) .tc)).toFinset := by
  simp only [List.Forall]; repeat' apply And.intro
  all_goals exact writes_sub rfl (by decide)
set_option maxHeartbeats 4000000 in
theorem hostOps2_writes : (hostOps2 : List (HloOp τ sig (Elt F))).Forall fun op => op.writes ⊆ (hostOps2_W.map (Proc.devRef (τ := τ) .tc)).toFinset := by
  simp only [List.Forall]; repeat' apply And.intro
  all_goals exact writes_sub rfl (by decide)
theorem hostOps2_1_writes : (hostOps2_1 : List (HloOp τ sig (Elt F))).Forall fun op => op.writes ⊆ (hostOps2_1_W.map (Proc.devRef (τ := τ) .tc)).toFinset := by
  simp only [List.Forall]; repeat' apply And.intro
  all_goals exact writes_sub rfl (by decide)
theorem hostOps2_2_writes : (hostOps2_2 : List (HloOp τ sig (Elt F))).Forall fun op => op.writes ⊆ (hostOps2_2_W.map (Proc.devRef (τ := τ) .tc)).toFinset := by
  simp only [List.Forall]; repeat' apply And.intro
  all_goals exact writes_sub rfl (by decide)
theorem hostOps2_3_writes : (hostOps2_3 : List (HloOp τ sig (Elt F))).Forall fun op => op.writes ⊆ (hostOps2_3_W.map (Proc.devRef (τ := τ) .tc)).toFinset := by
  simp only [List.Forall]; repeat' apply And.intro
  all_goals exact writes_sub rfl (by decide)
theorem hostOps2_4_writes : (hostOps2_4 : List (HloOp τ sig (Elt F))).Forall fun op => op.writes ⊆ (hostOps2_4_W.map (Proc.devRef (τ := τ) .tc)).toFinset := by
  simp only [List.Forall]; repeat' apply And.intro
  all_goals exact writes_sub rfl (by decide)
theorem hostOps2_5_writes : (hostOps2_5 : List (HloOp τ sig (Elt F))).Forall fun op => op.writes ⊆ (hostOps2_5_W.map (Proc.devRef (τ := τ) .tc)).toFinset := by
  simp only [List.Forall]; repeat' apply And.intro
  all_goals exact writes_sub rfl (by decide)
theorem hostOps2_6_writes : (hostOps2_6 : List (HloOp τ sig (Elt F))).Forall fun op => op.writes ⊆ (hostOps2_6_W.map (Proc.devRef (τ := τ) .tc)).toFinset := by
  simp only [List.Forall]; repeat' apply And.intro
  all_goals exact writes_sub rfl (by decide)
theorem hostOps2_7_writes : (hostOps2_7 : List (HloOp τ sig (Elt F))).Forall fun op => op.writes ⊆ (hostOps2_7_W.map (Proc.devRef (τ := τ) .tc)).toFinset := by
  simp only [List.Forall]; repeat' apply And.intro
  all_goals exact writes_sub rfl (by decide)
theorem hostOps2_8_writes : (hostOps2_8 : List (HloOp τ sig (Elt F))).Forall fun op => op.writes ⊆ (hostOps2_8_W.map (Proc.devRef (τ := τ) .tc)).toFinset := by
  simp only [List.Forall]; repeat' apply And.intro
  all_goals exact writes_sub rfl (by decide)
theorem hostOps2_9_writes : (hostOps2_9 : List (HloOp τ sig (Elt F))).Forall fun op => op.writes ⊆ (hostOps2_9_W.map (Proc.devRef (τ := τ) .tc)).toFinset := by
  simp only [List.Forall]; repeat' apply And.intro
  all_goals exact writes_sub rfl (by decide)
theorem hostOps2_10_writes : (hostOps2_10 : List (HloOp τ sig (Elt F))).Forall fun op => op.writes ⊆ (hostOps2_10_W.map (Proc.devRef (τ := τ) .tc)).toFinset := by
  simp only [List.Forall]; repeat' apply And.intro
  all_goals exact writes_sub rfl (by decide)
theorem hostOps2_11_writes : (hostOps2_11 : List (HloOp τ sig (Elt F))).Forall fun op => op.writes ⊆ (hostOps2_11_W.map (Proc.devRef (τ := τ) .tc)).toFinset := by
  simp only [List.Forall]; repeat' apply And.intro
  all_goals exact writes_sub rfl (by decide)
set_option maxHeartbeats 4000000 in
theorem hostOps2_12_writes : (hostOps2_12 : List (HloOp τ sig (Elt F))).Forall fun op => op.writes ⊆ (hostOps2_12_W.map (Proc.devRef (τ := τ) .tc)).toFinset := by
  simp only [List.Forall]; repeat' apply And.intro
  all_goals exact writes_sub rfl (by decide)

/-! ## What each item leaves unchanged

`W(J+1)_of`: a reference the stretch from boundary `J` does not write holds at boundary `J+1` what it held at `J`. -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W6_of (c : Dev nD) (r : Ref sig .tc) (h : r ∉ hostOps0_5_W) : W6 m ρ c (Proc.devRef .tc r) = W5 m ρ c (Proc.devRef .tc r) :=
  StableHlo.after_of_writes_sub hostOps0_5 _ hostOps0_5_writes h
theorem W7_of (c : Dev nD) (r : Ref sig .tc) (h : r ∉ hostOps0_6_W) : W7 m ρ c (Proc.devRef .tc r) = W6 m ρ c (Proc.devRef .tc r) :=
  StableHlo.after_of_writes_sub hostOps0_6 _ hostOps0_6_writes h
theorem W8_of (c : Dev nD) (r : Ref sig .tc) (h : r ∉ hostOps0_7_W) : W8 m ρ c (Proc.devRef .tc r) = W7 m ρ c (Proc.devRef .tc r) :=
  StableHlo.after_of_writes_sub hostOps0_7 _ hostOps0_7_writes h
theorem W9_of (c : Dev nD) (r : Ref sig .tc) (h : r ∉ hostOps0_8_W) : W9 m ρ c (Proc.devRef .tc r) = W8 m ρ c (Proc.devRef .tc r) :=
  StableHlo.after_of_writes_sub hostOps0_8 _ hostOps0_8_writes h
theorem W11_of (c : Dev nD) (r : Ref sig .tc) (h : r ∉ hostOps1_W) : W11 m ρ c (Proc.devRef .tc r) = W10 m ρ c (Proc.devRef .tc r) :=
  StableHlo.after_of_writes_sub hostOps1 _ hostOps1_writes h
theorem W12_of (c : Dev nD) (r : Ref sig .tc) (h : r ∉ hostOps1_1_W) : W12 m ρ c (Proc.devRef .tc r) = W11 m ρ c (Proc.devRef .tc r) :=
  StableHlo.after_of_writes_sub hostOps1_1 _ hostOps1_1_writes h
theorem W13_of (c : Dev nD) (r : Ref sig .tc) (h : r ∉ hostOps1_2_W) : W13 m ρ c (Proc.devRef .tc r) = W12 m ρ c (Proc.devRef .tc r) :=
  StableHlo.after_of_writes_sub hostOps1_2 _ hostOps1_2_writes h
theorem W14_of (c : Dev nD) (r : Ref sig .tc) (h : r ∉ hostOps1_3_W) : W14 m ρ c (Proc.devRef .tc r) = W13 m ρ c (Proc.devRef .tc r) :=
  StableHlo.after_of_writes_sub hostOps1_3 _ hostOps1_3_writes h
theorem W15_of (c : Dev nD) (r : Ref sig .tc) (h : r ∉ hostOps1_4_W) : W15 m ρ c (Proc.devRef .tc r) = W14 m ρ c (Proc.devRef .tc r) :=
  StableHlo.after_of_writes_sub hostOps1_4 _ hostOps1_4_writes h
theorem W17_of (c : Dev nD) (r : Ref sig .tc) (h : r ∉ hostOps2_W) : W17 m ρ c (Proc.devRef .tc r) = W16 m ρ c (Proc.devRef .tc r) :=
  StableHlo.after_of_writes_sub hostOps2 _ hostOps2_writes h
theorem W18_of (c : Dev nD) (r : Ref sig .tc) (h : r ∉ hostOps2_1_W) : W18 m ρ c (Proc.devRef .tc r) = W17 m ρ c (Proc.devRef .tc r) :=
  StableHlo.after_of_writes_sub hostOps2_1 _ hostOps2_1_writes h
theorem W19_of (c : Dev nD) (r : Ref sig .tc) (h : r ∉ hostOps2_2_W) : W19 m ρ c (Proc.devRef .tc r) = W18 m ρ c (Proc.devRef .tc r) :=
  StableHlo.after_of_writes_sub hostOps2_2 _ hostOps2_2_writes h
theorem W20_of (c : Dev nD) (r : Ref sig .tc) (h : r ∉ hostOps2_3_W) : W20 m ρ c (Proc.devRef .tc r) = W19 m ρ c (Proc.devRef .tc r) :=
  StableHlo.after_of_writes_sub hostOps2_3 _ hostOps2_3_writes h
theorem W21_of (c : Dev nD) (r : Ref sig .tc) (h : r ∉ hostOps2_4_W) : W21 m ρ c (Proc.devRef .tc r) = W20 m ρ c (Proc.devRef .tc r) :=
  StableHlo.after_of_writes_sub hostOps2_4 _ hostOps2_4_writes h
theorem W22_of (c : Dev nD) (r : Ref sig .tc) (h : r ∉ hostOps2_5_W) : W22 m ρ c (Proc.devRef .tc r) = W21 m ρ c (Proc.devRef .tc r) :=
  StableHlo.after_of_writes_sub hostOps2_5 _ hostOps2_5_writes h
theorem W23_of (c : Dev nD) (r : Ref sig .tc) (h : r ∉ hostOps2_6_W) : W23 m ρ c (Proc.devRef .tc r) = W22 m ρ c (Proc.devRef .tc r) :=
  StableHlo.after_of_writes_sub hostOps2_6 _ hostOps2_6_writes h
theorem W24_of (c : Dev nD) (r : Ref sig .tc) (h : r ∉ hostOps2_7_W) : W24 m ρ c (Proc.devRef .tc r) = W23 m ρ c (Proc.devRef .tc r) :=
  StableHlo.after_of_writes_sub hostOps2_7 _ hostOps2_7_writes h
theorem W25_of (c : Dev nD) (r : Ref sig .tc) (h : r ∉ hostOps2_8_W) : W25 m ρ c (Proc.devRef .tc r) = W24 m ρ c (Proc.devRef .tc r) :=
  StableHlo.after_of_writes_sub hostOps2_8 _ hostOps2_8_writes h
theorem W26_of (c : Dev nD) (r : Ref sig .tc) (h : r ∉ hostOps2_9_W) : W26 m ρ c (Proc.devRef .tc r) = W25 m ρ c (Proc.devRef .tc r) :=
  StableHlo.after_of_writes_sub hostOps2_9 _ hostOps2_9_writes h
theorem W27_of (c : Dev nD) (r : Ref sig .tc) (h : r ∉ hostOps2_10_W) : W27 m ρ c (Proc.devRef .tc r) = W26 m ρ c (Proc.devRef .tc r) :=
  StableHlo.after_of_writes_sub hostOps2_10 _ hostOps2_10_writes h
theorem W28_of (c : Dev nD) (r : Ref sig .tc) (h : r ∉ hostOps2_11_W) : W28 m ρ c (Proc.devRef .tc r) = W27 m ρ c (Proc.devRef .tc r) :=
  StableHlo.after_of_writes_sub hostOps2_11 _ hostOps2_11_writes h
theorem W29_of (c : Dev nD) (r : Ref sig .tc) (h : r ∉ hostOps2_12_W) : W29 m ρ c (Proc.devRef .tc r) = W28 m ρ c (Proc.devRef .tc r) :=
  StableHlo.after_of_writes_sub hostOps2_12 _ hostOps2_12_writes h

/-! A region changes its windows' arrays only: `regionK_W` lists them in window order. -/

abbrev region0_W : List (Ref sig .tc) := [main_arg3, main_v94, main_v96, main_v97]
abbrev region1_W : List (Ref sig .tc) := [main_arg3, main_v215, main_v216]
abbrev region2_W : List (Ref sig .tc) := [main_arg3, main_v318, main_v30, main_v317, main_v319]
theorem region0_W_mem : ∀ w : Fin cfg0.W, Pipeline.arrRef spec0 w ∈ region0_W := by decide
theorem region1_W_mem : ∀ w : Fin cfg1.W, Pipeline.arrRef spec1 w ∈ region1_W := by decide
theorem region2_W_mem : ∀ w : Fin cfg2.W, Pipeline.arrRef spec2 w ∈ region2_W := by decide
theorem W10_of (c : Dev nD) (r : Ref sig .tc) (h : r ∉ region0_W) : W10 m ρ c (Proc.devRef .tc r) = W9 m ρ c (Proc.devRef .tc r) :=
  W10_of_ne m ρ c r fun w e => h (e ▸ region0_W_mem w)
theorem W16_of (c : Dev nD) (r : Ref sig .tc) (h : r ∉ region1_W) : W16 m ρ c (Proc.devRef .tc r) = W15 m ρ c (Proc.devRef .tc r) :=
  W16_of_ne m ρ c r fun w e => h (e ▸ region1_W_mem w)
theorem W30_of (c : Dev nD) (r : Ref sig .tc) (h : r ∉ region2_W) : W30 m ρ c (Proc.devRef .tc r) = W29 m ρ c (Proc.devRef .tc r) :=
  W30_of_ne m ρ c r fun w e => h (e ▸ region2_W_mem w)

/-! The stretches between two regions, taken together. -/

/-- What the nine stretches before region 0 write, stretch by stretch. -/
abbrev writesA : List (List (Ref sig .tc)) :=
  [hostOps0_W, hostOps0_1_W, hostOps0_2_W, hostOps0_3_W, hostOps0_4_W, hostOps0_5_W, hostOps0_6_W, hostOps0_7_W, hostOps0_8_W]
/-- What the five stretches between regions 0 and 1 write. -/
abbrev writesB : List (List (Ref sig .tc)) := [hostOps1_W, hostOps1_1_W, hostOps1_2_W, hostOps1_3_W, hostOps1_4_W]
/-- What the thirteen stretches between regions 1 and 2 write. -/
abbrev writesC : List (List (Ref sig .tc)) :=
  [hostOps2_W, hostOps2_1_W, hostOps2_2_W, hostOps2_3_W, hostOps2_4_W, hostOps2_5_W, hostOps2_6_W, hostOps2_7_W, hostOps2_8_W,
   hostOps2_9_W, hostOps2_10_W, hostOps2_11_W, hostOps2_12_W]

/-- A reference none of the first nine stretches writes holds at region 0's entry what it held at launch. -/
theorem W9_eq_W0 (c : Dev nD) (r : Ref sig .tc) (h : ∀ W ∈ (writesA : List (List (Ref sig .tc))), r ∉ W) :
    W9 m ρ c (Proc.devRef .tc r) = W0 m ρ c (Proc.devRef .tc r) :=
  (W9_of m ρ c r (h hostOps0_8_W (by decide))).trans <| (W8_of m ρ c r (h hostOps0_7_W (by decide))).trans <|
  (W7_of m ρ c r (h hostOps0_6_W (by decide))).trans <| (W6_of m ρ c r (h hostOps0_5_W (by decide))).trans <|
  (W5_of m ρ c r (h hostOps0_4_W (by decide))).trans <| (W4_of m ρ c r (h hostOps0_3_W (by decide))).trans <|
  (W3_of m ρ c r (h hostOps0_2_W (by decide))).trans <| (W2_of m ρ c r (h hostOps0_1_W (by decide))).trans <|
  W1_of m ρ c r (h hostOps0_W (by decide))
/-- A reference none of the five stretches after region 0 writes holds at region 1's entry what it held at region 0's
    exit. -/
theorem W15_eq_W10 (c : Dev nD) (r : Ref sig .tc) (h : ∀ W ∈ (writesB : List (List (Ref sig .tc))), r ∉ W) :
    W15 m ρ c (Proc.devRef .tc r) = W10 m ρ c (Proc.devRef .tc r) :=
  (W15_of m ρ c r (h hostOps1_4_W (by decide))).trans <| (W14_of m ρ c r (h hostOps1_3_W (by decide))).trans <|
  (W13_of m ρ c r (h hostOps1_2_W (by decide))).trans <| (W12_of m ρ c r (h hostOps1_1_W (by decide))).trans <|
  W11_of m ρ c r (h hostOps1_W (by decide))
/-- A reference none of the thirteen stretches after region 1 writes holds at region 2's entry what it held at region
    1's exit. -/
theorem W29_eq_W16 (c : Dev nD) (r : Ref sig .tc) (h : ∀ W ∈ (writesC : List (List (Ref sig .tc))), r ∉ W) :
    W29 m ρ c (Proc.devRef .tc r) = W16 m ρ c (Proc.devRef .tc r) :=
  (W29_of m ρ c r (h hostOps2_12_W (by decide))).trans <| (W28_of m ρ c r (h hostOps2_11_W (by decide))).trans <|
  (W27_of m ρ c r (h hostOps2_10_W (by decide))).trans <| (W26_of m ρ c r (h hostOps2_9_W (by decide))).trans <|
  (W25_of m ρ c r (h hostOps2_8_W (by decide))).trans <| (W24_of m ρ c r (h hostOps2_7_W (by decide))).trans <|
  (W23_of m ρ c r (h hostOps2_6_W (by decide))).trans <| (W22_of m ρ c r (h hostOps2_5_W (by decide))).trans <|
  (W21_of m ρ c r (h hostOps2_4_W (by decide))).trans <| (W20_of m ρ c r (h hostOps2_3_W (by decide))).trans <|
  (W19_of m ρ c r (h hostOps2_2_W (by decide))).trans <| (W18_of m ρ c r (h hostOps2_1_W (by decide))).trans <|
  W17_of m ρ c r (h hostOps2_W (by decide))

/-- A reference no stretch writes and no region has as a window's array holds at the return what it held at launch. -/
theorem Wfin_eq_launch (c : Dev nD) (r : Ref sig .tc)
    (hA : ∀ W ∈ (writesA : List (List (Ref sig .tc))), r ∉ W) (h0 : r ∉ region0_W)
    (hB : ∀ W ∈ (writesB : List (List (Ref sig .tc))), r ∉ W) (h1 : r ∉ region1_W)
    (hC : ∀ W ∈ (writesC : List (List (Ref sig .tc))), r ∉ W) (h2 : r ∉ region2_W) :
    Wfin m ρ c (Proc.devRef .tc r) = m ((c : Thread nD τ).loc r) :=
  (W30_of m ρ c r h2).trans <| (W29_eq_W16 m ρ c r hC).trans <| (W16_of m ρ c r h1).trans <|
  (W15_eq_W10 m ρ c r hB).trans <| (W10_of m ρ c r h0).trans <| (W9_eq_W0 m ρ c r hA).trans rfl

/-! ## The arguments end as launched

No stretch writes an argument, and no region has one as a window's array but the memory matrix (`main_arg3`), which each
region only reads: through a region it keeps its contents because an input window's array is never written back. -/

theorem Wfin_main_arg0 (c : Dev nD) : Wfin m ρ c (Proc.devRef .tc main_arg0) = m ((c : Thread nD τ).loc main_arg0) :=
  Wfin_eq_launch m ρ c main_arg0 (by decide) (by decide) (by decide) (by decide) (by decide) (by decide)
theorem Wfin_main_arg1 (c : Dev nD) : Wfin m ρ c (Proc.devRef .tc main_arg1) = m ((c : Thread nD τ).loc main_arg1) :=
  Wfin_eq_launch m ρ c main_arg1 (by decide) (by decide) (by decide) (by decide) (by decide) (by decide)
theorem Wfin_main_arg2 (c : Dev nD) : Wfin m ρ c (Proc.devRef .tc main_arg2) = m ((c : Thread nD τ).loc main_arg2) :=
  Wfin_eq_launch m ρ c main_arg2 (by decide) (by decide) (by decide) (by decide) (by decide) (by decide)
/-- The memory matrix: input window 0 of each of the three regions. -/
theorem Wfin_main_arg3 (c : Dev nD) : Wfin m ρ c (Proc.devRef .tc main_arg3) = m ((c : Thread nD τ).loc main_arg3) :=
  ((W30_arr m ρ c 0).trans (((dat2 (V29 m ρ) c).arrAt_in 0 rfl _).trans (A_eq2 (V29 m ρ) c 0))).trans <|
  (W29_eq_W16 m ρ c main_arg3 (by decide)).trans <|
  ((W16_arr m ρ c 0).trans (((dat1 (V15 m ρ) c).arrAt_in 0 rfl _).trans (A_eq1 (V15 m ρ) c 0))).trans <|
  (W15_eq_W10 m ρ c main_arg3 (by decide)).trans <|
  ((W10_arr m ρ c 0).trans (((dat0 (V9 m ρ) c).arrAt_in 0 rfl _).trans (A_eq0 (V9 m ρ) c 0))).trans <|
  (W9_eq_W0 m ρ c main_arg3 (by decide)).trans rfl
theorem Wfin_main_arg4 (c : Dev nD) : Wfin m ρ c (Proc.devRef .tc main_arg4) = m ((c : Thread nD τ).loc main_arg4) :=
  Wfin_eq_launch m ρ c main_arg4 (by decide) (by decide) (by decide) (by decide) (by decide) (by decide)
theorem Wfin_main_arg5 (c : Dev nD) : Wfin m ρ c (Proc.devRef .tc main_arg5) = m ((c : Thread nD τ).loc main_arg5) :=
  Wfin_eq_launch m ρ c main_arg5 (by decide) (by decide) (by decide) (by decide) (by decide) (by decide)
theorem Wfin_main_arg6 (c : Dev nD) : Wfin m ρ c (Proc.devRef .tc main_arg6) = m ((c : Thread nD τ).loc main_arg6) :=
  Wfin_eq_launch m ρ c main_arg6 (by decide) (by decide) (by decide) (by decide) (by decide) (by decide)
theorem Wfin_main_arg7 (c : Dev nD) : Wfin m ρ c (Proc.devRef .tc main_arg7) = m ((c : Thread nD τ).loc main_arg7) :=
  Wfin_eq_launch m ρ c main_arg7 (by decide) (by decide) (by decide) (by decide) (by decide) (by decide)
theorem Wfin_main_arg8 (c : Dev nD) : Wfin m ρ c (Proc.devRef .tc main_arg8) = m ((c : Thread nD τ).loc main_arg8) :=
  Wfin_eq_launch m ρ c main_arg8 (by decide) (by decide) (by decide) (by decide) (by decide) (by decide)
theorem Wfin_main_arg9 (c : Dev nD) : Wfin m ρ c (Proc.devRef .tc main_arg9) = m ((c : Thread nD τ).loc main_arg9) :=
  Wfin_eq_launch m ρ c main_arg9 (by decide) (by decide) (by decide) (by decide) (by decide) (by decide)
theorem Wfin_main_arg10 (c : Dev nD) : Wfin m ρ c (Proc.devRef .tc main_arg10) = m ((c : Thread nD τ).loc main_arg10) :=
  Wfin_eq_launch m ρ c main_arg10 (by decide) (by decide) (by decide) (by decide) (by decide) (by decide)
theorem Wfin_main_arg11 (c : Dev nD) : Wfin m ρ c (Proc.devRef .tc main_arg11) = m ((c : Thread nD τ).loc main_arg11) :=
  Wfin_eq_launch m ρ c main_arg11 (by decide) (by decide) (by decide) (by decide) (by decide) (by decide)
theorem Wfin_main_arg12 (c : Dev nD) : Wfin m ρ c (Proc.devRef .tc main_arg12) = m ((c : Thread nD τ).loc main_arg12) :=
  Wfin_eq_launch m ρ c main_arg12 (by decide) (by decide) (by decide) (by decide) (by decide) (by decide)
theorem Wfin_main_arg13 (c : Dev nD) : Wfin m ρ c (Proc.devRef .tc main_arg13) = m ((c : Thread nD τ).loc main_arg13) :=
  Wfin_eq_launch m ρ c main_arg13 (by decide) (by decide) (by decide) (by decide) (by decide) (by decide)
theorem Wfin_main_arg14 (c : Dev nD) : Wfin m ρ c (Proc.devRef .tc main_arg14) = m ((c : Thread nD τ).loc main_arg14) :=
  Wfin_eq_launch m ρ c main_arg14 (by decide) (by decide) (by decide) (by decide) (by decide) (by decide)
theorem Wfin_main_arg15 (c : Dev nD) : Wfin m ρ c (Proc.devRef .tc main_arg15) = m ((c : Thread nD τ).loc main_arg15) :=
  Wfin_eq_launch m ρ c main_arg15 (by decide) (by decide) (by decide) (by decide) (by decide) (by decide)
theorem Wfin_main_arg16 (c : Dev nD) : Wfin m ρ c (Proc.devRef .tc main_arg16) = m ((c : Thread nD τ).loc main_arg16) :=
  Wfin_eq_launch m ρ c main_arg16 (by decide) (by decide) (by decide) (by decide) (by decide) (by decide)
theorem Wfin_main_arg17 (c : Dev nD) : Wfin m ρ c (Proc.devRef .tc main_arg17) = m ((c : Thread nD τ).loc main_arg17) :=
  Wfin_eq_launch m ρ c main_arg17 (by decide) (by decide) (by decide) (by decide) (by decide) (by decide)
theorem Wfin_main_arg18 (c : Dev nD) : Wfin m ρ c (Proc.devRef .tc main_arg18) = m ((c : Thread nD τ).loc main_arg18) :=
  Wfin_eq_launch m ρ c main_arg18 (by decide) (by decide) (by decide) (by decide) (by decide) (by decide)
theorem Wfin_main_arg19 (c : Dev nD) : Wfin m ρ c (Proc.devRef .tc main_arg19) = m ((c : Thread nD τ).loc main_arg19) :=
  Wfin_eq_launch m ρ c main_arg19 (by decide) (by decide) (by decide) (by decide) (by decide) (by decide)
theorem Wfin_main_arg20 (c : Dev nD) : Wfin m ρ c (Proc.devRef .tc main_arg20) = m ((c : Thread nD τ).loc main_arg20) :=
  Wfin_eq_launch m ρ c main_arg20 (by decide) (by decide) (by decide) (by decide) (by decide) (by decide)
theorem Wfin_main_arg21 (c : Dev nD) : Wfin m ρ c (Proc.devRef .tc main_arg21) = m ((c : Thread nD τ).loc main_arg21) :=
  Wfin_eq_launch m ρ c main_arg21 (by decide) (by decide) (by decide) (by decide) (by decide) (by decide)
theorem Wfin_main_arg22 (c : Dev nD) : Wfin m ρ c (Proc.devRef .tc main_arg22) = m ((c : Thread nD τ).loc main_arg22) :=
  Wfin_eq_launch m ρ c main_arg22 (by decide) (by decide) (by decide) (by decide) (by decide) (by decide)
theorem Wfin_main_arg23 (c : Dev nD) : Wfin m ρ c (Proc.devRef .tc main_arg23) = m ((c : Thread nD τ).loc main_arg23) :=
  Wfin_eq_launch m ρ c main_arg23 (by decide) (by decide) (by decide) (by decide) (by decide) (by decide)
theorem Wfin_main_arg24 (c : Dev nD) : Wfin m ρ c (Proc.devRef .tc main_arg24) = m ((c : Thread nD τ).loc main_arg24) :=
  Wfin_eq_launch m ρ c main_arg24 (by decide) (by decide) (by decide) (by decide) (by decide) (by decide)
theorem Wfin_main_arg25 (c : Dev nD) : Wfin m ρ c (Proc.devRef .tc main_arg25) = m ((c : Thread nD τ).loc main_arg25) :=
  Wfin_eq_launch m ρ c main_arg25 (by decide) (by decide) (by decide) (by decide) (by decide) (by decide)
theorem Wfin_main_arg26 (c : Dev nD) : Wfin m ρ c (Proc.devRef .tc main_arg26) = m ((c : Thread nD τ).loc main_arg26) :=
  Wfin_eq_launch m ρ c main_arg26 (by decide) (by decide) (by decide) (by decide) (by decide) (by decide)
theorem Wfin_main_arg27 (c : Dev nD) : Wfin m ρ c (Proc.devRef .tc main_arg27) = m ((c : Thread nD τ).loc main_arg27) :=
  Wfin_eq_launch m ρ c main_arg27 (by decide) (by decide) (by decide) (by decide) (by decide) (by decide)
theorem Wfin_main_arg28 (c : Dev nD) : Wfin m ρ c (Proc.devRef .tc main_arg28) = m ((c : Thread nD τ).loc main_arg28) :=
  Wfin_eq_launch m ρ c main_arg28 (by decide) (by decide) (by decide) (by decide) (by decide) (by decide)
theorem Wfin_main_arg29 (c : Dev nD) : Wfin m ρ c (Proc.devRef .tc main_arg29) = m ((c : Thread nD τ).loc main_arg29) :=
  Wfin_eq_launch m ρ c main_arg29 (by decide) (by decide) (by decide) (by decide) (by decide) (by decide)
theorem Wfin_main_arg30 (c : Dev nD) : Wfin m ρ c (Proc.devRef .tc main_arg30) = m ((c : Thread nD τ).loc main_arg30) :=
  Wfin_eq_launch m ρ c main_arg30 (by decide) (by decide) (by decide) (by decide) (by decide) (by decide)

end Cert.KernelIdeal.Hand

end
-- ==== Proof.Ref.Run.lean ====
/-
  The reference program's run, stated once for every float model.

  @main of the reference is a straight line of 437 tensor operations. They are listed, in order, as ten chunks
  (Ops.lean). Here: the whole line is the chunks one after the other; @main equals the sequential program of that
  line; hence every weakly fair execution ends, and each buffer of each device then holds the fold of the operations'
  results over what the device held at launch. The fold is named chunk by chunk: `R0` is the contents after the
  first chunk, `R1a` after the second, and so on to `R6b`, which is the contents at the end. Each chunk writes only
  its own result buffers, so a buffer outside a chunk's write-list holds after the chunk what it held before it; in
  particular no chunk writes an argument, and every argument ends as it was launched.
-/
import proofs.«104005_j27152783245914_2_alg».proof.Proof.Ref.Ops
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The whole line -/

/-- @main's 437 operations, in order: the ten chunks one after the other. -/
abbrev ops : List (HloOp τ sig (Elt F)) :=
  ch0 ++ ch1a ++ ch1b ++ ch2 ++ ch3a ++ ch3b ++ ch4a ++ ch4b ++ ch6a ++ ch6b

/-- A property of every element of two lists holds of every element of their concatenation. -/
private theorem forall_app {α : Type} {p : α → Prop} {xs ys : List α} (hx : xs.Forall p) (hy : ys.Forall p) :
    (xs ++ ys).Forall p := List.forall_append.mpr ⟨hx, hy⟩

private theorem mem_app {α : Type} {p : α → Prop} {xs ys : List α} (hx : ∀ a ∈ xs, p a) (hy : ∀ a ∈ ys, p a) :
    ∀ a ∈ xs ++ ys, p a := fun a h => (List.mem_append.mp h).elim (hx a) (hy a)

/-- Every operation of the line touches TensorCore references only. -/
theorem ops_sub : (ops : List (HloOp τ sig (Elt F))).Forall fun op => op.bufs ⊆ tcRefs τ sig :=
  forall_app (forall_app (forall_app (forall_app (forall_app (forall_app (forall_app (forall_app (forall_app (ch0_sub) ch1a_sub) ch1b_sub) ch2_sub) ch3a_sub) ch3b_sub) ch4a_sub) ch4b_sub) ch6a_sub) ch6b_sub

/-- No operation of the line allocates: each determines its results. -/
theorem ops_fresh : ∀ op ∈ (ops : List (HloOp τ sig (Elt F))), op.fresh = ∅ :=
  mem_app (mem_app (mem_app (mem_app (mem_app (mem_app (mem_app (mem_app (mem_app (ch0_fresh) ch1a_fresh) ch1b_fresh) ch2_fresh) ch3a_fresh) ch3b_fresh) ch4a_fresh) ch4b_fresh) ch6a_fresh) ch6b_fresh

set_option maxRecDepth 8192 in
set_option maxHeartbeats 4000000 in
/-- @main is the sequential program of its operations: both sides unfold to the same nest of steps. -/
theorem main_eq (c : Dev nD) : main (F := F) c = seq ops := by chain_rfl

/-- Every weakly fair execution of the reference ends, and every buffer of every device then holds the fold of the
    operations' results over the device's contents at launch. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (hfresh := fun _ => ops_fresh)

/-! ## The contents chunk by chunk -/

section Staged

variable (m : (ℓ : Loc nD τ sig) → Buf (Elt F) ℓ) (d : Dev nD)

/-- The device's contents after the first chunk: the controller and the read head's parameters (through main_v63). -/
def R0 : Valuation τ sig (Elt F) := after ch0 (launchContents m d)
/-- The device's contents after chunk `ch1a`: the read addressing up to the gated weights (main_v64 … main_v98). -/
def R1a : Valuation τ sig (Elt F) := after ch1a (R0 m d)
/-- The device's contents after chunk `ch1b`: the read head's shift, sharpening and normalisation (main_v99 … main_v126). -/
def R1b : Valuation τ sig (Elt F) := after ch1b (R1a m d)
/-- The device's contents after chunk `ch2`: the write head's parameters (main_v127 … main_v155). -/
def R2 : Valuation τ sig (Elt F) := after ch2 (R1b m d)
/-- The device's contents after chunk `ch3a`: the write addressing up to the gated weights (main_v156 … main_v190). -/
def R3a : Valuation τ sig (Elt F) := after ch3a (R2 m d)
/-- The device's contents after chunk `ch3b`: the write head's shift, sharpening and normalisation (main_v191 … main_v218). -/
def R3b : Valuation τ sig (Elt F) := after ch3b (R3a m d)
/-- The device's contents after chunk `ch4a`: the read vector (main_v219). -/
def R4a : Valuation τ sig (Elt F) := after ch4a (R3b m d)
/-- The device's contents after chunk `ch4b`: the joined input, the gates and the two multilayer maps (main_v220 … main_v307). -/
def R4b : Valuation τ sig (Elt F) := after ch4b (R4a m d)
/-- The device's contents after chunk `ch6a`: the written value and the add vector (main_v308 … main_v317). -/
def R6a : Valuation τ sig (Elt F) := after ch6a (R4b m d)
/-- The device's contents after chunk `ch6b`: the new memory (main_v318 … main_v325). -/
def R6b : Valuation τ sig (Elt F) := after ch6b (R6a m d)

/-- The fold over the whole line is the last of the staged contents. -/
theorem after_ops_eq : after ops (launchContents m d) = R6b m d := by
  show after (ch0 ++ ch1a ++ ch1b ++ ch2 ++ ch3a ++ ch3b ++ ch4a ++ ch4b ++ ch6a ++ ch6b) _ = _
  rw [after_append, after_append, after_append, after_append, after_append, after_append, after_append, after_append, after_append]
  rfl

end Staged

/-! ## What each chunk writes -/

/-- An operation whose only written buffer is the reference `y` writes inside any list holding `y`. -/
private theorem w_sub {W : List (Ref sig .tc)} {op : HloOp τ sig (Elt F)} {y : Ref sig .tc}
    (hw : op.writes = {Proc.devRef .tc y}) (hy : y ∈ W) :
    op.writes ⊆ (W.map (Proc.devRef (τ := τ) .tc)).toFinset := by
  rw [hw, Finset.singleton_subset_iff, List.mem_toFinset]; exact List.mem_map_of_mem hy

/-- The references chunk `ch0`'s operations write: one result buffer each, in order. -/
abbrev ch0_W : List (Ref sig .tc) :=
  [main_v0, main_v1, main_v2, main_v3, main_v4, main_v5, main_v6, main_v7, main_v8, main_v9, main_v10, main_v11,
   main_v12, main_v13, main_v14, main_v15, main_v16, main_v17, main_v18, main_v19, main_v20, main_v21, main_v22,
   main_v23, main_v24, main_v25, main_v26, main_cst, main_v27, main_v28, main_cst_0, main_v29, main_v30, main_v31,
   main_v32, main_v33, main_v34, main_v35, main_v36, main_v37, main_v38, main_v39, main_v40, main_v41, main_v42,
   main_cst_1, main_v43, main_cst_2, main_v44, main_v45, main_v46, main_cst_3, main_v47, main_cst_4, main_v48,
   main_v49, main_v50, main_v51, main_v52, main_cst_5, main_v53, main_v54, main_v55, main_v56, main_v57, main_v58,
   main_call0_cst, main_call0_v0, main_call0_v1, main_call0_v2, main_call0_v3, main_call0_v4, main_call0_v5,
   main_call0_v6, main_call0_v7, main_call0_v8, main_v59, main_cst_6, main_v60, main_v61, main_v62, main_call1_cst,
   main_call1_v0, main_call1_v1, main_call1_v2, main_call1_v3, main_call1_v4, main_call1_v5, main_call1_v6,
   main_call1_v7, main_call1_v8, main_v63]
set_option maxRecDepth 8192 in
theorem ch0_writes : (ch0 : List (HloOp τ sig (Elt F))).Forall fun op => op.writes ⊆ (ch0_W.map (Proc.devRef (τ := τ) .tc)).toFinset :=
  ⟨w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide)⟩

/-- The references chunk `ch1a`'s operations write: one result buffer each, in order. -/
abbrev ch1a_W : List (Ref sig .tc) :=
  [main_cst_7, main_v64, main_v65, main_cst_8, main_v66, main_v67, main_v68, main_v69, main_v70, main_call2_v0,
   main_call2_cst, main_call2_v1, main_v71, main_cst_9, main_v72, main_v73, main_call3_v0, main_call3_cst,
   main_call3_v1, main_v74, main_cst_10, main_v75, main_v76, main_v77, main_v78, main_v79, main_v80, main_v81,
   main_cst_11, main_v82, main_cst_12, main_v83, main_v84, main_v85, main_v86, main_v87, main_cst_13, main_v88,
   main_v89, main_v90, main_v91, main_v92, main_v93, main_cst_14, main_v94, main_v95, main_v96, main_v97, main_v98]
set_option maxRecDepth 8192 in
theorem ch1a_writes : (ch1a : List (HloOp τ sig (Elt F))).Forall fun op => op.writes ⊆ (ch1a_W.map (Proc.devRef (τ := τ) .tc)).toFinset :=
  ⟨w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide)⟩

/-- The references chunk `ch1b`'s operations write: one result buffer each, in order. -/
abbrev ch1b_W : List (Ref sig .tc) :=
  [main_v99, main_v100, main_v101, main_v102, main_v103, main_v104, main_v105, main_v106, main_v107, main_v108,
   main_v109, main_v110, main_v111, main_v112, main_v113, main_v114, main_v115, main_v116, main_v117, main_v118,
   main_v119, main_v120, main_cst_15, main_v121, main_v122, main_cst_16, main_v123, main_v124, main_v125, main_v126]
set_option maxRecDepth 8192 in
theorem ch1b_writes : (ch1b : List (HloOp τ sig (Elt F))).Forall fun op => op.writes ⊆ (ch1b_W.map (Proc.devRef (τ := τ) .tc)).toFinset :=
  ⟨w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide)⟩

/-- The references chunk `ch2`'s operations write: one result buffer each, in order. -/
abbrev ch2_W : List (Ref sig .tc) :=
  [main_v127, main_v128, main_v129, main_v130, main_v131, main_v132, main_v133, main_v134, main_cst_17, main_v135,
   main_cst_18, main_v136, main_v137, main_v138, main_cst_19, main_v139, main_cst_20, main_v140, main_v141,
   main_v142, main_v143, main_v144, main_cst_21, main_v145, main_v146, main_v147, main_v148, main_v149, main_v150,
   main_call4_cst, main_call4_v0, main_call4_v1, main_call4_v2, main_call4_v3, main_call4_v4, main_call4_v5,
   main_call4_v6, main_call4_v7, main_call4_v8, main_v151, main_cst_22, main_v152, main_v153, main_v154,
   main_call5_cst, main_call5_v0, main_call5_v1, main_call5_v2, main_call5_v3, main_call5_v4, main_call5_v5,
   main_call5_v6, main_call5_v7, main_call5_v8, main_v155]
set_option maxRecDepth 8192 in
theorem ch2_writes : (ch2 : List (HloOp τ sig (Elt F))).Forall fun op => op.writes ⊆ (ch2_W.map (Proc.devRef (τ := τ) .tc)).toFinset :=
  ⟨w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide)⟩

/-- The references chunk `ch3a`'s operations write: one result buffer each, in order. -/
abbrev ch3a_W : List (Ref sig .tc) :=
  [main_cst_23, main_v156, main_v157, main_cst_24, main_v158, main_v159, main_v160, main_v161, main_v162,
   main_call6_v0, main_call6_cst, main_call6_v1, main_v163, main_cst_25, main_v164, main_v165, main_call7_v0,
   main_call7_cst, main_call7_v1, main_v166, main_cst_26, main_v167, main_v168, main_v169, main_v170, main_v171,
   main_v172, main_v173, main_cst_27, main_v174, main_cst_28, main_v175, main_v176, main_v177, main_v178, main_v179,
   main_cst_29, main_v180, main_v181, main_v182, main_v183, main_v184, main_v185, main_cst_30, main_v186, main_v187,
   main_v188, main_v189, main_v190]
set_option maxRecDepth 8192 in
theorem ch3a_writes : (ch3a : List (HloOp τ sig (Elt F))).Forall fun op => op.writes ⊆ (ch3a_W.map (Proc.devRef (τ := τ) .tc)).toFinset :=
  ⟨w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide)⟩

/-- The references chunk `ch3b`'s operations write: one result buffer each, in order. -/
abbrev ch3b_W : List (Ref sig .tc) :=
  [main_v191, main_v192, main_v193, main_v194, main_v195, main_v196, main_v197, main_v198, main_v199, main_v200,
   main_v201, main_v202, main_v203, main_v204, main_v205, main_v206, main_v207, main_v208, main_v209, main_v210,
   main_v211, main_v212, main_cst_31, main_v213, main_v214, main_cst_32, main_v215, main_v216, main_v217, main_v218]
set_option maxRecDepth 8192 in
theorem ch3b_writes : (ch3b : List (HloOp τ sig (Elt F))).Forall fun op => op.writes ⊆ (ch3b_W.map (Proc.devRef (τ := τ) .tc)).toFinset :=
  ⟨w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide)⟩

/-- The references chunk `ch4a`'s operations write: one result buffer each, in order. -/
abbrev ch4a_W : List (Ref sig .tc) :=
  [main_v219]
set_option maxRecDepth 8192 in
theorem ch4a_writes : (ch4a : List (HloOp τ sig (Elt F))).Forall fun op => op.writes ⊆ (ch4a_W.map (Proc.devRef (τ := τ) .tc)).toFinset :=
  w_sub rfl (by decide)

/-- The references chunk `ch4b`'s operations write: one result buffer each, in order. -/
abbrev ch4b_W : List (Ref sig .tc) :=
  [main_v220, main_v221, main_v222, main_v223, main_v224, main_cst_33, main_v225, main_cst_34, main_v226, main_v227,
   main_cst_35, main_v228, main_cst_36, main_v229, main_v230, main_v231, main_v232, main_v233, main_v234,
   main_cst_37, main_v235, main_v236, main_v237, main_v238, main_v239, main_v240, main_v241, main_v242,
   main_call8_cst, main_call8_v0, main_v243, main_v244, main_v245, main_v246, main_v247, main_call9_cst,
   main_call9_v0, main_v248, main_v249, main_v250, main_v251, main_v252, main_call10_cst, main_call10_v0, main_v253,
   main_v254, main_v255, main_v256, main_v257, main_cst_38, main_v258, main_cst_39, main_v259, main_v260, main_v261,
   main_v262, main_v263, main_v264, main_cst_40, main_v265, main_v266, main_v267, main_v268, main_v269, main_v270,
   main_v271, main_v272, main_call11_cst, main_call11_v0, main_v273, main_v274, main_v275, main_v276, main_v277,
   main_call12_cst, main_call12_v0, main_v278, main_v279, main_v280, main_v281, main_v282, main_call13_cst,
   main_call13_v0, main_v283, main_v284, main_v285, main_v286, main_v287, main_cst_41, main_v288, main_cst_42,
   main_v289, main_v290, main_v291, main_v292, main_v293, main_v294, main_cst_43, main_v295, main_v296, main_v297,
   main_v298, main_v299, main_v300, main_v301, main_v302, main_v303, main_v304, main_v305, main_v306, main_v307]
set_option maxRecDepth 8192 in
theorem ch4b_writes : (ch4b : List (HloOp τ sig (Elt F))).Forall fun op => op.writes ⊆ (ch4b_W.map (Proc.devRef (τ := τ) .tc)).toFinset :=
  ⟨w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide)⟩

/-- The references chunk `ch6a`'s operations write: one result buffer each, in order. -/
abbrev ch6a_W : List (Ref sig .tc) :=
  [main_v308, main_v309, main_v310, main_v311, main_v312, main_v313, main_cst_44, main_v314, main_v315, main_v316,
   main_v317]
set_option maxRecDepth 8192 in
theorem ch6a_writes : (ch6a : List (HloOp τ sig (Elt F))).Forall fun op => op.writes ⊆ (ch6a_W.map (Proc.devRef (τ := τ) .tc)).toFinset :=
  ⟨w_sub rfl (by decide), w_sub rfl (by decide), w_sub rfl (by decide), w_sub rfl (by decide), w_sub rfl (by decide), w_sub rfl (by decide), w_sub rfl (by decide), w_sub rfl (by decide), w_sub rfl (by decide), w_sub rfl (by decide), w_sub rfl (by decide)⟩

/-- The references chunk `ch6b`'s operations write: one result buffer each, in order. -/
abbrev ch6b_W : List (Ref sig .tc) :=
  [main_v318, main_v319, main_cst_45, main_v320, main_v321, main_v322, main_v323, main_v324, main_v325]
set_option maxRecDepth 8192 in
theorem ch6b_writes : (ch6b : List (HloOp τ sig (Elt F))).Forall fun op => op.writes ⊆ (ch6b_W.map (Proc.devRef (τ := τ) .tc)).toFinset :=
  ⟨w_sub rfl (by decide), w_sub rfl (by decide), w_sub rfl (by decide), w_sub rfl (by decide), w_sub rfl (by decide), w_sub rfl (by decide), w_sub rfl (by decide), w_sub rfl (by decide), w_sub rfl (by decide)⟩

/-! ## What each chunk leaves unchanged -/

section Kept

variable (m : (ℓ : Loc nD τ sig) → Buf (Elt F) ℓ) (d : Dev nD)

theorem R0_of (r : Ref sig .tc) (h : r ∉ ch0_W) : R0 m d (Proc.devRef .tc r) = launchContents m d (Proc.devRef .tc r) :=
  after_of_writes_sub ch0 _ ch0_writes h
theorem R1a_of (r : Ref sig .tc) (h : r ∉ ch1a_W) : R1a m d (Proc.devRef .tc r) = R0 m d (Proc.devRef .tc r) :=
  after_of_writes_sub ch1a _ ch1a_writes h
theorem R1b_of (r : Ref sig .tc) (h : r ∉ ch1b_W) : R1b m d (Proc.devRef .tc r) = R1a m d (Proc.devRef .tc r) :=
  after_of_writes_sub ch1b _ ch1b_writes h
theorem R2_of (r : Ref sig .tc) (h : r ∉ ch2_W) : R2 m d (Proc.devRef .tc r) = R1b m d (Proc.devRef .tc r) :=
  after_of_writes_sub ch2 _ ch2_writes h
theorem R3a_of (r : Ref sig .tc) (h : r ∉ ch3a_W) : R3a m d (Proc.devRef .tc r) = R2 m d (Proc.devRef .tc r) :=
  after_of_writes_sub ch3a _ ch3a_writes h
theorem R3b_of (r : Ref sig .tc) (h : r ∉ ch3b_W) : R3b m d (Proc.devRef .tc r) = R3a m d (Proc.devRef .tc r) :=
  after_of_writes_sub ch3b _ ch3b_writes h
theorem R4a_of (r : Ref sig .tc) (h : r ∉ ch4a_W) : R4a m d (Proc.devRef .tc r) = R3b m d (Proc.devRef .tc r) :=
  after_of_writes_sub ch4a _ ch4a_writes h
theorem R4b_of (r : Ref sig .tc) (h : r ∉ ch4b_W) : R4b m d (Proc.devRef .tc r) = R4a m d (Proc.devRef .tc r) :=
  after_of_writes_sub ch4b _ ch4b_writes h
theorem R6a_of (r : Ref sig .tc) (h : r ∉ ch6a_W) : R6a m d (Proc.devRef .tc r) = R4b m d (Proc.devRef .tc r) :=
  after_of_writes_sub ch6a _ ch6a_writes h
theorem R6b_of (r : Ref sig .tc) (h : r ∉ ch6b_W) : R6b m d (Proc.devRef .tc r) = R6a m d (Proc.devRef .tc r) :=
  after_of_writes_sub ch6b _ ch6b_writes h

/-- A reference no chunk writes ends as launched. -/
theorem kept (r : Ref sig .tc) (h0 : r ∉ ch0_W) (h1 : r ∉ ch1a_W) (h2 : r ∉ ch1b_W) (h3 : r ∉ ch2_W) (h4 : r ∉ ch3a_W) (h5 : r ∉ ch3b_W) (h6 : r ∉ ch4a_W) (h7 : r ∉ ch4b_W) (h8 : r ∉ ch6a_W) (h9 : r ∉ ch6b_W) :
    after ops (launchContents m d) (Proc.devRef .tc r) = m ((d.tc : Thread nD τ).loc r) :=
  (congrFun (after_ops_eq m d) _).trans <|
    (R6b_of m d r h9).trans <|
    (R6a_of m d r h8).trans <|
    (R4b_of m d r h7).trans <|
    (R4a_of m d r h6).trans <|
    (R3b_of m d r h5).trans <|
    (R3a_of m d r h4).trans <|
    (R2_of m d r h3).trans <|
    (R1b_of m d r h2).trans <|
    (R1a_of m d r h1).trans <|
    (R0_of m d r h0).trans rfl

end Kept

/-! ## The frame: the arguments end unchanged -/

/-- Every weakly fair execution of the reference ends with each of its thirty-one argument arrays as launched: no
    operation of the line writes an argument's buffer. -/
theorem frame_args (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  (θ_run defs _ _).mono (fun _ h c =>
    ⟨(h c main_arg0).trans (kept m c main_arg0 (by decide) (by decide) (by decide) (by decide) (by decide) (by decide) (by decide) (by decide) (by decide) (by decide)),
     (h c main_arg1).trans (kept m c main_arg1 (by decide) (by decide) (by decide) (by decide) (by decide) (by decide) (by decide) (by decide) (by decide) (by decide)),
     (h c main_arg2).trans (kept m c main_arg2 (by decide) (by decide) (by decide) (by decide) (by decide) (by decide) (by decide) (by decide) (by decide) (by decide)),
     (h c main_arg3).trans (kept m c main_arg3 (by decide) (by decide) (by decide) (by decide) (by decide) (by decide) (by decide) (by decide) (by decide) (by decide)),
     (h c main_arg4).trans (kept m c main_arg4 (by decide) (by decide) (by decide) (by decide) (by decide) (by decide) (by decide) (by decide) (by decide) (by decide)),
     (h c main_arg5).trans (kept m c main_arg5 (by decide) (by decide) (by decide) (by decide) (by decide) (by decide) (by decide) (by decide) (by decide) (by decide)),
     (h c main_arg6).trans (kept m c main_arg6 (by decide) (by decide) (by decide) (by decide) (by decide) (by decide) (by decide) (by decide) (by decide) (by decide)),
     (h c main_arg7).trans (kept m c main_arg7 (by decide) (by decide) (by decide) (by decide) (by decide) (by decide) (by decide) (by decide) (by decide) (by decide)),
     (h c main_arg8).trans (kept m c main_arg8 (by decide) (by decide) (by decide) (by decide) (by decide) (by decide) (by decide) (by decide) (by decide) (by decide)),
     (h c main_arg9).trans (kept m c main_arg9 (by decide) (by decide) (by decide) (by decide) (by decide) (by decide) (by decide) (by decide) (by decide) (by decide)),
     (h c main_arg10).trans (kept m c main_arg10 (by decide) (by decide) (by decide) (by decide) (by decide) (by decide) (by decide) (by decide) (by decide) (by decide)),
     (h c main_arg11).trans (kept m c main_arg11 (by decide) (by decide) (by decide) (by decide) (by decide) (by decide) (by decide) (by decide) (by decide) (by decide)),
     (h c main_arg12).trans (kept m c main_arg12 (by decide) (by decide) (by decide) (by decide) (by decide) (by decide) (by decide) (by decide) (by decide) (by decide)),
     (h c main_arg13).trans (kept m c main_arg13 (by decide) (by decide) (by decide) (by decide) (by decide) (by decide) (by decide) (by decide) (by decide) (by decide)),
     (h c main_arg14).trans (kept m c main_arg14 (by decide) (by decide) (by decide) (by decide) (by decide) (by decide) (by decide) (by decide) (by decide) (by decide)),
     (h c main_arg15).trans (kept m c main_arg15 (by decide) (by decide) (by decide) (by decide) (by decide) (by decide) (by decide) (by decide) (by decide) (by decide)),
     (h c main_arg16).trans (kept m c main_arg16 (by decide) (by decide) (by decide) (by decide) (by decide) (by decide) (by decide) (by decide) (by decide) (by decide)),
     (h c main_arg17).trans (kept m c main_arg17 (by decide) (by decide) (by decide) (by decide) (by decide) (by decide) (by decide) (by decide) (by decide) (by decide)),
     (h c main_arg18).trans (kept m c main_arg18 (by decide) (by decide) (by decide) (by decide) (by decide) (by decide) (by decide) (by decide) (by decide) (by decide)),
     (h c main_arg19).trans (kept m c main_arg19 (by decide) (by decide) (by decide) (by decide) (by decide) (by decide) (by decide) (by decide) (by decide) (by decide)),
     (h c main_arg20).trans (kept m c main_arg20 (by decide) (by decide) (by decide) (by decide) (by decide) (by decide) (by decide) (by decide) (by decide) (by decide)),
     (h c main_arg21).trans (kept m c main_arg21 (by decide) (by decide) (by decide) (by decide) (by decide) (by decide) (by decide) (by decide) (by decide) (by decide)),
     (h c main_arg22).trans (kept m c main_arg22 (by decide) (by decide) (by decide) (by decide) (by decide) (by decide) (by decide) (by decide) (by decide) (by decide)),
     (h c main_arg23).trans (kept m c main_arg23 (by decide) (by decide) (by decide) (by decide) (by decide) (by decide) (by decide) (by decide) (by decide) (by decide)),
     (h c main_arg24).trans (kept m c main_arg24 (by decide) (by decide) (by decide) (by decide) (by decide) (by decide) (by decide) (by decide) (by decide) (by decide)),
     (h c main_arg25).trans (kept m c main_arg25 (by decide) (by decide) (by decide) (by decide) (by decide) (by decide) (by decide) (by decide) (by decide) (by decide)),
     (h c main_arg26).trans (kept m c main_arg26 (by decide) (by decide) (by decide) (by decide) (by decide) (by decide) (by decide) (by decide) (by decide) (by decide)),
     (h c main_arg27).trans (kept m c main_arg27 (by decide) (by decide) (by decide) (by decide) (by decide) (by decide) (by decide) (by decide) (by decide) (by decide)),
     (h c main_arg28).trans (kept m c main_arg28 (by decide) (by decide) (by decide) (by decide) (by decide) (by decide) (by decide) (by decide) (by decide) (by decide)),
     (h c main_arg29).trans (kept m c main_arg29 (by decide) (by decide) (by decide) (by decide) (by decide) (by decide) (by decide) (by decide) (by decide) (by decide)),
     (h c main_arg30).trans (kept m c main_arg30 (by decide) (by decide) (by decide) (by decide) (by decide) (by decide) (by decide) (by decide) (by decide) (by decide))⟩)
    (run_all m ρ)

end Cert.ReferenceIdeal.Hand

end
-- ==== Proof.Bridge.WalkRef.lean ====
/-
  Walking back through the reference's staged contents.

  The reference's line of operations is cut into ten chunks, and `R0, R1a, …, R6b` are the device's contents after
  each. A chunk writes only its own result buffers, so a buffer outside the write-lists of the chunks between two
  stages holds at the later stage what it held at the earlier one. These lemmas state that for every pair of stages
  (`launch` standing for the contents at launch), with the not-written facts as arguments that are decided by
  computation where the lemma is used: a use names the reference only. An argument of @main is written by no
  chunk, so at every stage it holds what was launched.
-/
import proofs.«104005_j27152783245914_2_alg».proof.Proof.Ref.Run

noncomputable section

namespace Cert.Bridge

open Cert.ReferenceIdeal Cert.ReferenceIdeal.Hand Idealize.ShloMosaic Idealize.ShloMosaic.TcCoe Idealize.SL.Sem Idealize.ShloMosaic.StableHlo

variable {F : FTy → Type} [FloatOps F] (m : (ℓ : Loc nD τ sig) → Buf (Elt F) ℓ) (d : Dev nD)

/-! ## One chunk -/

theorem rk_launch_0 (r : Ref sig .tc) (h0 : r ∉ ch0_W := by decide) :
    R0 m d (Proc.devRef .tc r) = launchContents m d (Proc.devRef .tc r) := R0_of m d r h0
theorem rk_0_1a (r : Ref sig .tc) (h1a : r ∉ ch1a_W := by decide) :
    R1a m d (Proc.devRef .tc r) = R0 m d (Proc.devRef .tc r) := R1a_of m d r h1a
theorem rk_1a_1b (r : Ref sig .tc) (h1b : r ∉ ch1b_W := by decide) :
    R1b m d (Proc.devRef .tc r) = R1a m d (Proc.devRef .tc r) := R1b_of m d r h1b
theorem rk_1b_2 (r : Ref sig .tc) (h2 : r ∉ ch2_W := by decide) :
    R2 m d (Proc.devRef .tc r) = R1b m d (Proc.devRef .tc r) := R2_of m d r h2
theorem rk_2_3a (r : Ref sig .tc) (h3a : r ∉ ch3a_W := by decide) :
    R3a m d (Proc.devRef .tc r) = R2 m d (Proc.devRef .tc r) := R3a_of m d r h3a
theorem rk_3a_3b (r : Ref sig .tc) (h3b : r ∉ ch3b_W := by decide) :
    R3b m d (Proc.devRef .tc r) = R3a m d (Proc.devRef .tc r) := R3b_of m d r h3b
theorem rk_3b_4a (r : Ref sig .tc) (h4a : r ∉ ch4a_W := by decide) :
    R4a m d (Proc.devRef .tc r) = R3b m d (Proc.devRef .tc r) := R4a_of m d r h4a
theorem rk_4a_4b (r : Ref sig .tc) (h4b : r ∉ ch4b_W := by decide) :
    R4b m d (Proc.devRef .tc r) = R4a m d (Proc.devRef .tc r) := R4b_of m d r h4b
theorem rk_4b_6a (r : Ref sig .tc) (h6a : r ∉ ch6a_W := by decide) :
    R6a m d (Proc.devRef .tc r) = R4b m d (Proc.devRef .tc r) := R6a_of m d r h6a
theorem rk_6a_6b (r : Ref sig .tc) (h6b : r ∉ ch6b_W := by decide) :
    R6b m d (Proc.devRef .tc r) = R6a m d (Proc.devRef .tc r) := R6b_of m d r h6b

/-! ## Several chunks: the later stage against the earlier, one not-written fact per chunk crossed -/

theorem rk_launch_1a (r : Ref sig .tc) (h0 : r ∉ ch0_W := by decide) (h1a : r ∉ ch1a_W := by decide) :
    R1a m d (Proc.devRef .tc r) = launchContents m d (Proc.devRef .tc r) :=
  (R1a_of m d r h1a).trans (rk_launch_0 m d r h0)
theorem rk_launch_1b (r : Ref sig .tc) (h0 : r ∉ ch0_W := by decide) (h1a : r ∉ ch1a_W := by decide) (h1b : r ∉ ch1b_W := by decide) :
    R1b m d (Proc.devRef .tc r) = launchContents m d (Proc.devRef .tc r) :=
  (R1b_of m d r h1b).trans (rk_launch_1a m d r h0 h1a)
theorem rk_launch_2 (r : Ref sig .tc) (h0 : r ∉ ch0_W := by decide) (h1a : r ∉ ch1a_W := by decide) (h1b : r ∉ ch1b_W := by decide) (h2 : r ∉ ch2_W := by decide) :
    R2 m d (Proc.devRef .tc r) = launchContents m d (Proc.devRef .tc r) :=
  (R2_of m d r h2).trans (rk_launch_1b m d r h0 h1a h1b)
theorem rk_launch_3a (r : Ref sig .tc) (h0 : r ∉ ch0_W := by decide) (h1a : r ∉ ch1a_W := by decide) (h1b : r ∉ ch1b_W := by decide) (h2 : r ∉ ch2_W := by decide) (h3a : r ∉ ch3a_W := by decide) :
    R3a m d (Proc.devRef .tc r) = launchContents m d (Proc.devRef .tc r) :=
  (R3a_of m d r h3a).trans (rk_launch_2 m d r h0 h1a h1b h2)
theorem rk_launch_3b (r : Ref sig .tc) (h0 : r ∉ ch0_W := by decide) (h1a : r ∉ ch1a_W := by decide) (h1b : r ∉ ch1b_W := by decide) (h2 : r ∉ ch2_W := by decide) (h3a : r ∉ ch3a_W := by decide) (h3b : r ∉ ch3b_W := by decide) :
    R3b m d (Proc.devRef .tc r) = launchContents m d (Proc.devRef .tc r) :=
  (R3b_of m d r h3b).trans (rk_launch_3a m d r h0 h1a h1b h2 h3a)
theorem rk_launch_4a (r : Ref sig .tc) (h0 : r ∉ ch0_W := by decide) (h1a : r ∉ ch1a_W := by decide) (h1b : r ∉ ch1b_W := by decide) (h2 : r ∉ ch2_W := by decide) (h3a : r ∉ ch3a_W := by decide) (h3b : r ∉ ch3b_W := by decide) (h4a : r ∉ ch4a_W := by decide) :
    R4a m d (Proc.devRef .tc r) = launchContents m d (Proc.devRef .tc r) :=
  (R4a_of m d r h4a).trans (rk_launch_3b m d r h0 h1a h1b h2 h3a h3b)
theorem rk_launch_4b (r : Ref sig .tc) (h0 : r ∉ ch0_W := by decide) (h1a : r ∉ ch1a_W := by decide) (h1b : r ∉ ch1b_W := by decide) (h2 : r ∉ ch2_W := by decide) (h3a : r ∉ ch3a_W := by decide) (h3b : r ∉ ch3b_W := by decide) (h4a : r ∉ ch4a_W := by decide) (h4b : r ∉ ch4b_W := by decide) :
    R4b m d (Proc.devRef .tc r) = launchContents m d (Proc.devRef .tc r) :=
  (R4b_of m d r h4b).trans (rk_launch_4a m d r h0 h1a h1b h2 h3a h3b h4a)
theorem rk_launch_6a (r : Ref sig .tc) (h0 : r ∉ ch0_W := by decide) (h1a : r ∉ ch1a_W := by decide) (h1b : r ∉ ch1b_W := by decide) (h2 : r ∉ ch2_W := by decide) (h3a : r ∉ ch3a_W := by decide) (h3b : r ∉ ch3b_W := by decide) (h4a : r ∉ ch4a_W := by decide) (h4b : r ∉ ch4b_W := by decide) (h6a : r ∉ ch6a_W := by decide) :
    R6a m d (Proc.devRef .tc r) = launchContents m d (Proc.devRef .tc r) :=
  (R6a_of m d r h6a).trans (rk_launch_4b m d r h0 h1a h1b h2 h3a h3b h4a h4b)
theorem rk_launch_6b (r : Ref sig .tc) (h0 : r ∉ ch0_W := by decide) (h1a : r ∉ ch1a_W := by decide) (h1b : r ∉ ch1b_W := by decide) (h2 : r ∉ ch2_W := by decide) (h3a : r ∉ ch3a_W := by decide) (h3b : r ∉ ch3b_W := by decide) (h4a : r ∉ ch4a_W := by decide) (h4b : r ∉ ch4b_W := by decide) (h6a : r ∉ ch6a_W := by decide) (h6b : r ∉ ch6b_W := by decide) :
    R6b m d (Proc.devRef .tc r) = launchContents m d (Proc.devRef .tc r) :=
  (R6b_of m d r h6b).trans (rk_launch_6a m d r h0 h1a h1b h2 h3a h3b h4a h4b h6a)
theorem rk_0_1b (r : Ref sig .tc) (h1a : r ∉ ch1a_W := by decide) (h1b : r ∉ ch1b_W := by decide) :
    R1b m d (Proc.devRef .tc r) = R0 m d (Proc.devRef .tc r) :=
  (R1b_of m d r h1b).trans (rk_0_1a m d r h1a)
theorem rk_0_2 (r : Ref sig .tc) (h1a : r ∉ ch1a_W := by decide) (h1b : r ∉ ch1b_W := by decide) (h2 : r ∉ ch2_W := by decide) :
    R2 m d (Proc.devRef .tc r) = R0 m d (Proc.devRef .tc r) :=
  (R2_of m d r h2).trans (rk_0_1b m d r h1a h1b)
theorem rk_0_3a (r : Ref sig .tc) (h1a : r ∉ ch1a_W := by decide) (h1b : r ∉ ch1b_W := by decide) (h2 : r ∉ ch2_W := by decide) (h3a : r ∉ ch3a_W := by decide) :
    R3a m d (Proc.devRef .tc r) = R0 m d (Proc.devRef .tc r) :=
  (R3a_of m d r h3a).trans (rk_0_2 m d r h1a h1b h2)
theorem rk_0_3b (r : Ref sig .tc) (h1a : r ∉ ch1a_W := by decide) (h1b : r ∉ ch1b_W := by decide) (h2 : r ∉ ch2_W := by decide) (h3a : r ∉ ch3a_W := by decide) (h3b : r ∉ ch3b_W := by decide) :
    R3b m d (Proc.devRef .tc r) = R0 m d (Proc.devRef .tc r) :=
  (R3b_of m d r h3b).trans (rk_0_3a m d r h1a h1b h2 h3a)
theorem rk_0_4a (r : Ref sig .tc) (h1a : r ∉ ch1a_W := by decide) (h1b : r ∉ ch1b_W := by decide) (h2 : r ∉ ch2_W := by decide) (h3a : r ∉ ch3a_W := by decide) (h3b : r ∉ ch3b_W := by decide) (h4a : r ∉ ch4a_W := by decide) :
    R4a m d (Proc.devRef .tc r) = R0 m d (Proc.devRef .tc r) :=
  (R4a_of m d r h4a).trans (rk_0_3b m d r h1a h1b h2 h3a h3b)
theorem rk_0_4b (r : Ref sig .tc) (h1a : r ∉ ch1a_W := by decide) (h1b : r ∉ ch1b_W := by decide) (h2 : r ∉ ch2_W := by decide) (h3a : r ∉ ch3a_W := by decide) (h3b : r ∉ ch3b_W := by decide) (h4a : r ∉ ch4a_W := by decide) (h4b : r ∉ ch4b_W := by decide) :
    R4b m d (Proc.devRef .tc r) = R0 m d (Proc.devRef .tc r) :=
  (R4b_of m d r h4b).trans (rk_0_4a m d r h1a h1b h2 h3a h3b h4a)
theorem rk_0_6a (r : Ref sig .tc) (h1a : r ∉ ch1a_W := by decide) (h1b : r ∉ ch1b_W := by decide) (h2 : r ∉ ch2_W := by decide) (h3a : r ∉ ch3a_W := by decide) (h3b : r ∉ ch3b_W := by decide) (h4a : r ∉ ch4a_W := by decide) (h4b : r ∉ ch4b_W := by decide) (h6a : r ∉ ch6a_W := by decide) :
    R6a m d (Proc.devRef .tc r) = R0 m d (Proc.devRef .tc r) :=
  (R6a_of m d r h6a).trans (rk_0_4b m d r h1a h1b h2 h3a h3b h4a h4b)
theorem rk_0_6b (r : Ref sig .tc) (h1a : r ∉ ch1a_W := by decide) (h1b : r ∉ ch1b_W := by decide) (h2 : r ∉ ch2_W := by decide) (h3a : r ∉ ch3a_W := by decide) (h3b : r ∉ ch3b_W := by decide) (h4a : r ∉ ch4a_W := by decide) (h4b : r ∉ ch4b_W := by decide) (h6a : r ∉ ch6a_W := by decide) (h6b : r ∉ ch6b_W := by decide) :
    R6b m d (Proc.devRef .tc r) = R0 m d (Proc.devRef .tc r) :=
  (R6b_of m d r h6b).trans (rk_0_6a m d r h1a h1b h2 h3a h3b h4a h4b h6a)
theorem rk_1a_2 (r : Ref sig .tc) (h1b : r ∉ ch1b_W := by decide) (h2 : r ∉ ch2_W := by decide) :
    R2 m d (Proc.devRef .tc r) = R1a m d (Proc.devRef .tc r) :=
  (R2_of m d r h2).trans (rk_1a_1b m d r h1b)
theorem rk_1a_3a (r : Ref sig .tc) (h1b : r ∉ ch1b_W := by decide) (h2 : r ∉ ch2_W := by decide) (h3a : r ∉ ch3a_W := by decide) :
    R3a m d (Proc.devRef .tc r) = R1a m d (Proc.devRef .tc r) :=
  (R3a_of m d r h3a).trans (rk_1a_2 m d r h1b h2)
theorem rk_1a_3b (r : Ref sig .tc) (h1b : r ∉ ch1b_W := by decide) (h2 : r ∉ ch2_W := by decide) (h3a : r ∉ ch3a_W := by decide) (h3b : r ∉ ch3b_W := by decide) :
    R3b m d (Proc.devRef .tc r) = R1a m d (Proc.devRef .tc r) :=
  (R3b_of m d r h3b).trans (rk_1a_3a m d r h1b h2 h3a)
theorem rk_1a_4a (r : Ref sig .tc) (h1b : r ∉ ch1b_W := by decide) (h2 : r ∉ ch2_W := by decide) (h3a : r ∉ ch3a_W := by decide) (h3b : r ∉ ch3b_W := by decide) (h4a : r ∉ ch4a_W := by decide) :
    R4a m d (Proc.devRef .tc r) = R1a m d (Proc.devRef .tc r) :=
  (R4a_of m d r h4a).trans (rk_1a_3b m d r h1b h2 h3a h3b)
theorem rk_1a_4b (r : Ref sig .tc) (h1b : r ∉ ch1b_W := by decide) (h2 : r ∉ ch2_W := by decide) (h3a : r ∉ ch3a_W := by decide) (h3b : r ∉ ch3b_W := by decide) (h4a : r ∉ ch4a_W := by decide) (h4b : r ∉ ch4b_W := by decide) :
    R4b m d (Proc.devRef .tc r) = R1a m d (Proc.devRef .tc r) :=
  (R4b_of m d r h4b).trans (rk_1a_4a m d r h1b h2 h3a h3b h4a)
theorem rk_1a_6a (r : Ref sig .tc) (h1b : r ∉ ch1b_W := by decide) (h2 : r ∉ ch2_W := by decide) (h3a : r ∉ ch3a_W := by decide) (h3b : r ∉ ch3b_W := by decide) (h4a : r ∉ ch4a_W := by decide) (h4b : r ∉ ch4b_W := by decide) (h6a : r ∉ ch6a_W := by decide) :
    R6a m d (Proc.devRef .tc r) = R1a m d (Proc.devRef .tc r) :=
  (R6a_of m d r h6a).trans (rk_1a_4b m d r h1b h2 h3a h3b h4a h4b)
theorem rk_1a_6b (r : Ref sig .tc) (h1b : r ∉ ch1b_W := by decide) (h2 : r ∉ ch2_W := by decide) (h3a : r ∉ ch3a_W := by decide) (h3b : r ∉ ch3b_W := by decide) (h4a : r ∉ ch4a_W := by decide) (h4b : r ∉ ch4b_W := by decide) (h6a : r ∉ ch6a_W := by decide) (h6b : r ∉ ch6b_W := by decide) :
    R6b m d (Proc.devRef .tc r) = R1a m d (Proc.devRef .tc r) :=
  (R6b_of m d r h6b).trans (rk_1a_6a m d r h1b h2 h3a h3b h4a h4b h6a)
theorem rk_1b_3a (r : Ref sig .tc) (h2 : r ∉ ch2_W := by decide) (h3a : r ∉ ch3a_W := by decide) :
    R3a m d (Proc.devRef .tc r) = R1b m d (Proc.devRef .tc r) :=
  (R3a_of m d r h3a).trans (rk_1b_2 m d r h2)
theorem rk_1b_3b (r : Ref sig .tc) (h2 : r ∉ ch2_W := by decide) (h3a : r ∉ ch3a_W := by decide) (h3b : r ∉ ch3b_W := by decide) :
    R3b m d (Proc.devRef .tc r) = R1b m d (Proc.devRef .tc r) :=
  (R3b_of m d r h3b).trans (rk_1b_3a m d r h2 h3a)
theorem rk_1b_4a (r : Ref sig .tc) (h2 : r ∉ ch2_W := by decide) (h3a : r ∉ ch3a_W := by decide) (h3b : r ∉ ch3b_W := by decide) (h4a : r ∉ ch4a_W := by decide) :
    R4a m d (Proc.devRef .tc r) = R1b m d (Proc.devRef .tc r) :=
  (R4a_of m d r h4a).trans (rk_1b_3b m d r h2 h3a h3b)
theorem rk_1b_4b (r : Ref sig .tc) (h2 : r ∉ ch2_W := by decide) (h3a : r ∉ ch3a_W := by decide) (h3b : r ∉ ch3b_W := by decide) (h4a : r ∉ ch4a_W := by decide) (h4b : r ∉ ch4b_W := by decide) :
    R4b m d (Proc.devRef .tc r) = R1b m d (Proc.devRef .tc r) :=
  (R4b_of m d r h4b).trans (rk_1b_4a m d r h2 h3a h3b h4a)
theorem rk_1b_6a (r : Ref sig .tc) (h2 : r ∉ ch2_W := by decide) (h3a : r ∉ ch3a_W := by decide) (h3b : r ∉ ch3b_W := by decide) (h4a : r ∉ ch4a_W := by decide) (h4b : r ∉ ch4b_W := by decide) (h6a : r ∉ ch6a_W := by decide) :
    R6a m d (Proc.devRef .tc r) = R1b m d (Proc.devRef .tc r) :=
  (R6a_of m d r h6a).trans (rk_1b_4b m d r h2 h3a h3b h4a h4b)
theorem rk_1b_6b (r : Ref sig .tc) (h2 : r ∉ ch2_W := by decide) (h3a : r ∉ ch3a_W := by decide) (h3b : r ∉ ch3b_W := by decide) (h4a : r ∉ ch4a_W := by decide) (h4b : r ∉ ch4b_W := by decide) (h6a : r ∉ ch6a_W := by decide) (h6b : r ∉ ch6b_W := by decide) :
    R6b m d (Proc.devRef .tc r) = R1b m d (Proc.devRef .tc r) :=
  (R6b_of m d r h6b).trans (rk_1b_6a m d r h2 h3a h3b h4a h4b h6a)
theorem rk_2_3b (r : Ref sig .tc) (h3a : r ∉ ch3a_W := by decide) (h3b : r ∉ ch3b_W := by decide) :
    R3b m d (Proc.devRef .tc r) = R2 m d (Proc.devRef .tc r) :=
  (R3b_of m d r h3b).trans (rk_2_3a m d r h3a)
theorem rk_2_4a (r : Ref sig .tc) (h3a : r ∉ ch3a_W := by decide) (h3b : r ∉ ch3b_W := by decide) (h4a : r ∉ ch4a_W := by decide) :
    R4a m d (Proc.devRef .tc r) = R2 m d (Proc.devRef .tc r) :=
  (R4a_of m d r h4a).trans (rk_2_3b m d r h3a h3b)
theorem rk_2_4b (r : Ref sig .tc) (h3a : r ∉ ch3a_W := by decide) (h3b : r ∉ ch3b_W := by decide) (h4a : r ∉ ch4a_W := by decide) (h4b : r ∉ ch4b_W := by decide) :
    R4b m d (Proc.devRef .tc r) = R2 m d (Proc.devRef .tc r) :=
  (R4b_of m d r h4b).trans (rk_2_4a m d r h3a h3b h4a)
theorem rk_2_6a (r : Ref sig .tc) (h3a : r ∉ ch3a_W := by decide) (h3b : r ∉ ch3b_W := by decide) (h4a : r ∉ ch4a_W := by decide) (h4b : r ∉ ch4b_W := by decide) (h6a : r ∉ ch6a_W := by decide) :
    R6a m d (Proc.devRef .tc r) = R2 m d (Proc.devRef .tc r) :=
  (R6a_of m d r h6a).trans (rk_2_4b m d r h3a h3b h4a h4b)
theorem rk_2_6b (r : Ref sig .tc) (h3a : r ∉ ch3a_W := by decide) (h3b : r ∉ ch3b_W := by decide) (h4a : r ∉ ch4a_W := by decide) (h4b : r ∉ ch4b_W := by decide) (h6a : r ∉ ch6a_W := by decide) (h6b : r ∉ ch6b_W := by decide) :
    R6b m d (Proc.devRef .tc r) = R2 m d (Proc.devRef .tc r) :=
  (R6b_of m d r h6b).trans (rk_2_6a m d r h3a h3b h4a h4b h6a)
theorem rk_3a_4a (r : Ref sig .tc) (h3b : r ∉ ch3b_W := by decide) (h4a : r ∉ ch4a_W := by decide) :
    R4a m d (Proc.devRef .tc r) = R3a m d (Proc.devRef .tc r) :=
  (R4a_of m d r h4a).trans (rk_3a_3b m d r h3b)
theorem rk_3a_4b (r : Ref sig .tc) (h3b : r ∉ ch3b_W := by decide) (h4a : r ∉ ch4a_W := by decide) (h4b : r ∉ ch4b_W := by decide) :
    R4b m d (Proc.devRef .tc r) = R3a m d (Proc.devRef .tc r) :=
  (R4b_of m d r h4b).trans (rk_3a_4a m d r h3b h4a)
theorem rk_3a_6a (r : Ref sig .tc) (h3b : r ∉ ch3b_W := by decide) (h4a : r ∉ ch4a_W := by decide) (h4b : r ∉ ch4b_W := by decide) (h6a : r ∉ ch6a_W := by decide) :
    R6a m d (Proc.devRef .tc r) = R3a m d (Proc.devRef .tc r) :=
  (R6a_of m d r h6a).trans (rk_3a_4b m d r h3b h4a h4b)
theorem rk_3a_6b (r : Ref sig .tc) (h3b : r ∉ ch3b_W := by decide) (h4a : r ∉ ch4a_W := by decide) (h4b : r ∉ ch4b_W := by decide) (h6a : r ∉ ch6a_W := by decide) (h6b : r ∉ ch6b_W := by decide) :
    R6b m d (Proc.devRef .tc r) = R3a m d (Proc.devRef .tc r) :=
  (R6b_of m d r h6b).trans (rk_3a_6a m d r h3b h4a h4b h6a)
theorem rk_3b_4b (r : Ref sig .tc) (h4a : r ∉ ch4a_W := by decide) (h4b : r ∉ ch4b_W := by decide) :
    R4b m d (Proc.devRef .tc r) = R3b m d (Proc.devRef .tc r) :=
  (R4b_of m d r h4b).trans (rk_3b_4a m d r h4a)
theorem rk_3b_6a (r : Ref sig .tc) (h4a : r ∉ ch4a_W := by decide) (h4b : r ∉ ch4b_W := by decide) (h6a : r ∉ ch6a_W := by decide) :
    R6a m d (Proc.devRef .tc r) = R3b m d (Proc.devRef .tc r) :=
  (R6a_of m d r h6a).trans (rk_3b_4b m d r h4a h4b)
theorem rk_3b_6b (r : Ref sig .tc) (h4a : r ∉ ch4a_W := by decide) (h4b : r ∉ ch4b_W := by decide) (h6a : r ∉ ch6a_W := by decide) (h6b : r ∉ ch6b_W := by decide) :
    R6b m d (Proc.devRef .tc r) = R3b m d (Proc.devRef .tc r) :=
  (R6b_of m d r h6b).trans (rk_3b_6a m d r h4a h4b h6a)
theorem rk_4a_6a (r : Ref sig .tc) (h4b : r ∉ ch4b_W := by decide) (h6a : r ∉ ch6a_W := by decide) :
    R6a m d (Proc.devRef .tc r) = R4a m d (Proc.devRef .tc r) :=
  (R6a_of m d r h6a).trans (rk_4a_4b m d r h4b)
theorem rk_4a_6b (r : Ref sig .tc) (h4b : r ∉ ch4b_W := by decide) (h6a : r ∉ ch6a_W := by decide) (h6b : r ∉ ch6b_W := by decide) :
    R6b m d (Proc.devRef .tc r) = R4a m d (Proc.devRef .tc r) :=
  (R6b_of m d r h6b).trans (rk_4a_6a m d r h4b h6a)
theorem rk_4b_6b (r : Ref sig .tc) (h6a : r ∉ ch6a_W := by decide) (h6b : r ∉ ch6b_W := by decide) :
    R6b m d (Proc.devRef .tc r) = R4b m d (Proc.devRef .tc r) :=
  (R6b_of m d r h6b).trans (rk_4b_6a m d r h6a)

/-! ## An argument at every stage: what was launched -/

/-- A reference written by none of the chunks up to `ch0` holds after it what the device was launched with. -/
theorem rk_arg_0 (r : Ref sig .tc) (h0 : r ∉ ch0_W := by decide) :
    R0 m d (Proc.devRef .tc r) = m ((d.tc : Thread nD τ).loc r) :=
  (rk_launch_0 m d r h0).trans rfl
/-- A reference written by none of the chunks up to `ch1a` holds after it what the device was launched with. -/
theorem rk_arg_1a (r : Ref sig .tc) (h0 : r ∉ ch0_W := by decide) (h1a : r ∉ ch1a_W := by decide) :
    R1a m d (Proc.devRef .tc r) = m ((d.tc : Thread nD τ).loc r) :=
  (rk_launch_1a m d r h0 h1a).trans rfl
/-- A reference written by none of the chunks up to `ch1b` holds after it what the device was launched with. -/
theorem rk_arg_1b (r : Ref sig .tc) (h0 : r ∉ ch0_W := by decide) (h1a : r ∉ ch1a_W := by decide) (h1b : r ∉ ch1b_W := by decide) :
    R1b m d (Proc.devRef .tc r) = m ((d.tc : Thread nD τ).loc r) :=
  (rk_launch_1b m d r h0 h1a h1b).trans rfl
/-- A reference written by none of the chunks up to `ch2` holds after it what the device was launched with. -/
theorem rk_arg_2 (r : Ref sig .tc) (h0 : r ∉ ch0_W := by decide) (h1a : r ∉ ch1a_W := by decide) (h1b : r ∉ ch1b_W := by decide) (h2 : r ∉ ch2_W := by decide) :
    R2 m d (Proc.devRef .tc r) = m ((d.tc : Thread nD τ).loc r) :=
  (rk_launch_2 m d r h0 h1a h1b h2).trans rfl
/-- A reference written by none of the chunks up to `ch3a` holds after it what the device was launched with. -/
theorem rk_arg_3a (r : Ref sig .tc) (h0 : r ∉ ch0_W := by decide) (h1a : r ∉ ch1a_W := by decide) (h1b : r ∉ ch1b_W := by decide) (h2 : r ∉ ch2_W := by decide) (h3a : r ∉ ch3a_W := by decide) :
    R3a m d (Proc.devRef .tc r) = m ((d.tc : Thread nD τ).loc r) :=
  (rk_launch_3a m d r h0 h1a h1b h2 h3a).trans rfl
/-- A reference written by none of the chunks up to `ch3b` holds after it what the device was launched with. -/
theorem rk_arg_3b (r : Ref sig .tc) (h0 : r ∉ ch0_W := by decide) (h1a : r ∉ ch1a_W := by decide) (h1b : r ∉ ch1b_W := by decide) (h2 : r ∉ ch2_W := by decide) (h3a : r ∉ ch3a_W := by decide) (h3b : r ∉ ch3b_W := by decide) :
    R3b m d (Proc.devRef .tc r) = m ((d.tc : Thread nD τ).loc r) :=
  (rk_launch_3b m d r h0 h1a h1b h2 h3a h3b).trans rfl
/-- A reference written by none of the chunks up to `ch4a` holds after it what the device was launched with. -/
theorem rk_arg_4a (r : Ref sig .tc) (h0 : r ∉ ch0_W := by decide) (h1a : r ∉ ch1a_W := by decide) (h1b : r ∉ ch1b_W := by decide) (h2 : r ∉ ch2_W := by decide) (h3a : r ∉ ch3a_W := by decide) (h3b : r ∉ ch3b_W := by decide) (h4a : r ∉ ch4a_W := by decide) :
    R4a m d (Proc.devRef .tc r) = m ((d.tc : Thread nD τ).loc r) :=
  (rk_launch_4a m d r h0 h1a h1b h2 h3a h3b h4a).trans rfl
/-- A reference written by none of the chunks up to `ch4b` holds after it what the device was launched with. -/
theorem rk_arg_4b (r : Ref sig .tc) (h0 : r ∉ ch0_W := by decide) (h1a : r ∉ ch1a_W := by decide) (h1b : r ∉ ch1b_W := by decide) (h2 : r ∉ ch2_W := by decide) (h3a : r ∉ ch3a_W := by decide) (h3b : r ∉ ch3b_W := by decide) (h4a : r ∉ ch4a_W := by decide) (h4b : r ∉ ch4b_W := by decide) :
    R4b m d (Proc.devRef .tc r) = m ((d.tc : Thread nD τ).loc r) :=
  (rk_launch_4b m d r h0 h1a h1b h2 h3a h3b h4a h4b).trans rfl
/-- A reference written by none of the chunks up to `ch6a` holds after it what the device was launched with. -/
theorem rk_arg_6a (r : Ref sig .tc) (h0 : r ∉ ch0_W := by decide) (h1a : r ∉ ch1a_W := by decide) (h1b : r ∉ ch1b_W := by decide) (h2 : r ∉ ch2_W := by decide) (h3a : r ∉ ch3a_W := by decide) (h3b : r ∉ ch3b_W := by decide) (h4a : r ∉ ch4a_W := by decide) (h4b : r ∉ ch4b_W := by decide) (h6a : r ∉ ch6a_W := by decide) :
    R6a m d (Proc.devRef .tc r) = m ((d.tc : Thread nD τ).loc r) :=
  (rk_launch_6a m d r h0 h1a h1b h2 h3a h3b h4a h4b h6a).trans rfl
/-- A reference written by none of the chunks up to `ch6b` holds after it what the device was launched with. -/
theorem rk_arg_6b (r : Ref sig .tc) (h0 : r ∉ ch0_W := by decide) (h1a : r ∉ ch1a_W := by decide) (h1b : r ∉ ch1b_W := by decide) (h2 : r ∉ ch2_W := by decide) (h3a : r ∉ ch3a_W := by decide) (h3b : r ∉ ch3b_W := by decide) (h4a : r ∉ ch4a_W := by decide) (h4b : r ∉ ch4b_W := by decide) (h6a : r ∉ ch6a_W := by decide) (h6b : r ∉ ch6b_W := by decide) :
    R6b m d (Proc.devRef .tc r) = m ((d.tc : Thread nD τ).loc r) :=
  (rk_launch_6b m d r h0 h1a h1b h2 h3a h3b h4a h4b h6a h6b).trans rfl
/-- A reference no chunk writes ends as launched. -/
theorem rk_arg (r : Ref sig .tc) (h0 : r ∉ ch0_W := by decide) (h1a : r ∉ ch1a_W := by decide) (h1b : r ∉ ch1b_W := by decide) (h2 : r ∉ ch2_W := by decide) (h3a : r ∉ ch3a_W := by decide) (h3b : r ∉ ch3b_W := by decide) (h4a : r ∉ ch4a_W := by decide) (h4b : r ∉ ch4b_W := by decide) (h6a : r ∉ ch6a_W := by decide) (h6b : r ∉ ch6b_W := by decide) :
    R6b m d (Proc.devRef .tc r) = m ((d.tc : Thread nD τ).loc r) :=
  rk_arg_6b m d r h0 h1a h1b h2 h3a h3b h4a h4b h6a h6b

end Cert.Bridge

end
-- ==== Proof.Bridge.SameP.lean ====
/-
The controller and the read head's parameters. The kernel program's first four host stretches and the reference's
operations up to %63 are the same operations under the same numbers, so each of their results is the same
function of the program arguments: stated for arbitrary starting contents that agree on those arguments, for the
nine results the later segments read.

Both lines are cut after %15. The first part is the controller (three dense layers to %11, a fourth to %15), a
function of the arguments; everything after it reads the controller's output %11 only. Each part is compared by
itself and the two are joined, so the dense layers are opened once.
-/
import proofs.«104005_j27152783245914_2_alg».proof.Proof.Gen.KernelIdeal.Launch
import proofs.«104005_j27152783245914_2_alg».proof.Proof.Ref.Ops
import Idealize.ShloMosaic.Lib.StableHlo.Run
import Idealize.ShloMosaic.Lib.Pipeline.Frame

noncomputable section

namespace Cert.Bridge

open Idealize.ShloMosaic Idealize.ShloMosaic.TcCoe Idealize.SL.Sem

variable {F : FTy → Type} [FloatOps F]

section KernelLists
open Cert.KernelIdeal Cert.KernelIdeal.Gen
set_option maxHeartbeats 40000000 in
/-- The stretch `hostOps0` up to %15: the controller's dense layers. -/
abbrev hostOps0a : List (HloOp τ sig (Elt F)) :=
  ( StableHlo.unary main_arg5 main_v0 ((transpose S14x48 [1, 0] · transposes_S48x14_S14x48_1_0) : (⟨S48x14, .f32⟩ : BufTy).Contents (Elt F) → (⟨S14x48, .f32⟩ : BufTy).Contents (Elt F))
  :: StableHlo.binary main_arg0 main_v0 main_v1 ((fun l r => Host.dotGeneral dot_S1x14_S14x48_S1x48_1_0_0_1_n_n none l r) : (⟨S1x14, .f32⟩ : BufTy).Contents (Elt F) → (⟨S14x48, .f32⟩ : BufTy).Contents (Elt F) → (⟨S1x48, .f32⟩ : BufTy).Contents (Elt F))
  :: StableHlo.unary main_arg6 main_v2 (broadcastInDim S1x48 ![1] bcast_S48_S1x48_1 : (⟨S48, .f32⟩ : BufTy).Contents (Elt F) → (⟨S1x48, .f32⟩ : BufTy).Contents (Elt F))
  :: StableHlo.binary main_v1 main_v2 main_v3 (addf : (⟨S1x48, .f32⟩ : BufTy).Contents (Elt F) → (⟨S1x48, .f32⟩ : BufTy).Contents (Elt F) → (⟨S1x48, .f32⟩ : BufTy).Contents (Elt F))
  :: StableHlo.unary main_arg7 main_v4 ((transpose S48x72 [1, 0] · transposes_S72x48_S48x72_1_0) : (⟨S72x48, .f32⟩ : BufTy).Contents (Elt F) → (⟨S48x72, .f32⟩ : BufTy).Contents (Elt F))
  :: StableHlo.binary main_v3 main_v4 main_v5 ((fun l r => Host.dotGeneral dot_S1x48_S48x72_S1x72_1_0_0_1_n_n none l r) : (⟨S1x48, .f32⟩ : BufTy).Contents (Elt F) → (⟨S48x72, .f32⟩ : BufTy).Contents (Elt F) → (⟨S1x72, .f32⟩ : BufTy).Contents (Elt F))
  :: StableHlo.unary main_arg8 main_v6 (broadcastInDim S1x72 ![1] bcast_S72_S1x72_1 : (⟨S72, .f32⟩ : BufTy).Contents (Elt F) → (⟨S1x72, .f32⟩ : BufTy).Contents (Elt F))
  :: StableHlo.binary main_v5 main_v6 main_v7 (addf : (⟨S1x72, .f32⟩ : BufTy).Contents (Elt F) → (⟨S1x72, .f32⟩ : BufTy).Contents (Elt F) → (⟨S1x72, .f32⟩ : BufTy).Contents (Elt F))
  :: StableHlo.unary main_arg9 main_v8 ((transpose S72x92 [1, 0] · transposes_S92x72_S72x92_1_0) : (⟨S92x72, .f32⟩ : BufTy).Contents (Elt F) → (⟨S72x92, .f32⟩ : BufTy).Contents (Elt F))
  :: StableHlo.binary main_v7 main_v8 main_v9 ((fun l r => Host.dotGeneral dot_S1x72_S72x92_S1x92_1_0_0_1_n_n none l r) : (⟨S1x72, .f32⟩ : BufTy).Contents (Elt F) → (⟨S72x92, .f32⟩ : BufTy).Contents (Elt F) → (⟨S1x92, .f32⟩ : BufTy).Contents (Elt F))
  :: StableHlo.unary main_arg10 main_v10 (broadcastInDim S1x92 ![1] bcast_S92_S1x92_1 : (⟨S92, .f32⟩ : BufTy).Contents (Elt F) → (⟨S1x92, .f32⟩ : BufTy).Contents (Elt F))
  :: StableHlo.binary main_v9 main_v10 main_v11 (addf : (⟨S1x92, .f32⟩ : BufTy).Contents (Elt F) → (⟨S1x92, .f32⟩ : BufTy).Contents (Elt F) → (⟨S1x92, .f32⟩ : BufTy).Contents (Elt F))
  :: StableHlo.unary main_arg11 main_v12 ((transpose S72x3 [1, 0] · transposes_S3x72_S72x3_1_0) : (⟨S3x72, .f32⟩ : BufTy).Contents (Elt F) → (⟨S72x3, .f32⟩ : BufTy).Contents (Elt F))
  :: StableHlo.binary main_v7 main_v12 main_v13 ((fun l r => Host.dotGeneral dot_S1x72_S72x3_S1x3_1_0_0_1_n_n none l r) : (⟨S1x72, .f32⟩ : BufTy).Contents (Elt F) → (⟨S72x3, .f32⟩ : BufTy).Contents (Elt F) → (⟨S1x3, .f32⟩ : BufTy).Contents (Elt F))
  :: StableHlo.unary main_arg12 main_v14 (broadcastInDim S1x3 ![1] bcast_S3_S1x3_1 : (⟨S3, .f32⟩ : BufTy).Contents (Elt F) → (⟨S1x3, .f32⟩ : BufTy).Contents (Elt F))
  :: StableHlo.binary main_v13 main_v14 main_v15 (addf : (⟨S1x3, .f32⟩ : BufTy).Contents (Elt F) → (⟨S1x3, .f32⟩ : BufTy).Contents (Elt F) → (⟨S1x3, .f32⟩ : BufTy).Contents (Elt F))
  :: [] )
set_option maxHeartbeats 40000000 in
/-- The stretch `hostOps0` from %16 on: the heads' raw parameters cut out of %11, and the read head's. -/
abbrev hostOps0b : List (HloOp τ sig (Elt F)) :=
  ( StableHlo.unary main_v11 main_v16 ((extractStridedSlice S1x26 ![0, 0] · slices_S1x92_S1x26_0_0) : (⟨S1x92, .f32⟩ : BufTy).Contents (Elt F) → (⟨S1x26, .f32⟩ : BufTy).Contents (Elt F))
  :: StableHlo.reshape main_v16 main_v17 rfl shapeCasts_S1x26_S26
  :: StableHlo.unary main_v17 main_v18 (broadcastInDim S1x26 ![1] bcast_S26_S1x26_1 : (⟨S26, .f32⟩ : BufTy).Contents (Elt F) → (⟨S1x26, .f32⟩ : BufTy).Contents (Elt F))
  :: StableHlo.unary main_v11 main_v19 ((extractStridedSlice S1x26 ![0, 26] · slices_S1x92_S1x26_0_26) : (⟨S1x92, .f32⟩ : BufTy).Contents (Elt F) → (⟨S1x26, .f32⟩ : BufTy).Contents (Elt F))
  :: StableHlo.reshape main_v19 main_v20 rfl shapeCasts_S1x26_S26
  :: StableHlo.unary main_v20 main_v21 (broadcastInDim S1x26 ![1] bcast_S26_S1x26_1 : (⟨S26, .f32⟩ : BufTy).Contents (Elt F) → (⟨S1x26, .f32⟩ : BufTy).Contents (Elt F))
  :: StableHlo.unary main_v11 main_v22 ((extractStridedSlice S1x20 ![0, 52] · slices_S1x92_S1x20_0_52) : (⟨S1x92, .f32⟩ : BufTy).Contents (Elt F) → (⟨S1x20, .f32⟩ : BufTy).Contents (Elt F))
  :: StableHlo.reshape main_v22 main_v23 rfl shapeCasts_S1x20_S20
  :: StableHlo.unary main_v23 main_v24 (broadcastInDim S1x20 ![1] bcast_S20_S1x20_1 : (⟨S20, .f32⟩ : BufTy).Contents (Elt F) → (⟨S1x20, .f32⟩ : BufTy).Contents (Elt F))
  :: StableHlo.unary main_v24 main_v25 (Host.negf : (⟨S1x20, .f32⟩ : BufTy).Contents (Elt F) → (⟨S1x20, .f32⟩ : BufTy).Contents (Elt F))
  :: StableHlo.unary main_v25 main_v26 (Host.exp : (⟨S1x20, .f32⟩ : BufTy).Contents (Elt F) → (⟨S1x20, .f32⟩ : BufTy).Contents (Elt F))
  :: StableHlo.nullary main_cst (constant S_ .f32 0x3F800000#32)
  :: StableHlo.unary main_cst main_v27 (broadcastInDim S1x20 ![] bcast_S_S1x20 : (⟨S_, .f32⟩ : BufTy).Contents (Elt F) → (⟨S1x20, .f32⟩ : BufTy).Contents (Elt F))
  :: StableHlo.binary main_v27 main_v26 main_v28 (addf : (⟨S1x20, .f32⟩ : BufTy).Contents (Elt F) → (⟨S1x20, .f32⟩ : BufTy).Contents (Elt F) → (⟨S1x20, .f32⟩ : BufTy).Contents (Elt F))
  :: StableHlo.nullary main_cst_0 (constant S_ .f32 0x3F800000#32)
  :: StableHlo.unary main_cst_0 main_v29 (broadcastInDim S1x20 ![] bcast_S_S1x20 : (⟨S_, .f32⟩ : BufTy).Contents (Elt F) → (⟨S1x20, .f32⟩ : BufTy).Contents (Elt F))
  :: StableHlo.binary main_v29 main_v28 main_v30 (Host.divf : (⟨S1x20, .f32⟩ : BufTy).Contents (Elt F) → (⟨S1x20, .f32⟩ : BufTy).Contents (Elt F) → (⟨S1x20, .f32⟩ : BufTy).Contents (Elt F))
  :: StableHlo.unary main_v11 main_v31 ((extractStridedSlice S1x20 ![0, 72] · slices_S1x92_S1x20_0_72) : (⟨S1x92, .f32⟩ : BufTy).Contents (Elt F) → (⟨S1x20, .f32⟩ : BufTy).Contents (Elt F))
  :: StableHlo.reshape main_v31 main_v32 rfl shapeCasts_S1x20_S20
  :: StableHlo.unary main_v32 main_v33 (broadcastInDim S1x20 ![1] bcast_S20_S1x20_1 : (⟨S20, .f32⟩ : BufTy).Contents (Elt F) → (⟨S1x20, .f32⟩ : BufTy).Contents (Elt F))
  :: StableHlo.unary main_v33 main_v34 (Host.tanh : (⟨S1x20, .f32⟩ : BufTy).Contents (Elt F) → (⟨S1x20, .f32⟩ : BufTy).Contents (Elt F))
  :: StableHlo.unary main_v18 main_v35 ((extractStridedSlice S1x20 ![0, 0] · slices_S1x26_S1x20_0_0) : (⟨S1x26, .f32⟩ : BufTy).Contents (Elt F) → (⟨S1x20, .f32⟩ : BufTy).Contents (Elt F))
  :: StableHlo.reshape main_v35 main_v36 rfl shapeCasts_S1x20_S20
  :: StableHlo.unary main_v36 main_v37 (Host.tanh : (⟨S20, .f32⟩ : BufTy).Contents (Elt F) → (⟨S20, .f32⟩ : BufTy).Contents (Elt F))
  :: StableHlo.unary main_v37 main_v38 (broadcastInDim S1x20 ![1] bcast_S20_S1x20_1 : (⟨S20, .f32⟩ : BufTy).Contents (Elt F) → (⟨S1x20, .f32⟩ : BufTy).Contents (Elt F))
  :: StableHlo.unary main_v18 main_v39 ((extractStridedSlice S1x1 ![0, 20] · slices_S1x26_S1x1_0_20) : (⟨S1x26, .f32⟩ : BufTy).Contents (Elt F) → (⟨S1x1, .f32⟩ : BufTy).Contents (Elt F))
  :: StableHlo.reshape main_v39 main_v40 rfl shapeCasts_S1x1_S_
  :: StableHlo.unary main_v40 main_v41 (Host.negf : (⟨S_, .f32⟩ : BufTy).Contents (Elt F) → (⟨S_, .f32⟩ : BufTy).Contents (Elt F))
  :: StableHlo.unary main_v41 main_v42 (Host.exp : (⟨S_, .f32⟩ : BufTy).Contents (Elt F) → (⟨S_, .f32⟩ : BufTy).Contents (Elt F))
  :: StableHlo.nullary main_cst_1 (constant S_ .f32 0x3F800000#32)
  :: StableHlo.binary main_cst_1 main_v42 main_v43 (addf : (⟨S_, .f32⟩ : BufTy).Contents (Elt F) → (⟨S_, .f32⟩ : BufTy).Contents (Elt F) → (⟨S_, .f32⟩ : BufTy).Contents (Elt F))
  :: StableHlo.nullary main_cst_2 (constant S_ .f32 0x3F800000#32)
  :: StableHlo.binary main_cst_2 main_v43 main_v44 (Host.divf : (⟨S_, .f32⟩ : BufTy).Contents (Elt F) → (⟨S_, .f32⟩ : BufTy).Contents (Elt F) → (⟨S_, .f32⟩ : BufTy).Contents (Elt F))
  :: StableHlo.unary main_v18 main_v45 ((extractStridedSlice S1x3 ![0, 21] · slices_S1x26_S1x3_0_21) : (⟨S1x26, .f32⟩ : BufTy).Contents (Elt F) → (⟨S1x3, .f32⟩ : BufTy).Contents (Elt F))
  :: StableHlo.reshape main_v45 main_v46 rfl shapeCasts_S1x3_S3
  :: StableHlo.nullary main_cst_3 (constant S_ .f32 0xFF800000#32)
  :: StableHlo.binary main_v46 main_cst_3 main_v47 ((fun x v => Host.reduce FloatOps.maximumf x v reducesTo_S3_S_d0 h_S_) : (⟨S3, .f32⟩ : BufTy).Contents (Elt F) → (⟨S_, .f32⟩ : BufTy).Contents (Elt F) → (⟨S_, .f32⟩ : BufTy).Contents (Elt F))
  :: StableHlo.nullary main_cst_4 (constant S_ .f32 0xFF800000#32)
  :: StableHlo.binary main_cst_4 main_v47 main_v48 (maximumf : (⟨S_, .f32⟩ : BufTy).Contents (Elt F) → (⟨S_, .f32⟩ : BufTy).Contents (Elt F) → (⟨S_, .f32⟩ : BufTy).Contents (Elt F))
  :: StableHlo.unary main_v48 main_v49 (broadcastInDim S1 ![] bcast_S_S1 : (⟨S_, .f32⟩ : BufTy).Contents (Elt F) → (⟨S1, .f32⟩ : BufTy).Contents (Elt F))
  :: StableHlo.unary main_v49 main_v50 (broadcastInDim S3 ![0] bcast_S1_S3_0 : (⟨S1, .f32⟩ : BufTy).Contents (Elt F) → (⟨S3, .f32⟩ : BufTy).Contents (Elt F))
  :: StableHlo.binary main_v46 main_v50 main_v51 (subf : (⟨S3, .f32⟩ : BufTy).Contents (Elt F) → (⟨S3, .f32⟩ : BufTy).Contents (Elt F) → (⟨S3, .f32⟩ : BufTy).Contents (Elt F))
  :: StableHlo.unary main_v51 main_v52 (Host.exp : (⟨S3, .f32⟩ : BufTy).Contents (Elt F) → (⟨S3, .f32⟩ : BufTy).Contents (Elt F))
  :: StableHlo.nullary main_cst_5 (constant S_ .f32 0x00000000#32)
  :: StableHlo.binary main_v52 main_cst_5 main_v53 ((fun x v => Host.reduceAdd x v reducesTo_S3_S_d0 h_S_) : (⟨S3, .f32⟩ : BufTy).Contents (Elt F) → (⟨S_, .f32⟩ : BufTy).Contents (Elt F) → (⟨S_, .f32⟩ : BufTy).Contents (Elt F))
  :: StableHlo.unary main_v53 main_v54 (broadcastInDim S1 ![] bcast_S_S1 : (⟨S_, .f32⟩ : BufTy).Contents (Elt F) → (⟨S1, .f32⟩ : BufTy).Contents (Elt F))
  :: StableHlo.unary main_v54 main_v55 (broadcastInDim S3 ![0] bcast_S1_S3_0 : (⟨S1, .f32⟩ : BufTy).Contents (Elt F) → (⟨S3, .f32⟩ : BufTy).Contents (Elt F))
  :: StableHlo.binary main_v52 main_v55 main_v56 (Host.divf : (⟨S3, .f32⟩ : BufTy).Contents (Elt F) → (⟨S3, .f32⟩ : BufTy).Contents (Elt F) → (⟨S3, .f32⟩ : BufTy).Contents (Elt F))
  :: StableHlo.unary main_v18 main_v57 ((extractStridedSlice S1x1 ![0, 24] · slices_S1x26_S1x1_0_24) : (⟨S1x26, .f32⟩ : BufTy).Contents (Elt F) → (⟨S1x1, .f32⟩ : BufTy).Contents (Elt F))
  :: StableHlo.reshape main_v57 main_v58 rfl shapeCasts_S1x1_S_
  :: [] )
set_option maxHeartbeats 40000000 in
set_option maxRecDepth 8192 in
theorem hostOps0_split : (Gen.hostOps0 : List (HloOp τ sig (Elt F))) = hostOps0a ++ hostOps0b := rfl
end KernelLists

section ReferenceLists
open Cert.ReferenceIdeal Cert.ReferenceIdeal.Gen Idealize.ShloMosaic.StableHlo
/-- The reference's operations up to %15. -/
abbrev ch0a : List (HloOp τ sig (Elt F)) :=
  [
    unary main_arg5 main_v0 ((transpose S14x48 [1, 0] · transposes_S48x14_S14x48_1_0) : (⟨S48x14, .f32⟩ : BufTy).Contents (Elt F) → (⟨S14x48, .f32⟩ : BufTy).Contents (Elt F)),
    binary main_arg0 main_v0 main_v1 ((fun l r => Host.dotGeneral dot_S1x14_S14x48_S1x48_1_0_0_1_n_n none l r) : (⟨S1x14, .f32⟩ : BufTy).Contents (Elt F) → (⟨S14x48, .f32⟩ : BufTy).Contents (Elt F) → (⟨S1x48, .f32⟩ : BufTy).Contents (Elt F)),
    unary main_arg6 main_v2 (broadcastInDim S1x48 ![1] bcast_S48_S1x48_1 : (⟨S48, .f32⟩ : BufTy).Contents (Elt F) → (⟨S1x48, .f32⟩ : BufTy).Contents (Elt F)),
    binary main_v1 main_v2 main_v3 (addf : (⟨S1x48, .f32⟩ : BufTy).Contents (Elt F) → (⟨S1x48, .f32⟩ : BufTy).Contents (Elt F) → (⟨S1x48, .f32⟩ : BufTy).Contents (Elt F)),
    unary main_arg7 main_v4 ((transpose S48x72 [1, 0] · transposes_S72x48_S48x72_1_0) : (⟨S72x48, .f32⟩ : BufTy).Contents (Elt F) → (⟨S48x72, .f32⟩ : BufTy).Contents (Elt F)),
    binary main_v3 main_v4 main_v5 ((fun l r => Host.dotGeneral dot_S1x48_S48x72_S1x72_1_0_0_1_n_n none l r) : (⟨S1x48, .f32⟩ : BufTy).Contents (Elt F) → (⟨S48x72, .f32⟩ : BufTy).Contents (Elt F) → (⟨S1x72, .f32⟩ : BufTy).Contents (Elt F)),
    unary main_arg8 main_v6 (broadcastInDim S1x72 ![1] bcast_S72_S1x72_1 : (⟨S72, .f32⟩ : BufTy).Contents (Elt F) → (⟨S1x72, .f32⟩ : BufTy).Contents (Elt F)),
    binary main_v5 main_v6 main_v7 (addf : (⟨S1x72, .f32⟩ : BufTy).Contents (Elt F) → (⟨S1x72, .f32⟩ : BufTy).Contents (Elt F) → (⟨S1x72, .f32⟩ : BufTy).Contents (Elt F)),
    unary main_arg9 main_v8 ((transpose S72x92 [1, 0] · transposes_S92x72_S72x92_1_0) : (⟨S92x72, .f32⟩ : BufTy).Contents (Elt F) → (⟨S72x92, .f32⟩ : BufTy).Contents (Elt F)),
    binary main_v7 main_v8 main_v9 ((fun l r => Host.dotGeneral dot_S1x72_S72x92_S1x92_1_0_0_1_n_n none l r) : (⟨S1x72, .f32⟩ : BufTy).Contents (Elt F) → (⟨S72x92, .f32⟩ : BufTy).Contents (Elt F) → (⟨S1x92, .f32⟩ : BufTy).Contents (Elt F)),
    unary main_arg10 main_v10 (broadcastInDim S1x92 ![1] bcast_S92_S1x92_1 : (⟨S92, .f32⟩ : BufTy).Contents (Elt F) → (⟨S1x92, .f32⟩ : BufTy).Contents (Elt F)),
    binary main_v9 main_v10 main_v11 (addf : (⟨S1x92, .f32⟩ : BufTy).Contents (Elt F) → (⟨S1x92, .f32⟩ : BufTy).Contents (Elt F) → (⟨S1x92, .f32⟩ : BufTy).Contents (Elt F)),
    unary main_arg11 main_v12 ((transpose S72x3 [1, 0] · transposes_S3x72_S72x3_1_0) : (⟨S3x72, .f32⟩ : BufTy).Contents (Elt F) → (⟨S72x3, .f32⟩ : BufTy).Contents (Elt F)),
    binary main_v7 main_v12 main_v13 ((fun l r => Host.dotGeneral dot_S1x72_S72x3_S1x3_1_0_0_1_n_n none l r) : (⟨S1x72, .f32⟩ : BufTy).Contents (Elt F) → (⟨S72x3, .f32⟩ : BufTy).Contents (Elt F) → (⟨S1x3, .f32⟩ : BufTy).Contents (Elt F)),
    unary main_arg12 main_v14 (broadcastInDim S1x3 ![1] bcast_S3_S1x3_1 : (⟨S3, .f32⟩ : BufTy).Contents (Elt F) → (⟨S1x3, .f32⟩ : BufTy).Contents (Elt F)),
    binary main_v13 main_v14 main_v15 (addf : (⟨S1x3, .f32⟩ : BufTy).Contents (Elt F) → (⟨S1x3, .f32⟩ : BufTy).Contents (Elt F) → (⟨S1x3, .f32⟩ : BufTy).Contents (Elt F)) ]
set_option maxHeartbeats 40000000 in
/-- The reference's operations %16 … %63. -/
abbrev ch0b : List (HloOp τ sig (Elt F)) :=
  [
    unary main_v11 main_v16 ((extractStridedSlice S1x26 ![0, 0] · slices_S1x92_S1x26_0_0) : (⟨S1x92, .f32⟩ : BufTy).Contents (Elt F) → (⟨S1x26, .f32⟩ : BufTy).Contents (Elt F)),
    reshape main_v16 main_v17 rfl shapeCasts_S1x26_S26,
    unary main_v17 main_v18 (broadcastInDim S1x26 ![1] bcast_S26_S1x26_1 : (⟨S26, .f32⟩ : BufTy).Contents (Elt F) → (⟨S1x26, .f32⟩ : BufTy).Contents (Elt F)),
    unary main_v11 main_v19 ((extractStridedSlice S1x26 ![0, 26] · slices_S1x92_S1x26_0_26) : (⟨S1x92, .f32⟩ : BufTy).Contents (Elt F) → (⟨S1x26, .f32⟩ : BufTy).Contents (Elt F)),
    reshape main_v19 main_v20 rfl shapeCasts_S1x26_S26,
    unary main_v20 main_v21 (broadcastInDim S1x26 ![1] bcast_S26_S1x26_1 : (⟨S26, .f32⟩ : BufTy).Contents (Elt F) → (⟨S1x26, .f32⟩ : BufTy).Contents (Elt F)),
    unary main_v11 main_v22 ((extractStridedSlice S1x20 ![0, 52] · slices_S1x92_S1x20_0_52) : (⟨S1x92, .f32⟩ : BufTy).Contents (Elt F) → (⟨S1x20, .f32⟩ : BufTy).Contents (Elt F)),
    reshape main_v22 main_v23 rfl shapeCasts_S1x20_S20,
    unary main_v23 main_v24 (broadcastInDim S1x20 ![1] bcast_S20_S1x20_1 : (⟨S20, .f32⟩ : BufTy).Contents (Elt F) → (⟨S1x20, .f32⟩ : BufTy).Contents (Elt F)),
    unary main_v24 main_v25 (Host.negf : (⟨S1x20, .f32⟩ : BufTy).Contents (Elt F) → (⟨S1x20, .f32⟩ : BufTy).Contents (Elt F)),
    unary main_v25 main_v26 (Host.exp : (⟨S1x20, .f32⟩ : BufTy).Contents (Elt F) → (⟨S1x20, .f32⟩ : BufTy).Contents (Elt F)),
    nullary main_cst (constant S_ .f32 0x3F800000#32),
    unary main_cst main_v27 (broadcastInDim S1x20 ![] bcast_S_S1x20 : (⟨S_, .f32⟩ : BufTy).Contents (Elt F) → (⟨S1x20, .f32⟩ : BufTy).Contents (Elt F)),
    binary main_v27 main_v26 main_v28 (addf : (⟨S1x20, .f32⟩ : BufTy).Contents (Elt F) → (⟨S1x20, .f32⟩ : BufTy).Contents (Elt F) → (⟨S1x20, .f32⟩ : BufTy).Contents (Elt F)),
    nullary main_cst_0 (constant S_ .f32 0x3F800000#32),
    unary main_cst_0 main_v29 (broadcastInDim S1x20 ![] bcast_S_S1x20 : (⟨S_, .f32⟩ : BufTy).Contents (Elt F) → (⟨S1x20, .f32⟩ : BufTy).Contents (Elt F)),
    binary main_v29 main_v28 main_v30 (Host.divf : (⟨S1x20, .f32⟩ : BufTy).Contents (Elt F) → (⟨S1x20, .f32⟩ : BufTy).Contents (Elt F) → (⟨S1x20, .f32⟩ : BufTy).Contents (Elt F)),
    unary main_v11 main_v31 ((extractStridedSlice S1x20 ![0, 72] · slices_S1x92_S1x20_0_72) : (⟨S1x92, .f32⟩ : BufTy).Contents (Elt F) → (⟨S1x20, .f32⟩ : BufTy).Contents (Elt F)),
    reshape main_v31 main_v32 rfl shapeCasts_S1x20_S20,
    unary main_v32 main_v33 (broadcastInDim S1x20 ![1] bcast_S20_S1x20_1 : (⟨S20, .f32⟩ : BufTy).Contents (Elt F) → (⟨S1x20, .f32⟩ : BufTy).Contents (Elt F)),
    unary main_v33 main_v34 (Host.tanh : (⟨S1x20, .f32⟩ : BufTy).Contents (Elt F) → (⟨S1x20, .f32⟩ : BufTy).Contents (Elt F)),
    unary main_v18 main_v35 ((extractStridedSlice S1x20 ![0, 0] · slices_S1x26_S1x20_0_0) : (⟨S1x26, .f32⟩ : BufTy).Contents (Elt F) → (⟨S1x20, .f32⟩ : BufTy).Contents (Elt F)),
    reshape main_v35 main_v36 rfl shapeCasts_S1x20_S20,
    unary main_v36 main_v37 (Host.tanh : (⟨S20, .f32⟩ : BufTy).Contents (Elt F) → (⟨S20, .f32⟩ : BufTy).Contents (Elt F)),
    unary main_v37 main_v38 (broadcastInDim S1x20 ![1] bcast_S20_S1x20_1 : (⟨S20, .f32⟩ : BufTy).Contents (Elt F) → (⟨S1x20, .f32⟩ : BufTy).Contents (Elt F)),
    unary main_v18 main_v39 ((extractStridedSlice S1x1 ![0, 20] · slices_S1x26_S1x1_0_20) : (⟨S1x26, .f32⟩ : BufTy).Contents (Elt F) → (⟨S1x1, .f32⟩ : BufTy).Contents (Elt F)),
    reshape main_v39 main_v40 rfl shapeCasts_S1x1_S_,
    unary main_v40 main_v41 (Host.negf : (⟨S_, .f32⟩ : BufTy).Contents (Elt F) → (⟨S_, .f32⟩ : BufTy).Contents (Elt F)),
    unary main_v41 main_v42 (Host.exp : (⟨S_, .f32⟩ : BufTy).Contents (Elt F) → (⟨S_, .f32⟩ : BufTy).Contents (Elt F)),
    nullary main_cst_1 (constant S_ .f32 0x3F800000#32),
    binary main_cst_1 main_v42 main_v43 (addf : (⟨S_, .f32⟩ : BufTy).Contents (Elt F) → (⟨S_, .f32⟩ : BufTy).Contents (Elt F) → (⟨S_, .f32⟩ : BufTy).Contents (Elt F)),
    nullary main_cst_2 (constant S_ .f32 0x3F800000#32),
    binary main_cst_2 main_v43 main_v44 (Host.divf : (⟨S_, .f32⟩ : BufTy).Contents (Elt F) → (⟨S_, .f32⟩ : BufTy).Contents (Elt F) → (⟨S_, .f32⟩ : BufTy).Contents (Elt F)),
    unary main_v18 main_v45 ((extractStridedSlice S1x3 ![0, 21] · slices_S1x26_S1x3_0_21) : (⟨S1x26, .f32⟩ : BufTy).Contents (Elt F) → (⟨S1x3, .f32⟩ : BufTy).Contents (Elt F)),
    reshape main_v45 main_v46 rfl shapeCasts_S1x3_S3,
    nullary main_cst_3 (constant S_ .f32 0xFF800000#32),
    binary main_v46 main_cst_3 main_v47 ((fun x v => Host.reduce FloatOps.maximumf x v reducesTo_S3_S_d0 h_S_) : (⟨S3, .f32⟩ : BufTy).Contents (Elt F) → (⟨S_, .f32⟩ : BufTy).Contents (Elt F) → (⟨S_, .f32⟩ : BufTy).Contents (Elt F)),
    nullary main_cst_4 (constant S_ .f32 0xFF800000#32),
    binary main_cst_4 main_v47 main_v48 (maximumf : (⟨S_, .f32⟩ : BufTy).Contents (Elt F) → (⟨S_, .f32⟩ : BufTy).Contents (Elt F) → (⟨S_, .f32⟩ : BufTy).Contents (Elt F)),
    unary main_v48 main_v49 (broadcastInDim S1 ![] bcast_S_S1 : (⟨S_, .f32⟩ : BufTy).Contents (Elt F) → (⟨S1, .f32⟩ : BufTy).Contents (Elt F)),
    unary main_v49 main_v50 (broadcastInDim S3 ![0] bcast_S1_S3_0 : (⟨S1, .f32⟩ : BufTy).Contents (Elt F) → (⟨S3, .f32⟩ : BufTy).Contents (Elt F)),
    binary main_v46 main_v50 main_v51 (subf : (⟨S3, .f32⟩ : BufTy).Contents (Elt F) → (⟨S3, .f32⟩ : BufTy).Contents (Elt F) → (⟨S3, .f32⟩ : BufTy).Contents (Elt F)),
    unary main_v51 main_v52 (Host.exp : (⟨S3, .f32⟩ : BufTy).Contents (Elt F) → (⟨S3, .f32⟩ : BufTy).Contents (Elt F)),
    nullary main_cst_5 (constant S_ .f32 0x00000000#32),
    binary main_v52 main_cst_5 main_v53 ((fun x v => Host.reduceAdd x v reducesTo_S3_S_d0 h_S_) : (⟨S3, .f32⟩ : BufTy).Contents (Elt F) → (⟨S_, .f32⟩ : BufTy).Contents (Elt F) → (⟨S_, .f32⟩ : BufTy).Contents (Elt F)),
    unary main_v53 main_v54 (broadcastInDim S1 ![] bcast_S_S1 : (⟨S_, .f32⟩ : BufTy).Contents (Elt F) → (⟨S1, .f32⟩ : BufTy).Contents (Elt F)),
    unary main_v54 main_v55 (broadcastInDim S3 ![0] bcast_S1_S3_0 : (⟨S1, .f32⟩ : BufTy).Contents (Elt F) → (⟨S3, .f32⟩ : BufTy).Contents (Elt F)),
    binary main_v52 main_v55 main_v56 (Host.divf : (⟨S3, .f32⟩ : BufTy).Contents (Elt F) → (⟨S3, .f32⟩ : BufTy).Contents (Elt F) → (⟨S3, .f32⟩ : BufTy).Contents (Elt F)),
    unary main_v18 main_v57 ((extractStridedSlice S1x1 ![0, 24] · slices_S1x26_S1x1_0_24) : (⟨S1x26, .f32⟩ : BufTy).Contents (Elt F) → (⟨S1x1, .f32⟩ : BufTy).Contents (Elt F)),
    reshape main_v57 main_v58 rfl shapeCasts_S1x1_S_,
    TRef.nullary (TRef.of (T := ⟨S_, .f32⟩) main_call0_cst) (constant S_ .f32 0x00000000#32),
    TRef.binary (TRef.of (T := ⟨S_, .f32⟩) main_v58) (TRef.of (T := ⟨S_, .f32⟩) main_call0_cst) (TRef.of (T := ⟨S_, .f32⟩) main_call0_v0) maximumf,
    TRef.binary (TRef.of (T := ⟨S_, .f32⟩) main_v58) (TRef.of (T := ⟨S_, .f32⟩) main_call0_cst) (TRef.of (T := ⟨S_, .f32⟩) main_call0_v1) subf,
    TRef.binary (TRef.of (T := ⟨S_, .f32⟩) main_call0_v1) (TRef.of (T := ⟨S_, .f32⟩) main_call0_v1) (TRef.of (T := ⟨S_, .i1⟩) main_call0_v2) (cmpf .une),
    TRef.binary (TRef.of (T := ⟨S_, .f32⟩) main_v58) (TRef.of (T := ⟨S_, .f32⟩) main_call0_cst) (TRef.of (T := ⟨S_, .f32⟩) main_call0_v3) addf,
    TRef.unary (TRef.of (T := ⟨S_, .f32⟩) main_call0_v1) (TRef.of (T := ⟨S_, .f32⟩) main_call0_v4) Host.absf,
    TRef.unary (TRef.of (T := ⟨S_, .f32⟩) main_call0_v4) (TRef.of (T := ⟨S_, .f32⟩) main_call0_v5) Host.negf,
    TRef.unary (TRef.of (T := ⟨S_, .f32⟩) main_call0_v5) (TRef.of (T := ⟨S_, .f32⟩) main_call0_v6) Host.exp,
    TRef.unary (TRef.of (T := ⟨S_, .f32⟩) main_call0_v6) (TRef.of (T := ⟨S_, .f32⟩) main_call0_v7) Host.log1p,
    TRef.binary (TRef.of (T := ⟨S_, .f32⟩) main_call0_v0) (TRef.of (T := ⟨S_, .f32⟩) main_call0_v7) (TRef.of (T := ⟨S_, .f32⟩) main_call0_v8) addf,
    TRef.ternary (TRef.of (T := ⟨S_, .i1⟩) main_call0_v2) (TRef.of (T := ⟨S_, .f32⟩) main_call0_v3) (TRef.of (T := ⟨S_, .f32⟩) main_call0_v8) (TRef.of (T := ⟨S_, .f32⟩) main_v59) select,
    nullary main_cst_6 (constant S_ .f32 0x3F800000#32),
    binary main_cst_6 main_v59 main_v60 (addf : (⟨S_, .f32⟩ : BufTy).Contents (Elt F) → (⟨S_, .f32⟩ : BufTy).Contents (Elt F) → (⟨S_, .f32⟩ : BufTy).Contents (Elt F)),
    unary main_v18 main_v61 ((extractStridedSlice S1x1 ![0, 25] · slices_S1x26_S1x1_0_25) : (⟨S1x26, .f32⟩ : BufTy).Contents (Elt F) → (⟨S1x1, .f32⟩ : BufTy).Contents (Elt F)),
    reshape main_v61 main_v62 rfl shapeCasts_S1x1_S_,
    TRef.nullary (TRef.of (T := ⟨S_, .f32⟩) main_call1_cst) (constant S_ .f32 0x00000000#32),
    TRef.binary (TRef.of (T := ⟨S_, .f32⟩) main_v62) (TRef.of (T := ⟨S_, .f32⟩) main_call1_cst) (TRef.of (T := ⟨S_, .f32⟩) main_call1_v0) maximumf,
    TRef.binary (TRef.of (T := ⟨S_, .f32⟩) main_v62) (TRef.of (T := ⟨S_, .f32⟩) main_call1_cst) (TRef.of (T := ⟨S_, .f32⟩) main_call1_v1) subf,
    TRef.binary (TRef.of (T := ⟨S_, .f32⟩) main_call1_v1) (TRef.of (T := ⟨S_, .f32⟩) main_call1_v1) (TRef.of (T := ⟨S_, .i1⟩) main_call1_v2) (cmpf .une),
    TRef.binary (TRef.of (T := ⟨S_, .f32⟩) main_v62) (TRef.of (T := ⟨S_, .f32⟩) main_call1_cst) (TRef.of (T := ⟨S_, .f32⟩) main_call1_v3) addf,
    TRef.unary (TRef.of (T := ⟨S_, .f32⟩) main_call1_v1) (TRef.of (T := ⟨S_, .f32⟩) main_call1_v4) Host.absf,
    TRef.unary (TRef.of (T := ⟨S_, .f32⟩) main_call1_v4) (TRef.of (T := ⟨S_, .f32⟩) main_call1_v5) Host.negf,
    TRef.unary (TRef.of (T := ⟨S_, .f32⟩) main_call1_v5) (TRef.of (T := ⟨S_, .f32⟩) main_call1_v6) Host.exp,
    TRef.unary (TRef.of (T := ⟨S_, .f32⟩) main_call1_v6) (TRef.of (T := ⟨S_, .f32⟩) main_call1_v7) Host.log1p,
    TRef.binary (TRef.of (T := ⟨S_, .f32⟩) main_call1_v0) (TRef.of (T := ⟨S_, .f32⟩) main_call1_v7) (TRef.of (T := ⟨S_, .f32⟩) main_call1_v8) addf,
    TRef.ternary (TRef.of (T := ⟨S_, .i1⟩) main_call1_v2) (TRef.of (T := ⟨S_, .f32⟩) main_call1_v3) (TRef.of (T := ⟨S_, .f32⟩) main_call1_v8) (TRef.of (T := ⟨S_, .f32⟩) main_v63) select ]
set_option maxHeartbeats 40000000 in
set_option maxRecDepth 8192 in
theorem ch0_split : (Hand.ch0 : List (HloOp τ sig (Elt F))) = ch0a ++ ch0b := rfl
end ReferenceLists

/-! ## The controller -/

set_option maxHeartbeats 8000000 in
set_option maxRecDepth 8192 in
/-- %11, the controller's hidden output the heads are cut from, and %15, its output head. -/
theorem PA (Vk : Valuation Cert.KernelIdeal.τ Cert.KernelIdeal.sig (Elt F)) (Vr : Valuation Cert.ReferenceIdeal.τ Cert.ReferenceIdeal.sig (Elt F))
    (h0 : (Vk (Proc.devRef .tc Cert.KernelIdeal.main_arg0) : FVec F Cert.KernelIdeal.S1x14 .f32) = Vr (Proc.devRef .tc Cert.ReferenceIdeal.main_arg0))
    (h5 : (Vk (Proc.devRef .tc Cert.KernelIdeal.main_arg5) : FVec F Cert.KernelIdeal.S48x14 .f32) = Vr (Proc.devRef .tc Cert.ReferenceIdeal.main_arg5))
    (h6 : (Vk (Proc.devRef .tc Cert.KernelIdeal.main_arg6) : FVec F Cert.KernelIdeal.S48 .f32) = Vr (Proc.devRef .tc Cert.ReferenceIdeal.main_arg6))
    (h7 : (Vk (Proc.devRef .tc Cert.KernelIdeal.main_arg7) : FVec F Cert.KernelIdeal.S72x48 .f32) = Vr (Proc.devRef .tc Cert.ReferenceIdeal.main_arg7))
    (h8 : (Vk (Proc.devRef .tc Cert.KernelIdeal.main_arg8) : FVec F Cert.KernelIdeal.S72 .f32) = Vr (Proc.devRef .tc Cert.ReferenceIdeal.main_arg8))
    (h9 : (Vk (Proc.devRef .tc Cert.KernelIdeal.main_arg9) : FVec F Cert.KernelIdeal.S92x72 .f32) = Vr (Proc.devRef .tc Cert.ReferenceIdeal.main_arg9))
    (h10 : (Vk (Proc.devRef .tc Cert.KernelIdeal.main_arg10) : FVec F Cert.KernelIdeal.S92 .f32) = Vr (Proc.devRef .tc Cert.ReferenceIdeal.main_arg10))
    (h11 : (Vk (Proc.devRef .tc Cert.KernelIdeal.main_arg11) : FVec F Cert.KernelIdeal.S3x72 .f32) = Vr (Proc.devRef .tc Cert.ReferenceIdeal.main_arg11))
    (h12 : (Vk (Proc.devRef .tc Cert.KernelIdeal.main_arg12) : FVec F Cert.KernelIdeal.S3 .f32) = Vr (Proc.devRef .tc Cert.ReferenceIdeal.main_arg12)) :
    ((StableHlo.after (hostOps0a) Vk (Proc.devRef .tc Cert.KernelIdeal.main_v11) : FVec F Cert.KernelIdeal.S1x92 .f32) = StableHlo.after ch0a Vr (Proc.devRef .tc Cert.ReferenceIdeal.main_v11))
    ∧ ((StableHlo.after (hostOps0a) Vk (Proc.devRef .tc Cert.KernelIdeal.main_v15) : FVec F Cert.KernelIdeal.S1x3 .f32) = StableHlo.after ch0a Vr (Proc.devRef .tc Cert.ReferenceIdeal.main_v15)) := by
  refine ⟨?_, ?_⟩
  · after_results_simp
    simp only [h0, h5, h6, h7, h8, h9, h10, h11, h12]
    rfl
  · after_results_simp
    simp only [h0, h5, h6, h7, h8, h9, h10, h11, h12]
    rfl

/-! ## After the controller: everything reads %11 -/

set_option maxHeartbeats 4000000 in
set_option maxRecDepth 8192 in
/-- The operations after %15 do not write %15 (kernel program). -/
theorem PB_keep_k15 (V : Valuation Cert.KernelIdeal.τ Cert.KernelIdeal.sig (Elt F)) :
    StableHlo.after (hostOps0b ++ Cert.KernelIdeal.Gen.hostOps0_1 ++ Cert.KernelIdeal.Gen.hostOps0_2 ++ Cert.KernelIdeal.Gen.hostOps0_3) V (Proc.devRef .tc Cert.KernelIdeal.main_v15) = V (Proc.devRef .tc Cert.KernelIdeal.main_v15) := by
  simp only [StableHlo.after_append]
  after_results_simp

set_option maxHeartbeats 4000000 in
set_option maxRecDepth 8192 in
/-- The operations after %15 do not write %15 (reference). -/
theorem PB_keep_r15 (V : Valuation Cert.ReferenceIdeal.τ Cert.ReferenceIdeal.sig (Elt F)) :
    StableHlo.after ch0b V (Proc.devRef .tc Cert.ReferenceIdeal.main_v15) = V (Proc.devRef .tc Cert.ReferenceIdeal.main_v15) := by
  after_results_simp

set_option maxHeartbeats 16000000 in
set_option maxRecDepth 8192 in
/-- %21, %30, %34, %38, %44 as functions of %11. -/
theorem PB1 (Vk : Valuation Cert.KernelIdeal.τ Cert.KernelIdeal.sig (Elt F)) (Vr : Valuation Cert.ReferenceIdeal.τ Cert.ReferenceIdeal.sig (Elt F))
    (h11v : (Vk (Proc.devRef .tc Cert.KernelIdeal.main_v11) : FVec F Cert.KernelIdeal.S1x92 .f32) = Vr (Proc.devRef .tc Cert.ReferenceIdeal.main_v11)) :
    ((StableHlo.after (hostOps0b ++ Cert.KernelIdeal.Gen.hostOps0_1 ++ Cert.KernelIdeal.Gen.hostOps0_2 ++ Cert.KernelIdeal.Gen.hostOps0_3) Vk (Proc.devRef .tc Cert.KernelIdeal.main_v21) : FVec F Cert.KernelIdeal.S1x26 .f32) = StableHlo.after ch0b Vr (Proc.devRef .tc Cert.ReferenceIdeal.main_v21))
    ∧ ((StableHlo.after (hostOps0b ++ Cert.KernelIdeal.Gen.hostOps0_1 ++ Cert.KernelIdeal.Gen.hostOps0_2 ++ Cert.KernelIdeal.Gen.hostOps0_3) Vk (Proc.devRef .tc Cert.KernelIdeal.main_v30) : FVec F Cert.KernelIdeal.S1x20 .f32) = StableHlo.after ch0b Vr (Proc.devRef .tc Cert.ReferenceIdeal.main_v30))
    ∧ ((StableHlo.after (hostOps0b ++ Cert.KernelIdeal.Gen.hostOps0_1 ++ Cert.KernelIdeal.Gen.hostOps0_2 ++ Cert.KernelIdeal.Gen.hostOps0_3) Vk (Proc.devRef .tc Cert.KernelIdeal.main_v34) : FVec F Cert.KernelIdeal.S1x20 .f32) = StableHlo.after ch0b Vr (Proc.devRef .tc Cert.ReferenceIdeal.main_v34))
    ∧ ((StableHlo.after (hostOps0b ++ Cert.KernelIdeal.Gen.hostOps0_1 ++ Cert.KernelIdeal.Gen.hostOps0_2 ++ Cert.KernelIdeal.Gen.hostOps0_3) Vk (Proc.devRef .tc Cert.KernelIdeal.main_v38) : FVec F Cert.KernelIdeal.S1x20 .f32) = StableHlo.after ch0b Vr (Proc.devRef .tc Cert.ReferenceIdeal.main_v38))
    ∧ ((StableHlo.after (hostOps0b ++ Cert.KernelIdeal.Gen.hostOps0_1 ++ Cert.KernelIdeal.Gen.hostOps0_2 ++ Cert.KernelIdeal.Gen.hostOps0_3) Vk (Proc.devRef .tc Cert.KernelIdeal.main_v44) : FVec F Cert.KernelIdeal.S_ .f32) = StableHlo.after ch0b Vr (Proc.devRef .tc Cert.ReferenceIdeal.main_v44)) := by
  refine ⟨?_, ?_, ?_, ?_, ?_⟩
  · simp only [StableHlo.after_append]
    after_results_simp
    simp only [h11v]
    rfl
  · simp only [StableHlo.after_append]
    after_results_simp
    simp only [h11v]
    rfl
  · simp only [StableHlo.after_append]
    after_results_simp
    simp only [h11v]
    rfl
  · simp only [StableHlo.after_append]
    after_results_simp
    simp only [h11v]
    rfl
  · simp only [StableHlo.after_append]
    after_results_simp
    simp only [h11v]
    rfl

set_option maxHeartbeats 16000000 in
set_option maxRecDepth 8192 in
/-- %56, %60, %63 as functions of %11. -/
theorem PB2 (Vk : Valuation Cert.KernelIdeal.τ Cert.KernelIdeal.sig (Elt F)) (Vr : Valuation Cert.ReferenceIdeal.τ Cert.ReferenceIdeal.sig (Elt F))
    (h11v : (Vk (Proc.devRef .tc Cert.KernelIdeal.main_v11) : FVec F Cert.KernelIdeal.S1x92 .f32) = Vr (Proc.devRef .tc Cert.ReferenceIdeal.main_v11)) :
    ((StableHlo.after (hostOps0b ++ Cert.KernelIdeal.Gen.hostOps0_1 ++ Cert.KernelIdeal.Gen.hostOps0_2 ++ Cert.KernelIdeal.Gen.hostOps0_3) Vk (Proc.devRef .tc Cert.KernelIdeal.main_v56) : FVec F Cert.KernelIdeal.S3 .f32) = StableHlo.after ch0b Vr (Proc.devRef .tc Cert.ReferenceIdeal.main_v56))
    ∧ ((StableHlo.after (hostOps0b ++ Cert.KernelIdeal.Gen.hostOps0_1 ++ Cert.KernelIdeal.Gen.hostOps0_2 ++ Cert.KernelIdeal.Gen.hostOps0_3) Vk (Proc.devRef .tc Cert.KernelIdeal.main_v60) : FVec F Cert.KernelIdeal.S_ .f32) = StableHlo.after ch0b Vr (Proc.devRef .tc Cert.ReferenceIdeal.main_v60))
    ∧ ((StableHlo.after (hostOps0b ++ Cert.KernelIdeal.Gen.hostOps0_1 ++ Cert.KernelIdeal.Gen.hostOps0_2 ++ Cert.KernelIdeal.Gen.hostOps0_3) Vk (Proc.devRef .tc Cert.KernelIdeal.main_v63) : FVec F Cert.KernelIdeal.S_ .f32) = StableHlo.after ch0b Vr (Proc.devRef .tc Cert.ReferenceIdeal.main_v63)) := by
  refine ⟨?_, ?_, ?_⟩
  · simp only [StableHlo.after_append]
    after_results_simp
    simp only [h11v]
    rfl
  · simp only [StableHlo.after_append]
    after_results_simp
    simp only [h11v]
    rfl
  · simp only [StableHlo.after_append]
    after_results_simp
    simp only [h11v]
    rfl

/-! ## The two parts joined -/

/-- The kernel program's four stretches, cut after %15. -/
theorem kernel_cut (V : Valuation Cert.KernelIdeal.τ Cert.KernelIdeal.sig (Elt F)) :
    StableHlo.after (Cert.KernelIdeal.Gen.hostOps0 ++ Cert.KernelIdeal.Gen.hostOps0_1 ++ Cert.KernelIdeal.Gen.hostOps0_2 ++ Cert.KernelIdeal.Gen.hostOps0_3) V = StableHlo.after (hostOps0b ++ Cert.KernelIdeal.Gen.hostOps0_1 ++ Cert.KernelIdeal.Gen.hostOps0_2 ++ Cert.KernelIdeal.Gen.hostOps0_3) (StableHlo.after hostOps0a V) := by
  rw [hostOps0_split]; simp only [StableHlo.after_append]

/-- The reference's first chunk, cut after %15. -/
theorem ref_cut (V : Valuation Cert.ReferenceIdeal.τ Cert.ReferenceIdeal.sig (Elt F)) :
    StableHlo.after Cert.ReferenceIdeal.Hand.ch0 V = StableHlo.after ch0b (StableHlo.after ch0a V) := by
  rw [ch0_split]; simp only [StableHlo.after_append]

set_option maxHeartbeats 4000000 in
/-- %15, %21, %30, %34, %38, %44, %56, %60, %63, in this order: each is the same function of the arguments in both
    programs. -/
theorem P_all (Vk : Valuation Cert.KernelIdeal.τ Cert.KernelIdeal.sig (Elt F)) (Vr : Valuation Cert.ReferenceIdeal.τ Cert.ReferenceIdeal.sig (Elt F))
    (h0 : (Vk (Proc.devRef .tc Cert.KernelIdeal.main_arg0) : FVec F Cert.KernelIdeal.S1x14 .f32) = Vr (Proc.devRef .tc Cert.ReferenceIdeal.main_arg0))
    (h5 : (Vk (Proc.devRef .tc Cert.KernelIdeal.main_arg5) : FVec F Cert.KernelIdeal.S48x14 .f32) = Vr (Proc.devRef .tc Cert.ReferenceIdeal.main_arg5))
    (h6 : (Vk (Proc.devRef .tc Cert.KernelIdeal.main_arg6) : FVec F Cert.KernelIdeal.S48 .f32) = Vr (Proc.devRef .tc Cert.ReferenceIdeal.main_arg6))
    (h7 : (Vk (Proc.devRef .tc Cert.KernelIdeal.main_arg7) : FVec F Cert.KernelIdeal.S72x48 .f32) = Vr (Proc.devRef .tc Cert.ReferenceIdeal.main_arg7))
    (h8 : (Vk (Proc.devRef .tc Cert.KernelIdeal.main_arg8) : FVec F Cert.KernelIdeal.S72 .f32) = Vr (Proc.devRef .tc Cert.ReferenceIdeal.main_arg8))
    (h9 : (Vk (Proc.devRef .tc Cert.KernelIdeal.main_arg9) : FVec F Cert.KernelIdeal.S92x72 .f32) = Vr (Proc.devRef .tc Cert.ReferenceIdeal.main_arg9))
    (h10 : (Vk (Proc.devRef .tc Cert.KernelIdeal.main_arg10) : FVec F Cert.KernelIdeal.S92 .f32) = Vr (Proc.devRef .tc Cert.ReferenceIdeal.main_arg10))
    (h11 : (Vk (Proc.devRef .tc Cert.KernelIdeal.main_arg11) : FVec F Cert.KernelIdeal.S3x72 .f32) = Vr (Proc.devRef .tc Cert.ReferenceIdeal.main_arg11))
    (h12 : (Vk (Proc.devRef .tc Cert.KernelIdeal.main_arg12) : FVec F Cert.KernelIdeal.S3 .f32) = Vr (Proc.devRef .tc Cert.ReferenceIdeal.main_arg12)) :
    ((StableHlo.after (Cert.KernelIdeal.Gen.hostOps0 ++ Cert.KernelIdeal.Gen.hostOps0_1 ++ Cert.KernelIdeal.Gen.hostOps0_2 ++ Cert.KernelIdeal.Gen.hostOps0_3) Vk (Proc.devRef .tc Cert.KernelIdeal.main_v15) : FVec F Cert.KernelIdeal.S1x3 .f32) = StableHlo.after Cert.ReferenceIdeal.Hand.ch0 Vr (Proc.devRef .tc Cert.ReferenceIdeal.main_v15))
    ∧ ((StableHlo.after (Cert.KernelIdeal.Gen.hostOps0 ++ Cert.KernelIdeal.Gen.hostOps0_1 ++ Cert.KernelIdeal.Gen.hostOps0_2 ++ Cert.KernelIdeal.Gen.hostOps0_3) Vk (Proc.devRef .tc Cert.KernelIdeal.main_v21) : FVec F Cert.KernelIdeal.S1x26 .f32) = StableHlo.after Cert.ReferenceIdeal.Hand.ch0 Vr (Proc.devRef .tc Cert.ReferenceIdeal.main_v21))
    ∧ ((StableHlo.after (Cert.KernelIdeal.Gen.hostOps0 ++ Cert.KernelIdeal.Gen.hostOps0_1 ++ Cert.KernelIdeal.Gen.hostOps0_2 ++ Cert.KernelIdeal.Gen.hostOps0_3) Vk (Proc.devRef .tc Cert.KernelIdeal.main_v30) : FVec F Cert.KernelIdeal.S1x20 .f32) = StableHlo.after Cert.ReferenceIdeal.Hand.ch0 Vr (Proc.devRef .tc Cert.ReferenceIdeal.main_v30))
    ∧ ((StableHlo.after (Cert.KernelIdeal.Gen.hostOps0 ++ Cert.KernelIdeal.Gen.hostOps0_1 ++ Cert.KernelIdeal.Gen.hostOps0_2 ++ Cert.KernelIdeal.Gen.hostOps0_3) Vk (Proc.devRef .tc Cert.KernelIdeal.main_v34) : FVec F Cert.KernelIdeal.S1x20 .f32) = StableHlo.after Cert.ReferenceIdeal.Hand.ch0 Vr (Proc.devRef .tc Cert.ReferenceIdeal.main_v34))
    ∧ ((StableHlo.after (Cert.KernelIdeal.Gen.hostOps0 ++ Cert.KernelIdeal.Gen.hostOps0_1 ++ Cert.KernelIdeal.Gen.hostOps0_2 ++ Cert.KernelIdeal.Gen.hostOps0_3) Vk (Proc.devRef .tc Cert.KernelIdeal.main_v38) : FVec F Cert.KernelIdeal.S1x20 .f32) = StableHlo.after Cert.ReferenceIdeal.Hand.ch0 Vr (Proc.devRef .tc Cert.ReferenceIdeal.main_v38))
    ∧ ((StableHlo.after (Cert.KernelIdeal.Gen.hostOps0 ++ Cert.KernelIdeal.Gen.hostOps0_1 ++ Cert.KernelIdeal.Gen.hostOps0_2 ++ Cert.KernelIdeal.Gen.hostOps0_3) Vk (Proc.devRef .tc Cert.KernelIdeal.main_v44) : FVec F Cert.KernelIdeal.S_ .f32) = StableHlo.after Cert.ReferenceIdeal.Hand.ch0 Vr (Proc.devRef .tc Cert.ReferenceIdeal.main_v44))
    ∧ ((StableHlo.after (Cert.KernelIdeal.Gen.hostOps0 ++ Cert.KernelIdeal.Gen.hostOps0_1 ++ Cert.KernelIdeal.Gen.hostOps0_2 ++ Cert.KernelIdeal.Gen.hostOps0_3) Vk (Proc.devRef .tc Cert.KernelIdeal.main_v56) : FVec F Cert.KernelIdeal.S3 .f32) = StableHlo.after Cert.ReferenceIdeal.Hand.ch0 Vr (Proc.devRef .tc Cert.ReferenceIdeal.main_v56))
    ∧ ((StableHlo.after (Cert.KernelIdeal.Gen.hostOps0 ++ Cert.KernelIdeal.Gen.hostOps0_1 ++ Cert.KernelIdeal.Gen.hostOps0_2 ++ Cert.KernelIdeal.Gen.hostOps0_3) Vk (Proc.devRef .tc Cert.KernelIdeal.main_v60) : FVec F Cert.KernelIdeal.S_ .f32) = StableHlo.after Cert.ReferenceIdeal.Hand.ch0 Vr (Proc.devRef .tc Cert.ReferenceIdeal.main_v60))
    ∧ ((StableHlo.after (Cert.KernelIdeal.Gen.hostOps0 ++ Cert.KernelIdeal.Gen.hostOps0_1 ++ Cert.KernelIdeal.Gen.hostOps0_2 ++ Cert.KernelIdeal.Gen.hostOps0_3) Vk (Proc.devRef .tc Cert.KernelIdeal.main_v63) : FVec F Cert.KernelIdeal.S_ .f32) = StableHlo.after Cert.ReferenceIdeal.Hand.ch0 Vr (Proc.devRef .tc Cert.ReferenceIdeal.main_v63)) := by
  obtain ⟨h11, h15⟩ := PA Vk Vr h0 h5 h6 h7 h8 h9 h10 h11 h12
  obtain ⟨b21, b30, b34, b38, b44⟩ := PB1 (StableHlo.after hostOps0a Vk) (StableHlo.after ch0a Vr) h11
  obtain ⟨b56, b60, b63⟩ := PB2 (StableHlo.after hostOps0a Vk) (StableHlo.after ch0a Vr) h11
  rw [kernel_cut, ref_cut]
  refine ⟨?_, b21, b30, b34, b38, b44, b56, b60, b63⟩
  rw [PB_keep_k15, PB_keep_r15]
  exact h15

end Cert.Bridge

end
-- ==== Proof.Bridge.SameWp.lean ====
/-
The write head's parameters. The kernel program's stretches `hostOps0_4` … `hostOps0_7` (%64 … %92) and the
reference's operations %127 … %155 are the same operations, so each result is the same function of the write
head's raw parameters %21.
-/
import proofs.«104005_j27152783245914_2_alg».proof.Proof.Gen.KernelIdeal.Launch
import proofs.«104005_j27152783245914_2_alg».proof.Proof.Ref.Ops
import Idealize.ShloMosaic.Lib.StableHlo.Run
import Idealize.ShloMosaic.Lib.Pipeline.Frame

noncomputable section

namespace Cert.Bridge

open Idealize.ShloMosaic Idealize.ShloMosaic.TcCoe Idealize.SL.Sem

variable {F : FTy → Type} [FloatOps F]

set_option maxHeartbeats 4000000 in
set_option maxRecDepth 8192 in
/-- %67 / %130, the write key. -/
theorem Wp_v67 (Vk : Valuation Cert.KernelIdeal.τ Cert.KernelIdeal.sig (Elt F)) (Vr : Valuation Cert.ReferenceIdeal.τ Cert.ReferenceIdeal.sig (Elt F))
    (h21 : (Vk (Proc.devRef .tc Cert.KernelIdeal.main_v21) : FVec F Cert.KernelIdeal.S1x26 .f32) = Vr (Proc.devRef .tc Cert.ReferenceIdeal.main_v21)) :
    (StableHlo.after (Cert.KernelIdeal.Gen.hostOps0_4 ++ Cert.KernelIdeal.Gen.hostOps0_5 ++ Cert.KernelIdeal.Gen.hostOps0_6 ++ Cert.KernelIdeal.Gen.hostOps0_7) Vk (Proc.devRef .tc Cert.KernelIdeal.main_v67) : FVec F Cert.KernelIdeal.S1x20 .f32) = StableHlo.after Cert.ReferenceIdeal.Hand.ch2 Vr (Proc.devRef .tc Cert.ReferenceIdeal.main_v130) := by
  simp only [StableHlo.after_append]
  after_results_simp
  simp only [h21]
  rfl

set_option maxHeartbeats 4000000 in
set_option maxRecDepth 8192 in
/-- %73 / %136, the write gate. -/
theorem Wp_v73 (Vk : Valuation Cert.KernelIdeal.τ Cert.KernelIdeal.sig (Elt F)) (Vr : Valuation Cert.ReferenceIdeal.τ Cert.ReferenceIdeal.sig (Elt F))
    (h21 : (Vk (Proc.devRef .tc Cert.KernelIdeal.main_v21) : FVec F Cert.KernelIdeal.S1x26 .f32) = Vr (Proc.devRef .tc Cert.ReferenceIdeal.main_v21)) :
    (StableHlo.after (Cert.KernelIdeal.Gen.hostOps0_4 ++ Cert.KernelIdeal.Gen.hostOps0_5 ++ Cert.KernelIdeal.Gen.hostOps0_6 ++ Cert.KernelIdeal.Gen.hostOps0_7) Vk (Proc.devRef .tc Cert.KernelIdeal.main_v73) : FVec F Cert.KernelIdeal.S_ .f32) = StableHlo.after Cert.ReferenceIdeal.Hand.ch2 Vr (Proc.devRef .tc Cert.ReferenceIdeal.main_v136) := by
  simp only [StableHlo.after_append]
  after_results_simp
  simp only [h21]
  rfl

set_option maxHeartbeats 4000000 in
set_option maxRecDepth 8192 in
/-- %85 / %148, the write shift weights. -/
theorem Wp_v85 (Vk : Valuation Cert.KernelIdeal.τ Cert.KernelIdeal.sig (Elt F)) (Vr : Valuation Cert.ReferenceIdeal.τ Cert.ReferenceIdeal.sig (Elt F))
    (h21 : (Vk (Proc.devRef .tc Cert.KernelIdeal.main_v21) : FVec F Cert.KernelIdeal.S1x26 .f32) = Vr (Proc.devRef .tc Cert.ReferenceIdeal.main_v21)) :
    (StableHlo.after (Cert.KernelIdeal.Gen.hostOps0_4 ++ Cert.KernelIdeal.Gen.hostOps0_5 ++ Cert.KernelIdeal.Gen.hostOps0_6 ++ Cert.KernelIdeal.Gen.hostOps0_7) Vk (Proc.devRef .tc Cert.KernelIdeal.main_v85) : FVec F Cert.KernelIdeal.S3 .f32) = StableHlo.after Cert.ReferenceIdeal.Hand.ch2 Vr (Proc.devRef .tc Cert.ReferenceIdeal.main_v148) := by
  simp only [StableHlo.after_append]
  after_results_simp
  simp only [h21]
  rfl

set_option maxHeartbeats 4000000 in
set_option maxRecDepth 8192 in
/-- %89 / %152, the write sharpening exponent. -/
theorem Wp_v89 (Vk : Valuation Cert.KernelIdeal.τ Cert.KernelIdeal.sig (Elt F)) (Vr : Valuation Cert.ReferenceIdeal.τ Cert.ReferenceIdeal.sig (Elt F))
    (h21 : (Vk (Proc.devRef .tc Cert.KernelIdeal.main_v21) : FVec F Cert.KernelIdeal.S1x26 .f32) = Vr (Proc.devRef .tc Cert.ReferenceIdeal.main_v21)) :
    (StableHlo.after (Cert.KernelIdeal.Gen.hostOps0_4 ++ Cert.KernelIdeal.Gen.hostOps0_5 ++ Cert.KernelIdeal.Gen.hostOps0_6 ++ Cert.KernelIdeal.Gen.hostOps0_7) Vk (Proc.devRef .tc Cert.KernelIdeal.main_v89) : FVec F Cert.KernelIdeal.S_ .f32) = StableHlo.after Cert.ReferenceIdeal.Hand.ch2 Vr (Proc.devRef .tc Cert.ReferenceIdeal.main_v152) := by
  simp only [StableHlo.after_append]
  after_results_simp
  simp only [h21]
  rfl

set_option maxHeartbeats 4000000 in
set_option maxRecDepth 8192 in
/-- %92 / %155, the write key strength. -/
theorem Wp_v92 (Vk : Valuation Cert.KernelIdeal.τ Cert.KernelIdeal.sig (Elt F)) (Vr : Valuation Cert.ReferenceIdeal.τ Cert.ReferenceIdeal.sig (Elt F))
    (h21 : (Vk (Proc.devRef .tc Cert.KernelIdeal.main_v21) : FVec F Cert.KernelIdeal.S1x26 .f32) = Vr (Proc.devRef .tc Cert.ReferenceIdeal.main_v21)) :
    (StableHlo.after (Cert.KernelIdeal.Gen.hostOps0_4 ++ Cert.KernelIdeal.Gen.hostOps0_5 ++ Cert.KernelIdeal.Gen.hostOps0_6 ++ Cert.KernelIdeal.Gen.hostOps0_7) Vk (Proc.devRef .tc Cert.KernelIdeal.main_v92) : FVec F Cert.KernelIdeal.S_ .f32) = StableHlo.after Cert.ReferenceIdeal.Hand.ch2 Vr (Proc.devRef .tc Cert.ReferenceIdeal.main_v155) := by
  simp only [StableHlo.after_append]
  after_results_simp
  simp only [h21]
  rfl

end Cert.Bridge

end
-- ==== Proof.Bridge.SameEps.lean ====
/-
The two keys with the stabilising constant added, as the addressing regions take them: in the kernel program's
stretch `hostOps0_8` %94 is the read key %38 plus the constant broadcast, and %96 the write key %67 likewise.
-/
import proofs.«104005_j27152783245914_2_alg».proof.Proof.Gen.KernelIdeal.Launch
import proofs.«104005_j27152783245914_2_alg».proof.Proof.Ref.Ops
import Idealize.ShloMosaic.Lib.StableHlo.Run
import Idealize.ShloMosaic.Lib.Pipeline.Frame

noncomputable section

namespace Cert.Bridge

open Idealize.ShloMosaic Idealize.ShloMosaic.TcCoe Idealize.SL.Sem

variable {F : FTy → Type} [FloatOps F]

/-- %94: the read key plus the broadcast constant. -/
theorem eps_v94 (Vk : Valuation Cert.KernelIdeal.τ Cert.KernelIdeal.sig (Elt F)) :
    (StableHlo.after Cert.KernelIdeal.Gen.hostOps0_8 Vk (Proc.devRef .tc Cert.KernelIdeal.main_v94) : FVec F Cert.KernelIdeal.S1x20 .f32)
      = addf (Vk (Proc.devRef .tc Cert.KernelIdeal.main_v38) : FVec F Cert.KernelIdeal.S1x20 .f32)
          (broadcastInDim Cert.KernelIdeal.S1x20 ![] Cert.KernelIdeal.Gen.bcast_S_S1x20 (constant Cert.KernelIdeal.S_ .f32 0x24E69595#32)) := by
  after_results_simp

/-- %96: the write key plus the broadcast constant. -/
theorem eps_v96 (Vk : Valuation Cert.KernelIdeal.τ Cert.KernelIdeal.sig (Elt F)) :
    (StableHlo.after Cert.KernelIdeal.Gen.hostOps0_8 Vk (Proc.devRef .tc Cert.KernelIdeal.main_v96) : FVec F Cert.KernelIdeal.S1x20 .f32)
      = addf (Vk (Proc.devRef .tc Cert.KernelIdeal.main_v67) : FVec F Cert.KernelIdeal.S1x20 .f32)
          (broadcastInDim Cert.KernelIdeal.S1x20 ![] Cert.KernelIdeal.Gen.bcast_S_S1x20 (constant Cert.KernelIdeal.S_ .f32 0x24E69595#32)) := by
  after_results_simp

end Cert.Bridge

end
-- ==== Proof.Bridge.StationsF.lean ====
/-
Stations of the bridge on the shared host segments, at the ideal floats: what the kernel program's staged contents
hold for the controller's and the two heads' parameters is what the reference's staged contents hold, given that the
two launch memories hold the same arrays at the nine arguments the controller reads.
-/
import proofs.«104005_j27152783245914_2_alg».proof.Proof.Bridge.WalkRef
import proofs.«104005_j27152783245914_2_alg».proof.Proof.KI.Args
import proofs.«104005_j27152783245914_2_alg».proof.Proof.Bridge.SameP
import proofs.«104005_j27152783245914_2_alg».proof.Proof.Bridge.SameWp
import proofs.«104005_j27152783245914_2_alg».proof.Proof.Bridge.SameEps
import Idealize.ShloMosaic.PureOps.Ideal

noncomputable section

namespace Cert.Bridge

open Idealize.ShloMosaic Idealize.ShloMosaic.TcCoe Idealize.SL.Sem

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-! ## After the fourth host stretch / the reference's first chunk: the controller and the read head's parameters -/

set_option maxHeartbeats 1000000 in
/-- %15, %21, %30, %34, %38, %44, %56, %60, %63 in this order: each holds in the kernel program's contents after its
    fourth host stretch what it holds in the reference's contents after its first chunk. -/
theorem st_P_all
    (hA0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (hA5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (hA6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (hA7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (hA8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (hA9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (hA10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (hA11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (hA12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    ((Cert.KernelIdeal.Hand.W4 m ρ c (Proc.devRef .tc Cert.KernelIdeal.main_v15) : FVec Ideal Cert.KernelIdeal.S1x3 .f32) = Cert.ReferenceIdeal.Hand.R0 m' c (Proc.devRef .tc Cert.ReferenceIdeal.main_v15))
    ∧ ((Cert.KernelIdeal.Hand.W4 m ρ c (Proc.devRef .tc Cert.KernelIdeal.main_v21) : FVec Ideal Cert.KernelIdeal.S1x26 .f32) = Cert.ReferenceIdeal.Hand.R0 m' c (Proc.devRef .tc Cert.ReferenceIdeal.main_v21))
    ∧ ((Cert.KernelIdeal.Hand.W4 m ρ c (Proc.devRef .tc Cert.KernelIdeal.main_v30) : FVec Ideal Cert.KernelIdeal.S1x20 .f32) = Cert.ReferenceIdeal.Hand.R0 m' c (Proc.devRef .tc Cert.ReferenceIdeal.main_v30))
    ∧ ((Cert.KernelIdeal.Hand.W4 m ρ c (Proc.devRef .tc Cert.KernelIdeal.main_v34) : FVec Ideal Cert.KernelIdeal.S1x20 .f32) = Cert.ReferenceIdeal.Hand.R0 m' c (Proc.devRef .tc Cert.ReferenceIdeal.main_v34))
    ∧ ((Cert.KernelIdeal.Hand.W4 m ρ c (Proc.devRef .tc Cert.KernelIdeal.main_v38) : FVec Ideal Cert.KernelIdeal.S1x20 .f32) = Cert.ReferenceIdeal.Hand.R0 m' c (Proc.devRef .tc Cert.ReferenceIdeal.main_v38))
    ∧ ((Cert.KernelIdeal.Hand.W4 m ρ c (Proc.devRef .tc Cert.KernelIdeal.main_v44) : FVec Ideal Cert.KernelIdeal.S_ .f32) = Cert.ReferenceIdeal.Hand.R0 m' c (Proc.devRef .tc Cert.ReferenceIdeal.main_v44))
    ∧ ((Cert.KernelIdeal.Hand.W4 m ρ c (Proc.devRef .tc Cert.KernelIdeal.main_v56) : FVec Ideal Cert.KernelIdeal.S3 .f32) = Cert.ReferenceIdeal.Hand.R0 m' c (Proc.devRef .tc Cert.ReferenceIdeal.main_v56))
    ∧ ((Cert.KernelIdeal.Hand.W4 m ρ c (Proc.devRef .tc Cert.KernelIdeal.main_v60) : FVec Ideal Cert.KernelIdeal.S_ .f32) = Cert.ReferenceIdeal.Hand.R0 m' c (Proc.devRef .tc Cert.ReferenceIdeal.main_v60))
    ∧ ((Cert.KernelIdeal.Hand.W4 m ρ c (Proc.devRef .tc Cert.KernelIdeal.main_v63) : FVec Ideal Cert.KernelIdeal.S_ .f32) = Cert.ReferenceIdeal.Hand.R0 m' c (Proc.devRef .tc Cert.ReferenceIdeal.main_v63)) := by
  have e0 : (Cert.KernelIdeal.Hand.W0 m ρ c (Proc.devRef .tc Cert.KernelIdeal.main_arg0) : FVec Ideal Cert.KernelIdeal.S1x14 .f32) = StableHlo.launchContents m' c (Proc.devRef .tc Cert.ReferenceIdeal.main_arg0) := hA0.symm
  have e5 : (Cert.KernelIdeal.Hand.W0 m ρ c (Proc.devRef .tc Cert.KernelIdeal.main_arg5) : FVec Ideal Cert.KernelIdeal.S48x14 .f32) = StableHlo.launchContents m' c (Proc.devRef .tc Cert.ReferenceIdeal.main_arg5) := hA5.symm
  have e6 : (Cert.KernelIdeal.Hand.W0 m ρ c (Proc.devRef .tc Cert.KernelIdeal.main_arg6) : FVec Ideal Cert.KernelIdeal.S48 .f32) = StableHlo.launchContents m' c (Proc.devRef .tc Cert.ReferenceIdeal.main_arg6) := hA6.symm
  have e7 : (Cert.KernelIdeal.Hand.W0 m ρ c (Proc.devRef .tc Cert.KernelIdeal.main_arg7) : FVec Ideal Cert.KernelIdeal.S72x48 .f32) = StableHlo.launchContents m' c (Proc.devRef .tc Cert.ReferenceIdeal.main_arg7) := hA7.symm
  have e8 : (Cert.KernelIdeal.Hand.W0 m ρ c (Proc.devRef .tc Cert.KernelIdeal.main_arg8) : FVec Ideal Cert.KernelIdeal.S72 .f32) = StableHlo.launchContents m' c (Proc.devRef .tc Cert.ReferenceIdeal.main_arg8) := hA8.symm
  have e9 : (Cert.KernelIdeal.Hand.W0 m ρ c (Proc.devRef .tc Cert.KernelIdeal.main_arg9) : FVec Ideal Cert.KernelIdeal.S92x72 .f32) = StableHlo.launchContents m' c (Proc.devRef .tc Cert.ReferenceIdeal.main_arg9) := hA9.symm
  have e10 : (Cert.KernelIdeal.Hand.W0 m ρ c (Proc.devRef .tc Cert.KernelIdeal.main_arg10) : FVec Ideal Cert.KernelIdeal.S92 .f32) = StableHlo.launchContents m' c (Proc.devRef .tc Cert.ReferenceIdeal.main_arg10) := hA10.symm
  have e11 : (Cert.KernelIdeal.Hand.W0 m ρ c (Proc.devRef .tc Cert.KernelIdeal.main_arg11) : FVec Ideal Cert.KernelIdeal.S3x72 .f32) = StableHlo.launchContents m' c (Proc.devRef .tc Cert.ReferenceIdeal.main_arg11) := hA11.symm
  have e12 : (Cert.KernelIdeal.Hand.W0 m ρ c (Proc.devRef .tc Cert.KernelIdeal.main_arg12) : FVec Ideal Cert.KernelIdeal.S3 .f32) = StableHlo.launchContents m' c (Proc.devRef .tc Cert.ReferenceIdeal.main_arg12) := hA12.symm
  have h := P_all (F := Ideal) (Cert.KernelIdeal.Hand.W0 m ρ c) (StableHlo.launchContents m' c) e0 e5 e6 e7 e8 e9 e10 e11 e12
  simp only [StableHlo.after_append] at h
  exact h

/-! ## After the eighth host stretch / the reference's chunk 2: the write head's parameters -/

/-- The write head's raw parameters %21 at the stages the write head's chain starts from. -/
private theorem h21_1b
    (h21 : (Cert.KernelIdeal.Hand.W4 m ρ c (Proc.devRef .tc Cert.KernelIdeal.main_v21) : FVec Ideal Cert.KernelIdeal.S1x26 .f32) = Cert.ReferenceIdeal.Hand.R0 m' c (Proc.devRef .tc Cert.ReferenceIdeal.main_v21)) :
    (Cert.KernelIdeal.Hand.W4 m ρ c (Proc.devRef .tc Cert.KernelIdeal.main_v21) : FVec Ideal Cert.KernelIdeal.S1x26 .f32) = Cert.ReferenceIdeal.Hand.R1b m' c (Proc.devRef .tc Cert.ReferenceIdeal.main_v21) :=
  h21.trans (rk_0_1b m' c Cert.ReferenceIdeal.main_v21).symm

/-- %67 / %130, the write key. -/
theorem st_Wp67
    (h21 : (Cert.KernelIdeal.Hand.W4 m ρ c (Proc.devRef .tc Cert.KernelIdeal.main_v21) : FVec Ideal Cert.KernelIdeal.S1x26 .f32) = Cert.ReferenceIdeal.Hand.R0 m' c (Proc.devRef .tc Cert.ReferenceIdeal.main_v21)) :
    (Cert.KernelIdeal.Hand.W8 m ρ c (Proc.devRef .tc Cert.KernelIdeal.main_v67) : FVec Ideal Cert.KernelIdeal.S1x20 .f32) = Cert.ReferenceIdeal.Hand.R2 m' c (Proc.devRef .tc Cert.ReferenceIdeal.main_v130) := by
  have h := Wp_v67 (F := Ideal) (Cert.KernelIdeal.Hand.W4 m ρ c) (Cert.ReferenceIdeal.Hand.R1b m' c) (h21_1b m ρ m' c h21)
  simp only [StableHlo.after_append] at h
  exact h

/-- %73 / %136, the write gate. -/
theorem st_Wp73
    (h21 : (Cert.KernelIdeal.Hand.W4 m ρ c (Proc.devRef .tc Cert.KernelIdeal.main_v21) : FVec Ideal Cert.KernelIdeal.S1x26 .f32) = Cert.ReferenceIdeal.Hand.R0 m' c (Proc.devRef .tc Cert.ReferenceIdeal.main_v21)) :
    (Cert.KernelIdeal.Hand.W8 m ρ c (Proc.devRef .tc Cert.KernelIdeal.main_v73) : FVec Ideal Cert.KernelIdeal.S_ .f32) = Cert.ReferenceIdeal.Hand.R2 m' c (Proc.devRef .tc Cert.ReferenceIdeal.main_v136) := by
  have h := Wp_v73 (F := Ideal) (Cert.KernelIdeal.Hand.W4 m ρ c) (Cert.ReferenceIdeal.Hand.R1b m' c) (h21_1b m ρ m' c h21)
  simp only [StableHlo.after_append] at h
  exact h

/-- %85 / %148, the write shift weights. -/
theorem st_Wp85
    (h21 : (Cert.KernelIdeal.Hand.W4 m ρ c (Proc.devRef .tc Cert.KernelIdeal.main_v21) : FVec Ideal Cert.KernelIdeal.S1x26 .f32) = Cert.ReferenceIdeal.Hand.R0 m' c (Proc.devRef .tc Cert.ReferenceIdeal.main_v21)) :
    (Cert.KernelIdeal.Hand.W8 m ρ c (Proc.devRef .tc Cert.KernelIdeal.main_v85) : FVec Ideal Cert.KernelIdeal.S3 .f32) = Cert.ReferenceIdeal.Hand.R2 m' c (Proc.devRef .tc Cert.ReferenceIdeal.main_v148) := by
  have h := Wp_v85 (F := Ideal) (Cert.KernelIdeal.Hand.W4 m ρ c) (Cert.ReferenceIdeal.Hand.R1b m' c) (h21_1b m ρ m' c h21)
  simp only [StableHlo.after_append] at h
  exact h

/-- %89 / %152, the write sharpening exponent. -/
theorem st_Wp89
    (h21 : (Cert.KernelIdeal.Hand.W4 m ρ c (Proc.devRef .tc Cert.KernelIdeal.main_v21) : FVec Ideal Cert.KernelIdeal.S1x26 .f32) = Cert.ReferenceIdeal.Hand.R0 m' c (Proc.devRef .tc Cert.ReferenceIdeal.main_v21)) :
    (Cert.KernelIdeal.Hand.W8 m ρ c (Proc.devRef .tc Cert.KernelIdeal.main_v89) : FVec Ideal Cert.KernelIdeal.S_ .f32) = Cert.ReferenceIdeal.Hand.R2 m' c (Proc.devRef .tc Cert.ReferenceIdeal.main_v152) := by
  have h := Wp_v89 (F := Ideal) (Cert.KernelIdeal.Hand.W4 m ρ c) (Cert.ReferenceIdeal.Hand.R1b m' c) (h21_1b m ρ m' c h21)
  simp only [StableHlo.after_append] at h
  exact h

/-- %92 / %155, the write key strength. -/
theorem st_Wp92
    (h21 : (Cert.KernelIdeal.Hand.W4 m ρ c (Proc.devRef .tc Cert.KernelIdeal.main_v21) : FVec Ideal Cert.KernelIdeal.S1x26 .f32) = Cert.ReferenceIdeal.Hand.R0 m' c (Proc.devRef .tc Cert.ReferenceIdeal.main_v21)) :
    (Cert.KernelIdeal.Hand.W8 m ρ c (Proc.devRef .tc Cert.KernelIdeal.main_v92) : FVec Ideal Cert.KernelIdeal.S_ .f32) = Cert.ReferenceIdeal.Hand.R2 m' c (Proc.devRef .tc Cert.ReferenceIdeal.main_v155) := by
  have h := Wp_v92 (F := Ideal) (Cert.KernelIdeal.Hand.W4 m ρ c) (Cert.ReferenceIdeal.Hand.R1b m' c) (h21_1b m ρ m' c h21)
  simp only [StableHlo.after_append] at h
  exact h

/-! ## After the ninth host stretch: the keys with the stabilising constant -/

/-- %94: the read key %38 plus the broadcast constant, both read at this stage. -/
theorem st_ke_r :
    (Cert.KernelIdeal.Hand.W9 m ρ c (Proc.devRef .tc Cert.KernelIdeal.main_v94) : FVec Ideal Cert.KernelIdeal.S1x20 .f32)
      = addf (F := Ideal) (Cert.KernelIdeal.Hand.W9 m ρ c (Proc.devRef .tc Cert.KernelIdeal.main_v38) : FVec Ideal Cert.KernelIdeal.S1x20 .f32)
          (broadcastInDim Cert.KernelIdeal.S1x20 ![] Cert.KernelIdeal.Gen.bcast_S_S1x20 (constant Cert.KernelIdeal.S_ .f32 0x24E69595#32)) := by
  rw [Cert.KernelIdeal.Hand.W9_of m ρ c Cert.KernelIdeal.main_v38 (by decide)]
  exact eps_v94 (Cert.KernelIdeal.Hand.W8 m ρ c)

/-- %96: the write key %67 plus the broadcast constant, both read at this stage. -/
theorem st_ke_w :
    (Cert.KernelIdeal.Hand.W9 m ρ c (Proc.devRef .tc Cert.KernelIdeal.main_v96) : FVec Ideal Cert.KernelIdeal.S1x20 .f32)
      = addf (F := Ideal) (Cert.KernelIdeal.Hand.W9 m ρ c (Proc.devRef .tc Cert.KernelIdeal.main_v67) : FVec Ideal Cert.KernelIdeal.S1x20 .f32)
          (broadcastInDim Cert.KernelIdeal.S1x20 ![] Cert.KernelIdeal.Gen.bcast_S_S1x20 (constant Cert.KernelIdeal.S_ .f32 0x24E69595#32)) := by
  rw [Cert.KernelIdeal.Hand.W9_of m ρ c Cert.KernelIdeal.main_v67 (by decide)]
  exact eps_v96 (Cert.KernelIdeal.Hand.W8 m ρ c)

end Cert.Bridge

end
-- ==== Proof.Bridge.Walk.lean ====
import proofs.«104005_j27152783245914_2_alg».proof.Proof.KI.Args

noncomputable section

namespace Cert.Bridge

open Idealize.ShloMosaic Idealize.ShloMosaic.TcCoe Idealize.SL.Sem
open Idealize.ShloMosaic.Pipeline (Dat)
open Cert.KernelIdeal Cert.KernelIdeal.Gen Cert.KernelIdeal.Hand

variable {F : FTy → Type} [FloatOps F]
variable (m : (ℓ : Loc nD τ sig) → Buf (Elt F) ℓ) (ρ : Dev nD → PrngReg)

/-! # The kernel program's buffers from one boundary of @main to a later one

@main of the kernel program is thirty items: twenty-seven stretches of host operations and the three
pallas_calls. `W0` … `W30` are the buffers' contents at the boundaries between items. A stretch changes only the
buffers it writes, and a pallas_call only its output windows' arrays, so over any run of consecutive items a
buffer that none of them writes keeps its contents. Each lemma below says so for one run of items. What it
needs — that the buffer is in none of the run's write-lists — is a finite check on the buffer's name, made
where the lemma is used. -/

/-! ## Before the addressing kernel (items 1 to 9) -/

/-- Items 1 to 4: a buffer none of the four stretches writes holds at boundary 4 what it held at launch. -/
theorem kw_0_4 (c : Dev nD) (r : Ref sig .tc)
    (h1 : r ∉ hostOps0_W := by decide) (h2 : r ∉ hostOps0_1_W := by decide)
    (h3 : r ∉ hostOps0_2_W := by decide) (h4 : r ∉ hostOps0_3_W := by decide) :
    W4 m ρ c (Proc.devRef .tc r) = W0 m ρ c (Proc.devRef .tc r) :=
  (W4_of m ρ c r h4).trans <| (W3_of m ρ c r h3).trans <| (W2_of m ρ c r h2).trans <| W1_of m ρ c r h1

/-- Items 5 to 8: a buffer none of the four stretches writes holds at boundary 8 what it held at 4. -/
theorem kw_4_8 (c : Dev nD) (r : Ref sig .tc)
    (h1 : r ∉ hostOps0_4_W := by decide) (h2 : r ∉ hostOps0_5_W := by decide)
    (h3 : r ∉ hostOps0_6_W := by decide) (h4 : r ∉ hostOps0_7_W := by decide) :
    W8 m ρ c (Proc.devRef .tc r) = W4 m ρ c (Proc.devRef .tc r) :=
  (W8_of m ρ c r h4).trans <| (W7_of m ρ c r h3).trans <| (W6_of m ρ c r h2).trans <| W5_of m ρ c r h1

/-- Item 9, the stretch that makes the two key vectors the addressing kernel reads: a buffer it does not write
    holds at boundary 9 what it held at 8. -/
theorem kw_8_9 (c : Dev nD) (r : Ref sig .tc) (h1 : r ∉ hostOps0_8_W := by decide) :
    W9 m ρ c (Proc.devRef .tc r) = W8 m ρ c (Proc.devRef .tc r) :=
  W9_of m ρ c r h1

/-! ## The addressing kernel (item 10) -/

/-- A buffer that is not the array of any window of the addressing kernel holds at its exit what it held at
    its entry. -/
theorem kw_9_10 (c : Dev nD) (r : Ref sig .tc) (h : r ∉ region0_W := by decide) :
    W10 m ρ c (Proc.devRef .tc r) = W9 m ρ c (Proc.devRef .tc r) :=
  W10_of m ρ c r h

/-- The array of an INPUT window of the addressing kernel (`r`, the array of window `w`) is also unchanged
    through it: the pipeline never writes an input window back. -/
theorem kw_9_10_in (c : Dev nD) (r : Ref sig .tc) (w : Fin cfg0.W)
    (hr : Pipeline.arrRef spec0 w = r := by decide) (hw : (cfg0.win w).isOut = false := by decide) :
    W10 m ρ c (Proc.devRef .tc r) = W9 m ρ c (Proc.devRef .tc r) := by
  subst hr
  exact (W10_arr m ρ c w).trans (((dat0 (V9 m ρ) c).arrAt_in w hw _).trans (A_eq0 (V9 m ρ) c w))

/-- Its three input arrays by name: the memory matrix and the two key vectors. -/
theorem kin_9_10_main_arg3 (c : Dev nD) :
    W10 m ρ c (Proc.devRef .tc main_arg3) = W9 m ρ c (Proc.devRef .tc main_arg3) := kw_9_10_in m ρ c main_arg3 0
theorem kin_9_10_main_v94 (c : Dev nD) :
    W10 m ρ c (Proc.devRef .tc main_v94) = W9 m ρ c (Proc.devRef .tc main_v94) := kw_9_10_in m ρ c main_v94 1
theorem kin_9_10_main_v96 (c : Dev nD) :
    W10 m ρ c (Proc.devRef .tc main_v96) = W9 m ρ c (Proc.devRef .tc main_v96) := kw_9_10_in m ρ c main_v96 2

/-! ## Between the addressing kernel and the read-head kernel (items 11 to 15) -/

/-- Items 11 to 13: a buffer none of the three stretches writes holds at boundary 13 what it held at 10. -/
theorem kw_10_13 (c : Dev nD) (r : Ref sig .tc)
    (h1 : r ∉ hostOps1_W := by decide) (h2 : r ∉ hostOps1_1_W := by decide) (h3 : r ∉ hostOps1_2_W := by decide) :
    W13 m ρ c (Proc.devRef .tc r) = W10 m ρ c (Proc.devRef .tc r) :=
  (W13_of m ρ c r h3).trans <| (W12_of m ρ c r h2).trans <| W11_of m ρ c r h1

/-- Items 14 and 15: a buffer neither stretch writes holds at boundary 15 what it held at 13. -/
theorem kw_13_15 (c : Dev nD) (r : Ref sig .tc)
    (h1 : r ∉ hostOps1_3_W := by decide) (h2 : r ∉ hostOps1_4_W := by decide) :
    W15 m ρ c (Proc.devRef .tc r) = W13 m ρ c (Proc.devRef .tc r) :=
  (W15_of m ρ c r h2).trans <| W14_of m ρ c r h1

/-! ## The read-head kernel (item 16) -/

/-- A buffer that is not the array of any window of the read-head kernel holds at its exit what it held at its
    entry. -/
theorem kw_15_16 (c : Dev nD) (r : Ref sig .tc) (h : r ∉ region1_W := by decide) :
    W16 m ρ c (Proc.devRef .tc r) = W15 m ρ c (Proc.devRef .tc r) :=
  W16_of m ρ c r h

/-- The array of an INPUT window of the read-head kernel is also unchanged through it. -/
theorem kw_15_16_in (c : Dev nD) (r : Ref sig .tc) (w : Fin cfg1.W)
    (hr : Pipeline.arrRef spec1 w = r := by decide) (hw : (cfg1.win w).isOut = false := by decide) :
    W16 m ρ c (Proc.devRef .tc r) = W15 m ρ c (Proc.devRef .tc r) := by
  subst hr
  exact (W16_arr m ρ c w).trans (((dat1 (V15 m ρ) c).arrAt_in w hw _).trans (A_eq1 (V15 m ρ) c w))

/-- Its two input arrays by name: the memory matrix and the read-weight column. -/
theorem kin_15_16_main_arg3 (c : Dev nD) :
    W16 m ρ c (Proc.devRef .tc main_arg3) = W15 m ρ c (Proc.devRef .tc main_arg3) := kw_15_16_in m ρ c main_arg3 0
theorem kin_15_16_main_v215 (c : Dev nD) :
    W16 m ρ c (Proc.devRef .tc main_v215) = W15 m ρ c (Proc.devRef .tc main_v215) := kw_15_16_in m ρ c main_v215 1

/-! ## Between the read-head kernel and the update kernel (items 17 to 29) -/

/-- Item 17: a buffer the stretch does not write holds at boundary 17 what it held at 16. -/
theorem kw_16_17 (c : Dev nD) (r : Ref sig .tc) (h1 : r ∉ hostOps2_W := by decide) :
    W17 m ρ c (Proc.devRef .tc r) = W16 m ρ c (Proc.devRef .tc r) :=
  W17_of m ρ c r h1

/-- Items 18 to 29: a buffer none of the twelve stretches writes holds at boundary 29 what it held at 17. -/
theorem kw_17_29 (c : Dev nD) (r : Ref sig .tc)
    (h1 : r ∉ hostOps2_1_W := by decide) (h2 : r ∉ hostOps2_2_W := by decide) (h3 : r ∉ hostOps2_3_W := by decide)
    (h4 : r ∉ hostOps2_4_W := by decide) (h5 : r ∉ hostOps2_5_W := by decide) (h6 : r ∉ hostOps2_6_W := by decide)
    (h7 : r ∉ hostOps2_7_W := by decide) (h8 : r ∉ hostOps2_8_W := by decide) (h9 : r ∉ hostOps2_9_W := by decide)
    (h10 : r ∉ hostOps2_10_W := by decide) (h11 : r ∉ hostOps2_11_W := by decide)
    (h12 : r ∉ hostOps2_12_W := by decide) :
    W29 m ρ c (Proc.devRef .tc r) = W17 m ρ c (Proc.devRef .tc r) :=
  (W29_of m ρ c r h12).trans <| (W28_of m ρ c r h11).trans <| (W27_of m ρ c r h10).trans <|
  (W26_of m ρ c r h9).trans <| (W25_of m ρ c r h8).trans <| (W24_of m ρ c r h7).trans <|
  (W23_of m ρ c r h6).trans <| (W22_of m ρ c r h5).trans <| (W21_of m ρ c r h4).trans <|
  (W20_of m ρ c r h3).trans <| (W19_of m ρ c r h2).trans <| W18_of m ρ c r h1

/-! ## The update kernel (item 30) -/

/-- A buffer that is not the array of any window of the update kernel holds at @main's return what it held at
    the kernel's entry. -/
theorem kw_29_30 (c : Dev nD) (r : Ref sig .tc) (h : r ∉ region2_W := by decide) :
    W30 m ρ c (Proc.devRef .tc r) = W29 m ρ c (Proc.devRef .tc r) :=
  W30_of m ρ c r h

/-- The array of an INPUT window of the update kernel is also unchanged through it. -/
theorem kw_29_30_in (c : Dev nD) (r : Ref sig .tc) (w : Fin cfg2.W)
    (hr : Pipeline.arrRef spec2 w = r := by decide) (hw : (cfg2.win w).isOut = false := by decide) :
    W30 m ρ c (Proc.devRef .tc r) = W29 m ρ c (Proc.devRef .tc r) := by
  subst hr
  exact (W30_arr m ρ c w).trans (((dat2 (V29 m ρ) c).arrAt_in w hw _).trans (A_eq2 (V29 m ρ) c w))

/-- Its four input arrays by name: the memory matrix, the write-weight column, the erase vector, the add vector. -/
theorem kin_29_30_main_arg3 (c : Dev nD) :
    W30 m ρ c (Proc.devRef .tc main_arg3) = W29 m ρ c (Proc.devRef .tc main_arg3) := kw_29_30_in m ρ c main_arg3 0
theorem kin_29_30_main_v318 (c : Dev nD) :
    W30 m ρ c (Proc.devRef .tc main_v318) = W29 m ρ c (Proc.devRef .tc main_v318) := kw_29_30_in m ρ c main_v318 1
theorem kin_29_30_main_v30 (c : Dev nD) :
    W30 m ρ c (Proc.devRef .tc main_v30) = W29 m ρ c (Proc.devRef .tc main_v30) := kw_29_30_in m ρ c main_v30 2
theorem kin_29_30_main_v317 (c : Dev nD) :
    W30 m ρ c (Proc.devRef .tc main_v317) = W29 m ρ c (Proc.devRef .tc main_v317) := kw_29_30_in m ρ c main_v317 3

end Cert.Bridge

end
-- ==== Proof.KI.Value0.lean ====
import proofs.«104005_j27152783245914_2_alg».proof.Proof.KI.Region0
import Idealize.ShloMosaic.Lib.Pipeline.Value
import Idealize.ShloMosaic.Lib.ValueIdx
import Idealize.ShloMosaic.Lib.ValueLayout
import Idealize.ShloMosaic.PureOps.Ideal.Laws

/-! # The feature array of the addressing region, as one function of the memory array and the two key rows

Every grid point writes one block of 20000 rows of the [1000000, 3] feature array: per memory row, the norm of the row
shifted by a constant and the shifted row's dot products with the two key rows. The blocks tile the array, so after the
run the array is one function feat of the memory array and the key rows; over the extended reals its three columns read,
at row i, as the square root of a sum of squares and two sums of products over the row's 20 entries. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window cellOf)
open scoped BigOperators

variable {F : FTy → Type} [FloatOps F]

variable (V : (c : Dev nD) → (b : Ref sig .tc) → Buf (Elt F) ((c : Thread nD τ).loc b))

/-! # Region 0's feature array after the run: one function of the memory array and the two key rows -/

open Idealize.ShloMosaic.ValueIdx

theorem zeros2 : (![0, 0] : Fin 2 → Nat) = fun _ => 0 := funext fun a => by fin_cases a <;> rfl

/-- The printed index maps over the grid: point t reads memory rows 20000 t … 20000 t + 19999 and writes the same rows
    of the feature array; the two key rows stay where they are. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The grid point whose block holds row i: the blocks are 20000 rows each. -/
def pointOf (i : S1000000x3.Idx) : Fin cfg0.N :=
  ⟨(i 0).val / 20000, by
    have h : (i 0).val < 1000000 := idx2_lt0 i
    rw [show cfg0.N = 50 from N_0]; omega⟩

/-- Where row i sits inside its block. -/
def inBlock (i : S1000000x3.Idx) : S20000x3.Idx :=
  ix2 (⟨(i 0).val % 20000, Nat.mod_lt _ (by norm_num)⟩ : Fin 20000) (⟨(i 1).val, idx2_lt1 i⟩ : Fin 3)

/-- The body's payload on block t of the memory array M and the key rows kr, kw. -/
def featBlock (M : Vec F S1000000x20 .f32) (kr kw : Vec F S1x20 .f32) (t : Fin cfg0.N) : Vec F S20000x3 .f32 :=
  k0_pay1 (((cfg0.win 0).blk t).view.read (Elt F) M) kr kw

/-- THE FEATURE ARRAY as one function of the memory array and the key rows: at row i, the payload of the block that
    holds row i, read at the row's place in that block. -/
def feat (M : Vec F S1000000x20 .f32) (kr kw : Vec F S1x20 .f32) : Vec F S1000000x3 .f32 :=
  fun i => featBlock M kr kw (pointOf i) (inBlock i)

/-- What point t writes back is block t of feat of the arrays as the region finds them. -/
theorem flushed0_3 (c : Dev nD) (t : Fin cfg0.N) :
    (dat0 V c).flushed 3 t
      = ((cfg0.win 3).blk t).view.read (Elt F) (feat (V c main_arg3) (V c main_v94) (V c main_v96)) := by
  show (cfg0.win 3).cut (grid0.coords t) ((dat0 V c).after 3 t) = _
  rw [after0_3]
  unfold out0_3
  rw [View.canon_unit_zero zeros2]
  simp only [View.ld_unit_zero (S := S20000x20) zeros2, View.ld_unit_zero (S := S1x20) zeros2]
  obtain ⟨e00, e01, e10, e11, e20, e21, e30, e31⟩ := index_facts0 t
  have hk1 : iblk0 V c 1 t = V c main_v94 := by
    funext j
    show V c main_v94 (((cfg0.win 1).blk t).view.emb j) = V c main_v94 j
    congr 1; funext a; apply Fin.ext
    match a with
    | ⟨0, _⟩ => show win0_1.index t (0 : Fin 2) * 1 + 1 * (j 0).val = (j 0).val; omega
    | ⟨1, _⟩ => show win0_1.index t (1 : Fin 2) * 20 + 1 * (j 1).val = (j 1).val; omega
  have hk2 : iblk0 V c 2 t = V c main_v96 := by
    funext j
    show V c main_v96 (((cfg0.win 2).blk t).view.emb j) = V c main_v96 j
    congr 1; funext a; apply Fin.ext
    match a with
    | ⟨0, _⟩ => show win0_2.index t (0 : Fin 2) * 1 + 1 * (j 0).val = (j 0).val; omega
    | ⟨1, _⟩ => show win0_2.index t (1 : Fin 2) * 20 + 1 * (j 1).val = (j 1).val; omega
  rw [hk1, hk2]
  funext y
  have hy0 : (y 0).val < 20000 := idx2_lt0 y
  have hp : pointOf (((cfg0.win 3).blk t).view.emb y) = t := by
    apply Fin.ext
    show (win0_3.index t (0 : Fin 2) * 20000 + 1 * (y 0).val) / 20000 = t.val
    rw [e30]; omega
  have hr : inBlock (((cfg0.win 3).blk t).view.emb y) = y := by
    funext a; apply Fin.ext
    match a with
    | ⟨0, _⟩ => show (win0_3.index t (0 : Fin 2) * 20000 + 1 * (y 0).val) % 20000 = (y 0).val; rw [e30]; omega
    | ⟨1, _⟩ => show win0_3.index t (1 : Fin 2) * 3 + 1 * (y 1).val = (y 1).val; rw [e31]; omega
  show k0_pay1 (iblk0 V c 0 t) (V c main_v94) (V c main_v96) y
    = featBlock (V c main_arg3) (V c main_v94) (V c main_v96) (pointOf (((cfg0.win 3).blk t).view.emb y)) (inBlock (((cfg0.win 3).blk t).view.emb y))
  rw [hp, hr]
  rfl

/-- An index of the feature array is in point t's block iff each coordinate is in the block's range on its axis. -/
theorem mem_blk0_3 (t : Fin cfg0.N) (i : S1000000x3.Idx) :
    i ∈ ((cfg0.win 3).blk t).view.set
      ↔ ∀ a : Fin 2, win0_3.index t a * S20000x3.size a ≤ (i a).val ∧ (i a).val < win0_3.index t a * S20000x3.size a + S20000x3.size a := by
  show i ∈ ((View.whole main_v97).slice (win0_3.rect t)).set ↔ _
  rw [View.set_slice_whole, Rect.mem_set_unit]
  exact Iff.rfl

/-- Every row of the feature array is in the block of the point that holds it. -/
theorem cover0_3_arr (i : S1000000x3.Idx) :
    ∃ t : Fin cfg0.N, (cfg0.win 3).flush t = true ∧ i ∈ ((cfg0.win 3).blk t).view.set := by
  refine ⟨pointOf i, flush0_3 _, ?_⟩
  rw [mem_blk0_3]
  obtain ⟨e00, e01, e10, e11, e20, e21, e30, e31⟩ := index_facts0 (pointOf i)
  have hi1 : (i 1).val < 3 := idx2_lt1 i
  have hpt : (pointOf i).val = (i 0).val / 20000 := rfl
  intro a
  match a with
  | ⟨0, _⟩ =>
    show win0_3.index (pointOf i) (0 : Fin 2) * 20000 ≤ (i 0).val ∧ (i 0).val < win0_3.index (pointOf i) (0 : Fin 2) * 20000 + 20000
    rw [e30, hpt]; omega
  | ⟨1, _⟩ =>
    show win0_3.index (pointOf i) (1 : Fin 2) * 3 ≤ (i 1).val ∧ (i 1).val < win0_3.index (pointOf i) (1 : Fin 2) * 3 + 3
    rw [e31]; omega

/-- THE FEATURE ARRAY after the region's run is feat of the memory array and the two key rows as the region finds them. -/
theorem final0 (c : Dev nD) :
    (dat0 V c).arrAt 3 cfg0.N = feat (V c main_arg3) (V c main_v94) (V c main_v96) :=
  (dat0 V c).arrAt_eq_of_cover 3 (feat (V c main_arg3) (V c main_v94) (V c main_v96))
    (fun t _ => flushed0_3 V c t) cover0_3_arr

/-! ## The feature array read at an index, over the extended reals -/

section AtIdeal

/-- Three [20000,1] columns laid side by side along axis 1 read, at row r and column 0, 1, 2, the first, the second,
    the third column at row r. -/
theorem columns_apply {α : Type} (p0 p1 p2 : S20000x1.Idx → α)
    (h : Shape.Concatenates [S20000x1, S20000x1, S20000x1] S20000x3 1) (r : Fin 20000) :
    concatenate S20000x3 1 [⟨S20000x1, p0⟩, ⟨S20000x1, p1⟩, ⟨S20000x1, p2⟩] h (ix2 r (0 : Fin 3)) = p0 (ix2 r (0 : Fin 1))
    ∧ concatenate S20000x3 1 [⟨S20000x1, p0⟩, ⟨S20000x1, p1⟩, ⟨S20000x1, p2⟩] h (ix2 r (1 : Fin 3)) = p1 (ix2 r (0 : Fin 1))
    ∧ concatenate S20000x3 1 [⟨S20000x1, p0⟩, ⟨S20000x1, p1⟩, ⟨S20000x1, p2⟩] h (ix2 r (2 : Fin 3)) = p2 (ix2 r (0 : Fin 1)) := by
  refine ⟨?_, ?_, ?_⟩
  · refine concatenate_apply_piece (t := S20000x3) (1 : Fin 2) [⟨S20000x1, p0⟩, ⟨S20000x1, p1⟩, ⟨S20000x1, p2⟩] h
      (ix2 r (0 : Fin 3)) 0 (by simp) S20000x1 p0 rfl rfl 0 rfl (ix2 r (0 : Fin 1)) ?_ rfl
    intro b hb
    match b with
    | ⟨0, _⟩ => rfl
    | ⟨1, _⟩ => exact absurd (Fin.ext rfl) hb
  · refine concatenate_apply_piece (t := S20000x3) (1 : Fin 2) [⟨S20000x1, p0⟩, ⟨S20000x1, p1⟩, ⟨S20000x1, p2⟩] h
      (ix2 r (1 : Fin 3)) 1 (by simp) S20000x1 p1 rfl rfl 1 rfl (ix2 r (0 : Fin 1)) ?_ rfl
    intro b hb
    match b with
    | ⟨0, _⟩ => rfl
    | ⟨1, _⟩ => exact absurd (Fin.ext rfl) hb
  · refine concatenate_apply_piece (t := S20000x3) (1 : Fin 2) [⟨S20000x1, p0⟩, ⟨S20000x1, p1⟩, ⟨S20000x1, p2⟩] h
      (ix2 r (2 : Fin 3)) 2 (by simp) S20000x1 p2 rfl rfl 2 rfl (ix2 r (0 : Fin 1)) ?_ rfl
    intro b hb
    match b with
    | ⟨0, _⟩ => rfl
    | ⟨1, _⟩ => exact absurd (Fin.ext rfl) hb

/-- A [20000,20] vector summed along its rows, the sums viewed as a column: at row r, the sum of row r. -/
theorem rowSum_apply (x : FVec Ideal S20000x20 .f32) (h : S20000x20.Reduces [1] S20000) (hφ : FKind.Formats .f32)
    (hacc : (0x00000000#32 : BitVec FTy.f32.bits) = FKind.add.neutral .f32 hφ) (hc : S20000.ShapeCasts S20000x1) (r : Fin 20000) :
    shapeCast S20000x1 (multiReduction .add [1] S20000 x 0x00000000#32 h hφ hacc) hc (ix2 r (0 : Fin 1))
      = ∑ j : Fin 20, x (ix2 r j) := by
  rw [shapeCast_apply _ hc (ix2 r (0 : Fin 1)) (ix1 r) (by
    rw [Shape.rowMajor_val_one, Shape.rowMajor_val_two]
    show r.val = r.val * 1 + 0
    omega)]
  refine (Ideal.multiReduction_add_single x _ h hφ hacc (ix1 r)).trans ?_
  refine Finset.sum_congr rfl fun j _ => congrArg x ?_
  funext a; apply Fin.ext
  match a with
  | ⟨0, _⟩ => rfl
  | ⟨1, _⟩ => rfl

/-- A square root taken elementwise, read at an index. -/
theorem sqrt_apply {s : Shape} {φ : FTy} (x : FVec Ideal s φ) (i : s.Idx) : sqrt x i = Ideal.sqrt (x i) := rfl

/-- The payload's first column at row r of a block B whose row r reads R: the norm of the shifted row. -/
theorem pay_norm (B : Vec Ideal S20000x20 .f32) (kr kw : Vec Ideal S1x20 .f32) (r : Fin 20000)
    (R : Fin 20 → Ideal .f32) (hB : ∀ j, B (ix2 r j) = R j) :
    k0_pay1 B kr kw (ix2 r (0 : Fin 3))
      = Ideal.sqrt (∑ j : Fin 20, (R j + Ideal.ofBits .f32 0x24E69595#32) * (R j + Ideal.ofBits .f32 0x24E69595#32)) := by
  unfold k0_pay1
  dsimp only
  rw [(columns_apply _ _ _ _ r).1, sqrt_apply]
  refine congrArg Ideal.sqrt ((rowSum_apply _ _ _ _ _ r).trans ?_)
  refine Finset.sum_congr rfl fun j _ => ?_
  show (B (ix2 r j) + Ideal.ofBits .f32 0x24E69595#32) * (B (ix2 r j) + Ideal.ofBits .f32 0x24E69595#32) = _
  rw [hB j]

/-- The payload's column 1 (with the first key row) or 2 (with the second) at row r: the shifted row's dot product with
    that key row k, once the column is known to be the row sums of the shifted block times the key row spread over the rows. -/
theorem dot_apply (B : Vec Ideal S20000x20 .f32) (k : Vec Ideal S1x20 .f32) (r : Fin 20000)
    (R : Fin 20 → Ideal .f32) (hB : ∀ j, B (ix2 r j) = R j)
    (h : S20000x20.Reduces [1] S20000) (hφ : FKind.Formats .f32)
    (hacc : (0x00000000#32 : BitVec FTy.f32.bits) = FKind.add.neutral .f32 hφ) (hc : S20000.ShapeCasts S20000x1)
    (hs : S1x20.ShapeCasts S1x20) (hb : S1x20.Broadcasts S20000x20) :
    shapeCast S20000x1 (multiReduction .add [1] S20000
        (mulf (addf B (broadcast S20000x20 (Scalar.ofBits .f32 0x24E69595#32))) (broadcastTo S20000x20 (shapeCast S1x20 k hs) hb))
        0x00000000#32 h hφ hacc) hc (ix2 r (0 : Fin 1))
      = ∑ j : Fin 20, (R j + Ideal.ofBits .f32 0x24E69595#32) * k (ix2 (0 : Fin 1) j) := by
  refine (rowSum_apply _ h hφ hacc hc r).trans ?_
  refine Finset.sum_congr rfl fun j _ => ?_
  show (B (ix2 r j) + Ideal.ofBits .f32 0x24E69595#32) * broadcastTo S20000x20 (shapeCast S1x20 k hs) hb (ix2 r j) = _
  rw [hB j, shapeCast_self]
  refine congrArg ((R j + Ideal.ofBits .f32 0x24E69595#32) * ·) ?_
  refine broadcastTo_apply k hb (ix2 r j) (ix2 (0 : Fin 1) j) fun a => ?_
  match a with
  | ⟨0, _⟩ => rfl
  | ⟨1, _⟩ => rfl

/-- The payload's second column at row r: the shifted row's dot product with the first key row. -/
theorem pay_dot_r (B : Vec Ideal S20000x20 .f32) (kr kw : Vec Ideal S1x20 .f32) (r : Fin 20000)
    (R : Fin 20 → Ideal .f32) (hB : ∀ j, B (ix2 r j) = R j) :
    k0_pay1 B kr kw (ix2 r (1 : Fin 3))
      = ∑ j : Fin 20, (R j + Ideal.ofBits .f32 0x24E69595#32) * kr (ix2 (0 : Fin 1) j) := by
  unfold k0_pay1
  dsimp only
  rw [(columns_apply _ _ _ _ r).2.1]
  exact dot_apply B kr r R hB _ _ _ _ _ _

/-- The payload's third column at row r: the shifted row's dot product with the second key row. -/
theorem pay_dot_w (B : Vec Ideal S20000x20 .f32) (kr kw : Vec Ideal S1x20 .f32) (r : Fin 20000)
    (R : Fin 20 → Ideal .f32) (hB : ∀ j, B (ix2 r j) = R j) :
    k0_pay1 B kr kw (ix2 r (2 : Fin 3))
      = ∑ j : Fin 20, (R j + Ideal.ofBits .f32 0x24E69595#32) * kw (ix2 (0 : Fin 1) j) := by
  unfold k0_pay1
  dsimp only
  rw [(columns_apply _ _ _ _ r).2.2]
  exact dot_apply B kw r R hB _ _ _ _ _ _

/-- The memory block that holds row i, read at that row's place and column j, is the memory array at row i, column j. -/
theorem block_apply (M : Vec Ideal S1000000x20 .f32) (i : Fin 1000000) (c : Fin 3) (j : Fin 20) :
    ((cfg0.win 0).blk (pointOf (ix2 i c))).view.read (Elt Ideal) M
        (ix2 (⟨i.val % 20000, Nat.mod_lt _ (by norm_num)⟩ : Fin 20000) j) = M (ix2 i j) := by
  obtain ⟨e00, e01, -⟩ := index_facts0 (pointOf (ix2 i c))
  have hpt : (pointOf (ix2 i c)).val = i.val / 20000 := rfl
  show M (((cfg0.win 0).blk (pointOf (ix2 i c))).view.emb (ix2 (⟨i.val % 20000, Nat.mod_lt _ (by norm_num)⟩ : Fin 20000) j)) = M (ix2 i j)
  congr 1; funext a; apply Fin.ext
  match a with
  | ⟨0, _⟩ =>
    show win0_0.index (pointOf (ix2 i c)) (0 : Fin 2) * 20000 + 1 * (i.val % 20000) = i.val
    rw [e00, hpt]; omega
  | ⟨1, _⟩ =>
    show win0_0.index (pointOf (ix2 i c)) (1 : Fin 2) * 20 + 1 * j.val = j.val
    rw [e01]; omega

/-- ROW i, COLUMN 0 of the feature array: the norm of memory row i shifted by the constant. -/
theorem feat_norm (M : Vec Ideal S1000000x20 .f32) (kr kw : Vec Ideal S1x20 .f32) (i : Fin 1000000) :
    feat M kr kw (ix2 i (0 : Fin 3))
      = Ideal.sqrt (∑ j : Fin 20, (M (ix2 i j) + Ideal.ofBits .f32 0x24E69595#32) * (M (ix2 i j) + Ideal.ofBits .f32 0x24E69595#32)) := by
  show k0_pay1 (((cfg0.win 0).blk (pointOf (ix2 i (0 : Fin 3)))).view.read (Elt Ideal) M) kr kw
      (ix2 (⟨i.val % 20000, Nat.mod_lt _ (by norm_num)⟩ : Fin 20000) (0 : Fin 3)) = _
  exact pay_norm _ kr kw _ (fun j => M (ix2 i j)) (fun j => block_apply M i 0 j)

/-- ROW i, COLUMN 1: the shifted memory row's dot product with the first key row. -/
theorem feat_dot_r (M : Vec Ideal S1000000x20 .f32) (kr kw : Vec Ideal S1x20 .f32) (i : Fin 1000000) :
    feat M kr kw (ix2 i (1 : Fin 3))
      = ∑ j : Fin 20, (M (ix2 i j) + Ideal.ofBits .f32 0x24E69595#32) * kr (ix2 (0 : Fin 1) j) := by
  show k0_pay1 (((cfg0.win 0).blk (pointOf (ix2 i (1 : Fin 3)))).view.read (Elt Ideal) M) kr kw
      (ix2 (⟨i.val % 20000, Nat.mod_lt _ (by norm_num)⟩ : Fin 20000) (1 : Fin 3)) = _
  exact pay_dot_r _ kr kw _ (fun j => M (ix2 i j)) (fun j => block_apply M i 1 j)

/-- ROW i, COLUMN 2: the shifted memory row's dot product with the second key row. -/
theorem feat_dot_w (M : Vec Ideal S1000000x20 .f32) (kr kw : Vec Ideal S1x20 .f32) (i : Fin 1000000) :
    feat M kr kw (ix2 i (2 : Fin 3))
      = ∑ j : Fin 20, (M (ix2 i j) + Ideal.ofBits .f32 0x24E69595#32) * kw (ix2 (0 : Fin 1) j) := by
  show k0_pay1 (((cfg0.win 0).blk (pointOf (ix2 i (2 : Fin 3)))).view.read (Elt Ideal) M) kr kw
      (ix2 (⟨i.val % 20000, Nat.mod_lt _ (by norm_num)⟩ : Fin 20000) (2 : Fin 3)) = _
  exact pay_dot_w _ kr kw _ (fun j => M (ix2 i j)) (fun j => block_apply M i 2 j)

end AtIdeal

end Cert.KernelIdeal.Hand

end
-- ==== Proof.Bridge.AddrLemmasNorm.lean ====
/-
  The reference's row norm, read at a row.

  The reference divides each of the 1,000,000 rows of a matrix of 20 columns by the row's Euclidean norm. It computes
  the norms as: the matrix times itself element by element, summed along the columns starting from zero, then the
  square root. Read over the extended reals at row `i` this is the square root of the sum, over the twenty columns,
  of the squared entries of that row. The summation along the columns is stated first for any number of rows and
  columns; the row norm is its instance.
-/
import proofs.«104005_j27152783245914_2_alg».proof.Proof.Gen.ReferenceIdeal
import Idealize.ShloMosaic.Lib.IdealHost
import Idealize.ShloMosaic.Lib.Pipeline.Value
import Idealize.ShloMosaic.Lib.ValueIdx
import Idealize.ShloMosaic.PureOps.Ideal.Laws

namespace Cert.Bridge

open Idealize.ShloMosaic Idealize.ShloMosaic.ValueIdx
open scoped BigOperators

/-- The host's square root at an index is the extended reals' square root of the element there. -/
theorem hostSqrt_apply {s : Shape} {φ : FTy} (x : FVec Ideal s φ) (i : s.Idx) :
    Host.sqrt x i = Ideal.sqrt (x i) := rfl

/-- An `n × k` array summed along its columns, starting from the scalar zero: at row `i` the result is the sum of
    that row's `k` entries. The index the summation inserts for column `q` of row `i` is the pair `(i, q)`. -/
theorem hostReduceAdd_cols_zero {n k : ℕ} (x : FVec Ideal ⟨2, ![n, k]⟩ .f32)
    (h' : (⟨2, ![n, k]⟩ : Shape).ReducesTo [1] ⟨1, ![n]⟩) (h : (⟨2, ![n, k]⟩ : Shape).Reduces [1] ⟨1, ![n]⟩)
    (hu : 0 < (⟨0, ![]⟩ : Shape).numel) (i : Fin n) :
    Host.reduceAdd x (constant ⟨0, ![]⟩ .f32 0x00000000#32) h' hu (ix1 i) = ∑ q : Fin k, x (ix2 i q) := by
  rw [hostReduceAdd_apply, Ideal.hostReduceAdd_single h' h, constant_apply, Ideal.ofBits_zero_f32, zero_add]
  exact congrArg (fun f : Fin k → EReal => ∑ q, f q)
    (funext fun q => congrArg x (Shape.idx_ext₂ rfl rfl))

/-- The reference's row norm at row `i`: the square root of the sum of the squares of the row's twenty entries. -/
theorem ref_rownorm_apply (A : FVec Ideal Cert.ReferenceIdeal.S1000000x20 .f32) (i : Fin 1000000) :
    Host.sqrt (Host.reduceAdd (mulf A A) (constant Cert.ReferenceIdeal.S_ .f32 0x00000000#32)
        Cert.ReferenceIdeal.Gen.reducesTo_S1000000x20_S1000000_d1 Cert.ReferenceIdeal.Gen.h_S_) (ix1 i)
      = Ideal.sqrt (∑ j : Fin 20, A (ix2 i j) * A (ix2 i j)) :=
  (hostSqrt_apply _ _).trans <| congrArg Ideal.sqrt <|
    (hostReduceAdd_cols_zero (mulf A A) Cert.ReferenceIdeal.Gen.reducesTo_S1000000x20_S1000000_d1
        (by decide) Cert.ReferenceIdeal.Gen.h_S_ i).trans <|
      congrArg (fun f : Fin 20 → EReal => ∑ j, f j) (funext fun q => mulf_apply A A (ix2 i q))

end Cert.Bridge
-- ==== Proof.Bridge.AddrLemmasDot.lean ====
import proofs.«104005_j27152783245914_2_alg».proof.Proof.Gen.ReferenceIdeal
import Idealize.ShloMosaic.Lib.IdealHost
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

noncomputable section

namespace Cert.Bridge

open Idealize.ShloMosaic Idealize.ShloMosaic.ValueIdx
open scoped BigOperators

/-! # The reference's content-addressing dot product, row by row

The reference multiplies the memory matrix (a million rows of twenty entries) by a key vector stood up as a
column, and flattens the one-column result to a vector. Entry `i` of that vector is the dot product of row
`i` of the matrix with the key: the sum over the twenty columns of the products of the entries. -/

/-- The product's dimension numbers are those of a plain rows-by-columns matrix product (contract the left
    operand's second axis with the right operand's first, no batch axis). -/
theorem ref_dot_dims :
    Cert.ReferenceIdeal.dot_S1000000x20_S20x1_S1000000x1_1_0_0_1_n_n = DotDims.plain 1000000 20 1 := rfl

/-- Entry `i` of the flattened product of the matrix `A` with the key `B` transposed to a column is the dot
    product of row `i` of `A` with `B`. -/
theorem ref_dot_apply (A : FVec Ideal Cert.ReferenceIdeal.S1000000x20 .f32) (B : FVec Ideal Cert.ReferenceIdeal.S1x20 .f32) (i : Fin 1000000) :
    shapeCast Cert.ReferenceIdeal.S1000000 (Host.dotGeneral Cert.ReferenceIdeal.dot_S1000000x20_S20x1_S1000000x1_1_0_0_1_n_n none A
        (transpose Cert.ReferenceIdeal.S20x1 [1, 0] B Cert.ReferenceIdeal.Gen.transposes_S1x20_S20x1_1_0)) Cert.ReferenceIdeal.Gen.shapeCasts_S1000000x1_S1000000 (ix1 i)
      = ∑ j : Fin 20, A (ix2 i j) * B (ix2 0 j) := by
  -- the flattened vector at `i` is the one-column matrix at `(i, 0)`: the two row-major positions agree
  rw [shapeCast_apply _ Cert.ReferenceIdeal.Gen.shapeCasts_S1000000x1_S1000000 (ix1 i) (ix2 i (0 : Fin 1)) (by
    rw [Shape.rowMajor_val_two, Shape.rowMajor_val_one]
    show i.val * 1 + 0 = i.val
    omega)]
  -- a plain matrix product at `(i, 0)` is the sum over the contracted coordinate
  rw [ref_dot_dims, StackMember.dotGeneral_plain_apply]
  -- and the column at `(j, 0)` is the key at `(0, j)`
  refine Finset.sum_congr rfl fun j _ => ?_
  rw [transpose_ix2_apply]

end Cert.Bridge

end
-- ==== Proof.Bridge.AddrArray.lean ====
/-
The content addressing of one head, as the kernel program's host code computes it from the per-row features (the row
norms and the row-key dot products, two columns of the packed array) and as the reference computes it from the memory
and the key, each as a term over plain arrays; and, at the ideal floats, the lemma that the two terms are equal.
-/
import proofs.«104005_j27152783245914_2_alg».proof.Proof.Gen.KernelIdeal.Launch
import proofs.«104005_j27152783245914_2_alg».proof.Proof.Gen.ReferenceIdeal
import Idealize.ShloMosaic.Lib.StableHlo.Run
import Idealize.ShloMosaic.Lib.IdealHost
import Idealize.ShloMosaic.Lib.Pipeline.Value
import Idealize.ShloMosaic.Lib.ValueIdxRank1
import proofs.«104005_j27152783245914_2_alg».proof.Proof.Bridge.AddrLemmasNorm
import proofs.«104005_j27152783245914_2_alg».proof.Proof.Bridge.AddrLemmasDot

set_option maxRecDepth 4000

noncomputable section

namespace Cert.Bridge

open Idealize.ShloMosaic Idealize.ShloMosaic.ValueIdx
open scoped BigOperators

/-! ## The two content-addressing computations as terms over plain arrays -/

section KernelSide
open Cert.KernelIdeal Cert.KernelIdeal.Gen
variable {F : FTy → Type} [FloatOps F]

/-- The Euclidean norm of the shifted key, as a one-element vector. -/
def KnormKey (ke : FVec F S1x20 .f32) : FVec F S1 .f32 :=
  Host.sqrt (Host.reduceAdd (mulf ke ke) (constant S_ .f32 0x00000000#32) reducesTo_S1x20_S1_d1 h_S_)

/-- The scaled cosine scores as a row: the dot-product column over the clamped product of norms, times the
    sharpness, the column then read as a row. -/
def Kscore (cn cu : FVec F S1000000x1 .f32) (ke : FVec F S1x20 .f32) (beta : FVec F S_ .f32) : FVec F S1x1000000 .f32 :=
  shapeCast S1x1000000
    (mulf
      (Host.divf cu
        (mulf (maximumf cn (broadcastInDim S1000000x1 ![] bcast_S_S1000000x1 (constant S_ .f32 0x322BCC77#32)))
          (broadcastInDim S1000000x1 ![0, 1] bcast_S1x1_S1000000x1_0_1
            (broadcastInDim S1x1 ![1] bcast_S1_S1x1_1
              (maximumf (KnormKey ke) (broadcastInDim S1 ![] bcast_S_S1 (constant S_ .f32 0x322BCC77#32)))))))
      (broadcastInDim S1000000x1 ![] bcast_S_S1000000x1 beta))
    shapeCasts_S1000000x1_S1x1000000

/-- The maximum of a row, clamped below by minus infinity. -/
def Kmax (sr : FVec F S1x1000000 .f32) : FVec F S1 .f32 :=
  maximumf (broadcastInDim S1 ![] bcast_S_S1 (constant S_ .f32 0xFF800000#32))
    (Host.reduce FloatOps.maximumf sr (constant S_ .f32 0xFF800000#32) reducesTo_S1x1000000_S1_d1 h_S_)

/-- The exponentials of a row shifted by its maximum. -/
def Kexp (sr : FVec F S1x1000000 .f32) : FVec F S1x1000000 .f32 :=
  Host.exp (subf sr (broadcastInDim S1x1000000 ![0, 1] bcast_S1x1_S1x1000000_0_1 (broadcastInDim S1x1 ![0] bcast_S1_S1x1_0 (Kmax sr))))

/-- The softmax of a row. -/
def Ksoft (sr : FVec F S1x1000000 .f32) : FVec F S1x1000000 .f32 :=
  Host.divf (Kexp sr)
    (broadcastInDim S1x1000000 ![0, 1] bcast_S1x1_S1x1000000_0_1
      (broadcastInDim S1x1 ![0] bcast_S1_S1x1_0
        (Host.reduceAdd (Kexp sr) (constant S_ .f32 0x00000000#32) reducesTo_S1x1000000_S1_d1 h_S_)))

/-- The kernel's gated content weights from the two feature columns: the row norms and the row-key dot products. -/
def Kw (cn cu : FVec F S1000000x1 .f32) (ke : FVec F S1x20 .f32) (beta g : FVec F S_ .f32)
    (wprev : FVec F S1x1000000 .f32) : FVec F S1x1000000 .f32 :=
  addf (mulf (broadcastInDim S1x1000000 ![] bcast_S_S1x1000000 g) (Ksoft (Kscore cn cu ke beta)))
    (mulf (broadcastInDim S1x1000000 ![] bcast_S_S1x1000000 (subf (constant S_ .f32 0x3F800000#32) g)) wprev)

end KernelSide

section ReferenceSide
open Cert.ReferenceIdeal Cert.ReferenceIdeal.Gen
variable {F : FTy → Type} [FloatOps F]

/-- The memory and the key, each shifted by the small constant. -/
def Rmem (M : FVec F Cert.KernelIdeal.S1000000x20 .f32) : FVec F S1000000x20 .f32 :=
  addf M (broadcastInDim S1000000x20 ![] bcast_S_S1000000x20 (constant S_ .f32 0x24E69595#32))
def Rkey (k : FVec F Cert.KernelIdeal.S1x20 .f32) : FVec F S1x20 .f32 :=
  addf k (broadcastInDim S1x20 ![] bcast_S_S1x20 (constant S_ .f32 0x24E69595#32))

/-- The scaled cosine scores as a vector. -/
def Rscore (M : FVec F Cert.KernelIdeal.S1000000x20 .f32) (k : FVec F Cert.KernelIdeal.S1x20 .f32) (beta : FVec F Cert.KernelIdeal.S_ .f32) :
    FVec F S1000000 .f32 :=
  mulf
    (Host.divf
      (shapeCast S1000000
        (Host.dotGeneral dot_S1000000x20_S20x1_S1000000x1_1_0_0_1_n_n none (Rmem M)
          (transpose S20x1 [1, 0] (Rkey k) transposes_S1x20_S20x1_1_0))
        shapeCasts_S1000000x1_S1000000)
      (mulf
        (maximumf
          (Host.sqrt (Host.reduceAdd (mulf (Rmem M) (Rmem M)) (constant S_ .f32 0x00000000#32) reducesTo_S1000000x20_S1000000_d1 h_S_))
          (broadcastInDim S1000000 ![] bcast_S_S1000000 (constant S_ .f32 0x322BCC77#32)))
        (broadcastInDim S1000000 ![0] bcast_S1_S1000000_0
          (maximumf
            (Host.sqrt (Host.reduceAdd (mulf (Rkey k) (Rkey k)) (constant S_ .f32 0x00000000#32) reducesTo_S1x20_S1_d1 h_S_))
            (broadcastInDim S1 ![] bcast_S_S1 (constant S_ .f32 0x322BCC77#32))))))
    (broadcastInDim S1000000 ![] bcast_S_S1000000 beta)

/-- The maximum of a vector, clamped below by minus infinity. -/
def Rmax (s : FVec F S1000000 .f32) : FVec F S_ .f32 :=
  maximumf (constant S_ .f32 0xFF800000#32)
    (Host.reduce FloatOps.maximumf s (constant S_ .f32 0xFF800000#32) reducesTo_S1000000_S_d0 h_S_)

/-- The exponentials of a vector shifted by its maximum. -/
def Rexp (s : FVec F S1000000 .f32) : FVec F S1000000 .f32 :=
  Host.exp (subf s (broadcastInDim S1000000 ![0] bcast_S1_S1000000_0 (broadcastInDim S1 ![] bcast_S_S1 (Rmax s))))

/-- The softmax of a vector. -/
def Rsoft (s : FVec F S1000000 .f32) : FVec F S1000000 .f32 :=
  Host.divf (Rexp s)
    (broadcastInDim S1000000 ![0] bcast_S1_S1000000_0
      (broadcastInDim S1 ![] bcast_S_S1
        (Host.reduceAdd (Rexp s) (constant S_ .f32 0x00000000#32) reducesTo_S1000000_S_d0 h_S_)))

/-- The reference's gated content weights from the memory and the key. -/
def Rw (M : FVec F Cert.KernelIdeal.S1000000x20 .f32) (k : FVec F Cert.KernelIdeal.S1x20 .f32) (beta g : FVec F Cert.KernelIdeal.S_ .f32)
    (wprev : FVec F Cert.KernelIdeal.S1x1000000 .f32) : FVec F Cert.KernelIdeal.S1x1000000 .f32 :=
  addf
    (broadcastInDim S1x1000000 ![1] bcast_S1000000_S1x1000000_1
      (mulf (broadcastInDim S1000000 ![] bcast_S_S1000000 g) (Rsoft (Rscore M k beta))))
    (mulf (broadcastInDim S1x1000000 ![] bcast_S_S1x1000000 (subf (constant S_ .f32 0x3F800000#32) g)) wprev)

end ReferenceSide

/-! ## The two computations agree at the extended reals

Index by index both are  g · softmax(s)ᵢ + (1 − g) · wprevᵢ  with  sᵢ = numᵢ / (max(normᵢ, c) · max(‖key‖, c)) · β.
The kernel holds the scores as a column read as a row, the reference as a vector; the reductions over all rows are
the same fold, respectively the same sum, over the row coordinate. -/

section Array
open Cert.KernelIdeal

/-- The host's exponential at an index. -/
theorem hostExp_apply {s : Shape} (x : FVec Ideal s .f32) (i : s.Idx) : Host.exp x i = Ideal.exp (x i) := rfl

/-- Every index of a one-row array is (0, i). -/
theorem exists_row_idx (j : S1x1000000.Idx) : ∃ i : Fin 1000000, j = ix2 0 i :=
  ⟨j 1, by
    funext a
    match a with
    | ⟨0, _⟩ => exact Fin.ext (by have := idx2_lt0 j; show (j 0).val = 0; omega)
    | ⟨1, _⟩ => rfl⟩

theorem redK : S1x1000000.Reduces [1] S1 := by decide

/-- Over the one row, the inserted index is (0, k). -/
theorem liftK (j : S1.Idx) (k : Fin 1000000) : redK.lift j k = ix2 0 k :=
  Shape.idx_ext₂ (by have h : (j 0).val < 1 := (j 0).isLt; show (j 0).val = 0; omega) rfl

variable (x : FVec Ideal S1x1000000 .f32) (y : FVec Ideal Cert.ReferenceIdeal.S1000000 .f32)

/-- The maximum over the one row: the fold of max over the row coordinate. -/
theorem rowmax_fold (init : FVec Ideal S_ .f32) (j : S1.Idx) :
    Host.reduce FloatOps.maximumf x init Gen.reducesTo_S1x1000000_S1_d1 Gen.h_S_ j
      = (Finset.univ : Finset (Fin 1000000)).fold FloatOps.maximumf (init (Shape.Idx.first Gen.h_S_)) (fun k => x (ix2 0 k)) := by
  rw [Host.reduce_eq_fold_single FloatOps.maximumf x init _ redK]
  have key : (x ∘ redK.lift j : Fin 1000000 → EReal) = fun k => x (ix2 0 k) :=
    funext fun k => by show x (redK.lift j k) = _; rw [liftK]
  exact congrArg (fun f : Fin 1000000 → EReal => (Finset.univ : Finset (Fin 1000000)).fold FloatOps.maximumf (init (Shape.Idx.first Gen.h_S_)) f) key

/-- The maximum over the vector: every index reduces to the one scalar index, and the indices are the coordinates. -/
theorem vecmax_fold (init : FVec Ideal S_ .f32) (j' : Cert.ReferenceIdeal.S_.Idx) :
    Host.reduce FloatOps.maximumf y init Cert.ReferenceIdeal.Gen.reducesTo_S1000000_S_d0 Cert.ReferenceIdeal.Gen.h_S_ j'
      = (Finset.univ : Finset (Fin 1000000)).fold FloatOps.maximumf (init (Shape.Idx.first Gen.h_S_)) (fun k => y (ix1 k)) := by
  rw [Host.reduce_eq_fold]
  rw [Finset.filter_true_of_mem fun i _ => funext fun b => b.elim0]
  rw [← Finset.image_univ_of_surjective (idxEquiv1 (n := 1000000)).symm.surjective,
    Finset.fold_image (fun a _ b _ h => (idxEquiv1 (n := 1000000)).symm.injective h)]
  rfl

/-- The sum over the one row. -/
theorem rowsum_sum (init : FVec Ideal S_ .f32) (j : S1.Idx) :
    Host.reduceAdd x init Gen.reducesTo_S1x1000000_S1_d1 Gen.h_S_ j
      = init (Shape.Idx.first Gen.h_S_) + ∑ k : Fin 1000000, x (ix2 0 k) := by
  rw [hostReduceAdd_apply, Ideal.hostReduceAdd_single _ redK]
  have key : (fun k : Fin 1000000 => x (redK.lift j k)) = fun k => x (ix2 0 k) := funext fun k => by rw [liftK]
  exact congrArg (fun f : Fin 1000000 → EReal => init (Shape.Idx.first Gen.h_S_) + ∑ k : Fin 1000000, f k) key

/-- The sum over the vector. -/
theorem vecsum_sum (init : FVec Ideal S_ .f32) (j' : Cert.ReferenceIdeal.S_.Idx) :
    Host.reduceAdd y init Cert.ReferenceIdeal.Gen.reducesTo_S1000000_S_d0 Cert.ReferenceIdeal.Gen.h_S_ j'
      = init (Shape.Idx.first Gen.h_S_) + ∑ k : Fin 1000000, y (ix1 k) := by
  rw [hostReduceAdd_apply, Ideal.hostReduceAdd_total _ (fun b => b.elim0)]
  exact congrArg (init (Shape.Idx.first Gen.h_S_) + ·) (Equiv.sum_comp (idxEquiv1 (n := 1000000)).symm y).symm

/-- A one-element vector broadcast over the row, or over the column, reads its element; so does the vector's. -/
theorem bcastRow_apply (v : FVec Ideal S1 .f32) (i : Fin 1000000) :
    broadcastInDim S1x1000000 ![0, 1] Gen.bcast_S1x1_S1x1000000_0_1 (broadcastInDim S1x1 ![0] Gen.bcast_S1_S1x1_0 v) (ix2 0 i) = v (ix1 0) := by
  rw [broadcastInDim_apply _ _ _ (ix2 0 i) (ix2 0 0) (fun a => by match a with | ⟨0, _⟩ => rfl | ⟨1, _⟩ => rfl),
    broadcastInDim_apply _ _ _ (ix2 0 0) (ix1 0) (fun a => by match a with | ⟨0, _⟩ => rfl)]
theorem bcastCol_apply (v : FVec Ideal S1 .f32) (i : Fin 1000000) :
    broadcastInDim S1000000x1 ![0, 1] Gen.bcast_S1x1_S1000000x1_0_1 (broadcastInDim S1x1 ![1] Gen.bcast_S1_S1x1_1 v) (ix2 i 0) = v (ix1 0) := by
  rw [broadcastInDim_apply _ _ _ (ix2 i 0) (ix2 0 0) (fun a => by match a with | ⟨0, _⟩ => rfl | ⟨1, _⟩ => rfl),
    broadcastInDim_apply _ _ _ (ix2 0 0) (ix1 0) (fun a => by match a with | ⟨0, _⟩ => rfl)]
theorem bcastVec_apply (v : FVec Ideal Cert.ReferenceIdeal.S1 .f32) (i : Fin 1000000) :
    broadcastInDim Cert.ReferenceIdeal.S1000000 ![0] Cert.ReferenceIdeal.Gen.bcast_S1_S1000000_0 v (ix1 i) = v (ix1 0) := by
  rw [broadcastInDim_apply _ _ _ (ix1 i) (ix1 0) (fun a => by match a with | ⟨0, _⟩ => rfl)]

variable (hxy : ∀ i : Fin 1000000, x (ix2 0 i) = y (ix1 i))
include hxy

/-- The row's maximum is the vector's. -/
theorem rowmax_eq_vecmax (init : FVec Ideal S_ .f32) :
    Host.reduce FloatOps.maximumf x init Gen.reducesTo_S1x1000000_S1_d1 Gen.h_S_ (ix1 0)
      = Host.reduce FloatOps.maximumf y init Cert.ReferenceIdeal.Gen.reducesTo_S1000000_S_d0 Cert.ReferenceIdeal.Gen.h_S_ ix0 := by
  have h1 := rowmax_fold x init (ix1 0)
  have h2 := vecmax_fold y init ix0
  have key : (fun k : Fin 1000000 => x (ix2 0 k)) = fun k => y (ix1 k) := funext hxy
  rw [key] at h1
  exact h1.trans h2.symm

/-- The row's sum is the vector's. -/
theorem rowsum_eq_vecsum (x' : FVec Ideal S1x1000000 .f32) (y' : FVec Ideal Cert.ReferenceIdeal.S1000000 .f32)
    (hxy' : ∀ i : Fin 1000000, x' (ix2 0 i) = y' (ix1 i)) (init : FVec Ideal S_ .f32) :
    Host.reduceAdd x' init Gen.reducesTo_S1x1000000_S1_d1 Gen.h_S_ (ix1 0)
      = Host.reduceAdd y' init Cert.ReferenceIdeal.Gen.reducesTo_S1000000_S_d0 Cert.ReferenceIdeal.Gen.h_S_ ix0 := by
  have h1 := rowsum_sum x' init (ix1 0)
  have h2 := vecsum_sum y' init ix0
  have key : (fun k : Fin 1000000 => x' (ix2 0 k)) = fun k => y' (ix1 k) := funext hxy'
  rw [key] at h1
  exact h1.trans h2.symm

/-- The clamped maxima agree. -/
theorem max_eq : Kmax x (ix1 0) = Rmax y ix0 := by
  unfold Kmax Rmax
  rw [maximumf_apply, maximumf_apply, broadcastInDim_scalar_apply, rowmax_eq_vecmax x y hxy]

/-- The shifted exponentials agree. -/
theorem exp_eq (i : Fin 1000000) : Kexp x (ix2 0 i) = Rexp y (ix1 i) := by
  unfold Kexp Rexp
  rw [hostExp_apply, hostExp_apply, subf_apply, subf_apply, bcastRow_apply, bcastVec_apply, broadcastInDim_scalar_apply, hxy i,
    max_eq x y hxy]

/-- The softmaxes agree. -/
theorem soft_eq (i : Fin 1000000) : Ksoft x (ix2 0 i) = Rsoft y (ix1 i) := by
  unfold Ksoft Rsoft
  rw [hostDivf_apply, hostDivf_apply, bcastRow_apply, bcastVec_apply, broadcastInDim_scalar_apply,
    rowsum_eq_vecsum x y hxy (Kexp x) (Rexp y) (exp_eq x y hxy), exp_eq x y hxy i]

end Array

section Score
open Cert.KernelIdeal

variable (M : FVec Ideal S1000000x20 .f32) (k : FVec Ideal S1x20 .f32) (beta g : FVec Ideal S_ .f32)
  (wprev : FVec Ideal S1x1000000 .f32) (cn cu : FVec Ideal S1000000x1 .f32)

/-- The shifted memory and key at an index. -/
theorem Rmem_apply (i : Fin 1000000) (j : Fin 20) : Rmem M (ix2 i j) = M (ix2 i j) + Ideal.ofBits .f32 0x24E69595#32 := by
  unfold Rmem; rw [addf_apply, broadcastInDim_scalar_apply, constant_apply]
theorem Rkey_apply (j : Fin 20) : Rkey k (ix2 0 j) = k (ix2 0 j) + Ideal.ofBits .f32 0x24E69595#32 := by
  unfold Rkey; rw [addf_apply, broadcastInDim_scalar_apply, constant_apply]

/-- The scores agree: the column read as a row against the vector. -/
theorem score_eq
    (hn : ∀ i : Fin 1000000, cn (ix2 i 0) = Ideal.sqrt (∑ j : Fin 20, (M (ix2 i j) + Ideal.ofBits .f32 0x24E69595#32) * (M (ix2 i j) + Ideal.ofBits .f32 0x24E69595#32)))
    (hu : ∀ i : Fin 1000000, cu (ix2 i 0) = ∑ j : Fin 20, (M (ix2 i j) + Ideal.ofBits .f32 0x24E69595#32) * (k (ix2 0 j) + Ideal.ofBits .f32 0x24E69595#32))
    (i : Fin 1000000) :
    Kscore cn cu (Rkey k) beta (ix2 0 i) = Rscore M k beta (ix1 i) := by
  have hd : shapeCast Cert.ReferenceIdeal.S1000000 (Host.dotGeneral Cert.ReferenceIdeal.dot_S1000000x20_S20x1_S1000000x1_1_0_0_1_n_n none (Rmem M)
      (transpose Cert.ReferenceIdeal.S20x1 [1, 0] (Rkey k) Cert.ReferenceIdeal.Gen.transposes_S1x20_S20x1_1_0)) Cert.ReferenceIdeal.Gen.shapeCasts_S1000000x1_S1000000 (ix1 i)
      = cu (ix2 i 0) := by
    rw [ref_dot_apply, hu i]
    exact congrArg (fun f : Fin 20 → EReal => ∑ j : Fin 20, f j) (funext fun j => by rw [Rmem_apply, Rkey_apply])
  have hr : Host.sqrt (Host.reduceAdd (mulf (Rmem M) (Rmem M)) (constant Cert.ReferenceIdeal.S_ .f32 0x00000000#32) Cert.ReferenceIdeal.Gen.reducesTo_S1000000x20_S1000000_d1 Cert.ReferenceIdeal.Gen.h_S_) (ix1 i)
      = cn (ix2 i 0) := by
    rw [ref_rownorm_apply, hn i]
    exact congrArg (fun f : Fin 20 → EReal => Ideal.sqrt (∑ j : Fin 20, f j)) (funext fun j => by rw [Rmem_apply])
  unfold Kscore Rscore
  rw [shapeCast_apply _ _ (ix2 0 i) (ix2 i 0) (by rw [Shape.rowMajor_val_two, Shape.rowMajor_val_two]; show i.val * 1 + 0 = 0 * 1000000 + i.val; omega)]
  rw [mulf_apply, mulf_apply, hostDivf_apply, hostDivf_apply, mulf_apply, mulf_apply, maximumf_apply, maximumf_apply]
  rw [hd, hr, bcastCol_apply, bcastVec_apply]
  repeat rw [broadcastInDim_scalar_apply]
  rfl

/-- The same with the shifted key spelt as the kernel's host code spells it. -/
theorem score_eq'
    (hn : ∀ i : Fin 1000000, cn (ix2 i 0) = Ideal.sqrt (∑ j : Fin 20, (M (ix2 i j) + Ideal.ofBits .f32 0x24E69595#32) * (M (ix2 i j) + Ideal.ofBits .f32 0x24E69595#32)))
    (hu : ∀ i : Fin 1000000, cu (ix2 i 0) = ∑ j : Fin 20, (M (ix2 i j) + Ideal.ofBits .f32 0x24E69595#32) * (k (ix2 0 j) + Ideal.ofBits .f32 0x24E69595#32))
    (i : Fin 1000000) :
    Kscore cn cu (addf k (broadcastInDim S1x20 ![] Gen.bcast_S_S1x20 (constant S_ .f32 0x24E69595#32))) beta (ix2 0 i) = Rscore M k beta (ix1 i) :=
  score_eq M k beta cn cu hn hu i

/-- THE ARRAY LEMMA: from the row norms and the row-key dot products as the two columns, the kernel's gated content
    weights are the reference's. -/
theorem addr_cols_eq
    (hn : ∀ i : Fin 1000000, cn (ix2 i 0) = Ideal.sqrt (∑ j : Fin 20, (M (ix2 i j) + Ideal.ofBits .f32 0x24E69595#32) * (M (ix2 i j) + Ideal.ofBits .f32 0x24E69595#32)))
    (hu : ∀ i : Fin 1000000, cu (ix2 i 0) = ∑ j : Fin 20, (M (ix2 i j) + Ideal.ofBits .f32 0x24E69595#32) * (k (ix2 0 j) + Ideal.ofBits .f32 0x24E69595#32)) :
    Kw cn cu (addf k (broadcastInDim S1x20 ![] Gen.bcast_S_S1x20 (constant S_ .f32 0x24E69595#32))) beta g wprev = Rw M k beta g wprev := by
  funext j
  obtain ⟨i, rfl⟩ := exists_row_idx j
  unfold Kw Rw
  rw [addf_apply, addf_apply, mulf_apply, mulf_apply,
    broadcastInDim_apply _ _ _ (ix2 0 i) (ix1 i) (fun a => by match a with | ⟨0, _⟩ => rfl), mulf_apply,
    soft_eq _ _ (score_eq' M k beta cn cu hn hu) i]
  repeat rw [broadcastInDim_scalar_apply]

end Score

end Cert.Bridge
-- ==== Proof.Bridge.AddrHeads.lean ====
/-
The two heads' gated content weights are equal in the two programs, at the ideal floats: each program's host code that
computes them is the corresponding term over plain arrays, and the array lemma compares the two terms.
-/
import proofs.«104005_j27152783245914_2_alg».proof.Proof.Bridge.AddrArray
import proofs.«104005_j27152783245914_2_alg».proof.Proof.Ref.Ops
import Idealize.ShloMosaic.Lib.Pipeline.Frame

set_option maxRecDepth 4000

noncomputable section

namespace Cert.Bridge

open Idealize.ShloMosaic Idealize.ShloMosaic.ValueIdx
open scoped BigOperators

/-! ## The two programs' host stretches as those terms, and the heads' weights equal -/

section Terms
open Idealize.ShloMosaic.TcCoe Idealize.SL.Sem Idealize.ShloMosaic.StableHlo
variable {F : FTy → Type} [FloatOps F]

set_option maxHeartbeats 4000000 in
/-- The kernel program's read head: the gated content weights after the three stretches that follow the first kernel. -/
theorem kernel_read_term (Vk : Valuation Cert.KernelIdeal.τ Cert.KernelIdeal.sig (Elt F)) :
    (after (Cert.KernelIdeal.Gen.hostOps1 ++ Cert.KernelIdeal.Gen.hostOps1_1 ++ Cert.KernelIdeal.Gen.hostOps1_2) Vk (Proc.devRef .tc Cert.KernelIdeal.main_v129) : FVec F Cert.KernelIdeal.S1x1000000 .f32)
      = Kw (extractStridedSlice Cert.KernelIdeal.S1000000x1 ![0, 0] (Vk (Proc.devRef .tc Cert.KernelIdeal.main_v97)) Cert.KernelIdeal.Gen.slices_S1000000x3_S1000000x1_0_0)
           (extractStridedSlice Cert.KernelIdeal.S1000000x1 ![0, 1] (Vk (Proc.devRef .tc Cert.KernelIdeal.main_v97)) Cert.KernelIdeal.Gen.slices_S1000000x3_S1000000x1_0_1)
           (Vk (Proc.devRef .tc Cert.KernelIdeal.main_v94)) (Vk (Proc.devRef .tc Cert.KernelIdeal.main_v63)) (Vk (Proc.devRef .tc Cert.KernelIdeal.main_v44)) (Vk (Proc.devRef .tc Cert.KernelIdeal.main_arg1)) := by
  rw [after_append, after_append]
  after_results_simp
  rfl

set_option maxHeartbeats 16000000 in
/-- The kernel program's write head: the same five stretches on. -/
theorem kernel_write_term (Vk : Valuation Cert.KernelIdeal.τ Cert.KernelIdeal.sig (Elt F)) :
    (after (Cert.KernelIdeal.Gen.hostOps1 ++ Cert.KernelIdeal.Gen.hostOps1_1 ++ Cert.KernelIdeal.Gen.hostOps1_2 ++ Cert.KernelIdeal.Gen.hostOps1_3 ++ Cert.KernelIdeal.Gen.hostOps1_4) Vk (Proc.devRef .tc Cert.KernelIdeal.main_v186) : FVec F Cert.KernelIdeal.S1x1000000 .f32)
      = Kw (extractStridedSlice Cert.KernelIdeal.S1000000x1 ![0, 0] (Vk (Proc.devRef .tc Cert.KernelIdeal.main_v97)) Cert.KernelIdeal.Gen.slices_S1000000x3_S1000000x1_0_0)
           (extractStridedSlice Cert.KernelIdeal.S1000000x1 ![0, 2] (Vk (Proc.devRef .tc Cert.KernelIdeal.main_v97)) Cert.KernelIdeal.Gen.slices_S1000000x3_S1000000x1_0_2)
           (Vk (Proc.devRef .tc Cert.KernelIdeal.main_v96)) (Vk (Proc.devRef .tc Cert.KernelIdeal.main_v92)) (Vk (Proc.devRef .tc Cert.KernelIdeal.main_v73)) (Vk (Proc.devRef .tc Cert.KernelIdeal.main_arg2)) := by
  rw [after_append, after_append, after_append, after_append]
  after_results_simp
  rfl

set_option maxHeartbeats 4000000 in
/-- The reference's read head. -/
theorem ref_read_term (Vr : Valuation Cert.ReferenceIdeal.τ Cert.ReferenceIdeal.sig (Elt F)) :
    (after Cert.ReferenceIdeal.Hand.ch1a Vr (Proc.devRef .tc Cert.ReferenceIdeal.main_v98) : FVec F Cert.KernelIdeal.S1x1000000 .f32)
      = Rw (Vr (Proc.devRef .tc Cert.ReferenceIdeal.main_arg3)) (Vr (Proc.devRef .tc Cert.ReferenceIdeal.main_v38))
           (Vr (Proc.devRef .tc Cert.ReferenceIdeal.main_v63)) (Vr (Proc.devRef .tc Cert.ReferenceIdeal.main_v44)) (Vr (Proc.devRef .tc Cert.ReferenceIdeal.main_arg1)) := by
  after_results_simp
  rfl

set_option maxHeartbeats 4000000 in
/-- The reference's write head. -/
theorem ref_write_term (Vr : Valuation Cert.ReferenceIdeal.τ Cert.ReferenceIdeal.sig (Elt F)) :
    (after Cert.ReferenceIdeal.Hand.ch3a Vr (Proc.devRef .tc Cert.ReferenceIdeal.main_v190) : FVec F Cert.KernelIdeal.S1x1000000 .f32)
      = Rw (Vr (Proc.devRef .tc Cert.ReferenceIdeal.main_arg3)) (Vr (Proc.devRef .tc Cert.ReferenceIdeal.main_v130))
           (Vr (Proc.devRef .tc Cert.ReferenceIdeal.main_v155)) (Vr (Proc.devRef .tc Cert.ReferenceIdeal.main_v136)) (Vr (Proc.devRef .tc Cert.ReferenceIdeal.main_arg2)) := by
  after_results_simp
  rfl

end Terms

section Heads
open Idealize.ShloMosaic.TcCoe Idealize.SL.Sem Idealize.ShloMosaic.StableHlo
open Cert.KernelIdeal

variable (Vk : Valuation Cert.KernelIdeal.τ Cert.KernelIdeal.sig (Elt Ideal)) (Vr : Valuation Cert.ReferenceIdeal.τ Cert.ReferenceIdeal.sig (Elt Ideal))

/-- THE READ HEAD: given equal memory, previous weights, key, sharpness and gate, the shifted key as the host code makes
    it, and the first kernel's features (column 0 the row norms, column 1 the dot products with the shifted read key),
    the two programs' gated content weights are equal. -/
theorem addr_read
    (M : FVec Ideal S1000000x20 .f32) (k ke : FVec Ideal S1x20 .f32) (feat : FVec Ideal S1000000x3 .f32)
    (hMk : (Vk (Proc.devRef .tc main_arg3) : FVec Ideal S1000000x20 .f32) = M)
    (hkk : (Vk (Proc.devRef .tc main_v38) : FVec Ideal S1x20 .f32) = k)
    (hkek : (Vk (Proc.devRef .tc main_v94) : FVec Ideal S1x20 .f32) = ke)
    (hfk : (Vk (Proc.devRef .tc main_v97) : FVec Ideal S1000000x3 .f32) = feat)
    (hM : M = Vr (Proc.devRef .tc Cert.ReferenceIdeal.main_arg3))
    (hw : (Vk (Proc.devRef .tc main_arg1) : FVec Ideal S1x1000000 .f32) = Vr (Proc.devRef .tc Cert.ReferenceIdeal.main_arg1))
    (hk : k = Vr (Proc.devRef .tc Cert.ReferenceIdeal.main_v38))
    (hb : (Vk (Proc.devRef .tc main_v63) : FVec Ideal S_ .f32) = Vr (Proc.devRef .tc Cert.ReferenceIdeal.main_v63))
    (hg : (Vk (Proc.devRef .tc main_v44) : FVec Ideal S_ .f32) = Vr (Proc.devRef .tc Cert.ReferenceIdeal.main_v44))
    (hke : ke = addf k (broadcastInDim S1x20 ![] Gen.bcast_S_S1x20 (constant S_ .f32 0x24E69595#32)))
    (hf0 : ∀ i : Fin 1000000, feat (ix2 i 0)
      = Ideal.sqrt (∑ j : Fin 20, (M (ix2 i j) + Ideal.ofBits .f32 0x24E69595#32) * (M (ix2 i j) + Ideal.ofBits .f32 0x24E69595#32)))
    (hf1 : ∀ i : Fin 1000000, feat (ix2 i 1) = ∑ j : Fin 20, (M (ix2 i j) + Ideal.ofBits .f32 0x24E69595#32) * ke (ix2 0 j)) :
    (after (Gen.hostOps1 ++ Gen.hostOps1_1 ++ Gen.hostOps1_2) Vk (Proc.devRef .tc main_v129) : FVec Ideal S1x1000000 .f32)
      = after Cert.ReferenceIdeal.Hand.ch1a Vr (Proc.devRef .tc Cert.ReferenceIdeal.main_v98) := by
  subst hMk hkk hkek hfk
  rw [kernel_read_term, ref_read_term, ← hM, ← hw, ← hk, ← hb, ← hg, hke]
  refine addr_cols_eq _ _ _ _ _ _ _ (fun i => ?_) (fun i => ?_)
  · exact (extractStridedSlice_apply _ _ _ (ix2 i 0) (ix2 i 0) (fun a => by
      match a with
      | ⟨0, _⟩ => exact (Nat.zero_add _).symm
      | ⟨1, _⟩ => rfl)).trans (hf0 i)
  · refine (extractStridedSlice_apply _ _ _ (ix2 i 0) (ix2 i 1) (fun a => by
      match a with
      | ⟨0, _⟩ => exact (Nat.zero_add _).symm
      | ⟨1, _⟩ => rfl)).trans ((hf1 i).trans ?_)
    exact congrArg (fun f : Fin 20 → EReal => ∑ j : Fin 20, f j)
      (funext fun j => by rw [hke, addf_apply, broadcastInDim_scalar_apply, constant_apply])

/-- THE WRITE HEAD: the same with the write head's key, sharpness, gate and previous weights, and column 2 of the
    features. -/
theorem addr_write
    (M : FVec Ideal S1000000x20 .f32) (k ke : FVec Ideal S1x20 .f32) (feat : FVec Ideal S1000000x3 .f32)
    (hMk : (Vk (Proc.devRef .tc main_arg3) : FVec Ideal S1000000x20 .f32) = M)
    (hkk : (Vk (Proc.devRef .tc main_v67) : FVec Ideal S1x20 .f32) = k)
    (hkek : (Vk (Proc.devRef .tc main_v96) : FVec Ideal S1x20 .f32) = ke)
    (hfk : (Vk (Proc.devRef .tc main_v97) : FVec Ideal S1000000x3 .f32) = feat)
    (hM : M = Vr (Proc.devRef .tc Cert.ReferenceIdeal.main_arg3))
    (hw : (Vk (Proc.devRef .tc main_arg2) : FVec Ideal S1x1000000 .f32) = Vr (Proc.devRef .tc Cert.ReferenceIdeal.main_arg2))
    (hk : k = Vr (Proc.devRef .tc Cert.ReferenceIdeal.main_v130))
    (hb : (Vk (Proc.devRef .tc main_v92) : FVec Ideal S_ .f32) = Vr (Proc.devRef .tc Cert.ReferenceIdeal.main_v155))
    (hg : (Vk (Proc.devRef .tc main_v73) : FVec Ideal S_ .f32) = Vr (Proc.devRef .tc Cert.ReferenceIdeal.main_v136))
    (hke : ke = addf k (broadcastInDim S1x20 ![] Gen.bcast_S_S1x20 (constant S_ .f32 0x24E69595#32)))
    (hf0 : ∀ i : Fin 1000000, feat (ix2 i 0)
      = Ideal.sqrt (∑ j : Fin 20, (M (ix2 i j) + Ideal.ofBits .f32 0x24E69595#32) * (M (ix2 i j) + Ideal.ofBits .f32 0x24E69595#32)))
    (hf2 : ∀ i : Fin 1000000, feat (ix2 i 2) = ∑ j : Fin 20, (M (ix2 i j) + Ideal.ofBits .f32 0x24E69595#32) * ke (ix2 0 j)) :
    (after (Gen.hostOps1 ++ Gen.hostOps1_1 ++ Gen.hostOps1_2 ++ Gen.hostOps1_3 ++ Gen.hostOps1_4) Vk (Proc.devRef .tc main_v186) : FVec Ideal S1x1000000 .f32)
      = after Cert.ReferenceIdeal.Hand.ch3a Vr (Proc.devRef .tc Cert.ReferenceIdeal.main_v190) := by
  subst hMk hkk hkek hfk
  rw [kernel_write_term, ref_write_term, ← hM, ← hw, ← hk, ← hb, ← hg, hke]
  refine addr_cols_eq _ _ _ _ _ _ _ (fun i => ?_) (fun i => ?_)
  · exact (extractStridedSlice_apply _ _ _ (ix2 i 0) (ix2 i 0) (fun a => by
      match a with
      | ⟨0, _⟩ => exact (Nat.zero_add _).symm
      | ⟨1, _⟩ => rfl)).trans (hf0 i)
  · refine (extractStridedSlice_apply _ _ _ (ix2 i 0) (ix2 i 2) (fun a => by
      match a with
      | ⟨0, _⟩ => exact (Nat.zero_add _).symm
      | ⟨1, _⟩ => rfl)).trans ((hf2 i).trans ?_)
    exact congrArg (fun f : Fin 20 → EReal => ∑ j : Fin 20, f j)
      (funext fun j => by rw [hke, addf_apply, broadcastInDim_scalar_apply, constant_apply])

end Heads

end Cert.Bridge
-- ==== Proof.Bridge.StationsG.lean ====
/-
Stations of the bridge at the two heads' gated content weights, at the ideal floats: what the kernel program's staged
contents hold for them, after its host code that follows the first kernel, is what the reference's staged contents hold,
given that the two launch memories hold the same memory array and previous weights and that the heads' parameters
already agree.
-/
import proofs.«104005_j27152783245914_2_alg».proof.Proof.Bridge.Walk
import proofs.«104005_j27152783245914_2_alg».proof.Proof.Bridge.WalkRef
import proofs.«104005_j27152783245914_2_alg».proof.Proof.KI.Value0
import proofs.«104005_j27152783245914_2_alg».proof.Proof.Bridge.AddrHeads

noncomputable section

namespace Cert.Bridge

open Idealize.ShloMosaic Idealize.ShloMosaic.TcCoe Idealize.SL.Sem Idealize.ShloMosaic.ValueIdx
open scoped BigOperators

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-! ## The first kernel's features, and the memory, as held after the first kernel -/

/-- After the first kernel its packed output is the feature function of the memory and the two shifted keys as held
    there. -/
theorem feat_at_W10 :
    (Cert.KernelIdeal.Hand.W10 m ρ c (Proc.devRef .tc Cert.KernelIdeal.main_v97) : FVec Ideal Cert.KernelIdeal.S1000000x3 .f32)
      = Cert.KernelIdeal.Hand.feat (Cert.KernelIdeal.Hand.W10 m ρ c (Proc.devRef .tc Cert.KernelIdeal.main_arg3))
          (Cert.KernelIdeal.Hand.W10 m ρ c (Proc.devRef .tc Cert.KernelIdeal.main_v94))
          (Cert.KernelIdeal.Hand.W10 m ρ c (Proc.devRef .tc Cert.KernelIdeal.main_v96)) := by
  rw [kin_9_10_main_arg3 m ρ c, kin_9_10_main_v94 m ρ c, kin_9_10_main_v96 m ρ c]
  exact (Cert.KernelIdeal.Hand.W10_arr m ρ c 3).trans (Cert.KernelIdeal.Hand.final0 (Cert.KernelIdeal.Hand.V9 m ρ) c)

/-- The memory as held after the first kernel is the launch memory's. -/
theorem mem_at_W10 :
    Cert.KernelIdeal.Hand.W10 m ρ c (Proc.devRef .tc Cert.KernelIdeal.main_arg3)
      = m ((c.tc : Thread Cert.KernelIdeal.nD Cert.KernelIdeal.τ).loc Cert.KernelIdeal.main_arg3) :=
  (kin_9_10_main_arg3 m ρ c).trans ((kw_8_9 m ρ c Cert.KernelIdeal.main_arg3).trans
    ((kw_4_8 m ρ c Cert.KernelIdeal.main_arg3).trans (kw_0_4 m ρ c Cert.KernelIdeal.main_arg3)))

/-- The read head's previous weights likewise. -/
theorem wr_at_W10 :
    Cert.KernelIdeal.Hand.W10 m ρ c (Proc.devRef .tc Cert.KernelIdeal.main_arg1)
      = m ((c.tc : Thread Cert.KernelIdeal.nD Cert.KernelIdeal.τ).loc Cert.KernelIdeal.main_arg1) :=
  (kw_9_10 m ρ c Cert.KernelIdeal.main_arg1).trans ((kw_8_9 m ρ c Cert.KernelIdeal.main_arg1).trans
    ((kw_4_8 m ρ c Cert.KernelIdeal.main_arg1).trans (kw_0_4 m ρ c Cert.KernelIdeal.main_arg1)))

/-- The write head's previous weights likewise. -/
theorem ww_at_W10 :
    Cert.KernelIdeal.Hand.W10 m ρ c (Proc.devRef .tc Cert.KernelIdeal.main_arg2)
      = m ((c.tc : Thread Cert.KernelIdeal.nD Cert.KernelIdeal.τ).loc Cert.KernelIdeal.main_arg2) :=
  (kw_9_10 m ρ c Cert.KernelIdeal.main_arg2).trans ((kw_8_9 m ρ c Cert.KernelIdeal.main_arg2).trans
    ((kw_4_8 m ρ c Cert.KernelIdeal.main_arg2).trans (kw_0_4 m ρ c Cert.KernelIdeal.main_arg2)))

/-! ## The read head's gated content weights -/

/-- k%129 = r%98, from the memory's and the previous read weights' equality at launch and the read head's key, gate and
    sharpness already equal. -/
theorem st_wg_r
    (hA3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (hA1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h38 : (Cert.KernelIdeal.Hand.W4 m ρ c (Proc.devRef .tc Cert.KernelIdeal.main_v38) : FVec Ideal Cert.KernelIdeal.S1x20 .f32) = Cert.ReferenceIdeal.Hand.R0 m' c (Proc.devRef .tc Cert.ReferenceIdeal.main_v38))
    (h44 : (Cert.KernelIdeal.Hand.W4 m ρ c (Proc.devRef .tc Cert.KernelIdeal.main_v44) : FVec Ideal Cert.KernelIdeal.S_ .f32) = Cert.ReferenceIdeal.Hand.R0 m' c (Proc.devRef .tc Cert.ReferenceIdeal.main_v44))
    (h63 : (Cert.KernelIdeal.Hand.W4 m ρ c (Proc.devRef .tc Cert.KernelIdeal.main_v63) : FVec Ideal Cert.KernelIdeal.S_ .f32) = Cert.ReferenceIdeal.Hand.R0 m' c (Proc.devRef .tc Cert.ReferenceIdeal.main_v63))
    (hke : (Cert.KernelIdeal.Hand.W9 m ρ c (Proc.devRef .tc Cert.KernelIdeal.main_v94) : FVec Ideal Cert.KernelIdeal.S1x20 .f32)
      = addf (F := Ideal) (Cert.KernelIdeal.Hand.W9 m ρ c (Proc.devRef .tc Cert.KernelIdeal.main_v38) : FVec Ideal Cert.KernelIdeal.S1x20 .f32)
          (broadcastInDim Cert.KernelIdeal.S1x20 ![] Cert.KernelIdeal.Gen.bcast_S_S1x20 (constant Cert.KernelIdeal.S_ .f32 0x24E69595#32))) :
    (Cert.KernelIdeal.Hand.W13 m ρ c (Proc.devRef .tc Cert.KernelIdeal.main_v129) : FVec Ideal Cert.KernelIdeal.S1x1000000 .f32) = Cert.ReferenceIdeal.Hand.R1a m' c (Proc.devRef .tc Cert.ReferenceIdeal.main_v98) := by
  have h := addr_read (Cert.KernelIdeal.Hand.W10 m ρ c) (Cert.ReferenceIdeal.Hand.R0 m' c)
    (Cert.KernelIdeal.Hand.W10 m ρ c (Proc.devRef .tc Cert.KernelIdeal.main_arg3))
    (Cert.KernelIdeal.Hand.W10 m ρ c (Proc.devRef .tc Cert.KernelIdeal.main_v38))
    (Cert.KernelIdeal.Hand.W10 m ρ c (Proc.devRef .tc Cert.KernelIdeal.main_v94))
    (Cert.KernelIdeal.Hand.W10 m ρ c (Proc.devRef .tc Cert.KernelIdeal.main_v97))
    rfl rfl rfl rfl
    ((mem_at_W10 m ρ c).trans (hA3.symm.trans (rk_arg_0 m' c Cert.ReferenceIdeal.main_arg3).symm))
    ((wr_at_W10 m ρ c).trans (hA1.symm.trans (rk_arg_0 m' c Cert.ReferenceIdeal.main_arg1).symm))
    ((kw_9_10 m ρ c Cert.KernelIdeal.main_v38).trans ((kw_8_9 m ρ c Cert.KernelIdeal.main_v38).trans
      ((kw_4_8 m ρ c Cert.KernelIdeal.main_v38).trans h38)))
    ((kw_9_10 m ρ c Cert.KernelIdeal.main_v63).trans ((kw_8_9 m ρ c Cert.KernelIdeal.main_v63).trans
      ((kw_4_8 m ρ c Cert.KernelIdeal.main_v63).trans h63)))
    ((kw_9_10 m ρ c Cert.KernelIdeal.main_v44).trans ((kw_8_9 m ρ c Cert.KernelIdeal.main_v44).trans
      ((kw_4_8 m ρ c Cert.KernelIdeal.main_v44).trans h44)))
    ((kin_9_10_main_v94 m ρ c).trans (hke.trans (by rw [kw_9_10 m ρ c Cert.KernelIdeal.main_v38])))
    (fun i => by rw [feat_at_W10 m ρ c]; exact Cert.KernelIdeal.Hand.feat_norm _ _ _ i)
    (fun i => by rw [feat_at_W10 m ρ c]; exact Cert.KernelIdeal.Hand.feat_dot_r _ _ _ i)
  simp only [StableHlo.after_append] at h
  exact h

/-! ## The write head's gated content weights -/

/-- k%186 = r%190, likewise for the write head. -/
theorem st_wg_w
    (hA3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (hA2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h67 : (Cert.KernelIdeal.Hand.W8 m ρ c (Proc.devRef .tc Cert.KernelIdeal.main_v67) : FVec Ideal Cert.KernelIdeal.S1x20 .f32) = Cert.ReferenceIdeal.Hand.R2 m' c (Proc.devRef .tc Cert.ReferenceIdeal.main_v130))
    (h73 : (Cert.KernelIdeal.Hand.W8 m ρ c (Proc.devRef .tc Cert.KernelIdeal.main_v73) : FVec Ideal Cert.KernelIdeal.S_ .f32) = Cert.ReferenceIdeal.Hand.R2 m' c (Proc.devRef .tc Cert.ReferenceIdeal.main_v136))
    (h92 : (Cert.KernelIdeal.Hand.W8 m ρ c (Proc.devRef .tc Cert.KernelIdeal.main_v92) : FVec Ideal Cert.KernelIdeal.S_ .f32) = Cert.ReferenceIdeal.Hand.R2 m' c (Proc.devRef .tc Cert.ReferenceIdeal.main_v155))
    (hke : (Cert.KernelIdeal.Hand.W9 m ρ c (Proc.devRef .tc Cert.KernelIdeal.main_v96) : FVec Ideal Cert.KernelIdeal.S1x20 .f32)
      = addf (F := Ideal) (Cert.KernelIdeal.Hand.W9 m ρ c (Proc.devRef .tc Cert.KernelIdeal.main_v67) : FVec Ideal Cert.KernelIdeal.S1x20 .f32)
          (broadcastInDim Cert.KernelIdeal.S1x20 ![] Cert.KernelIdeal.Gen.bcast_S_S1x20 (constant Cert.KernelIdeal.S_ .f32 0x24E69595#32))) :
    (Cert.KernelIdeal.Hand.W15 m ρ c (Proc.devRef .tc Cert.KernelIdeal.main_v186) : FVec Ideal Cert.KernelIdeal.S1x1000000 .f32) = Cert.ReferenceIdeal.Hand.R3a m' c (Proc.devRef .tc Cert.ReferenceIdeal.main_v190) := by
  have h := addr_write (Cert.KernelIdeal.Hand.W10 m ρ c) (Cert.ReferenceIdeal.Hand.R2 m' c)
    (Cert.KernelIdeal.Hand.W10 m ρ c (Proc.devRef .tc Cert.KernelIdeal.main_arg3))
    (Cert.KernelIdeal.Hand.W10 m ρ c (Proc.devRef .tc Cert.KernelIdeal.main_v67))
    (Cert.KernelIdeal.Hand.W10 m ρ c (Proc.devRef .tc Cert.KernelIdeal.main_v96))
    (Cert.KernelIdeal.Hand.W10 m ρ c (Proc.devRef .tc Cert.KernelIdeal.main_v97))
    rfl rfl rfl rfl
    ((mem_at_W10 m ρ c).trans (hA3.symm.trans (rk_arg_2 m' c Cert.ReferenceIdeal.main_arg3).symm))
    ((ww_at_W10 m ρ c).trans (hA2.symm.trans (rk_arg_2 m' c Cert.ReferenceIdeal.main_arg2).symm))
    ((kw_9_10 m ρ c Cert.KernelIdeal.main_v67).trans ((kw_8_9 m ρ c Cert.KernelIdeal.main_v67).trans h67))
    ((kw_9_10 m ρ c Cert.KernelIdeal.main_v92).trans ((kw_8_9 m ρ c Cert.KernelIdeal.main_v92).trans h92))
    ((kw_9_10 m ρ c Cert.KernelIdeal.main_v73).trans ((kw_8_9 m ρ c Cert.KernelIdeal.main_v73).trans h73))
    ((kin_9_10_main_v96 m ρ c).trans (hke.trans (by rw [kw_9_10 m ρ c Cert.KernelIdeal.main_v67])))
    (fun i => by rw [feat_at_W10 m ρ c]; exact Cert.KernelIdeal.Hand.feat_norm _ _ _ i)
    (fun i => by rw [feat_at_W10 m ρ c]; exact Cert.KernelIdeal.Hand.feat_dot_w _ _ _ i)
  simp only [StableHlo.after_append] at h
  exact h

end Cert.Bridge
-- ==== Proof.KI.Value1.lean ====
import proofs.«104005_j27152783245914_2_alg».proof.Proof.KI.Region1
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window BodyObligation cellOf)
open scoped BigOperators

variable {F : FTy → Type} [FloatOps F]

/-! # What the read-head region leaves in its result array

The region's grid is 2 x 25. Point `t` reads rows `20000 t … 20000 t + 19999` of the memory array and of the weight
column; result block `p` (of 2) is reset at point `25 p`, added into at the 24 points after it, and written back at point
`25 p + 24`. So entry `(p, 0, k)` of the result array is the 25-step running sum of that row of points. -/

/-! ## Where the windows' blocks sit -/

/-- The block index of each window at each point: the inputs' is `(t, 0)`, the result's `(t / 25, 0, 0)`. -/
theorem index1_0 : ∀ t : Fin grid1.N, win1_0.index t 0 = t.val ∧ win1_0.index t 1 = 0 := by decide +kernel
theorem index1_1 : ∀ t : Fin grid1.N, win1_1.index t 0 = t.val ∧ win1_1.index t 1 = 0 := by decide +kernel
theorem index1_2 : ∀ t : Fin grid1.N, win1_2.index t 0 = t.val / 25 ∧ win1_2.index t 1 = 0 ∧ win1_2.index t 2 = 0 := by decide +kernel

/-- Row `a` of block `n` is a row of the array. -/
theorem rowlt (n : ℕ) (hn : n < cfg1.N) (a : ℕ) (ha : a < 20000) : n * 20000 + a < 1000000 := by
  have h : n < 50 := lt_of_lt_of_eq hn N_1
  omega

section Arrays

variable (M : Vec F S1000000x20 .f32) (r : Vec F S1000000x1 .f32)

/-- Block `n` of the memory array: its rows `20000 n … 20000 n + 19999`. -/
def mblk (n : ℕ) (hn : n < cfg1.N) : Vec F S20000x20 .f32 :=
  fun y => M (ix2 ⟨n * 20000 + (y 0).val, rowlt n hn (y 0).val (y 0).isLt⟩ (y 1))

/-- Block `n` of the weight column. -/
def rblk (n : ℕ) (hn : n < cfg1.N) : Vec F S20000x1 .f32 :=
  fun y => r (ix2 ⟨n * 20000 + (y 0).val, rowlt n hn (y 0).val (y 0).isLt⟩ (y 1))

/-- The running contents of the result's staging buffer after point `n`, over two whole arrays: reset at the multiples
    of 25, stepped from the point before elsewhere. -/
def accG : (n : ℕ) → n < cfg1.N → Vec F S1x1x20 .f32
  | 0, hn => out1_A (mblk M 0 hn) (rblk r 0 hn)
  | n + 1, hn =>
    if (n + 1) % 25 = 0 then out1_A (mblk M (n + 1) hn) (rblk r (n + 1) hn)
    else out1_B (mblk M (n + 1) hn) (rblk r (n + 1) hn) (accG n (Nat.lt_of_succ_lt hn))

theorem accG_congr {n n' : ℕ} (e : n = n') (h : n < cfg1.N) (h' : n' < cfg1.N) {i i' : S1x1x20.Idx} (ei : i = i') :
    accG M r n h i = accG M r n' h' i' := by subst e ei; rfl

/-- The point that writes result block `p` back. -/
theorem hpt (i : S2x1x20.Idx) : 25 * (i 0).val + 24 < cfg1.N := by
  have h : (i 0).val < 2 := (i 0).isLt
  rw [show cfg1.N = 50 from N_1]; omega

/-- THE RESULT ARRAY as a function of the two argument arrays: entry `(p, 0, k)` is entry `(0, 0, k)` of the running
    contents after point `25 p + 24`. -/
def part : Vec F S2x1x20 .f32 :=
  fun i => accG M r (25 * (i 0).val + 24) (hpt i) (ix3 (0 : Fin 1) (0 : Fin 1) (⟨(i 2).val, (i 2).isLt⟩ : Fin 20))

end Arrays

variable (V : (c : Dev nD) → (b : Ref sig .tc) → Buf (Elt F) ((c : Thread nD τ).loc b))

/-! ## The windows' blocks are the arrays' blocks -/

theorem iblk1_0_eq (c : Dev nD) (t : Fin cfg1.N) : iblk1 V c 0 t = mblk (V c main_arg3) t.val t.isLt := by
  funext y
  unfold iblk1 mblk
  rw [View.read_apply]
  show (V c main_arg3 : Vec F S1000000x20 .f32) ((win1_0.rect t).emb y) = _
  refine congrArg _ (funext fun a => Fin.ext ?_)
  have h0 : ((win1_0.rect t).emb y 0).val = t.val * 20000 + (y 0).val := by
    rw [Pipeline.Window.rect_emb_val, (index1_0 t).1]; rfl
  have h1 : ((win1_0.rect t).emb y 1).val = (y 1).val := by
    rw [Pipeline.Window.rect_emb_val, (index1_0 t).2]; show 0 * 20 + (y 1).val = _; omega
  match a with
  | ⟨0, _⟩ => exact h0
  | ⟨1, _⟩ => exact h1

theorem iblk1_1_eq (c : Dev nD) (t : Fin cfg1.N) : iblk1 V c 1 t = rblk (V c main_v215) t.val t.isLt := by
  funext y
  unfold iblk1 rblk
  rw [View.read_apply]
  show (V c main_v215 : Vec F S1000000x1 .f32) ((win1_1.rect t).emb y) = _
  refine congrArg _ (funext fun a => Fin.ext ?_)
  have h0 : ((win1_1.rect t).emb y 0).val = t.val * 20000 + (y 0).val := by
    rw [Pipeline.Window.rect_emb_val, (index1_1 t).1]; rfl
  have h1 : ((win1_1.rect t).emb y 1).val = (y 1).val := by
    rw [Pipeline.Window.rect_emb_val, (index1_1 t).2]; show 0 * 1 + (y 1).val = _; omega
  match a with
  | ⟨0, _⟩ => exact h0
  | ⟨1, _⟩ => exact h1

/-- The region's running contents are the arrays' running contents. -/
theorem acc1_eq_accG (c : Dev nD) : ∀ (n : ℕ) (h : n < cfg1.N), acc1 V c n h = accG (V c main_arg3) (V c main_v215) n h
  | 0, h => by
    show out1_A (iblk1 V c 0 ⟨0, h⟩) (iblk1 V c 1 ⟨0, h⟩) = out1_A _ _
    rw [iblk1_0_eq, iblk1_1_eq]
  | n + 1, h => by
    show (if (n + 1) % 25 = 0 then out1_A (iblk1 V c 0 ⟨n + 1, h⟩) (iblk1 V c 1 ⟨n + 1, h⟩)
        else out1_B (iblk1 V c 0 ⟨n + 1, h⟩) (iblk1 V c 1 ⟨n + 1, h⟩) (acc1 V c n (Nat.lt_of_succ_lt h)))
      = (if (n + 1) % 25 = 0 then out1_A _ _ else out1_B _ _ (accG (V c main_arg3) (V c main_v215) n (Nat.lt_of_succ_lt h)))
    rw [acc1_eq_accG c n, iblk1_0_eq, iblk1_1_eq]

/-! ## The result array after the run -/

/-- What a write-back writes is the matching block of `part`: a write-back is at a point `25 p + 24`, its block is
    `(p, 0, 0)`, and the staging buffer there holds the running contents after that point. -/
theorem flushed1_eq (c : Dev nD) (t : Fin cfg1.N) (hf : (cfg1.win 2).flush t = true) :
    (dat1 V c).flushed 2 t = ((cfg1.win 2).blk t).view.read (Elt F) (part (V c main_arg3) (V c main_v215)) := by
  have h24 : t.val % 25 = 24 := (flush1_2 t).mp hf
  funext y
  rw [View.read_apply]
  show (cfg1.win 2).cut (grid1.coords t) ((dat1 V c).after 2 t) y = _
  rw [after1_2, acc1_eq_accG]
  show accG (V c main_arg3) (V c main_v215) t.val t.isLt (win1_2.xinj (grid1.coords t) y)
    = part (V c main_arg3) (V c main_v215) ((win1_2.rect t).emb y)
  have y0 : (y 0).val = 0 := by have h : (y 0).val < 1 := (y 0).isLt; omega
  have y1 : (y 1).val = 0 := by have h : (y 1).val < 1 := (y 1).isLt; omega
  have h0 : ((win1_2.rect t).emb y 0).val = t.val / 25 := by
    rw [Pipeline.Window.rect_emb_val, (index1_2 t).1, y0]; show t.val / 25 * 1 + 0 = _; omega
  have h2 : ((win1_2.rect t).emb y 2).val = (y 2).val := by
    rw [Pipeline.Window.rect_emb_val, (index1_2 t).2.2]; show 0 * 20 + (y 2).val = _; omega
  unfold part
  refine accG_congr _ _ (by rw [h0]; omega) _ _ (funext fun a => Fin.ext ?_)
  match a with
  | ⟨0, _⟩ => exact y0
  | ⟨1, _⟩ => exact y1
  | ⟨2, _⟩ => exact h2.symm

/-- Every entry of the result array is in the block some write-back writes. -/
theorem cover1 (c : Dev nD) (i : ((cfg1.win 2).arr.view.loc (c.tc : Thread nD τ)).2.ty.Idx) :
    ∃ t : Fin cfg1.N, (cfg1.win 2).flush t = true ∧ i ∈ ((cfg1.win 2).blk t).view.set := by
  have i0 : (i 0).val < 2 := (i 0).isLt
  have i1 : (i 1).val < 1 := (i 1).isLt
  have i2 : (i 2).val < 20 := (i 2).isLt
  refine ⟨⟨25 * (i 0).val + 24, hpt i⟩, (flush1_2 _).mpr (by show (25 * (i 0).val + 24) % 25 = 24; omega), ?_⟩
  show i ∈ ((View.whole main_v216).slice (win1_2.rect ⟨25 * (i 0).val + 24, hpt i⟩)).set
  rw [View.set_slice_whole, Rect.mem_set_unit]
  intro a
  match a with
  | ⟨0, _⟩ =>
    show win1_2.index ⟨25 * (i 0).val + 24, hpt i⟩ 0 * 1 ≤ (i 0).val ∧ (i 0).val < win1_2.index ⟨25 * (i 0).val + 24, hpt i⟩ 0 * 1 + 1
    rw [(index1_2 _).1]; show (25 * (i 0).val + 24) / 25 * 1 ≤ (i 0).val ∧ (i 0).val < (25 * (i 0).val + 24) / 25 * 1 + 1; omega
  | ⟨1, _⟩ =>
    show win1_2.index ⟨25 * (i 0).val + 24, hpt i⟩ 1 * 1 ≤ (i 1).val ∧ (i 1).val < win1_2.index ⟨25 * (i 0).val + 24, hpt i⟩ 1 * 1 + 1
    rw [(index1_2 _).2.1]; omega
  | ⟨2, _⟩ =>
    show win1_2.index ⟨25 * (i 0).val + 24, hpt i⟩ 2 * 20 ≤ (i 2).val ∧ (i 2).val < win1_2.index ⟨25 * (i 0).val + 24, hpt i⟩ 2 * 20 + 20
    rw [(index1_2 _).2.2]; omega

/-- THE RESULT ARRAY AFTER THE RUN is `part` of the memory array and the weight column as the region finds them. -/
theorem final1 (c : Dev nD) :
    (dat1 V c).arrAt 2 cfg1.N = part (V c main_arg3) (V c main_v215) :=
  (dat1 V c).arrAt_eq_of_cover 2 (part (V c main_arg3) (V c main_v215)) (flushed1_eq V c) (cover1 c)

/-! ## At the ideal values: the result array is the sum over the rows -/

section AtIdeal

/-- The zero fill reads 0. -/
theorem k1_pay1_apply (i : S1x1x20.Idx) : (k1_pay1 (F := Ideal)) i = 0 := by
  show Ideal.ofBits .f32 0x00000000#32 = 0
  exact Ideal.ofBits_zero_f32

/-- The accumulating payload at an entry: what the buffer held there plus the sum over the block's rows of the
    memory entry times the row's weight. -/
theorem k1_pay2_apply (x0 : Vec Ideal S20000x20 .f32) (x1 : Vec Ideal S20000x1 .f32) (xo : Vec Ideal S1x1x20 .f32) (i : S1x1x20.Idx) :
    k1_pay2 x0 x1 xo i = xo i + ∑ a : Fin 20000, x0 (ix2 a (i 2)) * x1 (ix2 a 0) := by
  unfold k1_pay2
  dsimp only
  rw [addf_apply, shapeCast_self, shapeCast_addUnit_apply ![1, 20]]
  refine congrArg (xo i + ·) ?_
  refine (shapeCast_addUnit_apply (n := 1) ![20] _ _ _).trans ?_
  refine (Ideal.multiReduction_add_single _ _ _ _ _ _).trans ?_
  refine Finset.sum_congr rfl fun a _ => ?_
  rw [mulf_apply]
  congr 1
  · exact congrArg x0 (funext fun b => Fin.ext (match b with | ⟨0, _⟩ => rfl | ⟨1, _⟩ => rfl))
  · refine (broadcastTo_apply _ _ _ (ix2 a 0) (fun b => match b with | ⟨0, _⟩ => (by first | rfl | simp) | ⟨1, _⟩ => (by first | rfl | simp))).trans ?_
    exact congrFun (shapeCast_self _ _) _

variable (M : Vec Ideal S1000000x20 .f32) (r : Vec Ideal S1000000x1 .f32)

/-- Point `n`'s addend at a result entry: the sum over block `n`'s rows (0 past the grid, where it is never read). -/
def term1 (n : ℕ) (i : S1x1x20.Idx) : EReal :=
  if h : n < cfg1.N then ∑ a : Fin 20000, mblk M n h (ix2 a (i 2)) * rblk r n h (ix2 a 0) else 0

theorem accG_A (n : ℕ) (h : n < cfg1.N) (e : n % 25 = 0) : accG M r n h = out1_A (mblk M n h) (rblk r n h) := by
  cases n with
  | zero => rfl
  | succ n => exact (if_pos e).trans rfl

theorem accG_B (n : ℕ) (h : n + 1 < cfg1.N) (e : ¬(n + 1) % 25 = 0) :
    accG M r (n + 1) h = out1_B (mblk M (n + 1) h) (rblk r (n + 1) h) (accG M r n (Nat.lt_of_succ_lt h)) :=
  (if_neg e).trans rfl

/-- Row `a` of block `j` of result block `p`'s run of points. -/
abbrev row1 (p : Fin 2) (j : Fin 25) (a : Fin 20000) : Fin 1000000 := ⟨(p.val * 25 + j.val) * 20000 + a.val, by omega⟩

/-- THE RESULT ARRAY AT AN ENTRY: the sum, over the 25 points of the entry's block and the 20000 rows of each, of the
    memory entry times the row's weight. -/
theorem part_apply (p : Fin 2) (k : Fin 20) :
    part M r (ix3 p 0 k) = ∑ j : Fin 25, ∑ a : Fin 20000, M (ix2 (row1 p j a) k) * r (ix2 (row1 p j a) 0) := by
  have hlt : 25 * p.val + 24 < cfg1.N := by have := p.isLt; rw [show cfg1.N = 50 from N_1]; omega
  show accG M r (25 * p.val + 24) hlt (ix3 (0 : Fin 1) (0 : Fin 1) k) = _
  rw [Pipeline.eq_accAt (accG M r) 25 (fun n h => out1_A (mblk M n h) (rblk r n h))
    (fun n h acc => out1_B (mblk M n h) (rblk r n h) acc) (accG_A M r) (accG_B M r) p.val 24 (by norm_num) hlt]
  rw [Pipeline.accAt_add_apply (ι := S1x1x20.Idx) (β := EReal) _ _ (fun _ => 0) (term1 M r) (25 * p.val) 24
    (fun h i => by unfold out1_A term1; rw [k1_pay2_apply, k1_pay1_apply, dif_pos h])
    (fun n h acc i _ _ => by unfold out1_B term1; rw [k1_pay2_apply, dif_pos h]) 24 le_rfl hlt]
  show (0 : EReal) + ∑ s ∈ Finset.range 25, term1 M r (25 * p.val + s) (ix3 (0 : Fin 1) (0 : Fin 1) k) = _
  rw [zero_add, Finset.sum_range]
  refine Finset.sum_congr rfl fun j _ => ?_
  have hj : 25 * p.val + j.val < cfg1.N := by
    have hp := p.isLt; have hj' := j.isLt; rw [show cfg1.N = 50 from N_1]; omega
  unfold term1; rw [dif_pos hj]
  refine Finset.sum_congr rfl fun a _ => ?_
  have e : (⟨(25 * p.val + j.val) * 20000 + a.val, rowlt _ hj a.val a.isLt⟩ : Fin 1000000) = row1 p j a :=
    Fin.ext (by show (25 * p.val + j.val) * 20000 + a.val = (p.val * 25 + j.val) * 20000 + a.val; ring)
  show M (ix2 ⟨(25 * p.val + j.val) * 20000 + a.val, rowlt _ hj a.val a.isLt⟩ k)
    * r (ix2 ⟨(25 * p.val + j.val) * 20000 + a.val, rowlt _ hj a.val a.isLt⟩ 0) = _
  rw [e]

end AtIdeal

end Cert.KernelIdeal.Hand

end
-- ==== Proof.KI.Value2.lean ====
import proofs.«104005_j27152783245914_2_alg».proof.Proof.KI.Region2
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The memory matrix after the third pallas_call, as one function of the arrays it reads

Every grid point writes back one block of 10000 rows; the hundred blocks tile the matrix. Entry by entry the
new matrix is the old one scaled by one minus (the row's write weight times the erase vector), plus (the
row's write weight times the add vector). -/

/-- The zero offsets of an access that takes a whole buffer. -/
theorem whole_offsets : (![0, 0] : Fin 2 → Nat) = fun _ => 0 := funext fun a => by fin_cases a <;> rfl

/-- Erase then add, index by index: entry `(i, k)` of the matrix times one minus (write weight of row `i`
    times erase entry `k`), plus (write weight of row `i` times add entry `k`). The literal is the
    single-precision word of 1. -/
def upd (M : Vec F S1000000x20 .f32) (w : Vec F S1000000x1 .f32) (e a : Vec F S1x20 .f32) : Vec F S1000000x20 .f32 :=
  fun i => FloatOps.addf
    (FloatOps.mulf (M i) (FloatOps.subf (Scalar.ofBits .f32 0x3F800000#32)
      (FloatOps.mulf (w (ix2 (i 0) (0 : Fin 1))) (e (ix2 (0 : Fin 1) (i 1))))))
    (FloatOps.mulf (w (ix2 (i 0) (0 : Fin 1))) (a (ix2 (0 : Fin 1) (i 1))))

/-- `upd` at an index given by its coordinates. -/
theorem upd_apply (M : Vec F S1000000x20 .f32) (w : Vec F S1000000x1 .f32) (e a : Vec F S1x20 .f32) (i : Fin 1000000) (k : Fin 20) :
    upd M w e a (ix2 i k) = FloatOps.addf
      (FloatOps.mulf (M (ix2 i k)) (FloatOps.subf (Scalar.ofBits .f32 0x3F800000#32)
        (FloatOps.mulf (w (ix2 i (0 : Fin 1))) (e (ix2 (0 : Fin 1) k)))))
      (FloatOps.mulf (w (ix2 i (0 : Fin 1))) (a (ix2 (0 : Fin 1) k))) := rfl

/-! ## The body's payload at an index of the block -/

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The payload at `(p, k)` of the block: the same erase-then-add of the four loaded blocks' entries. -/
theorem pay_apply (x0 : Vec F S10000x20 .f32) (x1 : Vec F S10000x1 .f32) (x2 x3 : Vec F S1x20 .f32) (p : Fin 10000) (k : Fin 20) :
    k2_pay1 x0 x1 x2 x3 (ix2 p k) = FloatOps.addf
      (FloatOps.mulf (x0 (ix2 p k)) (FloatOps.subf (Scalar.ofBits .f32 0x3F800000#32)
        (FloatOps.mulf (x1 (ix2 p (0 : Fin 1))) (x2 (ix2 (0 : Fin 1) k)))))
      (FloatOps.mulf (x1 (ix2 p (0 : Fin 1))) (x3 (ix2 (0 : Fin 1) k))) := by
  unfold k2_pay1
  simp only [shapeCast_self]
  show FloatOps.addf
      (FloatOps.mulf (x0 (ix2 p k)) (FloatOps.subf (Scalar.ofBits .f32 0x3F800000#32)
        (FloatOps.mulf (broadcastTo S10000x20 x1 _ (ix2 p k)) (broadcastTo S10000x20 x2 _ (ix2 p k)))))
      (FloatOps.mulf (broadcastTo S10000x20 x1 _ (ix2 p k)) (broadcastTo S10000x20 x3 _ (ix2 p k))) = _
  rw [broadcastTo_a1_ab_apply x1 _ p k, broadcastTo_1b_ab_apply x2 _ p k, broadcastTo_1b_ab_apply x3 _ p k]

/-! ## Which rows a grid point's blocks are -/

/-- The block indices of the five windows, decided over the grid: the three row-blocked windows are at block
    `t` along the rows, the two vectors at their one block. -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row `p` of point `t`'s block is row `10000 t + p` of the matrix. -/
def rowOf (t : Fin cfg2.N) (p : Fin 10000) : Fin 1000000 :=
  ⟨t.val * 10000 + p.val, by have h : t.val < 100 := Nat.lt_of_lt_of_eq t.isLt N_2; have := p.isLt; omega⟩

/-- The memory window's block at point `t`, entry `(p, k)`: the matrix at row `10000 t + p`. -/
theorem iblk2_0_apply (c : Dev nD) (t : Fin cfg2.N) (p : Fin 10000) (k : Fin 20) :
    (iblk2 V c 0 t : Vec F S10000x20 .f32) (ix2 p k) = (V c main_arg3 : Vec F S1000000x20 .f32) (ix2 (rowOf t p) k) := by
  obtain ⟨e0, e1, -⟩ := block_indices t
  unfold iblk2
  rw [View.read_apply]
  show V c main_arg3 _ = V c main_arg3 _
  congr 1
  funext a
  apply Fin.ext
  match a with
  | ⟨0, _⟩ => show win2_0.index t 0 * 10000 + 1 * p.val = t.val * 10000 + p.val; rw [e0]; omega
  | ⟨1, _⟩ => show win2_0.index t 1 * 20 + 1 * k.val = k.val; rw [e1]; omega

/-- The write-weight window's block at point `t`, entry `(p, 0)`: the column at row `10000 t + p`. -/
theorem iblk2_1_apply (c : Dev nD) (t : Fin cfg2.N) (p : Fin 10000) :
    (iblk2 V c 1 t : Vec F S10000x1 .f32) (ix2 p (0 : Fin 1)) = (V c main_v318 : Vec F S1000000x1 .f32) (ix2 (rowOf t p) (0 : Fin 1)) := by
  obtain ⟨-, -, e0, e1, -⟩ := block_indices t
  unfold iblk2
  rw [View.read_apply]
  show V c main_v318 _ = V c main_v318 _
  congr 1
  funext a
  apply Fin.ext
  match a with
  | ⟨0, _⟩ => show win2_1.index t 0 * 10000 + 1 * p.val = t.val * 10000 + p.val; rw [e0]; omega
  | ⟨1, _⟩ => show win2_1.index t 1 * 1 + 1 * 0 = 0; rw [e1]

/-- The erase window's one block is the erase vector. -/
theorem iblk2_2_apply (c : Dev nD) (t : Fin cfg2.N) (k : Fin 20) :
    (iblk2 V c 2 t : Vec F S1x20 .f32) (ix2 (0 : Fin 1) k) = (V c main_v30 : Vec F S1x20 .f32) (ix2 (0 : Fin 1) k) := by
  obtain ⟨-, -, -, -, e0, e1, -⟩ := block_indices t
  unfold iblk2
  rw [View.read_apply]
  show V c main_v30 _ = V c main_v30 _
  congr 1
  funext a
  apply Fin.ext
  match a with
  | ⟨0, _⟩ => show win2_2.index t 0 * 1 + 1 * 0 = 0; rw [e0]
  | ⟨1, _⟩ => show win2_2.index t 1 * 20 + 1 * k.val = k.val; rw [e1]; omega

/-- The add window's one block is the add vector. -/
theorem iblk2_3_apply (c : Dev nD) (t : Fin cfg2.N) (k : Fin 20) :
    (iblk2 V c 3 t : Vec F S1x20 .f32) (ix2 (0 : Fin 1) k) = (V c main_v317 : Vec F S1x20 .f32) (ix2 (0 : Fin 1) k) := by
  obtain ⟨-, -, -, -, -, -, e0, e1, -⟩ := block_indices t
  unfold iblk2
  rw [View.read_apply]
  show V c main_v317 _ = V c main_v317 _
  congr 1
  funext a
  apply Fin.ext
  match a with
  | ⟨0, _⟩ => show win2_3.index t 0 * 1 + 1 * 0 = 0; rw [e0]
  | ⟨1, _⟩ => show win2_3.index t 1 * 20 + 1 * k.val = k.val; rw [e1]; omega

/-- Entry `(p, k)` of the output window's block at point `t` is entry `(10000 t + p, k)` of the matrix. -/
theorem out_emb_apply (t : Fin cfg2.N) (p : Fin 10000) (k : Fin 20) :
    (((cfg2.win 4).blk t).view.emb (ix2 p k) : S1000000x20.Idx) = ix2 (rowOf t p) k := by
  obtain ⟨-, -, -, -, -, -, -, -, e0, e1⟩ := block_indices t
  funext a
  apply Fin.ext
  match a with
  | ⟨0, _⟩ => show win2_4.index t 0 * 10000 + 1 * p.val = t.val * 10000 + p.val; rw [e0]; omega
  | ⟨1, _⟩ => show win2_4.index t 1 * 20 + 1 * k.val = k.val; rw [e1]; omega

/-! ## What a point writes back -/

/-- What point `t` writes back is block `t` of `upd` of the four arrays as the region finds them. -/
theorem flushed2_eq (c : Dev nD) (t : Fin cfg2.N) :
    (dat2 V c).flushed 4 t = ((cfg2.win 4).blk t).view.read (Elt F)
      (upd (V c main_arg3) (V c main_v318) (V c main_v30) (V c main_v317)) := by
  show (cfg2.win 4).cut (grid2.coords t) ((dat2 V c).after 4 t) = _
  rw [after2_4]
  unfold out2_4
  rw [View.canon_unit_zero whole_offsets]
  simp only [View.ld_unit_zero (S := S10000x20) whole_offsets, View.ld_unit_zero (S := S10000x1) whole_offsets,
    View.ld_unit_zero (S := S1x20) whole_offsets]
  funext j
  obtain ⟨p, k, rfl⟩ : ∃ (p : Fin 10000) (k : Fin 20), j = ix2 p k := ⟨j 0, j 1, eq_ix2 j⟩
  show k2_pay1 (iblk2 V c 0 t) (iblk2 V c 1 t) (iblk2 V c 2 t) (iblk2 V c 3 t) (ix2 p k)
    = upd (V c main_arg3) (V c main_v318) (V c main_v30) (V c main_v317) (((cfg2.win 4).blk t).view.emb (ix2 p k))
  rw [pay_apply, out_emb_apply, upd_apply, iblk2_0_apply, iblk2_1_apply, iblk2_2_apply, iblk2_3_apply]

/-! ## The blocks tile the matrix -/

/-- An index of the matrix is in point `t`'s block iff each coordinate is in the block's range on its axis. -/
theorem mem_out_blk (t : Fin cfg2.N) (i : S1000000x20.Idx) :
    i ∈ ((cfg2.win 4).blk t).view.set ↔ ∀ a : Fin 2, win2_4.index t a * S10000x20.size a ≤ (i a).val
      ∧ (i a).val < win2_4.index t a * S10000x20.size a + S10000x20.size a := by
  show i ∈ ((View.whole main_v319).slice (win2_4.rect t)).set ↔ _
  rw [View.set_slice_whole, Rect.mem_set_unit]
  exact Iff.rfl

/-- Every index of the matrix is written back by the point of its row block, `i / 10000`. -/
theorem out_covered (i : S1000000x20.Idx) :
    ∃ t : Fin cfg2.N, (cfg2.win 4).flush t = true ∧ i ∈ ((cfg2.win 4).blk t).view.set := by
  have hi0 : (i 0).val < 1000000 := (i 0).isLt
  have hi1 : (i 1).val < 20 := (i 1).isLt
  have ht : (i 0).val / 10000 < cfg2.N := by rw [show cfg2.N = 100 from N_2]; omega
  refine ⟨⟨(i 0).val / 10000, ht⟩, flush2_4 _, ?_⟩
  rw [mem_out_blk]
  obtain ⟨-, -, -, -, -, -, -, -, e0, e1⟩ := block_indices ⟨(i 0).val / 10000, ht⟩
  intro a
  match a with
  | ⟨0, _⟩ =>
    show win2_4.index ⟨(i 0).val / 10000, ht⟩ 0 * 10000 ≤ (i 0).val
      ∧ (i 0).val < win2_4.index ⟨(i 0).val / 10000, ht⟩ 0 * 10000 + 10000
    rw [e0]; show (i 0).val / 10000 * 10000 ≤ (i 0).val ∧ (i 0).val < (i 0).val / 10000 * 10000 + 10000; omega
  | ⟨1, _⟩ =>
    show win2_4.index ⟨(i 0).val / 10000, ht⟩ 1 * 20 ≤ (i 1).val
      ∧ (i 1).val < win2_4.index ⟨(i 0).val / 10000, ht⟩ 1 * 20 + 20
    rw [e1]; omega

/-! ## The matrix after the region -/

/-- After the last point the output array is `upd` of the memory matrix, the write-weight column, the erase
    vector and the add vector, each as the region finds it. -/
theorem final2 (c : Dev nD) :
    (dat2 V c).arrAt 4 cfg2.N = upd (V c main_arg3) (V c main_v318) (V c main_v30) (V c main_v317) :=
  (dat2 V c).arrAt_eq_of_cover 4 (upd (V c main_arg3) (V c main_v318) (V c main_v30) (V c main_v317))
    (fun t _ => flushed2_eq V c t) out_covered

/-! ## At the extended reals

The one part of this file that is special to the ideal instance: there the scalar operations are the
extended reals' own, and the literal is the word of 1 read as an extended real. -/

/-- `upd` at an index, in the extended reals' arithmetic. -/
theorem upd_apply_ideal (M : Vec Ideal S1000000x20 .f32) (w : Vec Ideal S1000000x1 .f32) (e a : Vec Ideal S1x20 .f32)
    (i : Fin 1000000) (k : Fin 20) :
    upd M w e a (ix2 i k) = M (ix2 i k) * (Ideal.ofBits .f32 0x3F800000#32 - w (ix2 i 0) * e (ix2 0 k)) + w (ix2 i 0) * a (ix2 0 k) := rfl

end Cert.KernelIdeal.Hand

end
-- ==== Proof.Bridge.Read.lean ====
import proofs.«104005_j27152783245914_2_alg».proof.Proof.Gen.KernelIdeal.Launch
import proofs.«104005_j27152783245914_2_alg».proof.Proof.Gen.ReferenceIdeal
import proofs.«104005_j27152783245914_2_alg».proof.Proof.Ref.Ops
import Idealize.ShloMosaic.Lib.StableHlo.Run
import Idealize.ShloMosaic.Lib.Pipeline.Value
import Idealize.ShloMosaic.Lib.ValueIdx
import Idealize.ShloMosaic.Lib.IdealHost
import Idealize.ShloMosaic.PureOps.Ideal.Laws

/-!
# The read vector: two partial sums over halves of the rows against one contraction over all rows

The kernel leaves, for each half `p` of the rows, the sum over that half of `Memory[i, k] * r[i, 0]`, where `r` is the read
weighting as a column; the host then adds the two halves. The reference contracts the read weighting, a row, with the memory
over all rows at once. Both are the same finite sum of extended reals: the rows are split as (half, block, row in block),
and the product commutes.
-/

noncomputable section

namespace Cert.Bridge

open Idealize.ShloMosaic Idealize.ShloMosaic.TcCoe Idealize.SL.Sem Idealize.ShloMosaic.StableHlo Idealize.ShloMosaic.ValueIdx
open Cert.KernelIdeal (S1x20 S20 S_ S2x20 S2x1x20 S1000000x1 S1x1000000 S1000000x20)

/-! ## Sums over a range cut into equal blocks -/

/-- Position `a` of block `p` lies in the range of `m` blocks of `n`. -/
theorem block_lt {m n : Nat} (p : Fin m) (a : Fin n) : p.val * n + a.val < m * n :=
  calc p.val * n + a.val < p.val * n + n := Nat.add_lt_add_left a.isLt _
    _ = (p.val + 1) * n := (Nat.succ_mul _ _).symm
    _ ≤ m * n := Nat.mul_le_mul_right _ p.isLt

/-- A sum over `m * n` positions is the sum over the `m` blocks of the sums over each block's `n` positions. -/
theorem sum_fin_blocks {β : Type*} [AddCommMonoid β] {N : Nat} (m n : Nat) (h : m * n = N) (f : Fin N → β) :
    ∑ i : Fin N, f i = ∑ p : Fin m, ∑ a : Fin n, f ⟨p.val * n + a.val, h ▸ block_lt p a⟩ := by
  subst h
  rw [← Equiv.sum_comp finProdFinEquiv f, Fintype.sum_prod_type]
  refine Finset.sum_congr rfl fun p _ => Finset.sum_congr rfl fun a _ => congrArg f (Fin.ext ?_)
  show a.val + n * p.val = p.val * n + a.val
  rw [Nat.mul_comm, Nat.add_comm]

/-- The flat row number of row `a` of block `j` of half `p`: 2 halves of 25 blocks of 20000 rows. -/
abbrev rowOf (p : Fin 2) (j : Fin 25) (a : Fin 20000) : Fin 1000000 :=
  ⟨(p.val * 25 + j.val) * 20000 + a.val, by omega⟩

/-- A sum over the million rows, by half, block and row in the block. -/
theorem sum_rows {β : Type*} [AddCommMonoid β] (f : Fin 1000000 → β) :
    ∑ i : Fin 1000000, f i = ∑ p : Fin 2, ∑ j : Fin 25, ∑ a : Fin 20000, f (rowOf p j a) := by
  rw [sum_fin_blocks 50 20000 (by norm_num) f,
    sum_fin_blocks 2 25 (by norm_num) (fun q : Fin 50 => ∑ a : Fin 20000, f ⟨q.val * 20000 + a.val, _⟩)]

/-! ## The reference's contraction read at an index -/

theorem lhs_read_0 (i : Cert.ReferenceIdeal.S1x20.Idx) (q : Cert.ReferenceIdeal.dot_S1x1000000_S1000000x20_S1x20_1_0_0_1_n_n.contr.Idx) :
    (Cert.ReferenceIdeal.dot_S1x1000000_S1000000x20_S1x20_1_0_0_1_n_n.lhsIdx i q 0).val = (i 0).val := by
  unfold DotDims.lhsIdx
  rw [dif_neg (show ¬(0 : Fin Cert.ReferenceIdeal.S1x1000000.rank) ∈ Cert.ReferenceIdeal.dot_S1x1000000_S1000000x20_S1x20_1_0_0_1_n_n.lhsBatch by decide), dif_pos (show (0 : Fin Cert.ReferenceIdeal.S1x1000000.rank) ∈ Cert.ReferenceIdeal.dot_S1x1000000_S1000000x20_S1x20_1_0_0_1_n_n.lhsNonContracting by decide)]
  rfl
theorem lhs_read_1 (i : Cert.ReferenceIdeal.S1x20.Idx) (q : Cert.ReferenceIdeal.dot_S1x1000000_S1000000x20_S1x20_1_0_0_1_n_n.contr.Idx) :
    (Cert.ReferenceIdeal.dot_S1x1000000_S1000000x20_S1x20_1_0_0_1_n_n.lhsIdx i q 1).val = (q ⟨0, by decide⟩).val :=
  Cert.ReferenceIdeal.dot_S1x1000000_S1000000x20_S1x20_1_0_0_1_n_n.lhsIdx_val_of_single rfl i q
theorem rhs_read_0 (i : Cert.ReferenceIdeal.S1x20.Idx) (q : Cert.ReferenceIdeal.dot_S1x1000000_S1000000x20_S1x20_1_0_0_1_n_n.contr.Idx) :
    (Cert.ReferenceIdeal.dot_S1x1000000_S1000000x20_S1x20_1_0_0_1_n_n.rhsIdx i q 0).val = (q ⟨0, by decide⟩).val :=
  Cert.ReferenceIdeal.dot_S1x1000000_S1000000x20_S1x20_1_0_0_1_n_n.rhsIdx_val_of_single rfl i q
theorem rhs_read_1 (i : Cert.ReferenceIdeal.S1x20.Idx) (q : Cert.ReferenceIdeal.dot_S1x1000000_S1000000x20_S1x20_1_0_0_1_n_n.contr.Idx) :
    (Cert.ReferenceIdeal.dot_S1x1000000_S1000000x20_S1x20_1_0_0_1_n_n.rhsIdx i q 1).val = (i 1).val := by
  unfold DotDims.rhsIdx
  rw [dif_neg (show ¬(1 : Fin Cert.ReferenceIdeal.S1000000x20.rank) ∈ Cert.ReferenceIdeal.dot_S1x1000000_S1000000x20_S1x20_1_0_0_1_n_n.rhsBatch by decide), dif_pos (show (1 : Fin Cert.ReferenceIdeal.S1000000x20.rank) ∈ Cert.ReferenceIdeal.dot_S1x1000000_S1000000x20_S1x20_1_0_0_1_n_n.rhsNonContracting by decide)]
  rfl

/-- The row `rw` contracted with the memory over the rows, at column `k`: the sum over the rows of `rw[0, i] * M[i, k]`. -/
theorem dot_read_apply (rw : FVec Ideal S1x1000000 .f32) (M : FVec Ideal S1000000x20 .f32) (z : Fin 1) (k : Fin 20) :
    Host.dotGeneral Cert.ReferenceIdeal.dot_S1x1000000_S1000000x20_S1x20_1_0_0_1_n_n none rw M (ix2 z k)
      = ∑ i : Fin 1000000, rw (ix2 0 i) * M (ix2 i k) := by
  simp only [Host.dotGeneral]
  rw [Ideal.dotGeneral_apply, ← Equiv.sum_comp (ValueIdx.contrEquiv1 Cert.ReferenceIdeal.dot_S1x1000000_S1000000x20_S1x20_1_0_0_1_n_n 1000000 rfl rfl).symm]
  refine Finset.sum_congr rfl fun i _ => ?_
  have hk := ValueIdx.contrEquiv1_symm_val Cert.ReferenceIdeal.dot_S1x1000000_S1000000x20_S1x20_1_0_0_1_n_n 1000000 rfl rfl i
  have el : Cert.ReferenceIdeal.dot_S1x1000000_S1000000x20_S1x20_1_0_0_1_n_n.lhsIdx (ix2 z k) ((ValueIdx.contrEquiv1 Cert.ReferenceIdeal.dot_S1x1000000_S1000000x20_S1x20_1_0_0_1_n_n 1000000 rfl rfl).symm i) = ix2 0 i := funext fun a => Fin.ext (by
    match a with
    | ⟨0, _⟩ => exact (lhs_read_0 _ _).trans (by show z.val = 0; omega)
    | ⟨1, _⟩ => exact (lhs_read_1 _ _).trans hk)
  have er : Cert.ReferenceIdeal.dot_S1x1000000_S1000000x20_S1x20_1_0_0_1_n_n.rhsIdx (ix2 z k) ((ValueIdx.contrEquiv1 Cert.ReferenceIdeal.dot_S1x1000000_S1000000x20_S1x20_1_0_0_1_n_n 1000000 rfl rfl).symm i) = ix2 i k := funext fun a => Fin.ext (by
    match a with
    | ⟨0, _⟩ => exact (rhs_read_0 _ _).trans hk
    | ⟨1, _⟩ => exact rhs_read_1 _ _)
  rw [el, er]

/-! ## The kernel's side read at an index -/

/-- The two halves' partial results, flattened, added over the halves from zero and given a leading unit axis: at
    column `k` the sum over the two halves of the partial result at `(p, 0, k)`. -/
theorem halves_apply (part : FVec Ideal S2x1x20 .f32)
    (hc : S2x1x20.ShapeCasts S2x20) (hred : S2x20.ReducesTo [0] S20) (hS : 0 < S_.numel)
    (hb : S20.BroadcastsInDim S1x20 (![1] : Fin 1 → Fin S1x20.rank)) (z : Fin 1) (k : Fin 20) :
    broadcastInDim S1x20 ![1] hb
        (Host.reduceAdd (shapeCast S2x20 part hc) (constant (F := Ideal) S_ .f32 0x00000000#32) hred hS) (ix2 z k)
      = ∑ p : Fin 2, part (ix3 p 0 k) := by
  rw [broadcastInDim_apply _ hb _ (ix2 z k) (ix1 k) (fun a => match a with | ⟨0, _⟩ => rfl)]
  rw [hostReduceAdd_apply, Ideal.hostReduceAdd_single hred (by decide)]
  rw [show (constant (F := Ideal) S_ .f32 0x00000000#32) (Shape.Idx.first hS) = 0 from Ideal.ofBits_zero_f32, zero_add]
  refine Finset.sum_congr rfl fun p _ => ?_
  exact shapeCast_apply part hc _ (ix3 p 0 k)
    (by rewrite [Shape.rowMajor_val_three, Shape.rowMajor_val_two]; show p.val * 1 * 20 + 0 * 20 + k.val = p.val * 20 + k.val; omega)

/-! ## The two sides agree -/

theorem read_vector_eq
    (M : FVec Ideal S1000000x20 .f32) (rw : FVec Ideal S1x1000000 .f32)
    (r : FVec Ideal S1000000x1 .f32) (part : FVec Ideal S2x1x20 .f32)
    (hr : ∀ i : Fin 1000000, r (ix2 i 0) = rw (ix2 0 i))
    (hpart : ∀ (p : Fin 2) (k : Fin 20), part (ix3 p 0 k)
        = ∑ j : Fin 25, ∑ a : Fin 20000, M (ix2 (rowOf p j a) k) * r (ix2 (rowOf p j a) 0))
    (hc : S2x1x20.ShapeCasts S2x20) (hred : S2x20.ReducesTo [0] S20) (hS : 0 < S_.numel)
    (hb : S20.BroadcastsInDim S1x20 (![1] : Fin 1 → Fin S1x20.rank)) :
    broadcastInDim S1x20 ![1] hb
        (Host.reduceAdd (shapeCast S2x20 part hc) (constant (F := Ideal) S_ .f32 0x00000000#32) hred hS)
      = Host.dotGeneral Cert.ReferenceIdeal.dot_S1x1000000_S1000000x20_S1x20_1_0_0_1_n_n none rw M := by
  have key : ∀ (z : Fin 1) (k : Fin 20),
      broadcastInDim S1x20 ![1] hb
          (Host.reduceAdd (shapeCast S2x20 part hc) (constant (F := Ideal) S_ .f32 0x00000000#32) hred hS) (ix2 z k)
        = Host.dotGeneral Cert.ReferenceIdeal.dot_S1x1000000_S1000000x20_S1x20_1_0_0_1_n_n none rw M (ix2 z k) := by
    intro z k
    rw [halves_apply, dot_read_apply, sum_rows]
    refine Finset.sum_congr rfl fun p _ => ?_
    rw [hpart]
    refine Finset.sum_congr rfl fun b _ => Finset.sum_congr rfl fun a _ => ?_
    rw [hr, mul_comm]
  funext j
  rw [eq_ix2 (n0 := 1) (n1 := 20) j]
  exact key _ _

/-- A row reshaped to a column, read at `(i, 0)`, is the row at `(0, i)`: both sit at row-major position `i`. -/
theorem reshape_row_apply {α : Type} (x : S1x1000000.Idx → α) (hc : S1x1000000.ShapeCasts S1000000x1) (i : Fin 1000000) :
    shapeCast S1000000x1 x hc (ix2 i 0) = x (ix2 0 i) :=
  shapeCast_apply x hc (ix2 i 0) (ix2 0 i)
    (by rewrite [Shape.rowMajor_val_two, Shape.rowMajor_val_two]; show 0 * 1000000 + i.val = i.val * 1 + 0; omega)

/-! ## The same over the two programs' buffer contents

The kernel's side: after the second custom call the host flattens its (2, 1, 20) result, adds the two halves from zero
and restores the leading unit axis. The reference's side: one contraction. Both are read off valuations of the two
programs at the buffers the operations do not write. -/

section KernelSide
open Cert.KernelIdeal Cert.KernelIdeal.Gen
variable {F : FTy → Type} [FloatOps F]

/-- The kernel's buffers this part reads, at their array types: the memory, the read weighting as a row (`%157`) and
    as a column (`%215`), and the second custom call's result (`%216`). -/
abbrev kMem (V : Valuation Cert.KernelIdeal.τ Cert.KernelIdeal.sig (Elt F)) : FVec F S1000000x20 .f32 := V (Proc.devRef .tc main_arg3)
abbrev kReadRow (V : Valuation Cert.KernelIdeal.τ Cert.KernelIdeal.sig (Elt F)) : FVec F S1x1000000 .f32 := V (Proc.devRef .tc main_v157)
abbrev kReadCol (V : Valuation Cert.KernelIdeal.τ Cert.KernelIdeal.sig (Elt F)) : FVec F S1000000x1 .f32 := V (Proc.devRef .tc main_v215)
abbrev kPart (V : Valuation Cert.KernelIdeal.τ Cert.KernelIdeal.sig (Elt F)) : FVec F S2x1x20 .f32 := V (Proc.devRef .tc main_v216)

/-- The kernel's host operations from the second custom call's result to the read vector (its `%217` … `%219`). -/
abbrev kerReadOps : List (HloOp Cert.KernelIdeal.τ Cert.KernelIdeal.sig (Elt F)) :=
  [ StableHlo.reshape main_v216 main_v217 rfl shapeCasts_S2x1x20_S2x20,
    StableHlo.nullary main_cst_31 (constant S_ .f32 0x00000000#32),
    StableHlo.binary main_v217 main_cst_31 main_v218 ((fun x v => Host.reduceAdd x v reducesTo_S2x20_S20_d0 h_S_) : (⟨S2x20, .f32⟩ : BufTy).Contents (Elt F) → (⟨S_, .f32⟩ : BufTy).Contents (Elt F) → (⟨S20, .f32⟩ : BufTy).Contents (Elt F)),
    StableHlo.unary main_v218 main_v219 (broadcastInDim S1x20 ![1] bcast_S20_S1x20_1 : (⟨S20, .f32⟩ : BufTy).Contents (Elt F) → (⟨S1x20, .f32⟩ : BufTy).Contents (Elt F)) ]

/-- What the kernel's host operations leave in the read vector's buffer. -/
theorem kerReadOps_result (V : Valuation Cert.KernelIdeal.τ Cert.KernelIdeal.sig (Elt F)) :
    (StableHlo.after kerReadOps V (Proc.devRef .tc main_v219) : FVec F S1x20 .f32)
      = broadcastInDim S1x20 ![1] bcast_S20_S1x20_1
          (Host.reduceAdd (shapeCast S2x20 (kPart V) shapeCasts_S2x1x20_S2x20)
            (constant (F := F) S_ .f32 0x00000000#32) reducesTo_S2x20_S20_d0 h_S_) := by
  after_results
  rfl

/-- The read weighting as a column: after a line of host operations closed by the reshape of the row (the kernel's
    `%215`), the column at `(i, 0)` is the row, as the line leaves it, at `(0, i)`. -/
theorem readColumn_apply (L : List (HloOp Cert.KernelIdeal.τ Cert.KernelIdeal.sig (Elt F)))
    (V : Valuation Cert.KernelIdeal.τ Cert.KernelIdeal.sig (Elt F)) (i : Fin 1000000) :
    kReadCol (StableHlo.after (L ++ [StableHlo.reshape main_v157 main_v215 rfl shapeCasts_S1x1000000_S1000000x1]) V) (ix2 i 0)
      = kReadRow (StableHlo.after (L ++ [StableHlo.reshape main_v157 main_v215 rfl shapeCasts_S1x1000000_S1000000x1]) V) (ix2 0 i) := by
  show (StableHlo.after (L ++ [StableHlo.reshape main_v157 main_v215 rfl shapeCasts_S1x1000000_S1000000x1]) V
        (Proc.devRef .tc main_v215) : FVec F S1000000x1 .f32) (ix2 i 0)
      = (StableHlo.after (L ++ [StableHlo.reshape main_v157 main_v215 rfl shapeCasts_S1x1000000_S1000000x1]) V
        (Proc.devRef .tc main_v157) : FVec F S1x1000000 .f32) (ix2 0 i)
  rw [StableHlo.after_append]
  after_results
  exact reshape_row_apply _ _ i

end KernelSide

section RefSide
variable {F : FTy → Type} [FloatOps F]

/-- The reference's buffers this part reads, at their array types: the memory and the read weighting (`%126`). -/
abbrev rMem (V : Valuation Cert.ReferenceIdeal.τ Cert.ReferenceIdeal.sig (Elt F)) : FVec F S1000000x20 .f32 := V (Proc.devRef .tc Cert.ReferenceIdeal.main_arg3)
abbrev rReadRow (V : Valuation Cert.ReferenceIdeal.τ Cert.ReferenceIdeal.sig (Elt F)) : FVec F S1x1000000 .f32 := V (Proc.devRef .tc Cert.ReferenceIdeal.main_v126)

/-- What the reference's contraction leaves in the read vector's buffer. -/
theorem refRead_result (V : Valuation Cert.ReferenceIdeal.τ Cert.ReferenceIdeal.sig (Elt F)) :
    (StableHlo.after Cert.ReferenceIdeal.Hand.ch4a V (Proc.devRef .tc Cert.ReferenceIdeal.main_v219) : FVec F S1x20 .f32)
      = Host.dotGeneral Cert.ReferenceIdeal.dot_S1x1000000_S1000000x20_S1x20_1_0_0_1_n_n none (rReadRow V) (rMem V) := by
  after_results

end RefSide

/-- THE READ VECTOR: the kernel's, from the second custom call's two partial sums, is the reference's contraction. The
    hypotheses are about buffers neither line writes: the read weighting and the memory agree across the programs, the
    kernel's column is its read weighting, and the custom call's result is the partial sums over the halves. -/
theorem read_bridge
    (Vk : Valuation Cert.KernelIdeal.τ Cert.KernelIdeal.sig (Elt Ideal))
    (Vr : Valuation Cert.ReferenceIdeal.τ Cert.ReferenceIdeal.sig (Elt Ideal))
    (hrw : (Vk (Proc.devRef .tc Cert.KernelIdeal.main_v157) : FVec Ideal S1x1000000 .f32)
        = Vr (Proc.devRef .tc Cert.ReferenceIdeal.main_v126))
    (hM : (Vk (Proc.devRef .tc Cert.KernelIdeal.main_arg3) : FVec Ideal S1000000x20 .f32)
        = Vr (Proc.devRef .tc Cert.ReferenceIdeal.main_arg3))
    (hcol : ∀ i : Fin 1000000, kReadCol Vk (ix2 i 0) = kReadRow Vk (ix2 0 i))
    (hpart : ∀ (p : Fin 2) (k : Fin 20), kPart Vk (ix3 p 0 k)
        = ∑ j : Fin 25, ∑ a : Fin 20000, kMem Vk (ix2 (rowOf p j a) k) * kReadCol Vk (ix2 (rowOf p j a) 0)) :
    (StableHlo.after kerReadOps Vk (Proc.devRef .tc Cert.KernelIdeal.main_v219) : FVec Ideal S1x20 .f32)
      = StableHlo.after Cert.ReferenceIdeal.Hand.ch4a Vr (Proc.devRef .tc Cert.ReferenceIdeal.main_v219) := by
  rw [kerReadOps_result, refRead_result]
  show _ = Host.dotGeneral Cert.ReferenceIdeal.dot_S1x1000000_S1000000x20_S1x20_1_0_0_1_n_n none (rReadRow Vr) (rMem Vr)
  rw [show rReadRow Vr = kReadRow Vk from hrw.symm, show rMem Vr = kMem Vk from hM.symm]
  exact read_vector_eq _ _ _ _ hcol hpart _ _ _ _

/-! ## The same over the program's own lines of host operations -/

section KernelLines
open Cert.KernelIdeal Cert.KernelIdeal.Gen
variable {F : FTy → Type} [FloatOps F]

set_option maxRecDepth 8000 in
/-- The line of host operations after the second custom call leaves the same in the read vector's buffer: its first
    four operations compute it and no later one writes it. -/
theorem hostOps2_read_result (V : Valuation Cert.KernelIdeal.τ Cert.KernelIdeal.sig (Elt F)) :
    (StableHlo.after hostOps2 V (Proc.devRef .tc main_v219) : FVec F S1x20 .f32)
      = broadcastInDim S1x20 ![1] bcast_S20_S1x20_1
          (Host.reduceAdd (shapeCast S2x20 (kPart V) shapeCasts_S2x1x20_S2x20)
            (constant (F := F) S_ .f32 0x00000000#32) reducesTo_S2x20_S20_d0 h_S_) := by
  after_results
  all_goals rfl

set_option maxRecDepth 8000 in
/-- The line of host operations before the second custom call ends with the reshape of the read weighting to a column. -/
theorem hostOps1_4_split :
    (hostOps1_4 : List (HloOp Cert.KernelIdeal.τ Cert.KernelIdeal.sig (Elt F)))
      = hostOps1_4.dropLast ++ [StableHlo.reshape main_v157 main_v215 rfl shapeCasts_S1x1000000_S1000000x1] := rfl

/-- After that line the column at `(i, 0)` is the row at `(0, i)`. -/
theorem readColumn_hostOps1_4 (V : Valuation Cert.KernelIdeal.τ Cert.KernelIdeal.sig (Elt F)) (i : Fin 1000000) :
    kReadCol (StableHlo.after hostOps1_4 V) (ix2 i 0) = kReadRow (StableHlo.after hostOps1_4 V) (ix2 0 i) := by
  rw [hostOps1_4_split]
  exact readColumn_apply _ V i

end KernelLines

/-- THE READ VECTOR, over the kernel's whole line of host operations after the second custom call. -/
theorem read_bridge_hostOps2
    (Vk : Valuation Cert.KernelIdeal.τ Cert.KernelIdeal.sig (Elt Ideal))
    (Vr : Valuation Cert.ReferenceIdeal.τ Cert.ReferenceIdeal.sig (Elt Ideal))
    (hrw : (Vk (Proc.devRef .tc Cert.KernelIdeal.main_v157) : FVec Ideal S1x1000000 .f32)
        = Vr (Proc.devRef .tc Cert.ReferenceIdeal.main_v126))
    (hM : (Vk (Proc.devRef .tc Cert.KernelIdeal.main_arg3) : FVec Ideal S1000000x20 .f32)
        = Vr (Proc.devRef .tc Cert.ReferenceIdeal.main_arg3))
    (hcol : ∀ i : Fin 1000000, kReadCol Vk (ix2 i 0) = kReadRow Vk (ix2 0 i))
    (hpart : ∀ (p : Fin 2) (k : Fin 20), kPart Vk (ix3 p 0 k)
        = ∑ j : Fin 25, ∑ a : Fin 20000, kMem Vk (ix2 (rowOf p j a) k) * kReadCol Vk (ix2 (rowOf p j a) 0)) :
    (StableHlo.after Cert.KernelIdeal.Gen.hostOps2 Vk (Proc.devRef .tc Cert.KernelIdeal.main_v219) : FVec Ideal S1x20 .f32)
      = StableHlo.after Cert.ReferenceIdeal.Hand.ch4a Vr (Proc.devRef .tc Cert.ReferenceIdeal.main_v219) := by
  rw [hostOps2_read_result, ← kerReadOps_result]
  exact read_bridge Vk Vr hrw hM hcol hpart

end Cert.Bridge
-- ==== Proof.Bridge.Update.lean ====
import proofs.«104005_j27152783245914_2_alg».proof.Proof.Gen.KernelIdeal.Launch
import proofs.«104005_j27152783245914_2_alg».proof.Proof.Gen.ReferenceIdeal
import proofs.«104005_j27152783245914_2_alg».proof.Proof.Ref.Ops
import Idealize.ShloMosaic.Lib.StableHlo.Run
import Idealize.ShloMosaic.Lib.Pipeline.Value
import Idealize.ShloMosaic.Lib.ValueIdx
import Idealize.ShloMosaic.Lib.IdealHost
import Idealize.ShloMosaic.PureOps.Ideal.Laws

/-!
# The memory update: one fused expression per element against outer products with a contracted axis of extent one

The kernel writes `Memory[i, k] * (1 - w[i, 0] * erase[0, k]) + w[i, 0] * add[0, k]` with `w` the write weighting as a
column. The reference transposes the write weighting (a row) to a column, takes its product with the erase row and with
the add row as contractions over an axis of extent one, and combines them with the same arithmetic. A sum over one index
is its one term, and the transposed row read at `(i, 0)` is the row at `(0, i)`.
-/

noncomputable section

namespace Cert.Bridge

open Idealize.ShloMosaic Idealize.ShloMosaic.TcCoe Idealize.SL.Sem Idealize.ShloMosaic.StableHlo Idealize.ShloMosaic.ValueIdx
open Cert.KernelIdeal (S1x20 S_ S1000000x1 S1x1000000 S1000000x20)

/-! ## A column times a row, as a contraction over an axis of extent one -/

theorem lhs_outer_0 (i : Cert.ReferenceIdeal.S1000000x20.Idx) (q : Cert.ReferenceIdeal.dot_S1000000x1_S1x20_S1000000x20_1_0_0_1_n_n.contr.Idx) :
    (Cert.ReferenceIdeal.dot_S1000000x1_S1x20_S1000000x20_1_0_0_1_n_n.lhsIdx i q 0).val = (i 0).val := by
  unfold DotDims.lhsIdx
  rw [dif_neg (show ¬(0 : Fin Cert.ReferenceIdeal.S1000000x1.rank) ∈ Cert.ReferenceIdeal.dot_S1000000x1_S1x20_S1000000x20_1_0_0_1_n_n.lhsBatch by decide), dif_pos (show (0 : Fin Cert.ReferenceIdeal.S1000000x1.rank) ∈ Cert.ReferenceIdeal.dot_S1000000x1_S1x20_S1000000x20_1_0_0_1_n_n.lhsNonContracting by decide)]
  rfl
theorem lhs_outer_1 (i : Cert.ReferenceIdeal.S1000000x20.Idx) (q : Cert.ReferenceIdeal.dot_S1000000x1_S1x20_S1000000x20_1_0_0_1_n_n.contr.Idx) :
    (Cert.ReferenceIdeal.dot_S1000000x1_S1x20_S1000000x20_1_0_0_1_n_n.lhsIdx i q 1).val = (q ⟨0, by decide⟩).val :=
  Cert.ReferenceIdeal.dot_S1000000x1_S1x20_S1000000x20_1_0_0_1_n_n.lhsIdx_val_of_single rfl i q
theorem rhs_outer_0 (i : Cert.ReferenceIdeal.S1000000x20.Idx) (q : Cert.ReferenceIdeal.dot_S1000000x1_S1x20_S1000000x20_1_0_0_1_n_n.contr.Idx) :
    (Cert.ReferenceIdeal.dot_S1000000x1_S1x20_S1000000x20_1_0_0_1_n_n.rhsIdx i q 0).val = (q ⟨0, by decide⟩).val :=
  Cert.ReferenceIdeal.dot_S1000000x1_S1x20_S1000000x20_1_0_0_1_n_n.rhsIdx_val_of_single rfl i q
theorem rhs_outer_1 (i : Cert.ReferenceIdeal.S1000000x20.Idx) (q : Cert.ReferenceIdeal.dot_S1000000x1_S1x20_S1000000x20_1_0_0_1_n_n.contr.Idx) :
    (Cert.ReferenceIdeal.dot_S1000000x1_S1x20_S1000000x20_1_0_0_1_n_n.rhsIdx i q 1).val = (i 1).val := by
  unfold DotDims.rhsIdx
  rw [dif_neg (show ¬(1 : Fin Cert.ReferenceIdeal.S1x20.rank) ∈ Cert.ReferenceIdeal.dot_S1000000x1_S1x20_S1000000x20_1_0_0_1_n_n.rhsBatch by decide), dif_pos (show (1 : Fin Cert.ReferenceIdeal.S1x20.rank) ∈ Cert.ReferenceIdeal.dot_S1000000x1_S1x20_S1000000x20_1_0_0_1_n_n.rhsNonContracting by decide)]
  rfl

/-- The column `x` contracted with the row `y` over their common axis of extent one: at `(i, k)` the one product
    `x[i, 0] * y[0, k]`. -/
theorem dot_outer_apply (x : FVec Ideal S1000000x1 .f32) (y : FVec Ideal S1x20 .f32) (i : Fin 1000000) (k : Fin 20) :
    Host.dotGeneral Cert.ReferenceIdeal.dot_S1000000x1_S1x20_S1000000x20_1_0_0_1_n_n none x y (ix2 i k)
      = x (ix2 i 0) * y (ix2 0 k) := by
  simp only [Host.dotGeneral]
  rw [Ideal.dotGeneral_apply, ← Equiv.sum_comp (ValueIdx.contrEquiv1 Cert.ReferenceIdeal.dot_S1000000x1_S1x20_S1000000x20_1_0_0_1_n_n 1 rfl rfl).symm,
    Fin.sum_univ_one]
  have hk := ValueIdx.contrEquiv1_symm_val Cert.ReferenceIdeal.dot_S1000000x1_S1x20_S1000000x20_1_0_0_1_n_n 1 rfl rfl 0
  have el : Cert.ReferenceIdeal.dot_S1000000x1_S1x20_S1000000x20_1_0_0_1_n_n.lhsIdx (ix2 i k) ((ValueIdx.contrEquiv1 Cert.ReferenceIdeal.dot_S1000000x1_S1x20_S1000000x20_1_0_0_1_n_n 1 rfl rfl).symm 0) = ix2 i 0 := funext fun a => Fin.ext (by
    match a with
    | ⟨0, _⟩ => exact lhs_outer_0 _ _
    | ⟨1, _⟩ => exact (lhs_outer_1 _ _).trans hk)
  have er : Cert.ReferenceIdeal.dot_S1000000x1_S1x20_S1000000x20_1_0_0_1_n_n.rhsIdx (ix2 i k) ((ValueIdx.contrEquiv1 Cert.ReferenceIdeal.dot_S1000000x1_S1x20_S1000000x20_1_0_0_1_n_n 1 rfl rfl).symm 0) = ix2 0 k := funext fun a => Fin.ext (by
    match a with
    | ⟨0, _⟩ => exact (rhs_outer_0 _ _).trans hk
    | ⟨1, _⟩ => exact rhs_outer_1 _ _)
  rw [el, er]

/-- A row transposed to a column, read at `(i, 0)`, is the row at `(0, i)`. -/
theorem transpose_row_apply {α : Type} (x : S1x1000000.Idx → α) (ht : S1x1000000.Transposes [1, 0] S1000000x1) (i : Fin 1000000) :
    transpose S1000000x1 [1, 0] x ht (ix2 i 0) = x (ix2 0 i) :=
  transpose_apply [1, 0] x ht (ix2 i 0) (ix2 0 i) (fun b => match b with | ⟨0, _⟩ => rfl | ⟨1, _⟩ => rfl)

/-- A row reshaped to a column, read at `(i, 0)`, is the row at `(0, i)`: both sit at row-major position `i`. -/
private theorem reshape_row_apply_upd {α : Type} (x : S1x1000000.Idx → α) (hc : S1x1000000.ShapeCasts S1000000x1) (i : Fin 1000000) :
    shapeCast S1000000x1 x hc (ix2 i 0) = x (ix2 0 i) :=
  shapeCast_apply x hc (ix2 i 0) (ix2 0 i)
    (by rewrite [Shape.rowMajor_val_two, Shape.rowMajor_val_two]; show 0 * 1000000 + i.val = i.val * 1 + 0; omega)

/-! ## The two sides agree -/

theorem update_eq
    (M : FVec Ideal S1000000x20 .f32) (ww : FVec Ideal S1x1000000 .f32) (e a : FVec Ideal S1x20 .f32)
    (w : FVec Ideal S1000000x1 .f32) (upd : FVec Ideal S1000000x20 .f32)
    (hw : ∀ i : Fin 1000000, w (ix2 i 0) = ww (ix2 0 i))
    (hupd : ∀ (i : Fin 1000000) (k : Fin 20), upd (ix2 i k)
        = M (ix2 i k) * (Ideal.ofBits .f32 0x3F800000#32 - w (ix2 i 0) * e (ix2 0 k)) + w (ix2 i 0) * a (ix2 0 k))
    (ht : S1x1000000.Transposes [1, 0] S1000000x1) (hb : S_.BroadcastsInDim S1000000x20 (![] : Fin 0 → Fin S1000000x20.rank)) :
    upd = addf
        (mulf M (subf (broadcastInDim S1000000x20 ![] hb (constant (F := Ideal) S_ .f32 0x3F800000#32))
          (Host.dotGeneral Cert.ReferenceIdeal.dot_S1000000x1_S1x20_S1000000x20_1_0_0_1_n_n none (transpose S1000000x1 [1, 0] ww ht) e)))
        (Host.dotGeneral Cert.ReferenceIdeal.dot_S1000000x1_S1x20_S1000000x20_1_0_0_1_n_n none (transpose S1000000x1 [1, 0] ww ht) a) := by
  have key : ∀ (i : Fin 1000000) (k : Fin 20), upd (ix2 i k) = addf
        (mulf M (subf (broadcastInDim S1000000x20 ![] hb (constant (F := Ideal) S_ .f32 0x3F800000#32))
          (Host.dotGeneral Cert.ReferenceIdeal.dot_S1000000x1_S1x20_S1000000x20_1_0_0_1_n_n none (transpose S1000000x1 [1, 0] ww ht) e)))
        (Host.dotGeneral Cert.ReferenceIdeal.dot_S1000000x1_S1x20_S1000000x20_1_0_0_1_n_n none (transpose S1000000x1 [1, 0] ww ht) a) (ix2 i k) := by
    intro i k
    rw [hupd, addf_apply, mulf_apply, subf_apply, dot_outer_apply, dot_outer_apply, transpose_row_apply, hw,
      broadcastInDim_scalar_apply]
    rfl
  funext j
  rw [eq_ix2 (n0 := 1000000) (n1 := 20) j]
  exact key _ _

/-! ## The same over the two programs' buffer contents

The kernel's new memory is the third custom call's result itself. The reference's is the last of nine host operations.
Both are read off valuations of the two programs at the buffers those operations do not write. -/

section KernelSide
open Cert.KernelIdeal Cert.KernelIdeal.Gen
variable {F : FTy → Type} [FloatOps F]

/-- The kernel's buffers this part reads, at their array types: the memory, the write weighting as a row (`%214`) and
    as a column (`%318`), the erase row (`%30`), the add row (`%317`), and the third custom call's result (`%319`). -/
abbrev kOldMem (V : Valuation Cert.KernelIdeal.τ Cert.KernelIdeal.sig (Elt F)) : FVec F S1000000x20 .f32 := V (Proc.devRef .tc main_arg3)
abbrev kWriteRow (V : Valuation Cert.KernelIdeal.τ Cert.KernelIdeal.sig (Elt F)) : FVec F S1x1000000 .f32 := V (Proc.devRef .tc main_v214)
abbrev kWriteCol (V : Valuation Cert.KernelIdeal.τ Cert.KernelIdeal.sig (Elt F)) : FVec F S1000000x1 .f32 := V (Proc.devRef .tc main_v318)
abbrev kErase (V : Valuation Cert.KernelIdeal.τ Cert.KernelIdeal.sig (Elt F)) : FVec F S1x20 .f32 := V (Proc.devRef .tc main_v30)
abbrev kAdd (V : Valuation Cert.KernelIdeal.τ Cert.KernelIdeal.sig (Elt F)) : FVec F S1x20 .f32 := V (Proc.devRef .tc main_v317)
abbrev kNewMem (V : Valuation Cert.KernelIdeal.τ Cert.KernelIdeal.sig (Elt F)) : FVec F S1000000x20 .f32 := V (Proc.devRef .tc main_v319)

/-- The write weighting as a column: after a line of host operations closed by the reshape of the row (the kernel's
    `%318`), the column at `(i, 0)` is the row, as the line leaves it, at `(0, i)`. -/
theorem writeColumn_apply (L : List (HloOp Cert.KernelIdeal.τ Cert.KernelIdeal.sig (Elt F)))
    (V : Valuation Cert.KernelIdeal.τ Cert.KernelIdeal.sig (Elt F)) (i : Fin 1000000) :
    kWriteCol (StableHlo.after (L ++ [StableHlo.reshape main_v214 main_v318 rfl shapeCasts_S1x1000000_S1000000x1]) V) (ix2 i 0)
      = kWriteRow (StableHlo.after (L ++ [StableHlo.reshape main_v214 main_v318 rfl shapeCasts_S1x1000000_S1000000x1]) V) (ix2 0 i) := by
  show (StableHlo.after (L ++ [StableHlo.reshape main_v214 main_v318 rfl shapeCasts_S1x1000000_S1000000x1]) V
        (Proc.devRef .tc main_v318) : FVec F S1000000x1 .f32) (ix2 i 0)
      = (StableHlo.after (L ++ [StableHlo.reshape main_v214 main_v318 rfl shapeCasts_S1x1000000_S1000000x1]) V
        (Proc.devRef .tc main_v214) : FVec F S1x1000000 .f32) (ix2 0 i)
  rw [StableHlo.after_append]
  after_results
  exact reshape_row_apply_upd _ _ i

end KernelSide

section RefSide
variable {F : FTy → Type} [FloatOps F]

/-- The reference's buffers this part reads, at their array types: the memory, the write weighting (`%218`), the erase
    row (`%30`) and the add row (`%317`). -/
abbrev rOldMem (V : Valuation Cert.ReferenceIdeal.τ Cert.ReferenceIdeal.sig (Elt F)) : FVec F S1000000x20 .f32 := V (Proc.devRef .tc Cert.ReferenceIdeal.main_arg3)
abbrev rWriteRow (V : Valuation Cert.ReferenceIdeal.τ Cert.ReferenceIdeal.sig (Elt F)) : FVec F S1x1000000 .f32 := V (Proc.devRef .tc Cert.ReferenceIdeal.main_v218)
abbrev rErase (V : Valuation Cert.ReferenceIdeal.τ Cert.ReferenceIdeal.sig (Elt F)) : FVec F S1x20 .f32 := V (Proc.devRef .tc Cert.ReferenceIdeal.main_v30)
abbrev rAdd (V : Valuation Cert.ReferenceIdeal.τ Cert.ReferenceIdeal.sig (Elt F)) : FVec F S1x20 .f32 := V (Proc.devRef .tc Cert.ReferenceIdeal.main_v317)

/-- What the reference's nine operations leave in the new memory's buffer. -/
theorem refUpdate_result (V : Valuation Cert.ReferenceIdeal.τ Cert.ReferenceIdeal.sig (Elt F)) :
    (StableHlo.after Cert.ReferenceIdeal.Hand.ch6b V (Proc.devRef .tc Cert.ReferenceIdeal.main_v325) : FVec F S1000000x20 .f32)
      = addf
        (mulf (rOldMem V) (subf (broadcastInDim S1000000x20 ![] Cert.ReferenceIdeal.Gen.bcast_S_S1000000x20 (constant (F := F) S_ .f32 0x3F800000#32))
          (Host.dotGeneral Cert.ReferenceIdeal.dot_S1000000x1_S1x20_S1000000x20_1_0_0_1_n_n none
            (transpose S1000000x1 [1, 0] (rWriteRow V) Cert.ReferenceIdeal.Gen.transposes_S1x1000000_S1000000x1_1_0) (rErase V))))
        (Host.dotGeneral Cert.ReferenceIdeal.dot_S1000000x1_S1x20_S1000000x20_1_0_0_1_n_n none
          (transpose S1000000x1 [1, 0] (rWriteRow V) Cert.ReferenceIdeal.Gen.transposes_S1x1000000_S1000000x1_1_0) (rAdd V)) := by
  after_results
  all_goals rfl

end RefSide

/-- THE NEW MEMORY: the third custom call's result is the reference's. The hypotheses are about buffers the reference's
    nine operations do not write: the write weighting, the erase and add rows and the memory agree across the programs,
    the kernel's column is its write weighting, and the custom call's result is the fused update. -/
theorem update_bridge
    (Vk : Valuation Cert.KernelIdeal.τ Cert.KernelIdeal.sig (Elt Ideal))
    (Vr : Valuation Cert.ReferenceIdeal.τ Cert.ReferenceIdeal.sig (Elt Ideal))
    (hww : (Vk (Proc.devRef .tc Cert.KernelIdeal.main_v214) : FVec Ideal S1x1000000 .f32)
        = Vr (Proc.devRef .tc Cert.ReferenceIdeal.main_v218))
    (he : (Vk (Proc.devRef .tc Cert.KernelIdeal.main_v30) : FVec Ideal S1x20 .f32)
        = Vr (Proc.devRef .tc Cert.ReferenceIdeal.main_v30))
    (ha : (Vk (Proc.devRef .tc Cert.KernelIdeal.main_v317) : FVec Ideal S1x20 .f32)
        = Vr (Proc.devRef .tc Cert.ReferenceIdeal.main_v317))
    (hM : (Vk (Proc.devRef .tc Cert.KernelIdeal.main_arg3) : FVec Ideal S1000000x20 .f32)
        = Vr (Proc.devRef .tc Cert.ReferenceIdeal.main_arg3))
    (hcol : ∀ i : Fin 1000000, kWriteCol Vk (ix2 i 0) = kWriteRow Vk (ix2 0 i))
    (hupd : ∀ (i : Fin 1000000) (k : Fin 20), kNewMem Vk (ix2 i k)
        = kOldMem Vk (ix2 i k) * (Ideal.ofBits .f32 0x3F800000#32 - kWriteCol Vk (ix2 i 0) * kErase Vk (ix2 0 k))
          + kWriteCol Vk (ix2 i 0) * kAdd Vk (ix2 0 k)) :
    (Vk (Proc.devRef .tc Cert.KernelIdeal.main_v319) : FVec Ideal S1000000x20 .f32)
      = StableHlo.after Cert.ReferenceIdeal.Hand.ch6b Vr (Proc.devRef .tc Cert.ReferenceIdeal.main_v325) := by
  rw [refUpdate_result]
  rw [show rWriteRow Vr = kWriteRow Vk from hww.symm, show rErase Vr = kErase Vk from he.symm,
    show rAdd Vr = kAdd Vk from ha.symm, show rOldMem Vr = kOldMem Vk from hM.symm]
  exact update_eq _ _ _ _ _ _ hcol hupd _ _

/-! ## The same over the program's own line of host operations -/

section KernelLines
open Cert.KernelIdeal Cert.KernelIdeal.Gen
variable {F : FTy → Type} [FloatOps F]

set_option maxRecDepth 8000 in
/-- The line of host operations before the third custom call ends with the reshape of the write weighting to a column. -/
theorem hostOps2_12_split :
    (hostOps2_12 : List (HloOp Cert.KernelIdeal.τ Cert.KernelIdeal.sig (Elt F)))
      = hostOps2_12.dropLast ++ [StableHlo.reshape main_v214 main_v318 rfl shapeCasts_S1x1000000_S1000000x1] := rfl

/-- After that line the column at `(i, 0)` is the row at `(0, i)`. -/
theorem writeColumn_hostOps2_12 (V : Valuation Cert.KernelIdeal.τ Cert.KernelIdeal.sig (Elt F)) (i : Fin 1000000) :
    kWriteCol (StableHlo.after hostOps2_12 V) (ix2 i 0) = kWriteRow (StableHlo.after hostOps2_12 V) (ix2 0 i) := by
  rw [hostOps2_12_split]
  exact writeColumn_apply _ V i

end KernelLines

end Cert.Bridge
-- ==== Proof.Bridge.StationsH.lean ====
import proofs.«104005_j27152783245914_2_alg».proof.Proof.KI.Run
import proofs.«104005_j27152783245914_2_alg».proof.Proof.KI.Args
import proofs.«104005_j27152783245914_2_alg».proof.Proof.KI.Value1
import proofs.«104005_j27152783245914_2_alg».proof.Proof.KI.Value2
import proofs.«104005_j27152783245914_2_alg».proof.Proof.Ref.Run
import proofs.«104005_j27152783245914_2_alg».proof.Proof.Bridge.WalkRef
import proofs.«104005_j27152783245914_2_alg».proof.Proof.Bridge.Read
import proofs.«104005_j27152783245914_2_alg».proof.Proof.Bridge.Update

/-!
# Two stations of the value claim: the read vector and the new memory

Each station says that a buffer of the kernel's run, at a named stage, holds what a buffer of the reference's run holds
at a named stage. The read vector: the kernel's after the line of host operations that follows its second custom call,
the reference's after its contraction. The new memory: the kernel's at its return, the reference's after its last
operation. Each is the matching bridge theorem at the two stages' contents, its hypotheses walked back along the buffers
that the lines in between do not write and the arrays that a custom call only reads.
-/

noncomputable section

namespace Cert.Bridge

open Idealize.ShloMosaic Idealize.ShloMosaic.TcCoe Idealize.SL.Sem Idealize.ShloMosaic.StableHlo Idealize.ShloMosaic.ValueIdx
open Cert.KernelIdeal (S1x20 S20 S_ S2x20 S2x1x20 S1000000x1 S1x1000000 S1000000x20)
open Cert.KernelIdeal.Hand (W0 W4 W5 W6 W7 W8 W9 W10 W13 W14 W15 W16 W17 W28 W29 W30 Wfin V9 V15 V29)
open Cert.ReferenceIdeal.Hand (R0 R1a R1b R2 R3a R3b R4a R4b R6a R6b)

/-! ## A custom call keeps the arrays it only reads -/

section Kept
variable {F : FTy → Type} [FloatOps F]
variable (m : (ℓ : Loc Cert.KernelIdeal.nD Cert.KernelIdeal.τ Cert.KernelIdeal.sig) → Buf (Elt F) ℓ)
  (ρ : Dev Cert.KernelIdeal.nD → PrngReg) (c : Dev Cert.KernelIdeal.nD)

/-- The first custom call leaves a window's array it never writes back as it found it. -/
theorem stH_keep10 (w : Fin Cert.KernelIdeal.cfg0.W) (hin : (Cert.KernelIdeal.cfg0.win w).isOut = false) :
    W10 m ρ c (Proc.devRef .tc (Pipeline.arrRef Cert.KernelIdeal.spec0 w))
      = W9 m ρ c (Proc.devRef .tc (Pipeline.arrRef Cert.KernelIdeal.spec0 w)) :=
  (Cert.KernelIdeal.Hand.W10_arr m ρ c w).trans
    (((Cert.KernelIdeal.Hand.dat0 (V9 m ρ) c).arrAt_in w hin _).trans (Cert.KernelIdeal.Hand.A_eq0 (V9 m ρ) c w))

/-- The second custom call leaves a window's array it never writes back as it found it. -/
theorem stH_keep16 (w : Fin Cert.KernelIdeal.cfg1.W) (hin : (Cert.KernelIdeal.cfg1.win w).isOut = false) :
    W16 m ρ c (Proc.devRef .tc (Pipeline.arrRef Cert.KernelIdeal.spec1 w))
      = W15 m ρ c (Proc.devRef .tc (Pipeline.arrRef Cert.KernelIdeal.spec1 w)) :=
  (Cert.KernelIdeal.Hand.W16_arr m ρ c w).trans
    (((Cert.KernelIdeal.Hand.dat1 (V15 m ρ) c).arrAt_in w hin _).trans (Cert.KernelIdeal.Hand.A_eq1 (V15 m ρ) c w))

/-- The third custom call leaves a window's array it never writes back as it found it. -/
theorem stH_keep30 (w : Fin Cert.KernelIdeal.cfg2.W) (hin : (Cert.KernelIdeal.cfg2.win w).isOut = false) :
    W30 m ρ c (Proc.devRef .tc (Pipeline.arrRef Cert.KernelIdeal.spec2 w))
      = W29 m ρ c (Proc.devRef .tc (Pipeline.arrRef Cert.KernelIdeal.spec2 w)) :=
  (Cert.KernelIdeal.Hand.W30_arr m ρ c w).trans
    (((Cert.KernelIdeal.Hand.dat2 (V29 m ρ) c).arrAt_in w hin _).trans (Cert.KernelIdeal.Hand.A_eq2 (V29 m ρ) c w))

/-- The memory at the second custom call's entry is the launch's: no host line writes it and the first custom call only
    reads it. -/
theorem stH_W15_main_arg3 :
    W15 m ρ c (Proc.devRef .tc Cert.KernelIdeal.main_arg3) = m ((c : Thread Cert.KernelIdeal.nD Cert.KernelIdeal.τ).loc Cert.KernelIdeal.main_arg3) :=
  (Cert.KernelIdeal.Hand.W15_eq_W10 m ρ c Cert.KernelIdeal.main_arg3 (by decide)).trans <|
  (stH_keep10 m ρ c 0 rfl).trans <| (Cert.KernelIdeal.Hand.W9_eq_W0 m ρ c Cert.KernelIdeal.main_arg3 (by decide)).trans rfl

/-- The memory at the third custom call's entry is the launch's. -/
theorem stH_W29_main_arg3 :
    W29 m ρ c (Proc.devRef .tc Cert.KernelIdeal.main_arg3) = m ((c : Thread Cert.KernelIdeal.nD Cert.KernelIdeal.τ).loc Cert.KernelIdeal.main_arg3) :=
  (Cert.KernelIdeal.Hand.W29_eq_W16 m ρ c Cert.KernelIdeal.main_arg3 (by decide)).trans <|
  (stH_keep16 m ρ c 0 rfl).trans <| stH_W15_main_arg3 m ρ c

end Kept

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-! ## The new memory -/

/-- The new memory, from the agreement of the two sides' live buffers at the third custom call's entry. -/
theorem st_newmem_core
    (hww : (W29 m ρ c (Proc.devRef .tc Cert.KernelIdeal.main_v214) : FVec Ideal S1x1000000 .f32)
        = R6a m' c (Proc.devRef .tc Cert.ReferenceIdeal.main_v218))
    (h30 : (W29 m ρ c (Proc.devRef .tc Cert.KernelIdeal.main_v30) : FVec Ideal S1x20 .f32)
        = R6a m' c (Proc.devRef .tc Cert.ReferenceIdeal.main_v30))
    (h317 : (W29 m ρ c (Proc.devRef .tc Cert.KernelIdeal.main_v317) : FVec Ideal S1x20 .f32)
        = R6a m' c (Proc.devRef .tc Cert.ReferenceIdeal.main_v317))
    (hM : (W29 m ρ c (Proc.devRef .tc Cert.KernelIdeal.main_arg3) : FVec Ideal S1000000x20 .f32)
        = R6a m' c (Proc.devRef .tc Cert.ReferenceIdeal.main_arg3)) :
    (Wfin m ρ c (Proc.devRef .tc Cert.KernelIdeal.main_v319) : FVec Ideal S1000000x20 .f32)
      = R6b m' c (Proc.devRef .tc Cert.ReferenceIdeal.main_v325) := by
  have kM : W30 m ρ c (Proc.devRef .tc Cert.KernelIdeal.main_arg3) = W29 m ρ c (Proc.devRef .tc Cert.KernelIdeal.main_arg3) := stH_keep30 m ρ c 0 rfl
  have kw : W30 m ρ c (Proc.devRef .tc Cert.KernelIdeal.main_v318) = W29 m ρ c (Proc.devRef .tc Cert.KernelIdeal.main_v318) := stH_keep30 m ρ c 1 rfl
  have ke : W30 m ρ c (Proc.devRef .tc Cert.KernelIdeal.main_v30) = W29 m ρ c (Proc.devRef .tc Cert.KernelIdeal.main_v30) := stH_keep30 m ρ c 2 rfl
  have ka : W30 m ρ c (Proc.devRef .tc Cert.KernelIdeal.main_v317) = W29 m ρ c (Proc.devRef .tc Cert.KernelIdeal.main_v317) := stH_keep30 m ρ c 3 rfl
  have kr : W30 m ρ c (Proc.devRef .tc Cert.KernelIdeal.main_v214) = W29 m ρ c (Proc.devRef .tc Cert.KernelIdeal.main_v214) :=
    Cert.KernelIdeal.Hand.W30_of_ne m ρ c _ (by decide)
  have kn : W30 m ρ c (Proc.devRef .tc Cert.KernelIdeal.main_v319)
      = Cert.KernelIdeal.Hand.upd (V29 m ρ c Cert.KernelIdeal.main_arg3) (V29 m ρ c Cert.KernelIdeal.main_v318)
          (V29 m ρ c Cert.KernelIdeal.main_v30) (V29 m ρ c Cert.KernelIdeal.main_v317) :=
    (Cert.KernelIdeal.Hand.W30_arr m ρ c 4).trans (Cert.KernelIdeal.Hand.final2 (V29 m ρ) c)
  show (W30 m ρ c (Proc.devRef .tc Cert.KernelIdeal.main_v319) : FVec Ideal S1000000x20 .f32)
      = StableHlo.after Cert.ReferenceIdeal.Hand.ch6b (R6a m' c) (Proc.devRef .tc Cert.ReferenceIdeal.main_v325)
  refine update_bridge (W30 m ρ c) (R6a m' c) (kr.trans hww) (ke.trans h30) (ka.trans h317) (kM.trans hM) ?_ ?_
  · intro i
    show (W30 m ρ c (Proc.devRef .tc Cert.KernelIdeal.main_v318) : FVec Ideal S1000000x1 .f32) (ix2 i 0)
      = (W30 m ρ c (Proc.devRef .tc Cert.KernelIdeal.main_v214) : FVec Ideal S1x1000000 .f32) (ix2 0 i)
    rw [kw, kr]
    exact writeColumn_hostOps2_12 (W28 m ρ c) i
  · intro i k
    have e0 : kNewMem (W30 m ρ c) = Cert.KernelIdeal.Hand.upd (V29 m ρ c Cert.KernelIdeal.main_arg3)
        (V29 m ρ c Cert.KernelIdeal.main_v318) (V29 m ρ c Cert.KernelIdeal.main_v30) (V29 m ρ c Cert.KernelIdeal.main_v317) := kn
    have e1 : kOldMem (W30 m ρ c) = V29 m ρ c Cert.KernelIdeal.main_arg3 := kM
    have e2 : kWriteCol (W30 m ρ c) = V29 m ρ c Cert.KernelIdeal.main_v318 := kw
    have e3 : kErase (W30 m ρ c) = V29 m ρ c Cert.KernelIdeal.main_v30 := ke
    have e4 : kAdd (W30 m ρ c) = V29 m ρ c Cert.KernelIdeal.main_v317 := ka
    rw [e0, e1, e2, e3, e4]
    exact Cert.KernelIdeal.Hand.upd_apply_ideal _ _ _ _ i k

/-- THE NEW MEMORY at the kernel's return is the reference's, given that the two launches hold the same memory. -/
theorem st_newmem_of_arg3 (hA3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (hww : (W15 m ρ c (Proc.devRef .tc Cert.KernelIdeal.main_v214) : FVec Ideal S1x1000000 .f32)
        = R3b m' c (Proc.devRef .tc Cert.ReferenceIdeal.main_v218))
    (h30 : (W4 m ρ c (Proc.devRef .tc Cert.KernelIdeal.main_v30) : FVec Ideal S1x20 .f32)
        = R0 m' c (Proc.devRef .tc Cert.ReferenceIdeal.main_v30))
    (h317 : (W29 m ρ c (Proc.devRef .tc Cert.KernelIdeal.main_v317) : FVec Ideal S1x20 .f32)
        = R6a m' c (Proc.devRef .tc Cert.ReferenceIdeal.main_v317)) :
    (Wfin m ρ c (Proc.devRef .tc Cert.KernelIdeal.main_v319) : FVec Ideal S1000000x20 .f32)
      = R6b m' c (Proc.devRef .tc Cert.ReferenceIdeal.main_v325) := by
  refine st_newmem_core m ρ m' c ?_ ?_ h317 ?_
  · -- the write weighting: kept from the second custom call's entry, and from the reference's chunk that made it
    exact ((Cert.KernelIdeal.Hand.W29_eq_W16 m ρ c Cert.KernelIdeal.main_v214 (by decide)).trans
      (Cert.KernelIdeal.Hand.W16_of m ρ c Cert.KernelIdeal.main_v214 (by decide))).trans
      (hww.trans (rk_3b_6a m' c Cert.ReferenceIdeal.main_v218).symm)
  · -- the erase row: kept from the controller's stage on both sides
    exact ((Cert.KernelIdeal.Hand.W29_eq_W16 m ρ c Cert.KernelIdeal.main_v30 (by decide)).trans <|
      (Cert.KernelIdeal.Hand.W16_of m ρ c Cert.KernelIdeal.main_v30 (by decide)).trans <|
      (Cert.KernelIdeal.Hand.W15_eq_W10 m ρ c Cert.KernelIdeal.main_v30 (by decide)).trans <|
      (Cert.KernelIdeal.Hand.W10_of m ρ c Cert.KernelIdeal.main_v30 (by decide)).trans <|
      (Cert.KernelIdeal.Hand.W9_of m ρ c Cert.KernelIdeal.main_v30 (by decide)).trans <|
      (Cert.KernelIdeal.Hand.W8_of m ρ c Cert.KernelIdeal.main_v30 (by decide)).trans <|
      (Cert.KernelIdeal.Hand.W7_of m ρ c Cert.KernelIdeal.main_v30 (by decide)).trans <|
      (Cert.KernelIdeal.Hand.W6_of m ρ c Cert.KernelIdeal.main_v30 (by decide)).trans <|
      Cert.KernelIdeal.Hand.W5_of m ρ c Cert.KernelIdeal.main_v30 (by decide)).trans
      (h30.trans (rk_0_6a m' c Cert.ReferenceIdeal.main_v30).symm)
  · -- the memory: the launch's on both sides
    exact (stH_W29_main_arg3 m ρ c).trans (((rk_arg_6a m' c Cert.ReferenceIdeal.main_arg3).trans hA3).symm)

/-! ## The read vector -/

/-- The read vector, from the agreement of the two sides' live buffers at the second custom call's entry. -/
theorem st_nrh_core
    (hrw : (W15 m ρ c (Proc.devRef .tc Cert.KernelIdeal.main_v157) : FVec Ideal S1x1000000 .f32)
        = R3b m' c (Proc.devRef .tc Cert.ReferenceIdeal.main_v126))
    (hM : (W15 m ρ c (Proc.devRef .tc Cert.KernelIdeal.main_arg3) : FVec Ideal S1000000x20 .f32)
        = R3b m' c (Proc.devRef .tc Cert.ReferenceIdeal.main_arg3)) :
    (W17 m ρ c (Proc.devRef .tc Cert.KernelIdeal.main_v219) : FVec Ideal S1x20 .f32)
      = R4a m' c (Proc.devRef .tc Cert.ReferenceIdeal.main_v219) := by
  have kM : W16 m ρ c (Proc.devRef .tc Cert.KernelIdeal.main_arg3) = W15 m ρ c (Proc.devRef .tc Cert.KernelIdeal.main_arg3) := stH_keep16 m ρ c 0 rfl
  have kc : W16 m ρ c (Proc.devRef .tc Cert.KernelIdeal.main_v215) = W15 m ρ c (Proc.devRef .tc Cert.KernelIdeal.main_v215) := stH_keep16 m ρ c 1 rfl
  have kr : W16 m ρ c (Proc.devRef .tc Cert.KernelIdeal.main_v157) = W15 m ρ c (Proc.devRef .tc Cert.KernelIdeal.main_v157) :=
    Cert.KernelIdeal.Hand.W16_of_ne m ρ c _ (by decide)
  have kp : W16 m ρ c (Proc.devRef .tc Cert.KernelIdeal.main_v216)
      = Cert.KernelIdeal.Hand.part (V15 m ρ c Cert.KernelIdeal.main_arg3) (V15 m ρ c Cert.KernelIdeal.main_v215) :=
    (Cert.KernelIdeal.Hand.W16_arr m ρ c 2).trans (Cert.KernelIdeal.Hand.final1 (V15 m ρ) c)
  show (StableHlo.after Cert.KernelIdeal.Gen.hostOps2 (W16 m ρ c) (Proc.devRef .tc Cert.KernelIdeal.main_v219) : FVec Ideal S1x20 .f32)
      = StableHlo.after Cert.ReferenceIdeal.Hand.ch4a (R3b m' c) (Proc.devRef .tc Cert.ReferenceIdeal.main_v219)
  refine read_bridge_hostOps2 (W16 m ρ c) (R3b m' c) (kr.trans hrw) (kM.trans hM) ?_ ?_
  · intro i
    show (W16 m ρ c (Proc.devRef .tc Cert.KernelIdeal.main_v215) : FVec Ideal S1000000x1 .f32) (ix2 i 0)
      = (W16 m ρ c (Proc.devRef .tc Cert.KernelIdeal.main_v157) : FVec Ideal S1x1000000 .f32) (ix2 0 i)
    rw [kc, kr]
    exact readColumn_hostOps1_4 (W14 m ρ c) i
  · intro p k
    have e0 : kPart (W16 m ρ c) = Cert.KernelIdeal.Hand.part (V15 m ρ c Cert.KernelIdeal.main_arg3) (V15 m ρ c Cert.KernelIdeal.main_v215) := kp
    have e1 : kMem (W16 m ρ c) = V15 m ρ c Cert.KernelIdeal.main_arg3 := kM
    have e2 : kReadCol (W16 m ρ c) = V15 m ρ c Cert.KernelIdeal.main_v215 := kc
    rw [e0, e1, e2]
    exact Cert.KernelIdeal.Hand.part_apply _ _ p k

/-- THE READ VECTOR after the kernel's host line that follows its second custom call is the reference's, given that the
    two launches hold the same memory. -/
theorem st_nrh_of_arg3 (hA3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (hrw : (W13 m ρ c (Proc.devRef .tc Cert.KernelIdeal.main_v157) : FVec Ideal S1x1000000 .f32)
        = R1b m' c (Proc.devRef .tc Cert.ReferenceIdeal.main_v126)) :
    (W17 m ρ c (Proc.devRef .tc Cert.KernelIdeal.main_v219) : FVec Ideal S1x20 .f32)
      = R4a m' c (Proc.devRef .tc Cert.ReferenceIdeal.main_v219) := by
  refine st_nrh_core m ρ m' c ?_ ?_
  · -- the read weighting: kept from the stage that made it, on both sides
    exact ((Cert.KernelIdeal.Hand.W15_of m ρ c Cert.KernelIdeal.main_v157 (by decide)).trans
      (Cert.KernelIdeal.Hand.W14_of m ρ c Cert.KernelIdeal.main_v157 (by decide))).trans
      (hrw.trans (rk_1b_3b m' c Cert.ReferenceIdeal.main_v126).symm)
  · -- the memory: the launch's on both sides
    exact (stH_W15_main_arg3 m ρ c).trans (((rk_arg_3b m' c Cert.ReferenceIdeal.main_arg3).trans hA3).symm)

end Cert.Bridge
-- ==== Proof.Bridge.SameS.lean ====
/-
The two heads' shift, sharpening and normalisation. From the gated weights on, the kernel program (read head: the
second part of its stretch `hostOps1_2`, %130 … %157; write head: inside `hostOps1_4`, %187 … %214) and the
reference (%99 … %126; %191 … %218) run the same operations, so each head's weights are the same function of its
gated weights, its shift weights and its sharpening exponent.
-/
import proofs.«104005_j27152783245914_2_alg».proof.Proof.Gen.KernelIdeal.Launch
import proofs.«104005_j27152783245914_2_alg».proof.Proof.Ref.Ops
import Idealize.ShloMosaic.Lib.StableHlo.Run
import Idealize.ShloMosaic.Lib.Pipeline.Frame

noncomputable section

namespace Cert.Bridge

open Idealize.ShloMosaic Idealize.ShloMosaic.TcCoe Idealize.SL.Sem

variable {F : FTy → Type} [FloatOps F]

section KernelLists
open Cert.KernelIdeal Cert.KernelIdeal.Gen
set_option maxHeartbeats 40000000 in
/-- The stretch `hostOps1_2` up to the gated read weights %129. -/
abbrev sr_pre : List (HloOp τ sig (Elt F)) :=
  ( StableHlo.nullary main_cst_15 (constant S_ .f32 0x322BCC77#32)
  :: StableHlo.unary main_cst_15 main_v102 (broadcastInDim S1 ![] bcast_S_S1 : (⟨S_, .f32⟩ : BufTy).Contents (Elt F) → (⟨S1, .f32⟩ : BufTy).Contents (Elt F))
  :: StableHlo.binary main_v101 main_v102 main_v103 (maximumf : (⟨S1, .f32⟩ : BufTy).Contents (Elt F) → (⟨S1, .f32⟩ : BufTy).Contents (Elt F) → (⟨S1, .f32⟩ : BufTy).Contents (Elt F))
  :: StableHlo.nullary main_cst_16 (constant S_ .f32 0x322BCC77#32)
  :: StableHlo.unary main_cst_16 main_v104 (broadcastInDim S1000000x1 ![] bcast_S_S1000000x1 : (⟨S_, .f32⟩ : BufTy).Contents (Elt F) → (⟨S1000000x1, .f32⟩ : BufTy).Contents (Elt F))
  :: StableHlo.binary main_v98 main_v104 main_v105 (maximumf : (⟨S1000000x1, .f32⟩ : BufTy).Contents (Elt F) → (⟨S1000000x1, .f32⟩ : BufTy).Contents (Elt F) → (⟨S1000000x1, .f32⟩ : BufTy).Contents (Elt F))
  :: StableHlo.unary main_v103 main_v106 (broadcastInDim S1x1 ![1] bcast_S1_S1x1_1 : (⟨S1, .f32⟩ : BufTy).Contents (Elt F) → (⟨S1x1, .f32⟩ : BufTy).Contents (Elt F))
  :: StableHlo.unary main_v106 main_v107 (broadcastInDim S1000000x1 ![0, 1] bcast_S1x1_S1000000x1_0_1 : (⟨S1x1, .f32⟩ : BufTy).Contents (Elt F) → (⟨S1000000x1, .f32⟩ : BufTy).Contents (Elt F))
  :: StableHlo.binary main_v105 main_v107 main_v108 (mulf : (⟨S1000000x1, .f32⟩ : BufTy).Contents (Elt F) → (⟨S1000000x1, .f32⟩ : BufTy).Contents (Elt F) → (⟨S1000000x1, .f32⟩ : BufTy).Contents (Elt F))
  :: StableHlo.binary main_v99 main_v108 main_v109 (Host.divf : (⟨S1000000x1, .f32⟩ : BufTy).Contents (Elt F) → (⟨S1000000x1, .f32⟩ : BufTy).Contents (Elt F) → (⟨S1000000x1, .f32⟩ : BufTy).Contents (Elt F))
  :: StableHlo.unary main_v63 main_v110 (broadcastInDim S1000000x1 ![] bcast_S_S1000000x1 : (⟨S_, .f32⟩ : BufTy).Contents (Elt F) → (⟨S1000000x1, .f32⟩ : BufTy).Contents (Elt F))
  :: StableHlo.binary main_v109 main_v110 main_v111 (mulf : (⟨S1000000x1, .f32⟩ : BufTy).Contents (Elt F) → (⟨S1000000x1, .f32⟩ : BufTy).Contents (Elt F) → (⟨S1000000x1, .f32⟩ : BufTy).Contents (Elt F))
  :: StableHlo.reshape main_v111 main_v112 rfl shapeCasts_S1000000x1_S1x1000000
  :: StableHlo.nullary main_cst_17 (constant S_ .f32 0xFF800000#32)
  :: StableHlo.binary main_v112 main_cst_17 main_v113 ((fun x v => Host.reduce FloatOps.maximumf x v reducesTo_S1x1000000_S1_d1 h_S_) : (⟨S1x1000000, .f32⟩ : BufTy).Contents (Elt F) → (⟨S_, .f32⟩ : BufTy).Contents (Elt F) → (⟨S1, .f32⟩ : BufTy).Contents (Elt F))
  :: StableHlo.nullary main_cst_18 (constant S_ .f32 0xFF800000#32)
  :: StableHlo.unary main_cst_18 main_v114 (broadcastInDim S1 ![] bcast_S_S1 : (⟨S_, .f32⟩ : BufTy).Contents (Elt F) → (⟨S1, .f32⟩ : BufTy).Contents (Elt F))
  :: StableHlo.binary main_v114 main_v113 main_v115 (maximumf : (⟨S1, .f32⟩ : BufTy).Contents (Elt F) → (⟨S1, .f32⟩ : BufTy).Contents (Elt F) → (⟨S1, .f32⟩ : BufTy).Contents (Elt F))
  :: StableHlo.unary main_v115 main_v116 (broadcastInDim S1x1 ![0] bcast_S1_S1x1_0 : (⟨S1, .f32⟩ : BufTy).Contents (Elt F) → (⟨S1x1, .f32⟩ : BufTy).Contents (Elt F))
  :: StableHlo.unary main_v116 main_v117 (broadcastInDim S1x1000000 ![0, 1] bcast_S1x1_S1x1000000_0_1 : (⟨S1x1, .f32⟩ : BufTy).Contents (Elt F) → (⟨S1x1000000, .f32⟩ : BufTy).Contents (Elt F))
  :: StableHlo.binary main_v112 main_v117 main_v118 (subf : (⟨S1x1000000, .f32⟩ : BufTy).Contents (Elt F) → (⟨S1x1000000, .f32⟩ : BufTy).Contents (Elt F) → (⟨S1x1000000, .f32⟩ : BufTy).Contents (Elt F))
  :: StableHlo.unary main_v118 main_v119 (Host.exp : (⟨S1x1000000, .f32⟩ : BufTy).Contents (Elt F) → (⟨S1x1000000, .f32⟩ : BufTy).Contents (Elt F))
  :: StableHlo.nullary main_cst_19 (constant S_ .f32 0x00000000#32)
  :: StableHlo.binary main_v119 main_cst_19 main_v120 ((fun x v => Host.reduceAdd x v reducesTo_S1x1000000_S1_d1 h_S_) : (⟨S1x1000000, .f32⟩ : BufTy).Contents (Elt F) → (⟨S_, .f32⟩ : BufTy).Contents (Elt F) → (⟨S1, .f32⟩ : BufTy).Contents (Elt F))
  :: StableHlo.unary main_v120 main_v121 (broadcastInDim S1x1 ![0] bcast_S1_S1x1_0 : (⟨S1, .f32⟩ : BufTy).Contents (Elt F) → (⟨S1x1, .f32⟩ : BufTy).Contents (Elt F))
  :: StableHlo.unary main_v121 main_v122 (broadcastInDim S1x1000000 ![0, 1] bcast_S1x1_S1x1000000_0_1 : (⟨S1x1, .f32⟩ : BufTy).Contents (Elt F) → (⟨S1x1000000, .f32⟩ : BufTy).Contents (Elt F))
  :: StableHlo.binary main_v119 main_v122 main_v123 (Host.divf : (⟨S1x1000000, .f32⟩ : BufTy).Contents (Elt F) → (⟨S1x1000000, .f32⟩ : BufTy).Contents (Elt F) → (⟨S1x1000000, .f32⟩ : BufTy).Contents (Elt F))
  :: StableHlo.unary main_v44 main_v124 (broadcastInDim S1x1000000 ![] bcast_S_S1x1000000 : (⟨S_, .f32⟩ : BufTy).Contents (Elt F) → (⟨S1x1000000, .f32⟩ : BufTy).Contents (Elt F))
  :: StableHlo.binary main_v124 main_v123 main_v125 (mulf : (⟨S1x1000000, .f32⟩ : BufTy).Contents (Elt F) → (⟨S1x1000000, .f32⟩ : BufTy).Contents (Elt F) → (⟨S1x1000000, .f32⟩ : BufTy).Contents (Elt F))
  :: StableHlo.nullary main_cst_20 (constant S_ .f32 0x3F800000#32)
  :: StableHlo.binary main_cst_20 main_v44 main_v126 (subf : (⟨S_, .f32⟩ : BufTy).Contents (Elt F) → (⟨S_, .f32⟩ : BufTy).Contents (Elt F) → (⟨S_, .f32⟩ : BufTy).Contents (Elt F))
  :: StableHlo.unary main_v126 main_v127 (broadcastInDim S1x1000000 ![] bcast_S_S1x1000000 : (⟨S_, .f32⟩ : BufTy).Contents (Elt F) → (⟨S1x1000000, .f32⟩ : BufTy).Contents (Elt F))
  :: StableHlo.binary main_v127 main_arg1 main_v128 (mulf : (⟨S1x1000000, .f32⟩ : BufTy).Contents (Elt F) → (⟨S1x1000000, .f32⟩ : BufTy).Contents (Elt F) → (⟨S1x1000000, .f32⟩ : BufTy).Contents (Elt F))
  :: StableHlo.binary main_v125 main_v128 main_v129 (addf : (⟨S1x1000000, .f32⟩ : BufTy).Contents (Elt F) → (⟨S1x1000000, .f32⟩ : BufTy).Contents (Elt F) → (⟨S1x1000000, .f32⟩ : BufTy).Contents (Elt F))
  :: [] )
set_option maxHeartbeats 40000000 in
/-- The stretch `hostOps1_2` from %130 on: circular shift, sharpening, normalisation. -/
abbrev sr_ops : List (HloOp τ sig (Elt F)) :=
  ( StableHlo.unary main_v129 main_v130 ((extractStridedSlice S1x1 ![0, 999999] · slices_S1x1000000_S1x1_0_999999) : (⟨S1x1000000, .f32⟩ : BufTy).Contents (Elt F) → (⟨S1x1, .f32⟩ : BufTy).Contents (Elt F))
  :: StableHlo.unary main_v129 main_v131 ((extractStridedSlice S1x1 ![0, 0] · slices_S1x1000000_S1x1_0_0) : (⟨S1x1000000, .f32⟩ : BufTy).Contents (Elt F) → (⟨S1x1, .f32⟩ : BufTy).Contents (Elt F))
  :: StableHlo.nary ![main_v130, main_v129, main_v131] main_v132 (fun u => concatenate S1x1000002 1 [⟨S1x1, u 0⟩, ⟨S1x1000000, u 1⟩, ⟨S1x1, u 2⟩] concatenates_S1x1_S1x1000000_S1x1_S1x1000002_d1)
  :: StableHlo.unary main_v56 main_v133 ((extractStridedSlice S1 ![0] · slices_S3_S1_0) : (⟨S3, .f32⟩ : BufTy).Contents (Elt F) → (⟨S1, .f32⟩ : BufTy).Contents (Elt F))
  :: StableHlo.reshape main_v133 main_v134 rfl shapeCasts_S1_S_
  :: StableHlo.unary main_v132 main_v135 ((extractStridedSlice S1x1000000 ![0, 0] · slices_S1x1000002_S1x1000000_0_0) : (⟨S1x1000002, .f32⟩ : BufTy).Contents (Elt F) → (⟨S1x1000000, .f32⟩ : BufTy).Contents (Elt F))
  :: StableHlo.unary main_v134 main_v136 (broadcastInDim S1x1000000 ![] bcast_S_S1x1000000 : (⟨S_, .f32⟩ : BufTy).Contents (Elt F) → (⟨S1x1000000, .f32⟩ : BufTy).Contents (Elt F))
  :: StableHlo.binary main_v136 main_v135 main_v137 (mulf : (⟨S1x1000000, .f32⟩ : BufTy).Contents (Elt F) → (⟨S1x1000000, .f32⟩ : BufTy).Contents (Elt F) → (⟨S1x1000000, .f32⟩ : BufTy).Contents (Elt F))
  :: StableHlo.unary main_v56 main_v138 ((extractStridedSlice S1 ![1] · slices_S3_S1_1) : (⟨S3, .f32⟩ : BufTy).Contents (Elt F) → (⟨S1, .f32⟩ : BufTy).Contents (Elt F))
  :: StableHlo.reshape main_v138 main_v139 rfl shapeCasts_S1_S_
  :: StableHlo.unary main_v132 main_v140 ((extractStridedSlice S1x1000000 ![0, 1] · slices_S1x1000002_S1x1000000_0_1) : (⟨S1x1000002, .f32⟩ : BufTy).Contents (Elt F) → (⟨S1x1000000, .f32⟩ : BufTy).Contents (Elt F))
  :: StableHlo.unary main_v139 main_v141 (broadcastInDim S1x1000000 ![] bcast_S_S1x1000000 : (⟨S_, .f32⟩ : BufTy).Contents (Elt F) → (⟨S1x1000000, .f32⟩ : BufTy).Contents (Elt F))
  :: StableHlo.binary main_v141 main_v140 main_v142 (mulf : (⟨S1x1000000, .f32⟩ : BufTy).Contents (Elt F) → (⟨S1x1000000, .f32⟩ : BufTy).Contents (Elt F) → (⟨S1x1000000, .f32⟩ : BufTy).Contents (Elt F))
  :: StableHlo.binary main_v137 main_v142 main_v143 (addf : (⟨S1x1000000, .f32⟩ : BufTy).Contents (Elt F) → (⟨S1x1000000, .f32⟩ : BufTy).Contents (Elt F) → (⟨S1x1000000, .f32⟩ : BufTy).Contents (Elt F))
  :: StableHlo.unary main_v56 main_v144 ((extractStridedSlice S1 ![2] · slices_S3_S1_2) : (⟨S3, .f32⟩ : BufTy).Contents (Elt F) → (⟨S1, .f32⟩ : BufTy).Contents (Elt F))
  :: StableHlo.reshape main_v144 main_v145 rfl shapeCasts_S1_S_
  :: StableHlo.unary main_v132 main_v146 ((extractStridedSlice S1x1000000 ![0, 2] · slices_S1x1000002_S1x1000000_0_2) : (⟨S1x1000002, .f32⟩ : BufTy).Contents (Elt F) → (⟨S1x1000000, .f32⟩ : BufTy).Contents (Elt F))
  :: StableHlo.unary main_v145 main_v147 (broadcastInDim S1x1000000 ![] bcast_S_S1x1000000 : (⟨S_, .f32⟩ : BufTy).Contents (Elt F) → (⟨S1x1000000, .f32⟩ : BufTy).Contents (Elt F))
  :: StableHlo.binary main_v147 main_v146 main_v148 (mulf : (⟨S1x1000000, .f32⟩ : BufTy).Contents (Elt F) → (⟨S1x1000000, .f32⟩ : BufTy).Contents (Elt F) → (⟨S1x1000000, .f32⟩ : BufTy).Contents (Elt F))
  :: StableHlo.binary main_v143 main_v148 main_v149 (addf : (⟨S1x1000000, .f32⟩ : BufTy).Contents (Elt F) → (⟨S1x1000000, .f32⟩ : BufTy).Contents (Elt F) → (⟨S1x1000000, .f32⟩ : BufTy).Contents (Elt F))
  :: StableHlo.unary main_v60 main_v150 (broadcastInDim S1x1000000 ![] bcast_S_S1x1000000 : (⟨S_, .f32⟩ : BufTy).Contents (Elt F) → (⟨S1x1000000, .f32⟩ : BufTy).Contents (Elt F))
  :: StableHlo.binary main_v149 main_v150 main_v151 (Host.powf : (⟨S1x1000000, .f32⟩ : BufTy).Contents (Elt F) → (⟨S1x1000000, .f32⟩ : BufTy).Contents (Elt F) → (⟨S1x1000000, .f32⟩ : BufTy).Contents (Elt F))
  :: StableHlo.nullary main_cst_21 (constant S_ .f32 0x00000000#32)
  :: StableHlo.binary main_v151 main_cst_21 main_v152 ((fun x v => Host.reduceAdd x v reducesTo_S1x1000000_S1_d1 h_S_) : (⟨S1x1000000, .f32⟩ : BufTy).Contents (Elt F) → (⟨S_, .f32⟩ : BufTy).Contents (Elt F) → (⟨S1, .f32⟩ : BufTy).Contents (Elt F))
  :: StableHlo.unary main_v152 main_v153 (broadcastInDim S1x1 ![0] bcast_S1_S1x1_0 : (⟨S1, .f32⟩ : BufTy).Contents (Elt F) → (⟨S1x1, .f32⟩ : BufTy).Contents (Elt F))
  :: StableHlo.nullary main_cst_22 (constant S_ .f32 0x24E69595#32)
  :: StableHlo.unary main_cst_22 main_v154 (broadcastInDim S1x1 ![] bcast_S_S1x1 : (⟨S_, .f32⟩ : BufTy).Contents (Elt F) → (⟨S1x1, .f32⟩ : BufTy).Contents (Elt F))
  :: StableHlo.binary main_v153 main_v154 main_v155 (addf : (⟨S1x1, .f32⟩ : BufTy).Contents (Elt F) → (⟨S1x1, .f32⟩ : BufTy).Contents (Elt F) → (⟨S1x1, .f32⟩ : BufTy).Contents (Elt F))
  :: StableHlo.unary main_v155 main_v156 (broadcastInDim S1x1000000 ![0, 1] bcast_S1x1_S1x1000000_0_1 : (⟨S1x1, .f32⟩ : BufTy).Contents (Elt F) → (⟨S1x1000000, .f32⟩ : BufTy).Contents (Elt F))
  :: StableHlo.binary main_v151 main_v156 main_v157 (Host.divf : (⟨S1x1000000, .f32⟩ : BufTy).Contents (Elt F) → (⟨S1x1000000, .f32⟩ : BufTy).Contents (Elt F) → (⟨S1x1000000, .f32⟩ : BufTy).Contents (Elt F))
  :: [] )
set_option maxHeartbeats 40000000 in
set_option maxRecDepth 8192 in
theorem hostOps1_2_cut : (Gen.hostOps1_2 : List (HloOp τ sig (Elt F))) = sr_pre ++ sr_ops := rfl
set_option maxHeartbeats 40000000 in
/-- The stretch `hostOps1_4` up to the gated write weights %186. -/
abbrev sw_pre : List (HloOp τ sig (Elt F)) :=
  ( StableHlo.nullary main_cst_23 (constant S_ .f32 0x322BCC77#32)
  :: StableHlo.unary main_cst_23 main_v159 (broadcastInDim S1 ![] bcast_S_S1 : (⟨S_, .f32⟩ : BufTy).Contents (Elt F) → (⟨S1, .f32⟩ : BufTy).Contents (Elt F))
  :: StableHlo.binary main_v158 main_v159 main_v160 (maximumf : (⟨S1, .f32⟩ : BufTy).Contents (Elt F) → (⟨S1, .f32⟩ : BufTy).Contents (Elt F) → (⟨S1, .f32⟩ : BufTy).Contents (Elt F))
  :: StableHlo.nullary main_cst_24 (constant S_ .f32 0x322BCC77#32)
  :: StableHlo.unary main_cst_24 main_v161 (broadcastInDim S1000000x1 ![] bcast_S_S1000000x1 : (⟨S_, .f32⟩ : BufTy).Contents (Elt F) → (⟨S1000000x1, .f32⟩ : BufTy).Contents (Elt F))
  :: StableHlo.binary main_v98 main_v161 main_v162 (maximumf : (⟨S1000000x1, .f32⟩ : BufTy).Contents (Elt F) → (⟨S1000000x1, .f32⟩ : BufTy).Contents (Elt F) → (⟨S1000000x1, .f32⟩ : BufTy).Contents (Elt F))
  :: StableHlo.unary main_v160 main_v163 (broadcastInDim S1x1 ![1] bcast_S1_S1x1_1 : (⟨S1, .f32⟩ : BufTy).Contents (Elt F) → (⟨S1x1, .f32⟩ : BufTy).Contents (Elt F))
  :: StableHlo.unary main_v163 main_v164 (broadcastInDim S1000000x1 ![0, 1] bcast_S1x1_S1000000x1_0_1 : (⟨S1x1, .f32⟩ : BufTy).Contents (Elt F) → (⟨S1000000x1, .f32⟩ : BufTy).Contents (Elt F))
  :: StableHlo.binary main_v162 main_v164 main_v165 (mulf : (⟨S1000000x1, .f32⟩ : BufTy).Contents (Elt F) → (⟨S1000000x1, .f32⟩ : BufTy).Contents (Elt F) → (⟨S1000000x1, .f32⟩ : BufTy).Contents (Elt F))
  :: StableHlo.binary main_v100 main_v165 main_v166 (Host.divf : (⟨S1000000x1, .f32⟩ : BufTy).Contents (Elt F) → (⟨S1000000x1, .f32⟩ : BufTy).Contents (Elt F) → (⟨S1000000x1, .f32⟩ : BufTy).Contents (Elt F))
  :: StableHlo.unary main_v92 main_v167 (broadcastInDim S1000000x1 ![] bcast_S_S1000000x1 : (⟨S_, .f32⟩ : BufTy).Contents (Elt F) → (⟨S1000000x1, .f32⟩ : BufTy).Contents (Elt F))
  :: StableHlo.binary main_v166 main_v167 main_v168 (mulf : (⟨S1000000x1, .f32⟩ : BufTy).Contents (Elt F) → (⟨S1000000x1, .f32⟩ : BufTy).Contents (Elt F) → (⟨S1000000x1, .f32⟩ : BufTy).Contents (Elt F))
  :: StableHlo.reshape main_v168 main_v169 rfl shapeCasts_S1000000x1_S1x1000000
  :: StableHlo.nullary main_cst_25 (constant S_ .f32 0xFF800000#32)
  :: StableHlo.binary main_v169 main_cst_25 main_v170 ((fun x v => Host.reduce FloatOps.maximumf x v reducesTo_S1x1000000_S1_d1 h_S_) : (⟨S1x1000000, .f32⟩ : BufTy).Contents (Elt F) → (⟨S_, .f32⟩ : BufTy).Contents (Elt F) → (⟨S1, .f32⟩ : BufTy).Contents (Elt F))
  :: StableHlo.nullary main_cst_26 (constant S_ .f32 0xFF800000#32)
  :: StableHlo.unary main_cst_26 main_v171 (broadcastInDim S1 ![] bcast_S_S1 : (⟨S_, .f32⟩ : BufTy).Contents (Elt F) → (⟨S1, .f32⟩ : BufTy).Contents (Elt F))
  :: StableHlo.binary main_v171 main_v170 main_v172 (maximumf : (⟨S1, .f32⟩ : BufTy).Contents (Elt F) → (⟨S1, .f32⟩ : BufTy).Contents (Elt F) → (⟨S1, .f32⟩ : BufTy).Contents (Elt F))
  :: StableHlo.unary main_v172 main_v173 (broadcastInDim S1x1 ![0] bcast_S1_S1x1_0 : (⟨S1, .f32⟩ : BufTy).Contents (Elt F) → (⟨S1x1, .f32⟩ : BufTy).Contents (Elt F))
  :: StableHlo.unary main_v173 main_v174 (broadcastInDim S1x1000000 ![0, 1] bcast_S1x1_S1x1000000_0_1 : (⟨S1x1, .f32⟩ : BufTy).Contents (Elt F) → (⟨S1x1000000, .f32⟩ : BufTy).Contents (Elt F))
  :: StableHlo.binary main_v169 main_v174 main_v175 (subf : (⟨S1x1000000, .f32⟩ : BufTy).Contents (Elt F) → (⟨S1x1000000, .f32⟩ : BufTy).Contents (Elt F) → (⟨S1x1000000, .f32⟩ : BufTy).Contents (Elt F))
  :: StableHlo.unary main_v175 main_v176 (Host.exp : (⟨S1x1000000, .f32⟩ : BufTy).Contents (Elt F) → (⟨S1x1000000, .f32⟩ : BufTy).Contents (Elt F))
  :: StableHlo.nullary main_cst_27 (constant S_ .f32 0x00000000#32)
  :: StableHlo.binary main_v176 main_cst_27 main_v177 ((fun x v => Host.reduceAdd x v reducesTo_S1x1000000_S1_d1 h_S_) : (⟨S1x1000000, .f32⟩ : BufTy).Contents (Elt F) → (⟨S_, .f32⟩ : BufTy).Contents (Elt F) → (⟨S1, .f32⟩ : BufTy).Contents (Elt F))
  :: StableHlo.unary main_v177 main_v178 (broadcastInDim S1x1 ![0] bcast_S1_S1x1_0 : (⟨S1, .f32⟩ : BufTy).Contents (Elt F) → (⟨S1x1, .f32⟩ : BufTy).Contents (Elt F))
  :: StableHlo.unary main_v178 main_v179 (broadcastInDim S1x1000000 ![0, 1] bcast_S1x1_S1x1000000_0_1 : (⟨S1x1, .f32⟩ : BufTy).Contents (Elt F) → (⟨S1x1000000, .f32⟩ : BufTy).Contents (Elt F))
  :: StableHlo.binary main_v176 main_v179 main_v180 (Host.divf : (⟨S1x1000000, .f32⟩ : BufTy).Contents (Elt F) → (⟨S1x1000000, .f32⟩ : BufTy).Contents (Elt F) → (⟨S1x1000000, .f32⟩ : BufTy).Contents (Elt F))
  :: StableHlo.unary main_v73 main_v181 (broadcastInDim S1x1000000 ![] bcast_S_S1x1000000 : (⟨S_, .f32⟩ : BufTy).Contents (Elt F) → (⟨S1x1000000, .f32⟩ : BufTy).Contents (Elt F))
  :: StableHlo.binary main_v181 main_v180 main_v182 (mulf : (⟨S1x1000000, .f32⟩ : BufTy).Contents (Elt F) → (⟨S1x1000000, .f32⟩ : BufTy).Contents (Elt F) → (⟨S1x1000000, .f32⟩ : BufTy).Contents (Elt F))
  :: StableHlo.nullary main_cst_28 (constant S_ .f32 0x3F800000#32)
  :: StableHlo.binary main_cst_28 main_v73 main_v183 (subf : (⟨S_, .f32⟩ : BufTy).Contents (Elt F) → (⟨S_, .f32⟩ : BufTy).Contents (Elt F) → (⟨S_, .f32⟩ : BufTy).Contents (Elt F))
  :: StableHlo.unary main_v183 main_v184 (broadcastInDim S1x1000000 ![] bcast_S_S1x1000000 : (⟨S_, .f32⟩ : BufTy).Contents (Elt F) → (⟨S1x1000000, .f32⟩ : BufTy).Contents (Elt F))
  :: StableHlo.binary main_v184 main_arg2 main_v185 (mulf : (⟨S1x1000000, .f32⟩ : BufTy).Contents (Elt F) → (⟨S1x1000000, .f32⟩ : BufTy).Contents (Elt F) → (⟨S1x1000000, .f32⟩ : BufTy).Contents (Elt F))
  :: StableHlo.binary main_v182 main_v185 main_v186 (addf : (⟨S1x1000000, .f32⟩ : BufTy).Contents (Elt F) → (⟨S1x1000000, .f32⟩ : BufTy).Contents (Elt F) → (⟨S1x1000000, .f32⟩ : BufTy).Contents (Elt F))
  :: [] )
set_option maxHeartbeats 40000000 in
/-- The stretch `hostOps1_4` from %187 to the write weights %214: circular shift, sharpening, normalisation. -/
abbrev sw_ops : List (HloOp τ sig (Elt F)) :=
  ( StableHlo.unary main_v186 main_v187 ((extractStridedSlice S1x1 ![0, 999999] · slices_S1x1000000_S1x1_0_999999) : (⟨S1x1000000, .f32⟩ : BufTy).Contents (Elt F) → (⟨S1x1, .f32⟩ : BufTy).Contents (Elt F))
  :: StableHlo.unary main_v186 main_v188 ((extractStridedSlice S1x1 ![0, 0] · slices_S1x1000000_S1x1_0_0) : (⟨S1x1000000, .f32⟩ : BufTy).Contents (Elt F) → (⟨S1x1, .f32⟩ : BufTy).Contents (Elt F))
  :: StableHlo.nary ![main_v187, main_v186, main_v188] main_v189 (fun u => concatenate S1x1000002 1 [⟨S1x1, u 0⟩, ⟨S1x1000000, u 1⟩, ⟨S1x1, u 2⟩] concatenates_S1x1_S1x1000000_S1x1_S1x1000002_d1)
  :: StableHlo.unary main_v85 main_v190 ((extractStridedSlice S1 ![0] · slices_S3_S1_0) : (⟨S3, .f32⟩ : BufTy).Contents (Elt F) → (⟨S1, .f32⟩ : BufTy).Contents (Elt F))
  :: StableHlo.reshape main_v190 main_v191 rfl shapeCasts_S1_S_
  :: StableHlo.unary main_v189 main_v192 ((extractStridedSlice S1x1000000 ![0, 0] · slices_S1x1000002_S1x1000000_0_0) : (⟨S1x1000002, .f32⟩ : BufTy).Contents (Elt F) → (⟨S1x1000000, .f32⟩ : BufTy).Contents (Elt F))
  :: StableHlo.unary main_v191 main_v193 (broadcastInDim S1x1000000 ![] bcast_S_S1x1000000 : (⟨S_, .f32⟩ : BufTy).Contents (Elt F) → (⟨S1x1000000, .f32⟩ : BufTy).Contents (Elt F))
  :: StableHlo.binary main_v193 main_v192 main_v194 (mulf : (⟨S1x1000000, .f32⟩ : BufTy).Contents (Elt F) → (⟨S1x1000000, .f32⟩ : BufTy).Contents (Elt F) → (⟨S1x1000000, .f32⟩ : BufTy).Contents (Elt F))
  :: StableHlo.unary main_v85 main_v195 ((extractStridedSlice S1 ![1] · slices_S3_S1_1) : (⟨S3, .f32⟩ : BufTy).Contents (Elt F) → (⟨S1, .f32⟩ : BufTy).Contents (Elt F))
  :: StableHlo.reshape main_v195 main_v196 rfl shapeCasts_S1_S_
  :: StableHlo.unary main_v189 main_v197 ((extractStridedSlice S1x1000000 ![0, 1] · slices_S1x1000002_S1x1000000_0_1) : (⟨S1x1000002, .f32⟩ : BufTy).Contents (Elt F) → (⟨S1x1000000, .f32⟩ : BufTy).Contents (Elt F))
  :: StableHlo.unary main_v196 main_v198 (broadcastInDim S1x1000000 ![] bcast_S_S1x1000000 : (⟨S_, .f32⟩ : BufTy).Contents (Elt F) → (⟨S1x1000000, .f32⟩ : BufTy).Contents (Elt F))
  :: StableHlo.binary main_v198 main_v197 main_v199 (mulf : (⟨S1x1000000, .f32⟩ : BufTy).Contents (Elt F) → (⟨S1x1000000, .f32⟩ : BufTy).Contents (Elt F) → (⟨S1x1000000, .f32⟩ : BufTy).Contents (Elt F))
  :: StableHlo.binary main_v194 main_v199 main_v200 (addf : (⟨S1x1000000, .f32⟩ : BufTy).Contents (Elt F) → (⟨S1x1000000, .f32⟩ : BufTy).Contents (Elt F) → (⟨S1x1000000, .f32⟩ : BufTy).Contents (Elt F))
  :: StableHlo.unary main_v85 main_v201 ((extractStridedSlice S1 ![2] · slices_S3_S1_2) : (⟨S3, .f32⟩ : BufTy).Contents (Elt F) → (⟨S1, .f32⟩ : BufTy).Contents (Elt F))
  :: StableHlo.reshape main_v201 main_v202 rfl shapeCasts_S1_S_
  :: StableHlo.unary main_v189 main_v203 ((extractStridedSlice S1x1000000 ![0, 2] · slices_S1x1000002_S1x1000000_0_2) : (⟨S1x1000002, .f32⟩ : BufTy).Contents (Elt F) → (⟨S1x1000000, .f32⟩ : BufTy).Contents (Elt F))
  :: StableHlo.unary main_v202 main_v204 (broadcastInDim S1x1000000 ![] bcast_S_S1x1000000 : (⟨S_, .f32⟩ : BufTy).Contents (Elt F) → (⟨S1x1000000, .f32⟩ : BufTy).Contents (Elt F))
  :: StableHlo.binary main_v204 main_v203 main_v205 (mulf : (⟨S1x1000000, .f32⟩ : BufTy).Contents (Elt F) → (⟨S1x1000000, .f32⟩ : BufTy).Contents (Elt F) → (⟨S1x1000000, .f32⟩ : BufTy).Contents (Elt F))
  :: StableHlo.binary main_v200 main_v205 main_v206 (addf : (⟨S1x1000000, .f32⟩ : BufTy).Contents (Elt F) → (⟨S1x1000000, .f32⟩ : BufTy).Contents (Elt F) → (⟨S1x1000000, .f32⟩ : BufTy).Contents (Elt F))
  :: StableHlo.unary main_v89 main_v207 (broadcastInDim S1x1000000 ![] bcast_S_S1x1000000 : (⟨S_, .f32⟩ : BufTy).Contents (Elt F) → (⟨S1x1000000, .f32⟩ : BufTy).Contents (Elt F))
  :: StableHlo.binary main_v206 main_v207 main_v208 (Host.powf : (⟨S1x1000000, .f32⟩ : BufTy).Contents (Elt F) → (⟨S1x1000000, .f32⟩ : BufTy).Contents (Elt F) → (⟨S1x1000000, .f32⟩ : BufTy).Contents (Elt F))
  :: StableHlo.nullary main_cst_29 (constant S_ .f32 0x00000000#32)
  :: StableHlo.binary main_v208 main_cst_29 main_v209 ((fun x v => Host.reduceAdd x v reducesTo_S1x1000000_S1_d1 h_S_) : (⟨S1x1000000, .f32⟩ : BufTy).Contents (Elt F) → (⟨S_, .f32⟩ : BufTy).Contents (Elt F) → (⟨S1, .f32⟩ : BufTy).Contents (Elt F))
  :: StableHlo.unary main_v209 main_v210 (broadcastInDim S1x1 ![0] bcast_S1_S1x1_0 : (⟨S1, .f32⟩ : BufTy).Contents (Elt F) → (⟨S1x1, .f32⟩ : BufTy).Contents (Elt F))
  :: StableHlo.nullary main_cst_30 (constant S_ .f32 0x24E69595#32)
  :: StableHlo.unary main_cst_30 main_v211 (broadcastInDim S1x1 ![] bcast_S_S1x1 : (⟨S_, .f32⟩ : BufTy).Contents (Elt F) → (⟨S1x1, .f32⟩ : BufTy).Contents (Elt F))
  :: StableHlo.binary main_v210 main_v211 main_v212 (addf : (⟨S1x1, .f32⟩ : BufTy).Contents (Elt F) → (⟨S1x1, .f32⟩ : BufTy).Contents (Elt F) → (⟨S1x1, .f32⟩ : BufTy).Contents (Elt F))
  :: StableHlo.unary main_v212 main_v213 (broadcastInDim S1x1000000 ![0, 1] bcast_S1x1_S1x1000000_0_1 : (⟨S1x1, .f32⟩ : BufTy).Contents (Elt F) → (⟨S1x1000000, .f32⟩ : BufTy).Contents (Elt F))
  :: StableHlo.binary main_v208 main_v213 main_v214 (Host.divf : (⟨S1x1000000, .f32⟩ : BufTy).Contents (Elt F) → (⟨S1x1000000, .f32⟩ : BufTy).Contents (Elt F) → (⟨S1x1000000, .f32⟩ : BufTy).Contents (Elt F))
  :: [] )
/-- The stretch `hostOps1_4`'s last operation: the read weights as a column, %215. -/
abbrev sw_post : List (HloOp τ sig (Elt F)) :=
  ( StableHlo.reshape main_v157 main_v215 rfl shapeCasts_S1x1000000_S1000000x1
  :: [] )
set_option maxHeartbeats 40000000 in
set_option maxRecDepth 8192 in
theorem hostOps1_4_cut : (Gen.hostOps1_4 : List (HloOp τ sig (Elt F))) = sw_pre ++ sw_ops ++ sw_post := rfl
end KernelLists

/-- A three-operand operation's function with its operands as three arguments. -/
def nary3fun {sig : RefSig} {Val : EltTy → Type} {x a b y : Ref sig .tc}
    (f : ((k : Fin 3) → ((![x, a, b] : Fin 3 → Ref sig .tc) k).ty.Contents Val) → y.ty.Contents Val) :
    x.ty.Contents Val → a.ty.Contents Val → b.ty.Contents Val → y.ty.Contents Val :=
  fun vx va vb => f (Fin.cons vx (Fin.cons va (Fin.cons vb (fun i => i.elim0))))

/-- A three-operand operation's result, each operand's contents read at its own reference and passed as an argument of
    its own (so that the rewriting of a line's results goes on into the operands). -/
theorem nary3_result' {τ : Topo} {sig : RefSig} {Val : EltTy → Type} {x a b y : Ref sig .tc}
    (f : ((k : Fin 3) → ((![x, a, b] : Fin 3 → Ref sig .tc) k).ty.Contents Val) → y.ty.Contents Val) (hxs hy)
    (V : Valuation τ sig Val) :
    (StableHlo.nary (τ := τ) ![x, a, b] y f hxs hy).result V (no_index (Proc.devRef .tc y))
      = nary3fun f (V (Proc.devRef .tc x)) (V (Proc.devRef .tc a)) (V (Proc.devRef .tc b)) := by
  rw [StableHlo.nary_result]; unfold nary3fun; congr 1; funext k; fin_cases k <;> rfl

set_option maxHeartbeats 4000000 in
set_option maxRecDepth 8192 in
/-- The read weights %157 / %126: the same function of the gated weights, the shift weights and the exponent. -/
theorem Sr_rw (Vk : Valuation Cert.KernelIdeal.τ Cert.KernelIdeal.sig (Elt F)) (Vr : Valuation Cert.ReferenceIdeal.τ Cert.ReferenceIdeal.sig (Elt F))
    (hg : (Vk (Proc.devRef .tc Cert.KernelIdeal.main_v129) : FVec F Cert.KernelIdeal.S1x1000000 .f32) = Vr (Proc.devRef .tc Cert.ReferenceIdeal.main_v98))
    (h56 : (Vk (Proc.devRef .tc Cert.KernelIdeal.main_v56) : FVec F Cert.KernelIdeal.S3 .f32) = Vr (Proc.devRef .tc Cert.ReferenceIdeal.main_v56))
    (h60 : (Vk (Proc.devRef .tc Cert.KernelIdeal.main_v60) : FVec F Cert.KernelIdeal.S_ .f32) = Vr (Proc.devRef .tc Cert.ReferenceIdeal.main_v60)) :
    (StableHlo.after sr_ops Vk (Proc.devRef .tc Cert.KernelIdeal.main_v157) : FVec F Cert.KernelIdeal.S1x1000000 .f32) = StableHlo.after Cert.ReferenceIdeal.Hand.ch1b Vr (Proc.devRef .tc Cert.ReferenceIdeal.main_v126) := by
  simp (disch := decide) only [StableHlo.after_cons, StableHlo.after_nil,
    StableHlo.nullary_result', StableHlo.unary_result', StableHlo.binary_result', StableHlo.ternary_result', StableHlo.reshape_result', nary3_result',
    StableHlo.nullary_result_ne', StableHlo.unary_result_ne', StableHlo.binary_result_ne', StableHlo.ternary_result_ne', StableHlo.reshape_result_ne',
    StableHlo.nary_result_ne']
  simp only [hg, h56, h60]
  rfl

set_option maxHeartbeats 4000000 in
set_option maxRecDepth 8192 in
/-- The write weights %214 / %218: the same function of the gated weights, the shift weights and the exponent. -/
theorem Sw_ww (Vk : Valuation Cert.KernelIdeal.τ Cert.KernelIdeal.sig (Elt F)) (Vr : Valuation Cert.ReferenceIdeal.τ Cert.ReferenceIdeal.sig (Elt F))
    (hg : (Vk (Proc.devRef .tc Cert.KernelIdeal.main_v186) : FVec F Cert.KernelIdeal.S1x1000000 .f32) = Vr (Proc.devRef .tc Cert.ReferenceIdeal.main_v190))
    (h85 : (Vk (Proc.devRef .tc Cert.KernelIdeal.main_v85) : FVec F Cert.KernelIdeal.S3 .f32) = Vr (Proc.devRef .tc Cert.ReferenceIdeal.main_v148))
    (h89 : (Vk (Proc.devRef .tc Cert.KernelIdeal.main_v89) : FVec F Cert.KernelIdeal.S_ .f32) = Vr (Proc.devRef .tc Cert.ReferenceIdeal.main_v152)) :
    (StableHlo.after sw_ops Vk (Proc.devRef .tc Cert.KernelIdeal.main_v214) : FVec F Cert.KernelIdeal.S1x1000000 .f32) = StableHlo.after Cert.ReferenceIdeal.Hand.ch3b Vr (Proc.devRef .tc Cert.ReferenceIdeal.main_v218) := by
  simp (disch := decide) only [StableHlo.after_cons, StableHlo.after_nil,
    StableHlo.nullary_result', StableHlo.unary_result', StableHlo.binary_result', StableHlo.ternary_result', StableHlo.reshape_result', nary3_result',
    StableHlo.nullary_result_ne', StableHlo.unary_result_ne', StableHlo.binary_result_ne', StableHlo.ternary_result_ne', StableHlo.reshape_result_ne',
    StableHlo.nary_result_ne']
  simp only [hg, h85, h89]
  rfl

/-! What the cut parts leave unchanged, for carrying the live-ins to them. -/

section Keeps
open Cert.KernelIdeal Cert.KernelIdeal.Gen
variable (V : Valuation τ sig (Elt F))

set_option maxHeartbeats 4000000 in
/-- The read head's shift-and-sharpen operations (%130 … %157) do not write the gated read weights %129. -/
theorem sr_ops_v129 : StableHlo.after sr_ops V (Proc.devRef .tc main_v129) = V (Proc.devRef .tc main_v129) := by
  after_results_simp
set_option maxHeartbeats 4000000 in
/-- The read head's operations up to the gated weights (through %129) do not write the read shift weights %56. -/
theorem sr_pre_v56 : StableHlo.after sr_pre V (Proc.devRef .tc main_v56) = V (Proc.devRef .tc main_v56) := by
  after_results_simp
set_option maxHeartbeats 4000000 in
/-- The read head's operations up to the gated weights (through %129) do not write the read sharpening exponent %60. -/
theorem sr_pre_v60 : StableHlo.after sr_pre V (Proc.devRef .tc main_v60) = V (Proc.devRef .tc main_v60) := by
  after_results_simp
set_option maxHeartbeats 4000000 in
/-- The write head's shift-and-sharpen operations (%187 … %214) do not write the gated write weights %186. -/
theorem sw_ops_v186 : StableHlo.after sw_ops V (Proc.devRef .tc main_v186) = V (Proc.devRef .tc main_v186) := by
  after_results_simp
/-- The reshape of the read weights to a column (%215) does not write the gated write weights %186. -/
theorem sw_post_v186 : StableHlo.after sw_post V (Proc.devRef .tc main_v186) = V (Proc.devRef .tc main_v186) := by
  after_results_simp
/-- The reshape of the read weights to a column (%215) does not write the write weights %214. -/
theorem sw_post_v214 : StableHlo.after sw_post V (Proc.devRef .tc main_v214) = V (Proc.devRef .tc main_v214) := by
  after_results_simp
set_option maxHeartbeats 4000000 in
/-- The write head's operations up to the gated weights (through %186) do not write the write shift weights %85. -/
theorem sw_pre_v85 : StableHlo.after sw_pre V (Proc.devRef .tc main_v85) = V (Proc.devRef .tc main_v85) := by
  after_results_simp
set_option maxHeartbeats 4000000 in
/-- The write head's operations up to the gated weights (through %186) do not write the write sharpening exponent %89. -/
theorem sw_pre_v89 : StableHlo.after sw_pre V (Proc.devRef .tc main_v89) = V (Proc.devRef .tc main_v89) := by
  after_results_simp
end Keeps

end Cert.Bridge

end
-- ==== Proof.Bridge.StationsS.lean ====
/-
Stations of the bridge on the two heads' shift-and-sharpen segments, at the ideal floats: given that the gated
weights, the shift weights and the sharpening exponent of a head agree between the kernel program's staged contents
and the reference's, so do the head's final weights.
-/
import proofs.«104005_j27152783245914_2_alg».proof.Proof.Ref.Run
import proofs.«104005_j27152783245914_2_alg».proof.Proof.KI.Args
import proofs.«104005_j27152783245914_2_alg».proof.Proof.Bridge.SameS
import Idealize.ShloMosaic.PureOps.Ideal

noncomputable section

namespace Cert.Bridge

open Idealize.ShloMosaic Idealize.ShloMosaic.TcCoe Idealize.SL.Sem

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-! ## The read weights -/

/-- The kernel program's contents after the stretch that ends in the read weights are those after its
    shift-and-sharpen part, run from the contents after its first part. -/
theorem W13_cut : Cert.KernelIdeal.Hand.W13 m ρ c = StableHlo.after sr_ops (StableHlo.after sr_pre (Cert.KernelIdeal.Hand.W12 m ρ c)) := by
  show StableHlo.after Cert.KernelIdeal.Gen.hostOps1_2 (Cert.KernelIdeal.Hand.W12 m ρ c) = _
  rw [hostOps1_2_cut, StableHlo.after_append]

/-- A reference written by none of the items between the fourth stretch's end and the read head's stretch holds at
    that stretch's entry what it held after the fourth stretch. -/
theorem W12_eq_W4 (r : Ref Cert.KernelIdeal.sig .tc)
    (h5 : r ∉ Cert.KernelIdeal.Hand.hostOps0_4_W := by decide) (h6 : r ∉ Cert.KernelIdeal.Hand.hostOps0_5_W := by decide)
    (h7 : r ∉ Cert.KernelIdeal.Hand.hostOps0_6_W := by decide) (h8 : r ∉ Cert.KernelIdeal.Hand.hostOps0_7_W := by decide)
    (h9 : r ∉ Cert.KernelIdeal.Hand.hostOps0_8_W := by decide) (h10 : r ∉ Cert.KernelIdeal.Hand.region0_W := by decide)
    (h11 : r ∉ Cert.KernelIdeal.Hand.hostOps1_W := by decide) (h12 : r ∉ Cert.KernelIdeal.Hand.hostOps1_1_W := by decide) :
    Cert.KernelIdeal.Hand.W12 m ρ c (Proc.devRef .tc r) = Cert.KernelIdeal.Hand.W4 m ρ c (Proc.devRef .tc r) :=
  (Cert.KernelIdeal.Hand.W12_of m ρ c r h12).trans <| (Cert.KernelIdeal.Hand.W11_of m ρ c r h11).trans <|
  (Cert.KernelIdeal.Hand.W10_of m ρ c r h10).trans <| (Cert.KernelIdeal.Hand.W9_of m ρ c r h9).trans <|
  (Cert.KernelIdeal.Hand.W8_of m ρ c r h8).trans <| (Cert.KernelIdeal.Hand.W7_of m ρ c r h7).trans <|
  (Cert.KernelIdeal.Hand.W6_of m ρ c r h6).trans <| Cert.KernelIdeal.Hand.W5_of m ρ c r h5

/-- %157 / %126, the read weights: equal once the gated read weights, the read shift weights and the read sharpening
    exponent are. -/
theorem st_rw
    (hwg : (Cert.KernelIdeal.Hand.W13 m ρ c (Proc.devRef .tc Cert.KernelIdeal.main_v129) : FVec Ideal Cert.KernelIdeal.S1x1000000 .f32) = Cert.ReferenceIdeal.Hand.R1a m' c (Proc.devRef .tc Cert.ReferenceIdeal.main_v98))
    (h56 : (Cert.KernelIdeal.Hand.W4 m ρ c (Proc.devRef .tc Cert.KernelIdeal.main_v56) : FVec Ideal Cert.KernelIdeal.S3 .f32) = Cert.ReferenceIdeal.Hand.R0 m' c (Proc.devRef .tc Cert.ReferenceIdeal.main_v56))
    (h60 : (Cert.KernelIdeal.Hand.W4 m ρ c (Proc.devRef .tc Cert.KernelIdeal.main_v60) : FVec Ideal Cert.KernelIdeal.S_ .f32) = Cert.ReferenceIdeal.Hand.R0 m' c (Proc.devRef .tc Cert.ReferenceIdeal.main_v60)) :
    (Cert.KernelIdeal.Hand.W13 m ρ c (Proc.devRef .tc Cert.KernelIdeal.main_v157) : FVec Ideal Cert.KernelIdeal.S1x1000000 .f32) = Cert.ReferenceIdeal.Hand.R1b m' c (Proc.devRef .tc Cert.ReferenceIdeal.main_v126) := by
  rw [W13_cut] at hwg ⊢
  rw [sr_ops_v129] at hwg
  have k56 : (StableHlo.after sr_pre (Cert.KernelIdeal.Hand.W12 m ρ c) (Proc.devRef .tc Cert.KernelIdeal.main_v56) : FVec Ideal Cert.KernelIdeal.S3 .f32)
      = Cert.ReferenceIdeal.Hand.R1a m' c (Proc.devRef .tc Cert.ReferenceIdeal.main_v56) := by
    rw [sr_pre_v56, W12_eq_W4 m ρ c Cert.KernelIdeal.main_v56, Cert.ReferenceIdeal.Hand.R1a_of m' c Cert.ReferenceIdeal.main_v56 (by decide)]
    exact h56
  have k60 : (StableHlo.after sr_pre (Cert.KernelIdeal.Hand.W12 m ρ c) (Proc.devRef .tc Cert.KernelIdeal.main_v60) : FVec Ideal Cert.KernelIdeal.S_ .f32)
      = Cert.ReferenceIdeal.Hand.R1a m' c (Proc.devRef .tc Cert.ReferenceIdeal.main_v60) := by
    rw [sr_pre_v60, W12_eq_W4 m ρ c Cert.KernelIdeal.main_v60, Cert.ReferenceIdeal.Hand.R1a_of m' c Cert.ReferenceIdeal.main_v60 (by decide)]
    exact h60
  exact Sr_rw (F := Ideal) _ (Cert.ReferenceIdeal.Hand.R1a m' c) hwg k56 k60

/-! ## The write weights -/

/-- The kernel program's contents after the stretch that ends in the write weights and the read column are those after
    its three parts in turn. -/
theorem W15_cut : Cert.KernelIdeal.Hand.W15 m ρ c
    = StableHlo.after sw_post (StableHlo.after sw_ops (StableHlo.after sw_pre (Cert.KernelIdeal.Hand.W14 m ρ c))) := by
  show StableHlo.after Cert.KernelIdeal.Gen.hostOps1_4 (Cert.KernelIdeal.Hand.W14 m ρ c) = _
  rw [hostOps1_4_cut, StableHlo.after_append, StableHlo.after_append]

/-- A reference written by none of the items between the eighth stretch's end and the write head's stretch holds at
    that stretch's entry what it held after the eighth stretch. -/
theorem W14_eq_W8 (r : Ref Cert.KernelIdeal.sig .tc)
    (h9 : r ∉ Cert.KernelIdeal.Hand.hostOps0_8_W := by decide) (h10 : r ∉ Cert.KernelIdeal.Hand.region0_W := by decide)
    (h11 : r ∉ Cert.KernelIdeal.Hand.hostOps1_W := by decide) (h12 : r ∉ Cert.KernelIdeal.Hand.hostOps1_1_W := by decide)
    (h13 : r ∉ Cert.KernelIdeal.Hand.hostOps1_2_W := by decide) (h14 : r ∉ Cert.KernelIdeal.Hand.hostOps1_3_W := by decide) :
    Cert.KernelIdeal.Hand.W14 m ρ c (Proc.devRef .tc r) = Cert.KernelIdeal.Hand.W8 m ρ c (Proc.devRef .tc r) :=
  (Cert.KernelIdeal.Hand.W14_of m ρ c r h14).trans <| (Cert.KernelIdeal.Hand.W13_of m ρ c r h13).trans <|
  (Cert.KernelIdeal.Hand.W12_of m ρ c r h12).trans <| (Cert.KernelIdeal.Hand.W11_of m ρ c r h11).trans <|
  (Cert.KernelIdeal.Hand.W10_of m ρ c r h10).trans <| Cert.KernelIdeal.Hand.W9_of m ρ c r h9

/-- %214 / %218, the write weights: equal once the gated write weights, the write shift weights and the write
    sharpening exponent are. -/
theorem st_ww
    (hwg : (Cert.KernelIdeal.Hand.W15 m ρ c (Proc.devRef .tc Cert.KernelIdeal.main_v186) : FVec Ideal Cert.KernelIdeal.S1x1000000 .f32) = Cert.ReferenceIdeal.Hand.R3a m' c (Proc.devRef .tc Cert.ReferenceIdeal.main_v190))
    (h85 : (Cert.KernelIdeal.Hand.W8 m ρ c (Proc.devRef .tc Cert.KernelIdeal.main_v85) : FVec Ideal Cert.KernelIdeal.S3 .f32) = Cert.ReferenceIdeal.Hand.R2 m' c (Proc.devRef .tc Cert.ReferenceIdeal.main_v148))
    (h89 : (Cert.KernelIdeal.Hand.W8 m ρ c (Proc.devRef .tc Cert.KernelIdeal.main_v89) : FVec Ideal Cert.KernelIdeal.S_ .f32) = Cert.ReferenceIdeal.Hand.R2 m' c (Proc.devRef .tc Cert.ReferenceIdeal.main_v152)) :
    (Cert.KernelIdeal.Hand.W15 m ρ c (Proc.devRef .tc Cert.KernelIdeal.main_v214) : FVec Ideal Cert.KernelIdeal.S1x1000000 .f32) = Cert.ReferenceIdeal.Hand.R3b m' c (Proc.devRef .tc Cert.ReferenceIdeal.main_v218) := by
  rw [W15_cut] at hwg ⊢
  rw [sw_post_v186, sw_ops_v186] at hwg
  rw [sw_post_v214]
  have k85 : (StableHlo.after sw_pre (Cert.KernelIdeal.Hand.W14 m ρ c) (Proc.devRef .tc Cert.KernelIdeal.main_v85) : FVec Ideal Cert.KernelIdeal.S3 .f32)
      = Cert.ReferenceIdeal.Hand.R3a m' c (Proc.devRef .tc Cert.ReferenceIdeal.main_v148) := by
    rw [sw_pre_v85, W14_eq_W8 m ρ c Cert.KernelIdeal.main_v85, Cert.ReferenceIdeal.Hand.R3a_of m' c Cert.ReferenceIdeal.main_v148 (by decide)]
    exact h85
  have k89 : (StableHlo.after sw_pre (Cert.KernelIdeal.Hand.W14 m ρ c) (Proc.devRef .tc Cert.KernelIdeal.main_v89) : FVec Ideal Cert.KernelIdeal.S_ .f32)
      = Cert.ReferenceIdeal.Hand.R3a m' c (Proc.devRef .tc Cert.ReferenceIdeal.main_v152) := by
    rw [sw_pre_v89, W14_eq_W8 m ρ c Cert.KernelIdeal.main_v89, Cert.ReferenceIdeal.Hand.R3a_of m' c Cert.ReferenceIdeal.main_v152 (by decide)]
    exact h89
  exact Sw_ww (F := Ideal) _ (Cert.ReferenceIdeal.Hand.R3a m' c) hwg k85 k89

end Cert.Bridge

end
-- ==== Proof.Bridge.SameT0.lean ====
import proofs.«104005_j27152783245914_2_alg».proof.Proof.Gen.KernelIdeal.Launch
import proofs.«104005_j27152783245914_2_alg».proof.Proof.Ref.Ops
import Idealize.ShloMosaic.Lib.StableHlo.Run
import Idealize.ShloMosaic.Lib.Pipeline.Frame

/-!
# The output heads, cut into stages

From the concatenation of the previous read vector with the new one to the output and the add vector, the kernel
program and the reference run the same operations in the same order. Both lines are cut here at the same places
into fourteen stages: the two gates, the four layers of each of the two heads' networks with the rectifier between
layers as a stage of its own, the mixing of the two heads' distributions into the output, and the add vector. Each stage
is listed with the buffers it writes, so that a buffer a stage does not write is known to keep its contents across it.
-/

set_option maxRecDepth 8192

noncomputable section

namespace Cert.Bridge

open Idealize.ShloMosaic Idealize.ShloMosaic.TcCoe Idealize.SL.Sem

variable {F : FTy → Type} [FloatOps F]

section KernelLists
open Cert.KernelIdeal Cert.KernelIdeal.Gen

/-- The four operations of the stretch after region 1 that form the read vector. -/
abbrev T_kRead : List (HloOp τ sig (Elt F)) :=
  [ StableHlo.reshape main_v216 main_v217 rfl shapeCasts_S2x1x20_S2x20,
    StableHlo.nullary main_cst_31 (constant S_ .f32 0x00000000#32),
    StableHlo.binary main_v217 main_cst_31 main_v218 ((fun x v => Host.reduceAdd x v reducesTo_S2x20_S20_d0 h_S_) : (⟨S2x20, .f32⟩ : BufTy).Contents (Elt F) → (⟨S_, .f32⟩ : BufTy).Contents (Elt F) → (⟨S20, .f32⟩ : BufTy).Contents (Elt F)),
    StableHlo.unary main_v218 main_v219 (broadcastInDim S1x20 ![1] bcast_S20_S1x20_1 : (⟨S20, .f32⟩ : BufTy).Contents (Elt F) → (⟨S1x20, .f32⟩ : BufTy).Contents (Elt F)) ]
/-- Stage 0, the rest of that stretch: the concatenated read vectors, the two gates, the first layer of the first head. -/
abbrev T_k0 : List (HloOp τ sig (Elt F)) :=
  [ StableHlo.binary main_arg4 main_v219 main_v220 ((fun a b => concatenate S1x40 1 [⟨S1x20, a⟩, ⟨S1x20, b⟩] concatenates_S1x20_S1x20_S1x40_d1) : (⟨S1x20, .f32⟩ : BufTy).Contents (Elt F) → (⟨S1x20, .f32⟩ : BufTy).Contents (Elt F) → (⟨S1x40, .f32⟩ : BufTy).Contents (Elt F)),
    StableHlo.unary main_v15 main_v221 ((extractStridedSlice S1x1 ![0, 0] · slices_S1x3_S1x1_0_0) : (⟨S1x3, .f32⟩ : BufTy).Contents (Elt F) → (⟨S1x1, .f32⟩ : BufTy).Contents (Elt F)),
    StableHlo.reshape main_v221 main_v222 rfl shapeCasts_S1x1_S_,
    StableHlo.unary main_v222 main_v223 (Host.negf : (⟨S_, .f32⟩ : BufTy).Contents (Elt F) → (⟨S_, .f32⟩ : BufTy).Contents (Elt F)),
    StableHlo.unary main_v223 main_v224 (Host.exp : (⟨S_, .f32⟩ : BufTy).Contents (Elt F) → (⟨S_, .f32⟩ : BufTy).Contents (Elt F)),
    StableHlo.nullary main_cst_32 (constant S_ .f32 0x3F800000#32),
    StableHlo.binary main_cst_32 main_v224 main_v225 (addf : (⟨S_, .f32⟩ : BufTy).Contents (Elt F) → (⟨S_, .f32⟩ : BufTy).Contents (Elt F) → (⟨S_, .f32⟩ : BufTy).Contents (Elt F)),
    StableHlo.nullary main_cst_33 (constant S_ .f32 0x3F800000#32),
    StableHlo.binary main_cst_33 main_v225 main_v226 (Host.divf : (⟨S_, .f32⟩ : BufTy).Contents (Elt F) → (⟨S_, .f32⟩ : BufTy).Contents (Elt F) → (⟨S_, .f32⟩ : BufTy).Contents (Elt F)),
    StableHlo.unary main_v15 main_v227 ((extractStridedSlice S1x2 ![0, 1] · slices_S1x3_S1x2_0_1) : (⟨S1x3, .f32⟩ : BufTy).Contents (Elt F) → (⟨S1x2, .f32⟩ : BufTy).Contents (Elt F)),
    StableHlo.nullary main_cst_34 (constant S_ .f32 0xFF800000#32),
    StableHlo.binary main_v227 main_cst_34 main_v228 ((fun x v => Host.reduce FloatOps.maximumf x v reducesTo_S1x2_S1_d1 h_S_) : (⟨S1x2, .f32⟩ : BufTy).Contents (Elt F) → (⟨S_, .f32⟩ : BufTy).Contents (Elt F) → (⟨S1, .f32⟩ : BufTy).Contents (Elt F)),
    StableHlo.nullary main_cst_35 (constant S_ .f32 0xFF800000#32),
    StableHlo.unary main_cst_35 main_v229 (broadcastInDim S1 ![] bcast_S_S1 : (⟨S_, .f32⟩ : BufTy).Contents (Elt F) → (⟨S1, .f32⟩ : BufTy).Contents (Elt F)),
    StableHlo.binary main_v229 main_v228 main_v230 (maximumf : (⟨S1, .f32⟩ : BufTy).Contents (Elt F) → (⟨S1, .f32⟩ : BufTy).Contents (Elt F) → (⟨S1, .f32⟩ : BufTy).Contents (Elt F)),
    StableHlo.unary main_v230 main_v231 (broadcastInDim S1x1 ![0] bcast_S1_S1x1_0 : (⟨S1, .f32⟩ : BufTy).Contents (Elt F) → (⟨S1x1, .f32⟩ : BufTy).Contents (Elt F)),
    StableHlo.unary main_v231 main_v232 (broadcastInDim S1x2 ![0, 1] bcast_S1x1_S1x2_0_1 : (⟨S1x1, .f32⟩ : BufTy).Contents (Elt F) → (⟨S1x2, .f32⟩ : BufTy).Contents (Elt F)),
    StableHlo.binary main_v227 main_v232 main_v233 (subf : (⟨S1x2, .f32⟩ : BufTy).Contents (Elt F) → (⟨S1x2, .f32⟩ : BufTy).Contents (Elt F) → (⟨S1x2, .f32⟩ : BufTy).Contents (Elt F)),
    StableHlo.unary main_v233 main_v234 (Host.exp : (⟨S1x2, .f32⟩ : BufTy).Contents (Elt F) → (⟨S1x2, .f32⟩ : BufTy).Contents (Elt F)),
    StableHlo.nullary main_cst_36 (constant S_ .f32 0x00000000#32),
    StableHlo.binary main_v234 main_cst_36 main_v235 ((fun x v => Host.reduceAdd x v reducesTo_S1x2_S1_d1 h_S_) : (⟨S1x2, .f32⟩ : BufTy).Contents (Elt F) → (⟨S_, .f32⟩ : BufTy).Contents (Elt F) → (⟨S1, .f32⟩ : BufTy).Contents (Elt F)),
    StableHlo.unary main_v235 main_v236 (broadcastInDim S1x1 ![0] bcast_S1_S1x1_0 : (⟨S1, .f32⟩ : BufTy).Contents (Elt F) → (⟨S1x1, .f32⟩ : BufTy).Contents (Elt F)),
    StableHlo.unary main_v236 main_v237 (broadcastInDim S1x2 ![0, 1] bcast_S1x1_S1x2_0_1 : (⟨S1x1, .f32⟩ : BufTy).Contents (Elt F) → (⟨S1x2, .f32⟩ : BufTy).Contents (Elt F)),
    StableHlo.binary main_v234 main_v237 main_v238 (Host.divf : (⟨S1x2, .f32⟩ : BufTy).Contents (Elt F) → (⟨S1x2, .f32⟩ : BufTy).Contents (Elt F) → (⟨S1x2, .f32⟩ : BufTy).Contents (Elt F)),
    StableHlo.unary main_arg15 main_v239 ((transpose S40x110 [1, 0] · transposes_S110x40_S40x110_1_0) : (⟨S110x40, .f32⟩ : BufTy).Contents (Elt F) → (⟨S40x110, .f32⟩ : BufTy).Contents (Elt F)),
    StableHlo.binary main_v220 main_v239 main_v240 ((fun l r => Host.dotGeneral dot_S1x40_S40x110_S1x110_1_0_0_1_n_n none l r) : (⟨S1x40, .f32⟩ : BufTy).Contents (Elt F) → (⟨S40x110, .f32⟩ : BufTy).Contents (Elt F) → (⟨S1x110, .f32⟩ : BufTy).Contents (Elt F)),
    StableHlo.unary main_arg16 main_v241 (broadcastInDim S1x110 ![1] bcast_S110_S1x110_1 : (⟨S110, .f32⟩ : BufTy).Contents (Elt F) → (⟨S1x110, .f32⟩ : BufTy).Contents (Elt F)),
    StableHlo.binary main_v240 main_v241 main_v242 (addf : (⟨S1x110, .f32⟩ : BufTy).Contents (Elt F) → (⟨S1x110, .f32⟩ : BufTy).Contents (Elt F) → (⟨S1x110, .f32⟩ : BufTy).Contents (Elt F)) ]
/-- Stage 12, the head of the last stretch: the second head's last layer and distribution, and the output. -/
abbrev T_k12 : List (HloOp τ sig (Elt F)) :=
  [ StableHlo.unary main_arg29 main_v284 ((transpose S270x325 [1, 0] · transposes_S325x270_S270x325_1_0) : (⟨S325x270, .f32⟩ : BufTy).Contents (Elt F) → (⟨S270x325, .f32⟩ : BufTy).Contents (Elt F)),
    StableHlo.binary main_v283 main_v284 main_v285 ((fun l r => Host.dotGeneral dot_S1x270_S270x325_S1x325_1_0_0_1_n_n none l r) : (⟨S1x270, .f32⟩ : BufTy).Contents (Elt F) → (⟨S270x325, .f32⟩ : BufTy).Contents (Elt F) → (⟨S1x325, .f32⟩ : BufTy).Contents (Elt F)),
    StableHlo.unary main_arg30 main_v286 (broadcastInDim S1x325 ![1] bcast_S325_S1x325_1 : (⟨S325, .f32⟩ : BufTy).Contents (Elt F) → (⟨S1x325, .f32⟩ : BufTy).Contents (Elt F)),
    StableHlo.binary main_v285 main_v286 main_v287 (addf : (⟨S1x325, .f32⟩ : BufTy).Contents (Elt F) → (⟨S1x325, .f32⟩ : BufTy).Contents (Elt F) → (⟨S1x325, .f32⟩ : BufTy).Contents (Elt F)),
    StableHlo.nullary main_cst_40 (constant S_ .f32 0xFF800000#32),
    StableHlo.binary main_v287 main_cst_40 main_v288 ((fun x v => Host.reduce FloatOps.maximumf x v reducesTo_S1x325_S1_d1 h_S_) : (⟨S1x325, .f32⟩ : BufTy).Contents (Elt F) → (⟨S_, .f32⟩ : BufTy).Contents (Elt F) → (⟨S1, .f32⟩ : BufTy).Contents (Elt F)),
    StableHlo.nullary main_cst_41 (constant S_ .f32 0xFF800000#32),
    StableHlo.unary main_cst_41 main_v289 (broadcastInDim S1 ![] bcast_S_S1 : (⟨S_, .f32⟩ : BufTy).Contents (Elt F) → (⟨S1, .f32⟩ : BufTy).Contents (Elt F)),
    StableHlo.binary main_v289 main_v288 main_v290 (maximumf : (⟨S1, .f32⟩ : BufTy).Contents (Elt F) → (⟨S1, .f32⟩ : BufTy).Contents (Elt F) → (⟨S1, .f32⟩ : BufTy).Contents (Elt F)),
    StableHlo.unary main_v290 main_v291 (broadcastInDim S1x1 ![0] bcast_S1_S1x1_0 : (⟨S1, .f32⟩ : BufTy).Contents (Elt F) → (⟨S1x1, .f32⟩ : BufTy).Contents (Elt F)),
    StableHlo.unary main_v291 main_v292 (broadcastInDim S1x325 ![0, 1] bcast_S1x1_S1x325_0_1 : (⟨S1x1, .f32⟩ : BufTy).Contents (Elt F) → (⟨S1x325, .f32⟩ : BufTy).Contents (Elt F)),
    StableHlo.binary main_v287 main_v292 main_v293 (subf : (⟨S1x325, .f32⟩ : BufTy).Contents (Elt F) → (⟨S1x325, .f32⟩ : BufTy).Contents (Elt F) → (⟨S1x325, .f32⟩ : BufTy).Contents (Elt F)),
    StableHlo.unary main_v293 main_v294 (Host.exp : (⟨S1x325, .f32⟩ : BufTy).Contents (Elt F) → (⟨S1x325, .f32⟩ : BufTy).Contents (Elt F)),
    StableHlo.nullary main_cst_42 (constant S_ .f32 0x00000000#32),
    StableHlo.binary main_v294 main_cst_42 main_v295 ((fun x v => Host.reduceAdd x v reducesTo_S1x325_S1_d1 h_S_) : (⟨S1x325, .f32⟩ : BufTy).Contents (Elt F) → (⟨S_, .f32⟩ : BufTy).Contents (Elt F) → (⟨S1, .f32⟩ : BufTy).Contents (Elt F)),
    StableHlo.unary main_v295 main_v296 (broadcastInDim S1x1 ![0] bcast_S1_S1x1_0 : (⟨S1, .f32⟩ : BufTy).Contents (Elt F) → (⟨S1x1, .f32⟩ : BufTy).Contents (Elt F)),
    StableHlo.unary main_v296 main_v297 (broadcastInDim S1x325 ![0, 1] bcast_S1x1_S1x325_0_1 : (⟨S1x1, .f32⟩ : BufTy).Contents (Elt F) → (⟨S1x325, .f32⟩ : BufTy).Contents (Elt F)),
    StableHlo.binary main_v294 main_v297 main_v298 (Host.divf : (⟨S1x325, .f32⟩ : BufTy).Contents (Elt F) → (⟨S1x325, .f32⟩ : BufTy).Contents (Elt F) → (⟨S1x325, .f32⟩ : BufTy).Contents (Elt F)),
    StableHlo.unary main_v238 main_v299 ((extractStridedSlice S1x1 ![0, 0] · slices_S1x2_S1x1_0_0) : (⟨S1x2, .f32⟩ : BufTy).Contents (Elt F) → (⟨S1x1, .f32⟩ : BufTy).Contents (Elt F)),
    StableHlo.reshape main_v299 main_v300 rfl shapeCasts_S1x1_S_,
    StableHlo.unary main_v300 main_v301 (broadcastInDim S1x325 ![] bcast_S_S1x325 : (⟨S_, .f32⟩ : BufTy).Contents (Elt F) → (⟨S1x325, .f32⟩ : BufTy).Contents (Elt F)),
    StableHlo.binary main_v301 main_v268 main_v302 (mulf : (⟨S1x325, .f32⟩ : BufTy).Contents (Elt F) → (⟨S1x325, .f32⟩ : BufTy).Contents (Elt F) → (⟨S1x325, .f32⟩ : BufTy).Contents (Elt F)),
    StableHlo.unary main_v238 main_v303 ((extractStridedSlice S1x1 ![0, 1] · slices_S1x2_S1x1_0_1) : (⟨S1x2, .f32⟩ : BufTy).Contents (Elt F) → (⟨S1x1, .f32⟩ : BufTy).Contents (Elt F)),
    StableHlo.reshape main_v303 main_v304 rfl shapeCasts_S1x1_S_,
    StableHlo.unary main_v304 main_v305 (broadcastInDim S1x325 ![] bcast_S_S1x325 : (⟨S_, .f32⟩ : BufTy).Contents (Elt F) → (⟨S1x325, .f32⟩ : BufTy).Contents (Elt F)),
    StableHlo.binary main_v305 main_v298 main_v306 (mulf : (⟨S1x325, .f32⟩ : BufTy).Contents (Elt F) → (⟨S1x325, .f32⟩ : BufTy).Contents (Elt F) → (⟨S1x325, .f32⟩ : BufTy).Contents (Elt F)),
    StableHlo.binary main_v302 main_v306 main_v307 (addf : (⟨S1x325, .f32⟩ : BufTy).Contents (Elt F) → (⟨S1x325, .f32⟩ : BufTy).Contents (Elt F) → (⟨S1x325, .f32⟩ : BufTy).Contents (Elt F)) ]
/-- Stage 13: the add vector. -/
abbrev T_k13 : List (HloOp τ sig (Elt F)) :=
  [ StableHlo.unary main_arg13 main_v308 ((transpose S325x20 [1, 0] · transposes_S20x325_S325x20_1_0) : (⟨S20x325, .f32⟩ : BufTy).Contents (Elt F) → (⟨S325x20, .f32⟩ : BufTy).Contents (Elt F)),
    StableHlo.binary main_v307 main_v308 main_v309 ((fun l r => Host.dotGeneral dot_S1x325_S325x20_S1x20_1_0_0_1_n_n none l r) : (⟨S1x325, .f32⟩ : BufTy).Contents (Elt F) → (⟨S325x20, .f32⟩ : BufTy).Contents (Elt F) → (⟨S1x20, .f32⟩ : BufTy).Contents (Elt F)),
    StableHlo.unary main_arg14 main_v310 (broadcastInDim S1x20 ![1] bcast_S20_S1x20_1 : (⟨S20, .f32⟩ : BufTy).Contents (Elt F) → (⟨S1x20, .f32⟩ : BufTy).Contents (Elt F)),
    StableHlo.binary main_v309 main_v310 main_v311 (addf : (⟨S1x20, .f32⟩ : BufTy).Contents (Elt F) → (⟨S1x20, .f32⟩ : BufTy).Contents (Elt F) → (⟨S1x20, .f32⟩ : BufTy).Contents (Elt F)),
    StableHlo.unary main_v226 main_v312 (broadcastInDim S1x20 ![] bcast_S_S1x20 : (⟨S_, .f32⟩ : BufTy).Contents (Elt F) → (⟨S1x20, .f32⟩ : BufTy).Contents (Elt F)),
    StableHlo.binary main_v312 main_v34 main_v313 (mulf : (⟨S1x20, .f32⟩ : BufTy).Contents (Elt F) → (⟨S1x20, .f32⟩ : BufTy).Contents (Elt F) → (⟨S1x20, .f32⟩ : BufTy).Contents (Elt F)),
    StableHlo.nullary main_cst_43 (constant S_ .f32 0x3F800000#32),
    StableHlo.binary main_cst_43 main_v226 main_v314 (subf : (⟨S_, .f32⟩ : BufTy).Contents (Elt F) → (⟨S_, .f32⟩ : BufTy).Contents (Elt F) → (⟨S_, .f32⟩ : BufTy).Contents (Elt F)),
    StableHlo.unary main_v314 main_v315 (broadcastInDim S1x20 ![] bcast_S_S1x20 : (⟨S_, .f32⟩ : BufTy).Contents (Elt F) → (⟨S1x20, .f32⟩ : BufTy).Contents (Elt F)),
    StableHlo.binary main_v315 main_v311 main_v316 (mulf : (⟨S1x20, .f32⟩ : BufTy).Contents (Elt F) → (⟨S1x20, .f32⟩ : BufTy).Contents (Elt F) → (⟨S1x20, .f32⟩ : BufTy).Contents (Elt F)),
    StableHlo.binary main_v313 main_v316 main_v317 (addf : (⟨S1x20, .f32⟩ : BufTy).Contents (Elt F) → (⟨S1x20, .f32⟩ : BufTy).Contents (Elt F) → (⟨S1x20, .f32⟩ : BufTy).Contents (Elt F)) ]
/-- The last stretch's closing operation: the write weighting as a column. -/
abbrev T_kCol : List (HloOp τ sig (Elt F)) :=
  [ StableHlo.reshape main_v214 main_v318 rfl shapeCasts_S1x1000000_S1000000x1 ]

theorem T_hostOps2_split : (Gen.hostOps2 : List (HloOp τ sig (Elt F))) = T_kRead ++ T_k0 := rfl
theorem T_hostOps2_12_split : (Gen.hostOps2_12 : List (HloOp τ sig (Elt F))) = T_k12 ++ T_k13 ++ T_kCol := rfl

/-- An operation that writes one buffer, a reference of the list, writes inside the list. -/
theorem T_kwrites_sub {W : List (Ref sig .tc)} {op : HloOp τ sig (Elt F)} {y : Ref sig .tc}
    (hw : op.writes = {Proc.devRef .tc y}) (hy : y ∈ W) :
    op.writes ⊆ (W.map (Proc.devRef (τ := τ) .tc)).toFinset := by
  rw [hw, Finset.singleton_subset_iff, List.mem_toFinset]; exact List.mem_map_of_mem hy

abbrev T_kRead_W : List (Ref sig .tc) := [main_v217, main_cst_31, main_v218, main_v219]
theorem T_kRead_writes : (T_kRead : List (HloOp τ sig (Elt F))).Forall fun op => op.writes ⊆ (T_kRead_W.map (Proc.devRef (τ := τ) .tc)).toFinset := by
  simp only [List.Forall]; repeat' apply And.intro
  all_goals exact T_kwrites_sub rfl (by decide)
abbrev T_k0_W : List (Ref sig .tc) := [main_v220, main_v221, main_v222, main_v223, main_v224, main_cst_32, main_v225, main_cst_33, main_v226, main_v227, main_cst_34, main_v228, main_cst_35, main_v229, main_v230, main_v231, main_v232, main_v233, main_v234, main_cst_36, main_v235, main_v236, main_v237, main_v238, main_v239, main_v240, main_v241, main_v242]
theorem T_k0_writes : (T_k0 : List (HloOp τ sig (Elt F))).Forall fun op => op.writes ⊆ (T_k0_W.map (Proc.devRef (τ := τ) .tc)).toFinset := by
  simp only [List.Forall]; repeat' apply And.intro
  all_goals exact T_kwrites_sub rfl (by decide)
abbrev T_k1_W : List (Ref sig .tc) := [main_call6_cst, main_call6_v0, main_v243]
theorem T_k1_writes : (Gen.hostOps2_1 : List (HloOp τ sig (Elt F))).Forall fun op => op.writes ⊆ (T_k1_W.map (Proc.devRef (τ := τ) .tc)).toFinset := by
  simp only [List.Forall]; repeat' apply And.intro
  all_goals exact T_kwrites_sub rfl (by decide)
abbrev T_k2_W : List (Ref sig .tc) := [main_v244, main_v245, main_v246, main_v247]
theorem T_k2_writes : (Gen.hostOps2_2 : List (HloOp τ sig (Elt F))).Forall fun op => op.writes ⊆ (T_k2_W.map (Proc.devRef (τ := τ) .tc)).toFinset := by
  simp only [List.Forall]; repeat' apply And.intro
  all_goals exact T_kwrites_sub rfl (by decide)
abbrev T_k3_W : List (Ref sig .tc) := [main_call7_cst, main_call7_v0, main_v248]
theorem T_k3_writes : (Gen.hostOps2_3 : List (HloOp τ sig (Elt F))).Forall fun op => op.writes ⊆ (T_k3_W.map (Proc.devRef (τ := τ) .tc)).toFinset := by
  simp only [List.Forall]; repeat' apply And.intro
  all_goals exact T_kwrites_sub rfl (by decide)
abbrev T_k4_W : List (Ref sig .tc) := [main_v249, main_v250, main_v251, main_v252]
theorem T_k4_writes : (Gen.hostOps2_4 : List (HloOp τ sig (Elt F))).Forall fun op => op.writes ⊆ (T_k4_W.map (Proc.devRef (τ := τ) .tc)).toFinset := by
  simp only [List.Forall]; repeat' apply And.intro
  all_goals exact T_kwrites_sub rfl (by decide)
abbrev T_k5_W : List (Ref sig .tc) := [main_call8_cst, main_call8_v0, main_v253]
theorem T_k5_writes : (Gen.hostOps2_5 : List (HloOp τ sig (Elt F))).Forall fun op => op.writes ⊆ (T_k5_W.map (Proc.devRef (τ := τ) .tc)).toFinset := by
  simp only [List.Forall]; repeat' apply And.intro
  all_goals exact T_kwrites_sub rfl (by decide)
abbrev T_k6_W : List (Ref sig .tc) := [main_v254, main_v255, main_v256, main_v257, main_cst_37, main_v258, main_cst_38, main_v259, main_v260, main_v261, main_v262, main_v263, main_v264, main_cst_39, main_v265, main_v266, main_v267, main_v268, main_v269, main_v270, main_v271, main_v272]
theorem T_k6_writes : (Gen.hostOps2_6 : List (HloOp τ sig (Elt F))).Forall fun op => op.writes ⊆ (T_k6_W.map (Proc.devRef (τ := τ) .tc)).toFinset := by
  simp only [List.Forall]; repeat' apply And.intro
  all_goals exact T_kwrites_sub rfl (by decide)
abbrev T_k7_W : List (Ref sig .tc) := [main_call9_cst, main_call9_v0, main_v273]
theorem T_k7_writes : (Gen.hostOps2_7 : List (HloOp τ sig (Elt F))).Forall fun op => op.writes ⊆ (T_k7_W.map (Proc.devRef (τ := τ) .tc)).toFinset := by
  simp only [List.Forall]; repeat' apply And.intro
  all_goals exact T_kwrites_sub rfl (by decide)
abbrev T_k8_W : List (Ref sig .tc) := [main_v274, main_v275, main_v276, main_v277]
theorem T_k8_writes : (Gen.hostOps2_8 : List (HloOp τ sig (Elt F))).Forall fun op => op.writes ⊆ (T_k8_W.map (Proc.devRef (τ := τ) .tc)).toFinset := by
  simp only [List.Forall]; repeat' apply And.intro
  all_goals exact T_kwrites_sub rfl (by decide)
abbrev T_k9_W : List (Ref sig .tc) := [main_call10_cst, main_call10_v0, main_v278]
theorem T_k9_writes : (Gen.hostOps2_9 : List (HloOp τ sig (Elt F))).Forall fun op => op.writes ⊆ (T_k9_W.map (Proc.devRef (τ := τ) .tc)).toFinset := by
  simp only [List.Forall]; repeat' apply And.intro
  all_goals exact T_kwrites_sub rfl (by decide)
abbrev T_k10_W : List (Ref sig .tc) := [main_v279, main_v280, main_v281, main_v282]
theorem T_k10_writes : (Gen.hostOps2_10 : List (HloOp τ sig (Elt F))).Forall fun op => op.writes ⊆ (T_k10_W.map (Proc.devRef (τ := τ) .tc)).toFinset := by
  simp only [List.Forall]; repeat' apply And.intro
  all_goals exact T_kwrites_sub rfl (by decide)
abbrev T_k11_W : List (Ref sig .tc) := [main_call11_cst, main_call11_v0, main_v283]
theorem T_k11_writes : (Gen.hostOps2_11 : List (HloOp τ sig (Elt F))).Forall fun op => op.writes ⊆ (T_k11_W.map (Proc.devRef (τ := τ) .tc)).toFinset := by
  simp only [List.Forall]; repeat' apply And.intro
  all_goals exact T_kwrites_sub rfl (by decide)
abbrev T_k12_W : List (Ref sig .tc) := [main_v284, main_v285, main_v286, main_v287, main_cst_40, main_v288, main_cst_41, main_v289, main_v290, main_v291, main_v292, main_v293, main_v294, main_cst_42, main_v295, main_v296, main_v297, main_v298, main_v299, main_v300, main_v301, main_v302, main_v303, main_v304, main_v305, main_v306, main_v307]
theorem T_k12_writes : (T_k12 : List (HloOp τ sig (Elt F))).Forall fun op => op.writes ⊆ (T_k12_W.map (Proc.devRef (τ := τ) .tc)).toFinset := by
  simp only [List.Forall]; repeat' apply And.intro
  all_goals exact T_kwrites_sub rfl (by decide)
abbrev T_k13_W : List (Ref sig .tc) := [main_v308, main_v309, main_v310, main_v311, main_v312, main_v313, main_cst_43, main_v314, main_v315, main_v316, main_v317]
theorem T_k13_writes : (T_k13 : List (HloOp τ sig (Elt F))).Forall fun op => op.writes ⊆ (T_k13_W.map (Proc.devRef (τ := τ) .tc)).toFinset := by
  simp only [List.Forall]; repeat' apply And.intro
  all_goals exact T_kwrites_sub rfl (by decide)

end KernelLists

section RefLists
open Cert.ReferenceIdeal Cert.ReferenceIdeal.Gen Idealize.ShloMosaic.StableHlo

/-- The reference's stage 0. -/
abbrev T_r0 : List (HloOp τ sig (Elt F)) :=
  [ binary main_arg4 main_v219 main_v220 ((fun a b => concatenate S1x40 1 [⟨S1x20, a⟩, ⟨S1x20, b⟩] concatenates_S1x20_S1x20_S1x40_d1) : (⟨S1x20, .f32⟩ : BufTy).Contents (Elt F) → (⟨S1x20, .f32⟩ : BufTy).Contents (Elt F) → (⟨S1x40, .f32⟩ : BufTy).Contents (Elt F)),
    unary main_v15 main_v221 ((extractStridedSlice S1x1 ![0, 0] · slices_S1x3_S1x1_0_0) : (⟨S1x3, .f32⟩ : BufTy).Contents (Elt F) → (⟨S1x1, .f32⟩ : BufTy).Contents (Elt F)),
    reshape main_v221 main_v222 rfl shapeCasts_S1x1_S_,
    unary main_v222 main_v223 (Host.negf : (⟨S_, .f32⟩ : BufTy).Contents (Elt F) → (⟨S_, .f32⟩ : BufTy).Contents (Elt F)),
    unary main_v223 main_v224 (Host.exp : (⟨S_, .f32⟩ : BufTy).Contents (Elt F) → (⟨S_, .f32⟩ : BufTy).Contents (Elt F)),
    nullary main_cst_33 (constant S_ .f32 0x3F800000#32),
    binary main_cst_33 main_v224 main_v225 (addf : (⟨S_, .f32⟩ : BufTy).Contents (Elt F) → (⟨S_, .f32⟩ : BufTy).Contents (Elt F) → (⟨S_, .f32⟩ : BufTy).Contents (Elt F)),
    nullary main_cst_34 (constant S_ .f32 0x3F800000#32),
    binary main_cst_34 main_v225 main_v226 (Host.divf : (⟨S_, .f32⟩ : BufTy).Contents (Elt F) → (⟨S_, .f32⟩ : BufTy).Contents (Elt F) → (⟨S_, .f32⟩ : BufTy).Contents (Elt F)),
    unary main_v15 main_v227 ((extractStridedSlice S1x2 ![0, 1] · slices_S1x3_S1x2_0_1) : (⟨S1x3, .f32⟩ : BufTy).Contents (Elt F) → (⟨S1x2, .f32⟩ : BufTy).Contents (Elt F)),
    nullary main_cst_35 (constant S_ .f32 0xFF800000#32),
    binary main_v227 main_cst_35 main_v228 ((fun x v => Host.reduce FloatOps.maximumf x v reducesTo_S1x2_S1_d1 h_S_) : (⟨S1x2, .f32⟩ : BufTy).Contents (Elt F) → (⟨S_, .f32⟩ : BufTy).Contents (Elt F) → (⟨S1, .f32⟩ : BufTy).Contents (Elt F)),
    nullary main_cst_36 (constant S_ .f32 0xFF800000#32),
    unary main_cst_36 main_v229 (broadcastInDim S1 ![] bcast_S_S1 : (⟨S_, .f32⟩ : BufTy).Contents (Elt F) → (⟨S1, .f32⟩ : BufTy).Contents (Elt F)),
    binary main_v229 main_v228 main_v230 (maximumf : (⟨S1, .f32⟩ : BufTy).Contents (Elt F) → (⟨S1, .f32⟩ : BufTy).Contents (Elt F) → (⟨S1, .f32⟩ : BufTy).Contents (Elt F)),
    unary main_v230 main_v231 (broadcastInDim S1x1 ![0] bcast_S1_S1x1_0 : (⟨S1, .f32⟩ : BufTy).Contents (Elt F) → (⟨S1x1, .f32⟩ : BufTy).Contents (Elt F)),
    unary main_v231 main_v232 (broadcastInDim S1x2 ![0, 1] bcast_S1x1_S1x2_0_1 : (⟨S1x1, .f32⟩ : BufTy).Contents (Elt F) → (⟨S1x2, .f32⟩ : BufTy).Contents (Elt F)),
    binary main_v227 main_v232 main_v233 (subf : (⟨S1x2, .f32⟩ : BufTy).Contents (Elt F) → (⟨S1x2, .f32⟩ : BufTy).Contents (Elt F) → (⟨S1x2, .f32⟩ : BufTy).Contents (Elt F)),
    unary main_v233 main_v234 (Host.exp : (⟨S1x2, .f32⟩ : BufTy).Contents (Elt F) → (⟨S1x2, .f32⟩ : BufTy).Contents (Elt F)),
    nullary main_cst_37 (constant S_ .f32 0x00000000#32),
    binary main_v234 main_cst_37 main_v235 ((fun x v => Host.reduceAdd x v reducesTo_S1x2_S1_d1 h_S_) : (⟨S1x2, .f32⟩ : BufTy).Contents (Elt F) → (⟨S_, .f32⟩ : BufTy).Contents (Elt F) → (⟨S1, .f32⟩ : BufTy).Contents (Elt F)),
    unary main_v235 main_v236 (broadcastInDim S1x1 ![0] bcast_S1_S1x1_0 : (⟨S1, .f32⟩ : BufTy).Contents (Elt F) → (⟨S1x1, .f32⟩ : BufTy).Contents (Elt F)),
    unary main_v236 main_v237 (broadcastInDim S1x2 ![0, 1] bcast_S1x1_S1x2_0_1 : (⟨S1x1, .f32⟩ : BufTy).Contents (Elt F) → (⟨S1x2, .f32⟩ : BufTy).Contents (Elt F)),
    binary main_v234 main_v237 main_v238 (Host.divf : (⟨S1x2, .f32⟩ : BufTy).Contents (Elt F) → (⟨S1x2, .f32⟩ : BufTy).Contents (Elt F) → (⟨S1x2, .f32⟩ : BufTy).Contents (Elt F)),
    unary main_arg15 main_v239 ((transpose S40x110 [1, 0] · transposes_S110x40_S40x110_1_0) : (⟨S110x40, .f32⟩ : BufTy).Contents (Elt F) → (⟨S40x110, .f32⟩ : BufTy).Contents (Elt F)),
    binary main_v220 main_v239 main_v240 ((fun l r => Host.dotGeneral dot_S1x40_S40x110_S1x110_1_0_0_1_n_n none l r) : (⟨S1x40, .f32⟩ : BufTy).Contents (Elt F) → (⟨S40x110, .f32⟩ : BufTy).Contents (Elt F) → (⟨S1x110, .f32⟩ : BufTy).Contents (Elt F)),
    unary main_arg16 main_v241 (broadcastInDim S1x110 ![1] bcast_S110_S1x110_1 : (⟨S110, .f32⟩ : BufTy).Contents (Elt F) → (⟨S1x110, .f32⟩ : BufTy).Contents (Elt F)),
    binary main_v240 main_v241 main_v242 (addf : (⟨S1x110, .f32⟩ : BufTy).Contents (Elt F) → (⟨S1x110, .f32⟩ : BufTy).Contents (Elt F) → (⟨S1x110, .f32⟩ : BufTy).Contents (Elt F)) ]
/-- The reference's stage 1. -/
abbrev T_r1 : List (HloOp τ sig (Elt F)) :=
  [ TRef.nullary (TRef.of (T := ⟨S_, .f32⟩) main_call8_cst) (constant S_ .f32 0x00000000#32),
    TRef.unary (TRef.of (T := ⟨S_, .f32⟩) main_call8_cst) (TRef.of (T := ⟨S1x110, .f32⟩) main_call8_v0) (broadcastInDim S1x110 ![] bcast_S_S1x110),
    TRef.binary (TRef.of (T := ⟨S1x110, .f32⟩) main_v242) (TRef.of (T := ⟨S1x110, .f32⟩) main_call8_v0) (TRef.of (T := ⟨S1x110, .f32⟩) main_v243) maximumf ]
/-- The reference's stage 2. -/
abbrev T_r2 : List (HloOp τ sig (Elt F)) :=
  [ unary main_arg17 main_v244 ((transpose S110x190 [1, 0] · transposes_S190x110_S110x190_1_0) : (⟨S190x110, .f32⟩ : BufTy).Contents (Elt F) → (⟨S110x190, .f32⟩ : BufTy).Contents (Elt F)),
    binary main_v243 main_v244 main_v245 ((fun l r => Host.dotGeneral dot_S1x110_S110x190_S1x190_1_0_0_1_n_n none l r) : (⟨S1x110, .f32⟩ : BufTy).Contents (Elt F) → (⟨S110x190, .f32⟩ : BufTy).Contents (Elt F) → (⟨S1x190, .f32⟩ : BufTy).Contents (Elt F)),
    unary main_arg18 main_v246 (broadcastInDim S1x190 ![1] bcast_S190_S1x190_1 : (⟨S190, .f32⟩ : BufTy).Contents (Elt F) → (⟨S1x190, .f32⟩ : BufTy).Contents (Elt F)),
    binary main_v245 main_v246 main_v247 (addf : (⟨S1x190, .f32⟩ : BufTy).Contents (Elt F) → (⟨S1x190, .f32⟩ : BufTy).Contents (Elt F) → (⟨S1x190, .f32⟩ : BufTy).Contents (Elt F)) ]
/-- The reference's stage 3. -/
abbrev T_r3 : List (HloOp τ sig (Elt F)) :=
  [ TRef.nullary (TRef.of (T := ⟨S_, .f32⟩) main_call9_cst) (constant S_ .f32 0x00000000#32),
    TRef.unary (TRef.of (T := ⟨S_, .f32⟩) main_call9_cst) (TRef.of (T := ⟨S1x190, .f32⟩) main_call9_v0) (broadcastInDim S1x190 ![] bcast_S_S1x190),
    TRef.binary (TRef.of (T := ⟨S1x190, .f32⟩) main_v247) (TRef.of (T := ⟨S1x190, .f32⟩) main_call9_v0) (TRef.of (T := ⟨S1x190, .f32⟩) main_v248) maximumf ]
/-- The reference's stage 4. -/
abbrev T_r4 : List (HloOp τ sig (Elt F)) :=
  [ unary main_arg19 main_v249 ((transpose S190x270 [1, 0] · transposes_S270x190_S190x270_1_0) : (⟨S270x190, .f32⟩ : BufTy).Contents (Elt F) → (⟨S190x270, .f32⟩ : BufTy).Contents (Elt F)),
    binary main_v248 main_v249 main_v250 ((fun l r => Host.dotGeneral dot_S1x190_S190x270_S1x270_1_0_0_1_n_n none l r) : (⟨S1x190, .f32⟩ : BufTy).Contents (Elt F) → (⟨S190x270, .f32⟩ : BufTy).Contents (Elt F) → (⟨S1x270, .f32⟩ : BufTy).Contents (Elt F)),
    unary main_arg20 main_v251 (broadcastInDim S1x270 ![1] bcast_S270_S1x270_1 : (⟨S270, .f32⟩ : BufTy).Contents (Elt F) → (⟨S1x270, .f32⟩ : BufTy).Contents (Elt F)),
    binary main_v250 main_v251 main_v252 (addf : (⟨S1x270, .f32⟩ : BufTy).Contents (Elt F) → (⟨S1x270, .f32⟩ : BufTy).Contents (Elt F) → (⟨S1x270, .f32⟩ : BufTy).Contents (Elt F)) ]
/-- The reference's stage 5. -/
abbrev T_r5 : List (HloOp τ sig (Elt F)) :=
  [ TRef.nullary (TRef.of (T := ⟨S_, .f32⟩) main_call10_cst) (constant S_ .f32 0x00000000#32),
    TRef.unary (TRef.of (T := ⟨S_, .f32⟩) main_call10_cst) (TRef.of (T := ⟨S1x270, .f32⟩) main_call10_v0) (broadcastInDim S1x270 ![] bcast_S_S1x270),
    TRef.binary (TRef.of (T := ⟨S1x270, .f32⟩) main_v252) (TRef.of (T := ⟨S1x270, .f32⟩) main_call10_v0) (TRef.of (T := ⟨S1x270, .f32⟩) main_v253) maximumf ]
/-- The reference's stage 6. -/
abbrev T_r6 : List (HloOp τ sig (Elt F)) :=
  [ unary main_arg21 main_v254 ((transpose S270x325 [1, 0] · transposes_S325x270_S270x325_1_0) : (⟨S325x270, .f32⟩ : BufTy).Contents (Elt F) → (⟨S270x325, .f32⟩ : BufTy).Contents (Elt F)),
    binary main_v253 main_v254 main_v255 ((fun l r => Host.dotGeneral dot_S1x270_S270x325_S1x325_1_0_0_1_n_n none l r) : (⟨S1x270, .f32⟩ : BufTy).Contents (Elt F) → (⟨S270x325, .f32⟩ : BufTy).Contents (Elt F) → (⟨S1x325, .f32⟩ : BufTy).Contents (Elt F)),
    unary main_arg22 main_v256 (broadcastInDim S1x325 ![1] bcast_S325_S1x325_1 : (⟨S325, .f32⟩ : BufTy).Contents (Elt F) → (⟨S1x325, .f32⟩ : BufTy).Contents (Elt F)),
    binary main_v255 main_v256 main_v257 (addf : (⟨S1x325, .f32⟩ : BufTy).Contents (Elt F) → (⟨S1x325, .f32⟩ : BufTy).Contents (Elt F) → (⟨S1x325, .f32⟩ : BufTy).Contents (Elt F)),
    nullary main_cst_38 (constant S_ .f32 0xFF800000#32),
    binary main_v257 main_cst_38 main_v258 ((fun x v => Host.reduce FloatOps.maximumf x v reducesTo_S1x325_S1_d1 h_S_) : (⟨S1x325, .f32⟩ : BufTy).Contents (Elt F) → (⟨S_, .f32⟩ : BufTy).Contents (Elt F) → (⟨S1, .f32⟩ : BufTy).Contents (Elt F)),
    nullary main_cst_39 (constant S_ .f32 0xFF800000#32),
    unary main_cst_39 main_v259 (broadcastInDim S1 ![] bcast_S_S1 : (⟨S_, .f32⟩ : BufTy).Contents (Elt F) → (⟨S1, .f32⟩ : BufTy).Contents (Elt F)),
    binary main_v259 main_v258 main_v260 (maximumf : (⟨S1, .f32⟩ : BufTy).Contents (Elt F) → (⟨S1, .f32⟩ : BufTy).Contents (Elt F) → (⟨S1, .f32⟩ : BufTy).Contents (Elt F)),
    unary main_v260 main_v261 (broadcastInDim S1x1 ![0] bcast_S1_S1x1_0 : (⟨S1, .f32⟩ : BufTy).Contents (Elt F) → (⟨S1x1, .f32⟩ : BufTy).Contents (Elt F)),
    unary main_v261 main_v262 (broadcastInDim S1x325 ![0, 1] bcast_S1x1_S1x325_0_1 : (⟨S1x1, .f32⟩ : BufTy).Contents (Elt F) → (⟨S1x325, .f32⟩ : BufTy).Contents (Elt F)),
    binary main_v257 main_v262 main_v263 (subf : (⟨S1x325, .f32⟩ : BufTy).Contents (Elt F) → (⟨S1x325, .f32⟩ : BufTy).Contents (Elt F) → (⟨S1x325, .f32⟩ : BufTy).Contents (Elt F)),
    unary main_v263 main_v264 (Host.exp : (⟨S1x325, .f32⟩ : BufTy).Contents (Elt F) → (⟨S1x325, .f32⟩ : BufTy).Contents (Elt F)),
    nullary main_cst_40 (constant S_ .f32 0x00000000#32),
    binary main_v264 main_cst_40 main_v265 ((fun x v => Host.reduceAdd x v reducesTo_S1x325_S1_d1 h_S_) : (⟨S1x325, .f32⟩ : BufTy).Contents (Elt F) → (⟨S_, .f32⟩ : BufTy).Contents (Elt F) → (⟨S1, .f32⟩ : BufTy).Contents (Elt F)),
    unary main_v265 main_v266 (broadcastInDim S1x1 ![0] bcast_S1_S1x1_0 : (⟨S1, .f32⟩ : BufTy).Contents (Elt F) → (⟨S1x1, .f32⟩ : BufTy).Contents (Elt F)),
    unary main_v266 main_v267 (broadcastInDim S1x325 ![0, 1] bcast_S1x1_S1x325_0_1 : (⟨S1x1, .f32⟩ : BufTy).Contents (Elt F) → (⟨S1x325, .f32⟩ : BufTy).Contents (Elt F)),
    binary main_v264 main_v267 main_v268 (Host.divf : (⟨S1x325, .f32⟩ : BufTy).Contents (Elt F) → (⟨S1x325, .f32⟩ : BufTy).Contents (Elt F) → (⟨S1x325, .f32⟩ : BufTy).Contents (Elt F)),
    unary main_arg23 main_v269 ((transpose S40x110 [1, 0] · transposes_S110x40_S40x110_1_0) : (⟨S110x40, .f32⟩ : BufTy).Contents (Elt F) → (⟨S40x110, .f32⟩ : BufTy).Contents (Elt F)),
    binary main_v220 main_v269 main_v270 ((fun l r => Host.dotGeneral dot_S1x40_S40x110_S1x110_1_0_0_1_n_n none l r) : (⟨S1x40, .f32⟩ : BufTy).Contents (Elt F) → (⟨S40x110, .f32⟩ : BufTy).Contents (Elt F) → (⟨S1x110, .f32⟩ : BufTy).Contents (Elt F)),
    unary main_arg24 main_v271 (broadcastInDim S1x110 ![1] bcast_S110_S1x110_1 : (⟨S110, .f32⟩ : BufTy).Contents (Elt F) → (⟨S1x110, .f32⟩ : BufTy).Contents (Elt F)),
    binary main_v270 main_v271 main_v272 (addf : (⟨S1x110, .f32⟩ : BufTy).Contents (Elt F) → (⟨S1x110, .f32⟩ : BufTy).Contents (Elt F) → (⟨S1x110, .f32⟩ : BufTy).Contents (Elt F)) ]
/-- The reference's stage 7. -/
abbrev T_r7 : List (HloOp τ sig (Elt F)) :=
  [ TRef.nullary (TRef.of (T := ⟨S_, .f32⟩) main_call11_cst) (constant S_ .f32 0x00000000#32),
    TRef.unary (TRef.of (T := ⟨S_, .f32⟩) main_call11_cst) (TRef.of (T := ⟨S1x110, .f32⟩) main_call11_v0) (broadcastInDim S1x110 ![] bcast_S_S1x110),
    TRef.binary (TRef.of (T := ⟨S1x110, .f32⟩) main_v272) (TRef.of (T := ⟨S1x110, .f32⟩) main_call11_v0) (TRef.of (T := ⟨S1x110, .f32⟩) main_v273) maximumf ]
/-- The reference's stage 8. -/
abbrev T_r8 : List (HloOp τ sig (Elt F)) :=
  [ unary main_arg25 main_v274 ((transpose S110x190 [1, 0] · transposes_S190x110_S110x190_1_0) : (⟨S190x110, .f32⟩ : BufTy).Contents (Elt F) → (⟨S110x190, .f32⟩ : BufTy).Contents (Elt F)),
    binary main_v273 main_v274 main_v275 ((fun l r => Host.dotGeneral dot_S1x110_S110x190_S1x190_1_0_0_1_n_n none l r) : (⟨S1x110, .f32⟩ : BufTy).Contents (Elt F) → (⟨S110x190, .f32⟩ : BufTy).Contents (Elt F) → (⟨S1x190, .f32⟩ : BufTy).Contents (Elt F)),
    unary main_arg26 main_v276 (broadcastInDim S1x190 ![1] bcast_S190_S1x190_1 : (⟨S190, .f32⟩ : BufTy).Contents (Elt F) → (⟨S1x190, .f32⟩ : BufTy).Contents (Elt F)),
    binary main_v275 main_v276 main_v277 (addf : (⟨S1x190, .f32⟩ : BufTy).Contents (Elt F) → (⟨S1x190, .f32⟩ : BufTy).Contents (Elt F) → (⟨S1x190, .f32⟩ : BufTy).Contents (Elt F)) ]
/-- The reference's stage 9. -/
abbrev T_r9 : List (HloOp τ sig (Elt F)) :=
  [ TRef.nullary (TRef.of (T := ⟨S_, .f32⟩) main_call12_cst) (constant S_ .f32 0x00000000#32),
    TRef.unary (TRef.of (T := ⟨S_, .f32⟩) main_call12_cst) (TRef.of (T := ⟨S1x190, .f32⟩) main_call12_v0) (broadcastInDim S1x190 ![] bcast_S_S1x190),
    TRef.binary (TRef.of (T := ⟨S1x190, .f32⟩) main_v277) (TRef.of (T := ⟨S1x190, .f32⟩) main_call12_v0) (TRef.of (T := ⟨S1x190, .f32⟩) main_v278) maximumf ]
/-- The reference's stage 10. -/
abbrev T_r10 : List (HloOp τ sig (Elt F)) :=
  [ unary main_arg27 main_v279 ((transpose S190x270 [1, 0] · transposes_S270x190_S190x270_1_0) : (⟨S270x190, .f32⟩ : BufTy).Contents (Elt F) → (⟨S190x270, .f32⟩ : BufTy).Contents (Elt F)),
    binary main_v278 main_v279 main_v280 ((fun l r => Host.dotGeneral dot_S1x190_S190x270_S1x270_1_0_0_1_n_n none l r) : (⟨S1x190, .f32⟩ : BufTy).Contents (Elt F) → (⟨S190x270, .f32⟩ : BufTy).Contents (Elt F) → (⟨S1x270, .f32⟩ : BufTy).Contents (Elt F)),
    unary main_arg28 main_v281 (broadcastInDim S1x270 ![1] bcast_S270_S1x270_1 : (⟨S270, .f32⟩ : BufTy).Contents (Elt F) → (⟨S1x270, .f32⟩ : BufTy).Contents (Elt F)),
    binary main_v280 main_v281 main_v282 (addf : (⟨S1x270, .f32⟩ : BufTy).Contents (Elt F) → (⟨S1x270, .f32⟩ : BufTy).Contents (Elt F) → (⟨S1x270, .f32⟩ : BufTy).Contents (Elt F)) ]
/-- The reference's stage 11. -/
abbrev T_r11 : List (HloOp τ sig (Elt F)) :=
  [ TRef.nullary (TRef.of (T := ⟨S_, .f32⟩) main_call13_cst) (constant S_ .f32 0x00000000#32),
    TRef.unary (TRef.of (T := ⟨S_, .f32⟩) main_call13_cst) (TRef.of (T := ⟨S1x270, .f32⟩) main_call13_v0) (broadcastInDim S1x270 ![] bcast_S_S1x270),
    TRef.binary (TRef.of (T := ⟨S1x270, .f32⟩) main_v282) (TRef.of (T := ⟨S1x270, .f32⟩) main_call13_v0) (TRef.of (T := ⟨S1x270, .f32⟩) main_v283) maximumf ]
/-- The reference's stage 12. -/
abbrev T_r12 : List (HloOp τ sig (Elt F)) :=
  [ unary main_arg29 main_v284 ((transpose S270x325 [1, 0] · transposes_S325x270_S270x325_1_0) : (⟨S325x270, .f32⟩ : BufTy).Contents (Elt F) → (⟨S270x325, .f32⟩ : BufTy).Contents (Elt F)),
    binary main_v283 main_v284 main_v285 ((fun l r => Host.dotGeneral dot_S1x270_S270x325_S1x325_1_0_0_1_n_n none l r) : (⟨S1x270, .f32⟩ : BufTy).Contents (Elt F) → (⟨S270x325, .f32⟩ : BufTy).Contents (Elt F) → (⟨S1x325, .f32⟩ : BufTy).Contents (Elt F)),
    unary main_arg30 main_v286 (broadcastInDim S1x325 ![1] bcast_S325_S1x325_1 : (⟨S325, .f32⟩ : BufTy).Contents (Elt F) → (⟨S1x325, .f32⟩ : BufTy).Contents (Elt F)),
    binary main_v285 main_v286 main_v287 (addf : (⟨S1x325, .f32⟩ : BufTy).Contents (Elt F) → (⟨S1x325, .f32⟩ : BufTy).Contents (Elt F) → (⟨S1x325, .f32⟩ : BufTy).Contents (Elt F)),
    nullary main_cst_41 (constant S_ .f32 0xFF800000#32),
    binary main_v287 main_cst_41 main_v288 ((fun x v => Host.reduce FloatOps.maximumf x v reducesTo_S1x325_S1_d1 h_S_) : (⟨S1x325, .f32⟩ : BufTy).Contents (Elt F) → (⟨S_, .f32⟩ : BufTy).Contents (Elt F) → (⟨S1, .f32⟩ : BufTy).Contents (Elt F)),
    nullary main_cst_42 (constant S_ .f32 0xFF800000#32),
    unary main_cst_42 main_v289 (broadcastInDim S1 ![] bcast_S_S1 : (⟨S_, .f32⟩ : BufTy).Contents (Elt F) → (⟨S1, .f32⟩ : BufTy).Contents (Elt F)),
    binary main_v289 main_v288 main_v290 (maximumf : (⟨S1, .f32⟩ : BufTy).Contents (Elt F) → (⟨S1, .f32⟩ : BufTy).Contents (Elt F) → (⟨S1, .f32⟩ : BufTy).Contents (Elt F)),
    unary main_v290 main_v291 (broadcastInDim S1x1 ![0] bcast_S1_S1x1_0 : (⟨S1, .f32⟩ : BufTy).Contents (Elt F) → (⟨S1x1, .f32⟩ : BufTy).Contents (Elt F)),
    unary main_v291 main_v292 (broadcastInDim S1x325 ![0, 1] bcast_S1x1_S1x325_0_1 : (⟨S1x1, .f32⟩ : BufTy).Contents (Elt F) → (⟨S1x325, .f32⟩ : BufTy).Contents (Elt F)),
    binary main_v287 main_v292 main_v293 (subf : (⟨S1x325, .f32⟩ : BufTy).Contents (Elt F) → (⟨S1x325, .f32⟩ : BufTy).Contents (Elt F) → (⟨S1x325, .f32⟩ : BufTy).Contents (Elt F)),
    unary main_v293 main_v294 (Host.exp : (⟨S1x325, .f32⟩ : BufTy).Contents (Elt F) → (⟨S1x325, .f32⟩ : BufTy).Contents (Elt F)),
    nullary main_cst_43 (constant S_ .f32 0x00000000#32),
    binary main_v294 main_cst_43 main_v295 ((fun x v => Host.reduceAdd x v reducesTo_S1x325_S1_d1 h_S_) : (⟨S1x325, .f32⟩ : BufTy).Contents (Elt F) → (⟨S_, .f32⟩ : BufTy).Contents (Elt F) → (⟨S1, .f32⟩ : BufTy).Contents (Elt F)),
    unary main_v295 main_v296 (broadcastInDim S1x1 ![0] bcast_S1_S1x1_0 : (⟨S1, .f32⟩ : BufTy).Contents (Elt F) → (⟨S1x1, .f32⟩ : BufTy).Contents (Elt F)),
    unary main_v296 main_v297 (broadcastInDim S1x325 ![0, 1] bcast_S1x1_S1x325_0_1 : (⟨S1x1, .f32⟩ : BufTy).Contents (Elt F) → (⟨S1x325, .f32⟩ : BufTy).Contents (Elt F)),
    binary main_v294 main_v297 main_v298 (Host.divf : (⟨S1x325, .f32⟩ : BufTy).Contents (Elt F) → (⟨S1x325, .f32⟩ : BufTy).Contents (Elt F) → (⟨S1x325, .f32⟩ : BufTy).Contents (Elt F)),
    unary main_v238 main_v299 ((extractStridedSlice S1x1 ![0, 0] · slices_S1x2_S1x1_0_0) : (⟨S1x2, .f32⟩ : BufTy).Contents (Elt F) → (⟨S1x1, .f32⟩ : BufTy).Contents (Elt F)),
    reshape main_v299 main_v300 rfl shapeCasts_S1x1_S_,
    unary main_v300 main_v301 (broadcastInDim S1x325 ![] bcast_S_S1x325 : (⟨S_, .f32⟩ : BufTy).Contents (Elt F) → (⟨S1x325, .f32⟩ : BufTy).Contents (Elt F)),
    binary main_v301 main_v268 main_v302 (mulf : (⟨S1x325, .f32⟩ : BufTy).Contents (Elt F) → (⟨S1x325, .f32⟩ : BufTy).Contents (Elt F) → (⟨S1x325, .f32⟩ : BufTy).Contents (Elt F)),
    unary main_v238 main_v303 ((extractStridedSlice S1x1 ![0, 1] · slices_S1x2_S1x1_0_1) : (⟨S1x2, .f32⟩ : BufTy).Contents (Elt F) → (⟨S1x1, .f32⟩ : BufTy).Contents (Elt F)),
    reshape main_v303 main_v304 rfl shapeCasts_S1x1_S_,
    unary main_v304 main_v305 (broadcastInDim S1x325 ![] bcast_S_S1x325 : (⟨S_, .f32⟩ : BufTy).Contents (Elt F) → (⟨S1x325, .f32⟩ : BufTy).Contents (Elt F)),
    binary main_v305 main_v298 main_v306 (mulf : (⟨S1x325, .f32⟩ : BufTy).Contents (Elt F) → (⟨S1x325, .f32⟩ : BufTy).Contents (Elt F) → (⟨S1x325, .f32⟩ : BufTy).Contents (Elt F)),
    binary main_v302 main_v306 main_v307 (addf : (⟨S1x325, .f32⟩ : BufTy).Contents (Elt F) → (⟨S1x325, .f32⟩ : BufTy).Contents (Elt F) → (⟨S1x325, .f32⟩ : BufTy).Contents (Elt F)) ]

theorem T_ch4b_split : (Hand.ch4b : List (HloOp τ sig (Elt F))) = T_r0 ++ T_r1 ++ T_r2 ++ T_r3 ++ T_r4 ++ T_r5 ++ T_r6 ++ T_r7 ++ T_r8 ++ T_r9 ++ T_r10 ++ T_r11 ++ T_r12 := rfl

theorem T_rwrites_sub {W : List (Ref sig .tc)} {op : HloOp τ sig (Elt F)} {y : Ref sig .tc}
    (hw : op.writes = {Proc.devRef .tc y}) (hy : y ∈ W) :
    op.writes ⊆ (W.map (Proc.devRef (τ := τ) .tc)).toFinset := by
  rw [hw, Finset.singleton_subset_iff, List.mem_toFinset]; exact List.mem_map_of_mem hy

abbrev T_r0_W : List (Ref sig .tc) := [main_v220, main_v221, main_v222, main_v223, main_v224, main_cst_33, main_v225, main_cst_34, main_v226, main_v227, main_cst_35, main_v228, main_cst_36, main_v229, main_v230, main_v231, main_v232, main_v233, main_v234, main_cst_37, main_v235, main_v236, main_v237, main_v238, main_v239, main_v240, main_v241, main_v242]
theorem T_r0_writes : (T_r0 : List (HloOp τ sig (Elt F))).Forall fun op => op.writes ⊆ (T_r0_W.map (Proc.devRef (τ := τ) .tc)).toFinset := by
  simp only [List.Forall]; repeat' apply And.intro
  all_goals exact T_rwrites_sub rfl (by decide)
abbrev T_r1_W : List (Ref sig .tc) := [main_call8_cst, main_call8_v0, main_v243]
theorem T_r1_writes : (T_r1 : List (HloOp τ sig (Elt F))).Forall fun op => op.writes ⊆ (T_r1_W.map (Proc.devRef (τ := τ) .tc)).toFinset := by
  simp only [List.Forall]; repeat' apply And.intro
  all_goals exact T_rwrites_sub rfl (by decide)
abbrev T_r2_W : List (Ref sig .tc) := [main_v244, main_v245, main_v246, main_v247]
theorem T_r2_writes : (T_r2 : List (HloOp τ sig (Elt F))).Forall fun op => op.writes ⊆ (T_r2_W.map (Proc.devRef (τ := τ) .tc)).toFinset := by
  simp only [List.Forall]; repeat' apply And.intro
  all_goals exact T_rwrites_sub rfl (by decide)
abbrev T_r3_W : List (Ref sig .tc) := [main_call9_cst, main_call9_v0, main_v248]
theorem T_r3_writes : (T_r3 : List (HloOp τ sig (Elt F))).Forall fun op => op.writes ⊆ (T_r3_W.map (Proc.devRef (τ := τ) .tc)).toFinset := by
  simp only [List.Forall]; repeat' apply And.intro
  all_goals exact T_rwrites_sub rfl (by decide)
abbrev T_r4_W : List (Ref sig .tc) := [main_v249, main_v250, main_v251, main_v252]
theorem T_r4_writes : (T_r4 : List (HloOp τ sig (Elt F))).Forall fun op => op.writes ⊆ (T_r4_W.map (Proc.devRef (τ := τ) .tc)).toFinset := by
  simp only [List.Forall]; repeat' apply And.intro
  all_goals exact T_rwrites_sub rfl (by decide)
abbrev T_r5_W : List (Ref sig .tc) := [main_call10_cst, main_call10_v0, main_v253]
theorem T_r5_writes : (T_r5 : List (HloOp τ sig (Elt F))).Forall fun op => op.writes ⊆ (T_r5_W.map (Proc.devRef (τ := τ) .tc)).toFinset := by
  simp only [List.Forall]; repeat' apply And.intro
  all_goals exact T_rwrites_sub rfl (by decide)
abbrev T_r6_W : List (Ref sig .tc) := [main_v254, main_v255, main_v256, main_v257, main_cst_38, main_v258, main_cst_39, main_v259, main_v260, main_v261, main_v262, main_v263, main_v264, main_cst_40, main_v265, main_v266, main_v267, main_v268, main_v269, main_v270, main_v271, main_v272]
theorem T_r6_writes : (T_r6 : List (HloOp τ sig (Elt F))).Forall fun op => op.writes ⊆ (T_r6_W.map (Proc.devRef (τ := τ) .tc)).toFinset := by
  simp only [List.Forall]; repeat' apply And.intro
  all_goals exact T_rwrites_sub rfl (by decide)
abbrev T_r7_W : List (Ref sig .tc) := [main_call11_cst, main_call11_v0, main_v273]
theorem T_r7_writes : (T_r7 : List (HloOp τ sig (Elt F))).Forall fun op => op.writes ⊆ (T_r7_W.map (Proc.devRef (τ := τ) .tc)).toFinset := by
  simp only [List.Forall]; repeat' apply And.intro
  all_goals exact T_rwrites_sub rfl (by decide)
abbrev T_r8_W : List (Ref sig .tc) := [main_v274, main_v275, main_v276, main_v277]
theorem T_r8_writes : (T_r8 : List (HloOp τ sig (Elt F))).Forall fun op => op.writes ⊆ (T_r8_W.map (Proc.devRef (τ := τ) .tc)).toFinset := by
  simp only [List.Forall]; repeat' apply And.intro
  all_goals exact T_rwrites_sub rfl (by decide)
abbrev T_r9_W : List (Ref sig .tc) := [main_call12_cst, main_call12_v0, main_v278]
theorem T_r9_writes : (T_r9 : List (HloOp τ sig (Elt F))).Forall fun op => op.writes ⊆ (T_r9_W.map (Proc.devRef (τ := τ) .tc)).toFinset := by
  simp only [List.Forall]; repeat' apply And.intro
  all_goals exact T_rwrites_sub rfl (by decide)
abbrev T_r10_W : List (Ref sig .tc) := [main_v279, main_v280, main_v281, main_v282]
theorem T_r10_writes : (T_r10 : List (HloOp τ sig (Elt F))).Forall fun op => op.writes ⊆ (T_r10_W.map (Proc.devRef (τ := τ) .tc)).toFinset := by
  simp only [List.Forall]; repeat' apply And.intro
  all_goals exact T_rwrites_sub rfl (by decide)
abbrev T_r11_W : List (Ref sig .tc) := [main_call13_cst, main_call13_v0, main_v283]
theorem T_r11_writes : (T_r11 : List (HloOp τ sig (Elt F))).Forall fun op => op.writes ⊆ (T_r11_W.map (Proc.devRef (τ := τ) .tc)).toFinset := by
  simp only [List.Forall]; repeat' apply And.intro
  all_goals exact T_rwrites_sub rfl (by decide)
abbrev T_r12_W : List (Ref sig .tc) := [main_v284, main_v285, main_v286, main_v287, main_cst_41, main_v288, main_cst_42, main_v289, main_v290, main_v291, main_v292, main_v293, main_v294, main_cst_43, main_v295, main_v296, main_v297, main_v298, main_v299, main_v300, main_v301, main_v302, main_v303, main_v304, main_v305, main_v306, main_v307]
theorem T_r12_writes : (T_r12 : List (HloOp τ sig (Elt F))).Forall fun op => op.writes ⊆ (T_r12_W.map (Proc.devRef (τ := τ) .tc)).toFinset := by
  simp only [List.Forall]; repeat' apply And.intro
  all_goals exact T_rwrites_sub rfl (by decide)
abbrev T_r13_W : List (Ref sig .tc) := [main_v308, main_v309, main_v310, main_v311, main_v312, main_v313, main_cst_44, main_v314, main_v315, main_v316, main_v317]
theorem T_r13_writes : (Hand.ch6a : List (HloOp τ sig (Elt F))).Forall fun op => op.writes ⊆ (T_r13_W.map (Proc.devRef (τ := τ) .tc)).toFinset := by
  simp only [List.Forall]; repeat' apply And.intro
  all_goals exact T_rwrites_sub rfl (by decide)

end RefLists

end Cert.Bridge

end
-- ==== Proof.Bridge.SameT1.lean ====
import proofs.«104005_j27152783245914_2_alg».proof.Proof.Bridge.SameT0

/-!
# Stage 0 of the output heads: the concatenated read vectors, the two gates, the first head's first layer

Run from buffers that agree on what the stage reads, the two programs' stage 0 leave the same four values.
-/

set_option maxRecDepth 16384
set_option maxHeartbeats 4000000

noncomputable section

namespace Cert.Bridge

open Idealize.ShloMosaic Idealize.ShloMosaic.TcCoe Idealize.SL.Sem Idealize.ShloMosaic.StableHlo

variable {F : FTy → Type} [FloatOps F]

/-- Stage 0 leaves the same %v220 in both programs when it finds the same %arg4, %v219. -/
theorem T_s0_v220 (Vk : Valuation Cert.KernelIdeal.τ Cert.KernelIdeal.sig (Elt F)) (Vr : Valuation Cert.ReferenceIdeal.τ Cert.ReferenceIdeal.sig (Elt F))
    (h_arg4 : (Vk (Proc.devRef .tc Cert.KernelIdeal.main_arg4) : FVec F Cert.KernelIdeal.S1x20 .f32) = Vr (Proc.devRef .tc Cert.ReferenceIdeal.main_arg4))
    (h_v219 : (Vk (Proc.devRef .tc Cert.KernelIdeal.main_v219) : FVec F Cert.KernelIdeal.S1x20 .f32) = Vr (Proc.devRef .tc Cert.ReferenceIdeal.main_v219)) :
    (StableHlo.after T_k0 Vk (Proc.devRef .tc Cert.KernelIdeal.main_v220) : FVec F Cert.KernelIdeal.S1x40 .f32)
      = StableHlo.after T_r0 Vr (Proc.devRef .tc Cert.ReferenceIdeal.main_v220) := by
  after_results_simp
  try simp only [h_arg4, h_v219]
  try rw [h_arg4]
  try rw [h_v219]
  try rfl

/-- Stage 0 leaves the same %v226 in both programs when it finds the same %v15. -/
theorem T_s0_v226 (Vk : Valuation Cert.KernelIdeal.τ Cert.KernelIdeal.sig (Elt F)) (Vr : Valuation Cert.ReferenceIdeal.τ Cert.ReferenceIdeal.sig (Elt F))
    (h_v15 : (Vk (Proc.devRef .tc Cert.KernelIdeal.main_v15) : FVec F Cert.KernelIdeal.S1x3 .f32) = Vr (Proc.devRef .tc Cert.ReferenceIdeal.main_v15)) :
    (StableHlo.after T_k0 Vk (Proc.devRef .tc Cert.KernelIdeal.main_v226) : FVec F Cert.KernelIdeal.S_ .f32)
      = StableHlo.after T_r0 Vr (Proc.devRef .tc Cert.ReferenceIdeal.main_v226) := by
  after_results_simp
  try simp only [h_v15]
  try rw [h_v15]
  try rfl

/-- Stage 0 leaves the same %v238 in both programs when it finds the same %v15. -/
theorem T_s0_v238 (Vk : Valuation Cert.KernelIdeal.τ Cert.KernelIdeal.sig (Elt F)) (Vr : Valuation Cert.ReferenceIdeal.τ Cert.ReferenceIdeal.sig (Elt F))
    (h_v15 : (Vk (Proc.devRef .tc Cert.KernelIdeal.main_v15) : FVec F Cert.KernelIdeal.S1x3 .f32) = Vr (Proc.devRef .tc Cert.ReferenceIdeal.main_v15)) :
    (StableHlo.after T_k0 Vk (Proc.devRef .tc Cert.KernelIdeal.main_v238) : FVec F Cert.KernelIdeal.S1x2 .f32)
      = StableHlo.after T_r0 Vr (Proc.devRef .tc Cert.ReferenceIdeal.main_v238) := by
  after_results_simp
  try simp only [h_v15]
  try rw [h_v15]
  try rfl

/-- Stage 0 leaves the same %v242 in both programs when it finds the same %arg4, %v219, %arg15, %arg16. -/
theorem T_s0_v242 (Vk : Valuation Cert.KernelIdeal.τ Cert.KernelIdeal.sig (Elt F)) (Vr : Valuation Cert.ReferenceIdeal.τ Cert.ReferenceIdeal.sig (Elt F))
    (h_arg4 : (Vk (Proc.devRef .tc Cert.KernelIdeal.main_arg4) : FVec F Cert.KernelIdeal.S1x20 .f32) = Vr (Proc.devRef .tc Cert.ReferenceIdeal.main_arg4))
    (h_v219 : (Vk (Proc.devRef .tc Cert.KernelIdeal.main_v219) : FVec F Cert.KernelIdeal.S1x20 .f32) = Vr (Proc.devRef .tc Cert.ReferenceIdeal.main_v219))
    (h_arg15 : (Vk (Proc.devRef .tc Cert.KernelIdeal.main_arg15) : FVec F Cert.KernelIdeal.S110x40 .f32) = Vr (Proc.devRef .tc Cert.ReferenceIdeal.main_arg15))
    (h_arg16 : (Vk (Proc.devRef .tc Cert.KernelIdeal.main_arg16) : FVec F Cert.KernelIdeal.S110 .f32) = Vr (Proc.devRef .tc Cert.ReferenceIdeal.main_arg16)) :
    (StableHlo.after T_k0 Vk (Proc.devRef .tc Cert.KernelIdeal.main_v242) : FVec F Cert.KernelIdeal.S1x110 .f32)
      = StableHlo.after T_r0 Vr (Proc.devRef .tc Cert.ReferenceIdeal.main_v242) := by
  after_results_simp
  try simp only [h_arg4, h_v219, h_arg15, h_arg16]
  try rw [h_arg4]
  try rw [h_v219]
  try rw [h_arg15]
  try rw [h_arg16]
  try rfl

end Cert.Bridge

end
-- ==== Proof.Bridge.SameT2.lean ====
import proofs.«104005_j27152783245914_2_alg».proof.Proof.Bridge.SameT0

/-!
# The inner layers of the two heads' networks, stage by stage

Each rectifier and each inner layer, run from buffers that agree on what it reads, leaves the same value in both programs.
-/

set_option maxRecDepth 16384
set_option maxHeartbeats 4000000

noncomputable section

namespace Cert.Bridge

open Idealize.ShloMosaic Idealize.ShloMosaic.TcCoe Idealize.SL.Sem Idealize.ShloMosaic.StableHlo

variable {F : FTy → Type} [FloatOps F]

/-- Stage 1 leaves the same %v243 in both programs when it finds the same %v242. -/
theorem T_s1_v243 (Vk : Valuation Cert.KernelIdeal.τ Cert.KernelIdeal.sig (Elt F)) (Vr : Valuation Cert.ReferenceIdeal.τ Cert.ReferenceIdeal.sig (Elt F))
    (h_v242 : (Vk (Proc.devRef .tc Cert.KernelIdeal.main_v242) : FVec F Cert.KernelIdeal.S1x110 .f32) = Vr (Proc.devRef .tc Cert.ReferenceIdeal.main_v242)) :
    (StableHlo.after Cert.KernelIdeal.Gen.hostOps2_1 Vk (Proc.devRef .tc Cert.KernelIdeal.main_v243) : FVec F Cert.KernelIdeal.S1x110 .f32)
      = StableHlo.after T_r1 Vr (Proc.devRef .tc Cert.ReferenceIdeal.main_v243) := by
  after_results_simp
  try simp only [h_v242]
  try rw [h_v242]
  try rfl

/-- Stage 2 leaves the same %v247 in both programs when it finds the same %arg17, %v243, %arg18. -/
theorem T_s2_v247 (Vk : Valuation Cert.KernelIdeal.τ Cert.KernelIdeal.sig (Elt F)) (Vr : Valuation Cert.ReferenceIdeal.τ Cert.ReferenceIdeal.sig (Elt F))
    (h_arg17 : (Vk (Proc.devRef .tc Cert.KernelIdeal.main_arg17) : FVec F Cert.KernelIdeal.S190x110 .f32) = Vr (Proc.devRef .tc Cert.ReferenceIdeal.main_arg17))
    (h_v243 : (Vk (Proc.devRef .tc Cert.KernelIdeal.main_v243) : FVec F Cert.KernelIdeal.S1x110 .f32) = Vr (Proc.devRef .tc Cert.ReferenceIdeal.main_v243))
    (h_arg18 : (Vk (Proc.devRef .tc Cert.KernelIdeal.main_arg18) : FVec F Cert.KernelIdeal.S190 .f32) = Vr (Proc.devRef .tc Cert.ReferenceIdeal.main_arg18)) :
    (StableHlo.after Cert.KernelIdeal.Gen.hostOps2_2 Vk (Proc.devRef .tc Cert.KernelIdeal.main_v247) : FVec F Cert.KernelIdeal.S1x190 .f32)
      = StableHlo.after T_r2 Vr (Proc.devRef .tc Cert.ReferenceIdeal.main_v247) := by
  after_results_simp
  try simp only [h_arg17, h_v243, h_arg18]
  try rw [h_arg17]
  try rw [h_v243]
  try rw [h_arg18]
  try rfl

/-- Stage 3 leaves the same %v248 in both programs when it finds the same %v247. -/
theorem T_s3_v248 (Vk : Valuation Cert.KernelIdeal.τ Cert.KernelIdeal.sig (Elt F)) (Vr : Valuation Cert.ReferenceIdeal.τ Cert.ReferenceIdeal.sig (Elt F))
    (h_v247 : (Vk (Proc.devRef .tc Cert.KernelIdeal.main_v247) : FVec F Cert.KernelIdeal.S1x190 .f32) = Vr (Proc.devRef .tc Cert.ReferenceIdeal.main_v247)) :
    (StableHlo.after Cert.KernelIdeal.Gen.hostOps2_3 Vk (Proc.devRef .tc Cert.KernelIdeal.main_v248) : FVec F Cert.KernelIdeal.S1x190 .f32)
      = StableHlo.after T_r3 Vr (Proc.devRef .tc Cert.ReferenceIdeal.main_v248) := by
  after_results_simp
  try simp only [h_v247]
  try rw [h_v247]
  try rfl

/-- Stage 4 leaves the same %v252 in both programs when it finds the same %arg19, %v248, %arg20. -/
theorem T_s4_v252 (Vk : Valuation Cert.KernelIdeal.τ Cert.KernelIdeal.sig (Elt F)) (Vr : Valuation Cert.ReferenceIdeal.τ Cert.ReferenceIdeal.sig (Elt F))
    (h_arg19 : (Vk (Proc.devRef .tc Cert.KernelIdeal.main_arg19) : FVec F Cert.KernelIdeal.S270x190 .f32) = Vr (Proc.devRef .tc Cert.ReferenceIdeal.main_arg19))
    (h_v248 : (Vk (Proc.devRef .tc Cert.KernelIdeal.main_v248) : FVec F Cert.KernelIdeal.S1x190 .f32) = Vr (Proc.devRef .tc Cert.ReferenceIdeal.main_v248))
    (h_arg20 : (Vk (Proc.devRef .tc Cert.KernelIdeal.main_arg20) : FVec F Cert.KernelIdeal.S270 .f32) = Vr (Proc.devRef .tc Cert.ReferenceIdeal.main_arg20)) :
    (StableHlo.after Cert.KernelIdeal.Gen.hostOps2_4 Vk (Proc.devRef .tc Cert.KernelIdeal.main_v252) : FVec F Cert.KernelIdeal.S1x270 .f32)
      = StableHlo.after T_r4 Vr (Proc.devRef .tc Cert.ReferenceIdeal.main_v252) := by
  after_results_simp
  try simp only [h_arg19, h_v248, h_arg20]
  try rw [h_arg19]
  try rw [h_v248]
  try rw [h_arg20]
  try rfl

/-- Stage 5 leaves the same %v253 in both programs when it finds the same %v252. -/
theorem T_s5_v253 (Vk : Valuation Cert.KernelIdeal.τ Cert.KernelIdeal.sig (Elt F)) (Vr : Valuation Cert.ReferenceIdeal.τ Cert.ReferenceIdeal.sig (Elt F))
    (h_v252 : (Vk (Proc.devRef .tc Cert.KernelIdeal.main_v252) : FVec F Cert.KernelIdeal.S1x270 .f32) = Vr (Proc.devRef .tc Cert.ReferenceIdeal.main_v252)) :
    (StableHlo.after Cert.KernelIdeal.Gen.hostOps2_5 Vk (Proc.devRef .tc Cert.KernelIdeal.main_v253) : FVec F Cert.KernelIdeal.S1x270 .f32)
      = StableHlo.after T_r5 Vr (Proc.devRef .tc Cert.ReferenceIdeal.main_v253) := by
  after_results_simp
  try simp only [h_v252]
  try rw [h_v252]
  try rfl

/-- Stage 7 leaves the same %v273 in both programs when it finds the same %v272. -/
theorem T_s7_v273 (Vk : Valuation Cert.KernelIdeal.τ Cert.KernelIdeal.sig (Elt F)) (Vr : Valuation Cert.ReferenceIdeal.τ Cert.ReferenceIdeal.sig (Elt F))
    (h_v272 : (Vk (Proc.devRef .tc Cert.KernelIdeal.main_v272) : FVec F Cert.KernelIdeal.S1x110 .f32) = Vr (Proc.devRef .tc Cert.ReferenceIdeal.main_v272)) :
    (StableHlo.after Cert.KernelIdeal.Gen.hostOps2_7 Vk (Proc.devRef .tc Cert.KernelIdeal.main_v273) : FVec F Cert.KernelIdeal.S1x110 .f32)
      = StableHlo.after T_r7 Vr (Proc.devRef .tc Cert.ReferenceIdeal.main_v273) := by
  after_results_simp
  try simp only [h_v272]
  try rw [h_v272]
  try rfl

/-- Stage 8 leaves the same %v277 in both programs when it finds the same %arg25, %v273, %arg26. -/
theorem T_s8_v277 (Vk : Valuation Cert.KernelIdeal.τ Cert.KernelIdeal.sig (Elt F)) (Vr : Valuation Cert.ReferenceIdeal.τ Cert.ReferenceIdeal.sig (Elt F))
    (h_arg25 : (Vk (Proc.devRef .tc Cert.KernelIdeal.main_arg25) : FVec F Cert.KernelIdeal.S190x110 .f32) = Vr (Proc.devRef .tc Cert.ReferenceIdeal.main_arg25))
    (h_v273 : (Vk (Proc.devRef .tc Cert.KernelIdeal.main_v273) : FVec F Cert.KernelIdeal.S1x110 .f32) = Vr (Proc.devRef .tc Cert.ReferenceIdeal.main_v273))
    (h_arg26 : (Vk (Proc.devRef .tc Cert.KernelIdeal.main_arg26) : FVec F Cert.KernelIdeal.S190 .f32) = Vr (Proc.devRef .tc Cert.ReferenceIdeal.main_arg26)) :
    (StableHlo.after Cert.KernelIdeal.Gen.hostOps2_8 Vk (Proc.devRef .tc Cert.KernelIdeal.main_v277) : FVec F Cert.KernelIdeal.S1x190 .f32)
      = StableHlo.after T_r8 Vr (Proc.devRef .tc Cert.ReferenceIdeal.main_v277) := by
  after_results_simp
  try simp only [h_arg25, h_v273, h_arg26]
  try rw [h_arg25]
  try rw [h_v273]
  try rw [h_arg26]
  try rfl

/-- Stage 9 leaves the same %v278 in both programs when it finds the same %v277. -/
theorem T_s9_v278 (Vk : Valuation Cert.KernelIdeal.τ Cert.KernelIdeal.sig (Elt F)) (Vr : Valuation Cert.ReferenceIdeal.τ Cert.ReferenceIdeal.sig (Elt F))
    (h_v277 : (Vk (Proc.devRef .tc Cert.KernelIdeal.main_v277) : FVec F Cert.KernelIdeal.S1x190 .f32) = Vr (Proc.devRef .tc Cert.ReferenceIdeal.main_v277)) :
    (StableHlo.after Cert.KernelIdeal.Gen.hostOps2_9 Vk (Proc.devRef .tc Cert.KernelIdeal.main_v278) : FVec F Cert.KernelIdeal.S1x190 .f32)
      = StableHlo.after T_r9 Vr (Proc.devRef .tc Cert.ReferenceIdeal.main_v278) := by
  after_results_simp
  try simp only [h_v277]
  try rw [h_v277]
  try rfl

/-- Stage 10 leaves the same %v282 in both programs when it finds the same %arg27, %v278, %arg28. -/
theorem T_s10_v282 (Vk : Valuation Cert.KernelIdeal.τ Cert.KernelIdeal.sig (Elt F)) (Vr : Valuation Cert.ReferenceIdeal.τ Cert.ReferenceIdeal.sig (Elt F))
    (h_arg27 : (Vk (Proc.devRef .tc Cert.KernelIdeal.main_arg27) : FVec F Cert.KernelIdeal.S270x190 .f32) = Vr (Proc.devRef .tc Cert.ReferenceIdeal.main_arg27))
    (h_v278 : (Vk (Proc.devRef .tc Cert.KernelIdeal.main_v278) : FVec F Cert.KernelIdeal.S1x190 .f32) = Vr (Proc.devRef .tc Cert.ReferenceIdeal.main_v278))
    (h_arg28 : (Vk (Proc.devRef .tc Cert.KernelIdeal.main_arg28) : FVec F Cert.KernelIdeal.S270 .f32) = Vr (Proc.devRef .tc Cert.ReferenceIdeal.main_arg28)) :
    (StableHlo.after Cert.KernelIdeal.Gen.hostOps2_10 Vk (Proc.devRef .tc Cert.KernelIdeal.main_v282) : FVec F Cert.KernelIdeal.S1x270 .f32)
      = StableHlo.after T_r10 Vr (Proc.devRef .tc Cert.ReferenceIdeal.main_v282) := by
  after_results_simp
  try simp only [h_arg27, h_v278, h_arg28]
  try rw [h_arg27]
  try rw [h_v278]
  try rw [h_arg28]
  try rfl

/-- Stage 11 leaves the same %v283 in both programs when it finds the same %v282. -/
theorem T_s11_v283 (Vk : Valuation Cert.KernelIdeal.τ Cert.KernelIdeal.sig (Elt F)) (Vr : Valuation Cert.ReferenceIdeal.τ Cert.ReferenceIdeal.sig (Elt F))
    (h_v282 : (Vk (Proc.devRef .tc Cert.KernelIdeal.main_v282) : FVec F Cert.KernelIdeal.S1x270 .f32) = Vr (Proc.devRef .tc Cert.ReferenceIdeal.main_v282)) :
    (StableHlo.after Cert.KernelIdeal.Gen.hostOps2_11 Vk (Proc.devRef .tc Cert.KernelIdeal.main_v283) : FVec F Cert.KernelIdeal.S1x270 .f32)
      = StableHlo.after T_r11 Vr (Proc.devRef .tc Cert.ReferenceIdeal.main_v283) := by
  after_results_simp
  try simp only [h_v282]
  try rw [h_v282]
  try rfl

end Cert.Bridge

end
-- ==== Proof.Bridge.SameT3.lean ====
import proofs.«104005_j27152783245914_2_alg».proof.Proof.Bridge.SameT0

/-!
# Stage 6: the first head's last layer and distribution, the second head's first layer
-/

set_option maxRecDepth 16384
set_option maxHeartbeats 4000000

noncomputable section

namespace Cert.Bridge

open Idealize.ShloMosaic Idealize.ShloMosaic.TcCoe Idealize.SL.Sem Idealize.ShloMosaic.StableHlo

variable {F : FTy → Type} [FloatOps F]

/-- Stage 6 leaves the same %v268 in both programs when it finds the same %arg21, %v253, %arg22. -/
theorem T_s6_v268 (Vk : Valuation Cert.KernelIdeal.τ Cert.KernelIdeal.sig (Elt F)) (Vr : Valuation Cert.ReferenceIdeal.τ Cert.ReferenceIdeal.sig (Elt F))
    (h_arg21 : (Vk (Proc.devRef .tc Cert.KernelIdeal.main_arg21) : FVec F Cert.KernelIdeal.S325x270 .f32) = Vr (Proc.devRef .tc Cert.ReferenceIdeal.main_arg21))
    (h_v253 : (Vk (Proc.devRef .tc Cert.KernelIdeal.main_v253) : FVec F Cert.KernelIdeal.S1x270 .f32) = Vr (Proc.devRef .tc Cert.ReferenceIdeal.main_v253))
    (h_arg22 : (Vk (Proc.devRef .tc Cert.KernelIdeal.main_arg22) : FVec F Cert.KernelIdeal.S325 .f32) = Vr (Proc.devRef .tc Cert.ReferenceIdeal.main_arg22)) :
    (StableHlo.after Cert.KernelIdeal.Gen.hostOps2_6 Vk (Proc.devRef .tc Cert.KernelIdeal.main_v268) : FVec F Cert.KernelIdeal.S1x325 .f32)
      = StableHlo.after T_r6 Vr (Proc.devRef .tc Cert.ReferenceIdeal.main_v268) := by
  after_results_simp
  try simp only [h_arg21, h_v253, h_arg22]
  try rw [h_arg21]
  try rw [h_v253]
  try rw [h_arg22]
  try rfl

/-- Stage 6 leaves the same %v272 in both programs when it finds the same %arg23, %v220, %arg24. -/
theorem T_s6_v272 (Vk : Valuation Cert.KernelIdeal.τ Cert.KernelIdeal.sig (Elt F)) (Vr : Valuation Cert.ReferenceIdeal.τ Cert.ReferenceIdeal.sig (Elt F))
    (h_arg23 : (Vk (Proc.devRef .tc Cert.KernelIdeal.main_arg23) : FVec F Cert.KernelIdeal.S110x40 .f32) = Vr (Proc.devRef .tc Cert.ReferenceIdeal.main_arg23))
    (h_v220 : (Vk (Proc.devRef .tc Cert.KernelIdeal.main_v220) : FVec F Cert.KernelIdeal.S1x40 .f32) = Vr (Proc.devRef .tc Cert.ReferenceIdeal.main_v220))
    (h_arg24 : (Vk (Proc.devRef .tc Cert.KernelIdeal.main_arg24) : FVec F Cert.KernelIdeal.S110 .f32) = Vr (Proc.devRef .tc Cert.ReferenceIdeal.main_arg24)) :
    (StableHlo.after Cert.KernelIdeal.Gen.hostOps2_6 Vk (Proc.devRef .tc Cert.KernelIdeal.main_v272) : FVec F Cert.KernelIdeal.S1x110 .f32)
      = StableHlo.after T_r6 Vr (Proc.devRef .tc Cert.ReferenceIdeal.main_v272) := by
  after_results_simp
  try simp only [h_arg23, h_v220, h_arg24]
  try rw [h_arg23]
  try rw [h_v220]
  try rw [h_arg24]
  try rfl

end Cert.Bridge

end
-- ==== Proof.Bridge.SameT4.lean ====
import proofs.«104005_j27152783245914_2_alg».proof.Proof.Bridge.SameT0

/-!
# Stages 12 and 13: the second head's distribution, the output, and the add vector
-/

set_option maxRecDepth 16384
set_option maxHeartbeats 4000000

noncomputable section

namespace Cert.Bridge

open Idealize.ShloMosaic Idealize.ShloMosaic.TcCoe Idealize.SL.Sem Idealize.ShloMosaic.StableHlo

variable {F : FTy → Type} [FloatOps F]

/-- Stage 12 leaves the same %v307 in both programs when it finds the same %arg29, %v283, %arg30, %v238, %v268. -/
theorem T_s12_v307 (Vk : Valuation Cert.KernelIdeal.τ Cert.KernelIdeal.sig (Elt F)) (Vr : Valuation Cert.ReferenceIdeal.τ Cert.ReferenceIdeal.sig (Elt F))
    (h_arg29 : (Vk (Proc.devRef .tc Cert.KernelIdeal.main_arg29) : FVec F Cert.KernelIdeal.S325x270 .f32) = Vr (Proc.devRef .tc Cert.ReferenceIdeal.main_arg29))
    (h_v283 : (Vk (Proc.devRef .tc Cert.KernelIdeal.main_v283) : FVec F Cert.KernelIdeal.S1x270 .f32) = Vr (Proc.devRef .tc Cert.ReferenceIdeal.main_v283))
    (h_arg30 : (Vk (Proc.devRef .tc Cert.KernelIdeal.main_arg30) : FVec F Cert.KernelIdeal.S325 .f32) = Vr (Proc.devRef .tc Cert.ReferenceIdeal.main_arg30))
    (h_v238 : (Vk (Proc.devRef .tc Cert.KernelIdeal.main_v238) : FVec F Cert.KernelIdeal.S1x2 .f32) = Vr (Proc.devRef .tc Cert.ReferenceIdeal.main_v238))
    (h_v268 : (Vk (Proc.devRef .tc Cert.KernelIdeal.main_v268) : FVec F Cert.KernelIdeal.S1x325 .f32) = Vr (Proc.devRef .tc Cert.ReferenceIdeal.main_v268)) :
    (StableHlo.after T_k12 Vk (Proc.devRef .tc Cert.KernelIdeal.main_v307) : FVec F Cert.KernelIdeal.S1x325 .f32)
      = StableHlo.after T_r12 Vr (Proc.devRef .tc Cert.ReferenceIdeal.main_v307) := by
  after_results_simp
  try simp only [h_arg29, h_v283, h_arg30, h_v238, h_v268]
  try rw [h_arg29]
  try rw [h_v283]
  try rw [h_arg30]
  try rw [h_v238]
  try rw [h_v268]
  try rfl

/-- Stage 13 leaves the same %v317 in both programs when it finds the same %arg13, %v307, %arg14, %v226, %v34. -/
theorem T_s13_v317 (Vk : Valuation Cert.KernelIdeal.τ Cert.KernelIdeal.sig (Elt F)) (Vr : Valuation Cert.ReferenceIdeal.τ Cert.ReferenceIdeal.sig (Elt F))
    (h_arg13 : (Vk (Proc.devRef .tc Cert.KernelIdeal.main_arg13) : FVec F Cert.KernelIdeal.S20x325 .f32) = Vr (Proc.devRef .tc Cert.ReferenceIdeal.main_arg13))
    (h_v307 : (Vk (Proc.devRef .tc Cert.KernelIdeal.main_v307) : FVec F Cert.KernelIdeal.S1x325 .f32) = Vr (Proc.devRef .tc Cert.ReferenceIdeal.main_v307))
    (h_arg14 : (Vk (Proc.devRef .tc Cert.KernelIdeal.main_arg14) : FVec F Cert.KernelIdeal.S20 .f32) = Vr (Proc.devRef .tc Cert.ReferenceIdeal.main_arg14))
    (h_v226 : (Vk (Proc.devRef .tc Cert.KernelIdeal.main_v226) : FVec F Cert.KernelIdeal.S_ .f32) = Vr (Proc.devRef .tc Cert.ReferenceIdeal.main_v226))
    (h_v34 : (Vk (Proc.devRef .tc Cert.KernelIdeal.main_v34) : FVec F Cert.KernelIdeal.S1x20 .f32) = Vr (Proc.devRef .tc Cert.ReferenceIdeal.main_v34)) :
    (StableHlo.after T_k13 Vk (Proc.devRef .tc Cert.KernelIdeal.main_v317) : FVec F Cert.KernelIdeal.S1x20 .f32)
      = StableHlo.after Cert.ReferenceIdeal.Hand.ch6a Vr (Proc.devRef .tc Cert.ReferenceIdeal.main_v317) := by
  after_results_simp
  try simp only [h_arg13, h_v307, h_arg14, h_v226, h_v34]
  try rw [h_arg13]
  try rw [h_v307]
  try rw [h_arg14]
  try rw [h_v226]
  try rw [h_v34]
  try rfl

end Cert.Bridge

end
-- ==== Proof.Bridge.SameT.lean ====
import proofs.«104005_j27152783245914_2_alg».proof.Proof.Bridge.SameT1
import proofs.«104005_j27152783245914_2_alg».proof.Proof.Bridge.SameT2
import proofs.«104005_j27152783245914_2_alg».proof.Proof.Bridge.SameT3
import proofs.«104005_j27152783245914_2_alg».proof.Proof.Bridge.SameT4

/-!
# The output and the add vector are the same functions of the same inputs in both programs

The fourteen stages are run one after the other from any two buffer contents that agree on the live inputs: the
previous read vector, the new one, the controller's head, the add seed and the eighteen weight arguments. Each stage's
results agree by that stage's theorem; a value a later stage reads is carried to it across the stages between, which do
not write it. At the end the output and the add vector agree.
-/

set_option maxRecDepth 16384

noncomputable section

namespace Cert.Bridge

open Idealize.ShloMosaic Idealize.ShloMosaic.TcCoe Idealize.SL.Sem Idealize.ShloMosaic.StableHlo

variable {F : FTy → Type} [FloatOps F]

/-! ## The buffers before each stage -/

abbrev T_A0 (Vk : Valuation Cert.KernelIdeal.τ Cert.KernelIdeal.sig (Elt F)) : Valuation Cert.KernelIdeal.τ Cert.KernelIdeal.sig (Elt F) := Vk
abbrev T_B0 (Vr : Valuation Cert.ReferenceIdeal.τ Cert.ReferenceIdeal.sig (Elt F)) : Valuation Cert.ReferenceIdeal.τ Cert.ReferenceIdeal.sig (Elt F) := Vr
abbrev T_A1 (Vk : Valuation Cert.KernelIdeal.τ Cert.KernelIdeal.sig (Elt F)) : Valuation Cert.KernelIdeal.τ Cert.KernelIdeal.sig (Elt F) := StableHlo.after T_k0 (T_A0 Vk)
abbrev T_B1 (Vr : Valuation Cert.ReferenceIdeal.τ Cert.ReferenceIdeal.sig (Elt F)) : Valuation Cert.ReferenceIdeal.τ Cert.ReferenceIdeal.sig (Elt F) := StableHlo.after T_r0 (T_B0 Vr)
abbrev T_A2 (Vk : Valuation Cert.KernelIdeal.τ Cert.KernelIdeal.sig (Elt F)) : Valuation Cert.KernelIdeal.τ Cert.KernelIdeal.sig (Elt F) := StableHlo.after Cert.KernelIdeal.Gen.hostOps2_1 (T_A1 Vk)
abbrev T_B2 (Vr : Valuation Cert.ReferenceIdeal.τ Cert.ReferenceIdeal.sig (Elt F)) : Valuation Cert.ReferenceIdeal.τ Cert.ReferenceIdeal.sig (Elt F) := StableHlo.after T_r1 (T_B1 Vr)
abbrev T_A3 (Vk : Valuation Cert.KernelIdeal.τ Cert.KernelIdeal.sig (Elt F)) : Valuation Cert.KernelIdeal.τ Cert.KernelIdeal.sig (Elt F) := StableHlo.after Cert.KernelIdeal.Gen.hostOps2_2 (T_A2 Vk)
abbrev T_B3 (Vr : Valuation Cert.ReferenceIdeal.τ Cert.ReferenceIdeal.sig (Elt F)) : Valuation Cert.ReferenceIdeal.τ Cert.ReferenceIdeal.sig (Elt F) := StableHlo.after T_r2 (T_B2 Vr)
abbrev T_A4 (Vk : Valuation Cert.KernelIdeal.τ Cert.KernelIdeal.sig (Elt F)) : Valuation Cert.KernelIdeal.τ Cert.KernelIdeal.sig (Elt F) := StableHlo.after Cert.KernelIdeal.Gen.hostOps2_3 (T_A3 Vk)
abbrev T_B4 (Vr : Valuation Cert.ReferenceIdeal.τ Cert.ReferenceIdeal.sig (Elt F)) : Valuation Cert.ReferenceIdeal.τ Cert.ReferenceIdeal.sig (Elt F) := StableHlo.after T_r3 (T_B3 Vr)
abbrev T_A5 (Vk : Valuation Cert.KernelIdeal.τ Cert.KernelIdeal.sig (Elt F)) : Valuation Cert.KernelIdeal.τ Cert.KernelIdeal.sig (Elt F) := StableHlo.after Cert.KernelIdeal.Gen.hostOps2_4 (T_A4 Vk)
abbrev T_B5 (Vr : Valuation Cert.ReferenceIdeal.τ Cert.ReferenceIdeal.sig (Elt F)) : Valuation Cert.ReferenceIdeal.τ Cert.ReferenceIdeal.sig (Elt F) := StableHlo.after T_r4 (T_B4 Vr)
abbrev T_A6 (Vk : Valuation Cert.KernelIdeal.τ Cert.KernelIdeal.sig (Elt F)) : Valuation Cert.KernelIdeal.τ Cert.KernelIdeal.sig (Elt F) := StableHlo.after Cert.KernelIdeal.Gen.hostOps2_5 (T_A5 Vk)
abbrev T_B6 (Vr : Valuation Cert.ReferenceIdeal.τ Cert.ReferenceIdeal.sig (Elt F)) : Valuation Cert.ReferenceIdeal.τ Cert.ReferenceIdeal.sig (Elt F) := StableHlo.after T_r5 (T_B5 Vr)
abbrev T_A7 (Vk : Valuation Cert.KernelIdeal.τ Cert.KernelIdeal.sig (Elt F)) : Valuation Cert.KernelIdeal.τ Cert.KernelIdeal.sig (Elt F) := StableHlo.after Cert.KernelIdeal.Gen.hostOps2_6 (T_A6 Vk)
abbrev T_B7 (Vr : Valuation Cert.ReferenceIdeal.τ Cert.ReferenceIdeal.sig (Elt F)) : Valuation Cert.ReferenceIdeal.τ Cert.ReferenceIdeal.sig (Elt F) := StableHlo.after T_r6 (T_B6 Vr)
abbrev T_A8 (Vk : Valuation Cert.KernelIdeal.τ Cert.KernelIdeal.sig (Elt F)) : Valuation Cert.KernelIdeal.τ Cert.KernelIdeal.sig (Elt F) := StableHlo.after Cert.KernelIdeal.Gen.hostOps2_7 (T_A7 Vk)
abbrev T_B8 (Vr : Valuation Cert.ReferenceIdeal.τ Cert.ReferenceIdeal.sig (Elt F)) : Valuation Cert.ReferenceIdeal.τ Cert.ReferenceIdeal.sig (Elt F) := StableHlo.after T_r7 (T_B7 Vr)
abbrev T_A9 (Vk : Valuation Cert.KernelIdeal.τ Cert.KernelIdeal.sig (Elt F)) : Valuation Cert.KernelIdeal.τ Cert.KernelIdeal.sig (Elt F) := StableHlo.after Cert.KernelIdeal.Gen.hostOps2_8 (T_A8 Vk)
abbrev T_B9 (Vr : Valuation Cert.ReferenceIdeal.τ Cert.ReferenceIdeal.sig (Elt F)) : Valuation Cert.ReferenceIdeal.τ Cert.ReferenceIdeal.sig (Elt F) := StableHlo.after T_r8 (T_B8 Vr)
abbrev T_A10 (Vk : Valuation Cert.KernelIdeal.τ Cert.KernelIdeal.sig (Elt F)) : Valuation Cert.KernelIdeal.τ Cert.KernelIdeal.sig (Elt F) := StableHlo.after Cert.KernelIdeal.Gen.hostOps2_9 (T_A9 Vk)
abbrev T_B10 (Vr : Valuation Cert.ReferenceIdeal.τ Cert.ReferenceIdeal.sig (Elt F)) : Valuation Cert.ReferenceIdeal.τ Cert.ReferenceIdeal.sig (Elt F) := StableHlo.after T_r9 (T_B9 Vr)
abbrev T_A11 (Vk : Valuation Cert.KernelIdeal.τ Cert.KernelIdeal.sig (Elt F)) : Valuation Cert.KernelIdeal.τ Cert.KernelIdeal.sig (Elt F) := StableHlo.after Cert.KernelIdeal.Gen.hostOps2_10 (T_A10 Vk)
abbrev T_B11 (Vr : Valuation Cert.ReferenceIdeal.τ Cert.ReferenceIdeal.sig (Elt F)) : Valuation Cert.ReferenceIdeal.τ Cert.ReferenceIdeal.sig (Elt F) := StableHlo.after T_r10 (T_B10 Vr)
abbrev T_A12 (Vk : Valuation Cert.KernelIdeal.τ Cert.KernelIdeal.sig (Elt F)) : Valuation Cert.KernelIdeal.τ Cert.KernelIdeal.sig (Elt F) := StableHlo.after Cert.KernelIdeal.Gen.hostOps2_11 (T_A11 Vk)
abbrev T_B12 (Vr : Valuation Cert.ReferenceIdeal.τ Cert.ReferenceIdeal.sig (Elt F)) : Valuation Cert.ReferenceIdeal.τ Cert.ReferenceIdeal.sig (Elt F) := StableHlo.after T_r11 (T_B11 Vr)
abbrev T_A13 (Vk : Valuation Cert.KernelIdeal.τ Cert.KernelIdeal.sig (Elt F)) : Valuation Cert.KernelIdeal.τ Cert.KernelIdeal.sig (Elt F) := StableHlo.after T_k12 (T_A12 Vk)
abbrev T_B13 (Vr : Valuation Cert.ReferenceIdeal.τ Cert.ReferenceIdeal.sig (Elt F)) : Valuation Cert.ReferenceIdeal.τ Cert.ReferenceIdeal.sig (Elt F) := StableHlo.after T_r12 (T_B12 Vr)
abbrev T_A14 (Vk : Valuation Cert.KernelIdeal.τ Cert.KernelIdeal.sig (Elt F)) : Valuation Cert.KernelIdeal.τ Cert.KernelIdeal.sig (Elt F) := StableHlo.after T_k13 (T_A13 Vk)
abbrev T_B14 (Vr : Valuation Cert.ReferenceIdeal.τ Cert.ReferenceIdeal.sig (Elt F)) : Valuation Cert.ReferenceIdeal.τ Cert.ReferenceIdeal.sig (Elt F) := StableHlo.after Cert.ReferenceIdeal.Hand.ch6a (T_B13 Vr)

/-! ## A buffer a stage does not write keeps its contents across it -/

theorem T_A1_of (Vk : Valuation Cert.KernelIdeal.τ Cert.KernelIdeal.sig (Elt F)) (r : Ref Cert.KernelIdeal.sig .tc) (h : r ∉ (T_k0_W : List (Ref Cert.KernelIdeal.sig .tc)) := by decide) :
    T_A1 Vk (Proc.devRef .tc r) = T_A0 Vk (Proc.devRef .tc r) :=
  StableHlo.after_of_writes_sub _ _ T_k0_writes h
theorem T_B1_of (Vr : Valuation Cert.ReferenceIdeal.τ Cert.ReferenceIdeal.sig (Elt F)) (r : Ref Cert.ReferenceIdeal.sig .tc) (h : r ∉ (T_r0_W : List (Ref Cert.ReferenceIdeal.sig .tc)) := by decide) :
    T_B1 Vr (Proc.devRef .tc r) = T_B0 Vr (Proc.devRef .tc r) :=
  StableHlo.after_of_writes_sub _ _ T_r0_writes h
theorem T_A2_of (Vk : Valuation Cert.KernelIdeal.τ Cert.KernelIdeal.sig (Elt F)) (r : Ref Cert.KernelIdeal.sig .tc) (h : r ∉ (T_k1_W : List (Ref Cert.KernelIdeal.sig .tc)) := by decide) :
    T_A2 Vk (Proc.devRef .tc r) = T_A1 Vk (Proc.devRef .tc r) :=
  StableHlo.after_of_writes_sub _ _ T_k1_writes h
theorem T_B2_of (Vr : Valuation Cert.ReferenceIdeal.τ Cert.ReferenceIdeal.sig (Elt F)) (r : Ref Cert.ReferenceIdeal.sig .tc) (h : r ∉ (T_r1_W : List (Ref Cert.ReferenceIdeal.sig .tc)) := by decide) :
    T_B2 Vr (Proc.devRef .tc r) = T_B1 Vr (Proc.devRef .tc r) :=
  StableHlo.after_of_writes_sub _ _ T_r1_writes h
theorem T_A3_of (Vk : Valuation Cert.KernelIdeal.τ Cert.KernelIdeal.sig (Elt F)) (r : Ref Cert.KernelIdeal.sig .tc) (h : r ∉ (T_k2_W : List (Ref Cert.KernelIdeal.sig .tc)) := by decide) :
    T_A3 Vk (Proc.devRef .tc r) = T_A2 Vk (Proc.devRef .tc r) :=
  StableHlo.after_of_writes_sub _ _ T_k2_writes h
theorem T_B3_of (Vr : Valuation Cert.ReferenceIdeal.τ Cert.ReferenceIdeal.sig (Elt F)) (r : Ref Cert.ReferenceIdeal.sig .tc) (h : r ∉ (T_r2_W : List (Ref Cert.ReferenceIdeal.sig .tc)) := by decide) :
    T_B3 Vr (Proc.devRef .tc r) = T_B2 Vr (Proc.devRef .tc r) :=
  StableHlo.after_of_writes_sub _ _ T_r2_writes h
theorem T_A4_of (Vk : Valuation Cert.KernelIdeal.τ Cert.KernelIdeal.sig (Elt F)) (r : Ref Cert.KernelIdeal.sig .tc) (h : r ∉ (T_k3_W : List (Ref Cert.KernelIdeal.sig .tc)) := by decide) :
    T_A4 Vk (Proc.devRef .tc r) = T_A3 Vk (Proc.devRef .tc r) :=
  StableHlo.after_of_writes_sub _ _ T_k3_writes h
theorem T_B4_of (Vr : Valuation Cert.ReferenceIdeal.τ Cert.ReferenceIdeal.sig (Elt F)) (r : Ref Cert.ReferenceIdeal.sig .tc) (h : r ∉ (T_r3_W : List (Ref Cert.ReferenceIdeal.sig .tc)) := by decide) :
    T_B4 Vr (Proc.devRef .tc r) = T_B3 Vr (Proc.devRef .tc r) :=
  StableHlo.after_of_writes_sub _ _ T_r3_writes h
theorem T_A5_of (Vk : Valuation Cert.KernelIdeal.τ Cert.KernelIdeal.sig (Elt F)) (r : Ref Cert.KernelIdeal.sig .tc) (h : r ∉ (T_k4_W : List (Ref Cert.KernelIdeal.sig .tc)) := by decide) :
    T_A5 Vk (Proc.devRef .tc r) = T_A4 Vk (Proc.devRef .tc r) :=
  StableHlo.after_of_writes_sub _ _ T_k4_writes h
theorem T_B5_of (Vr : Valuation Cert.ReferenceIdeal.τ Cert.ReferenceIdeal.sig (Elt F)) (r : Ref Cert.ReferenceIdeal.sig .tc) (h : r ∉ (T_r4_W : List (Ref Cert.ReferenceIdeal.sig .tc)) := by decide) :
    T_B5 Vr (Proc.devRef .tc r) = T_B4 Vr (Proc.devRef .tc r) :=
  StableHlo.after_of_writes_sub _ _ T_r4_writes h
theorem T_A6_of (Vk : Valuation Cert.KernelIdeal.τ Cert.KernelIdeal.sig (Elt F)) (r : Ref Cert.KernelIdeal.sig .tc) (h : r ∉ (T_k5_W : List (Ref Cert.KernelIdeal.sig .tc)) := by decide) :
    T_A6 Vk (Proc.devRef .tc r) = T_A5 Vk (Proc.devRef .tc r) :=
  StableHlo.after_of_writes_sub _ _ T_k5_writes h
theorem T_B6_of (Vr : Valuation Cert.ReferenceIdeal.τ Cert.ReferenceIdeal.sig (Elt F)) (r : Ref Cert.ReferenceIdeal.sig .tc) (h : r ∉ (T_r5_W : List (Ref Cert.ReferenceIdeal.sig .tc)) := by decide) :
    T_B6 Vr (Proc.devRef .tc r) = T_B5 Vr (Proc.devRef .tc r) :=
  StableHlo.after_of_writes_sub _ _ T_r5_writes h
theorem T_A7_of (Vk : Valuation Cert.KernelIdeal.τ Cert.KernelIdeal.sig (Elt F)) (r : Ref Cert.KernelIdeal.sig .tc) (h : r ∉ (T_k6_W : List (Ref Cert.KernelIdeal.sig .tc)) := by decide) :
    T_A7 Vk (Proc.devRef .tc r) = T_A6 Vk (Proc.devRef .tc r) :=
  StableHlo.after_of_writes_sub _ _ T_k6_writes h
theorem T_B7_of (Vr : Valuation Cert.ReferenceIdeal.τ Cert.ReferenceIdeal.sig (Elt F)) (r : Ref Cert.ReferenceIdeal.sig .tc) (h : r ∉ (T_r6_W : List (Ref Cert.ReferenceIdeal.sig .tc)) := by decide) :
    T_B7 Vr (Proc.devRef .tc r) = T_B6 Vr (Proc.devRef .tc r) :=
  StableHlo.after_of_writes_sub _ _ T_r6_writes h
theorem T_A8_of (Vk : Valuation Cert.KernelIdeal.τ Cert.KernelIdeal.sig (Elt F)) (r : Ref Cert.KernelIdeal.sig .tc) (h : r ∉ (T_k7_W : List (Ref Cert.KernelIdeal.sig .tc)) := by decide) :
    T_A8 Vk (Proc.devRef .tc r) = T_A7 Vk (Proc.devRef .tc r) :=
  StableHlo.after_of_writes_sub _ _ T_k7_writes h
theorem T_B8_of (Vr : Valuation Cert.ReferenceIdeal.τ Cert.ReferenceIdeal.sig (Elt F)) (r : Ref Cert.ReferenceIdeal.sig .tc) (h : r ∉ (T_r7_W : List (Ref Cert.ReferenceIdeal.sig .tc)) := by decide) :
    T_B8 Vr (Proc.devRef .tc r) = T_B7 Vr (Proc.devRef .tc r) :=
  StableHlo.after_of_writes_sub _ _ T_r7_writes h
theorem T_A9_of (Vk : Valuation Cert.KernelIdeal.τ Cert.KernelIdeal.sig (Elt F)) (r : Ref Cert.KernelIdeal.sig .tc) (h : r ∉ (T_k8_W : List (Ref Cert.KernelIdeal.sig .tc)) := by decide) :
    T_A9 Vk (Proc.devRef .tc r) = T_A8 Vk (Proc.devRef .tc r) :=
  StableHlo.after_of_writes_sub _ _ T_k8_writes h
theorem T_B9_of (Vr : Valuation Cert.ReferenceIdeal.τ Cert.ReferenceIdeal.sig (Elt F)) (r : Ref Cert.ReferenceIdeal.sig .tc) (h : r ∉ (T_r8_W : List (Ref Cert.ReferenceIdeal.sig .tc)) := by decide) :
    T_B9 Vr (Proc.devRef .tc r) = T_B8 Vr (Proc.devRef .tc r) :=
  StableHlo.after_of_writes_sub _ _ T_r8_writes h
theorem T_A10_of (Vk : Valuation Cert.KernelIdeal.τ Cert.KernelIdeal.sig (Elt F)) (r : Ref Cert.KernelIdeal.sig .tc) (h : r ∉ (T_k9_W : List (Ref Cert.KernelIdeal.sig .tc)) := by decide) :
    T_A10 Vk (Proc.devRef .tc r) = T_A9 Vk (Proc.devRef .tc r) :=
  StableHlo.after_of_writes_sub _ _ T_k9_writes h
theorem T_B10_of (Vr : Valuation Cert.ReferenceIdeal.τ Cert.ReferenceIdeal.sig (Elt F)) (r : Ref Cert.ReferenceIdeal.sig .tc) (h : r ∉ (T_r9_W : List (Ref Cert.ReferenceIdeal.sig .tc)) := by decide) :
    T_B10 Vr (Proc.devRef .tc r) = T_B9 Vr (Proc.devRef .tc r) :=
  StableHlo.after_of_writes_sub _ _ T_r9_writes h
theorem T_A11_of (Vk : Valuation Cert.KernelIdeal.τ Cert.KernelIdeal.sig (Elt F)) (r : Ref Cert.KernelIdeal.sig .tc) (h : r ∉ (T_k10_W : List (Ref Cert.KernelIdeal.sig .tc)) := by decide) :
    T_A11 Vk (Proc.devRef .tc r) = T_A10 Vk (Proc.devRef .tc r) :=
  StableHlo.after_of_writes_sub _ _ T_k10_writes h
theorem T_B11_of (Vr : Valuation Cert.ReferenceIdeal.τ Cert.ReferenceIdeal.sig (Elt F)) (r : Ref Cert.ReferenceIdeal.sig .tc) (h : r ∉ (T_r10_W : List (Ref Cert.ReferenceIdeal.sig .tc)) := by decide) :
    T_B11 Vr (Proc.devRef .tc r) = T_B10 Vr (Proc.devRef .tc r) :=
  StableHlo.after_of_writes_sub _ _ T_r10_writes h
theorem T_A12_of (Vk : Valuation Cert.KernelIdeal.τ Cert.KernelIdeal.sig (Elt F)) (r : Ref Cert.KernelIdeal.sig .tc) (h : r ∉ (T_k11_W : List (Ref Cert.KernelIdeal.sig .tc)) := by decide) :
    T_A12 Vk (Proc.devRef .tc r) = T_A11 Vk (Proc.devRef .tc r) :=
  StableHlo.after_of_writes_sub _ _ T_k11_writes h
theorem T_B12_of (Vr : Valuation Cert.ReferenceIdeal.τ Cert.ReferenceIdeal.sig (Elt F)) (r : Ref Cert.ReferenceIdeal.sig .tc) (h : r ∉ (T_r11_W : List (Ref Cert.ReferenceIdeal.sig .tc)) := by decide) :
    T_B12 Vr (Proc.devRef .tc r) = T_B11 Vr (Proc.devRef .tc r) :=
  StableHlo.after_of_writes_sub _ _ T_r11_writes h
theorem T_A13_of (Vk : Valuation Cert.KernelIdeal.τ Cert.KernelIdeal.sig (Elt F)) (r : Ref Cert.KernelIdeal.sig .tc) (h : r ∉ (T_k12_W : List (Ref Cert.KernelIdeal.sig .tc)) := by decide) :
    T_A13 Vk (Proc.devRef .tc r) = T_A12 Vk (Proc.devRef .tc r) :=
  StableHlo.after_of_writes_sub _ _ T_k12_writes h
theorem T_B13_of (Vr : Valuation Cert.ReferenceIdeal.τ Cert.ReferenceIdeal.sig (Elt F)) (r : Ref Cert.ReferenceIdeal.sig .tc) (h : r ∉ (T_r12_W : List (Ref Cert.ReferenceIdeal.sig .tc)) := by decide) :
    T_B13 Vr (Proc.devRef .tc r) = T_B12 Vr (Proc.devRef .tc r) :=
  StableHlo.after_of_writes_sub _ _ T_r12_writes h
theorem T_A14_of (Vk : Valuation Cert.KernelIdeal.τ Cert.KernelIdeal.sig (Elt F)) (r : Ref Cert.KernelIdeal.sig .tc) (h : r ∉ (T_k13_W : List (Ref Cert.KernelIdeal.sig .tc)) := by decide) :
    T_A14 Vk (Proc.devRef .tc r) = T_A13 Vk (Proc.devRef .tc r) :=
  StableHlo.after_of_writes_sub _ _ T_k13_writes h
theorem T_B14_of (Vr : Valuation Cert.ReferenceIdeal.τ Cert.ReferenceIdeal.sig (Elt F)) (r : Ref Cert.ReferenceIdeal.sig .tc) (h : r ∉ (T_r13_W : List (Ref Cert.ReferenceIdeal.sig .tc)) := by decide) :
    T_B14 Vr (Proc.devRef .tc r) = T_B13 Vr (Proc.devRef .tc r) :=
  StableHlo.after_of_writes_sub _ _ T_r13_writes h

/-! ## Stage by stage -/

set_option maxHeartbeats 4000000 in
/-- THE OUTPUT AND THE ADD VECTOR: the two programs' lines, run whole from buffer contents that agree on the live inputs,
    leave the same output and the same add vector. Each `f‹n›_‹x›` below says the two sides agree on `x` before stage `n`. -/
theorem T_all (Vk : Valuation Cert.KernelIdeal.τ Cert.KernelIdeal.sig (Elt F)) (Vr : Valuation Cert.ReferenceIdeal.τ Cert.ReferenceIdeal.sig (Elt F))
    (h_arg4 : (Vk (Proc.devRef .tc Cert.KernelIdeal.main_arg4) : FVec F Cert.KernelIdeal.S1x20 .f32) = Vr (Proc.devRef .tc Cert.ReferenceIdeal.main_arg4))
    (h_v219 : (Vk (Proc.devRef .tc Cert.KernelIdeal.main_v219) : FVec F Cert.KernelIdeal.S1x20 .f32) = Vr (Proc.devRef .tc Cert.ReferenceIdeal.main_v219))
    (h_v15 : (Vk (Proc.devRef .tc Cert.KernelIdeal.main_v15) : FVec F Cert.KernelIdeal.S1x3 .f32) = Vr (Proc.devRef .tc Cert.ReferenceIdeal.main_v15))
    (h_v34 : (Vk (Proc.devRef .tc Cert.KernelIdeal.main_v34) : FVec F Cert.KernelIdeal.S1x20 .f32) = Vr (Proc.devRef .tc Cert.ReferenceIdeal.main_v34))
    (h_arg13 : (Vk (Proc.devRef .tc Cert.KernelIdeal.main_arg13) : FVec F Cert.KernelIdeal.S20x325 .f32) = Vr (Proc.devRef .tc Cert.ReferenceIdeal.main_arg13))
    (h_arg14 : (Vk (Proc.devRef .tc Cert.KernelIdeal.main_arg14) : FVec F Cert.KernelIdeal.S20 .f32) = Vr (Proc.devRef .tc Cert.ReferenceIdeal.main_arg14))
    (h_arg15 : (Vk (Proc.devRef .tc Cert.KernelIdeal.main_arg15) : FVec F Cert.KernelIdeal.S110x40 .f32) = Vr (Proc.devRef .tc Cert.ReferenceIdeal.main_arg15))
    (h_arg16 : (Vk (Proc.devRef .tc Cert.KernelIdeal.main_arg16) : FVec F Cert.KernelIdeal.S110 .f32) = Vr (Proc.devRef .tc Cert.ReferenceIdeal.main_arg16))
    (h_arg17 : (Vk (Proc.devRef .tc Cert.KernelIdeal.main_arg17) : FVec F Cert.KernelIdeal.S190x110 .f32) = Vr (Proc.devRef .tc Cert.ReferenceIdeal.main_arg17))
    (h_arg18 : (Vk (Proc.devRef .tc Cert.KernelIdeal.main_arg18) : FVec F Cert.KernelIdeal.S190 .f32) = Vr (Proc.devRef .tc Cert.ReferenceIdeal.main_arg18))
    (h_arg19 : (Vk (Proc.devRef .tc Cert.KernelIdeal.main_arg19) : FVec F Cert.KernelIdeal.S270x190 .f32) = Vr (Proc.devRef .tc Cert.ReferenceIdeal.main_arg19))
    (h_arg20 : (Vk (Proc.devRef .tc Cert.KernelIdeal.main_arg20) : FVec F Cert.KernelIdeal.S270 .f32) = Vr (Proc.devRef .tc Cert.ReferenceIdeal.main_arg20))
    (h_arg21 : (Vk (Proc.devRef .tc Cert.KernelIdeal.main_arg21) : FVec F Cert.KernelIdeal.S325x270 .f32) = Vr (Proc.devRef .tc Cert.ReferenceIdeal.main_arg21))
    (h_arg22 : (Vk (Proc.devRef .tc Cert.KernelIdeal.main_arg22) : FVec F Cert.KernelIdeal.S325 .f32) = Vr (Proc.devRef .tc Cert.ReferenceIdeal.main_arg22))
    (h_arg23 : (Vk (Proc.devRef .tc Cert.KernelIdeal.main_arg23) : FVec F Cert.KernelIdeal.S110x40 .f32) = Vr (Proc.devRef .tc Cert.ReferenceIdeal.main_arg23))
    (h_arg24 : (Vk (Proc.devRef .tc Cert.KernelIdeal.main_arg24) : FVec F Cert.KernelIdeal.S110 .f32) = Vr (Proc.devRef .tc Cert.ReferenceIdeal.main_arg24))
    (h_arg25 : (Vk (Proc.devRef .tc Cert.KernelIdeal.main_arg25) : FVec F Cert.KernelIdeal.S190x110 .f32) = Vr (Proc.devRef .tc Cert.ReferenceIdeal.main_arg25))
    (h_arg26 : (Vk (Proc.devRef .tc Cert.KernelIdeal.main_arg26) : FVec F Cert.KernelIdeal.S190 .f32) = Vr (Proc.devRef .tc Cert.ReferenceIdeal.main_arg26))
    (h_arg27 : (Vk (Proc.devRef .tc Cert.KernelIdeal.main_arg27) : FVec F Cert.KernelIdeal.S270x190 .f32) = Vr (Proc.devRef .tc Cert.ReferenceIdeal.main_arg27))
    (h_arg28 : (Vk (Proc.devRef .tc Cert.KernelIdeal.main_arg28) : FVec F Cert.KernelIdeal.S270 .f32) = Vr (Proc.devRef .tc Cert.ReferenceIdeal.main_arg28))
    (h_arg29 : (Vk (Proc.devRef .tc Cert.KernelIdeal.main_arg29) : FVec F Cert.KernelIdeal.S325x270 .f32) = Vr (Proc.devRef .tc Cert.ReferenceIdeal.main_arg29))
    (h_arg30 : (Vk (Proc.devRef .tc Cert.KernelIdeal.main_arg30) : FVec F Cert.KernelIdeal.S325 .f32) = Vr (Proc.devRef .tc Cert.ReferenceIdeal.main_arg30)) :
    ((StableHlo.after (T_k0 ++ Cert.KernelIdeal.Gen.hostOps2_1 ++ Cert.KernelIdeal.Gen.hostOps2_2 ++ Cert.KernelIdeal.Gen.hostOps2_3 ++ Cert.KernelIdeal.Gen.hostOps2_4 ++ Cert.KernelIdeal.Gen.hostOps2_5 ++ Cert.KernelIdeal.Gen.hostOps2_6 ++ Cert.KernelIdeal.Gen.hostOps2_7 ++ Cert.KernelIdeal.Gen.hostOps2_8 ++ Cert.KernelIdeal.Gen.hostOps2_9 ++ Cert.KernelIdeal.Gen.hostOps2_10 ++ Cert.KernelIdeal.Gen.hostOps2_11 ++ T_k12 ++ T_k13) Vk (Proc.devRef .tc Cert.KernelIdeal.main_v307) : FVec F Cert.KernelIdeal.S1x325 .f32)
      = StableHlo.after (Cert.ReferenceIdeal.Hand.ch4b ++ Cert.ReferenceIdeal.Hand.ch6a) Vr (Proc.devRef .tc Cert.ReferenceIdeal.main_v307))
    ∧ ((StableHlo.after (T_k0 ++ Cert.KernelIdeal.Gen.hostOps2_1 ++ Cert.KernelIdeal.Gen.hostOps2_2 ++ Cert.KernelIdeal.Gen.hostOps2_3 ++ Cert.KernelIdeal.Gen.hostOps2_4 ++ Cert.KernelIdeal.Gen.hostOps2_5 ++ Cert.KernelIdeal.Gen.hostOps2_6 ++ Cert.KernelIdeal.Gen.hostOps2_7 ++ Cert.KernelIdeal.Gen.hostOps2_8 ++ Cert.KernelIdeal.Gen.hostOps2_9 ++ Cert.KernelIdeal.Gen.hostOps2_10 ++ Cert.KernelIdeal.Gen.hostOps2_11 ++ T_k12 ++ T_k13) Vk (Proc.devRef .tc Cert.KernelIdeal.main_v317) : FVec F Cert.KernelIdeal.S1x20 .f32)
      = StableHlo.after (Cert.ReferenceIdeal.Hand.ch4b ++ Cert.ReferenceIdeal.Hand.ch6a) Vr (Proc.devRef .tc Cert.ReferenceIdeal.main_v317)) := by
  have f1_v220 := T_s0_v220 (T_A0 Vk) (T_B0 Vr) h_arg4 h_v219
  have f1_v226 := T_s0_v226 (T_A0 Vk) (T_B0 Vr) h_v15
  have f1_v238 := T_s0_v238 (T_A0 Vk) (T_B0 Vr) h_v15
  have f1_v242 := T_s0_v242 (T_A0 Vk) (T_B0 Vr) h_arg4 h_v219 h_arg15 h_arg16
  have f2_v243 := T_s1_v243 (T_A1 Vk) (T_B1 Vr) f1_v242
  have f2_arg17 := ((T_A2_of Vk Cert.KernelIdeal.main_arg17).trans (T_A1_of Vk Cert.KernelIdeal.main_arg17)).trans (h_arg17.trans ((T_B2_of Vr Cert.ReferenceIdeal.main_arg17).trans (T_B1_of Vr Cert.ReferenceIdeal.main_arg17)).symm)
  have f2_arg18 := ((T_A2_of Vk Cert.KernelIdeal.main_arg18).trans (T_A1_of Vk Cert.KernelIdeal.main_arg18)).trans (h_arg18.trans ((T_B2_of Vr Cert.ReferenceIdeal.main_arg18).trans (T_B1_of Vr Cert.ReferenceIdeal.main_arg18)).symm)
  have f3_v247 := T_s2_v247 (T_A2 Vk) (T_B2 Vr) f2_arg17 f2_v243 f2_arg18
  have f4_v248 := T_s3_v248 (T_A3 Vk) (T_B3 Vr) f3_v247
  have f4_arg19 := ((T_A4_of Vk Cert.KernelIdeal.main_arg19).trans ((T_A3_of Vk Cert.KernelIdeal.main_arg19).trans ((T_A2_of Vk Cert.KernelIdeal.main_arg19).trans (T_A1_of Vk Cert.KernelIdeal.main_arg19)))).trans (h_arg19.trans ((T_B4_of Vr Cert.ReferenceIdeal.main_arg19).trans ((T_B3_of Vr Cert.ReferenceIdeal.main_arg19).trans ((T_B2_of Vr Cert.ReferenceIdeal.main_arg19).trans (T_B1_of Vr Cert.ReferenceIdeal.main_arg19)))).symm)
  have f4_arg20 := ((T_A4_of Vk Cert.KernelIdeal.main_arg20).trans ((T_A3_of Vk Cert.KernelIdeal.main_arg20).trans ((T_A2_of Vk Cert.KernelIdeal.main_arg20).trans (T_A1_of Vk Cert.KernelIdeal.main_arg20)))).trans (h_arg20.trans ((T_B4_of Vr Cert.ReferenceIdeal.main_arg20).trans ((T_B3_of Vr Cert.ReferenceIdeal.main_arg20).trans ((T_B2_of Vr Cert.ReferenceIdeal.main_arg20).trans (T_B1_of Vr Cert.ReferenceIdeal.main_arg20)))).symm)
  have f5_v252 := T_s4_v252 (T_A4 Vk) (T_B4 Vr) f4_arg19 f4_v248 f4_arg20
  have f6_v253 := T_s5_v253 (T_A5 Vk) (T_B5 Vr) f5_v252
  have f6_arg21 := ((T_A6_of Vk Cert.KernelIdeal.main_arg21).trans ((T_A5_of Vk Cert.KernelIdeal.main_arg21).trans ((T_A4_of Vk Cert.KernelIdeal.main_arg21).trans ((T_A3_of Vk Cert.KernelIdeal.main_arg21).trans ((T_A2_of Vk Cert.KernelIdeal.main_arg21).trans (T_A1_of Vk Cert.KernelIdeal.main_arg21)))))).trans (h_arg21.trans ((T_B6_of Vr Cert.ReferenceIdeal.main_arg21).trans ((T_B5_of Vr Cert.ReferenceIdeal.main_arg21).trans ((T_B4_of Vr Cert.ReferenceIdeal.main_arg21).trans ((T_B3_of Vr Cert.ReferenceIdeal.main_arg21).trans ((T_B2_of Vr Cert.ReferenceIdeal.main_arg21).trans (T_B1_of Vr Cert.ReferenceIdeal.main_arg21)))))).symm)
  have f6_arg22 := ((T_A6_of Vk Cert.KernelIdeal.main_arg22).trans ((T_A5_of Vk Cert.KernelIdeal.main_arg22).trans ((T_A4_of Vk Cert.KernelIdeal.main_arg22).trans ((T_A3_of Vk Cert.KernelIdeal.main_arg22).trans ((T_A2_of Vk Cert.KernelIdeal.main_arg22).trans (T_A1_of Vk Cert.KernelIdeal.main_arg22)))))).trans (h_arg22.trans ((T_B6_of Vr Cert.ReferenceIdeal.main_arg22).trans ((T_B5_of Vr Cert.ReferenceIdeal.main_arg22).trans ((T_B4_of Vr Cert.ReferenceIdeal.main_arg22).trans ((T_B3_of Vr Cert.ReferenceIdeal.main_arg22).trans ((T_B2_of Vr Cert.ReferenceIdeal.main_arg22).trans (T_B1_of Vr Cert.ReferenceIdeal.main_arg22)))))).symm)
  have f6_arg23 := ((T_A6_of Vk Cert.KernelIdeal.main_arg23).trans ((T_A5_of Vk Cert.KernelIdeal.main_arg23).trans ((T_A4_of Vk Cert.KernelIdeal.main_arg23).trans ((T_A3_of Vk Cert.KernelIdeal.main_arg23).trans ((T_A2_of Vk Cert.KernelIdeal.main_arg23).trans (T_A1_of Vk Cert.KernelIdeal.main_arg23)))))).trans (h_arg23.trans ((T_B6_of Vr Cert.ReferenceIdeal.main_arg23).trans ((T_B5_of Vr Cert.ReferenceIdeal.main_arg23).trans ((T_B4_of Vr Cert.ReferenceIdeal.main_arg23).trans ((T_B3_of Vr Cert.ReferenceIdeal.main_arg23).trans ((T_B2_of Vr Cert.ReferenceIdeal.main_arg23).trans (T_B1_of Vr Cert.ReferenceIdeal.main_arg23)))))).symm)
  have f6_arg24 := ((T_A6_of Vk Cert.KernelIdeal.main_arg24).trans ((T_A5_of Vk Cert.KernelIdeal.main_arg24).trans ((T_A4_of Vk Cert.KernelIdeal.main_arg24).trans ((T_A3_of Vk Cert.KernelIdeal.main_arg24).trans ((T_A2_of Vk Cert.KernelIdeal.main_arg24).trans (T_A1_of Vk Cert.KernelIdeal.main_arg24)))))).trans (h_arg24.trans ((T_B6_of Vr Cert.ReferenceIdeal.main_arg24).trans ((T_B5_of Vr Cert.ReferenceIdeal.main_arg24).trans ((T_B4_of Vr Cert.ReferenceIdeal.main_arg24).trans ((T_B3_of Vr Cert.ReferenceIdeal.main_arg24).trans ((T_B2_of Vr Cert.ReferenceIdeal.main_arg24).trans (T_B1_of Vr Cert.ReferenceIdeal.main_arg24)))))).symm)
  have f6_v220 := ((T_A6_of Vk Cert.KernelIdeal.main_v220).trans ((T_A5_of Vk Cert.KernelIdeal.main_v220).trans ((T_A4_of Vk Cert.KernelIdeal.main_v220).trans ((T_A3_of Vk Cert.KernelIdeal.main_v220).trans (T_A2_of Vk Cert.KernelIdeal.main_v220))))).trans (f1_v220.trans ((T_B6_of Vr Cert.ReferenceIdeal.main_v220).trans ((T_B5_of Vr Cert.ReferenceIdeal.main_v220).trans ((T_B4_of Vr Cert.ReferenceIdeal.main_v220).trans ((T_B3_of Vr Cert.ReferenceIdeal.main_v220).trans (T_B2_of Vr Cert.ReferenceIdeal.main_v220))))).symm)
  have f7_v268 := T_s6_v268 (T_A6 Vk) (T_B6 Vr) f6_arg21 f6_v253 f6_arg22
  have f7_v272 := T_s6_v272 (T_A6 Vk) (T_B6 Vr) f6_arg23 f6_v220 f6_arg24
  have f8_v273 := T_s7_v273 (T_A7 Vk) (T_B7 Vr) f7_v272
  have f8_arg25 := ((T_A8_of Vk Cert.KernelIdeal.main_arg25).trans ((T_A7_of Vk Cert.KernelIdeal.main_arg25).trans ((T_A6_of Vk Cert.KernelIdeal.main_arg25).trans ((T_A5_of Vk Cert.KernelIdeal.main_arg25).trans ((T_A4_of Vk Cert.KernelIdeal.main_arg25).trans ((T_A3_of Vk Cert.KernelIdeal.main_arg25).trans ((T_A2_of Vk Cert.KernelIdeal.main_arg25).trans (T_A1_of Vk Cert.KernelIdeal.main_arg25)))))))).trans (h_arg25.trans ((T_B8_of Vr Cert.ReferenceIdeal.main_arg25).trans ((T_B7_of Vr Cert.ReferenceIdeal.main_arg25).trans ((T_B6_of Vr Cert.ReferenceIdeal.main_arg25).trans ((T_B5_of Vr Cert.ReferenceIdeal.main_arg25).trans ((T_B4_of Vr Cert.ReferenceIdeal.main_arg25).trans ((T_B3_of Vr Cert.ReferenceIdeal.main_arg25).trans ((T_B2_of Vr Cert.ReferenceIdeal.main_arg25).trans (T_B1_of Vr Cert.ReferenceIdeal.main_arg25)))))))).symm)
  have f8_arg26 := ((T_A8_of Vk Cert.KernelIdeal.main_arg26).trans ((T_A7_of Vk Cert.KernelIdeal.main_arg26).trans ((T_A6_of Vk Cert.KernelIdeal.main_arg26).trans ((T_A5_of Vk Cert.KernelIdeal.main_arg26).trans ((T_A4_of Vk Cert.KernelIdeal.main_arg26).trans ((T_A3_of Vk Cert.KernelIdeal.main_arg26).trans ((T_A2_of Vk Cert.KernelIdeal.main_arg26).trans (T_A1_of Vk Cert.KernelIdeal.main_arg26)))))))).trans (h_arg26.trans ((T_B8_of Vr Cert.ReferenceIdeal.main_arg26).trans ((T_B7_of Vr Cert.ReferenceIdeal.main_arg26).trans ((T_B6_of Vr Cert.ReferenceIdeal.main_arg26).trans ((T_B5_of Vr Cert.ReferenceIdeal.main_arg26).trans ((T_B4_of Vr Cert.ReferenceIdeal.main_arg26).trans ((T_B3_of Vr Cert.ReferenceIdeal.main_arg26).trans ((T_B2_of Vr Cert.ReferenceIdeal.main_arg26).trans (T_B1_of Vr Cert.ReferenceIdeal.main_arg26)))))))).symm)
  have f9_v277 := T_s8_v277 (T_A8 Vk) (T_B8 Vr) f8_arg25 f8_v273 f8_arg26
  have f10_v278 := T_s9_v278 (T_A9 Vk) (T_B9 Vr) f9_v277
  have f10_arg27 := ((T_A10_of Vk Cert.KernelIdeal.main_arg27).trans ((T_A9_of Vk Cert.KernelIdeal.main_arg27).trans ((T_A8_of Vk Cert.KernelIdeal.main_arg27).trans ((T_A7_of Vk Cert.KernelIdeal.main_arg27).trans ((T_A6_of Vk Cert.KernelIdeal.main_arg27).trans ((T_A5_of Vk Cert.KernelIdeal.main_arg27).trans ((T_A4_of Vk Cert.KernelIdeal.main_arg27).trans ((T_A3_of Vk Cert.KernelIdeal.main_arg27).trans ((T_A2_of Vk Cert.KernelIdeal.main_arg27).trans (T_A1_of Vk Cert.KernelIdeal.main_arg27)))))))))).trans (h_arg27.trans ((T_B10_of Vr Cert.ReferenceIdeal.main_arg27).trans ((T_B9_of Vr Cert.ReferenceIdeal.main_arg27).trans ((T_B8_of Vr Cert.ReferenceIdeal.main_arg27).trans ((T_B7_of Vr Cert.ReferenceIdeal.main_arg27).trans ((T_B6_of Vr Cert.ReferenceIdeal.main_arg27).trans ((T_B5_of Vr Cert.ReferenceIdeal.main_arg27).trans ((T_B4_of Vr Cert.ReferenceIdeal.main_arg27).trans ((T_B3_of Vr Cert.ReferenceIdeal.main_arg27).trans ((T_B2_of Vr Cert.ReferenceIdeal.main_arg27).trans (T_B1_of Vr Cert.ReferenceIdeal.main_arg27)))))))))).symm)
  have f10_arg28 := ((T_A10_of Vk Cert.KernelIdeal.main_arg28).trans ((T_A9_of Vk Cert.KernelIdeal.main_arg28).trans ((T_A8_of Vk Cert.KernelIdeal.main_arg28).trans ((T_A7_of Vk Cert.KernelIdeal.main_arg28).trans ((T_A6_of Vk Cert.KernelIdeal.main_arg28).trans ((T_A5_of Vk Cert.KernelIdeal.main_arg28).trans ((T_A4_of Vk Cert.KernelIdeal.main_arg28).trans ((T_A3_of Vk Cert.KernelIdeal.main_arg28).trans ((T_A2_of Vk Cert.KernelIdeal.main_arg28).trans (T_A1_of Vk Cert.KernelIdeal.main_arg28)))))))))).trans (h_arg28.trans ((T_B10_of Vr Cert.ReferenceIdeal.main_arg28).trans ((T_B9_of Vr Cert.ReferenceIdeal.main_arg28).trans ((T_B8_of Vr Cert.ReferenceIdeal.main_arg28).trans ((T_B7_of Vr Cert.ReferenceIdeal.main_arg28).trans ((T_B6_of Vr Cert.ReferenceIdeal.main_arg28).trans ((T_B5_of Vr Cert.ReferenceIdeal.main_arg28).trans ((T_B4_of Vr Cert.ReferenceIdeal.main_arg28).trans ((T_B3_of Vr Cert.ReferenceIdeal.main_arg28).trans ((T_B2_of Vr Cert.ReferenceIdeal.main_arg28).trans (T_B1_of Vr Cert.ReferenceIdeal.main_arg28)))))))))).symm)
  have f11_v282 := T_s10_v282 (T_A10 Vk) (T_B10 Vr) f10_arg27 f10_v278 f10_arg28
  have f12_v283 := T_s11_v283 (T_A11 Vk) (T_B11 Vr) f11_v282
  have f12_arg29 := ((T_A12_of Vk Cert.KernelIdeal.main_arg29).trans ((T_A11_of Vk Cert.KernelIdeal.main_arg29).trans ((T_A10_of Vk Cert.KernelIdeal.main_arg29).trans ((T_A9_of Vk Cert.KernelIdeal.main_arg29).trans ((T_A8_of Vk Cert.KernelIdeal.main_arg29).trans ((T_A7_of Vk Cert.KernelIdeal.main_arg29).trans ((T_A6_of Vk Cert.KernelIdeal.main_arg29).trans ((T_A5_of Vk Cert.KernelIdeal.main_arg29).trans ((T_A4_of Vk Cert.KernelIdeal.main_arg29).trans ((T_A3_of Vk Cert.KernelIdeal.main_arg29).trans ((T_A2_of Vk Cert.KernelIdeal.main_arg29).trans (T_A1_of Vk Cert.KernelIdeal.main_arg29)))))))))))).trans (h_arg29.trans ((T_B12_of Vr Cert.ReferenceIdeal.main_arg29).trans ((T_B11_of Vr Cert.ReferenceIdeal.main_arg29).trans ((T_B10_of Vr Cert.ReferenceIdeal.main_arg29).trans ((T_B9_of Vr Cert.ReferenceIdeal.main_arg29).trans ((T_B8_of Vr Cert.ReferenceIdeal.main_arg29).trans ((T_B7_of Vr Cert.ReferenceIdeal.main_arg29).trans ((T_B6_of Vr Cert.ReferenceIdeal.main_arg29).trans ((T_B5_of Vr Cert.ReferenceIdeal.main_arg29).trans ((T_B4_of Vr Cert.ReferenceIdeal.main_arg29).trans ((T_B3_of Vr Cert.ReferenceIdeal.main_arg29).trans ((T_B2_of Vr Cert.ReferenceIdeal.main_arg29).trans (T_B1_of Vr Cert.ReferenceIdeal.main_arg29)))))))))))).symm)
  have f12_arg30 := ((T_A12_of Vk Cert.KernelIdeal.main_arg30).trans ((T_A11_of Vk Cert.KernelIdeal.main_arg30).trans ((T_A10_of Vk Cert.KernelIdeal.main_arg30).trans ((T_A9_of Vk Cert.KernelIdeal.main_arg30).trans ((T_A8_of Vk Cert.KernelIdeal.main_arg30).trans ((T_A7_of Vk Cert.KernelIdeal.main_arg30).trans ((T_A6_of Vk Cert.KernelIdeal.main_arg30).trans ((T_A5_of Vk Cert.KernelIdeal.main_arg30).trans ((T_A4_of Vk Cert.KernelIdeal.main_arg30).trans ((T_A3_of Vk Cert.KernelIdeal.main_arg30).trans ((T_A2_of Vk Cert.KernelIdeal.main_arg30).trans (T_A1_of Vk Cert.KernelIdeal.main_arg30)))))))))))).trans (h_arg30.trans ((T_B12_of Vr Cert.ReferenceIdeal.main_arg30).trans ((T_B11_of Vr Cert.ReferenceIdeal.main_arg30).trans ((T_B10_of Vr Cert.ReferenceIdeal.main_arg30).trans ((T_B9_of Vr Cert.ReferenceIdeal.main_arg30).trans ((T_B8_of Vr Cert.ReferenceIdeal.main_arg30).trans ((T_B7_of Vr Cert.ReferenceIdeal.main_arg30).trans ((T_B6_of Vr Cert.ReferenceIdeal.main_arg30).trans ((T_B5_of Vr Cert.ReferenceIdeal.main_arg30).trans ((T_B4_of Vr Cert.ReferenceIdeal.main_arg30).trans ((T_B3_of Vr Cert.ReferenceIdeal.main_arg30).trans ((T_B2_of Vr Cert.ReferenceIdeal.main_arg30).trans (T_B1_of Vr Cert.ReferenceIdeal.main_arg30)))))))))))).symm)
  have f12_v238 := ((T_A12_of Vk Cert.KernelIdeal.main_v238).trans ((T_A11_of Vk Cert.KernelIdeal.main_v238).trans ((T_A10_of Vk Cert.KernelIdeal.main_v238).trans ((T_A9_of Vk Cert.KernelIdeal.main_v238).trans ((T_A8_of Vk Cert.KernelIdeal.main_v238).trans ((T_A7_of Vk Cert.KernelIdeal.main_v238).trans ((T_A6_of Vk Cert.KernelIdeal.main_v238).trans ((T_A5_of Vk Cert.KernelIdeal.main_v238).trans ((T_A4_of Vk Cert.KernelIdeal.main_v238).trans ((T_A3_of Vk Cert.KernelIdeal.main_v238).trans (T_A2_of Vk Cert.KernelIdeal.main_v238))))))))))).trans (f1_v238.trans ((T_B12_of Vr Cert.ReferenceIdeal.main_v238).trans ((T_B11_of Vr Cert.ReferenceIdeal.main_v238).trans ((T_B10_of Vr Cert.ReferenceIdeal.main_v238).trans ((T_B9_of Vr Cert.ReferenceIdeal.main_v238).trans ((T_B8_of Vr Cert.ReferenceIdeal.main_v238).trans ((T_B7_of Vr Cert.ReferenceIdeal.main_v238).trans ((T_B6_of Vr Cert.ReferenceIdeal.main_v238).trans ((T_B5_of Vr Cert.ReferenceIdeal.main_v238).trans ((T_B4_of Vr Cert.ReferenceIdeal.main_v238).trans ((T_B3_of Vr Cert.ReferenceIdeal.main_v238).trans (T_B2_of Vr Cert.ReferenceIdeal.main_v238))))))))))).symm)
  have f12_v268 := ((T_A12_of Vk Cert.KernelIdeal.main_v268).trans ((T_A11_of Vk Cert.KernelIdeal.main_v268).trans ((T_A10_of Vk Cert.KernelIdeal.main_v268).trans ((T_A9_of Vk Cert.KernelIdeal.main_v268).trans (T_A8_of Vk Cert.KernelIdeal.main_v268))))).trans (f7_v268.trans ((T_B12_of Vr Cert.ReferenceIdeal.main_v268).trans ((T_B11_of Vr Cert.ReferenceIdeal.main_v268).trans ((T_B10_of Vr Cert.ReferenceIdeal.main_v268).trans ((T_B9_of Vr Cert.ReferenceIdeal.main_v268).trans (T_B8_of Vr Cert.ReferenceIdeal.main_v268))))).symm)
  have f13_v307 := T_s12_v307 (T_A12 Vk) (T_B12 Vr) f12_arg29 f12_v283 f12_arg30 f12_v238 f12_v268
  have f13_v34 := ((T_A13_of Vk Cert.KernelIdeal.main_v34).trans ((T_A12_of Vk Cert.KernelIdeal.main_v34).trans ((T_A11_of Vk Cert.KernelIdeal.main_v34).trans ((T_A10_of Vk Cert.KernelIdeal.main_v34).trans ((T_A9_of Vk Cert.KernelIdeal.main_v34).trans ((T_A8_of Vk Cert.KernelIdeal.main_v34).trans ((T_A7_of Vk Cert.KernelIdeal.main_v34).trans ((T_A6_of Vk Cert.KernelIdeal.main_v34).trans ((T_A5_of Vk Cert.KernelIdeal.main_v34).trans ((T_A4_of Vk Cert.KernelIdeal.main_v34).trans ((T_A3_of Vk Cert.KernelIdeal.main_v34).trans ((T_A2_of Vk Cert.KernelIdeal.main_v34).trans (T_A1_of Vk Cert.KernelIdeal.main_v34))))))))))))).trans (h_v34.trans ((T_B13_of Vr Cert.ReferenceIdeal.main_v34).trans ((T_B12_of Vr Cert.ReferenceIdeal.main_v34).trans ((T_B11_of Vr Cert.ReferenceIdeal.main_v34).trans ((T_B10_of Vr Cert.ReferenceIdeal.main_v34).trans ((T_B9_of Vr Cert.ReferenceIdeal.main_v34).trans ((T_B8_of Vr Cert.ReferenceIdeal.main_v34).trans ((T_B7_of Vr Cert.ReferenceIdeal.main_v34).trans ((T_B6_of Vr Cert.ReferenceIdeal.main_v34).trans ((T_B5_of Vr Cert.ReferenceIdeal.main_v34).trans ((T_B4_of Vr Cert.ReferenceIdeal.main_v34).trans ((T_B3_of Vr Cert.ReferenceIdeal.main_v34).trans ((T_B2_of Vr Cert.ReferenceIdeal.main_v34).trans (T_B1_of Vr Cert.ReferenceIdeal.main_v34))))))))))))).symm)
  have f13_arg13 := ((T_A13_of Vk Cert.KernelIdeal.main_arg13).trans ((T_A12_of Vk Cert.KernelIdeal.main_arg13).trans ((T_A11_of Vk Cert.KernelIdeal.main_arg13).trans ((T_A10_of Vk Cert.KernelIdeal.main_arg13).trans ((T_A9_of Vk Cert.KernelIdeal.main_arg13).trans ((T_A8_of Vk Cert.KernelIdeal.main_arg13).trans ((T_A7_of Vk Cert.KernelIdeal.main_arg13).trans ((T_A6_of Vk Cert.KernelIdeal.main_arg13).trans ((T_A5_of Vk Cert.KernelIdeal.main_arg13).trans ((T_A4_of Vk Cert.KernelIdeal.main_arg13).trans ((T_A3_of Vk Cert.KernelIdeal.main_arg13).trans ((T_A2_of Vk Cert.KernelIdeal.main_arg13).trans (T_A1_of Vk Cert.KernelIdeal.main_arg13))))))))))))).trans (h_arg13.trans ((T_B13_of Vr Cert.ReferenceIdeal.main_arg13).trans ((T_B12_of Vr Cert.ReferenceIdeal.main_arg13).trans ((T_B11_of Vr Cert.ReferenceIdeal.main_arg13).trans ((T_B10_of Vr Cert.ReferenceIdeal.main_arg13).trans ((T_B9_of Vr Cert.ReferenceIdeal.main_arg13).trans ((T_B8_of Vr Cert.ReferenceIdeal.main_arg13).trans ((T_B7_of Vr Cert.ReferenceIdeal.main_arg13).trans ((T_B6_of Vr Cert.ReferenceIdeal.main_arg13).trans ((T_B5_of Vr Cert.ReferenceIdeal.main_arg13).trans ((T_B4_of Vr Cert.ReferenceIdeal.main_arg13).trans ((T_B3_of Vr Cert.ReferenceIdeal.main_arg13).trans ((T_B2_of Vr Cert.ReferenceIdeal.main_arg13).trans (T_B1_of Vr Cert.ReferenceIdeal.main_arg13))))))))))))).symm)
  have f13_arg14 := ((T_A13_of Vk Cert.KernelIdeal.main_arg14).trans ((T_A12_of Vk Cert.KernelIdeal.main_arg14).trans ((T_A11_of Vk Cert.KernelIdeal.main_arg14).trans ((T_A10_of Vk Cert.KernelIdeal.main_arg14).trans ((T_A9_of Vk Cert.KernelIdeal.main_arg14).trans ((T_A8_of Vk Cert.KernelIdeal.main_arg14).trans ((T_A7_of Vk Cert.KernelIdeal.main_arg14).trans ((T_A6_of Vk Cert.KernelIdeal.main_arg14).trans ((T_A5_of Vk Cert.KernelIdeal.main_arg14).trans ((T_A4_of Vk Cert.KernelIdeal.main_arg14).trans ((T_A3_of Vk Cert.KernelIdeal.main_arg14).trans ((T_A2_of Vk Cert.KernelIdeal.main_arg14).trans (T_A1_of Vk Cert.KernelIdeal.main_arg14))))))))))))).trans (h_arg14.trans ((T_B13_of Vr Cert.ReferenceIdeal.main_arg14).trans ((T_B12_of Vr Cert.ReferenceIdeal.main_arg14).trans ((T_B11_of Vr Cert.ReferenceIdeal.main_arg14).trans ((T_B10_of Vr Cert.ReferenceIdeal.main_arg14).trans ((T_B9_of Vr Cert.ReferenceIdeal.main_arg14).trans ((T_B8_of Vr Cert.ReferenceIdeal.main_arg14).trans ((T_B7_of Vr Cert.ReferenceIdeal.main_arg14).trans ((T_B6_of Vr Cert.ReferenceIdeal.main_arg14).trans ((T_B5_of Vr Cert.ReferenceIdeal.main_arg14).trans ((T_B4_of Vr Cert.ReferenceIdeal.main_arg14).trans ((T_B3_of Vr Cert.ReferenceIdeal.main_arg14).trans ((T_B2_of Vr Cert.ReferenceIdeal.main_arg14).trans (T_B1_of Vr Cert.ReferenceIdeal.main_arg14))))))))))))).symm)
  have f13_v226 := ((T_A13_of Vk Cert.KernelIdeal.main_v226).trans ((T_A12_of Vk Cert.KernelIdeal.main_v226).trans ((T_A11_of Vk Cert.KernelIdeal.main_v226).trans ((T_A10_of Vk Cert.KernelIdeal.main_v226).trans ((T_A9_of Vk Cert.KernelIdeal.main_v226).trans ((T_A8_of Vk Cert.KernelIdeal.main_v226).trans ((T_A7_of Vk Cert.KernelIdeal.main_v226).trans ((T_A6_of Vk Cert.KernelIdeal.main_v226).trans ((T_A5_of Vk Cert.KernelIdeal.main_v226).trans ((T_A4_of Vk Cert.KernelIdeal.main_v226).trans ((T_A3_of Vk Cert.KernelIdeal.main_v226).trans (T_A2_of Vk Cert.KernelIdeal.main_v226)))))))))))).trans (f1_v226.trans ((T_B13_of Vr Cert.ReferenceIdeal.main_v226).trans ((T_B12_of Vr Cert.ReferenceIdeal.main_v226).trans ((T_B11_of Vr Cert.ReferenceIdeal.main_v226).trans ((T_B10_of Vr Cert.ReferenceIdeal.main_v226).trans ((T_B9_of Vr Cert.ReferenceIdeal.main_v226).trans ((T_B8_of Vr Cert.ReferenceIdeal.main_v226).trans ((T_B7_of Vr Cert.ReferenceIdeal.main_v226).trans ((T_B6_of Vr Cert.ReferenceIdeal.main_v226).trans ((T_B5_of Vr Cert.ReferenceIdeal.main_v226).trans ((T_B4_of Vr Cert.ReferenceIdeal.main_v226).trans ((T_B3_of Vr Cert.ReferenceIdeal.main_v226).trans (T_B2_of Vr Cert.ReferenceIdeal.main_v226)))))))))))).symm)
  have f14_v317 := T_s13_v317 (T_A13 Vk) (T_B13 Vr) f13_arg13 f13_v307 f13_arg14 f13_v226 f13_v34
  have f14_v307 := (T_A14_of Vk Cert.KernelIdeal.main_v307).trans (f13_v307.trans (T_B14_of Vr Cert.ReferenceIdeal.main_v307).symm)
  rw [T_ch4b_split]
  simp only [StableHlo.after_append]
  exact ⟨f14_v307, f14_v317⟩

end Cert.Bridge

end
-- ==== Proof.Bridge.StationsT.lean ====
import proofs.«104005_j27152783245914_2_alg».proof.Proof.Bridge.SameT
import proofs.«104005_j27152783245914_2_alg».proof.Proof.Bridge.Walk
import proofs.«104005_j27152783245914_2_alg».proof.Proof.Bridge.WalkRef
import Idealize.ShloMosaic.PureOps.Ideal

/-!
# The output and the add vector at the two programs' ends

From the read vector on, both programs run the same operations on the same inputs: the previous read vector, the
controller's head, the add seed and the weight arguments, which neither program changes on the way. So the output and
the add vector agree as soon as the read vectors do.
-/

noncomputable section

namespace Cert.Bridge

open Idealize.ShloMosaic Idealize.ShloMosaic.TcCoe Idealize.SL.Sem Idealize.ShloMosaic.StableHlo
open Cert.KernelIdeal.Hand (W0 W4 W16 W17 W29)
open Cert.ReferenceIdeal.Hand (R0 R4a R4b R6a)

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-! ## The kernel program's side: where the output heads start, and what they find there -/

/-- The kernel program's buffers once the read vector is formed: after region 1 and the four operations that add its
    two partial sums. -/
abbrev T_Vk : Valuation Cert.KernelIdeal.τ Cert.KernelIdeal.sig (Elt Ideal) := StableHlo.after T_kRead (W16 m ρ c)

/-- The kernel program's operations from there to the output and the add vector. -/
abbrev T_Lk : List (HloOp Cert.KernelIdeal.τ Cert.KernelIdeal.sig (Elt Ideal)) :=
  T_k0 ++ Cert.KernelIdeal.Gen.hostOps2_1 ++ Cert.KernelIdeal.Gen.hostOps2_2 ++ Cert.KernelIdeal.Gen.hostOps2_3 ++ Cert.KernelIdeal.Gen.hostOps2_4 ++ Cert.KernelIdeal.Gen.hostOps2_5 ++ Cert.KernelIdeal.Gen.hostOps2_6 ++ Cert.KernelIdeal.Gen.hostOps2_7 ++ Cert.KernelIdeal.Gen.hostOps2_8 ++ Cert.KernelIdeal.Gen.hostOps2_9 ++ Cert.KernelIdeal.Gen.hostOps2_10 ++ Cert.KernelIdeal.Gen.hostOps2_11 ++ T_k12 ++ T_k13

/-- A buffer the four operations do not write holds there what region 1 left. -/
theorem T_Vk_of (r : Ref Cert.KernelIdeal.sig .tc) (h : r ∉ (T_kRead_W : List (Ref Cert.KernelIdeal.sig .tc)) := by decide) :
    T_Vk m ρ c (Proc.devRef .tc r) = W16 m ρ c (Proc.devRef .tc r) :=
  StableHlo.after_of_writes_sub T_kRead _ T_kRead_writes h

/-- The read vector is not touched again in its stretch. -/
theorem T_Vk_read : T_Vk m ρ c (Proc.devRef .tc Cert.KernelIdeal.main_v219) = W17 m ρ c (Proc.devRef .tc Cert.KernelIdeal.main_v219) := by
  show _ = StableHlo.after Cert.KernelIdeal.Gen.hostOps2 (W16 m ρ c) _
  rw [T_hostOps2_split, StableHlo.after_append]
  exact (StableHlo.after_of_writes_sub T_k0 _ T_k0_writes (by decide)).symm

/-- The kernel program's buffers before region 2 are those operations run from there, then the reshape of the write
    weighting to a column. -/
theorem T_W29_eq : W29 m ρ c = StableHlo.after T_kCol (StableHlo.after T_Lk (T_Vk m ρ c)) := by
  show StableHlo.after Cert.KernelIdeal.Gen.hostOps2_12 (StableHlo.after Cert.KernelIdeal.Gen.hostOps2_11 (StableHlo.after Cert.KernelIdeal.Gen.hostOps2_10 (StableHlo.after Cert.KernelIdeal.Gen.hostOps2_9 (StableHlo.after Cert.KernelIdeal.Gen.hostOps2_8 (StableHlo.after Cert.KernelIdeal.Gen.hostOps2_7 (StableHlo.after Cert.KernelIdeal.Gen.hostOps2_6 (StableHlo.after Cert.KernelIdeal.Gen.hostOps2_5 (StableHlo.after Cert.KernelIdeal.Gen.hostOps2_4 (StableHlo.after Cert.KernelIdeal.Gen.hostOps2_3 (StableHlo.after Cert.KernelIdeal.Gen.hostOps2_2 (StableHlo.after Cert.KernelIdeal.Gen.hostOps2_1 (StableHlo.after Cert.KernelIdeal.Gen.hostOps2 (W16 m ρ c))))))))))))) = _
  rw [T_hostOps2_split, T_hostOps2_12_split]
  simp only [StableHlo.after_append]

/-- The closing reshape writes the column only. -/
theorem T_W29_of (r : Ref Cert.KernelIdeal.sig .tc) (h : r ≠ Cert.KernelIdeal.main_v318 := by decide) :
    W29 m ρ c (Proc.devRef .tc r) = StableHlo.after T_Lk (T_Vk m ρ c) (Proc.devRef .tc r) := by
  rw [T_W29_eq]
  simp only [StableHlo.after_cons, StableHlo.after_nil]
  rw [StableHlo.reshape_result_ne]
  exact h

/-- The reference's buffers after its two last chunks before the update are those chunks run as one line. -/
theorem T_R6a_eq : R6a m' c = StableHlo.after (Cert.ReferenceIdeal.Hand.ch4b ++ Cert.ReferenceIdeal.Hand.ch6a) (R4a m' c) := by
  rw [StableHlo.after_append]; rfl

/-! ## The station -/

set_option maxHeartbeats 4000000 in
/-- THE OUTPUT AND THE ADD VECTOR of the two programs agree, given the weight arguments and the previous read vector
    agree at launch, the controller's head and the add seed agree, and the read vectors agree. Each `l_‹x›` below says the
    two programs agree on the live input `x` where the output heads start: it is walked back to where it was formed. -/
theorem st_T (hA4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (hA13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (hA14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (hA15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (hA16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (hA17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (hA18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (hA19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (hA20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (hA21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (hA22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (hA23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (hA24 : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24))
    (hA25 : m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25))
    (hA26 : m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26))
    (hA27 : m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27))
    (hA28 : m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28))
    (hA29 : m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29))
    (hA30 : m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30))
    (h15 : (W4 m ρ c (Proc.devRef .tc Cert.KernelIdeal.main_v15) : FVec Ideal Cert.KernelIdeal.S1x3 .f32) = R0 m' c (Proc.devRef .tc Cert.ReferenceIdeal.main_v15))
    (h34 : (W4 m ρ c (Proc.devRef .tc Cert.KernelIdeal.main_v34) : FVec Ideal Cert.KernelIdeal.S1x20 .f32) = R0 m' c (Proc.devRef .tc Cert.ReferenceIdeal.main_v34))
    (hnrh : (W17 m ρ c (Proc.devRef .tc Cert.KernelIdeal.main_v219) : FVec Ideal Cert.KernelIdeal.S1x20 .f32) = R4a m' c (Proc.devRef .tc Cert.ReferenceIdeal.main_v219)) :
    ((W29 m ρ c (Proc.devRef .tc Cert.KernelIdeal.main_v307) : FVec Ideal Cert.KernelIdeal.S1x325 .f32) = R4b m' c (Proc.devRef .tc Cert.ReferenceIdeal.main_v307))
    ∧ ((W29 m ρ c (Proc.devRef .tc Cert.KernelIdeal.main_v317) : FVec Ideal Cert.KernelIdeal.S1x20 .f32) = R6a m' c (Proc.devRef .tc Cert.ReferenceIdeal.main_v317)) := by
  have l_arg4 := ((T_Vk_of m ρ c Cert.KernelIdeal.main_arg4).trans ((kw_15_16 m ρ c Cert.KernelIdeal.main_arg4).trans ((kw_13_15 m ρ c Cert.KernelIdeal.main_arg4).trans ((kw_10_13 m ρ c Cert.KernelIdeal.main_arg4).trans ((kw_9_10 m ρ c Cert.KernelIdeal.main_arg4).trans ((kw_8_9 m ρ c Cert.KernelIdeal.main_arg4).trans ((kw_4_8 m ρ c Cert.KernelIdeal.main_arg4).trans (kw_0_4 m ρ c Cert.KernelIdeal.main_arg4)))))))).trans (hA4.symm.trans (rk_arg_4a m' c Cert.ReferenceIdeal.main_arg4).symm)
  have l_v219 := (T_Vk_read m ρ c).trans hnrh
  have l_v15 := ((T_Vk_of m ρ c Cert.KernelIdeal.main_v15).trans ((kw_15_16 m ρ c Cert.KernelIdeal.main_v15).trans ((kw_13_15 m ρ c Cert.KernelIdeal.main_v15).trans ((kw_10_13 m ρ c Cert.KernelIdeal.main_v15).trans ((kw_9_10 m ρ c Cert.KernelIdeal.main_v15).trans ((kw_8_9 m ρ c Cert.KernelIdeal.main_v15).trans (kw_4_8 m ρ c Cert.KernelIdeal.main_v15))))))).trans (h15.trans (rk_0_4a m' c Cert.ReferenceIdeal.main_v15).symm)
  have l_v34 := ((T_Vk_of m ρ c Cert.KernelIdeal.main_v34).trans ((kw_15_16 m ρ c Cert.KernelIdeal.main_v34).trans ((kw_13_15 m ρ c Cert.KernelIdeal.main_v34).trans ((kw_10_13 m ρ c Cert.KernelIdeal.main_v34).trans ((kw_9_10 m ρ c Cert.KernelIdeal.main_v34).trans ((kw_8_9 m ρ c Cert.KernelIdeal.main_v34).trans (kw_4_8 m ρ c Cert.KernelIdeal.main_v34))))))).trans (h34.trans (rk_0_4a m' c Cert.ReferenceIdeal.main_v34).symm)
  have l_arg13 := ((T_Vk_of m ρ c Cert.KernelIdeal.main_arg13).trans ((kw_15_16 m ρ c Cert.KernelIdeal.main_arg13).trans ((kw_13_15 m ρ c Cert.KernelIdeal.main_arg13).trans ((kw_10_13 m ρ c Cert.KernelIdeal.main_arg13).trans ((kw_9_10 m ρ c Cert.KernelIdeal.main_arg13).trans ((kw_8_9 m ρ c Cert.KernelIdeal.main_arg13).trans ((kw_4_8 m ρ c Cert.KernelIdeal.main_arg13).trans (kw_0_4 m ρ c Cert.KernelIdeal.main_arg13)))))))).trans (hA13.symm.trans (rk_arg_4a m' c Cert.ReferenceIdeal.main_arg13).symm)
  have l_arg14 := ((T_Vk_of m ρ c Cert.KernelIdeal.main_arg14).trans ((kw_15_16 m ρ c Cert.KernelIdeal.main_arg14).trans ((kw_13_15 m ρ c Cert.KernelIdeal.main_arg14).trans ((kw_10_13 m ρ c Cert.KernelIdeal.main_arg14).trans ((kw_9_10 m ρ c Cert.KernelIdeal.main_arg14).trans ((kw_8_9 m ρ c Cert.KernelIdeal.main_arg14).trans ((kw_4_8 m ρ c Cert.KernelIdeal.main_arg14).trans (kw_0_4 m ρ c Cert.KernelIdeal.main_arg14)))))))).trans (hA14.symm.trans (rk_arg_4a m' c Cert.ReferenceIdeal.main_arg14).symm)
  have l_arg15 := ((T_Vk_of m ρ c Cert.KernelIdeal.main_arg15).trans ((kw_15_16 m ρ c Cert.KernelIdeal.main_arg15).trans ((kw_13_15 m ρ c Cert.KernelIdeal.main_arg15).trans ((kw_10_13 m ρ c Cert.KernelIdeal.main_arg15).trans ((kw_9_10 m ρ c Cert.KernelIdeal.main_arg15).trans ((kw_8_9 m ρ c Cert.KernelIdeal.main_arg15).trans ((kw_4_8 m ρ c Cert.KernelIdeal.main_arg15).trans (kw_0_4 m ρ c Cert.KernelIdeal.main_arg15)))))))).trans (hA15.symm.trans (rk_arg_4a m' c Cert.ReferenceIdeal.main_arg15).symm)
  have l_arg16 := ((T_Vk_of m ρ c Cert.KernelIdeal.main_arg16).trans ((kw_15_16 m ρ c Cert.KernelIdeal.main_arg16).trans ((kw_13_15 m ρ c Cert.KernelIdeal.main_arg16).trans ((kw_10_13 m ρ c Cert.KernelIdeal.main_arg16).trans ((kw_9_10 m ρ c Cert.KernelIdeal.main_arg16).trans ((kw_8_9 m ρ c Cert.KernelIdeal.main_arg16).trans ((kw_4_8 m ρ c Cert.KernelIdeal.main_arg16).trans (kw_0_4 m ρ c Cert.KernelIdeal.main_arg16)))))))).trans (hA16.symm.trans (rk_arg_4a m' c Cert.ReferenceIdeal.main_arg16).symm)
  have l_arg17 := ((T_Vk_of m ρ c Cert.KernelIdeal.main_arg17).trans ((kw_15_16 m ρ c Cert.KernelIdeal.main_arg17).trans ((kw_13_15 m ρ c Cert.KernelIdeal.main_arg17).trans ((kw_10_13 m ρ c Cert.KernelIdeal.main_arg17).trans ((kw_9_10 m ρ c Cert.KernelIdeal.main_arg17).trans ((kw_8_9 m ρ c Cert.KernelIdeal.main_arg17).trans ((kw_4_8 m ρ c Cert.KernelIdeal.main_arg17).trans (kw_0_4 m ρ c Cert.KernelIdeal.main_arg17)))))))).trans (hA17.symm.trans (rk_arg_4a m' c Cert.ReferenceIdeal.main_arg17).symm)
  have l_arg18 := ((T_Vk_of m ρ c Cert.KernelIdeal.main_arg18).trans ((kw_15_16 m ρ c Cert.KernelIdeal.main_arg18).trans ((kw_13_15 m ρ c Cert.KernelIdeal.main_arg18).trans ((kw_10_13 m ρ c Cert.KernelIdeal.main_arg18).trans ((kw_9_10 m ρ c Cert.KernelIdeal.main_arg18).trans ((kw_8_9 m ρ c Cert.KernelIdeal.main_arg18).trans ((kw_4_8 m ρ c Cert.KernelIdeal.main_arg18).trans (kw_0_4 m ρ c Cert.KernelIdeal.main_arg18)))))))).trans (hA18.symm.trans (rk_arg_4a m' c Cert.ReferenceIdeal.main_arg18).symm)
  have l_arg19 := ((T_Vk_of m ρ c Cert.KernelIdeal.main_arg19).trans ((kw_15_16 m ρ c Cert.KernelIdeal.main_arg19).trans ((kw_13_15 m ρ c Cert.KernelIdeal.main_arg19).trans ((kw_10_13 m ρ c Cert.KernelIdeal.main_arg19).trans ((kw_9_10 m ρ c Cert.KernelIdeal.main_arg19).trans ((kw_8_9 m ρ c Cert.KernelIdeal.main_arg19).trans ((kw_4_8 m ρ c Cert.KernelIdeal.main_arg19).trans (kw_0_4 m ρ c Cert.KernelIdeal.main_arg19)))))))).trans (hA19.symm.trans (rk_arg_4a m' c Cert.ReferenceIdeal.main_arg19).symm)
  have l_arg20 := ((T_Vk_of m ρ c Cert.KernelIdeal.main_arg20).trans ((kw_15_16 m ρ c Cert.KernelIdeal.main_arg20).trans ((kw_13_15 m ρ c Cert.KernelIdeal.main_arg20).trans ((kw_10_13 m ρ c Cert.KernelIdeal.main_arg20).trans ((kw_9_10 m ρ c Cert.KernelIdeal.main_arg20).trans ((kw_8_9 m ρ c Cert.KernelIdeal.main_arg20).trans ((kw_4_8 m ρ c Cert.KernelIdeal.main_arg20).trans (kw_0_4 m ρ c Cert.KernelIdeal.main_arg20)))))))).trans (hA20.symm.trans (rk_arg_4a m' c Cert.ReferenceIdeal.main_arg20).symm)
  have l_arg21 := ((T_Vk_of m ρ c Cert.KernelIdeal.main_arg21).trans ((kw_15_16 m ρ c Cert.KernelIdeal.main_arg21).trans ((kw_13_15 m ρ c Cert.KernelIdeal.main_arg21).trans ((kw_10_13 m ρ c Cert.KernelIdeal.main_arg21).trans ((kw_9_10 m ρ c Cert.KernelIdeal.main_arg21).trans ((kw_8_9 m ρ c Cert.KernelIdeal.main_arg21).trans ((kw_4_8 m ρ c Cert.KernelIdeal.main_arg21).trans (kw_0_4 m ρ c Cert.KernelIdeal.main_arg21)))))))).trans (hA21.symm.trans (rk_arg_4a m' c Cert.ReferenceIdeal.main_arg21).symm)
  have l_arg22 := ((T_Vk_of m ρ c Cert.KernelIdeal.main_arg22).trans ((kw_15_16 m ρ c Cert.KernelIdeal.main_arg22).trans ((kw_13_15 m ρ c Cert.KernelIdeal.main_arg22).trans ((kw_10_13 m ρ c Cert.KernelIdeal.main_arg22).trans ((kw_9_10 m ρ c Cert.KernelIdeal.main_arg22).trans ((kw_8_9 m ρ c Cert.KernelIdeal.main_arg22).trans ((kw_4_8 m ρ c Cert.KernelIdeal.main_arg22).trans (kw_0_4 m ρ c Cert.KernelIdeal.main_arg22)))))))).trans (hA22.symm.trans (rk_arg_4a m' c Cert.ReferenceIdeal.main_arg22).symm)
  have l_arg23 := ((T_Vk_of m ρ c Cert.KernelIdeal.main_arg23).trans ((kw_15_16 m ρ c Cert.KernelIdeal.main_arg23).trans ((kw_13_15 m ρ c Cert.KernelIdeal.main_arg23).trans ((kw_10_13 m ρ c Cert.KernelIdeal.main_arg23).trans ((kw_9_10 m ρ c Cert.KernelIdeal.main_arg23).trans ((kw_8_9 m ρ c Cert.KernelIdeal.main_arg23).trans ((kw_4_8 m ρ c Cert.KernelIdeal.main_arg23).trans (kw_0_4 m ρ c Cert.KernelIdeal.main_arg23)))))))).trans (hA23.symm.trans (rk_arg_4a m' c Cert.ReferenceIdeal.main_arg23).symm)
  have l_arg24 := ((T_Vk_of m ρ c Cert.KernelIdeal.main_arg24).trans ((kw_15_16 m ρ c Cert.KernelIdeal.main_arg24).trans ((kw_13_15 m ρ c Cert.KernelIdeal.main_arg24).trans ((kw_10_13 m ρ c Cert.KernelIdeal.main_arg24).trans ((kw_9_10 m ρ c Cert.KernelIdeal.main_arg24).trans ((kw_8_9 m ρ c Cert.KernelIdeal.main_arg24).trans ((kw_4_8 m ρ c Cert.KernelIdeal.main_arg24).trans (kw_0_4 m ρ c Cert.KernelIdeal.main_arg24)))))))).trans (hA24.symm.trans (rk_arg_4a m' c Cert.ReferenceIdeal.main_arg24).symm)
  have l_arg25 := ((T_Vk_of m ρ c Cert.KernelIdeal.main_arg25).trans ((kw_15_16 m ρ c Cert.KernelIdeal.main_arg25).trans ((kw_13_15 m ρ c Cert.KernelIdeal.main_arg25).trans ((kw_10_13 m ρ c Cert.KernelIdeal.main_arg25).trans ((kw_9_10 m ρ c Cert.KernelIdeal.main_arg25).trans ((kw_8_9 m ρ c Cert.KernelIdeal.main_arg25).trans ((kw_4_8 m ρ c Cert.KernelIdeal.main_arg25).trans (kw_0_4 m ρ c Cert.KernelIdeal.main_arg25)))))))).trans (hA25.symm.trans (rk_arg_4a m' c Cert.ReferenceIdeal.main_arg25).symm)
  have l_arg26 := ((T_Vk_of m ρ c Cert.KernelIdeal.main_arg26).trans ((kw_15_16 m ρ c Cert.KernelIdeal.main_arg26).trans ((kw_13_15 m ρ c Cert.KernelIdeal.main_arg26).trans ((kw_10_13 m ρ c Cert.KernelIdeal.main_arg26).trans ((kw_9_10 m ρ c Cert.KernelIdeal.main_arg26).trans ((kw_8_9 m ρ c Cert.KernelIdeal.main_arg26).trans ((kw_4_8 m ρ c Cert.KernelIdeal.main_arg26).trans (kw_0_4 m ρ c Cert.KernelIdeal.main_arg26)))))))).trans (hA26.symm.trans (rk_arg_4a m' c Cert.ReferenceIdeal.main_arg26).symm)
  have l_arg27 := ((T_Vk_of m ρ c Cert.KernelIdeal.main_arg27).trans ((kw_15_16 m ρ c Cert.KernelIdeal.main_arg27).trans ((kw_13_15 m ρ c Cert.KernelIdeal.main_arg27).trans ((kw_10_13 m ρ c Cert.KernelIdeal.main_arg27).trans ((kw_9_10 m ρ c Cert.KernelIdeal.main_arg27).trans ((kw_8_9 m ρ c Cert.KernelIdeal.main_arg27).trans ((kw_4_8 m ρ c Cert.KernelIdeal.main_arg27).trans (kw_0_4 m ρ c Cert.KernelIdeal.main_arg27)))))))).trans (hA27.symm.trans (rk_arg_4a m' c Cert.ReferenceIdeal.main_arg27).symm)
  have l_arg28 := ((T_Vk_of m ρ c Cert.KernelIdeal.main_arg28).trans ((kw_15_16 m ρ c Cert.KernelIdeal.main_arg28).trans ((kw_13_15 m ρ c Cert.KernelIdeal.main_arg28).trans ((kw_10_13 m ρ c Cert.KernelIdeal.main_arg28).trans ((kw_9_10 m ρ c Cert.KernelIdeal.main_arg28).trans ((kw_8_9 m ρ c Cert.KernelIdeal.main_arg28).trans ((kw_4_8 m ρ c Cert.KernelIdeal.main_arg28).trans (kw_0_4 m ρ c Cert.KernelIdeal.main_arg28)))))))).trans (hA28.symm.trans (rk_arg_4a m' c Cert.ReferenceIdeal.main_arg28).symm)
  have l_arg29 := ((T_Vk_of m ρ c Cert.KernelIdeal.main_arg29).trans ((kw_15_16 m ρ c Cert.KernelIdeal.main_arg29).trans ((kw_13_15 m ρ c Cert.KernelIdeal.main_arg29).trans ((kw_10_13 m ρ c Cert.KernelIdeal.main_arg29).trans ((kw_9_10 m ρ c Cert.KernelIdeal.main_arg29).trans ((kw_8_9 m ρ c Cert.KernelIdeal.main_arg29).trans ((kw_4_8 m ρ c Cert.KernelIdeal.main_arg29).trans (kw_0_4 m ρ c Cert.KernelIdeal.main_arg29)))))))).trans (hA29.symm.trans (rk_arg_4a m' c Cert.ReferenceIdeal.main_arg29).symm)
  have l_arg30 := ((T_Vk_of m ρ c Cert.KernelIdeal.main_arg30).trans ((kw_15_16 m ρ c Cert.KernelIdeal.main_arg30).trans ((kw_13_15 m ρ c Cert.KernelIdeal.main_arg30).trans ((kw_10_13 m ρ c Cert.KernelIdeal.main_arg30).trans ((kw_9_10 m ρ c Cert.KernelIdeal.main_arg30).trans ((kw_8_9 m ρ c Cert.KernelIdeal.main_arg30).trans ((kw_4_8 m ρ c Cert.KernelIdeal.main_arg30).trans (kw_0_4 m ρ c Cert.KernelIdeal.main_arg30)))))))).trans (hA30.symm.trans (rk_arg_4a m' c Cert.ReferenceIdeal.main_arg30).symm)
  have hT := T_all (T_Vk m ρ c) (R4a m' c) l_arg4 l_v219 l_v15 l_v34 l_arg13 l_arg14 l_arg15 l_arg16 l_arg17 l_arg18 l_arg19 l_arg20 l_arg21 l_arg22 l_arg23 l_arg24 l_arg25 l_arg26 l_arg27 l_arg28 l_arg29 l_arg30
  rw [← rk_4b_6a m' c Cert.ReferenceIdeal.main_v307, T_W29_of m ρ c Cert.KernelIdeal.main_v307, T_W29_of m ρ c Cert.KernelIdeal.main_v317, T_R6a_eq m' c]
  exact hT

end Cert.Bridge

end
-- ==== Proof.Bridge.FinalK.lean ====
/-
  The kernel program's run, read at the five results and the thirty-one arguments: every weakly fair execution ends;
  each result buffer then holds the last staged contents, and each argument what was launched.
-/
import proofs.«104005_j27152783245914_2_alg».proof.Proof.KI.Args

noncomputable section

namespace Cert.Bridge

open Idealize.ShloMosaic Idealize.ShloMosaic.TcCoe Idealize.SL.Sem
open Cert.KernelIdeal.Hand

variable {F : FTy → Type} [FloatOps F]

/-- The kernel program ends with its five results at the last staged contents and its arguments as launched. -/
theorem kernel_end (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => ∀ c : Dev Cert.KernelIdeal.nD,
      r.2.mem ((c.tc : Thread Cert.KernelIdeal.nD Cert.KernelIdeal.τ).loc Cert.KernelIdeal.main_v307) = Wfin m ρ c (Proc.devRef .tc Cert.KernelIdeal.main_v307)
      ∧ r.2.mem ((c.tc : Thread Cert.KernelIdeal.nD Cert.KernelIdeal.τ).loc Cert.KernelIdeal.main_v157) = Wfin m ρ c (Proc.devRef .tc Cert.KernelIdeal.main_v157)
      ∧ r.2.mem ((c.tc : Thread Cert.KernelIdeal.nD Cert.KernelIdeal.τ).loc Cert.KernelIdeal.main_v214) = Wfin m ρ c (Proc.devRef .tc Cert.KernelIdeal.main_v214)
      ∧ r.2.mem ((c.tc : Thread Cert.KernelIdeal.nD Cert.KernelIdeal.τ).loc Cert.KernelIdeal.main_v319) = Wfin m ρ c (Proc.devRef .tc Cert.KernelIdeal.main_v319)
      ∧ r.2.mem ((c.tc : Thread Cert.KernelIdeal.nD Cert.KernelIdeal.τ).loc Cert.KernelIdeal.main_v219) = Wfin m ρ c (Proc.devRef .tc Cert.KernelIdeal.main_v219)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)) :=
  (θ_run Cert.KernelIdeal.defs _ _).mono (fun r h c =>
    ⟨h c _ (mem_uc Cert.KernelIdeal.main_v307 (by decide)),
     h c _ (mem_uc Cert.KernelIdeal.main_v157 (by decide)),
     h c _ (mem_uc Cert.KernelIdeal.main_v214 (by decide)),
     h c _ (mem_uc Cert.KernelIdeal.main_v319 (by decide)),
     h c _ (mem_uc Cert.KernelIdeal.main_v219 (by decide)),
     (h c _ (mem_uc Cert.KernelIdeal.main_arg0 (by decide))).trans (Wfin_main_arg0 m ρ c),
     (h c _ (mem_uc Cert.KernelIdeal.main_arg1 (by decide))).trans (Wfin_main_arg1 m ρ c),
     (h c _ (mem_uc Cert.KernelIdeal.main_arg2 (by decide))).trans (Wfin_main_arg2 m ρ c),
     (h c _ (mem_uc Cert.KernelIdeal.main_arg3 (by decide))).trans (Wfin_main_arg3 m ρ c),
     (h c _ (mem_uc Cert.KernelIdeal.main_arg4 (by decide))).trans (Wfin_main_arg4 m ρ c),
     (h c _ (mem_uc Cert.KernelIdeal.main_arg5 (by decide))).trans (Wfin_main_arg5 m ρ c),
     (h c _ (mem_uc Cert.KernelIdeal.main_arg6 (by decide))).trans (Wfin_main_arg6 m ρ c),
     (h c _ (mem_uc Cert.KernelIdeal.main_arg7 (by decide))).trans (Wfin_main_arg7 m ρ c),
     (h c _ (mem_uc Cert.KernelIdeal.main_arg8 (by decide))).trans (Wfin_main_arg8 m ρ c),
     (h c _ (mem_uc Cert.KernelIdeal.main_arg9 (by decide))).trans (Wfin_main_arg9 m ρ c),
     (h c _ (mem_uc Cert.KernelIdeal.main_arg10 (by decide))).trans (Wfin_main_arg10 m ρ c),
     (h c _ (mem_uc Cert.KernelIdeal.main_arg11 (by decide))).trans (Wfin_main_arg11 m ρ c),
     (h c _ (mem_uc Cert.KernelIdeal.main_arg12 (by decide))).trans (Wfin_main_arg12 m ρ c),
     (h c _ (mem_uc Cert.KernelIdeal.main_arg13 (by decide))).trans (Wfin_main_arg13 m ρ c),
     (h c _ (mem_uc Cert.KernelIdeal.main_arg14 (by decide))).trans (Wfin_main_arg14 m ρ c),
     (h c _ (mem_uc Cert.KernelIdeal.main_arg15 (by decide))).trans (Wfin_main_arg15 m ρ c),
     (h c _ (mem_uc Cert.KernelIdeal.main_arg16 (by decide))).trans (Wfin_main_arg16 m ρ c),
     (h c _ (mem_uc Cert.KernelIdeal.main_arg17 (by decide))).trans (Wfin_main_arg17 m ρ c),
     (h c _ (mem_uc Cert.KernelIdeal.main_arg18 (by decide))).trans (Wfin_main_arg18 m ρ c),
     (h c _ (mem_uc Cert.KernelIdeal.main_arg19 (by decide))).trans (Wfin_main_arg19 m ρ c),
     (h c _ (mem_uc Cert.KernelIdeal.main_arg20 (by decide))).trans (Wfin_main_arg20 m ρ c),
     (h c _ (mem_uc Cert.KernelIdeal.main_arg21 (by decide))).trans (Wfin_main_arg21 m ρ c),
     (h c _ (mem_uc Cert.KernelIdeal.main_arg22 (by decide))).trans (Wfin_main_arg22 m ρ c),
     (h c _ (mem_uc Cert.KernelIdeal.main_arg23 (by decide))).trans (Wfin_main_arg23 m ρ c),
     (h c _ (mem_uc Cert.KernelIdeal.main_arg24 (by decide))).trans (Wfin_main_arg24 m ρ c),
     (h c _ (mem_uc Cert.KernelIdeal.main_arg25 (by decide))).trans (Wfin_main_arg25 m ρ c),
     (h c _ (mem_uc Cert.KernelIdeal.main_arg26 (by decide))).trans (Wfin_main_arg26 m ρ c),
     (h c _ (mem_uc Cert.KernelIdeal.main_arg27 (by decide))).trans (Wfin_main_arg27 m ρ c),
     (h c _ (mem_uc Cert.KernelIdeal.main_arg28 (by decide))).trans (Wfin_main_arg28 m ρ c),
     (h c _ (mem_uc Cert.KernelIdeal.main_arg29 (by decide))).trans (Wfin_main_arg29 m ρ c),
     (h c _ (mem_uc Cert.KernelIdeal.main_arg30 (by decide))).trans (Wfin_main_arg30 m ρ c)⟩)
    (run_all (F := F) m ρ)

end Cert.Bridge

end
-- ==== Proof.Bridge.FinalR.lean ====
/-
  The reference program's run, read at the five results and the thirty-one arguments: every weakly fair execution
  ends; each result buffer then holds the last staged contents, and each argument what was launched.
-/
import proofs.«104005_j27152783245914_2_alg».proof.Proof.Ref.Run
import proofs.«104005_j27152783245914_2_alg».proof.Proof.Bridge.WalkRef

noncomputable section

namespace Cert.Bridge

open Idealize.ShloMosaic Idealize.ShloMosaic.TcCoe Idealize.SL.Sem Idealize.ShloMosaic.StableHlo
open Cert.ReferenceIdeal.Hand

variable {F : FTy → Type} [FloatOps F]

/-- The reference program ends with its five results at the last staged contents and its arguments as launched. -/
theorem reference_end (m' : (ℓ : Loc Cert.ReferenceIdeal.nD Cert.ReferenceIdeal.τ Cert.ReferenceIdeal.sig) → Buf (Elt F) ℓ) (ρ' : Dev Cert.ReferenceIdeal.nD → PrngReg) :
    θ_run (Cert.ReferenceIdeal.defs (F := F)) (onTc (τ := Cert.ReferenceIdeal.τ) (Cert.ReferenceIdeal.main (F := F))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v307) = R6b m' c (Proc.devRef .tc Cert.ReferenceIdeal.main_v307)
      ∧ r.2.mem ((c.tc : Thread Cert.ReferenceIdeal.nD Cert.ReferenceIdeal.τ).loc Cert.ReferenceIdeal.main_v126) = R6b m' c (Proc.devRef .tc Cert.ReferenceIdeal.main_v126)
      ∧ r.2.mem ((c.tc : Thread Cert.ReferenceIdeal.nD Cert.ReferenceIdeal.τ).loc Cert.ReferenceIdeal.main_v218) = R6b m' c (Proc.devRef .tc Cert.ReferenceIdeal.main_v218)
      ∧ r.2.mem ((c.tc : Thread Cert.ReferenceIdeal.nD Cert.ReferenceIdeal.τ).loc Cert.ReferenceIdeal.main_v325) = R6b m' c (Proc.devRef .tc Cert.ReferenceIdeal.main_v325)
      ∧ r.2.mem ((c.tc : Thread Cert.ReferenceIdeal.nD Cert.ReferenceIdeal.τ).loc Cert.ReferenceIdeal.main_v219) = R6b m' c (Proc.devRef .tc Cert.ReferenceIdeal.main_v219)
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)) :=
  (θ_run Cert.ReferenceIdeal.defs _ _).mono (fun r h c =>
    ⟨(h c Cert.ReferenceIdeal.main_v307).trans (congrFun (after_ops_eq m' c) _),
     (h c Cert.ReferenceIdeal.main_v126).trans (congrFun (after_ops_eq m' c) _),
     (h c Cert.ReferenceIdeal.main_v218).trans (congrFun (after_ops_eq m' c) _),
     (h c Cert.ReferenceIdeal.main_v325).trans (congrFun (after_ops_eq m' c) _),
     (h c Cert.ReferenceIdeal.main_v219).trans (congrFun (after_ops_eq m' c) _),
     ((h c Cert.ReferenceIdeal.main_arg0).trans (congrFun (after_ops_eq m' c) _)).trans (rk_arg m' c Cert.ReferenceIdeal.main_arg0),
     ((h c Cert.ReferenceIdeal.main_arg1).trans (congrFun (after_ops_eq m' c) _)).trans (rk_arg m' c Cert.ReferenceIdeal.main_arg1),
     ((h c Cert.ReferenceIdeal.main_arg2).trans (congrFun (after_ops_eq m' c) _)).trans (rk_arg m' c Cert.ReferenceIdeal.main_arg2),
     ((h c Cert.ReferenceIdeal.main_arg3).trans (congrFun (after_ops_eq m' c) _)).trans (rk_arg m' c Cert.ReferenceIdeal.main_arg3),
     ((h c Cert.ReferenceIdeal.main_arg4).trans (congrFun (after_ops_eq m' c) _)).trans (rk_arg m' c Cert.ReferenceIdeal.main_arg4),
     ((h c Cert.ReferenceIdeal.main_arg5).trans (congrFun (after_ops_eq m' c) _)).trans (rk_arg m' c Cert.ReferenceIdeal.main_arg5),
     ((h c Cert.ReferenceIdeal.main_arg6).trans (congrFun (after_ops_eq m' c) _)).trans (rk_arg m' c Cert.ReferenceIdeal.main_arg6),
     ((h c Cert.ReferenceIdeal.main_arg7).trans (congrFun (after_ops_eq m' c) _)).trans (rk_arg m' c Cert.ReferenceIdeal.main_arg7),
     ((h c Cert.ReferenceIdeal.main_arg8).trans (congrFun (after_ops_eq m' c) _)).trans (rk_arg m' c Cert.ReferenceIdeal.main_arg8),
     ((h c Cert.ReferenceIdeal.main_arg9).trans (congrFun (after_ops_eq m' c) _)).trans (rk_arg m' c Cert.ReferenceIdeal.main_arg9),
     ((h c Cert.ReferenceIdeal.main_arg10).trans (congrFun (after_ops_eq m' c) _)).trans (rk_arg m' c Cert.ReferenceIdeal.main_arg10),
     ((h c Cert.ReferenceIdeal.main_arg11).trans (congrFun (after_ops_eq m' c) _)).trans (rk_arg m' c Cert.ReferenceIdeal.main_arg11),
     ((h c Cert.ReferenceIdeal.main_arg12).trans (congrFun (after_ops_eq m' c) _)).trans (rk_arg m' c Cert.ReferenceIdeal.main_arg12),
     ((h c Cert.ReferenceIdeal.main_arg13).trans (congrFun (after_ops_eq m' c) _)).trans (rk_arg m' c Cert.ReferenceIdeal.main_arg13),
     ((h c Cert.ReferenceIdeal.main_arg14).trans (congrFun (after_ops_eq m' c) _)).trans (rk_arg m' c Cert.ReferenceIdeal.main_arg14),
     ((h c Cert.ReferenceIdeal.main_arg15).trans (congrFun (after_ops_eq m' c) _)).trans (rk_arg m' c Cert.ReferenceIdeal.main_arg15),
     ((h c Cert.ReferenceIdeal.main_arg16).trans (congrFun (after_ops_eq m' c) _)).trans (rk_arg m' c Cert.ReferenceIdeal.main_arg16),
     ((h c Cert.ReferenceIdeal.main_arg17).trans (congrFun (after_ops_eq m' c) _)).trans (rk_arg m' c Cert.ReferenceIdeal.main_arg17),
     ((h c Cert.ReferenceIdeal.main_arg18).trans (congrFun (after_ops_eq m' c) _)).trans (rk_arg m' c Cert.ReferenceIdeal.main_arg18),
     ((h c Cert.ReferenceIdeal.main_arg19).trans (congrFun (after_ops_eq m' c) _)).trans (rk_arg m' c Cert.ReferenceIdeal.main_arg19),
     ((h c Cert.ReferenceIdeal.main_arg20).trans (congrFun (after_ops_eq m' c) _)).trans (rk_arg m' c Cert.ReferenceIdeal.main_arg20),
     ((h c Cert.ReferenceIdeal.main_arg21).trans (congrFun (after_ops_eq m' c) _)).trans (rk_arg m' c Cert.ReferenceIdeal.main_arg21),
     ((h c Cert.ReferenceIdeal.main_arg22).trans (congrFun (after_ops_eq m' c) _)).trans (rk_arg m' c Cert.ReferenceIdeal.main_arg22),
     ((h c Cert.ReferenceIdeal.main_arg23).trans (congrFun (after_ops_eq m' c) _)).trans (rk_arg m' c Cert.ReferenceIdeal.main_arg23),
     ((h c Cert.ReferenceIdeal.main_arg24).trans (congrFun (after_ops_eq m' c) _)).trans (rk_arg m' c Cert.ReferenceIdeal.main_arg24),
     ((h c Cert.ReferenceIdeal.main_arg25).trans (congrFun (after_ops_eq m' c) _)).trans (rk_arg m' c Cert.ReferenceIdeal.main_arg25),
     ((h c Cert.ReferenceIdeal.main_arg26).trans (congrFun (after_ops_eq m' c) _)).trans (rk_arg m' c Cert.ReferenceIdeal.main_arg26),
     ((h c Cert.ReferenceIdeal.main_arg27).trans (congrFun (after_ops_eq m' c) _)).trans (rk_arg m' c Cert.ReferenceIdeal.main_arg27),
     ((h c Cert.ReferenceIdeal.main_arg28).trans (congrFun (after_ops_eq m' c) _)).trans (rk_arg m' c Cert.ReferenceIdeal.main_arg28),
     ((h c Cert.ReferenceIdeal.main_arg29).trans (congrFun (after_ops_eq m' c) _)).trans (rk_arg m' c Cert.ReferenceIdeal.main_arg29),
     ((h c Cert.ReferenceIdeal.main_arg30).trans (congrFun (after_ops_eq m' c) _)).trans (rk_arg m' c Cert.ReferenceIdeal.main_arg30)⟩)
    (run_all (F := F) m' ρ')

end Cert.Bridge

end
-- ==== Proof.Bridge.FinalW.lean ====
/-
  Carrying the results to the end.

  Each result of the two programs is settled at some stage: the output once the last host stretch before the update
  has run, the two weightings after their shift and sharpening, the read vector after the second region. No later
  item of either program writes that buffer, so the equality of the two programs' values at the stage where they are
  settled is their equality at the end: on the kernel's side by the stages' not-written facts back from the last
  contents, on the reference's side likewise through its chunks.
-/
import proofs.«104005_j27152783245914_2_alg».proof.Proof.Bridge.Walk
import proofs.«104005_j27152783245914_2_alg».proof.Proof.Bridge.WalkRef

noncomputable section

namespace Cert.Bridge

open Idealize.ShloMosaic Idealize.ShloMosaic.TcCoe Idealize.SL.Sem
open Cert.KernelIdeal.Hand Cert.ReferenceIdeal.Hand

variable {F : FTy → Type} [FloatOps F]
variable (m : (ℓ : Loc Cert.KernelIdeal.nD Cert.KernelIdeal.τ Cert.KernelIdeal.sig) → Buf (Elt F) ℓ) (ρ : Dev Cert.KernelIdeal.nD → PrngReg)
  (m' : (ℓ : Loc Cert.ReferenceIdeal.nD Cert.ReferenceIdeal.τ Cert.ReferenceIdeal.sig) → Buf (Elt F) ℓ) (c : Dev Cert.KernelIdeal.nD)

/-- The output: equal before the update region, equal at the end. -/
theorem end_out
    (h : (W29 m ρ c (Proc.devRef .tc Cert.KernelIdeal.main_v307) : FVec F Cert.KernelIdeal.S1x325 .f32) = R4b m' c (Proc.devRef .tc Cert.ReferenceIdeal.main_v307)) :
    (Wfin m ρ c (Proc.devRef .tc Cert.KernelIdeal.main_v307) : FVec F Cert.KernelIdeal.S1x325 .f32) = R6b m' c (Proc.devRef .tc Cert.ReferenceIdeal.main_v307) :=
  (kw_29_30 m ρ c Cert.KernelIdeal.main_v307).trans (h.trans (rk_4b_6b m' c Cert.ReferenceIdeal.main_v307).symm)

/-- The read weighting: equal after its sharpening, equal at the end. -/
theorem end_rw
    (h : (W13 m ρ c (Proc.devRef .tc Cert.KernelIdeal.main_v157) : FVec F Cert.KernelIdeal.S1x1000000 .f32) = R1b m' c (Proc.devRef .tc Cert.ReferenceIdeal.main_v126)) :
    (Wfin m ρ c (Proc.devRef .tc Cert.KernelIdeal.main_v157) : FVec F Cert.KernelIdeal.S1x1000000 .f32) = R6b m' c (Proc.devRef .tc Cert.ReferenceIdeal.main_v126) :=
  (kw_29_30 m ρ c Cert.KernelIdeal.main_v157).trans ((kw_17_29 m ρ c Cert.KernelIdeal.main_v157).trans ((kw_16_17 m ρ c Cert.KernelIdeal.main_v157).trans
    ((kw_15_16 m ρ c Cert.KernelIdeal.main_v157).trans ((kw_13_15 m ρ c Cert.KernelIdeal.main_v157).trans
      (h.trans (rk_1b_6b m' c Cert.ReferenceIdeal.main_v126).symm)))))

/-- The write weighting: equal after its sharpening, equal at the end. -/
theorem end_ww
    (h : (W15 m ρ c (Proc.devRef .tc Cert.KernelIdeal.main_v214) : FVec F Cert.KernelIdeal.S1x1000000 .f32) = R3b m' c (Proc.devRef .tc Cert.ReferenceIdeal.main_v218)) :
    (Wfin m ρ c (Proc.devRef .tc Cert.KernelIdeal.main_v214) : FVec F Cert.KernelIdeal.S1x1000000 .f32) = R6b m' c (Proc.devRef .tc Cert.ReferenceIdeal.main_v218) :=
  (kw_29_30 m ρ c Cert.KernelIdeal.main_v214).trans ((kw_17_29 m ρ c Cert.KernelIdeal.main_v214).trans ((kw_16_17 m ρ c Cert.KernelIdeal.main_v214).trans
    ((kw_15_16 m ρ c Cert.KernelIdeal.main_v214).trans
      (h.trans (rk_3b_6b m' c Cert.ReferenceIdeal.main_v218).symm))))

/-- The read vector: equal after the second region, equal at the end. -/
theorem end_read
    (h : (W17 m ρ c (Proc.devRef .tc Cert.KernelIdeal.main_v219) : FVec F Cert.KernelIdeal.S1x20 .f32) = R4a m' c (Proc.devRef .tc Cert.ReferenceIdeal.main_v219)) :
    (Wfin m ρ c (Proc.devRef .tc Cert.KernelIdeal.main_v219) : FVec F Cert.KernelIdeal.S1x20 .f32) = R6b m' c (Proc.devRef .tc Cert.ReferenceIdeal.main_v219) :=
  (kw_29_30 m ρ c Cert.KernelIdeal.main_v219).trans ((kw_17_29 m ρ c Cert.KernelIdeal.main_v219).trans
    (h.trans (rk_4a_6b m' c Cert.ReferenceIdeal.main_v219).symm))

end Cert.Bridge

end
-- ==== Proof.Bridge.FinalA.lean ====
/-
  The two runs joined at the results.

  Given that the kernel program's last staged contents and the reference program's agree at the five results, the two
  programs, each run from its own memory, end with those five results equal and with their arguments as launched:
  the kernel's run ends at its last staged contents, the reference's at its own, and the agreement carries the one to
  the other. Stated for every float model; nothing here looks inside a value.
-/
import proofs.«104005_j27152783245914_2_alg».proof.Proof.Bridge.FinalK
import proofs.«104005_j27152783245914_2_alg».proof.Proof.Bridge.FinalR

noncomputable section

namespace Cert.Bridge

open Idealize.ShloMosaic Idealize.ShloMosaic.TcCoe Idealize.SL.Sem
open Cert.KernelIdeal.Hand Cert.ReferenceIdeal.Hand

variable {F : FTy → Type} [FloatOps F]

set_option maxHeartbeats 4000000 in
/-- From the agreement of the two last staged contents at the five results: both programs run to the end, end with
    those results equal, and leave their arguments as launched. -/
theorem assemble (m : (ℓ : Loc Cert.KernelIdeal.nD Cert.KernelIdeal.τ Cert.KernelIdeal.sig) → Buf (Elt F) ℓ) (g : Dev Cert.KernelIdeal.nD → PrngReg)
    (m' : (ℓ : Loc Cert.ReferenceIdeal.nD Cert.ReferenceIdeal.τ Cert.ReferenceIdeal.sig) → Buf (Elt F) ℓ) (g' : Dev Cert.ReferenceIdeal.nD → PrngReg)
    (res : ∀ c : Dev Cert.KernelIdeal.nD,
      ((Wfin m g c (Proc.devRef .tc Cert.KernelIdeal.main_v307) : FVec F Cert.KernelIdeal.S1x325 .f32) = R6b m' c (Proc.devRef .tc Cert.ReferenceIdeal.main_v307))
      ∧ ((Wfin m g c (Proc.devRef .tc Cert.KernelIdeal.main_v157) : FVec F Cert.KernelIdeal.S1x1000000 .f32) = R6b m' c (Proc.devRef .tc Cert.ReferenceIdeal.main_v126))
      ∧ ((Wfin m g c (Proc.devRef .tc Cert.KernelIdeal.main_v214) : FVec F Cert.KernelIdeal.S1x1000000 .f32) = R6b m' c (Proc.devRef .tc Cert.ReferenceIdeal.main_v218))
      ∧ ((Wfin m g c (Proc.devRef .tc Cert.KernelIdeal.main_v319) : FVec F Cert.KernelIdeal.S1000000x20 .f32) = R6b m' c (Proc.devRef .tc Cert.ReferenceIdeal.main_v325))
      ∧ ((Wfin m g c (Proc.devRef .tc Cert.KernelIdeal.main_v219) : FVec F Cert.KernelIdeal.S1x20 .f32) = R6b m' c (Proc.devRef .tc Cert.ReferenceIdeal.main_v219))) :
    ∃ (v0 : (c : Dev Cert.KernelIdeal.nD) → Buf (Elt F) ((c.tc : Thread Cert.KernelIdeal.nD Cert.KernelIdeal.τ).loc Cert.KernelIdeal.main_v307)) (v1 : (c : Dev Cert.KernelIdeal.nD) → Buf (Elt F) ((c.tc : Thread Cert.KernelIdeal.nD Cert.KernelIdeal.τ).loc Cert.KernelIdeal.main_v157)) (v2 : (c : Dev Cert.KernelIdeal.nD) → Buf (Elt F) ((c.tc : Thread Cert.KernelIdeal.nD Cert.KernelIdeal.τ).loc Cert.KernelIdeal.main_v214)) (v3 : (c : Dev Cert.KernelIdeal.nD) → Buf (Elt F) ((c.tc : Thread Cert.KernelIdeal.nD Cert.KernelIdeal.τ).loc Cert.KernelIdeal.main_v319)) (v4 : (c : Dev Cert.KernelIdeal.nD) → Buf (Elt F) ((c.tc : Thread Cert.KernelIdeal.nD Cert.KernelIdeal.τ).loc Cert.KernelIdeal.main_v219)),
      θ_run (Cert.KernelIdeal.defs (F := F)) (onTc (τ := Cert.KernelIdeal.τ) (Cert.KernelIdeal.main (F := F))) ⟨m, fun _ => 0, g⟩ (fun r => ∀ c : Dev Cert.KernelIdeal.nD,
          r.2.mem ((c.tc : Thread Cert.KernelIdeal.nD Cert.KernelIdeal.τ).loc Cert.KernelIdeal.main_v307) = v0 c
          ∧ r.2.mem ((c.tc : Thread Cert.KernelIdeal.nD Cert.KernelIdeal.τ).loc Cert.KernelIdeal.main_v157) = v1 c
          ∧ r.2.mem ((c.tc : Thread Cert.KernelIdeal.nD Cert.KernelIdeal.τ).loc Cert.KernelIdeal.main_v214) = v2 c
          ∧ r.2.mem ((c.tc : Thread Cert.KernelIdeal.nD Cert.KernelIdeal.τ).loc Cert.KernelIdeal.main_v319) = v3 c
          ∧ r.2.mem ((c.tc : Thread Cert.KernelIdeal.nD Cert.KernelIdeal.τ).loc Cert.KernelIdeal.main_v219) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := F)) (onTc (τ := Cert.ReferenceIdeal.τ) (Cert.ReferenceIdeal.main (F := F))) ⟨m', fun _ => 0, g'⟩ (fun r => ∀ c : Dev Cert.ReferenceIdeal.nD,
          r.2.mem ((c.tc : Thread Cert.ReferenceIdeal.nD Cert.ReferenceIdeal.τ).loc Cert.ReferenceIdeal.main_v307) = v0 c
          ∧ r.2.mem ((c.tc : Thread Cert.ReferenceIdeal.nD Cert.ReferenceIdeal.τ).loc Cert.ReferenceIdeal.main_v126) = v1 c
          ∧ r.2.mem ((c.tc : Thread Cert.ReferenceIdeal.nD Cert.ReferenceIdeal.τ).loc Cert.ReferenceIdeal.main_v218) = v2 c
          ∧ r.2.mem ((c.tc : Thread Cert.ReferenceIdeal.nD Cert.ReferenceIdeal.τ).loc Cert.ReferenceIdeal.main_v325) = v3 c
          ∧ r.2.mem ((c.tc : Thread Cert.ReferenceIdeal.nD Cert.ReferenceIdeal.τ).loc Cert.ReferenceIdeal.main_v219) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)) :=
  ⟨fun c => Wfin m g c (Proc.devRef .tc Cert.KernelIdeal.main_v307), fun c => Wfin m g c (Proc.devRef .tc Cert.KernelIdeal.main_v157),
   fun c => Wfin m g c (Proc.devRef .tc Cert.KernelIdeal.main_v214), fun c => Wfin m g c (Proc.devRef .tc Cert.KernelIdeal.main_v319),
   fun c => Wfin m g c (Proc.devRef .tc Cert.KernelIdeal.main_v219), kernel_end m g,
   (θ_run Cert.ReferenceIdeal.defs _ _).mono (fun r h c =>
     ⟨(h c).1.trans (res c).1.symm, (h c).2.1.trans (res c).2.1.symm, (h c).2.2.1.trans (res c).2.2.1.symm,
      (h c).2.2.2.1.trans (res c).2.2.2.1.symm, (h c).2.2.2.2.1.trans (res c).2.2.2.2.symm, (h c).2.2.2.2.2⟩)
     (reference_end m' g')⟩

end Cert.Bridge

end
-- ==== Proof.Bridge.Final.lean ====
/-
  The kernel program and the reference program compute the same five results.

  From memories that agree on the thirty-one arguments, both programs run to the end and leave their arguments as
  launched; the two runs' posts are proved apart, each in its own program's names. The kernel's run names its last
  staged contents and the reference's run its own; the two agree at the five results stage by stage: the controller
  and the two heads' parameters (the same operations on both sides), the gated addressing weights (the kernel's
  per-row columns against the reference's whole vectors), the shift and the sharpening (the same operations), the
  read vector (one sum over all rows against its split over halves, blocks and rows), the output and the add vector
  (the same operations), and the updated memory (entry by entry). Each result is then carried to the end on both
  sides, no later item writing it, and read off the reference's run. The agreement of the arguments is used by
  projection only: argument K is the K-th conjunct of the hypothesis.
-/
import proofs.«104005_j27152783245914_2_alg».proof.Defs
import proofs.«104005_j27152783245914_2_alg».proof.Proof.Gen.KernelIdeal
import proofs.«104005_j27152783245914_2_alg».proof.Proof.Gen.ReferenceIdeal
import proofs.«104005_j27152783245914_2_alg».proof.Proof.Gen.Pre_finite_inputs
import proofs.«104005_j27152783245914_2_alg».proof.Proof.Bridge.StationsF
import proofs.«104005_j27152783245914_2_alg».proof.Proof.Bridge.StationsG
import proofs.«104005_j27152783245914_2_alg».proof.Proof.Bridge.StationsH
import proofs.«104005_j27152783245914_2_alg».proof.Proof.Bridge.StationsS
import proofs.«104005_j27152783245914_2_alg».proof.Proof.Bridge.StationsT
import proofs.«104005_j27152783245914_2_alg».proof.Proof.Bridge.FinalK
import proofs.«104005_j27152783245914_2_alg».proof.Proof.Bridge.FinalR
import proofs.«104005_j27152783245914_2_alg».proof.Proof.Bridge.FinalW
import proofs.«104005_j27152783245914_2_alg».proof.Proof.Bridge.FinalA

noncomputable section

namespace Cert.Bridge

open Idealize.ShloMosaic Idealize.ShloMosaic.TcCoe Idealize.SL.Sem Idealize.ShloMosaic.StableHlo
open Cert.KernelIdeal.Hand Cert.ReferenceIdeal.Hand

set_option maxHeartbeats 4000000 in
/-- From memories agreeing on the arguments both programs run to the end, leave their arguments as launched, and end
    with the five results equal. The agreement at the results is one term: each station applied to the argument
    equations it needs (projections of the hypothesis) and to the stations before it, then carried to the end. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  exact assemble (F := Ideal) m ρ m' ρ' (fun c =>
  ⟨end_out m ρ m' c (st_T m ρ m' c (hagree c).2.2.2.2.1 (hagree c).2.2.2.2.2.2.2.2.2.2.2.2.2.1 (hagree c).2.2.2.2.2.2.2.2.2.2.2.2.2.2.1 (hagree c).2.2.2.2.2.2.2.2.2.2.2.2.2.2.2.1 (hagree c).2.2.2.2.2.2.2.2.2.2.2.2.2.2.2.2.1 (hagree c).2.2.2.2.2.2.2.2.2.2.2.2.2.2.2.2.2.1 (hagree c).2.2.2.2.2.2.2.2.2.2.2.2.2.2.2.2.2.2.1 (hagree c).2.2.2.2.2.2.2.2.2.2.2.2.2.2.2.2.2.2.2.1 (hagree c).2.2.2.2.2.2.2.2.2.2.2.2.2.2.2.2.2.2.2.2.1 (hagree c).2.2.2.2.2.2.2.2.2.2.2.2.2.2.2.2.2.2.2.2.2.1 (hagree c).2.2.2.2.2.2.2.2.2.2.2.2.2.2.2.2.2.2.2.2.2.2.1 (hagree c).2.2.2.2.2.2.2.2.2.2.2.2.2.2.2.2.2.2.2.2.2.2.2.1 (hagree c).2.2.2.2.2.2.2.2.2.2.2.2.2.2.2.2.2.2.2.2.2.2.2.2.1 (hagree c).2.2.2.2.2.2.2.2.2.2.2.2.2.2.2.2.2.2.2.2.2.2.2.2.2.1 (hagree c).2.2.2.2.2.2.2.2.2.2.2.2.2.2.2.2.2.2.2.2.2.2.2.2.2.2.1 (hagree c).2.2.2.2.2.2.2.2.2.2.2.2.2.2.2.2.2.2.2.2.2.2.2.2.2.2.2.1 (hagree c).2.2.2.2.2.2.2.2.2.2.2.2.2.2.2.2.2.2.2.2.2.2.2.2.2.2.2.2.1 (hagree c).2.2.2.2.2.2.2.2.2.2.2.2.2.2.2.2.2.2.2.2.2.2.2.2.2.2.2.2.2.1 (hagree c).2.2.2.2.2.2.2.2.2.2.2.2.2.2.2.2.2.2.2.2.2.2.2.2.2.2.2.2.2.2 (st_P_all m ρ m' c (hagree c).1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1).1 (st_P_all m ρ m' c (hagree c).1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1).2.2.2.1 (st_nrh_of_arg3 m ρ m' c (hagree c).2.2.2.1 (st_rw m ρ m' c (st_wg_r m ρ m' c (hagree c).2.2.2.1 (hagree c).2.1 (st_P_all m ρ m' c (hagree c).1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1).2.2.2.2.1 (st_P_all m ρ m' c (hagree c).1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1).2.2.2.2.2.1 (st_P_all m ρ m' c (hagree c).1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1).2.2.2.2.2.2.2.2 (st_ke_r m ρ c)) (st_P_all m ρ m' c (hagree c).1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1).2.2.2.2.2.2.1 (st_P_all m ρ m' c (hagree c).1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1).2.2.2.2.2.2.2.1))).1,
   end_rw m ρ m' c (st_rw m ρ m' c (st_wg_r m ρ m' c (hagree c).2.2.2.1 (hagree c).2.1 (st_P_all m ρ m' c (hagree c).1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1).2.2.2.2.1 (st_P_all m ρ m' c (hagree c).1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1).2.2.2.2.2.1 (st_P_all m ρ m' c (hagree c).1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1).2.2.2.2.2.2.2.2 (st_ke_r m ρ c)) (st_P_all m ρ m' c (hagree c).1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1).2.2.2.2.2.2.1 (st_P_all m ρ m' c (hagree c).1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1).2.2.2.2.2.2.2.1),
   end_ww m ρ m' c (st_ww m ρ m' c (st_wg_w m ρ m' c (hagree c).2.2.2.1 (hagree c).2.2.1 (st_Wp67 m ρ m' c (st_P_all m ρ m' c (hagree c).1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1).2.1) (st_Wp73 m ρ m' c (st_P_all m ρ m' c (hagree c).1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1).2.1) (st_Wp92 m ρ m' c (st_P_all m ρ m' c (hagree c).1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1).2.1) (st_ke_w m ρ c)) (st_Wp85 m ρ m' c (st_P_all m ρ m' c (hagree c).1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1).2.1) (st_Wp89 m ρ m' c (st_P_all m ρ m' c (hagree c).1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1).2.1)),
   (st_newmem_of_arg3 m ρ m' c (hagree c).2.2.2.1 (st_ww m ρ m' c (st_wg_w m ρ m' c (hagree c).2.2.2.1 (hagree c).2.2.1 (st_Wp67 m ρ m' c (st_P_all m ρ m' c (hagree c).1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1).2.1) (st_Wp73 m ρ m' c (st_P_all m ρ m' c (hagree c).1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1).2.1) (st_Wp92 m ρ m' c (st_P_all m ρ m' c (hagree c).1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1).2.1) (st_ke_w m ρ c)) (st_Wp85 m ρ m' c (st_P_all m ρ m' c (hagree c).1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1).2.1) (st_Wp89 m ρ m' c (st_P_all m ρ m' c (hagree c).1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1).2.1)) (st_P_all m ρ m' c (hagree c).1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1).2.2.1 (st_T m ρ m' c (hagree c).2.2.2.2.1 (hagree c).2.2.2.2.2.2.2.2.2.2.2.2.2.1 (hagree c).2.2.2.2.2.2.2.2.2.2.2.2.2.2.1 (hagree c).2.2.2.2.2.2.2.2.2.2.2.2.2.2.2.1 (hagree c).2.2.2.2.2.2.2.2.2.2.2.2.2.2.2.2.1 (hagree c).2.2.2.2.2.2.2.2.2.2.2.2.2.2.2.2.2.1 (hagree c).2.2.2.2.2.2.2.2.2.2.2.2.2.2.2.2.2.2.1 (hagree c).2.2.2.2.2.2.2.2.2.2.2.2.2.2.2.2.2.2.2.1 (hagree c).2.2.2.2.2.2.2.2.2.2.2.2.2.2.2.2.2.2.2.2.1 (hagree c).2.2.2.2.2.2.2.2.2.2.2.2.2.2.2.2.2.2.2.2.2.1 (hagree c).2.2.2.2.2.2.2.2.2.2.2.2.2.2.2.2.2.2.2.2.2.2.1 (hagree c).2.2.2.2.2.2.2.2.2.2.2.2.2.2.2.2.2.2.2.2.2.2.2.1 (hagree c).2.2.2.2.2.2.2.2.2.2.2.2.2.2.2.2.2.2.2.2.2.2.2.2.1 (hagree c).2.2.2.2.2.2.2.2.2.2.2.2.2.2.2.2.2.2.2.2.2.2.2.2.2.1 (hagree c).2.2.2.2.2.2.2.2.2.2.2.2.2.2.2.2.2.2.2.2.2.2.2.2.2.2.1 (hagree c).2.2.2.2.2.2.2.2.2.2.2.2.2.2.2.2.2.2.2.2.2.2.2.2.2.2.2.1 (hagree c).2.2.2.2.2.2.2.2.2.2.2.2.2.2.2.2.2.2.2.2.2.2.2.2.2.2.2.2.1 (hagree c).2.2.2.2.2.2.2.2.2.2.2.2.2.2.2.2.2.2.2.2.2.2.2.2.2.2.2.2.2.1 (hagree c).2.2.2.2.2.2.2.2.2.2.2.2.2.2.2.2.2.2.2.2.2.2.2.2.2.2.2.2.2.2 (st_P_all m ρ m' c (hagree c).1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1).1 (st_P_all m ρ m' c (hagree c).1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1).2.2.2.1 (st_nrh_of_arg3 m ρ m' c (hagree c).2.2.2.1 (st_rw m ρ m' c (st_wg_r m ρ m' c (hagree c).2.2.2.1 (hagree c).2.1 (st_P_all m ρ m' c (hagree c).1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1).2.2.2.2.1 (st_P_all m ρ m' c (hagree c).1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1).2.2.2.2.2.1 (st_P_all m ρ m' c (hagree c).1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1).2.2.2.2.2.2.2.2 (st_ke_r m ρ c)) (st_P_all m ρ m' c (hagree c).1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1).2.2.2.2.2.2.1 (st_P_all m ρ m' c (hagree c).1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1).2.2.2.2.2.2.2.1))).2),
   end_read m ρ m' c (st_nrh_of_arg3 m ρ m' c (hagree c).2.2.2.1 (st_rw m ρ m' c (st_wg_r m ρ m' c (hagree c).2.2.2.1 (hagree c).2.1 (st_P_all m ρ m' c (hagree c).1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1).2.2.2.2.1 (st_P_all m ρ m' c (hagree c).1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1).2.2.2.2.2.1 (st_P_all m ρ m' c (hagree c).1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1).2.2.2.2.2.2.2.2 (st_ke_r m ρ c)) (st_P_all m ρ m' c (hagree c).1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1).2.2.2.2.2.2.1 (st_P_all m ρ m' c (hagree c).1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1).2.2.2.2.2.2.2.1))⟩)

end Cert.Bridge

end
-- ==== Proof.lean ====
/- The proof of the certificate's claim.

   The kernel's program is host glue — a small controller, the two heads' parameters, a global softmax, shift and
   sharpening over the N = 1,000,000 memory rows — around three pipelined regions: the per-row features (the norm of
   Memory + eps and its two dot products with the keys), the read vector accumulated over row blocks in two halves, and
   the erase/add update of the memory.  Its run is written by hand for both printed instances over the library's
   theorem for a program of several regions: each region's body is stepped by the symbolic executor, the host
   stretches are folds of their operations, and the final memory is the fold's last valuation.  The reference's run is
   the fold of its 437 operations.  The frames read the argument arrays off the last valuations (nothing writes an
   argument); the value claim compares the two folds stage by stage: the glue that the two programs share word for
   word is compared as composed terms, the addressing on (N,1) columns against (N,) vectors by reading both softmaxes
   as folds over the N rows, the read vector by re-indexing one sum over N rows as a sum over halves, blocks and rows
   in a block, and the update entry by entry (a contraction over an axis of extent one is its single product). -/
import proofs.«104005_j27152783245914_2_alg».proof.Defs
import proofs.«104005_j27152783245914_2_alg».proof.Proof.Gen.Kernel
import proofs.«104005_j27152783245914_2_alg».proof.Proof.Gen.KernelIdeal
import proofs.«104005_j27152783245914_2_alg».proof.Proof.Gen.ReferenceIdeal
import proofs.«104005_j27152783245914_2_alg».proof.Proof.Gen.Pre_finite_inputs
import proofs.«104005_j27152783245914_2_alg».proof.Proof.K.Args
import proofs.«104005_j27152783245914_2_alg».proof.Proof.KI.Args
import proofs.«104005_j27152783245914_2_alg».proof.Proof.Ref.Run
import proofs.«104005_j27152783245914_2_alg».proof.Proof.Bridge.Final
import Idealize.ShloMosaic.Adequacy
import Idealize.ShloMosaic.Init

noncomputable section

namespace Cert.Proof

open Idealize.ShloMosaic Idealize.SL.Sem

/-- The word-level program runs to the end and leaves every argument array as launched: nothing in @main writes one. -/
theorem frame_k : Cert.frame_Kernel (hKernel := Cert.Kernel.Gen.facts) (hPre_finite_inputs := Cert.Pre_finite_inputs.Gen.facts) := fun m ρ _ =>
  (θ_run Cert.Kernel.defs _ _).mono (fun r h c =>
    ⟨(h c _ (Cert.Kernel.Hand.mem_uc Cert.Kernel.main_arg0 (by decide))).trans (Cert.Kernel.Hand.Wfin_main_arg0 m ρ c),
      (h c _ (Cert.Kernel.Hand.mem_uc Cert.Kernel.main_arg1 (by decide))).trans (Cert.Kernel.Hand.Wfin_main_arg1 m ρ c),
      (h c _ (Cert.Kernel.Hand.mem_uc Cert.Kernel.main_arg2 (by decide))).trans (Cert.Kernel.Hand.Wfin_main_arg2 m ρ c),
      (h c _ (Cert.Kernel.Hand.mem_uc Cert.Kernel.main_arg3 (by decide))).trans (Cert.Kernel.Hand.Wfin_main_arg3 m ρ c),
      (h c _ (Cert.Kernel.Hand.mem_uc Cert.Kernel.main_arg4 (by decide))).trans (Cert.Kernel.Hand.Wfin_main_arg4 m ρ c),
      (h c _ (Cert.Kernel.Hand.mem_uc Cert.Kernel.main_arg5 (by decide))).trans (Cert.Kernel.Hand.Wfin_main_arg5 m ρ c),
      (h c _ (Cert.Kernel.Hand.mem_uc Cert.Kernel.main_arg6 (by decide))).trans (Cert.Kernel.Hand.Wfin_main_arg6 m ρ c),
      (h c _ (Cert.Kernel.Hand.mem_uc Cert.Kernel.main_arg7 (by decide))).trans (Cert.Kernel.Hand.Wfin_main_arg7 m ρ c),
      (h c _ (Cert.Kernel.Hand.mem_uc Cert.Kernel.main_arg8 (by decide))).trans (Cert.Kernel.Hand.Wfin_main_arg8 m ρ c),
      (h c _ (Cert.Kernel.Hand.mem_uc Cert.Kernel.main_arg9 (by decide))).trans (Cert.Kernel.Hand.Wfin_main_arg9 m ρ c),
      (h c _ (Cert.Kernel.Hand.mem_uc Cert.Kernel.main_arg10 (by decide))).trans (Cert.Kernel.Hand.Wfin_main_arg10 m ρ c),
      (h c _ (Cert.Kernel.Hand.mem_uc Cert.Kernel.main_arg11 (by decide))).trans (Cert.Kernel.Hand.Wfin_main_arg11 m ρ c),
      (h c _ (Cert.Kernel.Hand.mem_uc Cert.Kernel.main_arg12 (by decide))).trans (Cert.Kernel.Hand.Wfin_main_arg12 m ρ c),
      (h c _ (Cert.Kernel.Hand.mem_uc Cert.Kernel.main_arg13 (by decide))).trans (Cert.Kernel.Hand.Wfin_main_arg13 m ρ c),
      (h c _ (Cert.Kernel.Hand.mem_uc Cert.Kernel.main_arg14 (by decide))).trans (Cert.Kernel.Hand.Wfin_main_arg14 m ρ c),
      (h c _ (Cert.Kernel.Hand.mem_uc Cert.Kernel.main_arg15 (by decide))).trans (Cert.Kernel.Hand.Wfin_main_arg15 m ρ c),
      (h c _ (Cert.Kernel.Hand.mem_uc Cert.Kernel.main_arg16 (by decide))).trans (Cert.Kernel.Hand.Wfin_main_arg16 m ρ c),
      (h c _ (Cert.Kernel.Hand.mem_uc Cert.Kernel.main_arg17 (by decide))).trans (Cert.Kernel.Hand.Wfin_main_arg17 m ρ c),
      (h c _ (Cert.Kernel.Hand.mem_uc Cert.Kernel.main_arg18 (by decide))).trans (Cert.Kernel.Hand.Wfin_main_arg18 m ρ c),
      (h c _ (Cert.Kernel.Hand.mem_uc Cert.Kernel.main_arg19 (by decide))).trans (Cert.Kernel.Hand.Wfin_main_arg19 m ρ c),
      (h c _ (Cert.Kernel.Hand.mem_uc Cert.Kernel.main_arg20 (by decide))).trans (Cert.Kernel.Hand.Wfin_main_arg20 m ρ c),
      (h c _ (Cert.Kernel.Hand.mem_uc Cert.Kernel.main_arg21 (by decide))).trans (Cert.Kernel.Hand.Wfin_main_arg21 m ρ c),
      (h c _ (Cert.Kernel.Hand.mem_uc Cert.Kernel.main_arg22 (by decide))).trans (Cert.Kernel.Hand.Wfin_main_arg22 m ρ c),
      (h c _ (Cert.Kernel.Hand.mem_uc Cert.Kernel.main_arg23 (by decide))).trans (Cert.Kernel.Hand.Wfin_main_arg23 m ρ c),
      (h c _ (Cert.Kernel.Hand.mem_uc Cert.Kernel.main_arg24 (by decide))).trans (Cert.Kernel.Hand.Wfin_main_arg24 m ρ c),
      (h c _ (Cert.Kernel.Hand.mem_uc Cert.Kernel.main_arg25 (by decide))).trans (Cert.Kernel.Hand.Wfin_main_arg25 m ρ c),
      (h c _ (Cert.Kernel.Hand.mem_uc Cert.Kernel.main_arg26 (by decide))).trans (Cert.Kernel.Hand.Wfin_main_arg26 m ρ c),
      (h c _ (Cert.Kernel.Hand.mem_uc Cert.Kernel.main_arg27 (by decide))).trans (Cert.Kernel.Hand.Wfin_main_arg27 m ρ c),
      (h c _ (Cert.Kernel.Hand.mem_uc Cert.Kernel.main_arg28 (by decide))).trans (Cert.Kernel.Hand.Wfin_main_arg28 m ρ c),
      (h c _ (Cert.Kernel.Hand.mem_uc Cert.Kernel.main_arg29 (by decide))).trans (Cert.Kernel.Hand.Wfin_main_arg29 m ρ c),
      (h c _ (Cert.Kernel.Hand.mem_uc Cert.Kernel.main_arg30 (by decide))).trans (Cert.Kernel.Hand.Wfin_main_arg30 m ρ c)⟩)
    (Cert.Kernel.Hand.run_all (F := Bits) m ρ)

/-- The same for the idealized program. -/
theorem frame_ki : Cert.frame_KernelIdeal (hKernelIdeal := Cert.KernelIdeal.Gen.facts) (hPre_finite_inputs := Cert.Pre_finite_inputs.Gen.facts) := fun m ρ _ =>
  (θ_run Cert.KernelIdeal.defs _ _).mono (fun r h c =>
    ⟨(h c _ (Cert.KernelIdeal.Hand.mem_uc Cert.KernelIdeal.main_arg0 (by decide))).trans (Cert.KernelIdeal.Hand.Wfin_main_arg0 m ρ c),
      (h c _ (Cert.KernelIdeal.Hand.mem_uc Cert.KernelIdeal.main_arg1 (by decide))).trans (Cert.KernelIdeal.Hand.Wfin_main_arg1 m ρ c),
      (h c _ (Cert.KernelIdeal.Hand.mem_uc Cert.KernelIdeal.main_arg2 (by decide))).trans (Cert.KernelIdeal.Hand.Wfin_main_arg2 m ρ c),
      (h c _ (Cert.KernelIdeal.Hand.mem_uc Cert.KernelIdeal.main_arg3 (by decide))).trans (Cert.KernelIdeal.Hand.Wfin_main_arg3 m ρ c),
      (h c _ (Cert.KernelIdeal.Hand.mem_uc Cert.KernelIdeal.main_arg4 (by decide))).trans (Cert.KernelIdeal.Hand.Wfin_main_arg4 m ρ c),
      (h c _ (Cert.KernelIdeal.Hand.mem_uc Cert.KernelIdeal.main_arg5 (by decide))).trans (Cert.KernelIdeal.Hand.Wfin_main_arg5 m ρ c),
      (h c _ (Cert.KernelIdeal.Hand.mem_uc Cert.KernelIdeal.main_arg6 (by decide))).trans (Cert.KernelIdeal.Hand.Wfin_main_arg6 m ρ c),
      (h c _ (Cert.KernelIdeal.Hand.mem_uc Cert.KernelIdeal.main_arg7 (by decide))).trans (Cert.KernelIdeal.Hand.Wfin_main_arg7 m ρ c),
      (h c _ (Cert.KernelIdeal.Hand.mem_uc Cert.KernelIdeal.main_arg8 (by decide))).trans (Cert.KernelIdeal.Hand.Wfin_main_arg8 m ρ c),
      (h c _ (Cert.KernelIdeal.Hand.mem_uc Cert.KernelIdeal.main_arg9 (by decide))).trans (Cert.KernelIdeal.Hand.Wfin_main_arg9 m ρ c),
      (h c _ (Cert.KernelIdeal.Hand.mem_uc Cert.KernelIdeal.main_arg10 (by decide))).trans (Cert.KernelIdeal.Hand.Wfin_main_arg10 m ρ c),
      (h c _ (Cert.KernelIdeal.Hand.mem_uc Cert.KernelIdeal.main_arg11 (by decide))).trans (Cert.KernelIdeal.Hand.Wfin_main_arg11 m ρ c),
      (h c _ (Cert.KernelIdeal.Hand.mem_uc Cert.KernelIdeal.main_arg12 (by decide))).trans (Cert.KernelIdeal.Hand.Wfin_main_arg12 m ρ c),
      (h c _ (Cert.KernelIdeal.Hand.mem_uc Cert.KernelIdeal.main_arg13 (by decide))).trans (Cert.KernelIdeal.Hand.Wfin_main_arg13 m ρ c),
      (h c _ (Cert.KernelIdeal.Hand.mem_uc Cert.KernelIdeal.main_arg14 (by decide))).trans (Cert.KernelIdeal.Hand.Wfin_main_arg14 m ρ c),
      (h c _ (Cert.KernelIdeal.Hand.mem_uc Cert.KernelIdeal.main_arg15 (by decide))).trans (Cert.KernelIdeal.Hand.Wfin_main_arg15 m ρ c),
      (h c _ (Cert.KernelIdeal.Hand.mem_uc Cert.KernelIdeal.main_arg16 (by decide))).trans (Cert.KernelIdeal.Hand.Wfin_main_arg16 m ρ c),
      (h c _ (Cert.KernelIdeal.Hand.mem_uc Cert.KernelIdeal.main_arg17 (by decide))).trans (Cert.KernelIdeal.Hand.Wfin_main_arg17 m ρ c),
      (h c _ (Cert.KernelIdeal.Hand.mem_uc Cert.KernelIdeal.main_arg18 (by decide))).trans (Cert.KernelIdeal.Hand.Wfin_main_arg18 m ρ c),
      (h c _ (Cert.KernelIdeal.Hand.mem_uc Cert.KernelIdeal.main_arg19 (by decide))).trans (Cert.KernelIdeal.Hand.Wfin_main_arg19 m ρ c),
      (h c _ (Cert.KernelIdeal.Hand.mem_uc Cert.KernelIdeal.main_arg20 (by decide))).trans (Cert.KernelIdeal.Hand.Wfin_main_arg20 m ρ c),
      (h c _ (Cert.KernelIdeal.Hand.mem_uc Cert.KernelIdeal.main_arg21 (by decide))).trans (Cert.KernelIdeal.Hand.Wfin_main_arg21 m ρ c),
      (h c _ (Cert.KernelIdeal.Hand.mem_uc Cert.KernelIdeal.main_arg22 (by decide))).trans (Cert.KernelIdeal.Hand.Wfin_main_arg22 m ρ c),
      (h c _ (Cert.KernelIdeal.Hand.mem_uc Cert.KernelIdeal.main_arg23 (by decide))).trans (Cert.KernelIdeal.Hand.Wfin_main_arg23 m ρ c),
      (h c _ (Cert.KernelIdeal.Hand.mem_uc Cert.KernelIdeal.main_arg24 (by decide))).trans (Cert.KernelIdeal.Hand.Wfin_main_arg24 m ρ c),
      (h c _ (Cert.KernelIdeal.Hand.mem_uc Cert.KernelIdeal.main_arg25 (by decide))).trans (Cert.KernelIdeal.Hand.Wfin_main_arg25 m ρ c),
      (h c _ (Cert.KernelIdeal.Hand.mem_uc Cert.KernelIdeal.main_arg26 (by decide))).trans (Cert.KernelIdeal.Hand.Wfin_main_arg26 m ρ c),
      (h c _ (Cert.KernelIdeal.Hand.mem_uc Cert.KernelIdeal.main_arg27 (by decide))).trans (Cert.KernelIdeal.Hand.Wfin_main_arg27 m ρ c),
      (h c _ (Cert.KernelIdeal.Hand.mem_uc Cert.KernelIdeal.main_arg28 (by decide))).trans (Cert.KernelIdeal.Hand.Wfin_main_arg28 m ρ c),
      (h c _ (Cert.KernelIdeal.Hand.mem_uc Cert.KernelIdeal.main_arg29 (by decide))).trans (Cert.KernelIdeal.Hand.Wfin_main_arg29 m ρ c),
      (h c _ (Cert.KernelIdeal.Hand.mem_uc Cert.KernelIdeal.main_arg30 (by decide))).trans (Cert.KernelIdeal.Hand.Wfin_main_arg30 m ρ c)⟩)
    (Cert.KernelIdeal.Hand.run_all (F := Ideal) m ρ)

/-- The reference is a straight line of host operations, none of which writes an argument. -/
theorem frame_ri : Cert.frame_ReferenceIdeal (hReferenceIdeal := Cert.ReferenceIdeal.Gen.facts) (hPre_finite_inputs := Cert.Pre_finite_inputs.Gen.facts) := fun m ρ _ =>
  Cert.ReferenceIdeal.Hand.frame_args (F := Ideal) m ρ

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Bridge.algebraic⟩

end Cert.Proof

end
